-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Pre_finite_inputs_ReferenceIdeal.lean ====
abbrev S32768x2048 : Shape := ⟨2, ![32768, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  main_v3
-- ==== Kernel.lean ====
abbrev S16384x2048 : Shape := ⟨2, ![16384, 2048]⟩
abbrev S32768x1024 : Shape := ⟨2, ![32768, 1024]⟩
abbrev S2x256x2048 : Shape := ⟨3, ![2, 256, 2048]⟩
abbrev S3x256x2048 : Shape := ⟨3, ![3, 256, 2048]⟩
abbrev S32x256x1024 : Shape := ⟨3, ![32, 256, 1024]⟩
abbrev S2 : Shape := ⟨1, ![2]⟩
abbrev S3 : Shape := ⟨1, ![3]⟩
abbrev S32 : Shape := ⟨1, ![32]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S256x1024 : Shape := ⟨2, ![256, 1024]⟩
abbrev S1x256x1024 : Shape := ⟨3, ![1, 256, 1024]⟩

abbrev nBuf : Space → Nat
  | .hbm => 2
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S32768x1024, .bf16⟩
  | .local _ .vmem, ⟨0, _⟩ => ⟨S2x256x2048, .f32⟩
  | .local _ .vmem, ⟨1, _⟩ => ⟨S2x256x2048, .f32⟩
  | .local _ .vmem, ⟨2, _⟩ => ⟨S3x256x2048, .bf16⟩
  | .local _ .vmem, ⟨3, _⟩ => ⟨S3x256x2048, .bf16⟩
  | .local _ .vmem, ⟨4, _⟩ => ⟨S32x256x1024, .bf16⟩
  | _, _ => ⟨S16384x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 170 → Bool
  | ⟨i, _⟩ => dmaSemScopedAt i

abbrev sig : RefSig :=
  (ofTc nBuf bufTy 1 170 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let v10 : BitVec 32 := Scalar.addi v8 c0_i32
  let c0_i32_10 : BitVec 32 := 0#32
  ![v10.toNat, 0]
def k0_off2 (d0 : Dev nD) (c0_i32_5 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c8192_i32_4 : BitVec 32 := 8192#32
  let v9 : BitVec 32 := Scalar.muli v7 c8192_i32_4
  let v11 : BitVec 32 := Scalar.addi v9 c0_i32_5
  let c0_i32_15 : BitVec 32 := 0#32
  ![v11.toNat, 0]
def k0_dev1 (d0 : Dev nD) : Nat :=
  let c0_i32_29 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_28 : BitVec 32 := 2#32
  let v35 : BitVec 32 := Scalar.muli v6 c2_i32_28
  let v36 : BitVec 32 := Scalar.addi c0_i32_29 v35
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v37 : BitVec 32 := Scalar.muli v5 c1_i32_30
  let v38 : BitVec 32 := Scalar.addi v36 v37
  v38.toNat
def k0_dev2 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v39 : BitVec 32 := Scalar.muli v2 c2_i32_32
  let v40 : BitVec 32 := Scalar.addi c0_i32_33 v39
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_34 : BitVec 32 := 1#32
  let v41 : BitVec 32 := Scalar.muli v7 c1_i32_34
  let v42 : BitVec 32 := Scalar.addi v40 v41
  v42.toNat
def k0_off3 (d0 : Dev nD) (c0_i32_57 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32 : BitVec 32 := 16384#32
  let v66 : BitVec 32 := Scalar.muli v2 c16384_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let v67 : BitVec 32 := Scalar.addi v66 v8
  let v68 : BitVec 32 := Scalar.addi v67 c0_i32_57
  let c0_i32_63 : BitVec 32 := 0#32
  ![v68.toNat, 0]
def k0_off4 (d0 : Dev nD) : Fin 3 → Nat :=
  let c0_i32_61 : BitVec 32 := 0#32
  let c0_i32_64 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v65 : BitVec 32 := Scalar.muli v2 c1024_i32
  ![0, 0, v65.toNat]
def k0_off5 (d0 : Dev nD) (c0_i32_60 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32_59 : BitVec 32 := 16384#32
  let v70 : BitVec 32 := Scalar.muli v2 c16384_i32_59
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c8192_i32_4 : BitVec 32 := 8192#32
  let v9 : BitVec 32 := Scalar.muli v7 c8192_i32_4
  let v71 : BitVec 32 := Scalar.addi v70 v9
  let v72 : BitVec 32 := Scalar.addi v71 c0_i32_60
  let c0_i32_67 : BitVec 32 := 0#32
  ![v72.toNat, 0]
def k0_off6 (d0 : Dev nD) : Fin 3 → Nat :=
  let c0_i32_70 : BitVec 32 := 0#32
  let c0_i32_79 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_69 : BitVec 32 := 1024#32
  let v83 : BitVec 32 := Scalar.muli v6 c1024_i32_69
  ![0, 0, v83.toNat]
def k0_dev3 (d0 : Dev nD) : Nat :=
  let c0_i32_75 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_74 : BitVec 32 := 2#32
  let v84 : BitVec 32 := Scalar.muli v6 c2_i32_74
  let v85 : BitVec 32 := Scalar.addi c0_i32_75 v84
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v86 : BitVec 32 := Scalar.muli v5 c1_i32_76
  let v87 : BitVec 32 := Scalar.addi v85 v86
  v87.toNat
def k0_off7 (d0 : Dev nD) : Fin 3 → Nat :=
  let c1_i32_118 : BitVec 32 := 1#32
  let c0_i32_121 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_112 : BitVec 32 := 1024#32
  let v130 : BitVec 32 := Scalar.muli v2 c1024_i32_112
  ![1, 0, v130.toNat]
def k0_off8 (d0 : Dev nD) : Fin 3 → Nat :=
  let c1_i32_127 : BitVec 32 := 1#32
  let c0_i32_136 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_126 : BitVec 32 := 1024#32
  let v148 : BitVec 32 := Scalar.muli v6 c1024_i32_126
  ![1, 0, v148.toNat]
def k0_dev4 (d0 : Dev nD) : Nat :=
  let c0_i32_132 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_131 : BitVec 32 := 2#32
  let v149 : BitVec 32 := Scalar.muli v6 c2_i32_131
  let v150 : BitVec 32 := Scalar.addi c0_i32_132 v149
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v151 : BitVec 32 := Scalar.muli v5 c1_i32_133
  let v152 : BitVec 32 := Scalar.addi v150 v151
  v152.toNat
def k0_off9 (d0 : Dev nD) (c0_i32_159 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c16384_i32_158 : BitVec 32 := 16384#32
  let v183 : BitVec 32 := Scalar.muli v6 c16384_i32_158
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v8 : BitVec 32 := Scalar.muli v5 c8192_i32
  let v184 : BitVec 32 := Scalar.addi v183 v8
  let v185 : BitVec 32 := Scalar.addi v184 c0_i32_159
  let c0_i32_162 : BitVec 32 := 0#32
  ![v185.toNat, 0]
def k0_dev5 (d0 : Dev nD) : Nat :=
  let c0_i32_171 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_170 : BitVec 32 := 2#32
  let v194 : BitVec 32 := Scalar.muli v2 c2_i32_170
  let v195 : BitVec 32 := Scalar.addi c0_i32_171 v194
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_172 : BitVec 32 := 1#32
  let v196 : BitVec 32 := Scalar.muli v7 c1_i32_172
  let v197 : BitVec 32 := Scalar.addi v195 v196
  v197.toNat
def k0_off10 (d0 : Dev nD) : Fin 3 → Nat :=
  let c2_i32_203 : BitVec 32 := 2#32
  let c0_i32_206 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_197 : BitVec 32 := 1024#32
  let v227 : BitVec 32 := Scalar.muli v2 c1024_i32_197
  ![2, 0, v227.toNat]
def k0_off11 (d0 : Dev nD) : Fin 3 → Nat :=
  let c2_i32_212 : BitVec 32 := 2#32
  let c0_i32_221 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_211 : BitVec 32 := 1024#32
  let v245 : BitVec 32 := Scalar.muli v6 c1024_i32_211
  ![2, 0, v245.toNat]
def k0_dev6 (d0 : Dev nD) : Nat :=
  let c0_i32_217 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_216 : BitVec 32 := 2#32
  let v246 : BitVec 32 := Scalar.muli v6 c2_i32_216
  let v247 : BitVec 32 := Scalar.addi c0_i32_217 v246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_218 : BitVec 32 := 1#32
  let v248 : BitVec 32 := Scalar.muli v5 c1_i32_218
  let v249 : BitVec 32 := Scalar.addi v247 v248
  v249.toNat
def k0_dev7 (d0 : Dev nD) : Nat :=
  let c0_i32_257 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_256 : BitVec 32 := 2#32
  let v291 : BitVec 32 := Scalar.muli v2 c2_i32_256
  let v292 : BitVec 32 := Scalar.addi c0_i32_257 v291
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_258 : BitVec 32 := 1#32
  let v293 : BitVec 32 := Scalar.muli v7 c1_i32_258
  let v294 : BitVec 32 := Scalar.addi v292 v293
  v294.toNat
def k0_dev8 (d0 : Dev nD) : Nat :=
  let c0_i32_319 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_318 : BitVec 32 := 2#32
  let v359 : BitVec 32 := Scalar.muli v6 c2_i32_318
  let v360 : BitVec 32 := Scalar.addi c0_i32_319 v359
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_320 : BitVec 32 := 1#32
  let v361 : BitVec 32 := Scalar.muli v5 c1_i32_320
  let v362 : BitVec 32 := Scalar.addi v360 v361
  v362.toNat
def k0_dev9 (d0 : Dev nD) : Nat :=
  let c0_i32_358 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_357 : BitVec 32 := 2#32
  let v404 : BitVec 32 := Scalar.muli v2 c2_i32_357
  let v405 : BitVec 32 := Scalar.addi c0_i32_358 v404
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_359 : BitVec 32 := 1#32
  let v406 : BitVec 32 := Scalar.muli v7 c1_i32_359
  let v407 : BitVec 32 := Scalar.addi v405 v406
  v407.toNat
def k0_dev10 (d0 : Dev nD) : Nat :=
  let c0_i32_420 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_419 : BitVec 32 := 2#32
  let v472 : BitVec 32 := Scalar.muli v6 c2_i32_419
  let v473 : BitVec 32 := Scalar.addi c0_i32_420 v472
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_421 : BitVec 32 := 1#32
  let v474 : BitVec 32 := Scalar.muli v5 c1_i32_421
  let v475 : BitVec 32 := Scalar.addi v473 v474
  v475.toNat
def k0_dev11 (d0 : Dev nD) : Nat :=
  let c0_i32_459 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_458 : BitVec 32 := 2#32
  let v517 : BitVec 32 := Scalar.muli v2 c2_i32_458
  let v518 : BitVec 32 := Scalar.addi c0_i32_459 v517
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_460 : BitVec 32 := 1#32
  let v519 : BitVec 32 := Scalar.muli v7 c1_i32_460
  let v520 : BitVec 32 := Scalar.addi v518 v519
  v520.toNat
def k0_dev12 (d0 : Dev nD) : Nat :=
  let c0_i32_521 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_520 : BitVec 32 := 2#32
  let v585 : BitVec 32 := Scalar.muli v6 c2_i32_520
  let v586 : BitVec 32 := Scalar.addi c0_i32_521 v585
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_522 : BitVec 32 := 1#32
  let v587 : BitVec 32 := Scalar.muli v5 c1_i32_522
  let v588 : BitVec 32 := Scalar.addi v586 v587
  v588.toNat
def k0_dev13 (d0 : Dev nD) : Nat :=
  let c0_i32_560 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_559 : BitVec 32 := 2#32
  let v630 : BitVec 32 := Scalar.muli v2 c2_i32_559
  let v631 : BitVec 32 := Scalar.addi c0_i32_560 v630
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_561 : BitVec 32 := 1#32
  let v632 : BitVec 32 := Scalar.muli v7 c1_i32_561
  let v633 : BitVec 32 := Scalar.addi v631 v632
  v633.toNat
def k0_dev14 (d0 : Dev nD) : Nat :=
  let c0_i32_622 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_621 : BitVec 32 := 2#32
  let v698 : BitVec 32 := Scalar.muli v6 c2_i32_621
  let v699 : BitVec 32 := Scalar.addi c0_i32_622 v698
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_623 : BitVec 32 := 1#32
  let v700 : BitVec 32 := Scalar.muli v5 c1_i32_623
  let v701 : BitVec 32 := Scalar.addi v699 v700
  v701.toNat
def k0_dev15 (d0 : Dev nD) : Nat :=
  let c0_i32_661 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_660 : BitVec 32 := 2#32
  let v743 : BitVec 32 := Scalar.muli v2 c2_i32_660
  let v744 : BitVec 32 := Scalar.addi c0_i32_661 v743
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_662 : BitVec 32 := 1#32
  let v745 : BitVec 32 := Scalar.muli v7 c1_i32_662
  let v746 : BitVec 32 := Scalar.addi v744 v745
  v746.toNat
def k0_dev16 (d0 : Dev nD) : Nat :=
  let c0_i32_723 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_722 : BitVec 32 := 2#32
  let v811 : BitVec 32 := Scalar.muli v6 c2_i32_722
  let v812 : BitVec 32 := Scalar.addi c0_i32_723 v811
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_724 : BitVec 32 := 1#32
  let v813 : BitVec 32 := Scalar.muli v5 c1_i32_724
  let v814 : BitVec 32 := Scalar.addi v812 v813
  v814.toNat
def k0_dev17 (d0 : Dev nD) : Nat :=
  let c0_i32_762 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_761 : BitVec 32 := 2#32
  let v856 : BitVec 32 := Scalar.muli v2 c2_i32_761
  let v857 : BitVec 32 := Scalar.addi c0_i32_762 v856
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_763 : BitVec 32 := 1#32
  let v858 : BitVec 32 := Scalar.muli v7 c1_i32_763
  let v859 : BitVec 32 := Scalar.addi v857 v858
  v859.toNat
def k0_dev18 (d0 : Dev nD) : Nat :=
  let c0_i32_824 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_823 : BitVec 32 := 2#32
  let v924 : BitVec 32 := Scalar.muli v6 c2_i32_823
  let v925 : BitVec 32 := Scalar.addi c0_i32_824 v924
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_825 : BitVec 32 := 1#32
  let v926 : BitVec 32 := Scalar.muli v5 c1_i32_825
  let v927 : BitVec 32 := Scalar.addi v925 v926
  v927.toNat
def k0_dev19 (d0 : Dev nD) : Nat :=
  let c0_i32_863 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_862 : BitVec 32 := 2#32
  let v969 : BitVec 32 := Scalar.muli v2 c2_i32_862
  let v970 : BitVec 32 := Scalar.addi c0_i32_863 v969
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_864 : BitVec 32 := 1#32
  let v971 : BitVec 32 := Scalar.muli v7 c1_i32_864
  let v972 : BitVec 32 := Scalar.addi v970 v971
  v972.toNat
def k0_dev20 (d0 : Dev nD) : Nat :=
  let c0_i32_925 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_924 : BitVec 32 := 2#32
  let v1037 : BitVec 32 := Scalar.muli v6 c2_i32_924
  let v1038 : BitVec 32 := Scalar.addi c0_i32_925 v1037
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_926 : BitVec 32 := 1#32
  let v1039 : BitVec 32 := Scalar.muli v5 c1_i32_926
  let v1040 : BitVec 32 := Scalar.addi v1038 v1039
  v1040.toNat
def k0_dev21 (d0 : Dev nD) : Nat :=
  let c0_i32_964 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_963 : BitVec 32 := 2#32
  let v1082 : BitVec 32 := Scalar.muli v2 c2_i32_963
  let v1083 : BitVec 32 := Scalar.addi c0_i32_964 v1082
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_965 : BitVec 32 := 1#32
  let v1084 : BitVec 32 := Scalar.muli v7 c1_i32_965
  let v1085 : BitVec 32 := Scalar.addi v1083 v1084
  v1085.toNat
def k0_dev22 (d0 : Dev nD) : Nat :=
  let c0_i32_1026 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1025 : BitVec 32 := 2#32
  let v1150 : BitVec 32 := Scalar.muli v6 c2_i32_1025
  let v1151 : BitVec 32 := Scalar.addi c0_i32_1026 v1150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1027 : BitVec 32 := 1#32
  let v1152 : BitVec 32 := Scalar.muli v5 c1_i32_1027
  let v1153 : BitVec 32 := Scalar.addi v1151 v1152
  v1153.toNat
def k0_dev23 (d0 : Dev nD) : Nat :=
  let c0_i32_1065 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1064 : BitVec 32 := 2#32
  let v1195 : BitVec 32 := Scalar.muli v2 c2_i32_1064
  let v1196 : BitVec 32 := Scalar.addi c0_i32_1065 v1195
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1066 : BitVec 32 := 1#32
  let v1197 : BitVec 32 := Scalar.muli v7 c1_i32_1066
  let v1198 : BitVec 32 := Scalar.addi v1196 v1197
  v1198.toNat
def k0_dev24 (d0 : Dev nD) : Nat :=
  let c0_i32_1127 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1126 : BitVec 32 := 2#32
  let v1263 : BitVec 32 := Scalar.muli v6 c2_i32_1126
  let v1264 : BitVec 32 := Scalar.addi c0_i32_1127 v1263
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1128 : BitVec 32 := 1#32
  let v1265 : BitVec 32 := Scalar.muli v5 c1_i32_1128
  let v1266 : BitVec 32 := Scalar.addi v1264 v1265
  v1266.toNat
def k0_dev25 (d0 : Dev nD) : Nat :=
  let c0_i32_1166 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1165 : BitVec 32 := 2#32
  let v1308 : BitVec 32 := Scalar.muli v2 c2_i32_1165
  let v1309 : BitVec 32 := Scalar.addi c0_i32_1166 v1308
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1167 : BitVec 32 := 1#32
  let v1310 : BitVec 32 := Scalar.muli v7 c1_i32_1167
  let v1311 : BitVec 32 := Scalar.addi v1309 v1310
  v1311.toNat
def k0_dev26 (d0 : Dev nD) : Nat :=
  let c0_i32_1228 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1227 : BitVec 32 := 2#32
  let v1376 : BitVec 32 := Scalar.muli v6 c2_i32_1227
  let v1377 : BitVec 32 := Scalar.addi c0_i32_1228 v1376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1229 : BitVec 32 := 1#32
  let v1378 : BitVec 32 := Scalar.muli v5 c1_i32_1229
  let v1379 : BitVec 32 := Scalar.addi v1377 v1378
  v1379.toNat
def k0_dev27 (d0 : Dev nD) : Nat :=
  let c0_i32_1267 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1266 : BitVec 32 := 2#32
  let v1421 : BitVec 32 := Scalar.muli v2 c2_i32_1266
  let v1422 : BitVec 32 := Scalar.addi c0_i32_1267 v1421
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1268 : BitVec 32 := 1#32
  let v1423 : BitVec 32 := Scalar.muli v7 c1_i32_1268
  let v1424 : BitVec 32 := Scalar.addi v1422 v1423
  v1424.toNat
def k0_dev28 (d0 : Dev nD) : Nat :=
  let c0_i32_1329 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1328 : BitVec 32 := 2#32
  let v1489 : BitVec 32 := Scalar.muli v6 c2_i32_1328
  let v1490 : BitVec 32 := Scalar.addi c0_i32_1329 v1489
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1330 : BitVec 32 := 1#32
  let v1491 : BitVec 32 := Scalar.muli v5 c1_i32_1330
  let v1492 : BitVec 32 := Scalar.addi v1490 v1491
  v1492.toNat
def k0_dev29 (d0 : Dev nD) : Nat :=
  let c0_i32_1368 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1367 : BitVec 32 := 2#32
  let v1534 : BitVec 32 := Scalar.muli v2 c2_i32_1367
  let v1535 : BitVec 32 := Scalar.addi c0_i32_1368 v1534
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1369 : BitVec 32 := 1#32
  let v1536 : BitVec 32 := Scalar.muli v7 c1_i32_1369
  let v1537 : BitVec 32 := Scalar.addi v1535 v1536
  v1537.toNat
def k0_dev30 (d0 : Dev nD) : Nat :=
  let c0_i32_1430 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1429 : BitVec 32 := 2#32
  let v1602 : BitVec 32 := Scalar.muli v6 c2_i32_1429
  let v1603 : BitVec 32 := Scalar.addi c0_i32_1430 v1602
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1431 : BitVec 32 := 1#32
  let v1604 : BitVec 32 := Scalar.muli v5 c1_i32_1431
  let v1605 : BitVec 32 := Scalar.addi v1603 v1604
  v1605.toNat
def k0_dev31 (d0 : Dev nD) : Nat :=
  let c0_i32_1469 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1468 : BitVec 32 := 2#32
  let v1647 : BitVec 32 := Scalar.muli v2 c2_i32_1468
  let v1648 : BitVec 32 := Scalar.addi c0_i32_1469 v1647
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1470 : BitVec 32 := 1#32
  let v1649 : BitVec 32 := Scalar.muli v7 c1_i32_1470
  let v1650 : BitVec 32 := Scalar.addi v1648 v1649
  v1650.toNat
def k0_dev32 (d0 : Dev nD) : Nat :=
  let c0_i32_1531 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1530 : BitVec 32 := 2#32
  let v1715 : BitVec 32 := Scalar.muli v6 c2_i32_1530
  let v1716 : BitVec 32 := Scalar.addi c0_i32_1531 v1715
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1532 : BitVec 32 := 1#32
  let v1717 : BitVec 32 := Scalar.muli v5 c1_i32_1532
  let v1718 : BitVec 32 := Scalar.addi v1716 v1717
  v1718.toNat
def k0_dev33 (d0 : Dev nD) : Nat :=
  let c0_i32_1570 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1569 : BitVec 32 := 2#32
  let v1760 : BitVec 32 := Scalar.muli v2 c2_i32_1569
  let v1761 : BitVec 32 := Scalar.addi c0_i32_1570 v1760
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1571 : BitVec 32 := 1#32
  let v1762 : BitVec 32 := Scalar.muli v7 c1_i32_1571
  let v1763 : BitVec 32 := Scalar.addi v1761 v1762
  v1763.toNat
def k0_dev34 (d0 : Dev nD) : Nat :=
  let c0_i32_1632 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1631 : BitVec 32 := 2#32
  let v1828 : BitVec 32 := Scalar.muli v6 c2_i32_1631
  let v1829 : BitVec 32 := Scalar.addi c0_i32_1632 v1828
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1633 : BitVec 32 := 1#32
  let v1830 : BitVec 32 := Scalar.muli v5 c1_i32_1633
  let v1831 : BitVec 32 := Scalar.addi v1829 v1830
  v1831.toNat
def k0_dev35 (d0 : Dev nD) : Nat :=
  let c0_i32_1671 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1670 : BitVec 32 := 2#32
  let v1873 : BitVec 32 := Scalar.muli v2 c2_i32_1670
  let v1874 : BitVec 32 := Scalar.addi c0_i32_1671 v1873
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1672 : BitVec 32 := 1#32
  let v1875 : BitVec 32 := Scalar.muli v7 c1_i32_1672
  let v1876 : BitVec 32 := Scalar.addi v1874 v1875
  v1876.toNat
def k0_dev36 (d0 : Dev nD) : Nat :=
  let c0_i32_1733 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1732 : BitVec 32 := 2#32
  let v1941 : BitVec 32 := Scalar.muli v6 c2_i32_1732
  let v1942 : BitVec 32 := Scalar.addi c0_i32_1733 v1941
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1734 : BitVec 32 := 1#32
  let v1943 : BitVec 32 := Scalar.muli v5 c1_i32_1734
  let v1944 : BitVec 32 := Scalar.addi v1942 v1943
  v1944.toNat
def k0_dev37 (d0 : Dev nD) : Nat :=
  let c0_i32_1772 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1771 : BitVec 32 := 2#32
  let v1986 : BitVec 32 := Scalar.muli v2 c2_i32_1771
  let v1987 : BitVec 32 := Scalar.addi c0_i32_1772 v1986
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1773 : BitVec 32 := 1#32
  let v1988 : BitVec 32 := Scalar.muli v7 c1_i32_1773
  let v1989 : BitVec 32 := Scalar.addi v1987 v1988
  v1989.toNat
def k0_dev38 (d0 : Dev nD) : Nat :=
  let c0_i32_1834 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1833 : BitVec 32 := 2#32
  let v2054 : BitVec 32 := Scalar.muli v6 c2_i32_1833
  let v2055 : BitVec 32 := Scalar.addi c0_i32_1834 v2054
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1835 : BitVec 32 := 1#32
  let v2056 : BitVec 32 := Scalar.muli v5 c1_i32_1835
  let v2057 : BitVec 32 := Scalar.addi v2055 v2056
  v2057.toNat
def k0_dev39 (d0 : Dev nD) : Nat :=
  let c0_i32_1873 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1872 : BitVec 32 := 2#32
  let v2099 : BitVec 32 := Scalar.muli v2 c2_i32_1872
  let v2100 : BitVec 32 := Scalar.addi c0_i32_1873 v2099
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1874 : BitVec 32 := 1#32
  let v2101 : BitVec 32 := Scalar.muli v7 c1_i32_1874
  let v2102 : BitVec 32 := Scalar.addi v2100 v2101
  v2102.toNat
def k0_dev40 (d0 : Dev nD) : Nat :=
  let c0_i32_1935 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1934 : BitVec 32 := 2#32
  let v2167 : BitVec 32 := Scalar.muli v6 c2_i32_1934
  let v2168 : BitVec 32 := Scalar.addi c0_i32_1935 v2167
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1936 : BitVec 32 := 1#32
  let v2169 : BitVec 32 := Scalar.muli v5 c1_i32_1936
  let v2170 : BitVec 32 := Scalar.addi v2168 v2169
  v2170.toNat
def k0_dev41 (d0 : Dev nD) : Nat :=
  let c0_i32_1974 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1973 : BitVec 32 := 2#32
  let v2212 : BitVec 32 := Scalar.muli v2 c2_i32_1973
  let v2213 : BitVec 32 := Scalar.addi c0_i32_1974 v2212
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1975 : BitVec 32 := 1#32
  let v2214 : BitVec 32 := Scalar.muli v7 c1_i32_1975
  let v2215 : BitVec 32 := Scalar.addi v2213 v2214
  v2215.toNat
def k0_dev42 (d0 : Dev nD) : Nat :=
  let c0_i32_2036 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2035 : BitVec 32 := 2#32
  let v2280 : BitVec 32 := Scalar.muli v6 c2_i32_2035
  let v2281 : BitVec 32 := Scalar.addi c0_i32_2036 v2280
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2037 : BitVec 32 := 1#32
  let v2282 : BitVec 32 := Scalar.muli v5 c1_i32_2037
  let v2283 : BitVec 32 := Scalar.addi v2281 v2282
  v2283.toNat
def k0_dev43 (d0 : Dev nD) : Nat :=
  let c0_i32_2075 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2074 : BitVec 32 := 2#32
  let v2325 : BitVec 32 := Scalar.muli v2 c2_i32_2074
  let v2326 : BitVec 32 := Scalar.addi c0_i32_2075 v2325
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2076 : BitVec 32 := 1#32
  let v2327 : BitVec 32 := Scalar.muli v7 c1_i32_2076
  let v2328 : BitVec 32 := Scalar.addi v2326 v2327
  v2328.toNat
def k0_dev44 (d0 : Dev nD) : Nat :=
  let c0_i32_2137 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2136 : BitVec 32 := 2#32
  let v2393 : BitVec 32 := Scalar.muli v6 c2_i32_2136
  let v2394 : BitVec 32 := Scalar.addi c0_i32_2137 v2393
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2138 : BitVec 32 := 1#32
  let v2395 : BitVec 32 := Scalar.muli v5 c1_i32_2138
  let v2396 : BitVec 32 := Scalar.addi v2394 v2395
  v2396.toNat
def k0_dev45 (d0 : Dev nD) : Nat :=
  let c0_i32_2176 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2175 : BitVec 32 := 2#32
  let v2438 : BitVec 32 := Scalar.muli v2 c2_i32_2175
  let v2439 : BitVec 32 := Scalar.addi c0_i32_2176 v2438
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2177 : BitVec 32 := 1#32
  let v2440 : BitVec 32 := Scalar.muli v7 c1_i32_2177
  let v2441 : BitVec 32 := Scalar.addi v2439 v2440
  v2441.toNat
def k0_dev46 (d0 : Dev nD) : Nat :=
  let c0_i32_2238 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2237 : BitVec 32 := 2#32
  let v2506 : BitVec 32 := Scalar.muli v6 c2_i32_2237
  let v2507 : BitVec 32 := Scalar.addi c0_i32_2238 v2506
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2239 : BitVec 32 := 1#32
  let v2508 : BitVec 32 := Scalar.muli v5 c1_i32_2239
  let v2509 : BitVec 32 := Scalar.addi v2507 v2508
  v2509.toNat
def k0_dev47 (d0 : Dev nD) : Nat :=
  let c0_i32_2277 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2276 : BitVec 32 := 2#32
  let v2551 : BitVec 32 := Scalar.muli v2 c2_i32_2276
  let v2552 : BitVec 32 := Scalar.addi c0_i32_2277 v2551
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2278 : BitVec 32 := 1#32
  let v2553 : BitVec 32 := Scalar.muli v7 c1_i32_2278
  let v2554 : BitVec 32 := Scalar.addi v2552 v2553
  v2554.toNat
def k0_dev48 (d0 : Dev nD) : Nat :=
  let c0_i32_2339 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2338 : BitVec 32 := 2#32
  let v2619 : BitVec 32 := Scalar.muli v6 c2_i32_2338
  let v2620 : BitVec 32 := Scalar.addi c0_i32_2339 v2619
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2340 : BitVec 32 := 1#32
  let v2621 : BitVec 32 := Scalar.muli v5 c1_i32_2340
  let v2622 : BitVec 32 := Scalar.addi v2620 v2621
  v2622.toNat
def k0_dev49 (d0 : Dev nD) : Nat :=
  let c0_i32_2378 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2377 : BitVec 32 := 2#32
  let v2664 : BitVec 32 := Scalar.muli v2 c2_i32_2377
  let v2665 : BitVec 32 := Scalar.addi c0_i32_2378 v2664
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2379 : BitVec 32 := 1#32
  let v2666 : BitVec 32 := Scalar.muli v7 c1_i32_2379
  let v2667 : BitVec 32 := Scalar.addi v2665 v2666
  v2667.toNat
def k0_dev50 (d0 : Dev nD) : Nat :=
  let c0_i32_2440 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2439 : BitVec 32 := 2#32
  let v2732 : BitVec 32 := Scalar.muli v6 c2_i32_2439
  let v2733 : BitVec 32 := Scalar.addi c0_i32_2440 v2732
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2441 : BitVec 32 := 1#32
  let v2734 : BitVec 32 := Scalar.muli v5 c1_i32_2441
  let v2735 : BitVec 32 := Scalar.addi v2733 v2734
  v2735.toNat
def k0_dev51 (d0 : Dev nD) : Nat :=
  let c0_i32_2479 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2478 : BitVec 32 := 2#32
  let v2777 : BitVec 32 := Scalar.muli v2 c2_i32_2478
  let v2778 : BitVec 32 := Scalar.addi c0_i32_2479 v2777
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2480 : BitVec 32 := 1#32
  let v2779 : BitVec 32 := Scalar.muli v7 c1_i32_2480
  let v2780 : BitVec 32 := Scalar.addi v2778 v2779
  v2780.toNat
def k0_dev52 (d0 : Dev nD) : Nat :=
  let c0_i32_2541 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2540 : BitVec 32 := 2#32
  let v2845 : BitVec 32 := Scalar.muli v6 c2_i32_2540
  let v2846 : BitVec 32 := Scalar.addi c0_i32_2541 v2845
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2542 : BitVec 32 := 1#32
  let v2847 : BitVec 32 := Scalar.muli v5 c1_i32_2542
  let v2848 : BitVec 32 := Scalar.addi v2846 v2847
  v2848.toNat
def k0_dev53 (d0 : Dev nD) : Nat :=
  let c0_i32_2580 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2579 : BitVec 32 := 2#32
  let v2890 : BitVec 32 := Scalar.muli v2 c2_i32_2579
  let v2891 : BitVec 32 := Scalar.addi c0_i32_2580 v2890
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2581 : BitVec 32 := 1#32
  let v2892 : BitVec 32 := Scalar.muli v7 c1_i32_2581
  let v2893 : BitVec 32 := Scalar.addi v2891 v2892
  v2893.toNat
def k0_dev54 (d0 : Dev nD) : Nat :=
  let c0_i32_2642 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2641 : BitVec 32 := 2#32
  let v2958 : BitVec 32 := Scalar.muli v6 c2_i32_2641
  let v2959 : BitVec 32 := Scalar.addi c0_i32_2642 v2958
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2643 : BitVec 32 := 1#32
  let v2960 : BitVec 32 := Scalar.muli v5 c1_i32_2643
  let v2961 : BitVec 32 := Scalar.addi v2959 v2960
  v2961.toNat
def k0_dev55 (d0 : Dev nD) : Nat :=
  let c0_i32_2681 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2680 : BitVec 32 := 2#32
  let v3003 : BitVec 32 := Scalar.muli v2 c2_i32_2680
  let v3004 : BitVec 32 := Scalar.addi c0_i32_2681 v3003
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2682 : BitVec 32 := 1#32
  let v3005 : BitVec 32 := Scalar.muli v7 c1_i32_2682
  let v3006 : BitVec 32 := Scalar.addi v3004 v3005
  v3006.toNat
def k0_dev56 (d0 : Dev nD) : Nat :=
  let c0_i32_2743 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2742 : BitVec 32 := 2#32
  let v3071 : BitVec 32 := Scalar.muli v6 c2_i32_2742
  let v3072 : BitVec 32 := Scalar.addi c0_i32_2743 v3071
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2744 : BitVec 32 := 1#32
  let v3073 : BitVec 32 := Scalar.muli v5 c1_i32_2744
  let v3074 : BitVec 32 := Scalar.addi v3072 v3073
  v3074.toNat
def k0_dev57 (d0 : Dev nD) : Nat :=
  let c0_i32_2782 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2781 : BitVec 32 := 2#32
  let v3116 : BitVec 32 := Scalar.muli v2 c2_i32_2781
  let v3117 : BitVec 32 := Scalar.addi c0_i32_2782 v3116
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2783 : BitVec 32 := 1#32
  let v3118 : BitVec 32 := Scalar.muli v7 c1_i32_2783
  let v3119 : BitVec 32 := Scalar.addi v3117 v3118
  v3119.toNat
def k0_dev58 (d0 : Dev nD) : Nat :=
  let c0_i32_2844 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2843 : BitVec 32 := 2#32
  let v3184 : BitVec 32 := Scalar.muli v6 c2_i32_2843
  let v3185 : BitVec 32 := Scalar.addi c0_i32_2844 v3184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2845 : BitVec 32 := 1#32
  let v3186 : BitVec 32 := Scalar.muli v5 c1_i32_2845
  let v3187 : BitVec 32 := Scalar.addi v3185 v3186
  v3187.toNat
def k0_dev59 (d0 : Dev nD) : Nat :=
  let c0_i32_2883 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2882 : BitVec 32 := 2#32
  let v3229 : BitVec 32 := Scalar.muli v2 c2_i32_2882
  let v3230 : BitVec 32 := Scalar.addi c0_i32_2883 v3229
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2884 : BitVec 32 := 1#32
  let v3231 : BitVec 32 := Scalar.muli v7 c1_i32_2884
  let v3232 : BitVec 32 := Scalar.addi v3230 v3231
  v3232.toNat
def k0_dev60 (d0 : Dev nD) : Nat :=
  let c0_i32_2945 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2944 : BitVec 32 := 2#32
  let v3297 : BitVec 32 := Scalar.muli v6 c2_i32_2944
  let v3298 : BitVec 32 := Scalar.addi c0_i32_2945 v3297
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2946 : BitVec 32 := 1#32
  let v3299 : BitVec 32 := Scalar.muli v5 c1_i32_2946
  let v3300 : BitVec 32 := Scalar.addi v3298 v3299
  v3300.toNat
def k0_dev61 (d0 : Dev nD) : Nat :=
  let c0_i32_2984 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2983 : BitVec 32 := 2#32
  let v3342 : BitVec 32 := Scalar.muli v2 c2_i32_2983
  let v3343 : BitVec 32 := Scalar.addi c0_i32_2984 v3342
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2985 : BitVec 32 := 1#32
  let v3344 : BitVec 32 := Scalar.muli v7 c1_i32_2985
  let v3345 : BitVec 32 := Scalar.addi v3343 v3344
  v3345.toNat
def k0_dev62 (d0 : Dev nD) : Nat :=
  let c0_i32_3046 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3045 : BitVec 32 := 2#32
  let v3410 : BitVec 32 := Scalar.muli v6 c2_i32_3045
  let v3411 : BitVec 32 := Scalar.addi c0_i32_3046 v3410
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3047 : BitVec 32 := 1#32
  let v3412 : BitVec 32 := Scalar.muli v5 c1_i32_3047
  let v3413 : BitVec 32 := Scalar.addi v3411 v3412
  v3413.toNat
def k0_dev63 (d0 : Dev nD) : Nat :=
  let c0_i32_3074 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3073 : BitVec 32 := 2#32
  let v3443 : BitVec 32 := Scalar.muli v2 c2_i32_3073
  let v3444 : BitVec 32 := Scalar.addi c0_i32_3074 v3443
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3075 : BitVec 32 := 1#32
  let v3445 : BitVec 32 := Scalar.muli v7 c1_i32_3075
  let v3446 : BitVec 32 := Scalar.addi v3444 v3445
  v3446.toNat
def k0_dev64 (d0 : Dev nD) : Nat :=
  let c0_i32_3136 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3135 : BitVec 32 := 2#32
  let v3511 : BitVec 32 := Scalar.muli v6 c2_i32_3135
  let v3512 : BitVec 32 := Scalar.addi c0_i32_3136 v3511
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3137 : BitVec 32 := 1#32
  let v3513 : BitVec 32 := Scalar.muli v5 c1_i32_3137
  let v3514 : BitVec 32 := Scalar.addi v3512 v3513
  v3514.toNat
def k0_dev65 (d0 : Dev nD) : Nat :=
  let c0_i32_3164 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3163 : BitVec 32 := 2#32
  let v3544 : BitVec 32 := Scalar.muli v2 c2_i32_3163
  let v3545 : BitVec 32 := Scalar.addi c0_i32_3164 v3544
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3165 : BitVec 32 := 1#32
  let v3546 : BitVec 32 := Scalar.muli v7 c1_i32_3165
  let v3547 : BitVec 32 := Scalar.addi v3545 v3546
  v3547.toNat
def k0_dev66 (d0 : Dev nD) : Nat :=
  let c0_i32_3192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3191 : BitVec 32 := 2#32
  let v3576 : BitVec 32 := Scalar.muli v2 c2_i32_3191
  let v3577 : BitVec 32 := Scalar.addi c0_i32_3192 v3576
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3193 : BitVec 32 := 1#32
  let v3578 : BitVec 32 := Scalar.muli v7 c1_i32_3193
  let v3579 : BitVec 32 := Scalar.addi v3577 v3578
  v3579.toNat

class Facts₀ : Prop where
  inb_S2_S1_0 : ∀ a, (![0] : Fin 1 → Nat) a + S1.size a ≤ S2.size a
  squeezes_S1_S_ : S1.Squeezes S_
  inb_S2x256x2048_S1x256x2048_0_0_0 : ∀ a, (![0, 0, 0] : Fin 3 → Nat) a + S1x256x2048.size a ≤ S2x256x2048.size a
  squeezes_S1x256x2048_S256x2048 : S1x256x2048.Squeezes S256x2048
  inb_S2_S1_1 : ∀ a, (![1] : Fin 1 → Nat) a + S1.size a ≤ S2.size a
  inb_S2x256x2048_S1x256x2048_1_0_0 : ∀ a, (![1, 0, 0] : Fin 3 → Nat) a + S1x256x2048.size a ≤ S2x256x2048.size a
  hamt_1 : (1#32 : BitVec 32).msb = false
  hamt_2 : (2#32 : BitVec 32).msb = false
  h_S1x256x2048 : 0 < S1x256x2048.numel
  shapeCasts_S1x256x2048_S256x2048 : S1x256x2048.ShapeCasts S256x2048
  bitsLt_bf16_f32 : FTy.bits .bf16 < FTy.bits .f32
  inb_S3x256x2048_S1x256x2048_0_0_0 : ∀ a, (![0, 0, 0] : Fin 3 → Nat) a + S1x256x2048.size a ≤ S3x256x2048.size a
  shapeCasts_S256x2048_S1x256x2048 : S256x2048.ShapeCasts S1x256x2048
  packedbf16_S3x256x2048_S1x256x2048_0_0_0 : (Rect.unit (s := S3x256x2048) ![0, 0, 0] S1x256x2048.size inb_S3x256x2048_S1x256x2048_0_0_0).PackedRows (EltTy.packing .bf16)
  inb_S3_S1_0 : ∀ a, (![0] : Fin 1 → Nat) a + S1.size a ≤ S3.size a
  squeezes_S1x256x1024_S256x1024 : S1x256x1024.Squeezes S256x1024
  inb_S32_S1_0 : ∀ a, (![0] : Fin 1 → Nat) a + S1.size a ≤ S32.size a
  inb_S32x256x1024_S1x256x1024_0_0_0 : ∀ a, (![0, 0, 0] : Fin 3 → Nat) a + S1x256x1024.size a ≤ S32x256x1024.size a
  wordsbf16_S32x256x1024_S1x256x1024_0_0_0 : (Rect.unit (s := S32x256x1024) ![0, 0, 0] S1x256x1024.size inb_S32x256x1024_S1x256x1024_0_0_0).WholeWords (EltTy.packing .bf16)
  inb_S3x256x2048_S1x256x2048_1_0_0 : ∀ a, (![1, 0, 0] : Fin 3 → Nat) a + S1x256x2048.size a ≤ S3x256x2048.size a
  packedbf16_S3x256x2048_S1x256x2048_1_0_0 : (Rect.unit (s := S3x256x2048) ![1, 0, 0] S1x256x2048.size inb_S3x256x2048_S1x256x2048_1_0_0).PackedRows (EltTy.packing .bf16)
  inb_S3_S1_1 : ∀ a, (![1] : Fin 1 → Nat) a + S1.size a ≤ S3.size a
  inb_S32_S1_1 : ∀ a, (![1] : Fin 1 → Nat) a + S1.size a ≤ S32.size a
  inb_S32x256x1024_S1x256x1024_1_0_0 : ∀ a, (![1, 0, 0] : Fin 3 → Nat) a + S1x256x1024.size a ≤ S32x256x1024.size a
  wordsbf16_S32x256x1024_S1x256x1024_1_0_0 : (Rect.unit (s := S32x256x1024) ![1, 0, 0] S1x256x1024.size inb_S32x256x1024_S1x256x1024_1_0_0).WholeWords (EltTy.packing .bf16)
  inb_S3x256x2048_S1x256x2048_2_0_0 : ∀ a, (![2, 0, 0] : Fin 3 → Nat) a + S1x256x2048.size a ≤ S3x256x2048.size a
  packedbf16_S3x256x2048_S1x256x2048_2_0_0 : (Rect.unit (s := S3x256x2048) ![2, 0, 0] S1x256x2048.size inb_S3x256x2048_S1x256x2048_2_0_0).PackedRows (EltTy.packing .bf16)
  inb_S3_S1_2 : ∀ a, (![2] : Fin 1 → Nat) a + S1.size a ≤ S3.size a
  inb_S32_S1_2 : ∀ a, (![2] : Fin 1 → Nat) a + S1.size a ≤ S32.size a
  inb_S32x256x1024_S1x256x1024_2_0_0 : ∀ a, (![2, 0, 0] : Fin 3 → Nat) a + S1x256x1024.size a ≤ S32x256x1024.size a
  wordsbf16_S32x256x1024_S1x256x1024_2_0_0 : (Rect.unit (s := S32x256x1024) ![2, 0, 0] S1x256x1024.size inb_S32x256x1024_S1x256x1024_2_0_0).WholeWords (EltTy.packing .bf16)
  inb_S32_S1_3 : ∀ a, (![3] : Fin 1 → Nat) a + S1.size a ≤ S32.size a
  inb_S32x256x1024_S1x256x1024_3_0_0 : ∀ a, (![3, 0, 0] : Fin 3 → Nat) a + S1x256x1024.size a ≤ S32x256x1024.size a
  wordsbf16_S32x256x1024_S1x256x1024_3_0_0 : (Rect.unit (s := S32x256x1024) ![3, 0, 0] S1x256x1024.size inb_S32x256x1024_S1x256x1024_3_0_0).WholeWords (EltTy.packing .bf16)
  inb_S32_S1_4 : ∀ a, (![4] : Fin 1 → Nat) a + S1.size a ≤ S32.size a
  inb_S32x256x1024_S1x256x1024_4_0_0 : ∀ a, (![4, 0, 0] : Fin 3 → Nat) a + S1x256x1024.size a ≤ S32x256x1024.size a
  wordsbf16_S32x256x1024_S1x256x1024_4_0_0 : (Rect.unit (s := S32x256x1024) ![4, 0, 0] S1x256x1024.size inb_S32x256x1024_S1x256x1024_4_0_0).WholeWords (EltTy.packing .bf16)
  inb_S32_S1_5 : ∀ a, (![5] : Fin 1 → Nat) a + S1.size a ≤ S32.size a
  inb_S32x256x1024_S1x256x1024_5_0_0 : ∀ a, (![5, 0, 0] : Fin 3 → Nat) a + S1x256x1024.size a ≤ S32x256x1024.size a
  wordsbf16_S32x256x1024_S1x256x1024_5_0_0 : (Rect.unit (s := S32x256x1024) ![5, 0, 0] S1x256x1024.size inb_S32x256x1024_S1x256x1024_5_0_0).WholeWords (EltTy.packing .bf16)
  inb_S32_S1_6 : ∀ a, (![6] : Fin 1 → Nat) a + S1.size a ≤ S32.size a
  inb_S32x256x1024_S1x256x1024_6_0_0 : ∀ a, (![6, 0, 0] : Fin 3 → Nat) a + S1x256x1024.size a ≤ S32x256x1024.size a
  wordsbf16_S32x256x1024_S1x256x1024_6_0_0 : (Rect.unit (s := S32x256x1024) ![6, 0, 0] S1x256x1024.size inb_S32x256x1024_S1x256x1024_6_0_0).WholeWords (EltTy.packing .bf16)
  inb_S32_S1_7 : ∀ a, (![7] : Fin 1 → Nat) a + S1.size a ≤ S32.size a
  inb_S32x256x1024_S1x256x1024_7_0_0 : ∀ a, (![7, 0, 0] : Fin 3 → Nat) a + S1x256x1024.size a ≤ S32x256x1024.size a
  wordsbf16_S32x256x1024_S1x256x1024_7_0_0 : (Rect.unit (s := S32x256x1024) ![7, 0, 0] S1x256x1024.size inb_S32x256x1024_S1x256x1024_7_0_0).WholeWords (EltTy.packing .bf16)
  inb_S32_S1_8 : ∀ a, (![8] : Fin 1 → Nat) a + S1.size a ≤ S32.size a
  inb_S32x256x1024_S1x256x1024_8_0_0 : ∀ a, (![8, 0, 0] : Fin 3 → Nat) a + S1x256x1024.size a ≤ S32x256x1024.size a
  wordsbf16_S32x256x1024_S1x256x1024_8_0_0 : (Rect.unit (s := S32x256x1024) ![8, 0, 0] S1x256x1024.size inb_S32x256x1024_S1x256x1024_8_0_0).WholeWords (EltTy.packing .bf16)
  inb_S32_S1_9 : ∀ a, (![9] : Fin 1 → Nat) a + S1.size a ≤ S32.size a
  inb_S32x256x1024_S1x256x1024_9_0_0 : ∀ a, (![9, 0, 0] : Fin 3 → Nat) a + S1x256x1024.size a ≤ S32x256x1024.size a
  wordsbf16_S32x256x1024_S1x256x1024_9_0_0 : (Rect.unit (s := S32x256x1024) ![9, 0, 0] S1x256x1024.size inb_S32x256x1024_S1x256x1024_9_0_0).WholeWords (EltTy.packing .bf16)
  inb_S32_S1_10 : ∀ a, (![10] : Fin 1 → Nat) a + S1.size a ≤ S32.size a
  inb_S32x256x1024_S1x256x1024_10_0_0 : ∀ a, (![10, 0, 0] : Fin 3 → Nat) a + S1x256x1024.size a ≤ S32x256x1024.size a
  wordsbf16_S32x256x1024_S1x256x1024_10_0_0 : (Rect.unit (s := S32x256x1024) ![10, 0, 0] S1x256x1024.size inb_S32x256x1024_S1x256x1024_10_0_0).WholeWords (EltTy.packing .bf16)
  inb_S32_S1_11 : ∀ a, (![11] : Fin 1 → Nat) a + S1.size a ≤ S32.size a
  inb_S32x256x1024_S1x256x1024_11_0_0 : ∀ a, (![11, 0, 0] : Fin 3 → Nat) a + S1x256x1024.size a ≤ S32x256x1024.size a
  wordsbf16_S32x256x1024_S1x256x1024_11_0_0 : (Rect.unit (s := S32x256x1024) ![11, 0, 0] S1x256x1024.size inb_S32x256x1024_S1x256x1024_11_0_0).WholeWords (EltTy.packing .bf16)
  inb_S32_S1_12 : ∀ a, (![12] : Fin 1 → Nat) a + S1.size a ≤ S32.size a
  inb_S32x256x1024_S1x256x1024_12_0_0 : ∀ a, (![12, 0, 0] : Fin 3 → Nat) a + S1x256x1024.size a ≤ S32x256x1024.size a
  wordsbf16_S32x256x1024_S1x256x1024_12_0_0 : (Rect.unit (s := S32x256x1024) ![12, 0, 0] S1x256x1024.size inb_S32x256x1024_S1x256x1024_12_0_0).WholeWords (EltTy.packing .bf16)
  inb_S32_S1_13 : ∀ a, (![13] : Fin 1 → Nat) a + S1.size a ≤ S32.size a
  inb_S32x256x1024_S1x256x1024_13_0_0 : ∀ a, (![13, 0, 0] : Fin 3 → Nat) a + S1x256x1024.size a ≤ S32x256x1024.size a
  wordsbf16_S32x256x1024_S1x256x1024_13_0_0 : (Rect.unit (s := S32x256x1024) ![13, 0, 0] S1x256x1024.size inb_S32x256x1024_S1x256x1024_13_0_0).WholeWords (EltTy.packing .bf16)
  inb_S32_S1_14 : ∀ a, (![14] : Fin 1 → Nat) a + S1.size a ≤ S32.size a
  inb_S32x256x1024_S1x256x1024_14_0_0 : ∀ a, (![14, 0, 0] : Fin 3 → Nat) a + S1x256x1024.size a ≤ S32x256x1024.size a
  wordsbf16_S32x256x1024_S1x256x1024_14_0_0 : (Rect.unit (s := S32x256x1024) ![14, 0, 0] S1x256x1024.size inb_S32x256x1024_S1x256x1024_14_0_0).WholeWords (EltTy.packing .bf16)
  inb_S32_S1_15 : ∀ a, (![15] : Fin 1 → Nat) a + S1.size a ≤ S32.size a
  inb_S32x256x1024_S1x256x1024_15_0_0 : ∀ a, (![15, 0, 0] : Fin 3 → Nat) a + S1x256x1024.size a ≤ S32x256x1024.size a
  wordsbf16_S32x256x1024_S1x256x1024_15_0_0 : (Rect.unit (s := S32x256x1024) ![15, 0, 0] S1x256x1024.size inb_S32x256x1024_S1x256x1024_15_0_0).WholeWords (EltTy.packing .bf16)
  inb_S32_S1_16 : ∀ a, (![16] : Fin 1 → Nat) a + S1.size a ≤ S32.size a
  inb_S32x256x1024_S1x256x1024_16_0_0 : ∀ a, (![16, 0, 0] : Fin 3 → Nat) a + S1x256x1024.size a ≤ S32x256x1024.size a
  wordsbf16_S32x256x1024_S1x256x1024_16_0_0 : (Rect.unit (s := S32x256x1024) ![16, 0, 0] S1x256x1024.size inb_S32x256x1024_S1x256x1024_16_0_0).WholeWords (EltTy.packing .bf16)
  inb_S32_S1_17 : ∀ a, (![17] : Fin 1 → Nat) a + S1.size a ≤ S32.size a
  inb_S32x256x1024_S1x256x1024_17_0_0 : ∀ a, (![17, 0, 0] : Fin 3 → Nat) a + S1x256x1024.size a ≤ S32x256x1024.size a
  wordsbf16_S32x256x1024_S1x256x1024_17_0_0 : (Rect.unit (s := S32x256x1024) ![17, 0, 0] S1x256x1024.size inb_S32x256x1024_S1x256x1024_17_0_0).WholeWords (EltTy.packing .bf16)
  inb_S32_S1_18 : ∀ a, (![18] : Fin 1 → Nat) a + S1.size a ≤ S32.size a
  inb_S32x256x1024_S1x256x1024_18_0_0 : ∀ a, (![18, 0, 0] : Fin 3 → Nat) a + S1x256x1024.size a ≤ S32x256x1024.size a
  wordsbf16_S32x256x1024_S1x256x1024_18_0_0 : (Rect.unit (s := S32x256x1024) ![18, 0, 0] S1x256x1024.size inb_S32x256x1024_S1x256x1024_18_0_0).WholeWords (EltTy.packing .bf16)
  inb_S32_S1_19 : ∀ a, (![19] : Fin 1 → Nat) a + S1.size a ≤ S32.size a
  inb_S32x256x1024_S1x256x1024_19_0_0 : ∀ a, (![19, 0, 0] : Fin 3 → Nat) a + S1x256x1024.size a ≤ S32x256x1024.size a
  wordsbf16_S32x256x1024_S1x256x1024_19_0_0 : (Rect.unit (s := S32x256x1024) ![19, 0, 0] S1x256x1024.size inb_S32x256x1024_S1x256x1024_19_0_0).WholeWords (EltTy.packing .bf16)
  inb_S32_S1_20 : ∀ a, (![20] : Fin 1 → Nat) a + S1.size a ≤ S32.size a
  inb_S32x256x1024_S1x256x1024_20_0_0 : ∀ a, (![20, 0, 0] : Fin 3 → Nat) a + S1x256x1024.size a ≤ S32x256x1024.size a
  wordsbf16_S32x256x1024_S1x256x1024_20_0_0 : (Rect.unit (s := S32x256x1024) ![20, 0, 0] S1x256x1024.size inb_S32x256x1024_S1x256x1024_20_0_0).WholeWords (EltTy.packing .bf16)
  inb_S32_S1_21 : ∀ a, (![21] : Fin 1 → Nat) a + S1.size a ≤ S32.size a
  inb_S32x256x1024_S1x256x1024_21_0_0 : ∀ a, (![21, 0, 0] : Fin 3 → Nat) a + S1x256x1024.size a ≤ S32x256x1024.size a
  wordsbf16_S32x256x1024_S1x256x1024_21_0_0 : (Rect.unit (s := S32x256x1024) ![21, 0, 0] S1x256x1024.size inb_S32x256x1024_S1x256x1024_21_0_0).WholeWords (EltTy.packing .bf16)
  inb_S32_S1_22 : ∀ a, (![22] : Fin 1 → Nat) a + S1.size a ≤ S32.size a
  inb_S32x256x1024_S1x256x1024_22_0_0 : ∀ a, (![22, 0, 0] : Fin 3 → Nat) a + S1x256x1024.size a ≤ S32x256x1024.size a
  wordsbf16_S32x256x1024_S1x256x1024_22_0_0 : (Rect.unit (s := S32x256x1024) ![22, 0, 0] S1x256x1024.size inb_S32x256x1024_S1x256x1024_22_0_0).WholeWords (EltTy.packing .bf16)
  inb_S32_S1_23 : ∀ a, (![23] : Fin 1 → Nat) a + S1.size a ≤ S32.size a
  inb_S32x256x1024_S1x256x1024_23_0_0 : ∀ a, (![23, 0, 0] : Fin 3 → Nat) a + S1x256x1024.size a ≤ S32x256x1024.size a
  wordsbf16_S32x256x1024_S1x256x1024_23_0_0 : (Rect.unit (s := S32x256x1024) ![23, 0, 0] S1x256x1024.size inb_S32x256x1024_S1x256x1024_23_0_0).WholeWords (EltTy.packing .bf16)
  inb_S32_S1_24 : ∀ a, (![24] : Fin 1 → Nat) a + S1.size a ≤ S32.size a
  inb_S32x256x1024_S1x256x1024_24_0_0 : ∀ a, (![24, 0, 0] : Fin 3 → Nat) a + S1x256x1024.size a ≤ S32x256x1024.size a
  wordsbf16_S32x256x1024_S1x256x1024_24_0_0 : (Rect.unit (s := S32x256x1024) ![24, 0, 0] S1x256x1024.size inb_S32x256x1024_S1x256x1024_24_0_0).WholeWords (EltTy.packing .bf16)
  inb_S32_S1_25 : ∀ a, (![25] : Fin 1 → Nat) a + S1.size a ≤ S32.size a
  inb_S32x256x1024_S1x256x1024_25_0_0 : ∀ a, (![25, 0, 0] : Fin 3 → Nat) a + S1x256x1024.size a ≤ S32x256x1024.size a
  wordsbf16_S32x256x1024_S1x256x1024_25_0_0 : (Rect.unit (s := S32x256x1024) ![25, 0, 0] S1x256x1024.size inb_S32x256x1024_S1x256x1024_25_0_0).WholeWords (EltTy.packing .bf16)
  inb_S32_S1_26 : ∀ a, (![26] : Fin 1 → Nat) a + S1.size a ≤ S32.size a
  inb_S32x256x1024_S1x256x1024_26_0_0 : ∀ a, (![26, 0, 0] : Fin 3 → Nat) a + S1x256x1024.size a ≤ S32x256x1024.size a
  wordsbf16_S32x256x1024_S1x256x1024_26_0_0 : (Rect.unit (s := S32x256x1024) ![26, 0, 0] S1x256x1024.size inb_S32x256x1024_S1x256x1024_26_0_0).WholeWords (EltTy.packing .bf16)
  inb_S32_S1_27 : ∀ a, (![27] : Fin 1 → Nat) a + S1.size a ≤ S32.size a
  inb_S32x256x1024_S1x256x1024_27_0_0 : ∀ a, (![27, 0, 0] : Fin 3 → Nat) a + S1x256x1024.size a ≤ S32x256x1024.size a
  wordsbf16_S32x256x1024_S1x256x1024_27_0_0 : (Rect.unit (s := S32x256x1024) ![27, 0, 0] S1x256x1024.size inb_S32x256x1024_S1x256x1024_27_0_0).WholeWords (EltTy.packing .bf16)
  inb_S32_S1_28 : ∀ a, (![28] : Fin 1 → Nat) a + S1.size a ≤ S32.size a
  inb_S32x256x1024_S1x256x1024_28_0_0 : ∀ a, (![28, 0, 0] : Fin 3 → Nat) a + S1x256x1024.size a ≤ S32x256x1024.size a
  wordsbf16_S32x256x1024_S1x256x1024_28_0_0 : (Rect.unit (s := S32x256x1024) ![28, 0, 0] S1x256x1024.size inb_S32x256x1024_S1x256x1024_28_0_0).WholeWords (EltTy.packing .bf16)
  inb_S32_S1_29 : ∀ a, (![29] : Fin 1 → Nat) a + S1.size a ≤ S32.size a
  inb_S32x256x1024_S1x256x1024_29_0_0 : ∀ a, (![29, 0, 0] : Fin 3 → Nat) a + S1x256x1024.size a ≤ S32x256x1024.size a
  wordsbf16_S32x256x1024_S1x256x1024_29_0_0 : (Rect.unit (s := S32x256x1024) ![29, 0, 0] S1x256x1024.size inb_S32x256x1024_S1x256x1024_29_0_0).WholeWords (EltTy.packing .bf16)
  inb_S32_S1_30 : ∀ a, (![30] : Fin 1 → Nat) a + S1.size a ≤ S32.size a
  inb_S32x256x1024_S1x256x1024_30_0_0 : ∀ a, (![30, 0, 0] : Fin 3 → Nat) a + S1x256x1024.size a ≤ S32x256x1024.size a
  wordsbf16_S32x256x1024_S1x256x1024_30_0_0 : (Rect.unit (s := S32x256x1024) ![30, 0, 0] S1x256x1024.size inb_S32x256x1024_S1x256x1024_30_0_0).WholeWords (EltTy.packing .bf16)
  inb_S32_S1_31 : ∀ a, (![31] : Fin 1 → Nat) a + S1.size a ≤ S32.size a
  inb_S32x256x1024_S1x256x1024_31_0_0 : ∀ a, (![31, 0, 0] : Fin 3 → Nat) a + S1x256x1024.size a ≤ S32x256x1024.size a
  wordsbf16_S32x256x1024_S1x256x1024_31_0_0 : (Rect.unit (s := S32x256x1024) ![31, 0, 0] S1x256x1024.size inb_S32x256x1024_S1x256x1024_31_0_0).WholeWords (EltTy.packing .bf16)
  hcc0_scratch5 : 0 + S2.numel ≤ 170
  hcc0_scratch6 : 2 + S2.numel ≤ 170
  hcc0_scratch7 : 4 + S3.numel ≤ 170
  hcc0_scratch8 : 7 + S3.numel ≤ 170
  hcc0_scratch9 : 10 + S32.numel ≤ 170
  hcc0_scratch10 : 42 + S32.numel ≤ 170
  hcc0_scratch11 : 74 + S32.numel ≤ 170
  hcc0_scratch12 : 106 + S32.numel ≤ 170
  hcc0_scratch13 : 138 + S32.numel ≤ 170
  k0_off1_inb : ∀ d0 : Dev nD, ∀ (r : Fin 32), ∀ a, (k0_off1 d0 (BitVec.ofNat 32 (256 * r.val))) a + S256x2048.size a ≤ S16384x2048.size a
  k0_off2_inb : ∀ d0 : Dev nD, ∀ (r : Fin 32), ∀ a, (k0_off2 d0 (BitVec.ofNat 32 (256 * r.val))) a + S256x2048.size a ≤ S16384x2048.size a
  k0_dev1_lt : ∀ d0 : Dev nD, (k0_dev1 d0) < nD
  k0_dev2_lt : ∀ d0 : Dev nD, (k0_dev2 d0) < nD
  k0_off3_inb : ∀ d0 : Dev nD, ∀ (r : Fin 32), ∀ a, (k0_off3 d0 (BitVec.ofNat 32 (256 * r.val))) a + S256x1024.size a ≤ S32768x1024.size a
  k0_off4_inb : ∀ d0 : Dev nD, ∀ a, (k0_off4 d0) a + S1x256x1024.size a ≤ S3x256x2048.size a
  k0_off4_wordsbf16 : ∀ d0 : Dev nD, (Rect.unit (s := S3x256x2048) (k0_off4 d0) S1x256x1024.size (k0_off4_inb d0)).WholeWords (EltTy.packing .bf16)
  k0_off3_wordsbf16 : ∀ d0 : Dev nD, ∀ (r : Fin 32), (Rect.unit (s := S32768x1024) (k0_off3 d0 (BitVec.ofNat 32 (256 * r.val))) S256x1024.size (k0_off3_inb d0 r)).WholeWords (EltTy.packing .bf16)
  k0_off5_inb : ∀ d0 : Dev nD, ∀ (r : Fin 32), ∀ a, (k0_off5 d0 (BitVec.ofNat 32 (256 * r.val))) a + S256x1024.size a ≤ S32768x1024.size a
  k0_off5_wordsbf16 : ∀ d0 : Dev nD, ∀ (r : Fin 32), (Rect.unit (s := S32768x1024) (k0_off5 d0 (BitVec.ofNat 32 (256 * r.val))) S256x1024.size (k0_off5_inb d0 r)).WholeWords (EltTy.packing .bf16)
  k0_off6_inb : ∀ d0 : Dev nD, ∀ a, (k0_off6 d0) a + S1x256x1024.size a ≤ S3x256x2048.size a
  k0_off6_wordsbf16 : ∀ d0 : Dev nD, (Rect.unit (s := S3x256x2048) (k0_off6 d0) S1x256x1024.size (k0_off6_inb d0)).WholeWords (EltTy.packing .bf16)
  k0_dev3_lt : ∀ d0 : Dev nD, (k0_dev3 d0) < nD
  k0_off7_inb : ∀ d0 : Dev nD, ∀ a, (k0_off7 d0) a + S1x256x1024.size a ≤ S3x256x2048.size a
  k0_off7_wordsbf16 : ∀ d0 : Dev nD, (Rect.unit (s := S3x256x2048) (k0_off7 d0) S1x256x1024.size (k0_off7_inb d0)).WholeWords (EltTy.packing .bf16)
  k0_off8_inb : ∀ d0 : Dev nD, ∀ a, (k0_off8 d0) a + S1x256x1024.size a ≤ S3x256x2048.size a
  k0_off8_wordsbf16 : ∀ d0 : Dev nD, (Rect.unit (s := S3x256x2048) (k0_off8 d0) S1x256x1024.size (k0_off8_inb d0)).WholeWords (EltTy.packing .bf16)
  k0_dev4_lt : ∀ d0 : Dev nD, (k0_dev4 d0) < nD
  k0_off9_inb : ∀ d0 : Dev nD, ∀ (r : Fin 32), ∀ a, (k0_off9 d0 (BitVec.ofNat 32 (256 * r.val))) a + S256x1024.size a ≤ S32768x1024.size a
  k0_off9_wordsbf16 : ∀ d0 : Dev nD, ∀ (r : Fin 32), (Rect.unit (s := S32768x1024) (k0_off9 d0 (BitVec.ofNat 32 (256 * r.val))) S256x1024.size (k0_off9_inb d0 r)).WholeWords (EltTy.packing .bf16)
  k0_dev5_lt : ∀ d0 : Dev nD, (k0_dev5 d0) < nD
  k0_off10_inb : ∀ d0 : Dev nD, ∀ a, (k0_off10 d0) a + S1x256x1024.size a ≤ S3x256x2048.size a
  k0_off10_wordsbf16 : ∀ d0 : Dev nD, (Rect.unit (s := S3x256x2048) (k0_off10 d0) S1x256x1024.size (k0_off10_inb d0)).WholeWords (EltTy.packing .bf16)
  k0_off11_inb : ∀ d0 : Dev nD, ∀ a, (k0_off11 d0) a + S1x256x1024.size a ≤ S3x256x2048.size a
  k0_off11_wordsbf16 : ∀ d0 : Dev nD, (Rect.unit (s := S3x256x2048) (k0_off11 d0) S1x256x1024.size (k0_off11_inb d0)).WholeWords (EltTy.packing .bf16)
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD

variable [Facts₀]

abbrev cc0_scratch5 : DmaSems sig S2 := SemArray.consecutive 0 S2 hcc0_scratch5
abbrev cc0_scratch6 : DmaSems sig S2 := SemArray.consecutive 2 S2 hcc0_scratch6
abbrev cc0_scratch7 : DmaSems sig S3 := SemArray.consecutive 4 S3 hcc0_scratch7
abbrev cc0_scratch8 : DmaSems sig S3 := SemArray.consecutive 7 S3 hcc0_scratch8
abbrev cc0_scratch9 : DmaSems sig S32 := SemArray.consecutive 10 S32 hcc0_scratch9
abbrev cc0_scratch10 : DmaSems sig S32 := SemArray.consecutive 42 S32 hcc0_scratch10
abbrev cc0_scratch11 : DmaSems sig S32 := SemArray.consecutive 74 S32 hcc0_scratch11
abbrev cc0_scratch12 : DmaSems sig S32 := SemArray.consecutive 106 S32 hcc0_scratch12
abbrev cc0_scratch13 : DmaSems sig S32 := SemArray.consecutive 138 S32 hcc0_scratch13

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x2048 : Shape := ⟨2, ![32768, 2048]⟩

abbrev nBuf : Space → Nat
  | .hbm => 2
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.A2AViews.lean ====
/-
  The all-to-all on a 2 x 2 mesh: names for the two peers of a device, the views every copy of the kernel reads and
  writes (stated through the printed offset functions), the semaphores, and the cells they make.
-/
import proofs.«900012_g7700000000000013_dist_a2a_v7x_xy2x2_x_m16384_n1024_bf16_1_alg».proof.Proof.Gen.KernelIdeal.Skeleton
import proofs.«900012_g7700000000000013_dist_a2a_v7x_xy2x2_x_m16384_n1024_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdealA2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the rounds of this kernel's cells (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The two peers: a device's id is `2 * mx + my`; `px` flips `mx`, `py` flips `my` -/

def px (c : Dev nD) : Dev nD := ⟨(c.val + 2) % 4, Nat.mod_lt _ (by decide)⟩
def py (c : Dev nD) : Dev nD := ⟨2 * (c.val / 2) + (c.val + 1) % 2, by have h : c.val < 4 := c.isLt; show _ < 4; omega⟩

theorem px_px (c : Dev nD) : px (px c) = c := by revert c; decide
theorem py_py (c : Dev nD) : py (py c) = c := by revert c; decide
theorem px_ne (c : Dev nD) : px c ≠ c := by revert c; decide
theorem py_ne (c : Dev nD) : py c ≠ c := by revert c; decide
theorem px_ne_py (c : Dev nD) : px c ≠ py c := by revert c; decide

def pxE : Dev nD ≃ Dev nD := ⟨px, px, px_px, px_px⟩
def pyE : Dev nD ≃ Dev nD := ⟨py, py, py_py, py_py⟩

/-- The printed device chains: the copies addressed along x name `px c`, those along y name `py c`. -/
theorem devx_eq (c : Dev nD) (n : ℕ) (hn : n < nD) (h : n = ((c.val % 2) + 2) - 2 * (c.val / 2)) : (⟨n, hn⟩ : Dev nD) = px c := by
  subst h; revert c; decide
theorem devy_eq (c : Dev nD) (n : ℕ) (hn : n < nD) (h : n = (2 * (c.val / 2) + 1) - (c.val % 2)) : (⟨n, hn⟩ : Dev nD) = py c := by
  subst h; revert c; decide

/-! ## The buffers and the views of the copies -/

abbrev xM : Memref sig .tc .hbm S16384x2048 .f32 := Memref.whole main_arg0
abbrev oM : Memref sig .tc .hbm S32768x1024 .bf16 := Memref.whole main_v1
abbrev viaM : Memref sig .tc .vmem S2x256x2048 .f32 := Memref.whole cc0_scratch0
abbrev vibM : Memref sig .tc .vmem S2x256x2048 .f32 := Memref.whole cc0_scratch1
abbrev vcaM : Memref sig .tc .vmem S3x256x2048 .bf16 := Memref.whole cc0_scratch2
abbrev vcbM : Memref sig .tc .vmem S3x256x2048 .bf16 := Memref.whole cc0_scratch3
abbrev ldM : Memref sig .tc .vmem S32x256x1024 .bf16 := Memref.whole cc0_scratch4

theorem inb_vin (j : Fin 2) : ∀ a, (![j.val, 0, 0] : Fin 3 → ℕ) a + S1x256x2048.size a ≤ S2x256x2048.size a := by revert j; decide
theorem inb_vc (s : Fin 3) : ∀ a, (![s.val, 0, 0] : Fin 3 → ℕ) a + S1x256x2048.size a ≤ S3x256x2048.size a := by revert s; decide
theorem inb_ld (k : Fin 32) : ∀ a, (![k.val, 0, 0] : Fin 3 → ℕ) a + S1x256x1024.size a ≤ S32x256x1024.size a := by revert k; decide

/-- Rows `[8192 my + 256 k, + 256)` of the device's block of `x` (the half the device relays along x), and rows
    `[8192 (1 - my) + 256 k, + 256)` (the other half). -/
abbrev xA (c : Dev nD) (k : Fin 32) : Memref sig .tc .hbm S256x2048 .f32 :=
  xM.slice (Rect.unit (s := S16384x2048) (k0_off1 c (BitVec.ofNat 32 (256 * k.val))) S256x2048.size (k0_off1_inb c k)) (fun _ => rfl)
abbrev xB (c : Dev nD) (k : Fin 32) : Memref sig .tc .hbm S256x2048 .f32 :=
  xM.slice (Rect.unit (s := S16384x2048) (k0_off2 c (BitVec.ofNat 32 (256 * k.val))) S256x2048.size (k0_off2_inb c k)) (fun _ => rfl)

/-- Slot `j` of the two f32 staging buffers. -/
abbrev viaS (j : Fin 2) : Memref sig .tc .vmem S256x2048 .f32 :=
  (viaM.slice (Rect.unit (s := S2x256x2048) ![j.val, 0, 0] S1x256x2048.size (inb_vin j)) (fun _ => rfl)).squeeze S256x2048 squeezes_S1x256x2048_S256x2048
abbrev vibS (j : Fin 2) : Memref sig .tc .vmem S256x2048 .f32 :=
  (vibM.slice (Rect.unit (s := S2x256x2048) ![j.val, 0, 0] S1x256x2048.size (inb_vin j)) (fun _ => rfl)).squeeze S256x2048 squeezes_S1x256x2048_S256x2048

/-- Slot `k` of the landing buffer. -/
abbrev ldS (k : Fin 32) : Memref sig .tc .vmem S256x1024 .bf16 :=
  (ldM.slice (Rect.unit (s := S32x256x1024) ![k.val, 0, 0] S1x256x1024.size (inb_ld k)) (fun _ => rfl)).squeeze S256x1024 squeezes_S1x256x1024_S256x1024

/-- The printed column offsets of a bf16 slot's two halves: the device's own columns, and its x-peer's. -/
def offMine (c : Dev nD) : Fin 3 → (Fin 3 → ℕ) := ![k0_off4 c, k0_off7 c, k0_off10 c]
def offPeer (c : Dev nD) : Fin 3 → (Fin 3 → ℕ) := ![k0_off6 c, k0_off8 c, k0_off11 c]
theorem offMine_inb (c : Dev nD) (s : Fin 3) : ∀ a, offMine c s a + S1x256x1024.size a ≤ S3x256x2048.size a := by
  fin_cases s
  · exact k0_off4_inb c
  · exact k0_off7_inb c
  · exact k0_off10_inb c
theorem offPeer_inb (c : Dev nD) (s : Fin 3) : ∀ a, offPeer c s a + S1x256x1024.size a ≤ S3x256x2048.size a := by
  fin_cases s
  · exact k0_off6_inb c
  · exact k0_off8_inb c
  · exact k0_off11_inb c

/-- The half of slot `s` of a bf16 buffer a local copy reads (the device's own columns), and the half of `vcast_a`'s
    the copy along x reads. -/
abbrev vcaMine (c : Dev nD) (s : Fin 3) : Memref sig .tc .vmem S256x1024 .bf16 :=
  (vcaM.slice (Rect.unit (s := S3x256x2048) (offMine c s) S1x256x1024.size (offMine_inb c s)) (fun _ => rfl)).squeeze S256x1024 squeezes_S1x256x1024_S256x1024
abbrev vcbMine (c : Dev nD) (s : Fin 3) : Memref sig .tc .vmem S256x1024 .bf16 :=
  (vcbM.slice (Rect.unit (s := S3x256x2048) (offMine c s) S1x256x1024.size (offMine_inb c s)) (fun _ => rfl)).squeeze S256x1024 squeezes_S1x256x1024_S256x1024
abbrev vcaPeer (c : Dev nD) (s : Fin 3) : Memref sig .tc .vmem S256x1024 .bf16 :=
  (vcaM.slice (Rect.unit (s := S3x256x2048) (offPeer c s) S1x256x1024.size (offPeer_inb c s)) (fun _ => rfl)).squeeze S256x1024 squeezes_S1x256x1024_S256x1024

/-- The four families of 256-row blocks of the result: written by the local copy of `vcast_a` (`oA`), of `vcast_b`
    (`oB`), by the copy out of the landing buffer and, on the y-peer, by its relay (`oR`: both through one printed offset). -/
abbrev oA (c : Dev nD) (k : Fin 32) : Memref sig .tc .hbm S256x1024 .bf16 :=
  oM.slice (Rect.unit (s := S32768x1024) (k0_off3 c (BitVec.ofNat 32 (256 * k.val))) S256x1024.size (k0_off3_inb c k)) (fun _ => rfl)
abbrev oB (c : Dev nD) (k : Fin 32) : Memref sig .tc .hbm S256x1024 .bf16 :=
  oM.slice (Rect.unit (s := S32768x1024) (k0_off5 c (BitVec.ofNat 32 (256 * k.val))) S256x1024.size (k0_off5_inb c k)) (fun _ => rfl)
abbrev oR (c : Dev nD) (k : Fin 32) : Memref sig .tc .hbm S256x1024 .bf16 :=
  oM.slice (Rect.unit (s := S32768x1024) (k0_off9 c (BitVec.ofNat 32 (256 * k.val))) S256x1024.size (k0_off9_inb c k)) (fun _ => rfl)

/-! ## The semaphores -/

abbrev barS : Sem sig := (SemArray.scalar (sig.barrier 0 rfl) : Sems sig S_).sem

theorem inb_s2 (j : Fin 2) : ∀ a, (![j.val] : Fin 1 → ℕ) a + S1.size a ≤ S2.size a := by revert j; decide
theorem inb_s3 (s : Fin 3) : ∀ a, (![s.val] : Fin 1 → ℕ) a + S1.size a ≤ S3.size a := by revert s; decide
theorem inb_s32 (k : Fin 32) : ∀ a, (![k.val] : Fin 1 → ℕ) a + S1.size a ≤ S32.size a := by revert k; decide

abbrev sem2 (A : DmaSems sig S2) (j : Fin 2) : DmaSem sig := ((A.slice (Rect.unit (s := S2) ![j.val] S1.size (inb_s2 j))).squeeze S_ squeezes_S1_S_).sem
abbrev sem3 (A : DmaSems sig S3) (s : Fin 3) : DmaSem sig := ((A.slice (Rect.unit (s := S3) ![s.val] S1.size (inb_s3 s))).squeeze S_ squeezes_S1_S_).sem
abbrev sem32 (A : DmaSems sig S32) (k : Fin 32) : DmaSem sig := ((A.slice (Rect.unit (s := S32) ![k.val] S1.size (inb_s32 k))).squeeze S_ squeezes_S1_S_).sem

abbrev inaS (j : Fin 2) : DmaSem sig := sem2 cc0_scratch5 j
abbrev inbS (j : Fin 2) : DmaSem sig := sem2 cc0_scratch6 j
abbrev lcaS (s : Fin 3) : DmaSem sig := sem3 cc0_scratch7 s
abbrev lcbS (s : Fin 3) : DmaSem sig := sem3 cc0_scratch8 s
abbrev loS (k : Fin 32) : DmaSem sig := sem32 cc0_scratch9 k
abbrev dsS (k : Fin 32) : DmaSem sig := sem32 cc0_scratch10 k
abbrev drS (k : Fin 32) : DmaSem sig := sem32 cc0_scratch11 k
abbrev fsS (k : Fin 32) : DmaSem sig := sem32 cc0_scratch12 k
abbrev frS (k : Fin 32) : DmaSem sig := sem32 cc0_scratch13 k

theorem inaS_val (j : Fin 2) : (inaS j).val = j.val := by revert j; decide
theorem inbS_val (j : Fin 2) : (inbS j).val = 2 + j.val := by revert j; decide
theorem lcaS_val (s : Fin 3) : (lcaS s).val = 4 + s.val := by revert s; decide
theorem lcbS_val (s : Fin 3) : (lcbS s).val = 7 + s.val := by revert s; decide
theorem loS_val (k : Fin 32) : (loS k).val = 10 + k.val := by revert k; decide
theorem dsS_val (k : Fin 32) : (dsS k).val = 42 + k.val := by revert k; decide
theorem drS_val (k : Fin 32) : (drS k).val = 74 + k.val := by revert k; decide
theorem fsS_val (k : Fin 32) : (fsS k).val = 106 + k.val := by revert k; decide
theorem frS_val (k : Fin 32) : (frS k).val = 138 + k.val := by revert k; decide

/-- What a copy of a 256 x 2048 f32 block, and of a 256 x 1024 bf16 block, credits its semaphore. -/
def Nin : ℕ := (viaS 0).view.dmaCredit
def Nout : ℕ := (ldS 0).view.dmaCredit
theorem Nin_pos : 0 < Nin := by unfold Nin; exact View.dmaCredit_pos _ (by decide +kernel)
theorem Nout_pos : 0 < Nout := by unfold Nout; exact View.dmaCredit_pos _ (by decide +kernel)

end Cert.KernelIdealA2A
end
-- ==== Proof.A2AContents.lean ====
/-
  What each piece of each buffer holds once a copy or a store of the kernel has written it, as the terms the copy and
  store rules themselves produce: a write, through the destination's view, of the source's read.
-/
import proofs.«900012_g7700000000000013_dist_a2a_v7x_xy2x2_x_m16384_n1024_bf16_1_alg».proof.Proof.A2AViews

noncomputable section

namespace Cert.KernelIdealA2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The elements of memref `M` on device `c` at share `q`, at contents `f` of the buffer it views. -/
abbrev piece (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦[M.view.set]{q} f

variable (m : (ℓ : Loc nD τ sig) → Buf (Elt F) ℓ)

/-! ## The contents of each piece, as the copies and the stores write them -/

/-- The chunk a round of a staging cell, and of a local-copy cell, carries. -/
def chunk2 (j : Fin 2) (r : ℕ) (h : r < 16) : Fin 32 := ⟨2 * r + j.val, by have := j.isLt; omega⟩
def chunk3 (s : Fin 3) (r : ℕ) (h : r < (if s.val = 2 then 10 else 11)) : Fin 32 := ⟨3 * r + s.val, by have := s.isLt; split at h <;> omega⟩
def slot2 (k : Fin 32) : Fin 2 := ⟨k.val % 2, Nat.mod_lt _ (by decide)⟩
def slot3 (k : Fin 32) : Fin 3 := ⟨k.val % 3, Nat.mod_lt _ (by decide)⟩

abbrev Xc (c : Dev nD) : Buf (Elt F) ((c : Thread nD τ).loc main_arg0) := m ((c : Thread nD τ).loc main_arg0)

theorem inb_vinL (j : Fin 2) : ∀ a, (![j.val, 0, 0] : Fin 3 → ℕ) a + S1x256x2048.size a ≤ S2x256x2048.size a := inb_vin j
abbrev rVin (j : Fin 2) : Rect S2x256x2048 := Rect.unit (s := S2x256x2048) ![j.val, 0, 0] S1x256x2048.size (inb_vin j)
abbrev rVc (s : Fin 3) : Rect S3x256x2048 := Rect.unit (s := S3x256x2048) ![s.val, 0, 0] S1x256x2048.size (inb_vc s)

/-- The f32 chunk `k` in its staging slot. -/
def vinA (c : Dev nD) (k : Fin 32) : Buf (Elt F) ((c : Thread nD τ).loc cc0_scratch0) :=
  (viaS (slot2 k)).view.write (Elt F) (m ((c : Thread nD τ).loc cc0_scratch0)) ((xA c k).view.read (Elt F) (Xc m c)) Finset.univ
def vinB (c : Dev nD) (k : Fin 32) : Buf (Elt F) ((c : Thread nD τ).loc cc0_scratch1) :=
  (vibS (slot2 k)).view.write (Elt F) (m ((c : Thread nD τ).loc cc0_scratch1)) ((xB c k).view.read (Elt F) (Xc m c)) Finset.univ

/-- The cast of a loaded slot, as every iteration's payload computes it. -/
def castSlot (v : Vec F S1x256x2048 .f32) : FVec F S1x256x2048 .bf16 :=
  shapeCast S1x256x2048 (truncf .bf16 (shapeCast S256x2048 v shapeCasts_S1x256x2048_S256x2048) bitsLt_bf16_f32) shapeCasts_S256x2048_S1x256x2048

/-- The bf16 chunk `k` in its slot of `vcast_a` / `vcast_b`. -/
def vcA (c : Dev nD) (k : Fin 32) : Buf (Elt F) ((c : Thread nD τ).loc cc0_scratch2) :=
  ((vcaM.access (rVc (slot3 k)) : View sig .tc _ _ _)).write (Elt F) (m ((c : Thread nD τ).loc cc0_scratch2))
    (castSlot (viaM.view.readAt (Elt F) (rVin (slot2 k)).toLoadRect (vinA m c k))) Finset.univ
def vcB (c : Dev nD) (k : Fin 32) : Buf (Elt F) ((c : Thread nD τ).loc cc0_scratch3) :=
  ((vcbM.access (rVc (slot3 k)) : View sig .tc _ _ _)).write (Elt F) (m ((c : Thread nD τ).loc cc0_scratch3))
    (castSlot (vibM.view.readAt (Elt F) (rVin (slot2 k)).toLoadRect (vinB m c k))) Finset.univ

/-- Chunk `k` of the x-peer's half, landed in slot `k` of the landing buffer. -/
def landed (c : Dev nD) (k : Fin 32) : Buf (Elt F) ((c : Thread nD τ).loc cc0_scratch4) :=
  (ldS k).view.write (Elt F) (m ((c : Thread nD τ).loc cc0_scratch4)) ((vcaPeer (px c) (slot3 k)).view.read (Elt F) (vcA m (px c) k)) Finset.univ

/-- The four families of blocks of the result, written. -/
def outA (c : Dev nD) (k : Fin 32) : Buf (Elt F) ((c : Thread nD τ).loc main_v1) :=
  (oA c k).view.write (Elt F) (m ((c : Thread nD τ).loc main_v1)) ((vcaMine c (slot3 k)).view.read (Elt F) (vcA m c k)) Finset.univ
def outB (c : Dev nD) (k : Fin 32) : Buf (Elt F) ((c : Thread nD τ).loc main_v1) :=
  (oB c k).view.write (Elt F) (m ((c : Thread nD τ).loc main_v1)) ((vcbMine c (slot3 k)).view.read (Elt F) (vcB m c k)) Finset.univ
def outL (c : Dev nD) (k : Fin 32) : Buf (Elt F) ((c : Thread nD τ).loc main_v1) :=
  (oR c k).view.write (Elt F) (m ((c : Thread nD τ).loc main_v1)) ((ldS k).view.read (Elt F) (landed m c k)) Finset.univ
def outF (c : Dev nD) (k : Fin 32) : Buf (Elt F) ((c : Thread nD τ).loc main_v1) :=
  (oR (py c) k).view.write (Elt F) (m ((c : Thread nD τ).loc main_v1)) ((ldS k).view.read (Elt F) (landed m (py c) k)) Finset.univ

end Cert.KernelIdealA2A
end
-- ==== Proof.A2ASched.lean ====
/-
  The protocol of the all-to-all as a rounds schedule. Every semaphore of the kernel is a cell. A copy pays one duty of
  one round of its cell(s), and what a landing hands the waiter is the destination at the copied contents (and, on the
  issuer's cell, the source back). The barrier handshake hands each peer the buffer pieces it will write into.
-/
import proofs.«900012_g7700000000000013_dist_a2a_v7x_xy2x2_x_m16384_n1024_bf16_1_alg».proof.Proof.A2AContents

noncomputable section

namespace Cert.KernelIdealA2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The families of cells -/

inductive Fam : Type
  | ina (j : Fin 2) | inb (j : Fin 2) | lca (s : Fin 3) | lcb (s : Fin 3)
  | lo (k : Fin 32) | ds (k : Fin 32) | dr (k : Fin 32) | fs (k : Fin 32) | fr (k : Fin 32) | bar
  deriving DecidableEq

def Fam.sem : Fam → SemLoc sig
  | .ina j => .dma (inaS j) | .inb j => .dma (inbS j) | .lca s => .dma (lcaS s) | .lcb s => .dma (lcbS s)
  | .lo k => .dma (loS k) | .ds k => .dma (dsS k) | .dr k => .dma (drS k) | .fs k => .dma (fsS k) | .fr k => .dma (frS k)
  | .bar => .reg barS

abbrev cell (c : Dev nD) (f : Fam) : GSem nD τ sig := ((c : Thread nD τ), f.sem)

/-- Which family a semaphore belongs to (the DMA semaphores are numbered consecutively, family after family). -/
def decode : SemLoc sig → Option Fam
  | .reg s => if s = barS then some .bar else none
  | .dma q =>
    if h : q.val < 2 then some (.ina ⟨q.val, h⟩)
    else if h : q.val < 4 then some (.inb ⟨q.val - 2, by omega⟩)
    else if h : q.val < 7 then some (.lca ⟨q.val - 4, by omega⟩)
    else if h : q.val < 10 then some (.lcb ⟨q.val - 7, by omega⟩)
    else if h : q.val < 42 then some (.lo ⟨q.val - 10, by omega⟩)
    else if h : q.val < 74 then some (.ds ⟨q.val - 42, by omega⟩)
    else if h : q.val < 106 then some (.dr ⟨q.val - 74, by omega⟩)
    else if h : q.val < 138 then some (.fs ⟨q.val - 106, by omega⟩)
    else if h : q.val < 170 then some (.fr ⟨q.val - 138, by omega⟩)
    else none

theorem decode_sem (f : Fam) : decode f.sem = some f := by
  cases f with
  | ina j => revert j; decide +kernel
  | inb j => revert j; decide +kernel
  | lca s => revert s; decide +kernel
  | lcb s => revert s; decide +kernel
  | lo k => revert k; decide +kernel
  | ds k => revert k; decide +kernel
  | dr k => revert k; decide +kernel
  | fs k => revert k; decide +kernel
  | fr k => revert k; decide +kernel
  | bar => decide +kernel

/-- How many rounds a cell has: a staging semaphore is used by every second chunk, a local-copy semaphore by every third. -/
def Fam.rounds : Fam → ℕ
  | .ina _ => 16 | .inb _ => 16
  | .lca s => if s.val = 2 then 10 else 11 | .lcb s => if s.val = 2 then 10 else 11
  | _ => 1

variable (m : (ℓ : Loc nD τ sig) → Buf (Elt F) ℓ)

/-! ## The pieces as assertions -/

/-! ## The payloads -/

def payIna (c : Dev nD) (j : Fin 2) (r : ℕ) : sProp 𝕄 :=
  if h : r < 16 then iprop(piece c (viaS j) fullShare (vinA m c (chunk2 j r h)) ∗ piece c (xA c (chunk2 j r h)) fullShare (Xc m c)) else iprop(emp)
def payInb (c : Dev nD) (j : Fin 2) (r : ℕ) : sProp 𝕄 :=
  if h : r < 16 then iprop(piece c (vibS j) fullShare (vinB m c (chunk2 j r h)) ∗ piece c (xB c (chunk2 j r h)) fullShare (Xc m c)) else iprop(emp)
def payLca (c : Dev nD) (s : Fin 3) (r : ℕ) : sProp 𝕄 :=
  if h : r < (if s.val = 2 then 10 else 11) then
    iprop(piece c (oA c (chunk3 s r h)) fullShare (outA m c (chunk3 s r h)) ∗ piece c (vcaMine c s) fullShare (vcA m c (chunk3 s r h))) else iprop(emp)
def payLcb (c : Dev nD) (s : Fin 3) (r : ℕ) : sProp 𝕄 :=
  if h : r < (if s.val = 2 then 10 else 11) then
    iprop(piece c (oB c (chunk3 s r h)) fullShare (outB m c (chunk3 s r h)) ∗ piece c (vcbMine c s) fullShare (vcB m c (chunk3 s r h))) else iprop(emp)
/-- The copy out of the landing slot reads it at the left half of the share, the relay at the right half. -/
def payLo (c : Dev nD) (k : Fin 32) : sProp 𝕄 :=
  iprop(piece c (oR c k) fullShare (outL m c k) ∗ piece c (ldS k) fullShare.left (landed m c k))
def payDs (c : Dev nD) (k : Fin 32) : sProp 𝕄 := piece c (vcaPeer c (slot3 k)) fullShare (vcA m c k)
def payDr (c : Dev nD) (k : Fin 32) : sProp 𝕄 := piece c (ldS k) fullShare (landed m c k)
def payFs (c : Dev nD) (k : Fin 32) : sProp 𝕄 := piece c (ldS k) fullShare.right (landed m c k)
def payFr (c : Dev nD) (k : Fin 32) : sProp 𝕄 := piece c (oR (py c) k) fullShare (outF m c k)
/-- The handshake: the x-peer's signal (duty `false`) hands over its whole landing buffer, the y-peer's (duty `true`) the
    32 blocks of its result this device's relays write. -/
def payBar (c : Dev nD) (d : Bool) : sProp 𝕄 :=
  if d then bigSep Finset.univ fun k : Fin 32 => iprop(∃ f, piece (py c) (oR c k) fullShare f)
  else iprop(∃ f, piece (px c) ldM fullShare f)

def payOf (c : Dev nD) (r : ℕ) (d : Bool) : Fam → sProp 𝕄
  | .ina j => payIna m c j r | .inb j => payInb m c j r | .lca s => payLca m c s r | .lcb s => payLcb m c s r
  | .lo k => payLo m c k | .ds k => payDs m c k | .dr k => payDr m c k | .fs k => payFs m c k | .fr k => payFr m c k
  | .bar => payBar c d

def amountOfFam : Fam → ℕ
  | .ina _ => Nin | .inb _ => Nin | .bar => 1 | _ => Nout

theorem amountOfFam_pos (f : Fam) : 0 < amountOfFam f := by
  cases f with
  | ina _ => exact Nin_pos
  | inb _ => exact Nin_pos
  | lca _ => exact Nout_pos
  | lcb _ => exact Nout_pos
  | lo _ => exact Nout_pos
  | ds _ => exact Nout_pos
  | dr _ => exact Nout_pos
  | fs _ => exact Nout_pos
  | fr _ => exact Nout_pos
  | bar => exact Nat.one_pos

/-- The schedule: a cell of family `f` on a TensorCore has `f.rounds` rounds, each of the one duty `false` — the barrier cell
    of both duties —; its units are the copied block's credit (one unit for a barrier signal). -/
def Rd : Rounds.Schedule (GSem nD τ sig) Bool 𝕄 where
  duties g r := if g.1.2 = .tc then (match decode g.2 with
    | some f => if r < f.rounds then (if f = .bar then Finset.univ else {false}) else ∅
    | none => ∅) else ∅
  unitless _ := False
  amount g _ _ := match decode g.2 with | some f => amountOfFam f | none => 1
  payload g r d := match decode g.2 with | some f => payOf m g.1.1 r d f | none => iprop(emp)
  amount_pos g _ _ _ := by
    cases h : decode g.2 with
    | none => exact Nat.one_pos
    | some f => exact amountOfFam_pos f

/-! ## The schedule's tables -/

section Tables
variable (c : Dev nD) (f : Fam)

theorem duties_of {r : ℕ} (h : r < f.rounds) (hb : f ≠ .bar) : (Rd (F := F) m).duties (cell c f) r = {false} := by
  dsimp only [Rd]; rw [if_pos rfl, decode_sem]; dsimp only; rw [if_pos h, if_neg hb]
theorem duties_bar : (Rd (F := F) m).duties (cell c .bar) 0 = Finset.univ := by
  dsimp only [Rd]; rw [if_pos rfl, decode_sem]; dsimp only; rw [if_pos (by decide), if_pos rfl]
theorem duties_later {r : ℕ} (h : f.rounds ≤ r) : (Rd (F := F) m).duties (cell c f) r = ∅ := by
  dsimp only [Rd]; rw [if_pos rfl, decode_sem]; dsimp only; rw [if_neg (by omega)]
theorem amount_of (r : ℕ) (d : Bool) : (Rd (F := F) m).amount (cell c f) r d = amountOfFam f := by
  dsimp only [Rd]; rw [decode_sem]
theorem payload_of (r : ℕ) (d : Bool) : (Rd (F := F) m).payload (cell c f) r d = payOf m c r d f := by
  dsimp only [Rd]; rw [decode_sem]
theorem expect_of {r : ℕ} (h : r < f.rounds) (hb : f ≠ .bar) : (Rd (F := F) m).expect (cell c f) r = amountOfFam f := by
  unfold Schedule.expect Schedule.amountOf; rw [duties_of m c f h hb, Finset.sum_singleton, amount_of]
theorem expect_bar : (Rd (F := F) m).expect (cell c .bar) 0 = 2 := by
  unfold Schedule.expect Schedule.amountOf
  rw [duties_bar, Finset.sum_congr rfl fun d _ => amount_of m c .bar 0 d, Finset.sum_const, Finset.card_univ, Fintype.card_bool, smul_eq_mul]; rfl
theorem rest_of {r : ℕ} (h : r < f.rounds) (hb : f ≠ .bar) :
    bigSep ((Rd (F := F) m).duties (cell c f) r \ ∅) (fun d => (Rd (F := F) m).payload (cell c f) r d) = payOf m c r false f := by
  rw [Finset.sdiff_empty, duties_of m c f h hb, bigSep_singleton, payload_of]
theorem rest_bar : bigSep ((Rd (F := F) m).duties (cell c .bar) 0 \ ∅) (fun d => (Rd (F := F) m).payload (cell c .bar) 0 d)
    = iprop(payBar (F := F) c false ∗ payBar c true) := by
  rw [Finset.sdiff_empty, duties_bar, bigSep_univ_eq_bigSepL [false, true] (by decide) (by decide), bigSepL_cons_cons, bigSepL_singleton,
    payload_of, payload_of]
  rfl

end Tables

end Cert.KernelIdealA2A
end
-- ==== Proof.A2AGhost.lean ====
/-
  The ghost state of the protocol: the levels that order the waits, what a device still owes its peers, what each
  device's body starts from (per chunk: the tokens of the duties it pays, its positions on the chunk's own cells, the
  credit its peers owe it) and what it ends with (every buffer whole again, every own counter at zero).
-/
import proofs.«900012_g7700000000000013_dist_a2a_v7x_xy2x2_x_m16384_n1024_bf16_1_alg».proof.Proof.A2ASched

noncomputable section

namespace Cert.KernelIdealA2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Levels: own copies lowest, then the handshake, then the landings chunk by chunk (a landing along x below the relay of the same chunk) -/

def L (g : GSem nD τ sig) : Finset Unit := if g.1.2 = .tc then {()} else ∅
def lvF : Fam → ℕ
  | .bar => 1 | .dr k => 2 + 2 * k.val | .fr k => 3 + 2 * k.val | _ => 0
def lv (g : GSem nD τ sig) (_ : Unit) : ℕ := match decode g.2 with | some f => lvF f | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (f : Fam) (u : Unit) : lv (cell c f) u = lvF f := by unfold lv; rw [decode_sem]

/-! ## What a device owes: the landings of its copies along x from chunk `n` on, of its relays from chunk `n` on, and its two handshake signals -/

def oweD (c : Dev nD) (n : ℕ) : CellTallies nD τ sig Unit :=
  ∑ k ∈ Finset.univ.filter (fun k : Fin 32 => n ≤ k.val), tallyAt (cell (px c) (.dr k)) () Nout
def oweF (c : Dev nD) (n : ℕ) : CellTallies nD τ sig Unit :=
  ∑ k ∈ Finset.univ.filter (fun k : Fin 32 => n ≤ k.val), tallyAt (cell (py c) (.fr k)) () Nout
/-- At launch: everything, summed so that the first signal (to `px c`) peels the last summand and the second (to `py c`) the next. -/
def O₀ (c : Dev nD) : CellTallies nD τ sig Unit :=
  oweD c 0 + oweF c 0 + tallyAt (cell (py c) .bar) () 1 + tallyAt (cell (px c) .bar) () 1

/-! ## The invariants' names and the rounds reached at launch, for every cell of every device -/

/-- One assertion per cell of a device, family by family. -/
def overFam (Φ : Fam → sProp 𝕄) : sProp 𝕄 :=
  iprop((bigSep Finset.univ fun j : Fin 2 => Φ (.ina j)) ∗ (bigSep Finset.univ fun j : Fin 2 => Φ (.inb j))
    ∗ (bigSep Finset.univ fun s : Fin 3 => Φ (.lca s)) ∗ (bigSep Finset.univ fun s : Fin 3 => Φ (.lcb s))
    ∗ (bigSep Finset.univ fun k : Fin 32 => Φ (.lo k)) ∗ (bigSep Finset.univ fun k : Fin 32 => Φ (.ds k))
    ∗ (bigSep Finset.univ fun k : Fin 32 => Φ (.dr k)) ∗ (bigSep Finset.univ fun k : Fin 32 => Φ (.fs k))
    ∗ (bigSep Finset.univ fun k : Fin 32 => Φ (.fr k)) ∗ Φ .bar)

theorem overFam_elim (Φ : Fam → sProp 𝕄) (f : Fam) : overFam Φ ⊢ Φ f := by
  unfold overFam
  cases f with
  | ina j =>
    have h : (bigSep Finset.univ (fun j : Fin 2 => Φ (.ina j)) : sProp 𝕄) ⊢ Φ (.ina j) := bigSep_elim (Finset.mem_univ j)
    iintro ⟨H1, H2, H3, H4, H5, H6, H7, H8, H9, H10⟩
    iapply h
    iexact H1
  | inb j =>
    have h : (bigSep Finset.univ (fun j : Fin 2 => Φ (.inb j)) : sProp 𝕄) ⊢ Φ (.inb j) := bigSep_elim (Finset.mem_univ j)
    iintro ⟨H1, H2, H3, H4, H5, H6, H7, H8, H9, H10⟩
    iapply h
    iexact H2
  | lca s =>
    have h : (bigSep Finset.univ (fun s : Fin 3 => Φ (.lca s)) : sProp 𝕄) ⊢ Φ (.lca s) := bigSep_elim (Finset.mem_univ s)
    iintro ⟨H1, H2, H3, H4, H5, H6, H7, H8, H9, H10⟩
    iapply h
    iexact H3
  | lcb s =>
    have h : (bigSep Finset.univ (fun s : Fin 3 => Φ (.lcb s)) : sProp 𝕄) ⊢ Φ (.lcb s) := bigSep_elim (Finset.mem_univ s)
    iintro ⟨H1, H2, H3, H4, H5, H6, H7, H8, H9, H10⟩
    iapply h
    iexact H4
  | lo k =>
    have h : (bigSep Finset.univ (fun k : Fin 32 => Φ (.lo k)) : sProp 𝕄) ⊢ Φ (.lo k) := bigSep_elim (Finset.mem_univ k)
    iintro ⟨H1, H2, H3, H4, H5, H6, H7, H8, H9, H10⟩
    iapply h
    iexact H5
  | ds k =>
    have h : (bigSep Finset.univ (fun k : Fin 32 => Φ (.ds k)) : sProp 𝕄) ⊢ Φ (.ds k) := bigSep_elim (Finset.mem_univ k)
    iintro ⟨H1, H2, H3, H4, H5, H6, H7, H8, H9, H10⟩
    iapply h
    iexact H6
  | dr k =>
    have h : (bigSep Finset.univ (fun k : Fin 32 => Φ (.dr k)) : sProp 𝕄) ⊢ Φ (.dr k) := bigSep_elim (Finset.mem_univ k)
    iintro ⟨H1, H2, H3, H4, H5, H6, H7, H8, H9, H10⟩
    iapply h
    iexact H7
  | fs k =>
    have h : (bigSep Finset.univ (fun k : Fin 32 => Φ (.fs k)) : sProp 𝕄) ⊢ Φ (.fs k) := bigSep_elim (Finset.mem_univ k)
    iintro ⟨H1, H2, H3, H4, H5, H6, H7, H8, H9, H10⟩
    iapply h
    iexact H8
  | fr k =>
    have h : (bigSep Finset.univ (fun k : Fin 32 => Φ (.fr k)) : sProp 𝕄) ⊢ Φ (.fr k) := bigSep_elim (Finset.mem_univ k)
    iintro ⟨H1, H2, H3, H4, H5, H6, H7, H8, H9, H10⟩
    iapply h
    iexact H9
  | bar =>
    iintro ⟨H1, H2, H3, H4, H5, H6, H7, H8, H9, H10⟩
    iexact H10

def records (K : Dev nD × Fam → ℕ) : sProp 𝕄 :=
  bigSep Finset.univ fun c : Dev nD => overFam fun f => iprop(cellInv ER (Rd m) (K (c, f)) (cell c f) ∗ reached ER (cell c f) 0)

instance records_persistent (K : Dev nD × Fam → ℕ) : BI.Persistent (records m K) := by unfold records overFam; infer_instance

theorem inv_at (K : Dev nD × Fam → ℕ) (c : Dev nD) (f : Fam) : records m K ⊢ cellInv ER (Rd m) (K (c, f)) (cell c f) := by
  unfold records
  refine (bigSep_elim (Finset.mem_univ c)).trans ((overFam_elim _ f).trans ?_)
  iintro ⟨H, -⟩; iexact H
theorem reached0_at (K : Dev nD × Fam → ℕ) (c : Dev nD) (f : Fam) : records m K ⊢ reached ER (cell c f) 0 := by
  unfold records
  refine (bigSep_elim (Finset.mem_univ c)).trans ((overFam_elim _ f).trans ?_)
  iintro ⟨-, H⟩; iexact H

/-! ## What a device's body starts from -/

/-- Chunk `k`'s share of the ghost state: the tokens of the nine duties the device pays for it (four on its multi-round
    cells at the chunk's round, three on the chunk's own local and send cells, the two landings on its peers), its
    positions on the chunk's five one-round cells, and the credit its two peers owe it for the chunk. -/
def chunkRes (c : Dev nD) (k : Fin 32) : sProp 𝕄 :=
  iprop(dutyTok ER (cell c (.ina (slot2 k))) (k.val / 2) false ∗ dutyTok ER (cell c (.inb (slot2 k))) (k.val / 2) false
    ∗ dutyTok ER (cell c (.lca (slot3 k))) (k.val / 3) false ∗ dutyTok ER (cell c (.lcb (slot3 k))) (k.val / 3) false
    ∗ dutyTok ER (cell c (.lo k)) 0 false ∗ dutyTok ER (cell c (.ds k)) 0 false ∗ dutyTok ER (cell c (.fs k)) 0 false
    ∗ dutyTok ER (cell (px c) (.dr k)) 0 false ∗ dutyTok ER (cell (py c) (.fr k)) 0 false
    ∗ atPos ER (cell c (.lo k)) 0 ∅ 0 ∗ atPos ER (cell c (.ds k)) 0 ∅ 0 ∗ atPos ER (cell c (.dr k)) 0 ∅ 0
    ∗ atPos ER (cell c (.fs k)) 0 ∅ 0 ∗ atPos ER (cell c (.fr k)) 0 ∅ 0
    ∗ cred (tallyAt (cell c (.dr k)) () Nout) ∗ cred (tallyAt (cell c (.fr k)) () Nout))

def ghost (K : Dev nD × Fam → ℕ) (c : Dev nD) : sProp 𝕄 :=
  iprop(records m K ∗ bigSep Finset.univ (chunkRes (F := F) c)
    ∗ (bigSep Finset.univ fun j : Fin 2 => iprop(atPos ER (cell c (.ina j)) 0 ∅ 0 ∗ atPos ER (cell c (.inb j)) 0 ∅ 0))
    ∗ (bigSep Finset.univ fun s : Fin 3 => iprop(atPos ER (cell c (.lca s)) 0 ∅ 0 ∗ atPos ER (cell c (.lcb s)) 0 ∅ 0))
    ∗ atPos ER (cell c .bar) 0 ∅ 0 ∗ cred (tallyAt (cell c .bar) () 2)
    ∗ dutyTok ER (cell (px c) .bar) 0 false ∗ dutyTok ER (cell (py c) .bar) 0 true
    ∗ levAts L lv)

/-- A whole buffer of the device at some contents. -/
abbrev someBuf (c : Dev nD) (b : Ref sig .tc) : sProp 𝕄 := iprop(∃ f : Buf (Elt F) ((c : Thread nD τ).loc b), ((c : Thread nD τ).loc b) ↦{fullShare} f)

/-- Before the body: the ghost state, the five scratch buffers at whatever they hold, `x` and the result as launched. -/
def Φ₀ (c : Dev nD) : sProp 𝕄 :=
  iprop((∃ K, ghost m K c)
    ∗ someBuf c cc0_scratch0 ∗ someBuf c cc0_scratch1 ∗ someBuf c cc0_scratch2 ∗ someBuf c cc0_scratch3 ∗ someBuf c cc0_scratch4
    ∗ (((c : Thread nD τ).loc main_arg0) ↦{fullShare} Xc m c) ∗ (((c : Thread nD τ).loc main_v1) ↦{fullShare} m ((c : Thread nD τ).loc main_v1)))

/-- What the result holds after the body: on each of its 128 blocks, what the block's copy wrote. -/
def OutOk (c : Dev nD) (g : Buf (Elt F) ((c : Thread nD τ).loc main_v1)) : Prop :=
  (∀ k : Fin 32, ∀ i ∈ (oA c k).view.set, g i = outA m c k i) ∧ (∀ k : Fin 32, ∀ i ∈ (oB c k).view.set, g i = outB m c k i)
  ∧ (∀ k : Fin 32, ∀ i ∈ (oR c k).view.set, g i = outL m c k i) ∧ (∀ k : Fin 32, ∀ i ∈ (oR (py c) k).view.set, g i = outF m c k i)

/-- After the body: the scratch buffers whole at something, `x` as launched, the result at the written blocks, and every
    one of the device's own (scoped) counters at zero. -/
def Φ₁ (c : Dev nD) : sProp 𝕄 :=
  iprop(someBuf c cc0_scratch0 ∗ someBuf c cc0_scratch1 ∗ someBuf c cc0_scratch2 ∗ someBuf c cc0_scratch3 ∗ someBuf c cc0_scratch4
    ∗ (((c : Thread nD τ).loc main_arg0) ↦{fullShare} Xc m c)
    ∗ (∃ g, ⌜OutOk m c g⌝ ∗ (((c : Thread nD τ).loc main_v1) ↦{fullShare} g))
    ∗ bigSep Finset.univ fun q : DmaSem sig => semVal ((c : Thread nD τ), .dma q) 0)

end Cert.KernelIdealA2A
end
-- ==== Proof.A2AOps.lean ====
/-
  The operations of the all-to-all's body, one lemma per kind: each takes the pieces, tokens and positions the operation
  needs and gives back what it leaves, over the rounds schedule of the kernel's cells.
-/
import proofs.«900012_g7700000000000013_dist_a2a_v7x_xy2x2_x_m16384_n1024_bf16_1_alg».proof.Proof.A2AGhost

noncomputable section

namespace Cert.KernelIdealA2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! # The body's operations, one lemma per kind -/

variable (K : Dev nD × Fam → ℕ)

/-! ## Which chunk a round of a multi-round cell carries -/

theorem chunk2_at (k : Fin 32) (h : k.val / 2 < 16) : chunk2 (slot2 k) (k.val / 2) h = k := Fin.ext (by show 2 * (k.val / 2) + k.val % 2 = k.val; omega)
theorem chunk3_at (k : Fin 32) (h : k.val / 3 < (if (slot3 k).val = 2 then 10 else 11)) : chunk3 (slot3 k) (k.val / 3) h = k :=
  Fin.ext (by show 3 * (k.val / 3) + k.val % 3 = k.val; omega)
theorem round2_lt (k : Fin 32) : k.val / 2 < 16 := by have := k.isLt; omega
theorem round3_lt (k : Fin 32) : k.val / 3 < (if (slot3 k).val = 2 then 10 else 11) := by
  have := k.isLt; show k.val / 3 < (if k.val % 3 = 2 then 10 else 11); split <;> omega

/-- What is written under a view does not depend on what it is written over. -/
theorem piece_write_over (c : Dev nD) {sp : Space} {S : Shape} {e : EltTy} (M : Memref sig .tc sp S e)
    (q : PosShare TreeShare) (f g : Buf (Elt F) (M.view.loc (c : Thread nD τ))) (w : S.Idx → Elt F e) :
    piece c M q (M.view.write (Elt F) f w Finset.univ) = piece c M q (M.view.write (Elt F) g w Finset.univ) :=
  pointsTo_congr fun i hi => by
    obtain ⟨y, -, rfl⟩ := Finset.mem_map.mp hi
    rw [View.write_emb_of_mem _ _ (Finset.mem_univ y), View.write_emb_of_mem _ _ (Finset.mem_univ y)]

/-! ## The payloads at a chunk -/

theorem payIna_at (c : Dev nD) (k : Fin 32) :
    payIna m c (slot2 k) (k.val / 2) = iprop(piece c (viaS (slot2 k)) fullShare (vinA m c k) ∗ piece c (xA c k) fullShare (Xc m c)) := by
  unfold payIna; rw [dif_pos (round2_lt k), chunk2_at]
theorem payInb_at (c : Dev nD) (k : Fin 32) :
    payInb m c (slot2 k) (k.val / 2) = iprop(piece c (vibS (slot2 k)) fullShare (vinB m c k) ∗ piece c (xB c k) fullShare (Xc m c)) := by
  unfold payInb; rw [dif_pos (round2_lt k), chunk2_at]
theorem payLca_at (c : Dev nD) (k : Fin 32) :
    payLca m c (slot3 k) (k.val / 3) = iprop(piece c (oA c k) fullShare (outA m c k) ∗ piece c (vcaMine c (slot3 k)) fullShare (vcA m c k)) := by
  unfold payLca; rw [dif_pos (round3_lt k), chunk3_at]
theorem payLcb_at (c : Dev nD) (k : Fin 32) :
    payLcb m c (slot3 k) (k.val / 3) = iprop(piece c (oB c k) fullShare (outB m c k) ∗ piece c (vcbMine c (slot3 k)) fullShare (vcB m c k)) := by
  unfold payLcb; rw [dif_pos (round3_lt k), chunk3_at]

/-! ## A local copy on a cell of the device, and the wait for a round of a DMA cell -/

/-- A local copy paying the one duty of round `r` of cell `f` of the device. -/
theorem wp_copy_cell (c : Dev nD) (f : Fam) (hb : f ≠ .bar) (r : ℕ) (hr : r < f.rounds) {sp sp' : Space} {s : Shape} {e : EltTy}
    {src : Memref sig .tc sp s e} {dst : Memref sig .tc sp' s e}
    {hsrc : src.view.WordExact} {hdst : dst.view.WordExact} {hsem : DmaTarget.Typed (nD := nD) sp f.sem (DmaTarget.here (p := .tc) dst)}
    {α : Type} {Q : α → sProp 𝕄} {kk : PUnit → Prog (TpuEff nD τ sig (Elt F) Λ₀ .tc) α}
    (q : PosShare TreeShare) (fs : Buf (Elt F) (src.view.loc (c : Thread nD τ))) (fd : Buf (Elt F) (dst.view.loc (c : Thread nD τ)))
    (hN : dst.view.amount f.sem = amountOfFam f)
    (hpay : iprop(piece c dst fullShare (dst.view.write (Elt F) fd (src.view.read (Elt F) fs) Finset.univ) ∗ piece c src q fs) ⊢ payOf m c r false f) :
    iprop(cellInv ER (Rd m) (K (c, f)) (cell c f) ∗ reached ER (cell c f) r ∗ piece c src q fs ∗ piece c dst fullShare fd
        ∗ dutyTok ER (cell c f) r false)
      ⊢ iprop((cred (tallyAt (cell c f) () (amountOfFam f)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) f.sem hsrc hdst hsem) kk) Q) := by
  have hd : false ∈ (Rd m).duties (cell c f) r := by rw [duties_of m c f hr hb]; exact Finset.mem_singleton_self _
  iintro ⟨#Hg, #Hr, Hs, Hd, Htok⟩ Hk
  iapply (Rounds.wp_copy_pointsTo 𝒱₀ ER (Rd m) (c : Thread nD τ) none (κ := K (c, f)) (r := r) (d := false) (q := q) (fs := fs) (fd := fd)
    hd () (amountOfFam f) hN (amount_of m c f r false) (by rw [payload_of]; exact hpay)) $$ [Hs Hd Htok]
  · isplitr; · iexact Hg
    isplitl [Hs]; · iexact Hs
    isplitl [Hd]; · iexact Hd
    isplitl [Htok]; · iexact Htok
    iexact Hr
  iexact Hk

/-- The wait for the rest of round `r` of a DMA cell `f` of the device, holding the round's credit. -/
theorem wp_wait_cell (c : Dev nD) (f : Fam) (hb : f ≠ .bar) (r : ℕ) (hr : r < f.rounds) (sem : DmaSem sig) (hf : f.sem = .dma sem)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = amountOfFam f) (O : CellTallies nD τ sig Unit) (W : Waits sig Unit) :
    iprop(cellInv ER (Rd m) (K (c, f)) (cell c f) ∗ cred (tallyAt (cell c f) () (amountOfFam f)) ∗ owes (c : Thread nD τ) O W
        ∗ MayWait (c : Thread nD τ) f.sem () O ∗ atPos ER (cell c f) r ∅ 0)
      ⊢ iprop(((owes (c : Thread nD τ) O (insert (f.sem, ()) W) ∗ atPos ER (cell c f) (r + 1) ∅ 0 ∗ reached ER (cell c f) (r + 1)
              ∗ payOf m c r false f) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  rw [← rest_of m c f hr hb]
  exact Rounds.wp_wait_rest_token 𝒱₀ ER (Rd m) (c : Thread nD τ) none (κ := K (c, f)) (sm := f.sem) (k' := amountOfFam f)
    (fun K' => by rw [hf, ← hN]; exact wpE_waitDma2_eq 𝒱₀ (c : Thread nD τ) none Set.univ K') (Set.mem_univ _) () (O := O) (W := W) (R := r) (m := 0) (T := ∅)
    (by rw [Nat.zero_add, expect_of m c f hr hb])

/-! ## Staging a chunk of `x` -/

/-- The copy of chunk `k`'s rows of the relayed half of `x` into its staging slot. -/
theorem wp_stage_a (c : Dev nD) (k : Fin 32)
    {hsrc : (xA c k).view.WordExact} {hdst : (viaS (slot2 k)).view.WordExact} {hsem : DmaTarget.Typed (nD := nD) .hbm (.dma (inaS (slot2 k))) (DmaTarget.here (p := .tc) (viaS (slot2 k)))}
    {α : Type} {Q : α → sProp 𝕄} {kk : PUnit → Prog (TpuEff nD τ sig (Elt F) Λ₀ .tc) α}
    (fd : Buf (Elt F) ((viaS (slot2 k)).view.loc (c : Thread nD τ))) :
    iprop(cellInv ER (Rd m) (K (c, .ina (slot2 k))) (cell c (.ina (slot2 k))) ∗ reached ER (cell c (.ina (slot2 k))) (k.val / 2)
        ∗ piece c (xA c k) fullShare (Xc m c) ∗ piece c (viaS (slot2 k)) fullShare fd ∗ dutyTok ER (cell c (.ina (slot2 k))) (k.val / 2) false)
      ⊢ iprop((cred (tallyAt (cell c (.ina (slot2 k))) () Nin) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (xA c k) (.here (viaS (slot2 k))) (.dma (inaS (slot2 k))) hsrc hdst hsem) kk) Q) := by
  refine wp_copy_cell m K c (.ina (slot2 k)) (by intro h; cases h) (k.val / 2) (round2_lt k) _ _ fd rfl ?_
  show _ ⊢ payIna m c (slot2 k) (k.val / 2)
  rw [payIna_at, piece_write_over c (viaS (slot2 k)) fullShare fd (m _)]
  exact .rfl

/-- The copy of chunk `k`'s rows of the other half. -/
theorem wp_stage_b (c : Dev nD) (k : Fin 32)
    {hsrc : (xB c k).view.WordExact} {hdst : (vibS (slot2 k)).view.WordExact} {hsem : DmaTarget.Typed (nD := nD) .hbm (.dma (inbS (slot2 k))) (DmaTarget.here (p := .tc) (vibS (slot2 k)))}
    {α : Type} {Q : α → sProp 𝕄} {kk : PUnit → Prog (TpuEff nD τ sig (Elt F) Λ₀ .tc) α}
    (fd : Buf (Elt F) ((vibS (slot2 k)).view.loc (c : Thread nD τ))) :
    iprop(cellInv ER (Rd m) (K (c, .inb (slot2 k))) (cell c (.inb (slot2 k))) ∗ reached ER (cell c (.inb (slot2 k))) (k.val / 2)
        ∗ piece c (xB c k) fullShare (Xc m c) ∗ piece c (vibS (slot2 k)) fullShare fd ∗ dutyTok ER (cell c (.inb (slot2 k))) (k.val / 2) false)
      ⊢ iprop((cred (tallyAt (cell c (.inb (slot2 k))) () Nin) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (xB c k) (.here (vibS (slot2 k))) (.dma (inbS (slot2 k))) hsrc hdst hsem) kk) Q) := by
  refine wp_copy_cell m K c (.inb (slot2 k)) (by intro h; cases h) (k.val / 2) (round2_lt k) _ _ fd rfl ?_
  show _ ⊢ payInb m c (slot2 k) (k.val / 2)
  rw [payInb_at, piece_write_over c (vibS (slot2 k)) fullShare fd (m _)]
  exact .rfl

/-! ## The local copies into the result -/

/-- The device's own columns of chunk `k` of `vcast_a`, copied into the result. -/
theorem wp_lca (c : Dev nD) (k : Fin 32)
    {hsrc : (vcaMine c (slot3 k)).view.WordExact} {hdst : (oA c k).view.WordExact} {hsem : DmaTarget.Typed (nD := nD) .vmem (.dma (lcaS (slot3 k))) (DmaTarget.here (p := .tc) (oA c k))}
    {α : Type} {Q : α → sProp 𝕄} {kk : PUnit → Prog (TpuEff nD τ sig (Elt F) Λ₀ .tc) α}
    (fd : Buf (Elt F) ((oA c k).view.loc (c : Thread nD τ))) :
    iprop(cellInv ER (Rd m) (K (c, .lca (slot3 k))) (cell c (.lca (slot3 k))) ∗ reached ER (cell c (.lca (slot3 k))) (k.val / 3)
        ∗ piece c (vcaMine c (slot3 k)) fullShare (vcA m c k) ∗ piece c (oA c k) fullShare fd ∗ dutyTok ER (cell c (.lca (slot3 k))) (k.val / 3) false)
      ⊢ iprop((cred (tallyAt (cell c (.lca (slot3 k))) () Nout) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (vcaMine c (slot3 k)) (.here (oA c k)) (.dma (lcaS (slot3 k))) hsrc hdst hsem) kk) Q) := by
  refine wp_copy_cell m K c (.lca (slot3 k)) (by intro h; cases h) (k.val / 3) (round3_lt k) _ _ fd rfl ?_
  show _ ⊢ payLca m c (slot3 k) (k.val / 3)
  rw [payLca_at, piece_write_over c (oA c k) fullShare fd (m _)]
  exact .rfl

/-- The same of `vcast_b`. -/
theorem wp_lcb (c : Dev nD) (k : Fin 32)
    {hsrc : (vcbMine c (slot3 k)).view.WordExact} {hdst : (oB c k).view.WordExact} {hsem : DmaTarget.Typed (nD := nD) .vmem (.dma (lcbS (slot3 k))) (DmaTarget.here (p := .tc) (oB c k))}
    {α : Type} {Q : α → sProp 𝕄} {kk : PUnit → Prog (TpuEff nD τ sig (Elt F) Λ₀ .tc) α}
    (fd : Buf (Elt F) ((oB c k).view.loc (c : Thread nD τ))) :
    iprop(cellInv ER (Rd m) (K (c, .lcb (slot3 k))) (cell c (.lcb (slot3 k))) ∗ reached ER (cell c (.lcb (slot3 k))) (k.val / 3)
        ∗ piece c (vcbMine c (slot3 k)) fullShare (vcB m c k) ∗ piece c (oB c k) fullShare fd ∗ dutyTok ER (cell c (.lcb (slot3 k))) (k.val / 3) false)
      ⊢ iprop((cred (tallyAt (cell c (.lcb (slot3 k))) () Nout) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (vcbMine c (slot3 k)) (.here (oB c k)) (.dma (lcbS (slot3 k))) hsrc hdst hsem) kk) Q) := by
  refine wp_copy_cell m K c (.lcb (slot3 k)) (by intro h; cases h) (k.val / 3) (round3_lt k) _ _ fd rfl ?_
  show _ ⊢ payLcb m c (slot3 k) (k.val / 3)
  rw [payLcb_at, piece_write_over c (oB c k) fullShare fd (m _)]
  exact .rfl

/-- The landed chunk `k`, copied into the result; the landing slot is read at the left half of its share. -/
theorem wp_lo (c : Dev nD) (k : Fin 32)
    {hsrc : (ldS k).view.WordExact} {hdst : (oR c k).view.WordExact} {hsem : DmaTarget.Typed (nD := nD) .vmem (.dma (loS k)) (DmaTarget.here (p := .tc) (oR c k))}
    {α : Type} {Q : α → sProp 𝕄} {kk : PUnit → Prog (TpuEff nD τ sig (Elt F) Λ₀ .tc) α}
    (fd : Buf (Elt F) ((oR c k).view.loc (c : Thread nD τ))) :
    iprop(cellInv ER (Rd m) (K (c, .lo k)) (cell c (.lo k)) ∗ reached ER (cell c (.lo k)) (0)
        ∗ piece c (ldS k) fullShare.left (landed m c k) ∗ piece c (oR c k) fullShare fd ∗ dutyTok ER (cell c (.lo k)) (0) false)
      ⊢ iprop((cred (tallyAt (cell c (.lo k)) () Nout) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ldS k) (.here (oR c k)) (.dma (loS k)) hsrc hdst hsem) kk) Q) := by
  refine wp_copy_cell m K c (.lo k) (by intro h; cases h) 0 Nat.one_pos _ _ fd rfl ?_
  show _ ⊢ payLo m c k
  unfold payLo outL
  rw [piece_write_over c (oR c k) fullShare fd (m _)]

/-! ## The waits on the device's own cells -/

/-- The wait for chunk `k`'s staging copy: the staged slot and the rows of `x` come back. -/
theorem wp_wait_ina (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nin) (O : CellTallies nD τ sig Unit) (W : Waits sig Unit) :
    iprop(cellInv ER (Rd m) (K (c, .ina (slot2 k))) (cell c (.ina (slot2 k))) ∗ cred (tallyAt (cell c (.ina (slot2 k))) () Nin) ∗ owes (c : Thread nD τ) O W
        ∗ MayWait (c : Thread nD τ) (.dma (inaS (slot2 k))) () O ∗ atPos ER (cell c (.ina (slot2 k))) (k.val / 2) ∅ 0)
      ⊢ iprop(((owes (c : Thread nD τ) O (insert (SemLoc.dma (inaS (slot2 k)), ()) W) ∗ atPos ER (cell c (.ina (slot2 k))) (k.val / 2 + 1) ∅ 0
              ∗ reached ER (cell c (.ina (slot2 k))) (k.val / 2 + 1) ∗ piece c (viaS (slot2 k)) fullShare (vinA m c k) ∗ piece c (xA c k) fullShare (Xc m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (inaS (slot2 k)) src dst hsrc hdst) kk) Q) := by
  have h := wp_wait_cell m K c (.ina (slot2 k)) (by intro h; cases h) (k.val / 2) (round2_lt k) (inaS (slot2 k)) rfl (src := src) (dst := dst) (hsrc := hsrc) (hdst := hdst) (kk := kk) (Q := Q) hN O W
  rw [show payOf m c (k.val / 2) false (.ina (slot2 k)) = _ from payIna_at m c k] at h
  exact h

/-- The same for the other half. -/
theorem wp_wait_inb (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nin) (O : CellTallies nD τ sig Unit) (W : Waits sig Unit) :
    iprop(cellInv ER (Rd m) (K (c, .inb (slot2 k))) (cell c (.inb (slot2 k))) ∗ cred (tallyAt (cell c (.inb (slot2 k))) () Nin) ∗ owes (c : Thread nD τ) O W
        ∗ MayWait (c : Thread nD τ) (.dma (inbS (slot2 k))) () O ∗ atPos ER (cell c (.inb (slot2 k))) (k.val / 2) ∅ 0)
      ⊢ iprop(((owes (c : Thread nD τ) O (insert (SemLoc.dma (inbS (slot2 k)), ()) W) ∗ atPos ER (cell c (.inb (slot2 k))) (k.val / 2 + 1) ∅ 0
              ∗ reached ER (cell c (.inb (slot2 k))) (k.val / 2 + 1) ∗ piece c (vibS (slot2 k)) fullShare (vinB m c k) ∗ piece c (xB c k) fullShare (Xc m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (inbS (slot2 k)) src dst hsrc hdst) kk) Q) := by
  have h := wp_wait_cell m K c (.inb (slot2 k)) (by intro h; cases h) (k.val / 2) (round2_lt k) (inbS (slot2 k)) rfl (src := src) (dst := dst) (hsrc := hsrc) (hdst := hdst) (kk := kk) (Q := Q) hN O W
  rw [show payOf m c (k.val / 2) false (.inb (slot2 k)) = _ from payInb_at m c k] at h
  exact h

/-- The wait for chunk `k`'s local copy of `vcast_a`: the written block of the result and the half slot come back. -/
theorem wp_wait_lca (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .lca (slot3 k))) (cell c (.lca (slot3 k))) ∗ cred (tallyAt (cell c (.lca (slot3 k))) () Nout) ∗ owes (c : Thread nD τ) O W
        ∗ MayWait (c : Thread nD τ) (.dma (lcaS (slot3 k))) () O ∗ atPos ER (cell c (.lca (slot3 k))) (k.val / 3) ∅ 0)
      ⊢ iprop(((owes (c : Thread nD τ) O (insert (SemLoc.dma (lcaS (slot3 k)), ()) W) ∗ atPos ER (cell c (.lca (slot3 k))) (k.val / 3 + 1) ∅ 0
              ∗ reached ER (cell c (.lca (slot3 k))) (k.val / 3 + 1) ∗ piece c (oA c k) fullShare (outA m c k) ∗ piece c (vcaMine c (slot3 k)) fullShare (vcA m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (lcaS (slot3 k)) src dst hsrc hdst) kk) Q) := by
  have h := wp_wait_cell m K c (.lca (slot3 k)) (by intro h; cases h) (k.val / 3) (round3_lt k) (lcaS (slot3 k)) rfl (src := src) (dst := dst) (hsrc := hsrc) (hdst := hdst) (kk := kk) (Q := Q) hN O W
  rw [show payOf m c (k.val / 3) false (.lca (slot3 k)) = _ from payLca_at m c k] at h
  exact h

/-- The same of `vcast_b`. -/
theorem wp_wait_lcb (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .lcb (slot3 k))) (cell c (.lcb (slot3 k))) ∗ cred (tallyAt (cell c (.lcb (slot3 k))) () Nout) ∗ owes (c : Thread nD τ) O W
        ∗ MayWait (c : Thread nD τ) (.dma (lcbS (slot3 k))) () O ∗ atPos ER (cell c (.lcb (slot3 k))) (k.val / 3) ∅ 0)
      ⊢ iprop(((owes (c : Thread nD τ) O (insert (SemLoc.dma (lcbS (slot3 k)), ()) W) ∗ atPos ER (cell c (.lcb (slot3 k))) (k.val / 3 + 1) ∅ 0
              ∗ reached ER (cell c (.lcb (slot3 k))) (k.val / 3 + 1) ∗ piece c (oB c k) fullShare (outB m c k) ∗ piece c (vcbMine c (slot3 k)) fullShare (vcB m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (lcbS (slot3 k)) src dst hsrc hdst) kk) Q) := by
  have h := wp_wait_cell m K c (.lcb (slot3 k)) (by intro h; cases h) (k.val / 3) (round3_lt k) (lcbS (slot3 k)) rfl (src := src) (dst := dst) (hsrc := hsrc) (hdst := hdst) (kk := kk) (Q := Q) hN O W
  rw [show payOf m c (k.val / 3) false (.lcb (slot3 k)) = _ from payLcb_at m c k] at h
  exact h

/-- The wait for the copy out of landing slot `k`. -/
theorem wp_wait_lo (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .lo k)) (cell c (.lo k)) ∗ cred (tallyAt (cell c (.lo k)) () Nout) ∗ owes (c : Thread nD τ) O W
        ∗ MayWait (c : Thread nD τ) (.dma (loS k)) () O ∗ atPos ER (cell c (.lo k)) (0) ∅ 0)
      ⊢ iprop(((owes (c : Thread nD τ) O (insert (SemLoc.dma (loS k), ()) W) ∗ atPos ER (cell c (.lo k)) (0 + 1) ∅ 0
              ∗ reached ER (cell c (.lo k)) (0 + 1) ∗ piece c (oR c k) fullShare (outL m c k) ∗ piece c (ldS k) fullShare.left (landed m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (loS k) src dst hsrc hdst) kk) Q) := by
  have h := wp_wait_cell m K c (.lo k) (by intro h; cases h) (0) Nat.one_pos (loS k) rfl (src := src) (dst := dst) (hsrc := hsrc) (hdst := hdst) (kk := kk) (Q := Q) hN O W
  exact h

/-- The wait for the send of chunk `k` along x to have left: the sent half slot comes back. -/
theorem wp_wait_ds (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .ds k)) (cell c (.ds k)) ∗ cred (tallyAt (cell c (.ds k)) () Nout) ∗ owes (c : Thread nD τ) O W
        ∗ MayWait (c : Thread nD τ) (.dma (dsS k)) () O ∗ atPos ER (cell c (.ds k)) (0) ∅ 0)
      ⊢ iprop(((owes (c : Thread nD τ) O (insert (SemLoc.dma (dsS k), ()) W) ∗ atPos ER (cell c (.ds k)) (0 + 1) ∅ 0
              ∗ reached ER (cell c (.ds k)) (0 + 1) ∗ piece c (vcaPeer c (slot3 k)) fullShare (vcA m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsS k) src dst hsrc hdst) kk) Q) := by
  have h := wp_wait_cell m K c (.ds k) (by intro h; cases h) (0) Nat.one_pos (dsS k) rfl (src := src) (dst := dst) (hsrc := hsrc) (hdst := hdst) (kk := kk) (Q := Q) hN O W
  exact h

/-- The wait for the x-peer's chunk `k` to have landed: landing slot `k` at what landed. -/
theorem wp_wait_dr (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .dr k)) (cell c (.dr k)) ∗ cred (tallyAt (cell c (.dr k)) () Nout) ∗ owes (c : Thread nD τ) O W
        ∗ MayWait (c : Thread nD τ) (.dma (drS k)) () O ∗ atPos ER (cell c (.dr k)) (0) ∅ 0)
      ⊢ iprop(((owes (c : Thread nD τ) O (insert (SemLoc.dma (drS k), ()) W) ∗ atPos ER (cell c (.dr k)) (0 + 1) ∅ 0
              ∗ reached ER (cell c (.dr k)) (0 + 1) ∗ piece c (ldS k) fullShare (landed m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (drS k) src dst hsrc hdst) kk) Q) := by
  have h := wp_wait_cell m K c (.dr k) (by intro h; cases h) (0) Nat.one_pos (drS k) rfl (src := src) (dst := dst) (hsrc := hsrc) (hdst := hdst) (kk := kk) (Q := Q) hN O W
  exact h

/-- The wait for the relay of chunk `k` to have left: the right half of the landing slot's share comes back. -/
theorem wp_wait_fs (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .fs k)) (cell c (.fs k)) ∗ cred (tallyAt (cell c (.fs k)) () Nout) ∗ owes (c : Thread nD τ) O W
        ∗ MayWait (c : Thread nD τ) (.dma (fsS k)) () O ∗ atPos ER (cell c (.fs k)) (0) ∅ 0)
      ⊢ iprop(((owes (c : Thread nD τ) O (insert (SemLoc.dma (fsS k), ()) W) ∗ atPos ER (cell c (.fs k)) (0 + 1) ∅ 0
              ∗ reached ER (cell c (.fs k)) (0 + 1) ∗ piece c (ldS k) fullShare.right (landed m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (fsS k) src dst hsrc hdst) kk) Q) := by
  have h := wp_wait_cell m K c (.fs k) (by intro h; cases h) (0) Nat.one_pos (fsS k) rfl (src := src) (dst := dst) (hsrc := hsrc) (hdst := hdst) (kk := kk) (Q := Q) hN O W
  exact h

/-- The wait for the y-peer's relay of chunk `k` to have landed: the block of the result at what it wrote. -/
theorem wp_wait_fr (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .fr k)) (cell c (.fr k)) ∗ cred (tallyAt (cell c (.fr k)) () Nout) ∗ owes (c : Thread nD τ) O W
        ∗ MayWait (c : Thread nD τ) (.dma (frS k)) () O ∗ atPos ER (cell c (.fr k)) (0) ∅ 0)
      ⊢ iprop(((owes (c : Thread nD τ) O (insert (SemLoc.dma (frS k), ()) W) ∗ atPos ER (cell c (.fr k)) (0 + 1) ∅ 0
              ∗ reached ER (cell c (.fr k)) (0 + 1) ∗ piece c (oR (py c) k) fullShare (outF m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (frS k) src dst hsrc hdst) kk) Q) := by
  have h := wp_wait_cell m K c (.fr k) (by intro h; cases h) (0) Nat.one_pos (frS k) rfl (src := src) (dst := dst) (hsrc := hsrc) (hdst := hdst) (kk := kk) (Q := Q) hN O W
  exact h

/-! ## The copies addressed to the peers -/

/-- The x-peer's columns of chunk `k` of `vcast_a`, sent into the x-peer's landing slot `k`. -/
theorem wp_send_d (c n : Dev nD) (hn : n = px c) (k : Fin 32)
    {hsc : (ldS k : Memref sig (Dev.tc n : Thread nD τ).2.kind .vmem S256x1024 .bf16).view.ref.isScScratch = false}
    {hsrc : (vcaPeer c (slot3 k)).view.WordExact} {hdst : (ldS k).view.WordExact}
    {hsem : DmaTarget.Typed .vmem (.dma (drS k)) (.remote (Dev.tc n : Thread nD τ) (ldS k) (.dma (dsS k)) hsc)}
    {α : Type} {Q : α → sProp 𝕄} {kk : PUnit → Prog (TpuEff nD τ sig (Elt F) Λ₀ .tc) α}
    (fd : Buf (Elt F) ((ldS k).view.loc (px c : Thread nD τ))) (O : CellTallies nD τ sig Unit) (W : Waits sig Unit) :
    iprop(cellInv ER (Rd m) (K (c, .ds k)) (cell c (.ds k)) ∗ cellInv ER (Rd m) (K (px c, .dr k)) (cell (px c) (.dr k))
        ∗ reached ER (cell c (.ds k)) 0 ∗ reached ER (cell (px c) (.dr k)) 0
        ∗ piece c (vcaPeer c (slot3 k)) fullShare (vcA m c k) ∗ piece (px c) (ldS k) fullShare fd
        ∗ owes (c : Thread nD τ) (O + tallyAt (cell (px c) (.dr k)) () Nout) W
        ∗ dutyTok ER (cell c (.ds k)) 0 false ∗ dutyTok ER (cell (px c) (.dr k)) 0 false)
      ⊢ iprop(((cred (tallyAt (cell c (.ds k)) () Nout) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (vcaPeer c (slot3 k)) (.remote (Dev.tc n : Thread nD τ) (ldS k) (.dma (dsS k)) hsc) (.dma (drS k)) hsrc hdst hsem) kk) Q) := by
  subst hn
  have h1 : false ∈ (Rd m).duties (cell c (.ds k)) 0 := by rw [duties_of m c (.ds k) Nat.one_pos (by intro h; cases h)]; exact Finset.mem_singleton_self _
  have h2 : false ∈ (Rd m).duties (cell (px c) (.dr k)) 0 := by rw [duties_of m (px c) (.dr k) Nat.one_pos (by intro h; cases h)]; exact Finset.mem_singleton_self _
  iintro ⟨#Hg1, #Hg2, #Hr1, #Hr2, Hs, Hd, HO, Ht1, Ht2⟩ Hk
  iapply (Rounds.wp_send_pointsTo 𝒱₀ ER (Rd m) (c : Thread nD τ) none (κ₁ := K (c, .ds k)) (κ₂ := K (px c, .dr k))
    (r₁ := 0) (r₂ := 0) (d₁ := false) (d₂ := false) (fd := fd) (q := fullShare) (fs := vcA m c k)
    h1 h2 () () Nout rfl (amount_of m c (.ds k) 0 false) (amount_of m (px c) (.dr k) 0 false) O rfl (W := W)
    (by rw [payload_of]; exact .rfl)
    (by rw [payload_of]; show _ ⊢ payDr m (px c) k; unfold payDr landed; rw [px_px, piece_write_over (px c) (ldS k) fullShare (m _) fd])) $$ [Hs Hd HO Ht1 Ht2]
  · isplitr; · iexact Hg1
    isplitr; · iexact Hg2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- The relay of the landed chunk `k` into the y-peer's result; the landing slot is read at the right half of its share. -/
theorem wp_send_f (c n : Dev nD) (hn : n = py c) (k : Fin 32)
    {hsc : (oR c k : Memref sig (Dev.tc n : Thread nD τ).2.kind .hbm S256x1024 .bf16).view.ref.isScScratch = false}
    {hsrc : (ldS k).view.WordExact} {hdst : (oR c k).view.WordExact}
    {hsem : DmaTarget.Typed .vmem (.dma (frS k)) (.remote (Dev.tc n : Thread nD τ) (oR c k) (.dma (fsS k)) hsc)}
    {α : Type} {Q : α → sProp 𝕄} {kk : PUnit → Prog (TpuEff nD τ sig (Elt F) Λ₀ .tc) α}
    (fd : Buf (Elt F) ((oR c k).view.loc (py c : Thread nD τ))) (O : CellTallies nD τ sig Unit) (W : Waits sig Unit) :
    iprop(cellInv ER (Rd m) (K (c, .fs k)) (cell c (.fs k)) ∗ cellInv ER (Rd m) (K (py c, .fr k)) (cell (py c) (.fr k))
        ∗ reached ER (cell c (.fs k)) 0 ∗ reached ER (cell (py c) (.fr k)) 0
        ∗ piece c (ldS k) fullShare.right (landed m c k) ∗ piece (py c) (oR c k) fullShare fd
        ∗ owes (c : Thread nD τ) (O + tallyAt (cell (py c) (.fr k)) () Nout) W
        ∗ dutyTok ER (cell c (.fs k)) 0 false ∗ dutyTok ER (cell (py c) (.fr k)) 0 false)
      ⊢ iprop(((cred (tallyAt (cell c (.fs k)) () Nout) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ldS k) (.remote (Dev.tc n : Thread nD τ) (oR c k) (.dma (fsS k)) hsc) (.dma (frS k)) hsrc hdst hsem) kk) Q) := by
  subst hn
  have h1 : false ∈ (Rd m).duties (cell c (.fs k)) 0 := by rw [duties_of m c (.fs k) Nat.one_pos (by intro h; cases h)]; exact Finset.mem_singleton_self _
  have h2 : false ∈ (Rd m).duties (cell (py c) (.fr k)) 0 := by rw [duties_of m (py c) (.fr k) Nat.one_pos (by intro h; cases h)]; exact Finset.mem_singleton_self _
  iintro ⟨#Hg1, #Hg2, #Hr1, #Hr2, Hs, Hd, HO, Ht1, Ht2⟩ Hk
  iapply (Rounds.wp_send_pointsTo 𝒱₀ ER (Rd m) (c : Thread nD τ) none (κ₁ := K (c, .fs k)) (κ₂ := K (py c, .fr k))
    (r₁ := 0) (r₂ := 0) (d₁ := false) (d₂ := false) (fd := fd) (q := fullShare.right) (fs := landed m c k)
    h1 h2 () () Nout rfl (amount_of m c (.fs k) 0 false) (amount_of m (py c) (.fr k) 0 false) O rfl (W := W)
    (by rw [payload_of]; exact .rfl)
    (by rw [payload_of]; show _ ⊢ payFr m (py c) k; unfold payFr outF; rw [py_py, piece_write_over (py c) (oR c k) fullShare (m _) fd])) $$ [Hs Hd HO Ht1 Ht2]
  · isplitr; · iexact Hg1
    isplitr; · iexact Hg2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-! ## The handshake -/

theorem payload_bar_x (c : Dev nD) :
    (Rd (F := F) m).payload ((px c : Thread nD τ), SemLoc.reg barS) 0 false = iprop(∃ f, piece (F := F) c ldM fullShare f) := by
  rw [show ((px c : Thread nD τ), SemLoc.reg barS) = cell (px c) .bar from rfl, payload_of]
  show payBar (F := F) (px c) false = _
  unfold payBar; rw [if_neg (by decide), px_px]
theorem payload_bar_y (c : Dev nD) :
    (Rd (F := F) m).payload ((py c : Thread nD τ), SemLoc.reg barS) 0 true
      = (bigSep Finset.univ fun k : Fin 32 => iprop(∃ f, piece (F := F) c (oR (py c) k) fullShare f)) := by
  rw [show ((py c : Thread nD τ), SemLoc.reg barS) = cell (py c) .bar from rfl, payload_of]
  show payBar (F := F) (py c) true = _
  unfold payBar; rw [if_pos rfl, py_py]

/-- The signal to the x-peer: duty `false` of its barrier cell, handing over this device's whole landing buffer. -/
theorem wp_signal_x (c n : Dev nD) (hn : n = px c) (a : ℕ) (ha : a = 1)
    {α : Type} {Q : α → sProp 𝕄} {kk : PUnit → Prog (TpuEff nD τ sig (Elt F) Λ₀ .tc) α}
    (O : CellTallies nD τ sig Unit) (W : Waits sig Unit) :
    iprop(cellInv ER (Rd m) (K (px c, .bar)) (cell (px c) .bar) ∗ reached ER (cell (px c) .bar) 0
        ∗ owes (c : Thread nD τ) (O + tallyAt (cell (px c) .bar) () 1) W
        ∗ dutyTok ER (cell (px c) .bar) 0 false ∗ (∃ f, piece c ldM fullShare f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS a) kk) Q) := by
  subst hn; subst ha
  iintro ⟨#Hg, #Hr, HO, Htok, Hpay⟩ Hk
  iapply (Rounds.wp_signal 𝒱₀ ER (Rd m) (c : Thread nD τ) none (dst := (px c : Thread nD τ)) (κ := K (px c, .bar)) (d := false)
      (by show false ∈ (Rd m).duties (cell (px c) .bar) 0; rw [duties_bar]; exact Finset.mem_univ _) (amount_of m (px c) .bar 0 false) () O rfl) $$ [HO Htok Hpay]
  · isplitr; · iexact Hg
    isplitl [HO]; · iexact HO
    isplitl [Htok]; · iexact Htok
    isplitl [Hpay]
    · rw [payload_bar_x]; iexact Hpay
    iexact Hr
  iexact Hk

/-- The signal to the y-peer: duty `true` of its barrier cell, handing over the 32 blocks of this device's result its relays write. -/
theorem wp_signal_y (c n : Dev nD) (hn : n = py c) (a : ℕ) (ha : a = 1)
    {α : Type} {Q : α → sProp 𝕄} {kk : PUnit → Prog (TpuEff nD τ sig (Elt F) Λ₀ .tc) α}
    (O : CellTallies nD τ sig Unit) (W : Waits sig Unit) :
    iprop(cellInv ER (Rd m) (K (py c, .bar)) (cell (py c) .bar) ∗ reached ER (cell (py c) .bar) 0
        ∗ owes (c : Thread nD τ) (O + tallyAt (cell (py c) .bar) () 1) W
        ∗ dutyTok ER (cell (py c) .bar) 0 true ∗ (bigSep Finset.univ fun k : Fin 32 => iprop(∃ f, piece c (oR (py c) k) fullShare f)))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS a) kk) Q) := by
  subst hn; subst ha
  iintro ⟨#Hg, #Hr, HO, Htok, Hpay⟩ Hk
  iapply (Rounds.wp_signal 𝒱₀ ER (Rd m) (c : Thread nD τ) none (dst := (py c : Thread nD τ)) (κ := K (py c, .bar)) (d := true)
      (by show true ∈ (Rd m).duties (cell (py c) .bar) 0; rw [duties_bar]; exact Finset.mem_univ _) (amount_of m (py c) .bar 0 true) () O rfl) $$ [HO Htok Hpay]
  · isplitr; · iexact Hg
    isplitl [HO]; · iexact HO
    isplitl [Htok]; · iexact Htok
    isplitl [Hpay]
    · rw [payload_bar_y]; iexact Hpay
    iexact Hr
  iexact Hk

/-- The wait for both peers' signals: the x-peer's landing buffer and the 32 blocks of the y-peer's result come with them. -/
theorem wp_wait_bar (c : Dev nD) (a : ℕ) (ha : a = 2)
    {α : Type} {Q : α → sProp 𝕄} {kk : PUnit → Prog (TpuEff nD τ sig (Elt F) Λ₀ .tc) α}
    (O : CellTallies nD τ sig Unit) (W : Waits sig Unit) :
    iprop(cellInv ER (Rd m) (K (c, .bar)) (cell c .bar) ∗ cred (tallyAt (cell c .bar) () 2) ∗ owes (c : Thread nD τ) O W
        ∗ MayWait (c : Thread nD τ) (.reg barS) () O ∗ atPos ER (cell c .bar) 0 ∅ 0)
      ⊢ iprop(((owes (c : Thread nD τ) O (insert (SemLoc.reg barS, ()) W) ∗ atPos ER (cell c .bar) (0 + 1) ∅ 0 ∗ reached ER (cell c .bar) (0 + 1)
              ∗ (∃ f, piece (px c) ldM fullShare f) ∗ (bigSep Finset.univ fun k : Fin 32 => iprop(∃ f, piece (py c) (oR c k) fullShare f))) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS a) kk) Q) := by
  subst ha
  have e : bigSep ((Rd (F := F) m).duties (cell c .bar) 0 \ ∅) (fun d => (Rd (F := F) m).payload (cell c .bar) 0 d)
      = iprop((∃ f, piece (F := F) (px c) ldM fullShare f) ∗ (bigSep Finset.univ fun k : Fin 32 => iprop(∃ f, piece (F := F) (py c) (oR c k) fullShare f))) := by
    rw [rest_bar]; rfl
  rw [← e]
  exact Rounds.wp_wait_rest_token 𝒱₀ ER (Rd m) (c : Thread nD τ) none (κ := K (c, .bar)) (sm := .reg barS) (k' := 2)
    (wpE_semWait_eq 𝒱₀ (c : Thread nD τ) none Set.univ) (Set.mem_univ _) () (O := O) (W := W) (R := 0) (m := 0) (T := ∅)
    (by show 0 + 2 = (Rd m).expect (cell c .bar) 0; rw [expect_bar])

/-! ## Vector loads and stores of a slot -/

theorem viaS_set_eq (j : Fin 2) : viaM.view.setOn (rVin j).toLoadRect.set = (viaS j).view.set := by
  have h1 : (viaS j).view.set = (viaM.view.slice (rVin j)).set := View.set_reshape _ _
  have h2 : (viaM.view.slice (rVin j)).set = (rVin j).set.map viaM.view.emb := View.set_slice _ _
  exact (h1.trans h2).symm
theorem vibS_set_eq (j : Fin 2) : vibM.view.setOn (rVin j).toLoadRect.set = (vibS j).view.set := by
  have h1 : (vibS j).view.set = (vibM.view.slice (rVin j)).set := View.set_reshape _ _
  have h2 : (vibM.view.slice (rVin j)).set = (rVin j).set.map vibM.view.emb := View.set_slice _ _
  exact (h1.trans h2).symm

/-- The vector load of staging slot `j` of `vin_a`, from the slot's piece. -/
theorem wp_load_via (c : Dev nD) (j : Fin 2) {hl : viaM.view.LoadsAt (rVin j).toLoadRect}
    {α : Type} {Q : α → sProp 𝕄} {kk : ((rVin j).toLoadRect.shape.Idx → Elt F .f32) → Prog (TpuEff nD τ sig (Elt F) Λ₀ .tc) α}
    (q : PosShare TreeShare) (f : Buf (Elt F) ((viaS j).view.loc (c : Thread nD τ))) :
    piece c (viaS j) q f
      ⊢ iprop((piece c (viaS j) q f -∗ wp frame (wpE (defs₀ (F := F)) 𝒱₀ (c : Thread nD τ) none) Set.univ (kk (viaM.view.readAt (Elt F) (rVin j).toLoadRect f)) Q)
          -∗ wp frame (wpE (defs₀ (F := F)) 𝒱₀ (c : Thread nD τ) none) Set.univ (.op (.load viaM (rVin j).toLoadRect hl) kk) Q) := by
  exact wp_load 𝒱₀ (c : Thread nD τ) none Set.univ (m := viaM) (r := (rVin j).toLoadRect) (S := (viaS j).view.set) (q := q) (f := f) (by rw [viaS_set_eq j])
theorem wp_load_vib (c : Dev nD) (j : Fin 2) {hl : vibM.view.LoadsAt (rVin j).toLoadRect}
    {α : Type} {Q : α → sProp 𝕄} {kk : ((rVin j).toLoadRect.shape.Idx → Elt F .f32) → Prog (TpuEff nD τ sig (Elt F) Λ₀ .tc) α}
    (q : PosShare TreeShare) (f : Buf (Elt F) ((vibS j).view.loc (c : Thread nD τ))) :
    piece c (vibS j) q f
      ⊢ iprop((piece c (vibS j) q f -∗ wp frame (wpE (defs₀ (F := F)) 𝒱₀ (c : Thread nD τ) none) Set.univ (kk (vibM.view.readAt (Elt F) (rVin j).toLoadRect f)) Q)
          -∗ wp frame (wpE (defs₀ (F := F)) 𝒱₀ (c : Thread nD τ) none) Set.univ (.op (.load vibM (rVin j).toLoadRect hl) kk) Q) := by
  exact wp_load 𝒱₀ (c : Thread nD τ) none Set.univ (m := vibM) (r := (rVin j).toLoadRect) (S := (vibS j).view.set) (q := q) (f := f) (by rw [vibS_set_eq j])

/-- The vector load of slot `s` of `vcast_a` / `vcast_b`, the slot held through the store's rectangle. -/
theorem wp_load_vca (c : Dev nD) (s : Fin 3) {hl : vcaM.view.LoadsAt (rVc s).toLoadRect}
    {α : Type} {Q : α → sProp 𝕄} {kk : ((rVc s).toLoadRect.shape.Idx → Elt F .bf16) → Prog (TpuEff nD τ sig (Elt F) Λ₀ .tc) α}
    (q : PosShare TreeShare) (f : Buf (Elt F) ((vcaM.access (rVc s) : View sig .tc _ _ _).loc (c : Thread nD τ))) :
    ((vcaM.access (rVc s) : View sig .tc _ _ _).loc (c : Thread nD τ) ↦[(vcaM.access (rVc s) : View sig .tc _ _ _).set]{q} f : sProp 𝕄)
      ⊢ iprop((((vcaM.access (rVc s) : View sig .tc _ _ _).loc (c : Thread nD τ) ↦[(vcaM.access (rVc s) : View sig .tc _ _ _).set]{q} f)
            -∗ wp frame (wpE (defs₀ (F := F)) 𝒱₀ (c : Thread nD τ) none) Set.univ (kk (vcaM.view.readAt (Elt F) (rVc s).toLoadRect f)) Q)
          -∗ wp frame (wpE (defs₀ (F := F)) 𝒱₀ (c : Thread nD τ) none) Set.univ (.op (.load vcaM (rVc s).toLoadRect hl) kk) Q) := by
  exact wp_load_rect 𝒱₀ (c : Thread nD τ) none Set.univ (m := vcaM) (r := rVc s) (Finset.Subset.refl _)
theorem wp_load_vcb (c : Dev nD) (s : Fin 3) {hl : vcbM.view.LoadsAt (rVc s).toLoadRect}
    {α : Type} {Q : α → sProp 𝕄} {kk : ((rVc s).toLoadRect.shape.Idx → Elt F .bf16) → Prog (TpuEff nD τ sig (Elt F) Λ₀ .tc) α}
    (q : PosShare TreeShare) (f : Buf (Elt F) ((vcbM.access (rVc s) : View sig .tc _ _ _).loc (c : Thread nD τ))) :
    ((vcbM.access (rVc s) : View sig .tc _ _ _).loc (c : Thread nD τ) ↦[(vcbM.access (rVc s) : View sig .tc _ _ _).set]{q} f : sProp 𝕄)
      ⊢ iprop((((vcbM.access (rVc s) : View sig .tc _ _ _).loc (c : Thread nD τ) ↦[(vcbM.access (rVc s) : View sig .tc _ _ _).set]{q} f)
            -∗ wp frame (wpE (defs₀ (F := F)) 𝒱₀ (c : Thread nD τ) none) Set.univ (kk (vcbM.view.readAt (Elt F) (rVc s).toLoadRect f)) Q)
          -∗ wp frame (wpE (defs₀ (F := F)) 𝒱₀ (c : Thread nD τ) none) Set.univ (.op (.load vcbM (rVc s).toLoadRect hl) kk) Q) := by
  exact wp_load_rect 𝒱₀ (c : Thread nD τ) none Set.univ (m := vcbM) (r := rVc s) (Finset.Subset.refl _)

/-- The vector store of a payload into slot `s` of `vcast_a` / `vcast_b`. -/
theorem wp_store_vca (c : Dev nD) (s : Fin 3) (w : (rVc s).shape.Idx → Elt F .bf16)
    {hx : (vcaM.access (rVc s)).Stores Finset.univ} {hm : (Finset.univ : Finset (rVc s).shape.Idx) = Finset.univ ∨ ∀ a, (rVc s).stride a = 1}
    {α : Type} {Q : α → sProp 𝕄} {kk : PUnit → Prog (TpuEff nD τ sig (Elt F) Λ₀ .tc) α}
    (f : Buf (Elt F) ((vcaM.access (rVc s) : View sig .tc _ _ _).loc (c : Thread nD τ))) :
    ((vcaM.access (rVc s) : View sig .tc _ _ _).loc (c : Thread nD τ) ↦[(vcaM.access (rVc s) : View sig .tc _ _ _).set]{fullShare} f : sProp 𝕄)
      ⊢ iprop((((vcaM.access (rVc s) : View sig .tc _ _ _).loc (c : Thread nD τ) ↦[(vcaM.access (rVc s) : View sig .tc _ _ _).set]{fullShare}
              ((vcaM.access (rVc s) : View sig .tc _ _ _).write (Elt F) f w Finset.univ)) -∗ wp frame (wpE (defs₀ (F := F)) 𝒱₀ (c : Thread nD τ) none) Set.univ (kk ⟨⟩) Q)
          -∗ wp frame (wpE (defs₀ (F := F)) 𝒱₀ (c : Thread nD τ) none) Set.univ (.op (.store vcaM (rVc s) w Finset.univ hx hm) kk) Q) := by
  exact wp_store 𝒱₀ (c : Thread nD τ) none Set.univ (m := vcaM) (r := rVc s) (Mk := Finset.univ) (Finset.Subset.refl _)
theorem wp_store_vcb (c : Dev nD) (s : Fin 3) (w : (rVc s).shape.Idx → Elt F .bf16)
    {hx : (vcbM.access (rVc s)).Stores Finset.univ} {hm : (Finset.univ : Finset (rVc s).shape.Idx) = Finset.univ ∨ ∀ a, (rVc s).stride a = 1}
    {α : Type} {Q : α → sProp 𝕄} {kk : PUnit → Prog (TpuEff nD τ sig (Elt F) Λ₀ .tc) α}
    (f : Buf (Elt F) ((vcbM.access (rVc s) : View sig .tc _ _ _).loc (c : Thread nD τ))) :
    ((vcbM.access (rVc s) : View sig .tc _ _ _).loc (c : Thread nD τ) ↦[(vcbM.access (rVc s) : View sig .tc _ _ _).set]{fullShare} f : sProp 𝕄)
      ⊢ iprop((((vcbM.access (rVc s) : View sig .tc _ _ _).loc (c : Thread nD τ) ↦[(vcbM.access (rVc s) : View sig .tc _ _ _).set]{fullShare}
              ((vcbM.access (rVc s) : View sig .tc _ _ _).write (Elt F) f w Finset.univ)) -∗ wp frame (wpE (defs₀ (F := F)) 𝒱₀ (c : Thread nD τ) none) Set.univ (kk ⟨⟩) Q)
          -∗ wp frame (wpE (defs₀ (F := F)) 𝒱₀ (c : Thread nD τ) none) Set.univ (.op (.store vcbM (rVc s) w Finset.univ hx hm) kk) Q) := by
  exact wp_store 𝒱₀ (c : Thread nD τ) none Set.univ (m := vcbM) (r := rVc s) (Mk := Finset.univ) (Finset.Subset.refl _)

/-! ## What a device may wait on while it owes -/

/-- Everything owed in `O` sits on a TensorCore cell of level above `b`. -/
def Above (b : ℕ) (O : CellTallies nD τ sig Unit) : Prop := ∀ (g : GSem nD τ sig) (u : Unit), 0 < O g u → g.1.2 = .tc ∧ b < lv g u

theorem above_zero (b : ℕ) : Above b (0 : CellTallies nD τ sig Unit) := by
  intro g u hg
  rw [Pi.zero_apply, Finsupp.zero_apply] at hg
  exact absurd hg (Nat.lt_irrefl 0)
theorem above_add {b : ℕ} {O O' : CellTallies nD τ sig Unit} (h : Above b O) (h' : Above b O') : Above b (O + O') := by
  intro g u hg
  rw [Pi.add_apply, Finsupp.add_apply] at hg
  by_cases h0 : 0 < O g u
  · exact h g u h0
  · exact h' g u (by omega)

theorem above_sum {b : ℕ} {ι : Type} (s : Finset ι) (T : ι → CellTallies nD τ sig Unit) (h : ∀ i ∈ s, Above b (T i)) :
    Above b (∑ i ∈ s, T i) := by
  classical
  revert h
  refine Finset.induction_on s (fun _ => by rw [Finset.sum_empty]; exact above_zero b) ?_
  intro a s ha ih h
  rw [Finset.sum_insert ha]
  exact above_add (h a (Finset.mem_insert_self a s)) (ih fun i hi => h i (Finset.mem_insert_of_mem hi))
theorem above_tally {b : ℕ} (d : Dev nD) (f : Fam) (n : ℕ) (h : b < lvF f) : Above b (tallyAt (cell d f) () n) := by
  intro g u hg
  rw [tallyAt_apply] at hg
  by_cases hh : g = cell d f ∧ u = ()
  · rw [hh.1]; exact ⟨rfl, by rw [lv_cell]; exact h⟩
  · rw [if_neg hh] at hg; exact absurd hg (Nat.lt_irrefl 0)
theorem above_oweD {b : ℕ} (c : Dev nD) (n : ℕ) (h : b < 2 + 2 * n) : Above b (oweD c n) := by
  unfold oweD
  exact above_sum _ _ fun k hk => above_tally (px c) (.dr k) Nout (by have := (Finset.mem_filter.mp hk).2; show b < 2 + 2 * k.val; omega)
theorem above_oweF {b : ℕ} (c : Dev nD) (n : ℕ) (h : b < 3 + 2 * n) : Above b (oweF c n) := by
  unfold oweF
  exact above_sum _ _ fun k hk => above_tally (py c) (.fr k) Nout (by have := (Finset.mem_filter.mp hk).2; show b < 3 + 2 * k.val; omega)
theorem above_mono {b b' : ℕ} {O : CellTallies nD τ sig Unit} (hb : b ≤ b') (h : Above b' O) : Above b O :=
  fun g u hg => ⟨(h g u hg).1, lt_of_le_of_lt hb (h g u hg).2⟩

/-- A device may wait on its cell `f` while everything it owes sits above `f`'s level. -/
theorem mayWait_cell (c : Dev nD) (f : Fam) (O : CellTallies nD τ sig Unit) (h : Above (lvF f) O) :
    (levAts L lv : sProp 𝕄) ⊢ MayWait (c : Thread nD τ) f.sem () O :=
  MayOwe.of_cut (L := L) (lev := lv) (lvF f)
    (fun p hp => by rw [Finset.mem_singleton.mp hp, L_tc]; exact Finset.mem_singleton_self _)
    (fun g u hg => by
      have h1 := (h g u hg).1
      have : L g = {()} := if_pos h1
      rw [this]; exact Finset.mem_singleton_self _)
    (fun p hp => by rw [Finset.mem_singleton.mp hp]; exact le_of_eq (lv_cell c f ()))
    (fun g u hg => (h g u hg).2)

/-- The landing of chunk `j` along x may be waited for once the device has sent its own chunks up to `j` along x and relayed
    those before `j`; the relay's landing once it has sent and relayed its own up to `j`. -/
theorem mayWait_dr (c : Dev nD) (j : Fin 32) (nd nf : ℕ) (hd : j.val < nd) (hf : j.val ≤ nf) :
    (levAts L lv : sProp 𝕄) ⊢ MayWait (c : Thread nD τ) (.dma (drS j)) () (oweD c nd + oweF c nf) :=
  mayWait_cell c (.dr j) _ (above_add (above_oweD c nd (by show 2 + 2 * j.val < _; omega)) (above_oweF c nf (by show 2 + 2 * j.val < _; omega)))
theorem mayWait_fr (c : Dev nD) (j : Fin 32) (nd nf : ℕ) (hd : j.val < nd) (hf : j.val < nf) :
    (levAts L lv : sProp 𝕄) ⊢ MayWait (c : Thread nD τ) (.dma (frS j)) () (oweD c nd + oweF c nf) :=
  mayWait_cell c (.fr j) _ (above_add (above_oweD c nd (by show 3 + 2 * j.val < _; omega)) (above_oweF c nf (by show 3 + 2 * j.val < _; omega)))
/-- Its own local and send cells (level 0) a device may wait on whatever of the handshake and the landings it still owes. -/
theorem mayWait_own (c : Dev nD) (f : Fam) (hf : lvF f = 0) (nd nf : ℕ) :
    (levAts L lv : sProp 𝕄) ⊢ MayWait (c : Thread nD τ) f.sem () (oweD c nd + oweF c nf) :=
  mayWait_cell c f _ (above_add (above_oweD c nd (by rw [hf]; omega)) (above_oweF c nf (by rw [hf]; omega)))
theorem mayWait_own_start (c : Dev nD) (f : Fam) (hf : lvF f = 0) :
    (levAts L lv : sProp 𝕄) ⊢ MayWait (c : Thread nD τ) f.sem () (O₀ c) :=
  mayWait_cell c f _ (above_add (above_add (above_add (above_oweD c 0 (by rw [hf]; omega)) (above_oweF c 0 (by rw [hf]; omega)))
    (above_tally (py c) .bar 1 (by rw [hf]; decide))) (above_tally (px c) .bar 1 (by rw [hf]; decide)))
/-- The handshake (level 1) while it owes the landings only. -/
theorem mayWait_bar (c : Dev nD) :
    (levAts L lv : sProp 𝕄) ⊢ MayWait (c : Thread nD τ) (.reg barS) () (oweD c 0 + oweF c 0) :=
  mayWait_cell c .bar _ (above_add (above_oweD c 0 (by decide)) (above_oweF c 0 (by decide)))

/-- What is owed from chunk `n` on is what is owed from `n + 1` on and chunk `n`'s landing. -/
theorem filter_peel (n : ℕ) (h : n < 32) :
    Finset.univ.filter (fun k : Fin 32 => n ≤ k.val) = insert (⟨n, h⟩ : Fin 32) (Finset.univ.filter (fun k : Fin 32 => n + 1 ≤ k.val)) := by
  ext k
  simp only [Finset.mem_filter, Finset.mem_univ, true_and, Finset.mem_insert, Fin.ext_iff]
  omega
theorem not_mem_filter_succ (n : ℕ) (h : n < 32) : (⟨n, h⟩ : Fin 32) ∉ Finset.univ.filter (fun k : Fin 32 => n + 1 ≤ k.val) := by
  simp only [Finset.mem_filter, Finset.mem_univ, true_and]; omega
theorem oweD_peel (c : Dev nD) (n : ℕ) (h : n < 32) : oweD c n = oweD c (n + 1) + tallyAt (cell (px c) (.dr ⟨n, h⟩)) () Nout := by
  unfold oweD
  rw [filter_peel n h, Finset.sum_insert (not_mem_filter_succ n h), add_comm]
theorem oweF_peel (c : Dev nD) (n : ℕ) (h : n < 32) : oweF c n = oweF c (n + 1) + tallyAt (cell (py c) (.fr ⟨n, h⟩)) () Nout := by
  unfold oweF
  rw [filter_peel n h, Finset.sum_insert (not_mem_filter_succ n h), add_comm]
theorem filter_end : Finset.univ.filter (fun k : Fin 32 => 32 ≤ k.val) = ∅ :=
  Finset.filter_false_of_mem fun k _ => by have := k.isLt; omega
theorem oweD_end (c : Dev nD) : oweD c 32 = 0 := by
  unfold oweD; rw [filter_end, Finset.sum_empty]
theorem oweF_end (c : Dev nD) : oweF c 32 = 0 := by
  unfold oweF; rw [filter_end, Finset.sum_empty]

/-! ## A cell at its last round closes: its counter is at zero -/

theorem close_cell (c : Dev nD) (f : Fam) :
    iprop(cellInv ER (Rd m) (K (c, f)) (cell c f) ∗ atPos ER (cell c f) f.rounds ∅ 0) ⊢ iprop(|={Set.univ}=> semVal (cell c f) 0) :=
  Rounds.cell_close ER (Rd m) (Set.mem_univ _) (fun h => h) (R := f.rounds) (fun r hr => duties_later m c f hr)

/-! ## Glue: a landing slot's share in halves, a stored slot at its contents, a whole buffer's piece -/

theorem ld_share_split (c : Dev nD) (k : Fin 32) (f : Buf (Elt F) ((ldS k).view.loc (c : Thread nD τ))) :
    piece c (ldS k) fullShare f ⊣⊢ iprop(piece c (ldS k) fullShare.left f ∗ piece c (ldS k) fullShare.right f) :=
  pointsTo_share (PosShare.mem_left_op_right fullShare)

/-- What a store on every index through a view leaves under the view does not depend on what it is written over. -/
theorem access_write_over (c : Dev nD) {sp : Space} {S : Shape} {e : EltTy} (v : View sig .tc sp S e) (q : PosShare TreeShare)
    (f g : Buf (Elt F) (v.loc (c : Thread nD τ))) (w : S.Idx → Elt F e) :
    (v.loc (c : Thread nD τ) ↦[v.set]{q} v.write (Elt F) f w Finset.univ : sProp 𝕄)
      = v.loc (c : Thread nD τ) ↦[v.set]{q} v.write (Elt F) g w Finset.univ :=
  pointsTo_congr fun i hi => by
    obtain ⟨y, -, rfl⟩ := Finset.mem_map.mp hi
    rw [View.write_emb_of_mem _ _ (Finset.mem_univ y), View.write_emb_of_mem _ _ (Finset.mem_univ y)]

/-- Slot `slot3 k` of `vcast_a` after the store of chunk `k`'s cast holds `vcA m c k` under the slot. -/
theorem store_vca_at (c : Dev nD) (k : Fin 32)
    (f : Buf (Elt F) ((vcaM.access (rVc (slot3 k)) : View sig .tc _ _ _).loc (c : Thread nD τ))) (w : (rVc (slot3 k)).shape.Idx → Elt F .bf16)
    (hw : w = castSlot (viaM.view.readAt (Elt F) (rVin (slot2 k)).toLoadRect (vinA m c k))) :
    ((vcaM.access (rVc (slot3 k)) : View sig .tc _ _ _).loc (c : Thread nD τ) ↦[(vcaM.access (rVc (slot3 k)) : View sig .tc _ _ _).set]{fullShare}
        (vcaM.access (rVc (slot3 k)) : View sig .tc _ _ _).write (Elt F) f w Finset.univ : sProp 𝕄)
      ⊢ ((vcaM.access (rVc (slot3 k)) : View sig .tc _ _ _).loc (c : Thread nD τ) ↦[(vcaM.access (rVc (slot3 k)) : View sig .tc _ _ _).set]{fullShare} vcA m c k) := by
  subst hw
  exact Entails.of_eq (access_write_over c (vcaM.access (rVc (slot3 k)) : View sig .tc _ _ _) fullShare f (m _) _)
theorem store_vcb_at (c : Dev nD) (k : Fin 32)
    (f : Buf (Elt F) ((vcbM.access (rVc (slot3 k)) : View sig .tc _ _ _).loc (c : Thread nD τ))) (w : (rVc (slot3 k)).shape.Idx → Elt F .bf16)
    (hw : w = castSlot (vibM.view.readAt (Elt F) (rVin (slot2 k)).toLoadRect (vinB m c k))) :
    ((vcbM.access (rVc (slot3 k)) : View sig .tc _ _ _).loc (c : Thread nD τ) ↦[(vcbM.access (rVc (slot3 k)) : View sig .tc _ _ _).set]{fullShare}
        (vcbM.access (rVc (slot3 k)) : View sig .tc _ _ _).write (Elt F) f w Finset.univ : sProp 𝕄)
      ⊢ ((vcbM.access (rVc (slot3 k)) : View sig .tc _ _ _).loc (c : Thread nD τ) ↦[(vcbM.access (rVc (slot3 k)) : View sig .tc _ _ _).set]{fullShare} vcB m c k) := by
  subst hw
  exact Entails.of_eq (access_write_over c (vcbM.access (rVc (slot3 k)) : View sig .tc _ _ _) fullShare f (m _) _)

/-- The printed payloads of the stores are the cast of the loaded slot. -/
theorem pay2_pay1_eq (v : Vec F S1x256x2048 .f32) : k0_pay2 (k0_pay1 v) = castSlot v := rfl
theorem pay4_eq (v : Vec F S1x256x2048 .f32) : k0_pay4 v = castSlot v := rfl

/-- The piece of a whole buffer is the buffer. -/
theorem piece_whole (c : Dev nD) (b : Ref sig .tc) (q : PosShare TreeShare) (f : Buf (Elt F) ((c : Thread nD τ).loc b)) :
    piece c (Memref.whole b) q f = (((c : Thread nD τ).loc b) ↦{q} f : sProp 𝕄) := by
  show (((c : Thread nD τ).loc b) ↦[(View.whole b : View sig .tc _ _ _).set]{q} f : sProp 𝕄) = _
  rw [View.set_whole]

/-! ## What a copied block credits its semaphore -/

theorem credit_viaS (j : Fin 2) : (viaS j).view.dmaCredit = Nin := rfl
theorem credit_vibS (j : Fin 2) : (vibS j).view.dmaCredit = Nin := rfl
theorem credit_ldS (k : Fin 32) : (ldS k).view.dmaCredit = Nout := rfl
theorem credit_oA (c : Dev nD) (k : Fin 32) : (oA c k).view.dmaCredit = Nout := rfl
theorem credit_oB (c : Dev nD) (k : Fin 32) : (oB c k).view.dmaCredit = Nout := rfl
theorem credit_oR (c : Dev nD) (k : Fin 32) : (oR c k).view.dmaCredit = Nout := rfl

end Cert.KernelIdealA2A
end
-- ==== Proof.A2AGeom.lean ====
/-
  The geometry of the pieces: every buffer of a device is cut into the blocks the copies and the stores address, and
  put back together from them. The facts are about sets of buffer indices (unit-stride rectangles at the printed
  offsets, read through their closed forms) and are carried to points-to assertions by the splitting and joining
  laws of the region library.
-/
import proofs.«900012_g7700000000000013_dist_a2a_v7x_xy2x2_x_m16384_n1024_bf16_1_alg».proof.Proof.A2AContents

noncomputable section

namespace Cert.KernelIdealA2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer cut along a finite family of pairwise disjoint sets that cover it -/

section Tiling
variable {ℓ : Loc nD τ sig} {T : Type} [Fintype T] [DecidableEq T]

/-- Pairwise disjoint sets of one size whose sizes add up to the whole type cover it. -/
theorem biUnion_eq_univ_of_card {α : Type} [Fintype α] [DecidableEq α] (K : T → Finset α) (n : ℕ)
    (hd : ∀ t t', t ≠ t' → Disjoint (K t) (K t')) (hn : ∀ t, (K t).card = n)
    (h : Fintype.card T * n = Fintype.card α) : Finset.univ.biUnion K = Finset.univ := by
  apply Finset.eq_univ_of_card
  rw [Finset.card_biUnion (fun t _ t' _ ht => hd t t' ht), Finset.sum_congr rfl (fun t _ => hn t), Finset.sum_const,
    Finset.card_univ, smul_eq_mul, h]

/-- A whole buffer is the separating conjunction of its tiles, at the same contents. -/
theorem tile_split (K : T → Finset (Idx ℓ)) (hd : ∀ t t', t ≠ t' → Disjoint (K t) (K t'))
    (hc : Finset.univ.biUnion K = Finset.univ) (q : PosShare TreeShare) (f : Buf (Elt F) ℓ) :
    (ℓ ↦{q} f : sProp 𝕄) ⊣⊢ bigSep Finset.univ fun t => ℓ ↦[K t]{q} f := by
  have e : (ℓ ↦{q} f : sProp 𝕄) = bigSep Finset.univ fun t => ℓ ↦[K t]{q} f := by
    rw [← hc]; exact pointsTo_biUnion Finset.univ K (fun t _ t' _ ht => hd t t' ht)
  have h := BI.equiv_iff.mpr e
  exact ⟨h.1, h.2⟩

/-- Tiles held at different contents join into the whole buffer at contents that agree with each on its tile. -/
theorem tile_join [Nonempty T] (K : T → Finset (Idx ℓ)) (hd : ∀ t t', t ≠ t' → Disjoint (K t) (K t'))
    (hc : Finset.univ.biUnion K = Finset.univ) (q : PosShare TreeShare) (fs : T → Buf (Elt F) ℓ) :
    bigSep Finset.univ (fun t => ℓ ↦[K t]{q} fs t)
      ⊢ (iprop(∃ g, ⌜∀ t, ∀ i ∈ K t, g i = fs t i⌝ ∗ ℓ ↦{q} g) : sProp 𝕄) := by
  refine (pointsTo_biUnion_join Finset.univ K fs (fs (Classical.choice inferInstance))
    (fun t _ t' _ ht => hd t t' ht)).trans ?_
  rw [hc]
  iintro ⟨%g, %hg, H⟩
  iexists g
  isplitr
  · ipureintro; exact fun t => hg t (Finset.mem_univ t)
  · iexact H

/-- The same with the contents of each tile left open. -/
theorem tile_join_ex [Nonempty T] (K : T → Finset (Idx ℓ)) (hd : ∀ t t', t ≠ t' → Disjoint (K t) (K t'))
    (hc : Finset.univ.biUnion K = Finset.univ) (q : PosShare TreeShare) :
    bigSep Finset.univ (fun t => iprop(∃ f : Buf (Elt F) ℓ, ℓ ↦[K t]{q} f))
      ⊢ (iprop(∃ g, ℓ ↦{q} g) : sProp 𝕄) := by
  by_cases hne : Nonempty (Buf (Elt F) ℓ)
  · haveI : ∀ t : T, Nonempty (Buf (Elt F) ℓ) := fun _ => hne
    refine (bigSep_exists_pi (Y := fun _ : T => Buf (Elt F) ℓ) Finset.univ (fun t f => ℓ ↦[K t]{q} f)).trans ?_
    iintro ⟨%fs, H⟩
    ihave H' := (tile_join K hd hc q fs) $$ H
    icases H' with ⟨%g, -, H'⟩
    iexists g
    iexact H'
  · have e : (bigSep Finset.univ (fun t => iprop(∃ f : Buf (Elt F) ℓ, ℓ ↦[K t]{q} f)) : sProp 𝕄)
        = iprop((∃ f : Buf (Elt F) ℓ, ℓ ↦[K (Classical.choice ‹Nonempty T›)]{q} f)
          ∗ bigSep (Finset.univ.erase (Classical.choice ‹Nonempty T›)) (fun t => iprop(∃ f : Buf (Elt F) ℓ, ℓ ↦[K t]{q} f))) :=
      bigSep_univ_split _
    rw [e]
    iintro ⟨⟨%f, -⟩, -⟩
    exact (hne ⟨f⟩).elim

end Tiling

/-! ## (1) What a whole write leaves under the view does not depend on the contents written over -/

theorem view_write_irrel {κ : Kind} {sp : Space} {S : Shape} {e : EltTy} (v : View sig κ sp S e)
    (f g : v.ty.Contents (Elt F)) (w : S.Idx → Elt F e) :
    ∀ i ∈ v.set, v.write (Elt F) f w Finset.univ i = v.write (Elt F) g w Finset.univ i := by
  intro i hi
  obtain ⟨y, -, rfl⟩ := Finset.mem_map.mp hi
  rw [View.write_emb_of_mem _ _ (Finset.mem_univ y), View.write_emb_of_mem _ _ (Finset.mem_univ y)]

theorem write_irrel {sp : Space} {S : Shape} {e : EltTy} (M : Memref sig .tc sp S e)
    (f g : M.view.ty.Contents (Elt F)) (w : S.Idx → Elt F e) :
    ∀ i ∈ M.view.set, M.view.write (Elt F) f w Finset.univ i = M.view.write (Elt F) g w Finset.univ i :=
  view_write_irrel M.view f g w

theorem piece_write_irrel (c : Dev nD) {sp : Space} {S : Shape} {e : EltTy} (M : Memref sig .tc sp S e)
    (q : PosShare TreeShare) (f g : Buf (Elt F) (M.view.loc (c : Thread nD τ))) (w : S.Idx → Elt F e) :
    piece c M q (M.view.write (Elt F) f w Finset.univ) = piece c M q (M.view.write (Elt F) g w Finset.univ) :=
  pointsTo_congr (write_irrel M f g w)

/-- The same through any view (the rectangle a vector store addresses), on any part of what the view covers. -/
theorem access_write_irrel (c : Dev nD) {sp : Space} {S : Shape} {e : EltTy} (v : View sig .tc sp S e)
    {I : Finset v.ty.Idx} (hI : I ⊆ v.set) (q : PosShare TreeShare)
    (f g : Buf (Elt F) (v.loc (c : Thread nD τ))) (w : S.Idx → Elt F e) :
    (v.loc (c : Thread nD τ) ↦[I]{q} v.write (Elt F) f w Finset.univ : sProp 𝕄)
      = v.loc (c : Thread nD τ) ↦[I]{q} v.write (Elt F) g w Finset.univ :=
  pointsTo_congr fun i hi => view_write_irrel v f g w i (hI hi)

/-! ## Unit-stride blocks of one size, told apart by their first coordinate on one axis -/

theorem disjoint_of_rows {s : Shape} (a : Fin s.rank) (size : Fin s.rank → ℕ) {T : Type} (K : T → Finset s.Idx) (row : T → ℕ)
    (hK : ∀ t, ∃ (off : Fin s.rank → ℕ) (inb : ∀ a, off a + size a ≤ s.size a),
      K t = (Rect.unit off size inb).set ∧ off a = row t)
    (hsep : ∀ t t', t ≠ t' → row t + size a ≤ row t' ∨ row t' + size a ≤ row t) :
    ∀ t t', t ≠ t' → Disjoint (K t) (K t') := by
  intro t t' h
  obtain ⟨off, inb, e, r⟩ := hK t
  obtain ⟨off', inb', e', r'⟩ := hK t'
  rw [e, e']
  exact Rect.unit_disjoint a (by rw [r, r']; exact hsep t t' h)

/-! ## (2) The landing buffer: 32 slots -/

theorem ldS_set (k : Fin 32) :
    (ldS k).view.set = (Rect.unit (s := S32x256x1024) ![k.val, 0, 0] S1x256x1024.size (inb_ld k)).set :=
  (View.set_reshape _ _).trans (View.set_slice_whole _ _)

theorem ld_disj : ∀ k k' : Fin 32, k ≠ k' → Disjoint (ldS k).view.set (ldS k').view.set :=
  disjoint_of_rows (s := S32x256x1024) 0 S1x256x1024.size (fun k : Fin 32 => (ldS k).view.set) (fun k => k.val)
    (fun k => ⟨_, _, ldS_set k, rfl⟩)
    (fun k k' h => by
      have := Fin.val_ne_of_ne h
      show k.val + 1 ≤ k'.val ∨ k'.val + 1 ≤ k.val
      omega)

theorem numel_ld : 32 * S256x1024.numel = S32x256x1024.numel := by decide +kernel

theorem ld_cover (c : Dev nD) : Finset.univ.biUnion (fun k : Fin 32 => (ldS k).view.set)
    = (Finset.univ : Finset (Idx (ldM.view.loc (c : Thread nD τ)))) := by
  refine biUnion_eq_univ_of_card (α := Idx (ldM.view.loc (c : Thread nD τ))) (fun k : Fin 32 => (ldS k).view.set)
    S256x1024.numel ld_disj (fun k => View.card_set _) ?_
  rw [Fintype.card_fin]
  exact numel_ld.trans (Shape.card_idx _).symm

theorem ld_split (c : Dev nD) (f : Buf (Elt F) (ldM.view.loc (c : Thread nD τ))) :
    (ldM.view.loc (c : Thread nD τ) ↦{fullShare} f : sProp 𝕄)
      ⊣⊢ bigSep Finset.univ fun k : Fin 32 => piece c (ldS k) fullShare f :=
by
  have h := tile_split (F := F) (ℓ := ldM.view.loc (c : Thread nD τ)) (fun k : Fin 32 => (ldS k).view.set) ld_disj (ld_cover c) fullShare f
  exact h

theorem ld_join (c : Dev nD) :
    bigSep Finset.univ (fun k : Fin 32 => iprop(∃ f, piece c (ldS k) fullShare f))
      ⊢ (iprop(∃ f, ldM.view.loc (c : Thread nD τ) ↦{fullShare} f) : sProp 𝕄) := by
  have h := tile_join_ex (F := F) (ℓ := ldM.view.loc (c : Thread nD τ)) (fun k : Fin 32 => (ldS k).view.set) ld_disj
    (ld_cover c) fullShare
  exact h

/-! ## (3) The device's block of x: two halves of 32 row blocks -/

theorem xA_set (c : Dev nD) (k : Fin 32) : (xA c k).view.set
    = (Rect.unit (s := S16384x2048) (k0_off1 c (BitVec.ofNat 32 (256 * k.val))) S256x2048.size (k0_off1_inb c k)).set :=
  View.set_slice_whole _ _
theorem xB_set (c : Dev nD) (k : Fin 32) : (xB c k).view.set
    = (Rect.unit (s := S16384x2048) (k0_off2 c (BitVec.ofNat 32 (256 * k.val))) S256x2048.size (k0_off2_inb c k)).set :=
  View.set_slice_whole _ _

/-- The 64 row blocks of `x`, and the first row of each. -/
def KX (c : Dev nD) : Fin 32 ⊕ Fin 32 → Finset (Idx (xM.view.loc (c : Thread nD τ))) :=
  Sum.elim (fun k => (xA c k).view.set) (fun k => (xB c k).view.set)
def rowX (c : Dev nD) : Fin 32 ⊕ Fin 32 → ℕ :=
  Sum.elim (fun k => 8192 * (c.val % 2) + 256 * k.val) (fun k => (256 * k.val + 8192) - 8192 * (c.val % 2))

theorem KX_unit (c : Dev nD) : ∀ t, ∃ (off : Fin S16384x2048.rank → ℕ) (inb : ∀ a, off a + S256x2048.size a ≤ S16384x2048.size a),
    KX c t = (Rect.unit off S256x2048.size inb).set ∧ off 0 = rowX c t
  | .inl k => ⟨_, _, xA_set c k, by rw [k0_off1_eq c k]; rfl⟩
  | .inr k => ⟨_, _, xB_set c k, by rw [k0_off2_eq c k]; rfl⟩

theorem rowX_sep (c : Dev nD) : ∀ t t', t ≠ t' → rowX c t + 256 ≤ rowX c t' ∨ rowX c t' + 256 ≤ rowX c t := by
  intro t t' h
  have hc : c.val < 4 := c.isLt
  rcases t with k | k <;> rcases t' with k' | k' <;> simp only [rowX, Sum.elim_inl, Sum.elim_inr] <;>
    have hk := k.isLt <;> have hk' := k'.isLt
  · have : k.val ≠ k'.val := fun e => h (congrArg Sum.inl (Fin.ext e))
    omega
  · omega
  · omega
  · have : k.val ≠ k'.val := fun e => h (congrArg Sum.inr (Fin.ext e))
    omega

theorem KX_disj (c : Dev nD) : ∀ t t', t ≠ t' → Disjoint (KX c t) (KX c t') :=
  disjoint_of_rows (s := S16384x2048) 0 S256x2048.size (KX c) (rowX c) (KX_unit c) (rowX_sep c)

theorem KX_card (c : Dev nD) : ∀ t, (KX c t).card = S256x2048.numel
  | .inl k => View.card_set _
  | .inr k => View.card_set _

theorem numel_x : (32 + 32) * S256x2048.numel = S16384x2048.numel := by decide +kernel

theorem KX_cover (c : Dev nD) : Finset.univ.biUnion (KX c) = Finset.univ := by
  refine biUnion_eq_univ_of_card (α := Idx (xM.view.loc (c : Thread nD τ))) (KX c) S256x2048.numel (KX_disj c) (KX_card c) ?_
  rw [Fintype.card_sum, Fintype.card_fin]
  exact numel_x.trans (Shape.card_idx _).symm

theorem x_split (c : Dev nD) (f : Buf (Elt F) (xM.view.loc (c : Thread nD τ))) :
    (xM.view.loc (c : Thread nD τ) ↦{fullShare} f : sProp 𝕄)
      ⊣⊢ iprop((bigSep Finset.univ fun k : Fin 32 => piece c (xA c k) fullShare f)
          ∗ (bigSep Finset.univ fun k : Fin 32 => piece c (xB c k) fullShare f)) := by
  have h := tile_split (F := F) (ℓ := xM.view.loc (c : Thread nD τ)) (KX c) (KX_disj c) (KX_cover c) fullShare f
  rw [bigSep_univ_sum] at h
  exact h

/-! ## (4) The result: four families of 32 row blocks -/

theorem oA_set (c : Dev nD) (k : Fin 32) : (oA c k).view.set
    = (Rect.unit (s := S32768x1024) (k0_off3 c (BitVec.ofNat 32 (256 * k.val))) S256x1024.size (k0_off3_inb c k)).set :=
  View.set_slice_whole _ _
theorem oB_set (c : Dev nD) (k : Fin 32) : (oB c k).view.set
    = (Rect.unit (s := S32768x1024) (k0_off5 c (BitVec.ofNat 32 (256 * k.val))) S256x1024.size (k0_off5_inb c k)).set :=
  View.set_slice_whole _ _
theorem oR_set (c : Dev nD) (k : Fin 32) : (oR c k).view.set
    = (Rect.unit (s := S32768x1024) (k0_off9 c (BitVec.ofNat 32 (256 * k.val))) S256x1024.size (k0_off9_inb c k)).set :=
  View.set_slice_whole _ _

/-- The index of the 128 row blocks of the result: the four families in the order of the statement. -/
abbrev T4 : Type := Fin 32 ⊕ (Fin 32 ⊕ (Fin 32 ⊕ Fin 32))

def KO (c : Dev nD) : T4 → Finset (Idx (oM.view.loc (c : Thread nD τ))) :=
  Sum.elim (fun k => (oA c k).view.set) (Sum.elim (fun k => (oB c k).view.set)
    (Sum.elim (fun k => (oR c k).view.set) (fun k => (oR (py c) k).view.set)))
def rowO (c : Dev nD) : T4 → ℕ :=
  Sum.elim (fun k => 16384 * (c.val / 2) + 8192 * (c.val % 2) + 256 * k.val)
    (Sum.elim (fun k => (16384 * (c.val / 2) + 256 * k.val + 8192) - 8192 * (c.val % 2))
      (Sum.elim (fun k => (8192 * (c.val % 2) + 256 * k.val + 16384) - 16384 * (c.val / 2))
        (fun k => (8192 * ((py c).val % 2) + 256 * k.val + 16384) - 16384 * ((py c).val / 2))))

theorem KO_unit (c : Dev nD) : ∀ t, ∃ (off : Fin S32768x1024.rank → ℕ) (inb : ∀ a, off a + S256x1024.size a ≤ S32768x1024.size a),
    KO c t = (Rect.unit off S256x1024.size inb).set ∧ off 0 = rowO c t
  | .inl k => ⟨_, _, oA_set c k, by rw [k0_off3_eq c k]; rfl⟩
  | .inr (.inl k) => ⟨_, _, oB_set c k, by rw [k0_off5_eq c k]; rfl⟩
  | .inr (.inr (.inl k)) => ⟨_, _, oR_set c k, by rw [k0_off9_eq c k]; rfl⟩
  | .inr (.inr (.inr k)) => ⟨_, _, oR_set (py c) k, by rw [k0_off9_eq (py c) k]; rfl⟩

theorem rowO_sep (c : Dev nD) : ∀ t t', t ≠ t' → rowO c t + 256 ≤ rowO c t' ∨ rowO c t' + 256 ≤ rowO c t := by
  intro t t' h
  have hc : c.val < 4 := c.isLt
  have hpy : (py c).val = 2 * (c.val / 2) + (c.val + 1) % 2 := rfl
  rcases t with k | k | k | k <;> rcases t' with k' | k' | k' | k' <;>
    simp only [rowO, Sum.elim_inl, Sum.elim_inr] <;> have hk := k.isLt <;> have hk' := k'.isLt
  · have : k.val ≠ k'.val := fun e => h (congrArg Sum.inl (Fin.ext e))
    omega
  · omega
  · omega
  · omega
  · omega
  · have : k.val ≠ k'.val := fun e => h (congrArg (fun x => Sum.inr (Sum.inl x)) (Fin.ext e))
    omega
  · omega
  · omega
  · omega
  · omega
  · have : k.val ≠ k'.val := fun e => h (congrArg (fun x => Sum.inr (Sum.inr (Sum.inl x))) (Fin.ext e))
    omega
  · omega
  · omega
  · omega
  · omega
  · have : k.val ≠ k'.val := fun e => h (congrArg (fun x => Sum.inr (Sum.inr (Sum.inr x))) (Fin.ext e))
    omega

theorem KO_disj (c : Dev nD) : ∀ t t', t ≠ t' → Disjoint (KO c t) (KO c t') :=
  disjoint_of_rows (s := S32768x1024) 0 S256x1024.size (KO c) (rowO c) (KO_unit c) (rowO_sep c)

theorem KO_card (c : Dev nD) : ∀ t, (KO c t).card = S256x1024.numel
  | .inl k => View.card_set _
  | .inr (.inl k) => View.card_set _
  | .inr (.inr (.inl k)) => View.card_set _
  | .inr (.inr (.inr k)) => View.card_set _

theorem numel_o : (32 + (32 + (32 + 32))) * S256x1024.numel = S32768x1024.numel := by decide +kernel

theorem KO_cover (c : Dev nD) : Finset.univ.biUnion (KO c) = Finset.univ := by
  refine biUnion_eq_univ_of_card (α := Idx (oM.view.loc (c : Thread nD τ))) (KO c) S256x1024.numel (KO_disj c) (KO_card c) ?_
  rw [Fintype.card_sum, Fintype.card_sum, Fintype.card_sum, Fintype.card_fin]
  exact numel_o.trans (Shape.card_idx _).symm

theorem out_split (c : Dev nD) (f : Buf (Elt F) (oM.view.loc (c : Thread nD τ))) :
    (oM.view.loc (c : Thread nD τ) ↦{fullShare} f : sProp 𝕄)
      ⊣⊢ iprop((bigSep Finset.univ fun k : Fin 32 => piece c (oA c k) fullShare f)
          ∗ (bigSep Finset.univ fun k : Fin 32 => piece c (oB c k) fullShare f)
          ∗ (bigSep Finset.univ fun k : Fin 32 => piece c (oR c k) fullShare f)
          ∗ (bigSep Finset.univ fun k : Fin 32 => piece c (oR (py c) k) fullShare f)) := by
  have h := tile_split (F := F) (ℓ := oM.view.loc (c : Thread nD τ)) (KO c) (KO_disj c) (KO_cover c) fullShare f
  rw [bigSep_univ_sum, bigSep_univ_sum, bigSep_univ_sum] at h
  exact h

theorem out_join (c : Dev nD) (fA fB fL fF : Fin 32 → Buf (Elt F) (oM.view.loc (c : Thread nD τ))) :
    iprop((bigSep Finset.univ fun k : Fin 32 => piece c (oA c k) fullShare (fA k))
          ∗ (bigSep Finset.univ fun k : Fin 32 => piece c (oB c k) fullShare (fB k))
          ∗ (bigSep Finset.univ fun k : Fin 32 => piece c (oR c k) fullShare (fL k))
          ∗ (bigSep Finset.univ fun k : Fin 32 => piece c (oR (py c) k) fullShare (fF k)))
      ⊢ (iprop(∃ g : Buf (Elt F) (oM.view.loc (c : Thread nD τ)),
          ⌜(∀ k, ∀ i ∈ (oA c k).view.set, g i = fA k i) ∧ (∀ k, ∀ i ∈ (oB c k).view.set, g i = fB k i)
            ∧ (∀ k, ∀ i ∈ (oR c k).view.set, g i = fL k i) ∧ (∀ k, ∀ i ∈ (oR (py c) k).view.set, g i = fF k i)⌝
          ∗ (oM.view.loc (c : Thread nD τ) ↦{fullShare} g)) : sProp 𝕄) := by
  have h := tile_join (F := F) (ℓ := oM.view.loc (c : Thread nD τ)) (KO c) (KO_disj c) (KO_cover c) fullShare
    (Sum.elim fA (Sum.elim fB (Sum.elim fL fF)))
  rw [bigSep_univ_sum, bigSep_univ_sum, bigSep_univ_sum] at h
  refine h.trans ?_
  iintro ⟨%g, %hg, H⟩
  iexists g
  isplitr
  · ipureintro
    exact ⟨fun k => hg (.inl k), fun k => hg (.inr (.inl k)), fun k => hg (.inr (.inr (.inl k))),
      fun k => hg (.inr (.inr (.inr k)))⟩
  · iexact H

/-! ## (5) The staging buffers: slots, and the column halves of a bf16 slot -/

theorem forall_fin3 {P : Fin 3 → Prop} (h0 : P 0) (h1 : P 1) (h2 : P 2) : ∀ a, P a := by
  intro a; fin_cases a <;> assumption

theorem viaS_set (j : Fin 2) : (viaS j).view.set = (rVin j).set :=
  (View.set_reshape _ _).trans (View.set_slice_whole _ _)
theorem vibS_set (j : Fin 2) : (vibS j).view.set = (rVin j).set :=
  (View.set_reshape _ _).trans (View.set_slice_whole _ _)

/-- The elements a vector load or store of slot `j` touches are the slot memref's. -/
theorem via_access_set (j : Fin 2) : ((viaM.access (rVin j) : View sig .tc _ _ _)).set = (viaS j).view.set :=
  (View.set_slice_whole _ _).trans (viaS_set j).symm
theorem vib_access_set (j : Fin 2) : ((vibM.access (rVin j) : View sig .tc _ _ _)).set = (vibS j).view.set :=
  (View.set_slice_whole _ _).trans (vibS_set j).symm

theorem vca_access_set (s : Fin 3) : ((vcaM.access (rVc s) : View sig .tc _ _ _)).set = (rVc s).set :=
  View.set_slice_whole _ _
theorem vcb_access_set (s : Fin 3) : ((vcbM.access (rVc s) : View sig .tc _ _ _)).set = (rVc s).set :=
  View.set_slice_whole _ _

/-- The closed forms of the column offsets: the device's own 1024 columns of slot `s`, and its x-peer's. -/
theorem offMine_eq (c : Dev nD) (s : Fin 3) : offMine c s = ![s.val, 0, 1024 * (c.val / 2)] := by
  fin_cases s
  · exact k0_off4_eq c
  · exact k0_off7_eq c
  · exact k0_off10_eq c
theorem offPeer_eq (c : Dev nD) (s : Fin 3) : offPeer c s = ![s.val, 0, 1024 - 1024 * (c.val / 2)] := by
  fin_cases s
  · exact k0_off6_eq c
  · exact k0_off8_eq c
  · exact k0_off11_eq c

abbrev rMine (c : Dev nD) (s : Fin 3) : Rect S3x256x2048 :=
  Rect.unit (s := S3x256x2048) (offMine c s) S1x256x1024.size (offMine_inb c s)
abbrev rPeer (c : Dev nD) (s : Fin 3) : Rect S3x256x2048 :=
  Rect.unit (s := S3x256x2048) (offPeer c s) S1x256x1024.size (offPeer_inb c s)

theorem vcaMine_set (c : Dev nD) (s : Fin 3) : (vcaMine c s).view.set = (rMine c s).set :=
  (View.set_reshape _ _).trans (View.set_slice_whole _ _)
theorem vcbMine_set (c : Dev nD) (s : Fin 3) : (vcbMine c s).view.set = (rMine c s).set :=
  (View.set_reshape _ _).trans (View.set_slice_whole _ _)
theorem vcaPeer_set (c : Dev nD) (s : Fin 3) : (vcaPeer c s).view.set = (rPeer c s).set :=
  (View.set_reshape _ _).trans (View.set_slice_whole _ _)

theorem rMine_subset (c : Dev nD) (s : Fin 3) : (rMine c s).set ⊆ (rVc s).set := by
  have hc : c.val < 4 := c.isLt
  refine Rect.set_subset_of_span _ _ (fun _ => rfl) ?_
  show ∀ a, (![s.val, 0, 0] : Fin 3 → ℕ) a ≤ offMine c s a
    ∧ offMine c s a + 1 * S1x256x1024.size a ≤ (![s.val, 0, 0] : Fin 3 → ℕ) a + S1x256x2048.size a + (1 - 1)
  rw [offMine_eq]
  refine forall_fin3 ?_ ?_ ?_ <;> simp <;> omega
theorem rPeer_subset (c : Dev nD) (s : Fin 3) : (rPeer c s).set ⊆ (rVc s).set := by
  have hc : c.val < 4 := c.isLt
  refine Rect.set_subset_of_span _ _ (fun _ => rfl) ?_
  show ∀ a, (![s.val, 0, 0] : Fin 3 → ℕ) a ≤ offPeer c s a
    ∧ offPeer c s a + 1 * S1x256x1024.size a ≤ (![s.val, 0, 0] : Fin 3 → ℕ) a + S1x256x2048.size a + (1 - 1)
  rw [offPeer_eq]
  refine forall_fin3 ?_ ?_ ?_ <;> simp <;> omega
theorem rMine_rPeer_disjoint (c : Dev nD) (s : Fin 3) : Disjoint (rMine c s).set (rPeer c s).set := by
  have hc : c.val < 4 := c.isLt
  refine Rect.unit_disjoint (2 : Fin 3) ?_
  rw [offMine_eq, offPeer_eq]
  show 1024 * (c.val / 2) + 1024 ≤ 1024 - 1024 * (c.val / 2) ∨ 1024 - 1024 * (c.val / 2) + 1024 ≤ 1024 * (c.val / 2)
  omega

theorem numel_halves : S1x256x2048.numel ≤ S1x256x1024.numel + S1x256x1024.numel := by decide +kernel
theorem rVc_card (s : Fin 3) : (rVc s).set.card = S1x256x2048.numel := Rect.card_set _
theorem rMine_card (c : Dev nD) (s : Fin 3) : (rMine c s).set.card = S1x256x1024.numel := Rect.card_set _
theorem rPeer_card (c : Dev nD) (s : Fin 3) : (rPeer c s).set.card = S1x256x1024.numel := Rect.card_set _

theorem rMine_union_rPeer (c : Dev nD) (s : Fin 3) : (rMine c s).set ∪ (rPeer c s).set = (rVc s).set := by
  refine Finset.eq_of_subset_of_card_le (Finset.union_subset (rMine_subset c s) (rPeer_subset c s)) ?_
  rw [Finset.card_union_of_disjoint (rMine_rPeer_disjoint c s), rVc_card, rMine_card, rPeer_card]
  exact numel_halves

theorem vca_halves_union (c : Dev nD) (s : Fin 3) :
    (vcaMine c s).view.set ∪ (vcaPeer c s).view.set = ((vcaM.access (rVc s) : View sig .tc _ _ _)).set := by
  rw [vcaMine_set, vcaPeer_set, vca_access_set]; exact rMine_union_rPeer c s
theorem vca_halves_disjoint (c : Dev nD) (s : Fin 3) : Disjoint (vcaMine c s).view.set (vcaPeer c s).view.set := by
  rw [vcaMine_set, vcaPeer_set]; exact rMine_rPeer_disjoint c s
theorem vca_mine_subset (c : Dev nD) (s : Fin 3) :
    (vcaMine c s).view.set ⊆ ((vcaM.access (rVc s) : View sig .tc _ _ _)).set := by
  rw [vcaMine_set, vca_access_set]; exact rMine_subset c s
theorem vca_peer_subset (c : Dev nD) (s : Fin 3) :
    (vcaPeer c s).view.set ⊆ ((vcaM.access (rVc s) : View sig .tc _ _ _)).set := by
  rw [vcaPeer_set, vca_access_set]; exact rPeer_subset c s
theorem vcb_mine_subset (c : Dev nD) (s : Fin 3) :
    (vcbMine c s).view.set ⊆ ((vcbM.access (rVc s) : View sig .tc _ _ _)).set := by
  rw [vcbMine_set, vcb_access_set]; exact rMine_subset c s

/-- A slot of `vcast_a` is its two column halves. -/
theorem vca_slot_split (c : Dev nD) (s : Fin 3) (q : PosShare TreeShare) (f : Buf (Elt F) (vcaM.view.loc (c : Thread nD τ))) :
    (vcaM.view.loc (c : Thread nD τ) ↦[((vcaM.access (rVc s) : View sig .tc _ _ _)).set]{q} f : sProp 𝕄)
      ⊣⊢ iprop(piece c (vcaMine c s) q f ∗ piece c (vcaPeer c s) q f) := by
  have h : (vcaM.view.loc (c : Thread nD τ) ↦[(vcaMine c s).view.set ∪ (vcaPeer c s).view.set]{q} f : sProp 𝕄)
      ⊣⊢ iprop((vcaM.view.loc (c : Thread nD τ) ↦[(vcaMine c s).view.set]{q} f)
        ∗ (vcaM.view.loc (c : Thread nD τ) ↦[(vcaPeer c s).view.set]{q} f)) :=
    pointsTo_union (vca_halves_disjoint c s)
  rw [vca_halves_union c s] at h
  exact h

theorem vca_slot_join (c : Dev nD) (s : Fin 3) (q : PosShare TreeShare) (f g : Buf (Elt F) (vcaM.view.loc (c : Thread nD τ))) :
    iprop(piece c (vcaMine c s) q f ∗ piece c (vcaPeer c s) q g)
      ⊢ (iprop(∃ h : Buf (Elt F) (vcaM.view.loc (c : Thread nD τ)),
          ⌜(∀ i ∈ (vcaMine c s).view.set, h i = f i) ∧ (∀ i ∈ (vcaPeer c s).view.set, h i = g i)⌝
          ∗ (vcaM.view.loc (c : Thread nD τ) ↦[((vcaM.access (rVc s) : View sig .tc _ _ _)).set]{q} h)) : sProp 𝕄) := by
  have h : iprop((vcaM.view.loc (c : Thread nD τ) ↦[(vcaMine c s).view.set]{q} f)
        ∗ (vcaM.view.loc (c : Thread nD τ) ↦[(vcaPeer c s).view.set]{q} g))
      ⊢ (vcaM.view.loc (c : Thread nD τ) ↦[(vcaMine c s).view.set ∪ (vcaPeer c s).view.set]{q}
          ((vcaPeer c s).view.set.piecewise g f) : sProp 𝕄) :=
    pointsTo_join (vca_halves_disjoint c s)
  rw [vca_halves_union c s] at h
  refine h.trans ?_
  iintro H
  iexists ((vcaPeer c s).view.set.piecewise g f)
  isplitr
  · ipureintro
    exact ⟨fun i hi => Finset.piecewise_eq_of_notMem _ _ _ (Finset.disjoint_left.mp (vca_halves_disjoint c s) hi),
      fun i hi => Finset.piecewise_eq_of_mem _ _ _ hi⟩
  · iexact H

/-- A slot of `vcast_b` is the device's own column half and the rest of the slot. -/
theorem vcb_slot_split (c : Dev nD) (s : Fin 3) (q : PosShare TreeShare) (f : Buf (Elt F) (vcbM.view.loc (c : Thread nD τ))) :
    (vcbM.view.loc (c : Thread nD τ) ↦[((vcbM.access (rVc s) : View sig .tc _ _ _)).set]{q} f : sProp 𝕄)
      ⊣⊢ iprop(piece c (vcbMine c s) q f
          ∗ (vcbM.view.loc (c : Thread nD τ) ↦[((vcbM.access (rVc s) : View sig .tc _ _ _)).set \ (vcbMine c s).view.set]{q} f)) :=
  pointsTo_split_subset (vcb_mine_subset c s)

/-! ### The slots of a staging buffer -/

theorem rVin_disj : ∀ j j' : Fin 2, j ≠ j' → Disjoint (rVin j).set (rVin j').set :=
  disjoint_of_rows (s := S2x256x2048) 0 S1x256x2048.size (fun j : Fin 2 => (rVin j).set) (fun j => j.val)
    (fun j => ⟨_, _, rfl, rfl⟩)
    (fun j j' h => by
      have := Fin.val_ne_of_ne h
      show j.val + 1 ≤ j'.val ∨ j'.val + 1 ≤ j.val
      omega)
theorem rVc_disj : ∀ s s' : Fin 3, s ≠ s' → Disjoint (rVc s).set (rVc s').set :=
  disjoint_of_rows (s := S3x256x2048) 0 S1x256x2048.size (fun s : Fin 3 => (rVc s).set) (fun s => s.val)
    (fun s => ⟨_, _, rfl, rfl⟩)
    (fun s s' h => by
      have := Fin.val_ne_of_ne h
      show s.val + 1 ≤ s'.val ∨ s'.val + 1 ≤ s.val
      omega)

theorem numel_vin : 2 * S1x256x2048.numel = S2x256x2048.numel := by decide +kernel
theorem numel_vc : 3 * S1x256x2048.numel = S3x256x2048.numel := by decide +kernel

theorem rVin_cover : Finset.univ.biUnion (fun j : Fin 2 => (rVin j).set) = Finset.univ := by
  refine biUnion_eq_univ_of_card (α := S2x256x2048.Idx) (fun j : Fin 2 => (rVin j).set) S1x256x2048.numel rVin_disj
    (fun j => Rect.card_set _) ?_
  rw [Fintype.card_fin]
  exact numel_vin.trans (Shape.card_idx _).symm
theorem rVc_cover : Finset.univ.biUnion (fun s : Fin 3 => (rVc s).set) = Finset.univ := by
  refine biUnion_eq_univ_of_card (α := S3x256x2048.Idx) (fun s : Fin 3 => (rVc s).set) S1x256x2048.numel rVc_disj
    (fun s => Rect.card_set _) ?_
  rw [Fintype.card_fin]
  exact numel_vc.trans (Shape.card_idx _).symm

theorem via_split (c : Dev nD) (f : Buf (Elt F) (viaM.view.loc (c : Thread nD τ))) :
    (viaM.view.loc (c : Thread nD τ) ↦{fullShare} f : sProp 𝕄)
      ⊣⊢ bigSep Finset.univ fun j : Fin 2 => piece c (viaS j) fullShare f := by
  have h := tile_split (F := F) (ℓ := viaM.view.loc (c : Thread nD τ)) (fun j : Fin 2 => (rVin j).set) rVin_disj rVin_cover fullShare f
  simp only [← viaS_set] at h
  exact h
theorem vib_split (c : Dev nD) (f : Buf (Elt F) (vibM.view.loc (c : Thread nD τ))) :
    (vibM.view.loc (c : Thread nD τ) ↦{fullShare} f : sProp 𝕄)
      ⊣⊢ bigSep Finset.univ fun j : Fin 2 => piece c (vibS j) fullShare f := by
  have h := tile_split (F := F) (ℓ := vibM.view.loc (c : Thread nD τ)) (fun j : Fin 2 => (rVin j).set) rVin_disj rVin_cover fullShare f
  simp only [← vibS_set] at h
  exact h
theorem via_join (c : Dev nD) :
    bigSep Finset.univ (fun j : Fin 2 => iprop(∃ f, piece c (viaS j) fullShare f))
      ⊢ (iprop(∃ f, viaM.view.loc (c : Thread nD τ) ↦{fullShare} f) : sProp 𝕄) := by
  have h := tile_join_ex (F := F) (ℓ := viaM.view.loc (c : Thread nD τ)) (fun j : Fin 2 => (rVin j).set) rVin_disj rVin_cover fullShare
  simp only [← viaS_set] at h
  exact h
theorem vib_join (c : Dev nD) :
    bigSep Finset.univ (fun j : Fin 2 => iprop(∃ f, piece c (vibS j) fullShare f))
      ⊢ (iprop(∃ f, vibM.view.loc (c : Thread nD τ) ↦{fullShare} f) : sProp 𝕄) := by
  have h := tile_join_ex (F := F) (ℓ := vibM.view.loc (c : Thread nD τ)) (fun j : Fin 2 => (rVin j).set) rVin_disj rVin_cover fullShare
  simp only [← vibS_set] at h
  exact h
theorem vca_split (c : Dev nD) (f : Buf (Elt F) (vcaM.view.loc (c : Thread nD τ))) :
    (vcaM.view.loc (c : Thread nD τ) ↦{fullShare} f : sProp 𝕄)
      ⊣⊢ bigSep Finset.univ fun s : Fin 3 =>
          (vcaM.view.loc (c : Thread nD τ) ↦[((vcaM.access (rVc s) : View sig .tc _ _ _)).set]{fullShare} f) := by
  have h := tile_split (F := F) (ℓ := vcaM.view.loc (c : Thread nD τ)) (fun s : Fin 3 => (rVc s).set) rVc_disj rVc_cover fullShare f
  simp only [← vca_access_set] at h
  exact h
theorem vcb_split (c : Dev nD) (f : Buf (Elt F) (vcbM.view.loc (c : Thread nD τ))) :
    (vcbM.view.loc (c : Thread nD τ) ↦{fullShare} f : sProp 𝕄)
      ⊣⊢ bigSep Finset.univ fun s : Fin 3 =>
          (vcbM.view.loc (c : Thread nD τ) ↦[((vcbM.access (rVc s) : View sig .tc _ _ _)).set]{fullShare} f) := by
  have h := tile_split (F := F) (ℓ := vcbM.view.loc (c : Thread nD τ)) (fun s : Fin 3 => (rVc s).set) rVc_disj rVc_cover fullShare f
  simp only [← vcb_access_set] at h
  exact h
theorem vca_join (c : Dev nD) :
    bigSep Finset.univ (fun s : Fin 3 => iprop(∃ f : Buf (Elt F) (vcaM.view.loc (c : Thread nD τ)),
        vcaM.view.loc (c : Thread nD τ) ↦[((vcaM.access (rVc s) : View sig .tc _ _ _)).set]{fullShare} f))
      ⊢ (iprop(∃ f, vcaM.view.loc (c : Thread nD τ) ↦{fullShare} f) : sProp 𝕄) := by
  have h := tile_join_ex (F := F) (ℓ := vcaM.view.loc (c : Thread nD τ)) (fun s : Fin 3 => (rVc s).set) rVc_disj rVc_cover fullShare
  simp only [← vca_access_set] at h
  exact h
theorem vcb_join (c : Dev nD) :
    bigSep Finset.univ (fun s : Fin 3 => iprop(∃ f : Buf (Elt F) (vcbM.view.loc (c : Thread nD τ)),
        vcbM.view.loc (c : Thread nD τ) ↦[((vcbM.access (rVc s) : View sig .tc _ _ _)).set]{fullShare} f))
      ⊢ (iprop(∃ f, vcbM.view.loc (c : Thread nD τ) ↦{fullShare} f) : sProp 𝕄) := by
  have h := tile_join_ex (F := F) (ℓ := vcbM.view.loc (c : Thread nD τ)) (fun s : Fin 3 => (rVc s).set) rVc_disj rVc_cover fullShare
  simp only [← vcb_access_set] at h
  exact h

/-! ### What a whole store to a slot leaves in each column half does not depend on the contents stored over -/

theorem vcaMine_write_irrel (c : Dev nD) (s : Fin 3) (q : PosShare TreeShare)
    (f g : Buf (Elt F) (vcaM.view.loc (c : Thread nD τ))) (w : S1x256x2048.Idx → Elt F .bf16) :
    piece c (vcaMine c s) q (((vcaM.access (rVc s) : View sig .tc _ _ _)).write (Elt F) f w Finset.univ)
      = piece c (vcaMine c s) q (((vcaM.access (rVc s) : View sig .tc _ _ _)).write (Elt F) g w Finset.univ) :=
  access_write_irrel c (vcaM.access (rVc s) : View sig .tc _ _ _) (vca_mine_subset c s) q f g w
theorem vcaPeer_write_irrel (c : Dev nD) (s : Fin 3) (q : PosShare TreeShare)
    (f g : Buf (Elt F) (vcaM.view.loc (c : Thread nD τ))) (w : S1x256x2048.Idx → Elt F .bf16) :
    piece c (vcaPeer c s) q (((vcaM.access (rVc s) : View sig .tc _ _ _)).write (Elt F) f w Finset.univ)
      = piece c (vcaPeer c s) q (((vcaM.access (rVc s) : View sig .tc _ _ _)).write (Elt F) g w Finset.univ) :=
  access_write_irrel c (vcaM.access (rVc s) : View sig .tc _ _ _) (vca_peer_subset c s) q f g w
theorem vcbMine_write_irrel (c : Dev nD) (s : Fin 3) (q : PosShare TreeShare)
    (f g : Buf (Elt F) (vcbM.view.loc (c : Thread nD τ))) (w : S1x256x2048.Idx → Elt F .bf16) :
    piece c (vcbMine c s) q (((vcbM.access (rVc s) : View sig .tc _ _ _)).write (Elt F) f w Finset.univ)
      = piece c (vcbMine c s) q (((vcbM.access (rVc s) : View sig .tc _ _ _)).write (Elt F) g w Finset.univ) :=
  access_write_irrel c (vcbM.access (rVc s) : View sig .tc _ _ _) (vcb_mine_subset c s) q f g w

end Cert.KernelIdealA2A
end
-- ==== Proof.A2AFinish.lean ====
/-
  The two ends of a device's body. At the start each whole buffer is cut into the pieces the copies and the stores
  address. At the end every piece is back and every cell of the device stands at its last round: the pieces join into
  whole buffers (the result at contents that agree, block by block, with what the block's copy wrote) and every cell
  closes with its counter at zero.
-/
import proofs.«900012_g7700000000000013_dist_a2a_v7x_xy2x2_x_m16384_n1024_bf16_1_alg».proof.Proof.A2AGhost
import proofs.«900012_g7700000000000013_dist_a2a_v7x_xy2x2_x_m16384_n1024_bf16_1_alg».proof.Proof.A2AGeom

noncomputable section

namespace Cert.KernelIdealA2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.SL.BI (bigSepL bigSep_univ_eq_bigSepL)

variable {F : FTy → Type} [FloatOps F]

local notation "𝕄" => MT nD τ sig Unit (Elt F) ℕ UU ℕ

variable (m : (ℓ : Loc nD τ sig) → Buf (Elt F) ℓ)

/-! ## A `bigSep` over a small index type, written out -/

theorem bigSep_fin2 (Φ : Fin 2 → sProp 𝕄) : bigSep Finset.univ Φ = iprop(Φ 0 ∗ Φ 1) :=
  bigSep_univ_eq_bigSepL [0, 1] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin32 (Φ : Fin 32 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28,
    29, 30, 31] (by decide +kernel) (by decide +kernel) Φ

/-- One choice serves every summand. -/
theorem bigSep_ex_intro {ι : Type} {Y : Type} (s : Finset ι) (P : ι → Y → sProp 𝕄) (y : Y) :
    bigSep s (fun i => P i y) ⊢ bigSep s (fun i => iprop(∃ y, P i y)) :=
  bigSep_mono fun i _ => exists_intro (PROP := sProp 𝕄) (Φ := P i) y

/-! ## The start of the body: every buffer into its pieces -/

theorem start_x (c : Dev nD) :
    (((c : Thread nD τ).loc main_arg0) ↦{fullShare} Xc m c : sProp 𝕄)
      ⊢ iprop((bigSep Finset.univ fun k : Fin 32 => piece c (xA c k) fullShare (Xc m c))
          ∗ (bigSep Finset.univ fun k : Fin 32 => piece c (xB c k) fullShare (Xc m c))) := by
  have h := (x_split (F := F) c (Xc m c)).1
  exact h
theorem start_out (c : Dev nD) :
    (((c : Thread nD τ).loc main_v1) ↦{fullShare} m ((c : Thread nD τ).loc main_v1) : sProp 𝕄)
      ⊢ iprop((bigSep Finset.univ fun k : Fin 32 => piece c (oA c k) fullShare (m ((c : Thread nD τ).loc main_v1)))
          ∗ (bigSep Finset.univ fun k : Fin 32 => piece c (oB c k) fullShare (m ((c : Thread nD τ).loc main_v1)))
          ∗ (bigSep Finset.univ fun k : Fin 32 => piece c (oR c k) fullShare (m ((c : Thread nD τ).loc main_v1)))
          ∗ (bigSep Finset.univ fun k : Fin 32 => piece c (oR (py c) k) fullShare (m ((c : Thread nD τ).loc main_v1)))) := by
  have h := (out_split (F := F) c (m ((c : Thread nD τ).loc main_v1))).1
  exact h
theorem start_via (c : Dev nD) :
    (someBuf c cc0_scratch0 : sProp 𝕄) ⊢ bigSep Finset.univ fun j : Fin 2 => iprop(∃ f, piece c (viaS j) fullShare f) := by
  iintro ⟨%f, H⟩
  ihave H' := (via_split (F := F) c f).1 $$ H
  iapply (bigSep_ex_intro Finset.univ (fun (j : Fin 2) f => piece c (viaS j) fullShare f) f) $$ H'
theorem start_vib (c : Dev nD) :
    (someBuf c cc0_scratch1 : sProp 𝕄) ⊢ bigSep Finset.univ fun j : Fin 2 => iprop(∃ f, piece c (vibS j) fullShare f) := by
  iintro ⟨%f, H⟩
  ihave H' := (vib_split (F := F) c f).1 $$ H
  iapply (bigSep_ex_intro Finset.univ (fun (j : Fin 2) f => piece c (vibS j) fullShare f) f) $$ H'
theorem start_vca (c : Dev nD) :
    (someBuf c cc0_scratch2 : sProp 𝕄) ⊢ bigSep Finset.univ fun s : Fin 3 =>
      iprop(∃ f, ((vcaM.access (rVc s) : View sig .tc _ _ _).loc (c : Thread nD τ) ↦[(vcaM.access (rVc s) : View sig .tc _ _ _).set]{fullShare} f)) := by
  iintro ⟨%f, H⟩
  ihave H' := (vca_split (F := F) c f).1 $$ H
  iapply (bigSep_ex_intro Finset.univ (fun (s : Fin 3) (f : Buf (Elt F) (vcaM.view.loc (c : Thread nD τ))) =>
    (vcaM.view.loc (c : Thread nD τ) ↦[(vcaM.access (rVc s) : View sig .tc _ _ _).set]{fullShare} f : sProp 𝕄)) f) $$ H'
theorem start_vcb (c : Dev nD) :
    (someBuf c cc0_scratch3 : sProp 𝕄) ⊢ bigSep Finset.univ fun s : Fin 3 =>
      iprop(∃ f, ((vcbM.access (rVc s) : View sig .tc _ _ _).loc (c : Thread nD τ) ↦[(vcbM.access (rVc s) : View sig .tc _ _ _).set]{fullShare} f)) := by
  iintro ⟨%f, H⟩
  ihave H' := (vcb_split (F := F) c f).1 $$ H
  iapply (bigSep_ex_intro Finset.univ (fun (s : Fin 3) (f : Buf (Elt F) (vcbM.view.loc (c : Thread nD τ))) =>
    (vcbM.view.loc (c : Thread nD τ) ↦[(vcbM.access (rVc s) : View sig .tc _ _ _).set]{fullShare} f : sProp 𝕄)) f) $$ H'

/-- The whole landing buffer, as a piece. -/
theorem piece_ld (c : Dev nD) (q : PosShare TreeShare) (f : Buf (Elt F) (ldM.view.loc (c : Thread nD τ))) :
    piece c ldM q f = (ldM.view.loc (c : Thread nD τ) ↦{q} f : sProp 𝕄) :=
  congrArg (fun I => (ldM.view.loc (c : Thread nD τ) ↦[I]{q} f : sProp 𝕄)) (View.set_whole _)

theorem start_ld (c : Dev nD) :
    (someBuf c cc0_scratch4 : sProp 𝕄) ⊢ iprop(∃ f, piece c ldM fullShare f) := by
  iintro ⟨%f, H⟩
  iexists f
  rw [piece_ld]
  iexact H

/-! ## The device's own counters: the DMA semaphores, family after family -/

abbrev TQ : Type := Fin 2 ⊕ (Fin 2 ⊕ (Fin 3 ⊕ (Fin 3 ⊕ (Fin 32 ⊕ (Fin 32 ⊕ (Fin 32 ⊕ (Fin 32 ⊕ Fin 32)))))))

instance : DecidableEq TQ := Classical.decEq TQ

def famOf : TQ → Fam :=
  Sum.elim .ina (Sum.elim .inb (Sum.elim .lca (Sum.elim .lcb (Sum.elim .lo (Sum.elim .ds (Sum.elim .dr (Sum.elim .fs .fr)))))))
def semOf : TQ → DmaSem sig :=
  Sum.elim inaS (Sum.elim inbS (Sum.elim lcaS (Sum.elim lcbS (Sum.elim loS (Sum.elim dsS (Sum.elim drS (Sum.elim fsS frS)))))))
def unFam : Fam → TQ
  | .ina j => .inl j | .inb j => .inr (.inl j) | .lca s => .inr (.inr (.inl s)) | .lcb s => .inr (.inr (.inr (.inl s)))
  | .lo k => .inr (.inr (.inr (.inr (.inl k)))) | .ds k => .inr (.inr (.inr (.inr (.inr (.inl k)))))
  | .dr k => .inr (.inr (.inr (.inr (.inr (.inr (.inl k)))))) | .fs k => .inr (.inr (.inr (.inr (.inr (.inr (.inr (.inl k)))))))
  | .fr k => .inr (.inr (.inr (.inr (.inr (.inr (.inr (.inr k))))))) | .bar => .inl 0

theorem famOf_sem (t : TQ) : (famOf t).sem = .dma (semOf t) := by
  rcases t with j | j | s | s | k | k | k | k | k <;> rfl
theorem unFam_famOf (t : TQ) : unFam (famOf t) = t := by
  rcases t with j | j | s | s | k | k | k | k | k <;> rfl

/-- Every DMA semaphore is the semaphore of exactly one cell that is not the barrier's. -/
theorem semOf_inj : Function.Injective semOf := by
  intro t t' h
  have h1 : some (famOf t) = some (famOf t') := by rw [← decode_sem, ← decode_sem, famOf_sem, famOf_sem, h]
  have h2 := congrArg unFam (Option.some.inj h1)
  rwa [unFam_famOf, unFam_famOf] at h2
theorem semOf_image : Finset.univ.image semOf = (Finset.univ : Finset (DmaSem sig)) := by
  apply Finset.eq_univ_of_card
  rw [Finset.card_image_of_injective _ semOf_inj, Finset.card_univ]
  show Fintype.card TQ = Fintype.card (Fin sig.nDmaSem)
  simp only [Fintype.card_sum, Fintype.card_fin]

theorem sems_eq (c : Dev nD) :
    (bigSep Finset.univ fun q : DmaSem sig => (semVal ((c : Thread nD τ), .dma q) 0 : sProp 𝕄))
      = bigSep Finset.univ fun t : TQ => semVal (cell c (famOf t)) 0 := by
  rw [← semOf_image, bigSep_image_of_injOn (semOf_inj.injOn)]
  refine bigSep_congr fun t _ => ?_
  show (semVal ((c : Thread nD τ), SemLoc.dma (semOf t)) 0 : sProp 𝕄) = semVal ((c : Thread nD τ), (famOf t).sem) 0
  rw [famOf_sem]

/-- A `bigSep` over the families, family after family. -/
theorem tq_split (Φ : TQ → sProp 𝕄) : bigSep Finset.univ Φ
    = iprop((bigSep Finset.univ fun j : Fin 2 => Φ (.inl j)) ∗ (bigSep Finset.univ fun j : Fin 2 => Φ (.inr (.inl j)))
      ∗ (bigSep Finset.univ fun s : Fin 3 => Φ (.inr (.inr (.inl s)))) ∗ (bigSep Finset.univ fun s : Fin 3 => Φ (.inr (.inr (.inr (.inl s)))))
      ∗ (bigSep Finset.univ fun k : Fin 32 => Φ (.inr (.inr (.inr (.inr (.inl k))))))
      ∗ (bigSep Finset.univ fun k : Fin 32 => Φ (.inr (.inr (.inr (.inr (.inr (.inl k)))))))
      ∗ (bigSep Finset.univ fun k : Fin 32 => Φ (.inr (.inr (.inr (.inr (.inr (.inr (.inl k))))))))
      ∗ (bigSep Finset.univ fun k : Fin 32 => Φ (.inr (.inr (.inr (.inr (.inr (.inr (.inr (.inl k)))))))))
      ∗ (bigSep Finset.univ fun k : Fin 32 => Φ (.inr (.inr (.inr (.inr (.inr (.inr (.inr (.inr k)))))))))) := by
  rw [bigSep_univ_sum, bigSep_univ_sum, bigSep_univ_sum, bigSep_univ_sum, bigSep_univ_sum, bigSep_univ_sum, bigSep_univ_sum,
    bigSep_univ_sum]
  rfl

/-- A cell at its last round closes: its counter is at zero. -/
theorem close_cell_fin (K : Dev nD × Fam → ℕ) (c : Dev nD) (f : Fam) :
    iprop(cellInv ER (Rd m) (K (c, f)) (cell c f) ∗ atPos ER (cell c f) f.rounds ∅ 0) ⊢ iprop(|={Set.univ}=> semVal (cell c f) 0) :=
  Rounds.cell_close ER (Rd m) (Set.mem_univ _) (fun h => h) (R := f.rounds) (fun r hr => duties_later m c f hr)

/-- Every cell of the device that is not the barrier's, at its last round, closes. -/
theorem close_all (K : Dev nD × Fam → ℕ) (c : Dev nD) :
    iprop(records m K ∗ bigSep Finset.univ (fun t : TQ => atPos ER (cell c (famOf t)) (famOf t).rounds ∅ 0))
      ⊢ iprop(|={Set.univ}=> bigSep Finset.univ fun q : DmaSem sig => semVal ((c : Thread nD τ), .dma q) 0) := by
  rw [sems_eq]
  refine (bigSep_with_persistent (Ψ := fun t : TQ => iprop(|={Set.univ}=> semVal (cell c (famOf t)) 0)) (fun t _ => ?_)).trans
    (bigSep_fupd _ _)
  iintro ⟨#Hrec, Hat⟩
  ihave Hinv := (inv_at m K c (famOf t)) $$ Hrec
  iapply (close_cell_fin m K c (famOf t))
  isplitl [Hinv] <;> iassumption

/-! ## The end of the body -/

/-- The positions as the body holds them, family after family. -/
theorem atPos_regroup (c : Dev nD) :
    iprop((bigSep Finset.univ fun j : Fin 2 => iprop(atPos ER (cell c (.ina j)) 16 ∅ 0 ∗ atPos ER (cell c (.inb j)) 16 ∅ 0))
      ∗ (bigSep Finset.univ fun s : Fin 3 => iprop(atPos ER (cell c (.lca s)) (Fam.lca s).rounds ∅ 0 ∗ atPos ER (cell c (.lcb s)) (Fam.lcb s).rounds ∅ 0))
      ∗ (bigSep Finset.univ fun k : Fin 32 => iprop(atPos ER (cell c (.lo k)) 1 ∅ 0 ∗ atPos ER (cell c (.ds k)) 1 ∅ 0 ∗ atPos ER (cell c (.dr k)) 1 ∅ 0 ∗ atPos ER (cell c (.fs k)) 1 ∅ 0 ∗ atPos ER (cell c (.fr k)) 1 ∅ 0)))
      ⊢ (bigSep Finset.univ (fun t : TQ => atPos ER (cell c (famOf t)) (famOf t).rounds ∅ 0) : sProp 𝕄) := by
  rw [tq_split, bigSep_sep', bigSep_sep', bigSep_sep', bigSep_sep', bigSep_sep', bigSep_sep']
  iintro ⟨⟨H1, H2⟩, ⟨H3, H4⟩, H5, H6, H7, H8, H9⟩
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

theorem finish (K : Dev nD × Fam → ℕ) (c : Dev nD) :
    iprop(records m K
      ∗ (bigSep Finset.univ fun k : Fin 32 => piece c (xA c k) fullShare (Xc m c)) ∗ (bigSep Finset.univ fun k : Fin 32 => piece c (xB c k) fullShare (Xc m c))
      ∗ (bigSep Finset.univ fun k : Fin 32 => piece c (oA c k) fullShare (outA m c k)) ∗ (bigSep Finset.univ fun k : Fin 32 => piece c (oB c k) fullShare (outB m c k))
      ∗ (bigSep Finset.univ fun k : Fin 32 => piece c (oR c k) fullShare (outL m c k)) ∗ (bigSep Finset.univ fun k : Fin 32 => piece c (oR (py c) k) fullShare (outF m c k))
      ∗ (bigSep Finset.univ fun j : Fin 2 => iprop(∃ f, piece c (viaS j) fullShare f)) ∗ (bigSep Finset.univ fun j : Fin 2 => iprop(∃ f, piece c (vibS j) fullShare f))
      ∗ (bigSep Finset.univ fun s : Fin 3 => iprop(∃ f, ((vcaM.access (rVc s) : View sig .tc _ _ _).loc (c : Thread nD τ) ↦[(vcaM.access (rVc s) : View sig .tc _ _ _).set]{fullShare} f)))
      ∗ (bigSep Finset.univ fun s : Fin 3 => iprop(∃ f, ((vcbM.access (rVc s) : View sig .tc _ _ _).loc (c : Thread nD τ) ↦[(vcbM.access (rVc s) : View sig .tc _ _ _).set]{fullShare} f)))
      ∗ (bigSep Finset.univ fun k : Fin 32 => iprop(∃ f, piece c (ldS k) fullShare f))
      ∗ (bigSep Finset.univ fun j : Fin 2 => iprop(atPos ER (cell c (.ina j)) 16 ∅ 0 ∗ atPos ER (cell c (.inb j)) 16 ∅ 0))
      ∗ (bigSep Finset.univ fun s : Fin 3 => iprop(atPos ER (cell c (.lca s)) (Fam.lca s).rounds ∅ 0 ∗ atPos ER (cell c (.lcb s)) (Fam.lcb s).rounds ∅ 0))
      ∗ (bigSep Finset.univ fun k : Fin 32 => iprop(atPos ER (cell c (.lo k)) 1 ∅ 0 ∗ atPos ER (cell c (.ds k)) 1 ∅ 0 ∗ atPos ER (cell c (.dr k)) 1 ∅ 0 ∗ atPos ER (cell c (.fs k)) 1 ∅ 0 ∗ atPos ER (cell c (.fr k)) 1 ∅ 0)))
    ⊢ iprop(|={Set.univ}=> Φ₁ m c) := by
  iintro ⟨#Hrec, HxA, HxB, HoA, HoB, HoL, HoF, Hvia, Hvib, Hvca, Hvcb, Hld, Hin, Hlc, Hk⟩
  ihave Hx := (x_split (F := F) c (Xc m c)).2 $$ [HxA HxB]
  · isplitl [HxA] <;> iassumption
  ihave Hout := (out_join (F := F) c (outA m c) (outB m c) (outL m c) (outF m c)) $$ [HoA HoB HoL HoF]
  · isplitl [HoA]
    · iassumption
    isplitl [HoB]
    · iassumption
    isplitl [HoL] <;> iassumption
  ihave H0 := (via_join (F := F) c) $$ Hvia
  ihave H1 := (vib_join (F := F) c) $$ Hvib
  ihave H2 := (vca_join (F := F) c) $$ Hvca
  ihave H3 := (vcb_join (F := F) c) $$ Hvcb
  ihave H4 := (ld_join (F := F) c) $$ Hld
  ihave Hpos := (atPos_regroup (F := F) c) $$ [Hin Hlc Hk]
  · isplitl [Hin]
    · iassumption
    isplitl [Hlc] <;> iassumption
  ihave Hsem := (close_all m K c) $$ [Hpos]
  · isplitr
    · iexact Hrec
    · iexact Hpos
  imod Hsem
  imodintro
  unfold Φ₁
  isplitl [H0]
  · iexact H0
  isplitl [H1]
  · iexact H1
  isplitl [H2]
  · iexact H2
  isplitl [H3]
  · iexact H3
  isplitl [H4]
  · iexact H4
  isplitl [Hx]
  · iexact Hx
  isplitl [Hout]
  · icases Hout with ⟨%g, %hg, Hg⟩
    iexists g
    isplitr
    · ipureintro; exact hg
    · iexact Hg
  iexact Hsem

end Cert.KernelIdealA2A
end
-- ==== Proof.A2ABody.lean ====
/- The device's body, effect by effect in program order: each printed copy, wait, load, store and signal is met by one
   application, at its literal chunk number, of the lemma that states what that effect takes and hands back; between
   them the slots of the two bf16 buffers are cut into the halves the copies read and joined again, and a landed
   chunk's share is halved for its two readers. -/
import proofs.«900012_g7700000000000013_dist_a2a_v7x_xy2x2_x_m16384_n1024_bf16_1_alg».proof.Proof.A2AOps
import proofs.«900012_g7700000000000013_dist_a2a_v7x_xy2x2_x_m16384_n1024_bf16_1_alg».proof.Proof.A2AGeom
import proofs.«900012_g7700000000000013_dist_a2a_v7x_xy2x2_x_m16384_n1024_bf16_1_alg».proof.Proof.A2AFinish

noncomputable section

namespace Cert.KernelIdealA2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The x-peer's landing buffer, slot by slot. -/
theorem peer_ld_split (c : Dev nD) (f : Buf (Elt F) (ldM.view.loc (px c : Thread nD τ))) :
    piece (px c) ldM fullShare f ⊢ (bigSep Finset.univ fun k : Fin 32 => piece (px c) (ldS k) fullShare f : sProp 𝕄) := by
  rw [piece_ld]; exact (ld_split (px c) f).1

/-- The relayed quarter of the result, each block at some contents. -/
theorem out_quarter_ex (c : Dev nD) (f : Buf (Elt F) (oM.view.loc (c : Thread nD τ))) :
    (bigSep Finset.univ fun k : Fin 32 => piece c (oR (py c) k) fullShare f : sProp 𝕄)
      ⊢ bigSep Finset.univ fun k : Fin 32 => iprop(∃ g, piece c (oR (py c) k) fullShare g) :=
  bigSep_mono fun k _ => exists_intro (PROP := sProp 𝕄) (Φ := fun g => piece c (oR (py c) k) fullShare g) f

/-- A half slot of the bf16 buffer credits a copy's semaphore what every 256 x 1024 bf16 block does. -/
theorem credit_vcaPeer (c : Dev nD) (s : Fin 3) : (vcaPeer c s).view.dmaCredit = Nout := rfl

set_option maxHeartbeats 40000000 in
set_option maxRecDepth 65536 in
theorem sound_body (c : Dev nD) (W : Waits sig Unit) (Kt : PUnit → sProp 𝕄) :
    iprop(Φ₀ m c ∗ owes (c : Thread nD τ) (O₀ c) W ∗ ((Φ₁ m c ∗ ∃ W', owes (c : Thread nD τ) 0 W') -∗ Kt ⟨⟩))
      ⊢ wp frame (wpE (defs₀ (F := F)) 𝒱₀ c none) Set.univ
          (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13) Kt := by
  simp only [cc0_body_eq_skeleton]
  unfold cc0_body_skel
  -- the printed part k0_part147 is opened
  simp only [k0_part147_eq_skeleton]
  unfold k0_part147_skel
  simp only [semSignalWord, semWaitWord, Prog.lift, Prog.bind_op, Prog.bind_ret, Prog.pure_eq_ret, wp_deviceId]
  -- the printed part k0_part1 is opened
  simp only [k0_part1_eq_skeleton]
  unfold k0_part1_skel
  simp only [semSignalWord, semWaitWord, Prog.lift, Prog.bind_op, Prog.bind_ret, Prog.pure_eq_ret, wp_deviceId]
  unfold Φ₀ ghost
  iintro ⟨⟨⟨%K, #HR, Hch, Hp2, Hp3, Pbar, Cbar, TbarX, TbarY, #Hlev⟩, S0, S1, S2, S3, S4, HX, HOut⟩, HO, Hk⟩
  -- the ghost state chunk by chunk, the buffers piece by piece
  ihave Hch := (Entails.of_eq (bigSep_fin32 _)) $$ Hch
  unfold chunkRes
  icases Hch with ⟨⟨Tia0, Tib0, Tla0, Tlb0, Tlo0, Tds0, Tfs0, Tdr0, Tfr0, Plo0, Pds0, Pdr0, Pfs0, Pfr0, Cdr0, Cfr0⟩, ⟨Tia1, Tib1, Tla1, Tlb1, Tlo1, Tds1, Tfs1, Tdr1, Tfr1, Plo1, Pds1, Pdr1, Pfs1, Pfr1, Cdr1, Cfr1⟩, ⟨Tia2, Tib2, Tla2, Tlb2, Tlo2, Tds2, Tfs2, Tdr2, Tfr2, Plo2, Pds2, Pdr2, Pfs2, Pfr2, Cdr2, Cfr2⟩, ⟨Tia3, Tib3, Tla3, Tlb3, Tlo3, Tds3, Tfs3, Tdr3, Tfr3, Plo3, Pds3, Pdr3, Pfs3, Pfr3, Cdr3, Cfr3⟩, ⟨Tia4, Tib4, Tla4, Tlb4, Tlo4, Tds4, Tfs4, Tdr4, Tfr4, Plo4, Pds4, Pdr4, Pfs4, Pfr4, Cdr4, Cfr4⟩, ⟨Tia5, Tib5, Tla5, Tlb5, Tlo5, Tds5, Tfs5, Tdr5, Tfr5, Plo5, Pds5, Pdr5, Pfs5, Pfr5, Cdr5, Cfr5⟩, ⟨Tia6, Tib6, Tla6, Tlb6, Tlo6, Tds6, Tfs6, Tdr6, Tfr6, Plo6, Pds6, Pdr6, Pfs6, Pfr6, Cdr6, Cfr6⟩, ⟨Tia7, Tib7, Tla7, Tlb7, Tlo7, Tds7, Tfs7, Tdr7, Tfr7, Plo7, Pds7, Pdr7, Pfs7, Pfr7, Cdr7, Cfr7⟩, ⟨Tia8, Tib8, Tla8, Tlb8, Tlo8, Tds8, Tfs8, Tdr8, Tfr8, Plo8, Pds8, Pdr8, Pfs8, Pfr8, Cdr8, Cfr8⟩, ⟨Tia9, Tib9, Tla9, Tlb9, Tlo9, Tds9, Tfs9, Tdr9, Tfr9, Plo9, Pds9, Pdr9, Pfs9, Pfr9, Cdr9, Cfr9⟩, ⟨Tia10, Tib10, Tla10, Tlb10, Tlo10, Tds10, Tfs10, Tdr10, Tfr10, Plo10, Pds10, Pdr10, Pfs10, Pfr10, Cdr10, Cfr10⟩, ⟨Tia11, Tib11, Tla11, Tlb11, Tlo11, Tds11, Tfs11, Tdr11, Tfr11, Plo11, Pds11, Pdr11, Pfs11, Pfr11, Cdr11, Cfr11⟩, ⟨Tia12, Tib12, Tla12, Tlb12, Tlo12, Tds12, Tfs12, Tdr12, Tfr12, Plo12, Pds12, Pdr12, Pfs12, Pfr12, Cdr12, Cfr12⟩, ⟨Tia13, Tib13, Tla13, Tlb13, Tlo13, Tds13, Tfs13, Tdr13, Tfr13, Plo13, Pds13, Pdr13, Pfs13, Pfr13, Cdr13, Cfr13⟩, ⟨Tia14, Tib14, Tla14, Tlb14, Tlo14, Tds14, Tfs14, Tdr14, Tfr14, Plo14, Pds14, Pdr14, Pfs14, Pfr14, Cdr14, Cfr14⟩, ⟨Tia15, Tib15, Tla15, Tlb15, Tlo15, Tds15, Tfs15, Tdr15, Tfr15, Plo15, Pds15, Pdr15, Pfs15, Pfr15, Cdr15, Cfr15⟩, ⟨Tia16, Tib16, Tla16, Tlb16, Tlo16, Tds16, Tfs16, Tdr16, Tfr16, Plo16, Pds16, Pdr16, Pfs16, Pfr16, Cdr16, Cfr16⟩, ⟨Tia17, Tib17, Tla17, Tlb17, Tlo17, Tds17, Tfs17, Tdr17, Tfr17, Plo17, Pds17, Pdr17, Pfs17, Pfr17, Cdr17, Cfr17⟩, ⟨Tia18, Tib18, Tla18, Tlb18, Tlo18, Tds18, Tfs18, Tdr18, Tfr18, Plo18, Pds18, Pdr18, Pfs18, Pfr18, Cdr18, Cfr18⟩, ⟨Tia19, Tib19, Tla19, Tlb19, Tlo19, Tds19, Tfs19, Tdr19, Tfr19, Plo19, Pds19, Pdr19, Pfs19, Pfr19, Cdr19, Cfr19⟩, ⟨Tia20, Tib20, Tla20, Tlb20, Tlo20, Tds20, Tfs20, Tdr20, Tfr20, Plo20, Pds20, Pdr20, Pfs20, Pfr20, Cdr20, Cfr20⟩, ⟨Tia21, Tib21, Tla21, Tlb21, Tlo21, Tds21, Tfs21, Tdr21, Tfr21, Plo21, Pds21, Pdr21, Pfs21, Pfr21, Cdr21, Cfr21⟩, ⟨Tia22, Tib22, Tla22, Tlb22, Tlo22, Tds22, Tfs22, Tdr22, Tfr22, Plo22, Pds22, Pdr22, Pfs22, Pfr22, Cdr22, Cfr22⟩, ⟨Tia23, Tib23, Tla23, Tlb23, Tlo23, Tds23, Tfs23, Tdr23, Tfr23, Plo23, Pds23, Pdr23, Pfs23, Pfr23, Cdr23, Cfr23⟩, ⟨Tia24, Tib24, Tla24, Tlb24, Tlo24, Tds24, Tfs24, Tdr24, Tfr24, Plo24, Pds24, Pdr24, Pfs24, Pfr24, Cdr24, Cfr24⟩, ⟨Tia25, Tib25, Tla25, Tlb25, Tlo25, Tds25, Tfs25, Tdr25, Tfr25, Plo25, Pds25, Pdr25, Pfs25, Pfr25, Cdr25, Cfr25⟩, ⟨Tia26, Tib26, Tla26, Tlb26, Tlo26, Tds26, Tfs26, Tdr26, Tfr26, Plo26, Pds26, Pdr26, Pfs26, Pfr26, Cdr26, Cfr26⟩, ⟨Tia27, Tib27, Tla27, Tlb27, Tlo27, Tds27, Tfs27, Tdr27, Tfr27, Plo27, Pds27, Pdr27, Pfs27, Pfr27, Cdr27, Cfr27⟩, ⟨Tia28, Tib28, Tla28, Tlb28, Tlo28, Tds28, Tfs28, Tdr28, Tfr28, Plo28, Pds28, Pdr28, Pfs28, Pfr28, Cdr28, Cfr28⟩, ⟨Tia29, Tib29, Tla29, Tlb29, Tlo29, Tds29, Tfs29, Tdr29, Tfr29, Plo29, Pds29, Pdr29, Pfs29, Pfr29, Cdr29, Cfr29⟩, ⟨Tia30, Tib30, Tla30, Tlb30, Tlo30, Tds30, Tfs30, Tdr30, Tfr30, Plo30, Pds30, Pdr30, Pfs30, Pfr30, Cdr30, Cfr30⟩, ⟨Tia31, Tib31, Tla31, Tlb31, Tlo31, Tds31, Tfs31, Tdr31, Tfr31, Plo31, Pds31, Pdr31, Pfs31, Pfr31, Cdr31, Cfr31⟩⟩
  ihave Hp2 := (Entails.of_eq (bigSep_fin2 _)) $$ Hp2; icases Hp2 with ⟨⟨Pia0, Pib0⟩, ⟨Pia1, Pib1⟩⟩
  ihave Hp3 := (Entails.of_eq (bigSep_fin3 _)) $$ Hp3; icases Hp3 with ⟨⟨Pla0, Plb0⟩, ⟨Pla1, Plb1⟩, ⟨Pla2, Plb2⟩⟩
  ihave H := (start_x m c) $$ HX; icases H with ⟨HXA, HXB⟩
  ihave HXA := (Entails.of_eq (bigSep_fin32 _)) $$ HXA; icases HXA with ⟨XA0, XA1, XA2, XA3, XA4, XA5, XA6, XA7, XA8, XA9, XA10, XA11, XA12, XA13, XA14, XA15, XA16, XA17, XA18, XA19, XA20, XA21, XA22, XA23, XA24, XA25, XA26, XA27, XA28, XA29, XA30, XA31⟩
  ihave HXB := (Entails.of_eq (bigSep_fin32 _)) $$ HXB; icases HXB with ⟨XB0, XB1, XB2, XB3, XB4, XB5, XB6, XB7, XB8, XB9, XB10, XB11, XB12, XB13, XB14, XB15, XB16, XB17, XB18, XB19, XB20, XB21, XB22, XB23, XB24, XB25, XB26, XB27, XB28, XB29, XB30, XB31⟩
  ihave H := (start_out m c) $$ HOut; icases H with ⟨HOA, HOB, HOR, HOF⟩
  ihave HOF := (out_quarter_ex c _) $$ HOF
  ihave HOA := (Entails.of_eq (bigSep_fin32 _)) $$ HOA; icases HOA with ⟨OA0, OA1, OA2, OA3, OA4, OA5, OA6, OA7, OA8, OA9, OA10, OA11, OA12, OA13, OA14, OA15, OA16, OA17, OA18, OA19, OA20, OA21, OA22, OA23, OA24, OA25, OA26, OA27, OA28, OA29, OA30, OA31⟩
  ihave HOB := (Entails.of_eq (bigSep_fin32 _)) $$ HOB; icases HOB with ⟨OB0, OB1, OB2, OB3, OB4, OB5, OB6, OB7, OB8, OB9, OB10, OB11, OB12, OB13, OB14, OB15, OB16, OB17, OB18, OB19, OB20, OB21, OB22, OB23, OB24, OB25, OB26, OB27, OB28, OB29, OB30, OB31⟩
  ihave HOR := (Entails.of_eq (bigSep_fin32 _)) $$ HOR; icases HOR with ⟨OR0, OR1, OR2, OR3, OR4, OR5, OR6, OR7, OR8, OR9, OR10, OR11, OR12, OR13, OR14, OR15, OR16, OR17, OR18, OR19, OR20, OR21, OR22, OR23, OR24, OR25, OR26, OR27, OR28, OR29, OR30, OR31⟩
  ihave H := (start_via c) $$ S0; ihave H := (Entails.of_eq (bigSep_fin2 _)) $$ H; icases H with ⟨⟨%fva0, VA0⟩, ⟨%fva1, VA1⟩⟩
  ihave H := (start_vib c) $$ S1; ihave H := (Entails.of_eq (bigSep_fin2 _)) $$ H; icases H with ⟨⟨%fvb0, VB0⟩, ⟨%fvb1, VB1⟩⟩
  ihave H := (start_vca c) $$ S2; ihave H := (Entails.of_eq (bigSep_fin3 _)) $$ H; icases H with ⟨⟨%fca0, CA0⟩, ⟨%fca1, CA1⟩, ⟨%fca2, CA2⟩⟩
  ihave H := (start_vcb c) $$ S3; ihave H := (Entails.of_eq (bigSep_fin3 _)) $$ H; icases H with ⟨⟨%fcb0, CB0⟩, ⟨%fcb1, CB1⟩, ⟨%fcb2, CB2⟩⟩
  ihave HLD := (start_ld c) $$ S4
  -- chunk 0, half a: its rows of x start for staging slot 0
  iapply (wp_stage_a m K c 0 _) $$ [XA0 VA0 Tia0]
  · isplitr; · (iapply (inv_at m K c (.ina (slot2 0))); iexact HR)
    isplitr; · (iapply (reached0_at m K c (.ina (slot2 0))); iexact HR)
    isplitl [XA0]; · iexact XA0
    isplitl [VA0]; · iexact VA0
    iexact Tia0
  iintro Kia0
  -- chunk 0, half b: its rows of x start for staging slot 0
  iapply (wp_stage_b m K c 0 _) $$ [XB0 VB0 Tib0]
  · isplitr; · (iapply (inv_at m K c (.inb (slot2 0))); iexact HR)
    isplitr; · (iapply (reached0_at m K c (.inb (slot2 0))); iexact HR)
    isplitl [XB0]; · iexact XB0
    isplitl [VB0]; · iexact VB0
    iexact Tib0
  iintro Kib0
  -- chunk 1, half a: its rows of x start for staging slot 1
  iapply (wp_stage_a m K c 1 _) $$ [XA1 VA1 Tia1]
  · isplitr; · (iapply (inv_at m K c (.ina (slot2 1))); iexact HR)
    isplitr; · (iapply (reached0_at m K c (.ina (slot2 1))); iexact HR)
    isplitl [XA1]; · iexact XA1
    isplitl [VA1]; · iexact VA1
    iexact Tia1
  iintro Kia1
  -- chunk 1, half b: its rows of x start for staging slot 1
  -- the printed part k0_part2 is opened
  simp only [k0_part2_eq_skeleton]
  unfold k0_part2_skel
  simp only [semSignalWord, semWaitWord, Prog.lift, Prog.bind_op, Prog.bind_ret, Prog.pure_eq_ret, wp_deviceId]
  iapply (wp_stage_b m K c 1 _) $$ [XB1 VB1 Tib1]
  · isplitr; · (iapply (inv_at m K c (.inb (slot2 1))); iexact HR)
    isplitr; · (iapply (reached0_at m K c (.inb (slot2 1))); iexact HR)
    isplitl [XB1]; · iexact XB1
    isplitl [VB1]; · iexact VB1
    iexact Tib1
  iintro Kib1
  -- the handshake: the landing buffer goes to the x-peer, the relayed quarter of the result to the y-peer
  unfold O₀
  iapply (wp_signal_x m K c _ (devx_eq c _ _ (k0_dev1_eq c)) _ (by decide) (oweD c 0 + oweF c 0 + tallyAt (cell (py c) .bar) () 1) _) $$ [HO TbarX HLD]
  · isplitr; · (iapply (inv_at m K (px c) .bar); iexact HR)
    isplitr; · (iapply (reached0_at m K (px c) .bar); iexact HR)
    isplitl [HO]; · iexact HO
    isplitl [TbarX]; · iexact TbarX
    iexact HLD
  iintro HO
  iapply (wp_signal_y m K c _ (devy_eq c _ _ (k0_dev2_eq c)) _ (by decide) (oweD c 0 + oweF c 0) _) $$ [HO TbarY HOF]
  · isplitr; · (iapply (inv_at m K (py c) .bar); iexact HR)
    isplitr; · (iapply (reached0_at m K (py c) .bar); iexact HR)
    isplitl [HO]; · iexact HO
    isplitl [TbarY]; · iexact TbarY
    iexact HOF
  iintro HO
  iapply (wp_wait_bar m K c _ (by decide) (oweD c 0 + oweF c 0) _) $$ [Cbar HO Pbar]
  · isplitr; · (iapply (inv_at m K c .bar); iexact HR)
    isplitl [Cbar]; · iexact Cbar
    isplitl [HO]; · iexact HO
    isplitr; · (iapply (mayWait_bar c); iexact Hlev)
    iexact Pbar
  iintro ⟨HO, Pbar, -, ⟨%fl, HLP⟩, HOP⟩
  ihave HLP := (peer_ld_split c fl) $$ HLP
  ihave HLP := (Entails.of_eq (bigSep_fin32 _)) $$ HLP; icases HLP with ⟨LP0, LP1, LP2, LP3, LP4, LP5, LP6, LP7, LP8, LP9, LP10, LP11, LP12, LP13, LP14, LP15, LP16, LP17, LP18, LP19, LP20, LP21, LP22, LP23, LP24, LP25, LP26, LP27, LP28, LP29, LP30, LP31⟩
  ihave HOP := (Entails.of_eq (bigSep_fin32 _)) $$ HOP; icases HOP with ⟨⟨%fop0, OP0⟩, ⟨%fop1, OP1⟩, ⟨%fop2, OP2⟩, ⟨%fop3, OP3⟩, ⟨%fop4, OP4⟩, ⟨%fop5, OP5⟩, ⟨%fop6, OP6⟩, ⟨%fop7, OP7⟩, ⟨%fop8, OP8⟩, ⟨%fop9, OP9⟩, ⟨%fop10, OP10⟩, ⟨%fop11, OP11⟩, ⟨%fop12, OP12⟩, ⟨%fop13, OP13⟩, ⟨%fop14, OP14⟩, ⟨%fop15, OP15⟩, ⟨%fop16, OP16⟩, ⟨%fop17, OP17⟩, ⟨%fop18, OP18⟩, ⟨%fop19, OP19⟩, ⟨%fop20, OP20⟩, ⟨%fop21, OP21⟩, ⟨%fop22, OP22⟩, ⟨%fop23, OP23⟩, ⟨%fop24, OP24⟩, ⟨%fop25, OP25⟩, ⟨%fop26, OP26⟩, ⟨%fop27, OP27⟩, ⟨%fop28, OP28⟩, ⟨%fop29, OP29⟩, ⟨%fop30, OP30⟩, ⟨%fop31, OP31⟩⟩
  -- chunk 0, half a: its staged rows have landed in slot 0
  iapply (wp_wait_ina m K c 0 (credit_viaS (slot2 0)) (oweD c 0 + oweF c 0) _) $$ [Kia0 HO Pia0]
  · isplitr; · (iapply (inv_at m K c (.ina (slot2 0))); iexact HR)
    isplitl [Kia0]; · iexact Kia0
    isplitl [HO]; · iexact HO
    isplitr; · (iapply (mayWait_own c (.ina (slot2 0)) rfl 0 0); iexact Hlev)
    iexact Pia0
  iintro ⟨HO, Pia0, #Ria0, VA0, XA0⟩
  -- chunk 0, half b: its staged rows have landed in slot 0
  iapply (wp_wait_inb m K c 0 (credit_vibS (slot2 0)) (oweD c 0 + oweF c 0) _) $$ [Kib0 HO Pib0]
  · isplitr; · (iapply (inv_at m K c (.inb (slot2 0))); iexact HR)
    isplitl [Kib0]; · iexact Kib0
    isplitl [HO]; · iexact HO
    isplitr; · (iapply (mayWait_own c (.inb (slot2 0)) rfl 0 0); iexact Hlev)
    iexact Pib0
  iintro ⟨HO, Pib0, #Rib0, VB0, XB0⟩
  -- chunk 0, half a: staging slot 0 is loaded, cast and stored into bf16 slot 0
  iapply (wp_load_via c (slot2 0) _ _) $$ [VA0]
  · iexact VA0
  iintro VA0
  -- the printed part k0_part3 is opened
  simp only [k0_part3_eq_skeleton]
  unfold k0_part3_skel
  simp only [semSignalWord, semWaitWord, Prog.lift, Prog.bind_op, Prog.bind_ret, Prog.pure_eq_ret, wp_deviceId]
  iapply (wp_load_vca c (slot3 0) _ _) $$ [CA0]
  · iexact CA0
  iintro CA0
  iapply (wp_store_vca c (slot3 0) _ _) $$ [CA0]
  · iexact CA0
  iintro CA0
  ihave CA0 := (store_vca_at m c 0 _ _ rfl) $$ [CA0]
  · iexact CA0
  -- chunk 0, half b: staging slot 0 is loaded, cast and stored into bf16 slot 0
  iapply (wp_load_vib c (slot2 0) _ _) $$ [VB0]
  · iexact VB0
  iintro VB0
  iapply (wp_load_vcb c (slot3 0) _ _) $$ [CB0]
  · iexact CB0
  iintro CB0
  iapply (wp_store_vcb c (slot3 0) _ _) $$ [CB0]
  · iexact CB0
  iintro CB0
  ihave CB0 := (store_vcb_at m c 0 _ _ rfl) $$ [CB0]
  · iexact CB0
  ihave H := (vca_slot_split c (slot3 0) fullShare _).1 $$ [CA0]
  · iexact CA0
  icases H with ⟨CAm0, CAp0⟩
  ihave H := (vcb_slot_split c (slot3 0) fullShare _).1 $$ [CB0]
  · iexact CB0
  icases H with ⟨CBm0, CBr0⟩
  -- chunk 0, half a: the device's own columns of slot 0 start for the result
  iapply (wp_lca m K c 0 _) $$ [CAm0 OA0 Tla0]
  · isplitr; · (iapply (inv_at m K c (.lca (slot3 0))); iexact HR)
    isplitr; · (iapply (reached0_at m K c (.lca (slot3 0))); iexact HR)
    isplitl [CAm0]; · iexact CAm0
    isplitl [OA0]; · iexact OA0
    iexact Tla0
  iintro Kla0
  -- chunk 0, half b: the device's own columns of slot 0 start for the result
  iapply (wp_lcb m K c 0 _) $$ [CBm0 OB0 Tlb0]
  · isplitr; · (iapply (inv_at m K c (.lcb (slot3 0))); iexact HR)
    isplitr; · (iapply (reached0_at m K c (.lcb (slot3 0))); iexact HR)
    isplitl [CBm0]; · iexact CBm0
    isplitl [OB0]; · iexact OB0
    iexact Tlb0
  iintro Klb0
  -- chunk 0: the x-peer's columns of slot 0 are sent into its landing slot 0
  rw [show (oweD c 0 + oweF c 0 : CellTallies nD τ sig Unit) = (oweD c 1 + oweF c 0) + tallyAt (cell (px c) (.dr 0)) () Nout from by rw [oweD_peel c 0 (by decide), add_right_comm]; rfl]
  -- the printed part k0_part4 is opened
  simp only [k0_part4_eq_skeleton]
  unfold k0_part4_skel
  simp only [semSignalWord, semWaitWord, Prog.lift, Prog.bind_op, Prog.bind_ret, Prog.pure_eq_ret, wp_deviceId]
  iapply (wp_send_d m K c _ (devx_eq c _ _ (k0_dev3_eq c)) 0 _ (oweD c 1 + oweF c 0) _) $$ [CAp0 LP0 HO Tds0 Tdr0]
  · isplitr; · (iapply (inv_at m K c (.ds 0)); iexact HR)
    isplitr; · (iapply (inv_at m K (px c) (.dr 0)); iexact HR)
    isplitr; · (iapply (reached0_at m K c (.ds 0)); iexact HR)
    isplitr; · (iapply (reached0_at m K (px c) (.dr 0)); iexact HR)
    isplitl [CAp0]; · iexact CAp0
    isplitl [LP0]; · iexact LP0
    isplitl [HO]; · iexact HO
    isplitl [Tds0]; · iexact Tds0
    iexact Tdr0
  iintro ⟨Kds0, HO⟩
  -- chunk 2, half a: its rows of x start for staging slot 0
  iapply (wp_stage_a m K c 2 _) $$ [XA2 VA0 Tia2]
  · isplitr; · (iapply (inv_at m K c (.ina (slot2 2))); iexact HR)
    isplitr; · iexact Ria0
    isplitl [XA2]; · iexact XA2
    isplitl [VA0]; · iexact VA0
    iexact Tia2
  iintro Kia2
  -- chunk 2, half b: its rows of x start for staging slot 0
  iapply (wp_stage_b m K c 2 _) $$ [XB2 VB0 Tib2]
  · isplitr; · (iapply (inv_at m K c (.inb (slot2 2))); iexact HR)
    isplitr; · iexact Rib0
    isplitl [XB2]; · iexact XB2
    isplitl [VB0]; · iexact VB0
    iexact Tib2
  iintro Kib2
  -- chunk 1, half a: its staged rows have landed in slot 1
  iapply (wp_wait_ina m K c 1 (credit_viaS (slot2 1)) (oweD c 1 + oweF c 0) _) $$ [Kia1 HO Pia1]
  · isplitr; · (iapply (inv_at m K c (.ina (slot2 1))); iexact HR)
    isplitl [Kia1]; · iexact Kia1
    isplitl [HO]; · iexact HO
    isplitr; · (iapply (mayWait_own c (.ina (slot2 1)) rfl 1 0); iexact Hlev)
    iexact Pia1
  iintro ⟨HO, Pia1, #Ria1, VA1, XA1⟩
  -- chunk 1, half b: its staged rows have landed in slot 1
  -- the printed part k0_part5 is opened
  simp only [k0_part5_eq_skeleton]
  unfold k0_part5_skel
  simp only [semSignalWord, semWaitWord, Prog.lift, Prog.bind_op, Prog.bind_ret, Prog.pure_eq_ret, wp_deviceId]
  iapply (wp_wait_inb m K c 1 (credit_vibS (slot2 1)) (oweD c 1 + oweF c 0) _) $$ [Kib1 HO Pib1]
  · isplitr; · (iapply (inv_at m K c (.inb (slot2 1))); iexact HR)
    isplitl [Kib1]; · iexact Kib1
    isplitl [HO]; · iexact HO
    isplitr; · (iapply (mayWait_own c (.inb (slot2 1)) rfl 1 0); iexact Hlev)
    iexact Pib1
  iintro ⟨HO, Pib1, #Rib1, VB1, XB1⟩
  -- chunk 1, half a: staging slot 1 is loaded, cast and stored into bf16 slot 1
  iapply (wp_load_via c (slot2 1) _ _) $$ [VA1]
  · iexact VA1
  iintro VA1
  iapply (wp_load_vca c (slot3 1) _ _) $$ [CA1]
  · iexact CA1
  iintro CA1
  iapply (wp_store_vca c (slot3 1) _ _) $$ [CA1]
  · iexact CA1
  iintro CA1
  ihave CA1 := (store_vca_at m c 1 _ _ rfl) $$ [CA1]
  · iexact CA1
  -- chunk 1, half b: staging slot 1 is loaded, cast and stored into bf16 slot 1
  iapply (wp_load_vib c (slot2 1) _ _) $$ [VB1]
  · iexact VB1
  iintro VB1
  iapply (wp_load_vcb c (slot3 1) _ _) $$ [CB1]
  · iexact CB1
  iintro CB1
  iapply (wp_store_vcb c (slot3 1) _ _) $$ [CB1]
  · iexact CB1
  iintro CB1
  ihave CB1 := (store_vcb_at m c 1 _ _ rfl) $$ [CB1]
  · iexact CB1
  ihave H := (vca_slot_split c (slot3 1) fullShare _).1 $$ [CA1]
  · iexact CA1
  icases H with ⟨CAm1, CAp1⟩
  ihave H := (vcb_slot_split c (slot3 1) fullShare _).1 $$ [CB1]
  · iexact CB1
  icases H with ⟨CBm1, CBr1⟩
  -- chunk 1, half a: the device's own columns of slot 1 start for the result
  iapply (wp_lca m K c 1 _) $$ [CAm1 OA1 Tla1]
  · isplitr; · (iapply (inv_at m K c (.lca (slot3 1))); iexact HR)
    isplitr; · (iapply (reached0_at m K c (.lca (slot3 1))); iexact HR)
    isplitl [CAm1]; · iexact CAm1
    isplitl [OA1]; · iexact OA1
    iexact Tla1
  iintro Kla1
  -- chunk 1, half b: the device's own columns of slot 1 start for the result
  -- the printed part k0_part6 is opened
  simp only [k0_part6_eq_skeleton]
  unfold k0_part6_skel
  simp only [semSignalWord, semWaitWord, Prog.lift, Prog.bind_op, Prog.bind_ret, Prog.pure_eq_ret, wp_deviceId]
  iapply (wp_lcb m K c 1 _) $$ [CBm1 OB1 Tlb1]
  · isplitr; · (iapply (inv_at m K c (.lcb (slot3 1))); iexact HR)
    isplitr; · (iapply (reached0_at m K c (.lcb (slot3 1))); iexact HR)
    isplitl [CBm1]; · iexact CBm1
    isplitl [OB1]; · iexact OB1
    iexact Tlb1
  iintro Klb1
  -- chunk 1: the x-peer's columns of slot 1 are sent into its landing slot 1
  rw [show (oweD c 1 + oweF c 0 : CellTallies nD τ sig Unit) = (oweD c 2 + oweF c 0) + tallyAt (cell (px c) (.dr 1)) () Nout from by rw [oweD_peel c 1 (by decide), add_right_comm]; rfl]
  iapply (wp_send_d m K c _ (devx_eq c _ _ (k0_dev4_eq c)) 1 _ (oweD c 2 + oweF c 0) _) $$ [CAp1 LP1 HO Tds1 Tdr1]
  · isplitr; · (iapply (inv_at m K c (.ds 1)); iexact HR)
    isplitr; · (iapply (inv_at m K (px c) (.dr 1)); iexact HR)
    isplitr; · (iapply (reached0_at m K c (.ds 1)); iexact HR)
    isplitr; · (iapply (reached0_at m K (px c) (.dr 1)); iexact HR)
    isplitl [CAp1]; · iexact CAp1
    isplitl [LP1]; · iexact LP1
    isplitl [HO]; · iexact HO
    isplitl [Tds1]; · iexact Tds1
    iexact Tdr1
  iintro ⟨Kds1, HO⟩
  -- chunk 3, half a: its rows of x start for staging slot 1
  iapply (wp_stage_a m K c 3 _) $$ [XA3 VA1 Tia3]
  · isplitr; · (iapply (inv_at m K c (.ina (slot2 3))); iexact HR)
    isplitr; · iexact Ria1
    isplitl [XA3]; · iexact XA3
    isplitl [VA1]; · iexact VA1
    iexact Tia3
  iintro Kia3
  -- chunk 3, half b: its rows of x start for staging slot 1
  iapply (wp_stage_b m K c 3 _) $$ [XB3 VB1 Tib3]
  · isplitr; · (iapply (inv_at m K c (.inb (slot2 3))); iexact HR)
    isplitr; · iexact Rib1
    isplitl [XB3]; · iexact XB3
    isplitl [VB1]; · iexact VB1
    iexact Tib3
  iintro Kib3
  -- chunk 0 of the x-peer has landed: it is copied into the result and relayed to the y-peer
  -- the printed part k0_part7 is opened
  simp only [k0_part7_eq_skeleton]
  unfold k0_part7_skel
  simp only [semSignalWord, semWaitWord, Prog.lift, Prog.bind_op, Prog.bind_ret, Prog.pure_eq_ret, wp_deviceId]
  iapply (wp_wait_dr m K c 0 (credit_ldS 0) (oweD c 2 + oweF c 0) _) $$ [Cdr0 HO Pdr0]
  · isplitr; · (iapply (inv_at m K c (.dr 0)); iexact HR)
    isplitl [Cdr0]; · iexact Cdr0
    isplitl [HO]; · iexact HO
    isplitr; · (iapply (mayWait_dr c 0 2 0 (by decide) (by decide)); iexact Hlev)
    iexact Pdr0
  iintro ⟨HO, Pdr0, -, LD0⟩
  ihave H := (ld_share_split c 0 _).1 $$ [LD0]
  · iexact LD0
  icases H with ⟨LDl0, LDr0⟩
  iapply (wp_lo m K c 0 _) $$ [LDl0 OR0 Tlo0]
  · isplitr; · (iapply (inv_at m K c (.lo 0)); iexact HR)
    isplitr; · (iapply (reached0_at m K c (.lo 0)); iexact HR)
    isplitl [LDl0]; · iexact LDl0
    isplitl [OR0]; · iexact OR0
    iexact Tlo0
  iintro Klo0
  rw [show (oweD c 2 + oweF c 0 : CellTallies nD τ sig Unit) = (oweD c 2 + oweF c 1) + tallyAt (cell (py c) (.fr 0)) () Nout from by rw [oweF_peel c 0 (by decide), ← add_assoc]; rfl]
  -- the printed part k0_part8 is opened
  simp only [k0_part8_eq_skeleton]
  unfold k0_part8_skel
  simp only [semSignalWord, semWaitWord, Prog.lift, Prog.bind_op, Prog.bind_ret, Prog.pure_eq_ret, wp_deviceId]
  iapply (wp_send_f m K c _ (devy_eq c _ _ (k0_dev5_eq c)) 0 _ (oweD c 2 + oweF c 1) _) $$ [LDr0 OP0 HO Tfs0 Tfr0]
  · isplitr; · (iapply (inv_at m K c (.fs 0)); iexact HR)
    isplitr; · (iapply (inv_at m K (py c) (.fr 0)); iexact HR)
    isplitr; · (iapply (reached0_at m K c (.fs 0)); iexact HR)
    isplitr; · (iapply (reached0_at m K (py c) (.fr 0)); iexact HR)
    isplitl [LDr0]; · iexact LDr0
    isplitl [OP0]; · iexact OP0
    isplitl [HO]; · iexact HO
    isplitl [Tfs0]; · iexact Tfs0
    iexact Tfr0
  iintro ⟨Kfs0, HO⟩
  -- chunk 2, half a: its staged rows have landed in slot 0
  iapply (wp_wait_ina m K c 2 (credit_viaS (slot2 2)) (oweD c 2 + oweF c 1) _) $$ [Kia2 HO Pia0]
  · isplitr; · (iapply (inv_at m K c (.ina (slot2 2))); iexact HR)
    isplitl [Kia2]; · iexact Kia2
    isplitl [HO]; · iexact HO
    isplitr; · (iapply (mayWait_own c (.ina (slot2 2)) rfl 2 1); iexact Hlev)
    iexact Pia0
  iintro ⟨HO, Pia0, #Ria2, VA0, XA2⟩
  -- chunk 2, half b: its staged rows have landed in slot 0
  iapply (wp_wait_inb m K c 2 (credit_vibS (slot2 2)) (oweD c 2 + oweF c 1) _) $$ [Kib2 HO Pib0]
  · isplitr; · (iapply (inv_at m K c (.inb (slot2 2))); iexact HR)
    isplitl [Kib2]; · iexact Kib2
    isplitl [HO]; · iexact HO
    isplitr; · (iapply (mayWait_own c (.inb (slot2 2)) rfl 2 1); iexact Hlev)
    iexact Pib0
  iintro ⟨HO, Pib0, #Rib2, VB0, XB2⟩
  -- chunk 2, half a: staging slot 0 is loaded, cast and stored into bf16 slot 2
  iapply (wp_load_via c (slot2 2) _ _) $$ [VA0]
  · iexact VA0
  iintro VA0
  iapply (wp_load_vca c (slot3 2) _ _) $$ [CA2]
  · iexact CA2
  iintro CA2
  iapply (wp_store_vca c (slot3 2) _ _) $$ [CA2]
  · iexact CA2
  iintro CA2
  ihave CA2 := (store_vca_at m c 2 _ _ rfl) $$ [CA2]
  · iexact CA2
  -- chunk 2, half b: staging slot 0 is loaded, cast and stored into bf16 slot 2
  iapply (wp_load_vib c (slot2 2) _ _) $$ [VB0]
  · iexact VB0
  iintro VB0
  iapply (wp_load_vcb c (slot3 2) _ _) $$ [CB2]
  · iexact CB2
  iintro CB2
  iapply (wp_store_vcb c (slot3 2) _ _) $$ [CB2]
  · iexact CB2
  iintro CB2
  ihave CB2 := (store_vcb_at m c 2 _ _ rfl) $$ [CB2]
  · iexact CB2
  ihave H := (vca_slot_split c (slot3 2) fullShare _).1 $$ [CA2]
  · iexact CA2
  icases H with ⟨CAm2, CAp2⟩
  ihave H := (vcb_slot_split c (slot3 2) fullShare _).1 $$ [CB2]
  · iexact CB2
  icases H with ⟨CBm2, CBr2⟩
  -- chunk 2, half a: the device's own columns of slot 2 start for the result
  -- the printed part k0_part9 is opened
  simp only [k0_part9_eq_skeleton]
  unfold k0_part9_skel
  simp only [semSignalWord, semWaitWord, Prog.lift, Prog.bind_op, Prog.bind_ret, Prog.pure_eq_ret, wp_deviceId]
  iapply (wp_lca m K c 2 _) $$ [CAm2 OA2 Tla2]
  · isplitr; · (iapply (inv_at m K c (.lca (slot3 2))); iexact HR)
    isplitr; · (iapply (reached0_at m K c (.lca (slot3 2))); iexact HR)
    isplitl [CAm2]; · iexact CAm2
    isplitl [OA2]; · iexact OA2
    iexact Tla2
  iintro Kla2
  -- chunk 2, half b: the device's own columns of slot 2 start for the result
  iapply (wp_lcb m K c 2 _) $$ [CBm2 OB2 Tlb2]
  · isplitr; · (iapply (inv_at m K c (.lcb (slot3 2))); iexact HR)
    isplitr; · (iapply (reached0_at m K c (.lcb (slot3 2))); iexact HR)
    isplitl [CBm2]; · iexact CBm2
    isplitl [OB2]; · iexact OB2
    iexact Tlb2
  iintro Klb2
  -- chunk 2: the x-peer's columns of slot 2 are sent into its landing slot 2
  rw [show (oweD c 2 + oweF c 1 : CellTallies nD τ sig Unit) = (oweD c 3 + oweF c 1) + tallyAt (cell (px c) (.dr 2)) () Nout from by rw [oweD_peel c 2 (by decide), add_right_comm]; rfl]
  iapply (wp_send_d m K c _ (devx_eq c _ _ (k0_dev6_eq c)) 2 _ (oweD c 3 + oweF c 1) _) $$ [CAp2 LP2 HO Tds2 Tdr2]
  · isplitr; · (iapply (inv_at m K c (.ds 2)); iexact HR)
    isplitr; · (iapply (inv_at m K (px c) (.dr 2)); iexact HR)
    isplitr; · (iapply (reached0_at m K c (.ds 2)); iexact HR)
    isplitr; · (iapply (reached0_at m K (px c) (.dr 2)); iexact HR)
    isplitl [CAp2]; · iexact CAp2
    isplitl [LP2]; · iexact LP2
    isplitl [HO]; · iexact HO
    isplitl [Tds2]; · iexact Tds2
    iexact Tdr2
  iintro ⟨Kds2, HO⟩
  -- chunk 4, half a: its rows of x start for staging slot 0
  -- the printed part k0_part10 is opened
  simp only [k0_part10_eq_skeleton]
  unfold k0_part10_skel
  simp only [semSignalWord, semWaitWord, Prog.lift, Prog.bind_op, Prog.bind_ret, Prog.pure_eq_ret, wp_deviceId]
  iapply (wp_stage_a m K c 4 _) $$ [XA4 VA0 Tia4]
  · isplitr; · (iapply (inv_at m K c (.ina (slot2 4))); iexact HR)
    isplitr; · iexact Ria2
    isplitl [XA4]; · iexact XA4
    isplitl [VA0]; · iexact VA0
    iexact Tia4
  iintro Kia4
  -- chunk 4, half b: its rows of x start for staging slot 0
  iapply (wp_stage_b m K c 4 _) $$ [XB4 VB0 Tib4]
  · isplitr; · (iapply (inv_at m K c (.inb (slot2 4))); iexact HR)
    isplitr; · iexact Rib2
    isplitl [XB4]; · iexact XB4
    isplitl [VB0]; · iexact VB0
    iexact Tib4
  iintro Kib4
  -- chunk 1 of the x-peer has landed: it is copied into the result and relayed to the y-peer
  iapply (wp_wait_dr m K c 1 (credit_ldS 1) (oweD c 3 + oweF c 1) _) $$ [Cdr1 HO Pdr1]
  · isplitr; · (iapply (inv_at m K c (.dr 1)); iexact HR)
    isplitl [Cdr1]; · iexact Cdr1
    isplitl [HO]; · iexact HO
    isplitr; · (iapply (mayWait_dr c 1 3 1 (by decide) (by decide)); iexact Hlev)
    iexact Pdr1
  iintro ⟨HO, Pdr1, -, LD1⟩
  ihave H := (ld_share_split c 1 _).1 $$ [LD1]
  · iexact LD1
  icases H with ⟨LDl1, LDr1⟩
  iapply (wp_lo m K c 1 _) $$ [LDl1 OR1 Tlo1]
  · isplitr; · (iapply (inv_at m K c (.lo 1)); iexact HR)
    isplitr; · (iapply (reached0_at m K c (.lo 1)); iexact HR)
    isplitl [LDl1]; · iexact LDl1
    isplitl [OR1]; · iexact OR1
    iexact Tlo1
  iintro Klo1
  rw [show (oweD c 3 + oweF c 1 : CellTallies nD τ sig Unit) = (oweD c 3 + oweF c 2) + tallyAt (cell (py c) (.fr 1)) () Nout from by rw [oweF_peel c 1 (by decide), ← add_assoc]; rfl]
  -- the printed part k0_part11 is opened
  simp only [k0_part11_eq_skeleton]
  unfold k0_part11_skel
  simp only [semSignalWord, semWaitWord, Prog.lift, Prog.bind_op, Prog.bind_ret, Prog.pure_eq_ret, wp_deviceId]
  iapply (wp_send_f m K c _ (devy_eq c _ _ (k0_dev7_eq c)) 1 _ (oweD c 3 + oweF c 2) _) $$ [LDr1 OP1 HO Tfs1 Tfr1]
  · isplitr; · (iapply (inv_at m K c (.fs 1)); iexact HR)
    isplitr; · (iapply (inv_at m K (py c) (.fr 1)); iexact HR)
    isplitr; · (iapply (reached0_at m K c (.fs 1)); iexact HR)
    isplitr; · (iapply (reached0_at m K (py c) (.fr 1)); iexact HR)
    isplitl [LDr1]; · iexact LDr1
    isplitl [OP1]; · iexact OP1
    isplitl [HO]; · iexact HO
    isplitl [Tfs1]; · iexact Tfs1
    iexact Tfr1
  iintro ⟨Kfs1, HO⟩
  -- chunk 3, half a: its staged rows have landed in slot 1
  iapply (wp_wait_ina m K c 3 (credit_viaS (slot2 3)) (oweD c 3 + oweF c 2) _) $$ [Kia3 HO Pia1]
  · isplitr; · (iapply (inv_at m K c (.ina (slot2 3))); iexact HR)
    isplitl [Kia3]; · iexact Kia3
    isplitl [HO]; · iexact HO
    isplitr; · (iapply (mayWait_own c (.ina (slot2 3)) rfl 3 2); iexact Hlev)
    iexact Pia1
  iintro ⟨HO, Pia1, #Ria3, VA1, XA3⟩
  -- chunk 3, half b: its staged rows have landed in slot 1
  iapply (wp_wait_inb m K c 3 (credit_vibS (slot2 3)) (oweD c 3 + oweF c 2) _) $$ [Kib3 HO Pib1]
  · isplitr; · (iapply (inv_at m K c (.inb (slot2 3))); iexact HR)
    isplitl [Kib3]; · iexact Kib3
    isplitl [HO]; · iexact HO
    isplitr; · (iapply (mayWait_own c (.inb (slot2 3)) rfl 3 2); iexact Hlev)
    iexact Pib1
  iintro ⟨HO, Pib1, #Rib3, VB1, XB3⟩
  -- chunk 0: its local copy of vcast_a has landed
  iapply (wp_wait_lca m K c 0 (credit_oA c 0) (oweD c 3 + oweF c 2) _) $$ [Kla0 HO Pla0]
  · isplitr; · (iapply (inv_at m K c (.lca (slot3 0))); iexact HR)
    isplitl [Kla0]; · iexact Kla0
    isplitl [HO]; · iexact HO
    isplitr; · (iapply (mayWait_own c (.lca (slot3 0)) rfl 3 2); iexact Hlev)
    iexact Pla0
  iintro ⟨HO, Pla0, #Rla0, OA0, CAm0⟩
  -- chunk 0: its local copy of vcast_b has landed
  iapply (wp_wait_lcb m K c 0 (credit_oB c 0) (oweD c 3 + oweF c 2) _) $$ [Klb0 HO Plb0]
  · isplitr; · (iapply (inv_at m K c (.lcb (slot3 0))); iexact HR)
    isplitl [Klb0]; · iexact Klb0
    isplitl [HO]; · iexact HO
    isplitr; · (iapply (mayWait_own c (.lcb (slot3 0)) rfl 3 2); iexact Hlev)
    iexact Plb0
  iintro ⟨HO, Plb0, #Rlb0, OB0, CBm0⟩
  -- chunk 0: its send along x has left the slot
  -- the printed part k0_part12 is opened
  simp only [k0_part12_eq_skeleton]
  unfold k0_part12_skel
  simp only [semSignalWord, semWaitWord, Prog.lift, Prog.bind_op, Prog.bind_ret, Prog.pure_eq_ret, wp_deviceId]
  iapply (wp_wait_ds m K c 0 (credit_vcaPeer c (slot3 0)) (oweD c 3 + oweF c 2) _) $$ [Kds0 HO Pds0]
  · isplitr; · (iapply (inv_at m K c (.ds 0)); iexact HR)
    isplitl [Kds0]; · iexact Kds0
    isplitl [HO]; · iexact HO
    isplitr; · (iapply (mayWait_own c (.ds 0) rfl 3 2); iexact Hlev)
    iexact Pds0
  iintro ⟨HO, Pds0, -, CAp0⟩
  -- slot 0 of both bf16 buffers is whole again
  ihave CA0 := (vca_slot_split c (slot3 0) fullShare _).2 $$ [CAm0 CAp0]
  · isplitl [CAm0]; · iexact CAm0
    iexact CAp0
  ihave CB0 := (vcb_slot_split c (slot3 0) fullShare _).2 $$ [CBm0 CBr0]
  · isplitl [CBm0]; · iexact CBm0
    iexact CBr0
  -- chunk 3, half a: staging slot 1 is loaded, cast and stored into bf16 slot 0
  iapply (wp_load_via c (slot2 3) _ _) $$ [VA1]
  · iexact VA1
  iintro VA1
  iapply (wp_load_vca c (slot3 3) _ _) $$ [CA0]
  · iexact CA0
  iintro CA0
  iapply (wp_store_vca c (slot3 3) _ _) $$ [CA0]
  · iexact CA0
  iintro CA0
  ihave CA0 := (store_vca_at m c 3 _ _ rfl) $$ [CA0]
  · iexact CA0
  -- chunk 3, half b: staging slot 1 is loaded, cast and stored into bf16 slot 0
  iapply (wp_load_vib c (slot2 3) _ _) $$ [VB1]
  · iexact VB1
  iintro VB1
  iapply (wp_load_vcb c (slot3 3) _ _) $$ [CB0]
  · iexact CB0
  iintro CB0
  iapply (wp_store_vcb c (slot3 3) _ _) $$ [CB0]
  · iexact CB0
  iintro CB0
  ihave CB0 := (store_vcb_at m c 3 _ _ rfl) $$ [CB0]
  · iexact CB0
  ihave H := (vca_slot_split c (slot3 3) fullShare _).1 $$ [CA0]
  · iexact CA0
  icases H with ⟨CAm0, CAp0⟩
  ihave H := (vcb_slot_split c (slot3 3) fullShare _).1 $$ [CB0]
  · iexact CB0
  icases H with ⟨CBm0, CBr0⟩
  -- chunk 3, half a: the device's own columns of slot 0 start for the result
  -- the printed part k0_part13 is opened
  simp only [k0_part13_eq_skeleton]
  unfold k0_part13_skel
  simp only [semSignalWord, semWaitWord, Prog.lift, Prog.bind_op, Prog.bind_ret, Prog.pure_eq_ret, wp_deviceId]
  iapply (wp_lca m K c 3 _) $$ [CAm0 OA3 Tla3]
  · isplitr; · (iapply (inv_at m K c (.lca (slot3 3))); iexact HR)
    isplitr; · iexact Rla0
    isplitl [CAm0]; · iexact CAm0
    isplitl [OA3]; · iexact OA3
    iexact Tla3
  iintro Kla3
  -- chunk 3, half b: the device's own columns of slot 0 start for the result
  iapply (wp_lcb m K c 3 _) $$ [CBm0 OB3 Tlb3]
  · isplitr; · (iapply (inv_at m K c (.lcb (slot3 3))); iexact HR)
    isplitr; · iexact Rlb0
    isplitl [CBm0]; · iexact CBm0
    isplitl [OB3]; · iexact OB3
    iexact Tlb3
  iintro Klb3
  -- chunk 3: the x-peer's columns of slot 0 are sent into its landing slot 3
  rw [show (oweD c 3 + oweF c 2 : CellTallies nD τ sig Unit) = (oweD c 4 + oweF c 2) + tallyAt (cell (px c) (.dr 3)) () Nout from by rw [oweD_peel c 3 (by decide), add_right_comm]; rfl]
  iapply (wp_send_d m K c _ (devx_eq c _ _ (k0_dev8_eq c)) 3 _ (oweD c 4 + oweF c 2) _) $$ [CAp0 LP3 HO Tds3 Tdr3]
  · isplitr; · (iapply (inv_at m K c (.ds 3)); iexact HR)
    isplitr; · (iapply (inv_at m K (px c) (.dr 3)); iexact HR)
    isplitr; · (iapply (reached0_at m K c (.ds 3)); iexact HR)
    isplitr; · (iapply (reached0_at m K (px c) (.dr 3)); iexact HR)
    isplitl [CAp0]; · iexact CAp0
    isplitl [LP3]; · iexact LP3
    isplitl [HO]; · iexact HO
    isplitl [Tds3]; · iexact Tds3
    iexact Tdr3
  iintro ⟨Kds3, HO⟩
  -- chunk 5, half a: its rows of x start for staging slot 1
  iapply (wp_stage_a m K c 5 _) $$ [XA5 VA1 Tia5]
  · isplitr; · (iapply (inv_at m K c (.ina (slot2 5))); iexact HR)
    isplitr; · iexact Ria3
    isplitl [XA5]; · iexact XA5
    isplitl [VA1]; · iexact VA1
    iexact Tia5
  iintro Kia5
  -- chunk 5, half b: its rows of x start for staging slot 1
  -- the printed part k0_part14 is opened
  simp only [k0_part14_eq_skeleton]
  unfold k0_part14_skel
  simp only [semSignalWord, semWaitWord, Prog.lift, Prog.bind_op, Prog.bind_ret, Prog.pure_eq_ret, wp_deviceId]
  iapply (wp_stage_b m K c 5 _) $$ [XB5 VB1 Tib5]
  · isplitr; · (iapply (inv_at m K c (.inb (slot2 5))); iexact HR)
    isplitr; · iexact Rib3
    isplitl [XB5]; · iexact XB5
    isplitl [VB1]; · iexact VB1
    iexact Tib5
  iintro Kib5
  -- chunk 2 of the x-peer has landed: it is copied into the result and relayed to the y-peer
  iapply (wp_wait_dr m K c 2 (credit_ldS 2) (oweD c 4 + oweF c 2) _) $$ [Cdr2 HO Pdr2]
  · isplitr; · (iapply (inv_at m K c (.dr 2)); iexact HR)
    isplitl [Cdr2]; · iexact Cdr2
    isplitl [HO]; · iexact HO
    isplitr; · (iapply (mayWait_dr c 2 4 2 (by decide) (by decide)); iexact Hlev)
    iexact Pdr2
  iintro ⟨HO, Pdr2, -, LD2⟩
  ihave H := (ld_share_split c 2 _).1 $$ [LD2]
  · iexact LD2
  icases H with ⟨LDl2, LDr2⟩
  iapply (wp_lo m K c 2 _) $$ [LDl2 OR2 Tlo2]
  · isplitr; · (iapply (inv_at m K c (.lo 2)); iexact HR)
    isplitr; · (iapply (reached0_at m K c (.lo 2)); iexact HR)
    isplitl [LDl2]; · iexact LDl2
    isplitl [OR2]; · iexact OR2
    iexact Tlo2
  iintro Klo2
  rw [show (oweD c 4 + oweF c 2 : CellTallies nD τ sig Unit) = (oweD c 4 + oweF c 3) + tallyAt (cell (py c) (.fr 2)) () Nout from by rw [oweF_peel c 2 (by decide), ← add_assoc]; rfl]
  -- the printed part k0_part15 is opened
  simp only [k0_part15_eq_skeleton]
  unfold k0_part15_skel
  simp only [semSignalWord, semWaitWord, Prog.lift, Prog.bind_op, Prog.bind_ret, Prog.pure_eq_ret, wp_deviceId]
  iapply (wp_send_f m K c _ (devy_eq c _ _ (k0_dev9_eq c)) 2 _ (oweD c 4 + oweF c 3) _) $$ [LDr2 OP2 HO Tfs2 Tfr2]
  · isplitr; · (iapply (inv_at m K c (.fs 2)); iexact HR)
    isplitr; · (iapply (inv_at m K (py c) (.fr 2)); iexact HR)
    isplitr; · (iapply (reached0_at m K c (.fs 2)); iexact HR)
    isplitr; · (iapply (reached0_at m K (py c) (.fr 2)); iexact HR)
    isplitl [LDr2]; · iexact LDr2
    isplitl [OP2]; · iexact OP2
    isplitl [HO]; · iexact HO
    isplitl [Tfs2]; · iexact Tfs2
    iexact Tfr2
  iintro ⟨Kfs2, HO⟩
  -- chunk 4, half a: its staged rows have landed in slot 0
  iapply (wp_wait_ina m K c 4 (credit_viaS (slot2 4)) (oweD c 4 + oweF c 3) _) $$ [Kia4 HO Pia0]
  · isplitr; · (iapply (inv_at m K c (.ina (slot2 4))); iexact HR)
    isplitl [Kia4]; · iexact Kia4
    isplitl [HO]; · iexact HO
    isplitr; · (iapply (mayWait_own c (.ina (slot2 4)) rfl 4 3); iexact Hlev)
    iexact Pia0
  iintro ⟨HO, Pia0, #Ria4, VA0, XA4⟩
  -- chunk 4, half b: its staged rows have landed in slot 0
  iapply (wp_wait_inb m K c 4 (credit_vibS (slot2 4)) (oweD c 4 + oweF c 3) _) $$ [Kib4 HO Pib0]
  · isplitr; · (iapply (inv_at m K c (.inb (slot2 4))); iexact HR)
    isplitl [Kib4]; · iexact Kib4
    isplitl [HO]; · iexact HO
    isplitr; · (iapply (mayWait_own c (.inb (slot2 4)) rfl 4 3); iexact Hlev)
    iexact Pib0
  iintro ⟨HO, Pib0, #Rib4, VB0, XB4⟩
  -- chunk 1: its local copy of vcast_a has landed
  iapply (wp_wait_lca m K c 1 (credit_oA c 1) (oweD c 4 + oweF c 3) _) $$ [Kla1 HO Pla1]
  · isplitr; · (iapply (inv_at m K c (.lca (slot3 1))); iexact HR)
    isplitl [Kla1]; · iexact Kla1
    isplitl [HO]; · iexact HO
    isplitr; · (iapply (mayWait_own c (.lca (slot3 1)) rfl 4 3); iexact Hlev)
    iexact Pla1
  iintro ⟨HO, Pla1, #Rla1, OA1, CAm1⟩
  -- chunk 1: its local copy of vcast_b has landed
  iapply (wp_wait_lcb m K c 1 (credit_oB c 1) (oweD c 4 + oweF c 3) _) $$ [Klb1 HO Plb1]
  · isplitr; · (iapply (inv_at m K c (.lcb (slot3 1))); iexact HR)
    isplitl [Klb1]; · iexact Klb1
    isplitl [HO]; · iexact HO
    isplitr; · (iapply (mayWait_own c (.lcb (slot3 1)) rfl 4 3); iexact Hlev)
    iexact Plb1
  iintro ⟨HO, Plb1, #Rlb1, OB1, CBm1⟩
  -- chunk 1: its send along x has left the slot
  -- the printed part k0_part16 is opened
  simp only [k0_part16_eq_skeleton]
  unfold k0_part16_skel
  simp only [semSignalWord, semWaitWord, Prog.lift, Prog.bind_op, Prog.bind_ret, Prog.pure_eq_ret, wp_deviceId]
  iapply (wp_wait_ds m K c 1 (credit_vcaPeer c (slot3 1)) (oweD c 4 + oweF c 3) _) $$ [Kds1 HO Pds1]
  · isplitr; · (iapply (inv_at m K c (.ds 1)); iexact HR)
    isplitl [Kds1]; · iexact Kds1
    isplitl [HO]; · iexact HO
    isplitr; · (iapply (mayWait_own c (.ds 1) rfl 4 3); iexact Hlev)
    iexact Pds1
  iintro ⟨HO, Pds1, -, CAp1⟩
  -- slot 1 of both bf16 buffers is whole again
  ihave CA1 := (vca_slot_split c (slot3 1) fullShare _).2 $$ [CAm1 CAp1]
  · isplitl [CAm1]; · iexact CAm1
    iexact CAp1
  ihave CB1 := (vcb_slot_split c (slot3 1) fullShare _).2 $$ [CBm1 CBr1]
  · isplitl [CBm1]; · iexact CBm1
    iexact CBr1
  -- chunk 4, half a: staging slot 0 is loaded, cast and stored into bf16 slot 1
  iapply (wp_load_via c (slot2 4) _ _) $$ [VA0]
  · iexact VA0
  iintro VA0
  iapply (wp_load_vca c (slot3 4) _ _) $$ [CA1]
  · iexact CA1
  iintro CA1
  iapply (wp_store_vca c (slot3 4) _ _) $$ [CA1]
  · iexact CA1
  iintro CA1
  ihave CA1 := (store_vca_at m c 4 _ _ rfl) $$ [CA1]
  · iexact CA1
  -- chunk 4, half b: staging slot 0 is loaded, cast and stored into bf16 slot 1
  iapply (wp_load_vib c (slot2 4) _ _) $$ [VB0]
  · iexact VB0
  iintro VB0
  iapply (wp_load_vcb c (slot3 4) _ _) $$ [CB1]
  · iexact CB1
  iintro CB1
  iapply (wp_store_vcb c (slot3 4) _ _) $$ [CB1]
  · iexact CB1
  iintro CB1
  ihave CB1 := (store_vcb_at m c 4 _ _ rfl) $$ [CB1]
  · iexact CB1
  ihave H := (vca_slot_split c (slot3 4) fullShare _).1 $$ [CA1]
  · iexact CA1
  icases H with ⟨CAm1, CAp1⟩
  ihave H := (vcb_slot_split c (slot3 4) fullShare _).1 $$ [CB1]
  · iexact CB1
  icases H with ⟨CBm1, CBr1⟩
  -- chunk 4, half a: the device's own columns of slot 1 start for the result
  iapply (wp_lca m K c 4 _) $$ [CAm1 OA4 Tla4]
  · isplitr; · (iapply (inv_at m K c (.lca (slot3 4))); iexact HR)
    isplitr; · iexact Rla1
    isplitl [CAm1]; · iexact CAm1
    isplitl [OA4]; · iexact OA4
    iexact Tla4
  iintro Kla4
  -- chunk 4, half b: the device's own columns of slot 1 start for the result
  -- the printed part k0_part17 is opened
  simp only [k0_part17_eq_skeleton]
  unfold k0_part17_skel
  simp only [semSignalWord, semWaitWord, Prog.lift, Prog.bind_op, Prog.bind_ret, Prog.pure_eq_ret, wp_deviceId]
  iapply (wp_lcb m K c 4 _) $$ [CBm1 OB4 Tlb4]
  · isplitr; · (iapply (inv_at m K c (.lcb (slot3 4))); iexact HR)
    isplitr; · iexact Rlb1
    isplitl [CBm1]; · iexact CBm1
    isplitl [OB4]; · iexact OB4
    iexact Tlb4
  iintro Klb4
  -- chunk 4: the x-peer's columns of slot 1 are sent into its landing slot 4
  rw [show (oweD c 4 + oweF c 3 : CellTallies nD τ sig Unit) = (oweD c 5 + oweF c 3) + tallyAt (cell (px c) (.dr 4)) () Nout from by rw [oweD_peel c 4 (by decide), add_right_comm]; rfl]
  iapply (wp_send_d m K c _ (devx_eq c _ _ (k0_dev10_eq c)) 4 _ (oweD c 5 + oweF c 3) _) $$ [CAp1 LP4 HO Tds4 Tdr4]
  · isplitr; · (iapply (inv_at m K c (.ds 4)); iexact HR)
    isplitr; · (iapply (inv_at m K (px c) (.dr 4)); iexact HR)
    isplitr; · (iapply (reached0_at m K c (.ds 4)); iexact HR)
    isplitr; · (iapply (reached0_at m K (px c) (.dr 4)); iexact HR)
    isplitl [CAp1]; · iexact CAp1
    isplitl [LP4]; · iexact LP4
    isplitl [HO]; · iexact HO
    isplitl [Tds4]; · iexact Tds4
    iexact Tdr4
  iintro ⟨Kds4, HO⟩
  -- chunk 6, half a: its rows of x start for staging slot 0
  iapply (wp_stage_a m K c 6 _) $$ [XA6 VA0 Tia6]
  · isplitr; · (iapply (inv_at m K c (.ina (slot2 6))); iexact HR)
    isplitr; · iexact Ria4
    isplitl [XA6]; · iexact XA6
    isplitl [VA0]; · iexact VA0
    iexact Tia6
  iintro Kia6
  -- chunk 6, half b: its rows of x start for staging slot 0
  iapply (wp_stage_b m K c 6 _) $$ [XB6 VB0 Tib6]
  · isplitr; · (iapply (inv_at m K c (.inb (slot2 6))); iexact HR)
    isplitr; · iexact Rib4
    isplitl [XB6]; · iexact XB6
    isplitl [VB0]; · iexact VB0
    iexact Tib6
  iintro Kib6
  -- chunk 3 of the x-peer has landed: it is copied into the result and relayed to the y-peer
  -- the printed part k0_part18 is opened
  simp only [k0_part18_eq_skeleton]
  unfold k0_part18_skel
  simp only [semSignalWord, semWaitWord, Prog.lift, Prog.bind_op, Prog.bind_ret, Prog.pure_eq_ret, wp_deviceId]
  iapply (wp_wait_dr m K c 3 (credit_ldS 3) (oweD c 5 + oweF c 3) _) $$ [Cdr3 HO Pdr3]
  · isplitr; · (iapply (inv_at m K c (.dr 3)); iexact HR)
    isplitl [Cdr3]; · iexact Cdr3
    isplitl [HO]; · iexact HO
    isplitr; · (iapply (mayWait_dr c 3 5 3 (by decide) (by decide)); iexact Hlev)
    iexact Pdr3
  iintro ⟨HO, Pdr3, -, LD3⟩
  ihave H := (ld_share_split c 3 _).1 $$ [LD3]
  · iexact LD3
  icases H with ⟨LDl3, LDr3⟩
  iapply (wp_lo m K c 3 _) $$ [LDl3 OR3 Tlo3]
  · isplitr; · (iapply (inv_at m K c (.lo 3)); iexact HR)
    isplitr; · (iapply (reached0_at m K c (.lo 3)); iexact HR)
    isplitl [LDl3]; · iexact LDl3
    isplitl [OR3]; · iexact OR3
    iexact Tlo3
  iintro Klo3
  rw [show (oweD c 5 + oweF c 3 : CellTallies nD τ sig Unit) = (oweD c 5 + oweF c 4) + tallyAt (cell (py c) (.fr 3)) () Nout from by rw [oweF_peel c 3 (by decide), ← add_assoc]; rfl]
  iapply (wp_send_f m K c _ (devy_eq c _ _ (k0_dev11_eq c)) 3 _ (oweD c 5 + oweF c 4) _) $$ [LDr3 OP3 HO Tfs3 Tfr3]
  · isplitr; · (iapply (inv_at m K c (.fs 3)); iexact HR)
    isplitr; · (iapply (inv_at m K (py c) (.fr 3)); iexact HR)
    isplitr; · (iapply (reached0_at m K c (.fs 3)); iexact HR)
    isplitr; · (iapply (reached0_at m K (py c) (.fr 3)); iexact HR)
    isplitl [LDr3]; · iexact LDr3
    isplitl [OP3]; · iexact OP3
    isplitl [HO]; · iexact HO
    isplitl [Tfs3]; · iexact Tfs3
    iexact Tfr3
  iintro ⟨Kfs3, HO⟩
  -- chunk 5, half a: its staged rows have landed in slot 1
  -- the printed part k0_part19 is opened
  simp only [k0_part19_eq_skeleton]
  unfold k0_part19_skel
  simp only [semSignalWord, semWaitWord, Prog.lift, Prog.bind_op, Prog.bind_ret, Prog.pure_eq_ret, wp_deviceId]
  iapply (wp_wait_ina m K c 5 (credit_viaS (slot2 5)) (oweD c 5 + oweF c 4) _) $$ [Kia5 HO Pia1]
  · isplitr; · (iapply (inv_at m K c (.ina (slot2 5))); iexact HR)
    isplitl [Kia5]; · iexact Kia5
    isplitl [HO]; · iexact HO
    isplitr; · (iapply (mayWait_own c (.ina (slot2 5)) rfl 5 4); iexact Hlev)
    iexact Pia1
  iintro ⟨HO, Pia1, #Ria5, VA1, XA5⟩
  -- chunk 5, half b: its staged rows have landed in slot 1
  iapply (wp_wait_inb m K c 5 (credit_vibS (slot2 5)) (oweD c 5 + oweF c 4) _) $$ [Kib5 HO Pib1]
  · isplitr; · (iapply (inv_at m K c (.inb (slot2 5))); iexact HR)
    isplitl [Kib5]; · iexact Kib5
    isplitl [HO]; · iexact HO
    isplitr; · (iapply (mayWait_own c (.inb (slot2 5)) rfl 5 4); iexact Hlev)
    iexact Pib1
  iintro ⟨HO, Pib1, #Rib5, VB1, XB5⟩
  -- chunk 2: its local copy of vcast_a has landed
  iapply (wp_wait_lca m K c 2 (credit_oA c 2) (oweD c 5 + oweF c 4) _) $$ [Kla2 HO Pla2]
  · isplitr; · (iapply (inv_at m K c (.lca (slot3 2))); iexact HR)
    isplitl [Kla2]; · iexact Kla2
    isplitl [HO]; · iexact HO
    isplitr; · (iapply (mayWait_own c (.lca (slot3 2)) rfl 5 4); iexact Hlev)
    iexact Pla2
  iintro ⟨HO, Pla2, #Rla2, OA2, CAm2⟩
  -- chunk 2: its local copy of vcast_b has landed
  iapply (wp_wait_lcb m K c 2 (credit_oB c 2) (oweD c 5 + oweF c 4) _) $$ [Klb2 HO Plb2]
  · isplitr; · (iapply (inv_at m K c (.lcb (slot3 2))); iexact HR)
    isplitl [Klb2]; · iexact Klb2
    isplitl [HO]; · iexact HO
    isplitr; · (iapply (mayWait_own c (.lcb (slot3 2)) rfl 5 4); iexact Hlev)
    iexact Plb2
  iintro ⟨HO, Plb2, #Rlb2, OB2, CBm2⟩
  -- chunk 2: its send along x has left the slot
  iapply (wp_wait_ds m K c 2 (credit_vcaPeer c (slot3 2)) (oweD c 5 + oweF c 4) _) $$ [Kds2 HO Pds2]
  · isplitr; · (iapply (inv_at m K c (.ds 2)); iexact HR)
    isplitl [Kds2]; · iexact Kds2
    isplitl [HO]; · iexact HO
    isplitr; · (iapply (mayWait_own c (.ds 2) rfl 5 4); iexact Hlev)
    iexact Pds2
  iintro ⟨HO, Pds2, -, CAp2⟩
  -- slot 2 of both bf16 buffers is whole again
  ihave CA2 := (vca_slot_split c (slot3 2) fullShare _).2 $$ [CAm2 CAp2]
  · isplitl [CAm2]; · iexact CAm2
    iexact CAp2
  ihave CB2 := (vcb_slot_split c (slot3 2) fullShare _).2 $$ [CBm2 CBr2]
  · isplitl [CBm2]; · iexact CBm2
    iexact CBr2
  -- chunk 5, half a: staging slot 1 is loaded, cast and stored into bf16 slot 2
  -- the printed part k0_part20 is opened
  simp only [k0_part20_eq_skeleton]
  unfold k0_part20_skel
  simp only [semSignalWord, semWaitWord, Prog.lift, Prog.bind_op, Prog.bind_ret, Prog.pure_eq_ret, wp_deviceId]
  iapply (wp_load_via c (slot2 5) _ _) $$ [VA1]
  · iexact VA1
  iintro VA1
  iapply (wp_load_vca c (slot3 5) _ _) $$ [CA2]
  · iexact CA2
  iintro CA2
  iapply (wp_store_vca c (slot3 5) _ _) $$ [CA2]
  · iexact CA2
  iintro CA2
  ihave CA2 := (store_vca_at m c 5 _ _ rfl) $$ [CA2]
  · iexact CA2
  -- chunk 5, half b: staging slot 1 is loaded, cast and stored into bf16 slot 2
  iapply (wp_load_vib c (slot2 5) _ _) $$ [VB1]
  · iexact VB1
  iintro VB1
  iapply (wp_load_vcb c (slot3 5) _ _) $$ [CB2]
  · iexact CB2
  iintro CB2
  iapply (wp_store_vcb c (slot3 5) _ _) $$ [CB2]
  · iexact CB2
  iintro CB2
  ihave CB2 := (store_vcb_at m c 5 _ _ rfl) $$ [CB2]
  · iexact CB2
  ihave H := (vca_slot_split c (slot3 5) fullShare _).1 $$ [CA2]
  · iexact CA2
  icases H with ⟨CAm2, CAp2⟩
  ihave H := (vcb_slot_split c (slot3 5) fullShare _).1 $$ [CB2]
  · iexact CB2
  icases H with ⟨CBm2, CBr2⟩
  -- chunk 5, half a: the device's own columns of slot 2 start for the result
  iapply (wp_lca m K c 5 _) $$ [CAm2 OA5 Tla5]
  · isplitr; · (iapply (inv_at m K c (.lca (slot3 5))); iexact HR)
    isplitr; · iexact Rla2
    isplitl [CAm2]; · iexact CAm2
    isplitl [OA5]; · iexact OA5
    iexact Tla5
  iintro Kla5
  -- chunk 5, half b: the device's own columns of slot 2 start for the result
  iapply (wp_lcb m K c 5 _) $$ [CBm2 OB5 Tlb5]
  · isplitr; · (iapply (inv_at m K c (.lcb (slot3 5))); iexact HR)
    isplitr; · iexact Rlb2
    isplitl [CBm2]; · iexact CBm2
    isplitl [OB5]; · iexact OB5
    iexact Tlb5
  iintro Klb5
  -- chunk 5: the x-peer's columns of slot 2 are sent into its landing slot 5
  rw [show (oweD c 5 + oweF c 4 : CellTallies nD τ sig Unit) = (oweD c 6 + oweF c 4) + tallyAt (cell (px c) (.dr 5)) () Nout from by rw [oweD_peel c 5 (by decide), add_right_comm]; rfl]
  -- the printed part k0_part21 is opened
  simp only [k0_part21_eq_skeleton]
  unfold k0_part21_skel
  simp only [semSignalWord, semWaitWord, Prog.lift, Prog.bind_op, Prog.bind_ret, Prog.pure_eq_ret, wp_deviceId]
  iapply (wp_send_d m K c _ (devx_eq c _ _ (k0_dev12_eq c)) 5 _ (oweD c 6 + oweF c 4) _) $$ [CAp2 LP5 HO Tds5 Tdr5]
  · isplitr; · (iapply (inv_at m K c (.ds 5)); iexact HR)
    isplitr; · (iapply (inv_at m K (px c) (.dr 5)); iexact HR)
    isplitr; · (iapply (reached0_at m K c (.ds 5)); iexact HR)
    isplitr; · (iapply (reached0_at m K (px c) (.dr 5)); iexact HR)
    isplitl [CAp2]; · iexact CAp2
    isplitl [LP5]; · iexact LP5
    isplitl [HO]; · iexact HO
    isplitl [Tds5]; · iexact Tds5
    iexact Tdr5
  iintro ⟨Kds5, HO⟩
  -- chunk 7, half a: its rows of x start for staging slot 1
  iapply (wp_stage_a m K c 7 _) $$ [XA7 VA1 Tia7]
  · isplitr; · (iapply (inv_at m K c (.ina (slot2 7))); iexact HR)
    isplitr; · iexact Ria5
    isplitl [XA7]; · iexact XA7
    isplitl [VA1]; · iexact VA1
    iexact Tia7
  iintro Kia7
  -- chunk 7, half b: its rows of x start for staging slot 1
  iapply (wp_stage_b m K c 7 _) $$ [XB7 VB1 Tib7]
  · isplitr; · (iapply (inv_at m K c (.inb (slot2 7))); iexact HR)
    isplitr; · iexact Rib5
    isplitl [XB7]; · iexact XB7
    isplitl [VB1]; · iexact VB1
    iexact Tib7
  iintro Kib7
  -- chunk 4 of the x-peer has landed: it is copied into the result and relayed to the y-peer
  -- the printed part k0_part22 is opened
  simp only [k0_part22_eq_skeleton]
  unfold k0_part22_skel
  simp only [semSignalWord, semWaitWord, Prog.lift, Prog.bind_op, Prog.bind_ret, Prog.pure_eq_ret, wp_deviceId]
  iapply (wp_wait_dr m K c 4 (credit_ldS 4) (oweD c 6 + oweF c 4) _) $$ [Cdr4 HO Pdr4]
  · isplitr; · (iapply (inv_at m K c (.dr 4)); iexact HR)
    isplitl [Cdr4]; · iexact Cdr4
    isplitl [HO]; · iexact HO
    isplitr; · (iapply (mayWait_dr c 4 6 4 (by decide) (by decide)); iexact Hlev)
    iexact Pdr4
  iintro ⟨HO, Pdr4, -, LD4⟩
  ihave H := (ld_share_split c 4 _).1 $$ [LD4]
  · iexact LD4
  icases H with ⟨LDl4, LDr4⟩
  iapply (wp_lo m K c 4 _) $$ [LDl4 OR4 Tlo4]
  · isplitr; · (iapply (inv_at m K c (.lo 4)); iexact HR)
    isplitr; · (iapply (reached0_at m K c (.lo 4)); iexact HR)
    isplitl [LDl4]; · iexact LDl4
    isplitl [OR4]; · iexact OR4
    iexact Tlo4
  iintro Klo4
  rw [show (oweD c 6 + oweF c 4 : CellTallies nD τ sig Unit) = (oweD c 6 + oweF c 5) + tallyAt (cell (py c) (.fr 4)) () Nout from by rw [oweF_peel c 4 (by decide), ← add_assoc]; rfl]
  iapply (wp_send_f m K c _ (devy_eq c _ _ (k0_dev13_eq c)) 4 _ (oweD c 6 + oweF c 5) _) $$ [LDr4 OP4 HO Tfs4 Tfr4]
  · isplitr; · (iapply (inv_at m K c (.fs 4)); iexact HR)
    isplitr; · (iapply (inv_at m K (py c) (.fr 4)); iexact HR)
    isplitr; · (iapply (reached0_at m K c (.fs 4)); iexact HR)
    isplitr; · (iapply (reached0_at m K (py c) (.fr 4)); iexact HR)
    isplitl [LDr4]; · iexact LDr4
    isplitl [OP4]; · iexact OP4
    isplitl [HO]; · iexact HO
    isplitl [Tfs4]; · iexact Tfs4
    iexact Tfr4
  iintro ⟨Kfs4, HO⟩
  -- chunk 6, half a: its staged rows have landed in slot 0
  -- the printed part k0_part23 is opened
  simp only [k0_part23_eq_skeleton]
  unfold k0_part23_skel
  simp only [semSignalWord, semWaitWord, Prog.lift, Prog.bind_op, Prog.bind_ret, Prog.pure_eq_ret, wp_deviceId]
  iapply (wp_wait_ina m K c 6 (credit_viaS (slot2 6)) (oweD c 6 + oweF c 5) _) $$ [Kia6 HO Pia0]
  · isplitr; · (iapply (inv_at m K c (.ina (slot2 6))); iexact HR)
    isplitl [Kia6]; · iexact Kia6
    isplitl [HO]; · iexact HO
    isplitr; · (iapply (mayWait_own c (.ina (slot2 6)) rfl 6 5); iexact Hlev)
    iexact Pia0
  iintro ⟨HO, Pia0, #Ria6, VA0, XA6⟩
  -- chunk 6, half b: its staged rows have landed in slot 0
  iapply (wp_wait_inb m K c 6 (credit_vibS (slot2 6)) (oweD c 6 + oweF c 5) _) $$ [Kib6 HO Pib0]
  · isplitr; · (iapply (inv_at m K c (.inb (slot2 6))); iexact HR)
    isplitl [Kib6]; · iexact Kib6
    isplitl [HO]; · iexact HO
    isplitr; · (iapply (mayWait_own c (.inb (slot2 6)) rfl 6 5); iexact Hlev)
    iexact Pib0
  iintro ⟨HO, Pib0, #Rib6, VB0, XB6⟩
  -- chunk 3: its local copy of vcast_a has landed
  iapply (wp_wait_lca m K c 3 (credit_oA c 3) (oweD c 6 + oweF c 5) _) $$ [Kla3 HO Pla0]
  · isplitr; · (iapply (inv_at m K c (.lca (slot3 3))); iexact HR)
    isplitl [Kla3]; · iexact Kla3
    isplitl [HO]; · iexact HO
    isplitr; · (iapply (mayWait_own c (.lca (slot3 3)) rfl 6 5); iexact Hlev)
    iexact Pla0
  iintro ⟨HO, Pla0, #Rla3, OA3, CAm0⟩
  -- chunk 3: its local copy of vcast_b has landed
  iapply (wp_wait_lcb m K c 3 (credit_oB c 3) (oweD c 6 + oweF c 5) _) $$ [Klb3 HO Plb0]
  · isplitr; · (iapply (inv_at m K c (.lcb (slot3 3))); iexact HR)
    isplitl [Klb3]; · iexact Klb3
    isplitl [HO]; · iexact HO
    isplitr; · (iapply (mayWait_own c (.lcb (slot3 3)) rfl 6 5); iexact Hlev)
    iexact Plb0
  iintro ⟨HO, Plb0, #Rlb3, OB3, CBm0⟩
  -- chunk 3: its send along x has left the slot
  iapply (wp_wait_ds m K c 3 (credit_vcaPeer c (slot3 3)) (oweD c 6 + oweF c 5) _) $$ [Kds3 HO Pds3]
  · isplitr; · (iapply (inv_at m K c (.ds 3)); iexact HR)
    isplitl [Kds3]; · iexact Kds3
    isplitl [HO]; · iexact HO
    isplitr; · (iapply (mayWait_own c (.ds 3) rfl 6 5); iexact Hlev)
    iexact Pds3
  iintro ⟨HO, Pds3, -, CAp0⟩
  -- slot 0 of both bf16 buffers is whole again
  ihave CA0 := (vca_slot_split c (slot3 3) fullShare _).2 $$ [CAm0 CAp0]
  · isplitl [CAm0]; · iexact CAm0
    iexact CAp0
  ihave CB0 := (vcb_slot_split c (slot3 3) fullShare _).2 $$ [CBm0 CBr0]
  · isplitl [CBm0]; · iexact CBm0
    iexact CBr0
  -- chunk 6, half a: staging slot 0 is loaded, cast and stored into bf16 slot 0
  iapply (wp_load_via c (slot2 6) _ _) $$ [VA0]
  · iexact VA0
  iintro VA0
  iapply (wp_load_vca c (slot3 6) _ _) $$ [CA0]
  · iexact CA0
  iintro CA0
  -- the printed part k0_part24 is opened
  simp only [k0_part24_eq_skeleton]
  unfold k0_part24_skel
  simp only [semSignalWord, semWaitWord, Prog.lift, Prog.bind_op, Prog.bind_ret, Prog.pure_eq_ret, wp_deviceId]
  iapply (wp_store_vca c (slot3 6) _ _) $$ [CA0]
  · iexact CA0
  iintro CA0
  ihave CA0 := (store_vca_at m c 6 _ _ rfl) $$ [CA0]
  · iexact CA0
  -- chunk 6, half b: staging slot 0 is loaded, cast and stored into bf16 slot 0
  iapply (wp_load_vib c (slot2 6) _ _) $$ [VB0]
  · iexact VB0
  iintro VB0
  iapply (wp_load_vcb c (slot3 6) _ _) $$ [CB0]
  · iexact CB0
  iintro CB0
  iapply (wp_store_vcb c (slot3 6) _ _) $$ [CB0]
  · iexact CB0
  iintro CB0
  ihave CB0 := (store_vcb_at m c 6 _ _ rfl) $$ [CB0]
  · iexact CB0
  ihave H := (vca_slot_split c (slot3 6) fullShare _).1 $$ [CA0]
  · iexact CA0
  icases H with ⟨CAm0, CAp0⟩
  ihave H := (vcb_slot_split c (slot3 6) fullShare _).1 $$ [CB0]
  · iexact CB0
  icases H with ⟨CBm0, CBr0⟩
  -- chunk 6, half a: the device's own columns of slot 0 start for the result
  iapply (wp_lca m K c 6 _) $$ [CAm0 OA6 Tla6]
  · isplitr; · (iapply (inv_at m K c (.lca (slot3 6))); iexact HR)
    isplitr; · iexact Rla3
    isplitl [CAm0]; · iexact CAm0
    isplitl [OA6]; · iexact OA6
    iexact Tla6
  iintro Kla6
  -- chunk 6, half b: the device's own columns of slot 0 start for the result
  iapply (wp_lcb m K c 6 _) $$ [CBm0 OB6 Tlb6]
  · isplitr; · (iapply (inv_at m K c (.lcb (slot3 6))); iexact HR)
    isplitr; · iexact Rlb3
    isplitl [CBm0]; · iexact CBm0
    isplitl [OB6]; · iexact OB6
    iexact Tlb6
  iintro Klb6
  -- chunk 6: the x-peer's columns of slot 0 are sent into its landing slot 6
  rw [show (oweD c 6 + oweF c 5 : CellTallies nD τ sig Unit) = (oweD c 7 + oweF c 5) + tallyAt (cell (px c) (.dr 6)) () Nout from by rw [oweD_peel c 6 (by decide), add_right_comm]; rfl]
  -- the printed part k0_part25 is opened
  simp only [k0_part25_eq_skeleton]
  unfold k0_part25_skel
  simp only [semSignalWord, semWaitWord, Prog.lift, Prog.bind_op, Prog.bind_ret, Prog.pure_eq_ret, wp_deviceId]
  iapply (wp_send_d m K c _ (devx_eq c _ _ (k0_dev14_eq c)) 6 _ (oweD c 7 + oweF c 5) _) $$ [CAp0 LP6 HO Tds6 Tdr6]
  · isplitr; · (iapply (inv_at m K c (.ds 6)); iexact HR)
    isplitr; · (iapply (inv_at m K (px c) (.dr 6)); iexact HR)
    isplitr; · (iapply (reached0_at m K c (.ds 6)); iexact HR)
    isplitr; · (iapply (reached0_at m K (px c) (.dr 6)); iexact HR)
    isplitl [CAp0]; · iexact CAp0
    isplitl [LP6]; · iexact LP6
    isplitl [HO]; · iexact HO
    isplitl [Tds6]; · iexact Tds6
    iexact Tdr6
  iintro ⟨Kds6, HO⟩
  -- chunk 8, half a: its rows of x start for staging slot 0
  iapply (wp_stage_a m K c 8 _) $$ [XA8 VA0 Tia8]
  · isplitr; · (iapply (inv_at m K c (.ina (slot2 8))); iexact HR)
    isplitr; · iexact Ria6
    isplitl [XA8]; · iexact XA8
    isplitl [VA0]; · iexact VA0
    iexact Tia8
  iintro Kia8
  -- chunk 8, half b: its rows of x start for staging slot 0
  iapply (wp_stage_b m K c 8 _) $$ [XB8 VB0 Tib8]
  · isplitr; · (iapply (inv_at m K c (.inb (slot2 8))); iexact HR)
    isplitr; · iexact Rib6
    isplitl [XB8]; · iexact XB8
    isplitl [VB0]; · iexact VB0
    iexact Tib8
  iintro Kib8
  -- chunk 5 of the x-peer has landed: it is copied into the result and relayed to the y-peer
  iapply (wp_wait_dr m K c 5 (credit_ldS 5) (oweD c 7 + oweF c 5) _) $$ [Cdr5 HO Pdr5]
  · isplitr; · (iapply (inv_at m K c (.dr 5)); iexact HR)
    isplitl [Cdr5]; · iexact Cdr5
    isplitl [HO]; · iexact HO
    isplitr; · (iapply (mayWait_dr c 5 7 5 (by decide) (by decide)); iexact Hlev)
    iexact Pdr5
  iintro ⟨HO, Pdr5, -, LD5⟩
  ihave H := (ld_share_split c 5 _).1 $$ [LD5]
  · iexact LD5
  icases H with ⟨LDl5, LDr5⟩
  -- the printed part k0_part26 is opened
  simp only [k0_part26_eq_skeleton]
  unfold k0_part26_skel
  simp only [semSignalWord, semWaitWord, Prog.lift, Prog.bind_op, Prog.bind_ret, Prog.pure_eq_ret, wp_deviceId]
  iapply (wp_lo m K c 5 _) $$ [LDl5 OR5 Tlo5]
  · isplitr; · (iapply (inv_at m K c (.lo 5)); iexact HR)
    isplitr; · (iapply (reached0_at m K c (.lo 5)); iexact HR)
    isplitl [LDl5]; · iexact LDl5
    isplitl [OR5]; · iexact OR5
    iexact Tlo5
  iintro Klo5
  rw [show (oweD c 7 + oweF c 5 : CellTallies nD τ sig Unit) = (oweD c 7 + oweF c 6) + tallyAt (cell (py c) (.fr 5)) () Nout from by rw [oweF_peel c 5 (by decide), ← add_assoc]; rfl]
  iapply (wp_send_f m K c _ (devy_eq c _ _ (k0_dev15_eq c)) 5 _ (oweD c 7 + oweF c 6) _) $$ [LDr5 OP5 HO Tfs5 Tfr5]
  · isplitr; · (iapply (inv_at m K c (.fs 5)); iexact HR)
    isplitr; · (iapply (inv_at m K (py c) (.fr 5)); iexact HR)
    isplitr; · (iapply (reached0_at m K c (.fs 5)); iexact HR)
    isplitr; · (iapply (reached0_at m K (py c) (.fr 5)); iexact HR)
    isplitl [LDr5]; · iexact LDr5
    isplitl [OP5]; · iexact OP5
    isplitl [HO]; · iexact HO
    isplitl [Tfs5]; · iexact Tfs5
    iexact Tfr5
  iintro ⟨Kfs5, HO⟩
  -- chunk 7, half a: its staged rows have landed in slot 1
  iapply (wp_wait_ina m K c 7 (credit_viaS (slot2 7)) (oweD c 7 + oweF c 6) _) $$ [Kia7 HO Pia1]
  · isplitr; · (iapply (inv_at m K c (.ina (slot2 7))); iexact HR)
    isplitl [Kia7]; · iexact Kia7
    isplitl [HO]; · iexact HO
    isplitr; · (iapply (mayWait_own c (.ina (slot2 7)) rfl 7 6); iexact Hlev)
    iexact Pia1
  iintro ⟨HO, Pia1, #Ria7, VA1, XA7⟩
  -- chunk 7, half b: its staged rows have landed in slot 1
  -- the printed part k0_part27 is opened
  simp only [k0_part27_eq_skeleton]
  unfold k0_part27_skel
  simp only [semSignalWord, semWaitWord, Prog.lift, Prog.bind_op, Prog.bind_ret, Prog.pure_eq_ret, wp_deviceId]
  iapply (wp_wait_inb m K c 7 (credit_vibS (slot2 7)) (oweD c 7 + oweF c 6) _) $$ [Kib7 HO Pib1]
  · isplitr; · (iapply (inv_at m K c (.inb (slot2 7))); iexact HR)
    isplitl [Kib7]; · iexact Kib7
    isplitl [HO]; · iexact HO
    isplitr; · (iapply (mayWait_own c (.inb (slot2 7)) rfl 7 6); iexact Hlev)
    iexact Pib1
  iintro ⟨HO, Pib1, #Rib7, VB1, XB7⟩
  -- chunk 4: its local copy of vcast_a has landed
  iapply (wp_wait_lca m K c 4 (credit_oA c 4) (oweD c 7 + oweF c 6) _) $$ [Kla4 HO Pla1]
  · isplitr; · (iapply (inv_at m K c (.lca (slot3 4))); iexact HR)
    isplitl [Kla4]; · iexact Kla4
    isplitl [HO]; · iexact HO
    isplitr; · (iapply (mayWait_own c (.lca (slot3 4)) rfl 7 6); iexact Hlev)
    iexact Pla1
  iintro ⟨HO, Pla1, #Rla4, OA4, CAm1⟩
  -- chunk 4: its local copy of vcast_b has landed
  iapply (wp_wait_lcb m K c 4 (credit_oB c 4) (oweD c 7 + oweF c 6) _) $$ [Klb4 HO Plb1]
  · isplitr; · (iapply (inv_at m K c (.lcb (slot3 4))); iexact HR)
    isplitl [Klb4]; · iexact Klb4
    isplitl [HO]; · iexact HO
    isplitr; · (iapply (mayWait_own c (.lcb (slot3 4)) rfl 7 6); iexact Hlev)
    iexact Plb1
  iintro ⟨HO, Plb1, #Rlb4, OB4, CBm1⟩
  -- chunk 4: its send along x has left the slot
  iapply (wp_wait_ds m K c 4 (credit_vcaPeer c (slot3 4)) (oweD c 7 + oweF c 6) _) $$ [Kds4 HO Pds4]
  · isplitr; · (iapply (inv_at m K c (.ds 4)); iexact HR)
    isplitl [Kds4]; · iexact Kds4
    isplitl [HO]; · iexact HO
    isplitr; · (iapply (mayWait_own c (.ds 4) rfl 7 6); iexact Hlev)
    iexact Pds4
  iintro ⟨HO, Pds4, -, CAp1⟩
  -- slot 1 of both bf16 buffers is whole again
  ihave CA1 := (vca_slot_split c (slot3 4) fullShare _).2 $$ [CAm1 CAp1]
  · isplitl [CAm1]; · iexact CAm1
    iexact CAp1
  ihave CB1 := (vcb_slot_split c (slot3 4) fullShare _).2 $$ [CBm1 CBr1]
  · isplitl [CBm1]; · iexact CBm1
    iexact CBr1
  -- chunk 7, half a: staging slot 1 is loaded, cast and stored into bf16 slot 1
  iapply (wp_load_via c (slot2 7) _ _) $$ [VA1]
  · iexact VA1
  iintro VA1
  iapply (wp_load_vca c (slot3 7) _ _) $$ [CA1]
  · iexact CA1
  iintro CA1
  iapply (wp_store_vca c (slot3 7) _ _) $$ [CA1]
  · iexact CA1
  iintro CA1
  ihave CA1 := (store_vca_at m c 7 _ _ rfl) $$ [CA1]
  · iexact CA1
  -- chunk 7, half b: staging slot 1 is loaded, cast and stored into bf16 slot 1
  iapply (wp_load_vib c (slot2 7) _ _) $$ [VB1]
  · iexact VB1
  iintro VB1
  -- the printed part k0_part28 is opened
  simp only [k0_part28_eq_skeleton]
  unfold k0_part28_skel
  simp only [semSignalWord, semWaitWord, Prog.lift, Prog.bind_op, Prog.bind_ret, Prog.pure_eq_ret, wp_deviceId]
  iapply (wp_load_vcb c (slot3 7) _ _) $$ [CB1]
  · iexact CB1
  iintro CB1
  iapply (wp_store_vcb c (slot3 7) _ _) $$ [CB1]
  · iexact CB1
  iintro CB1
  ihave CB1 := (store_vcb_at m c 7 _ _ rfl) $$ [CB1]
  · iexact CB1
  ihave H := (vca_slot_split c (slot3 7) fullShare _).1 $$ [CA1]
  · iexact CA1
  icases H with ⟨CAm1, CAp1⟩
  ihave H := (vcb_slot_split c (slot3 7) fullShare _).1 $$ [CB1]
  · iexact CB1
  icases H with ⟨CBm1, CBr1⟩
  -- chunk 7, half a: the device's own columns of slot 1 start for the result
  iapply (wp_lca m K c 7 _) $$ [CAm1 OA7 Tla7]
  · isplitr; · (iapply (inv_at m K c (.lca (slot3 7))); iexact HR)
    isplitr; · iexact Rla4
    isplitl [CAm1]; · iexact CAm1
    isplitl [OA7]; · iexact OA7
    iexact Tla7
  iintro Kla7
  -- chunk 7, half b: the device's own columns of slot 1 start for the result
  iapply (wp_lcb m K c 7 _) $$ [CBm1 OB7 Tlb7]
  · isplitr; · (iapply (inv_at m K c (.lcb (slot3 7))); iexact HR)
    isplitr; · iexact Rlb4
    isplitl [CBm1]; · iexact CBm1
    isplitl [OB7]; · iexact OB7
    iexact Tlb7
  iintro Klb7
  -- chunk 7: the x-peer's columns of slot 1 are sent into its landing slot 7
  rw [show (oweD c 7 + oweF c 6 : CellTallies nD τ sig Unit) = (oweD c 8 + oweF c 6) + tallyAt (cell (px c) (.dr 7)) () Nout from by rw [oweD_peel c 7 (by decide), add_right_comm]; rfl]
  -- the printed part k0_part29 is opened
  simp only [k0_part29_eq_skeleton]
  unfold k0_part29_skel
  simp only [semSignalWord, semWaitWord, Prog.lift, Prog.bind_op, Prog.bind_ret, Prog.pure_eq_ret, wp_deviceId]
  iapply (wp_send_d m K c _ (devx_eq c _ _ (k0_dev16_eq c)) 7 _ (oweD c 8 + oweF c 6) _) $$ [CAp1 LP7 HO Tds7 Tdr7]
  · isplitr; · (iapply (inv_at m K c (.ds 7)); iexact HR)
    isplitr; · (iapply (inv_at m K (px c) (.dr 7)); iexact HR)
    isplitr; · (iapply (reached0_at m K c (.ds 7)); iexact HR)
    isplitr; · (iapply (reached0_at m K (px c) (.dr 7)); iexact HR)
    isplitl [CAp1]; · iexact CAp1
    isplitl [LP7]; · iexact LP7
    isplitl [HO]; · iexact HO
    isplitl [Tds7]; · iexact Tds7
    iexact Tdr7
  iintro ⟨Kds7, HO⟩
  -- chunk 9, half a: its rows of x start for staging slot 1
  iapply (wp_stage_a m K c 9 _) $$ [XA9 VA1 Tia9]
  · isplitr; · (iapply (inv_at m K c (.ina (slot2 9))); iexact HR)
    isplitr; · iexact Ria7
    isplitl [XA9]; · iexact XA9
    isplitl [VA1]; · iexact VA1
    iexact Tia9
  iintro Kia9
  -- chunk 9, half b: its rows of x start for staging slot 1
  iapply (wp_stage_b m K c 9 _) $$ [XB9 VB1 Tib9]
  · isplitr; · (iapply (inv_at m K c (.inb (slot2 9))); iexact HR)
    isplitr; · iexact Rib7
    isplitl [XB9]; · iexact XB9
    isplitl [VB1]; · iexact VB1
    iexact Tib9
  iintro Kib9
  -- chunk 6 of the x-peer has landed: it is copied into the result and relayed to the y-peer
  iapply (wp_wait_dr m K c 6 (credit_ldS 6) (oweD c 8 + oweF c 6) _) $$ [Cdr6 HO Pdr6]
  · isplitr; · (iapply (inv_at m K c (.dr 6)); iexact HR)
    isplitl [Cdr6]; · iexact Cdr6
    isplitl [HO]; · iexact HO
    isplitr; · (iapply (mayWait_dr c 6 8 6 (by decide) (by decide)); iexact Hlev)
    iexact Pdr6
  iintro ⟨HO, Pdr6, -, LD6⟩
  ihave H := (ld_share_split c 6 _).1 $$ [LD6]
  · iexact LD6
  icases H with ⟨LDl6, LDr6⟩
  -- the printed part k0_part30 is opened
  simp only [k0_part30_eq_skeleton]
  unfold k0_part30_skel
  simp only [semSignalWord, semWaitWord, Prog.lift, Prog.bind_op, Prog.bind_ret, Prog.pure_eq_ret, wp_deviceId]
  iapply (wp_lo m K c 6 _) $$ [LDl6 OR6 Tlo6]
  · isplitr; · (iapply (inv_at m K c (.lo 6)); iexact HR)
    isplitr; · (iapply (reached0_at m K c (.lo 6)); iexact HR)
    isplitl [LDl6]; · iexact LDl6
    isplitl [OR6]; · iexact OR6
    iexact Tlo6
  iintro Klo6
  rw [show (oweD c 8 + oweF c 6 : CellTallies nD τ sig Unit) = (oweD c 8 + oweF c 7) + tallyAt (cell (py c) (.fr 6)) () Nout from by rw [oweF_peel c 6 (by decide), ← add_assoc]; rfl]
  iapply (wp_send_f m K c _ (devy_eq c _ _ (k0_dev17_eq c)) 6 _ (oweD c 8 + oweF c 7) _) $$ [LDr6 OP6 HO Tfs6 Tfr6]
  · isplitr; · (iapply (inv_at m K c (.fs 6)); iexact HR)
    isplitr; · (iapply (inv_at m K (py c) (.fr 6)); iexact HR)
    isplitr; · (iapply (reached0_at m K c (.fs 6)); iexact HR)
    isplitr; · (iapply (reached0_at m K (py c) (.fr 6)); iexact HR)
    isplitl [LDr6]; · iexact LDr6
    isplitl [OP6]; · iexact OP6
    isplitl [HO]; · iexact HO
    isplitl [Tfs6]; · iexact Tfs6
    iexact Tfr6
  iintro ⟨Kfs6, HO⟩
  -- chunk 8, half a: its staged rows have landed in slot 0
  iapply (wp_wait_ina m K c 8 (credit_viaS (slot2 8)) (oweD c 8 + oweF c 7) _) $$ [Kia8 HO Pia0]
  · isplitr; · (iapply (inv_at m K c (.ina (slot2 8))); iexact HR)
    isplitl [Kia8]; · iexact Kia8
    isplitl [HO]; · iexact HO
    isplitr; · (iapply (mayWait_own c (.ina (slot2 8)) rfl 8 7); iexact Hlev)
    iexact Pia0
  iintro ⟨HO, Pia0, #Ria8, VA0, XA8⟩
  -- chunk 8, half b: its staged rows have landed in slot 0
  iapply (wp_wait_inb m K c 8 (credit_vibS (slot2 8)) (oweD c 8 + oweF c 7) _) $$ [Kib8 HO Pib0]
  · isplitr; · (iapply (inv_at m K c (.inb (slot2 8))); iexact HR)
    isplitl [Kib8]; · iexact Kib8
    isplitl [HO]; · iexact HO
    isplitr; · (iapply (mayWait_own c (.inb (slot2 8)) rfl 8 7); iexact Hlev)
    iexact Pib0
  iintro ⟨HO, Pib0, #Rib8, VB0, XB8⟩
  -- chunk 5: its local copy of vcast_a has landed
  -- the printed part k0_part31 is opened
  simp only [k0_part31_eq_skeleton]
  unfold k0_part31_skel
  simp only [semSignalWord, semWaitWord, Prog.lift, Prog.bind_op, Prog.bind_ret, Prog.pure_eq_ret, wp_deviceId]
  iapply (wp_wait_lca m K c 5 (credit_oA c 5) (oweD c 8 + oweF c 7) _) $$ [Kla5 HO Pla2]
  · isplitr; · (iapply (inv_at m K c (.lca (slot3 5))); iexact HR)
    isplitl [Kla5]; · iexact Kla5
    isplitl [HO]; · iexact HO
    isplitr; · (iapply (mayWait_own c (.lca (slot3 5)) rfl 8 7); iexact Hlev)
    iexact Pla2
  iintro ⟨HO, Pla2, #Rla5, OA5, CAm2⟩
  -- chunk 5: its local copy of vcast_b has landed
  iapply (wp_wait_lcb m K c 5 (credit_oB c 5) (oweD c 8 + oweF c 7) _) $$ [Klb5 HO Plb2]
  · isplitr; · (iapply (inv_at m K c (.lcb (slot3 5))); iexact HR)
    isplitl [Klb5]; · iexact Klb5
    isplitl [HO]; · iexact HO
    isplitr; · (iapply (mayWait_own c (.lcb (slot3 5)) rfl 8 7); iexact Hlev)
    iexact Plb2
  iintro ⟨HO, Plb2, #Rlb5, OB5, CBm2⟩
  -- chunk 5: its send along x has left the slot
  iapply (wp_wait_ds m K c 5 (credit_vcaPeer c (slot3 5)) (oweD c 8 + oweF c 7) _) $$ [Kds5 HO Pds5]
  · isplitr; · (iapply (inv_at m K c (.ds 5)); iexact HR)
    isplitl [Kds5]; · iexact Kds5
    isplitl [HO]; · iexact HO
    isplitr; · (iapply (mayWait_own c (.ds 5) rfl 8 7); iexact Hlev)
    iexact Pds5
  iintro ⟨HO, Pds5, -, CAp2⟩
  -- slot 2 of both bf16 buffers is whole again
  ihave CA2 := (vca_slot_split c (slot3 5) fullShare _).2 $$ [CAm2 CAp2]
  · isplitl [CAm2]; · iexact CAm2
    iexact CAp2
  ihave CB2 := (vcb_slot_split c (slot3 5) fullShare _).2 $$ [CBm2 CBr2]
  · isplitl [CBm2]; · iexact CBm2
    iexact CBr2
  -- chunk 8, half a: staging slot 0 is loaded, cast and stored into bf16 slot 2
  iapply (wp_load_via c (slot2 8) _ _) $$ [VA0]
  · iexact VA0
  iintro VA0
  iapply (wp_load_vca c (slot3 8) _ _) $$ [CA2]
  · iexact CA2
  iintro CA2
  iapply (wp_store_vca c (slot3 8) _ _) $$ [CA2]
  · iexact CA2
  iintro CA2
  ihave CA2 := (store_vca_at m c 8 _ _ rfl) $$ [CA2]
  · iexact CA2
  -- chunk 8, half b: staging slot 0 is loaded, cast and stored into bf16 slot 2
  iapply (wp_load_vib c (slot2 8) _ _) $$ [VB0]
  · iexact VB0
  iintro VB0
  iapply (wp_load_vcb c (slot3 8) _ _) $$ [CB2]
  · iexact CB2
  iintro CB2
  iapply (wp_store_vcb c (slot3 8) _ _) $$ [CB2]
  · iexact CB2
  iintro CB2
  ihave CB2 := (store_vcb_at m c 8 _ _ rfl) $$ [CB2]
  · iexact CB2
  ihave H := (vca_slot_split c (slot3 8) fullShare _).1 $$ [CA2]
  · iexact CA2
  icases H with ⟨CAm2, CAp2⟩
  ihave H := (vcb_slot_split c (slot3 8) fullShare _).1 $$ [CB2]
  · iexact CB2
  icases H with ⟨CBm2, CBr2⟩
  -- chunk 8, half a: the device's own columns of slot 2 start for the result
  -- the printed part k0_part32 is opened
  simp only [k0_part32_eq_skeleton]
  unfold k0_part32_skel
  simp only [semSignalWord, semWaitWord, Prog.lift, Prog.bind_op, Prog.bind_ret, Prog.pure_eq_ret, wp_deviceId]
  iapply (wp_lca m K c 8 _) $$ [CAm2 OA8 Tla8]
  · isplitr; · (iapply (inv_at m K c (.lca (slot3 8))); iexact HR)
    isplitr; · iexact Rla5
    isplitl [CAm2]; · iexact CAm2
    isplitl [OA8]; · iexact OA8
    iexact Tla8
  iintro Kla8
  -- chunk 8, half b: the device's own columns of slot 2 start for the result
  iapply (wp_lcb m K c 8 _) $$ [CBm2 OB8 Tlb8]
  · isplitr; · (iapply (inv_at m K c (.lcb (slot3 8))); iexact HR)
    isplitr; · iexact Rlb5
    isplitl [CBm2]; · iexact CBm2
    isplitl [OB8]; · iexact OB8
    iexact Tlb8
  iintro Klb8
  -- chunk 8: the x-peer's columns of slot 2 are sent into its landing slot 8
  rw [show (oweD c 8 + oweF c 7 : CellTallies nD τ sig Unit) = (oweD c 9 + oweF c 7) + tallyAt (cell (px c) (.dr 8)) () Nout from by rw [oweD_peel c 8 (by decide), add_right_comm]; rfl]
  iapply (wp_send_d m K c _ (devx_eq c _ _ (k0_dev18_eq c)) 8 _ (oweD c 9 + oweF c 7) _) $$ [CAp2 LP8 HO Tds8 Tdr8]
  · isplitr; · (iapply (inv_at m K c (.ds 8)); iexact HR)
    isplitr; · (iapply (inv_at m K (px c) (.dr 8)); iexact HR)
    isplitr; · (iapply (reached0_at m K c (.ds 8)); iexact HR)
    isplitr; · (iapply (reached0_at m K (px c) (.dr 8)); iexact HR)
    isplitl [CAp2]; · iexact CAp2
    isplitl [LP8]; · iexact LP8
    isplitl [HO]; · iexact HO
    isplitl [Tds8]; · iexact Tds8
    iexact Tdr8
  iintro ⟨Kds8, HO⟩
  -- chunk 10, half a: its rows of x start for staging slot 0
  -- the printed part k0_part33 is opened
  simp only [k0_part33_eq_skeleton]
  unfold k0_part33_skel
  simp only [semSignalWord, semWaitWord, Prog.lift, Prog.bind_op, Prog.bind_ret, Prog.pure_eq_ret, wp_deviceId]
  iapply (wp_stage_a m K c 10 _) $$ [XA10 VA0 Tia10]
  · isplitr; · (iapply (inv_at m K c (.ina (slot2 10))); iexact HR)
    isplitr; · iexact Ria8
    isplitl [XA10]; · iexact XA10
    isplitl [VA0]; · iexact VA0
    iexact Tia10
  iintro Kia10
  -- chunk 10, half b: its rows of x start for staging slot 0
  iapply (wp_stage_b m K c 10 _) $$ [XB10 VB0 Tib10]
  · isplitr; · (iapply (inv_at m K c (.inb (slot2 10))); iexact HR)
    isplitr; · iexact Rib8
    isplitl [XB10]; · iexact XB10
    isplitl [VB0]; · iexact VB0
    iexact Tib10
  iintro Kib10
  -- chunk 7 of the x-peer has landed: it is copied into the result and relayed to the y-peer
  iapply (wp_wait_dr m K c 7 (credit_ldS 7) (oweD c 9 + oweF c 7) _) $$ [Cdr7 HO Pdr7]
  · isplitr; · (iapply (inv_at m K c (.dr 7)); iexact HR)
    isplitl [Cdr7]; · iexact Cdr7
    isplitl [HO]; · iexact HO
    isplitr; · (iapply (mayWait_dr c 7 9 7 (by decide) (by decide)); iexact Hlev)
    iexact Pdr7
  iintro ⟨HO, Pdr7, -, LD7⟩
  ihave H := (ld_share_split c 7 _).1 $$ [LD7]
  · iexact LD7
  icases H with ⟨LDl7, LDr7⟩
  iapply (wp_lo m K c 7 _) $$ [LDl7 OR7 Tlo7]
  · isplitr; · (iapply (inv_at m K c (.lo 7)); iexact HR)
    isplitr; · (iapply (reached0_at m K c (.lo 7)); iexact HR)
    isplitl [LDl7]; · iexact LDl7
    isplitl [OR7]; · iexact OR7
    iexact Tlo7
  iintro Klo7
  rw [show (oweD c 9 + oweF c 7 : CellTallies nD τ sig Unit) = (oweD c 9 + oweF c 8) + tallyAt (cell (py c) (.fr 7)) () Nout from by rw [oweF_peel c 7 (by decide), ← add_assoc]; rfl]
  -- the printed part k0_part34 is opened
  simp only [k0_part34_eq_skeleton]
  unfold k0_part34_skel
  simp only [semSignalWord, semWaitWord, Prog.lift, Prog.bind_op, Prog.bind_ret, Prog.pure_eq_ret, wp_deviceId]
  iapply (wp_send_f m K c _ (devy_eq c _ _ (k0_dev19_eq c)) 7 _ (oweD c 9 + oweF c 8) _) $$ [LDr7 OP7 HO Tfs7 Tfr7]
  · isplitr; · (iapply (inv_at m K c (.fs 7)); iexact HR)
    isplitr; · (iapply (inv_at m K (py c) (.fr 7)); iexact HR)
    isplitr; · (iapply (reached0_at m K c (.fs 7)); iexact HR)
    isplitr; · (iapply (reached0_at m K (py c) (.fr 7)); iexact HR)
    isplitl [LDr7]; · iexact LDr7
    isplitl [OP7]; · iexact OP7
    isplitl [HO]; · iexact HO
    isplitl [Tfs7]; · iexact Tfs7
    iexact Tfr7
  iintro ⟨Kfs7, HO⟩
  -- chunk 9, half a: its staged rows have landed in slot 1
  iapply (wp_wait_ina m K c 9 (credit_viaS (slot2 9)) (oweD c 9 + oweF c 8) _) $$ [Kia9 HO Pia1]
  · isplitr; · (iapply (inv_at m K c (.ina (slot2 9))); iexact HR)
    isplitl [Kia9]; · iexact Kia9
    isplitl [HO]; · iexact HO
    isplitr; · (iapply (mayWait_own c (.ina (slot2 9)) rfl 9 8); iexact Hlev)
    iexact Pia1
  iintro ⟨HO, Pia1, #Ria9, VA1, XA9⟩
  -- chunk 9, half b: its staged rows have landed in slot 1
  iapply (wp_wait_inb m K c 9 (credit_vibS (slot2 9)) (oweD c 9 + oweF c 8) _) $$ [Kib9 HO Pib1]
  · isplitr; · (iapply (inv_at m K c (.inb (slot2 9))); iexact HR)
    isplitl [Kib9]; · iexact Kib9
    isplitl [HO]; · iexact HO
    isplitr; · (iapply (mayWait_own c (.inb (slot2 9)) rfl 9 8); iexact Hlev)
    iexact Pib1
  iintro ⟨HO, Pib1, #Rib9, VB1, XB9⟩
  -- chunk 6: its local copy of vcast_a has landed
  iapply (wp_wait_lca m K c 6 (credit_oA c 6) (oweD c 9 + oweF c 8) _) $$ [Kla6 HO Pla0]
  · isplitr; · (iapply (inv_at m K c (.lca (slot3 6))); iexact HR)
    isplitl [Kla6]; · iexact Kla6
    isplitl [HO]; · iexact HO
    isplitr; · (iapply (mayWait_own c (.lca (slot3 6)) rfl 9 8); iexact Hlev)
    iexact Pla0
  iintro ⟨HO, Pla0, #Rla6, OA6, CAm0⟩
  -- chunk 6: its local copy of vcast_b has landed
  -- the printed part k0_part35 is opened
  simp only [k0_part35_eq_skeleton]
  unfold k0_part35_skel
  simp only [semSignalWord, semWaitWord, Prog.lift, Prog.bind_op, Prog.bind_ret, Prog.pure_eq_ret, wp_deviceId]
  iapply (wp_wait_lcb m K c 6 (credit_oB c 6) (oweD c 9 + oweF c 8) _) $$ [Klb6 HO Plb0]
  · isplitr; · (iapply (inv_at m K c (.lcb (slot3 6))); iexact HR)
    isplitl [Klb6]; · iexact Klb6
    isplitl [HO]; · iexact HO
    isplitr; · (iapply (mayWait_own c (.lcb (slot3 6)) rfl 9 8); iexact Hlev)
    iexact Plb0
  iintro ⟨HO, Plb0, #Rlb6, OB6, CBm0⟩
  -- chunk 6: its send along x has left the slot
  iapply (wp_wait_ds m K c 6 (credit_vcaPeer c (slot3 6)) (oweD c 9 + oweF c 8) _) $$ [Kds6 HO Pds6]
  · isplitr; · (iapply (inv_at m K c (.ds 6)); iexact HR)
    isplitl [Kds6]; · iexact Kds6
    isplitl [HO]; · iexact HO
    isplitr; · (iapply (mayWait_own c (.ds 6) rfl 9 8); iexact Hlev)
    iexact Pds6
  iintro ⟨HO, Pds6, -, CAp0⟩
  -- slot 0 of both bf16 buffers is whole again
  ihave CA0 := (vca_slot_split c (slot3 6) fullShare _).2 $$ [CAm0 CAp0]
  · isplitl [CAm0]; · iexact CAm0
    iexact CAp0
  ihave CB0 := (vcb_slot_split c (slot3 6) fullShare _).2 $$ [CBm0 CBr0]
  · isplitl [CBm0]; · iexact CBm0
    iexact CBr0
  -- chunk 9, half a: staging slot 1 is loaded, cast and stored into bf16 slot 0
  iapply (wp_load_via c (slot2 9) _ _) $$ [VA1]
  · iexact VA1
  iintro VA1
  iapply (wp_load_vca c (slot3 9) _ _) $$ [CA0]
  · iexact CA0
  iintro CA0
  iapply (wp_store_vca c (slot3 9) _ _) $$ [CA0]
  · iexact CA0
  iintro CA0
  ihave CA0 := (store_vca_at m c 9 _ _ rfl) $$ [CA0]
  · iexact CA0
  -- chunk 9, half b: staging slot 1 is loaded, cast and stored into bf16 slot 0
  iapply (wp_load_vib c (slot2 9) _ _) $$ [VB1]
  · iexact VB1
  iintro VB1
  iapply (wp_load_vcb c (slot3 9) _ _) $$ [CB0]
  · iexact CB0
  iintro CB0
  iapply (wp_store_vcb c (slot3 9) _ _) $$ [CB0]
  · iexact CB0
  iintro CB0
  ihave CB0 := (store_vcb_at m c 9 _ _ rfl) $$ [CB0]
  · iexact CB0
  ihave H := (vca_slot_split c (slot3 9) fullShare _).1 $$ [CA0]
  · iexact CA0
  icases H with ⟨CAm0, CAp0⟩
  ihave H := (vcb_slot_split c (slot3 9) fullShare _).1 $$ [CB0]
  · iexact CB0
  icases H with ⟨CBm0, CBr0⟩
  -- chunk 9, half a: the device's own columns of slot 0 start for the result
  -- the printed part k0_part36 is opened
  simp only [k0_part36_eq_skeleton]
  unfold k0_part36_skel
  simp only [semSignalWord, semWaitWord, Prog.lift, Prog.bind_op, Prog.bind_ret, Prog.pure_eq_ret, wp_deviceId]
  iapply (wp_lca m K c 9 _) $$ [CAm0 OA9 Tla9]
  · isplitr; · (iapply (inv_at m K c (.lca (slot3 9))); iexact HR)
    isplitr; · iexact Rla6
    isplitl [CAm0]; · iexact CAm0
    isplitl [OA9]; · iexact OA9
    iexact Tla9
  iintro Kla9
  -- chunk 9, half b: the device's own columns of slot 0 start for the result
  iapply (wp_lcb m K c 9 _) $$ [CBm0 OB9 Tlb9]
  · isplitr; · (iapply (inv_at m K c (.lcb (slot3 9))); iexact HR)
    isplitr; · iexact Rlb6
    isplitl [CBm0]; · iexact CBm0
    isplitl [OB9]; · iexact OB9
    iexact Tlb9
  iintro Klb9
  -- chunk 9: the x-peer's columns of slot 0 are sent into its landing slot 9
  rw [show (oweD c 9 + oweF c 8 : CellTallies nD τ sig Unit) = (oweD c 10 + oweF c 8) + tallyAt (cell (px c) (.dr 9)) () Nout from by rw [oweD_peel c 9 (by decide), add_right_comm]; rfl]
  iapply (wp_send_d m K c _ (devx_eq c _ _ (k0_dev20_eq c)) 9 _ (oweD c 10 + oweF c 8) _) $$ [CAp0 LP9 HO Tds9 Tdr9]
  · isplitr; · (iapply (inv_at m K c (.ds 9)); iexact HR)
    isplitr; · (iapply (inv_at m K (px c) (.dr 9)); iexact HR)
    isplitr; · (iapply (reached0_at m K c (.ds 9)); iexact HR)
    isplitr; · (iapply (reached0_at m K (px c) (.dr 9)); iexact HR)
    isplitl [CAp0]; · iexact CAp0
    isplitl [LP9]; · iexact LP9
    isplitl [HO]; · iexact HO
    isplitl [Tds9]; · iexact Tds9
    iexact Tdr9
  iintro ⟨Kds9, HO⟩
  -- chunk 11, half a: its rows of x start for staging slot 1
  -- the printed part k0_part37 is opened
  simp only [k0_part37_eq_skeleton]
  unfold k0_part37_skel
  simp only [semSignalWord, semWaitWord, Prog.lift, Prog.bind_op, Prog.bind_ret, Prog.pure_eq_ret, wp_deviceId]
  iapply (wp_stage_a m K c 11 _) $$ [XA11 VA1 Tia11]
  · isplitr; · (iapply (inv_at m K c (.ina (slot2 11))); iexact HR)
    isplitr; · iexact Ria9
    isplitl [XA11]; · iexact XA11
    isplitl [VA1]; · iexact VA1
    iexact Tia11
  iintro Kia11
  -- chunk 11, half b: its rows of x start for staging slot 1
  iapply (wp_stage_b m K c 11 _) $$ [XB11 VB1 Tib11]
  · isplitr; · (iapply (inv_at m K c (.inb (slot2 11))); iexact HR)
    isplitr; · iexact Rib9
    isplitl [XB11]; · iexact XB11
    isplitl [VB1]; · iexact VB1
    iexact Tib11
  iintro Kib11
  -- chunk 8 of the x-peer has landed: it is copied into the result and relayed to the y-peer
  iapply (wp_wait_dr m K c 8 (credit_ldS 8) (oweD c 10 + oweF c 8) _) $$ [Cdr8 HO Pdr8]
  · isplitr; · (iapply (inv_at m K c (.dr 8)); iexact HR)
    isplitl [Cdr8]; · iexact Cdr8
    isplitl [HO]; · iexact HO
    isplitr; · (iapply (mayWait_dr c 8 10 8 (by decide) (by decide)); iexact Hlev)
    iexact Pdr8
  iintro ⟨HO, Pdr8, -, LD8⟩
  ihave H := (ld_share_split c 8 _).1 $$ [LD8]
  · iexact LD8
  icases H with ⟨LDl8, LDr8⟩
  iapply (wp_lo m K c 8 _) $$ [LDl8 OR8 Tlo8]
  · isplitr; · (iapply (inv_at m K c (.lo 8)); iexact HR)
    isplitr; · (iapply (reached0_at m K c (.lo 8)); iexact HR)
    isplitl [LDl8]; · iexact LDl8
    isplitl [OR8]; · iexact OR8
    iexact Tlo8
  iintro Klo8
  rw [show (oweD c 10 + oweF c 8 : CellTallies nD τ sig Unit) = (oweD c 10 + oweF c 9) + tallyAt (cell (py c) (.fr 8)) () Nout from by rw [oweF_peel c 8 (by decide), ← add_assoc]; rfl]
  -- the printed part k0_part38 is opened
  simp only [k0_part38_eq_skeleton]
  unfold k0_part38_skel
  simp only [semSignalWord, semWaitWord, Prog.lift, Prog.bind_op, Prog.bind_ret, Prog.pure_eq_ret, wp_deviceId]
  iapply (wp_send_f m K c _ (devy_eq c _ _ (k0_dev21_eq c)) 8 _ (oweD c 10 + oweF c 9) _) $$ [LDr8 OP8 HO Tfs8 Tfr8]
  · isplitr; · (iapply (inv_at m K c (.fs 8)); iexact HR)
    isplitr; · (iapply (inv_at m K (py c) (.fr 8)); iexact HR)
    isplitr; · (iapply (reached0_at m K c (.fs 8)); iexact HR)
    isplitr; · (iapply (reached0_at m K (py c) (.fr 8)); iexact HR)
    isplitl [LDr8]; · iexact LDr8
    isplitl [OP8]; · iexact OP8
    isplitl [HO]; · iexact HO
    isplitl [Tfs8]; · iexact Tfs8
    iexact Tfr8
  iintro ⟨Kfs8, HO⟩
  -- chunk 10, half a: its staged rows have landed in slot 0
  iapply (wp_wait_ina m K c 10 (credit_viaS (slot2 10)) (oweD c 10 + oweF c 9) _) $$ [Kia10 HO Pia0]
  · isplitr; · (iapply (inv_at m K c (.ina (slot2 10))); iexact HR)
    isplitl [Kia10]; · iexact Kia10
    isplitl [HO]; · iexact HO
    isplitr; · (iapply (mayWait_own c (.ina (slot2 10)) rfl 10 9); iexact Hlev)
    iexact Pia0
  iintro ⟨HO, Pia0, #Ria10, VA0, XA10⟩
  -- chunk 10, half b: its staged rows have landed in slot 0
  iapply (wp_wait_inb m K c 10 (credit_vibS (slot2 10)) (oweD c 10 + oweF c 9) _) $$ [Kib10 HO Pib0]
  · isplitr; · (iapply (inv_at m K c (.inb (slot2 10))); iexact HR)
    isplitl [Kib10]; · iexact Kib10
    isplitl [HO]; · iexact HO
    isplitr; · (iapply (mayWait_own c (.inb (slot2 10)) rfl 10 9); iexact Hlev)
    iexact Pib0
  iintro ⟨HO, Pib0, #Rib10, VB0, XB10⟩
  -- chunk 7: its local copy of vcast_a has landed
  iapply (wp_wait_lca m K c 7 (credit_oA c 7) (oweD c 10 + oweF c 9) _) $$ [Kla7 HO Pla1]
  · isplitr; · (iapply (inv_at m K c (.lca (slot3 7))); iexact HR)
    isplitl [Kla7]; · iexact Kla7
    isplitl [HO]; · iexact HO
    isplitr; · (iapply (mayWait_own c (.lca (slot3 7)) rfl 10 9); iexact Hlev)
    iexact Pla1
  iintro ⟨HO, Pla1, #Rla7, OA7, CAm1⟩
  -- chunk 7: its local copy of vcast_b has landed
  iapply (wp_wait_lcb m K c 7 (credit_oB c 7) (oweD c 10 + oweF c 9) _) $$ [Klb7 HO Plb1]
  · isplitr; · (iapply (inv_at m K c (.lcb (slot3 7))); iexact HR)
    isplitl [Klb7]; · iexact Klb7
    isplitl [HO]; · iexact HO
    isplitr; · (iapply (mayWait_own c (.lcb (slot3 7)) rfl 10 9); iexact Hlev)
    iexact Plb1
  iintro ⟨HO, Plb1, #Rlb7, OB7, CBm1⟩
  -- chunk 7: its send along x has left the slot
  -- the printed part k0_part39 is opened
  simp only [k0_part39_eq_skeleton]
  unfold k0_part39_skel
  simp only [semSignalWord, semWaitWord, Prog.lift, Prog.bind_op, Prog.bind_ret, Prog.pure_eq_ret, wp_deviceId]
  iapply (wp_wait_ds m K c 7 (credit_vcaPeer c (slot3 7)) (oweD c 10 + oweF c 9) _) $$ [Kds7 HO Pds7]
  · isplitr; · (iapply (inv_at m K c (.ds 7)); iexact HR)
    isplitl [Kds7]; · iexact Kds7
    isplitl [HO]; · iexact HO
    isplitr; · (iapply (mayWait_own c (.ds 7) rfl 10 9); iexact Hlev)
    iexact Pds7
  iintro ⟨HO, Pds7, -, CAp1⟩
  -- slot 1 of both bf16 buffers is whole again
  ihave CA1 := (vca_slot_split c (slot3 7) fullShare _).2 $$ [CAm1 CAp1]
  · isplitl [CAm1]; · iexact CAm1
    iexact CAp1
  ihave CB1 := (vcb_slot_split c (slot3 7) fullShare _).2 $$ [CBm1 CBr1]
  · isplitl [CBm1]; · iexact CBm1
    iexact CBr1
  -- chunk 10, half a: staging slot 0 is loaded, cast and stored into bf16 slot 1
  iapply (wp_load_via c (slot2 10) _ _) $$ [VA0]
  · iexact VA0
  iintro VA0
  iapply (wp_load_vca c (slot3 10) _ _) $$ [CA1]
  · iexact CA1
  iintro CA1
  iapply (wp_store_vca c (slot3 10) _ _) $$ [CA1]
  · iexact CA1
  iintro CA1
  ihave CA1 := (store_vca_at m c 10 _ _ rfl) $$ [CA1]
  · iexact CA1
  -- chunk 10, half b: staging slot 0 is loaded, cast and stored into bf16 slot 1
  iapply (wp_load_vib c (slot2 10) _ _) $$ [VB0]
  · iexact VB0
  iintro VB0
  iapply (wp_load_vcb c (slot3 10) _ _) $$ [CB1]
  · iexact CB1
  iintro CB1
  iapply (wp_store_vcb c (slot3 10) _ _) $$ [CB1]
  · iexact CB1
  iintro CB1
  ihave CB1 := (store_vcb_at m c 10 _ _ rfl) $$ [CB1]
  · iexact CB1
  ihave H := (vca_slot_split c (slot3 10) fullShare _).1 $$ [CA1]
  · iexact CA1
  icases H with ⟨CAm1, CAp1⟩
  ihave H := (vcb_slot_split c (slot3 10) fullShare _).1 $$ [CB1]
  · iexact CB1
  icases H with ⟨CBm1, CBr1⟩
  -- chunk 10, half a: the device's own columns of slot 1 start for the result
  -- the printed part k0_part40 is opened
  simp only [k0_part40_eq_skeleton]
  unfold k0_part40_skel
  simp only [semSignalWord, semWaitWord, Prog.lift, Prog.bind_op, Prog.bind_ret, Prog.pure_eq_ret, wp_deviceId]
  iapply (wp_lca m K c 10 _) $$ [CAm1 OA10 Tla10]
  · isplitr; · (iapply (inv_at m K c (.lca (slot3 10))); iexact HR)
    isplitr; · iexact Rla7
    isplitl [CAm1]; · iexact CAm1
    isplitl [OA10]; · iexact OA10
    iexact Tla10
  iintro Kla10
  -- chunk 10, half b: the device's own columns of slot 1 start for the result
  iapply (wp_lcb m K c 10 _) $$ [CBm1 OB10 Tlb10]
  · isplitr; · (iapply (inv_at m K c (.lcb (slot3 10))); iexact HR)
    isplitr; · iexact Rlb7
    isplitl [CBm1]; · iexact CBm1
    isplitl [OB10]; · iexact OB10
    iexact Tlb10
  iintro Klb10
  -- chunk 10: the x-peer's columns of slot 1 are sent into its landing slot 10
  rw [show (oweD c 10 + oweF c 9 : CellTallies nD τ sig Unit) = (oweD c 11 + oweF c 9) + tallyAt (cell (px c) (.dr 10)) () Nout from by rw [oweD_peel c 10 (by decide), add_right_comm]; rfl]
  iapply (wp_send_d m K c _ (devx_eq c _ _ (k0_dev22_eq c)) 10 _ (oweD c 11 + oweF c 9) _) $$ [CAp1 LP10 HO Tds10 Tdr10]
  · isplitr; · (iapply (inv_at m K c (.ds 10)); iexact HR)
    isplitr; · (iapply (inv_at m K (px c) (.dr 10)); iexact HR)
    isplitr; · (iapply (reached0_at m K c (.ds 10)); iexact HR)
    isplitr; · (iapply (reached0_at m K (px c) (.dr 10)); iexact HR)
    isplitl [CAp1]; · iexact CAp1
    isplitl [LP10]; · iexact LP10
    isplitl [HO]; · iexact HO
    isplitl [Tds10]; · iexact Tds10
    iexact Tdr10
  iintro ⟨Kds10, HO⟩
  -- chunk 12, half a: its rows of x start for staging slot 0
  iapply (wp_stage_a m K c 12 _) $$ [XA12 VA0 Tia12]
  · isplitr; · (iapply (inv_at m K c (.ina (slot2 12))); iexact HR)
    isplitr; · iexact Ria10
    isplitl [XA12]; · iexact XA12
    isplitl [VA0]; · iexact VA0
    iexact Tia12
  iintro Kia12
  -- chunk 12, half b: its rows of x start for staging slot 0
  -- the printed part k0_part41 is opened
  simp only [k0_part41_eq_skeleton]
  unfold k0_part41_skel
  simp only [semSignalWord, semWaitWord, Prog.lift, Prog.bind_op, Prog.bind_ret, Prog.pure_eq_ret, wp_deviceId]
  iapply (wp_stage_b m K c 12 _) $$ [XB12 VB0 Tib12]
  · isplitr; · (iapply (inv_at m K c (.inb (slot2 12))); iexact HR)
    isplitr; · iexact Rib10
    isplitl [XB12]; · iexact XB12
    isplitl [VB0]; · iexact VB0
    iexact Tib12
  iintro Kib12
  -- chunk 9 of the x-peer has landed: it is copied into the result and relayed to the y-peer
  iapply (wp_wait_dr m K c 9 (credit_ldS 9) (oweD c 11 + oweF c 9) _) $$ [Cdr9 HO Pdr9]
  · isplitr; · (iapply (inv_at m K c (.dr 9)); iexact HR)
    isplitl [Cdr9]; · iexact Cdr9
    isplitl [HO]; · iexact HO
    isplitr; · (iapply (mayWait_dr c 9 11 9 (by decide) (by decide)); iexact Hlev)
    iexact Pdr9
  iintro ⟨HO, Pdr9, -, LD9⟩
  ihave H := (ld_share_split c 9 _).1 $$ [LD9]
  · iexact LD9
  icases H with ⟨LDl9, LDr9⟩
  iapply (wp_lo m K c 9 _) $$ [LDl9 OR9 Tlo9]
  · isplitr; · (iapply (inv_at m K c (.lo 9)); iexact HR)
    isplitr; · (iapply (reached0_at m K c (.lo 9)); iexact HR)
    isplitl [LDl9]; · iexact LDl9
    isplitl [OR9]; · iexact OR9
    iexact Tlo9
  iintro Klo9
  rw [show (oweD c 11 + oweF c 9 : CellTallies nD τ sig Unit) = (oweD c 11 + oweF c 10) + tallyAt (cell (py c) (.fr 9)) () Nout from by rw [oweF_peel c 9 (by decide), ← add_assoc]; rfl]
  -- the printed part k0_part42 is opened
  simp only [k0_part42_eq_skeleton]
  unfold k0_part42_skel
  simp only [semSignalWord, semWaitWord, Prog.lift, Prog.bind_op, Prog.bind_ret, Prog.pure_eq_ret, wp_deviceId]
  iapply (wp_send_f m K c _ (devy_eq c _ _ (k0_dev23_eq c)) 9 _ (oweD c 11 + oweF c 10) _) $$ [LDr9 OP9 HO Tfs9 Tfr9]
  · isplitr; · (iapply (inv_at m K c (.fs 9)); iexact HR)
    isplitr; · (iapply (inv_at m K (py c) (.fr 9)); iexact HR)
    isplitr; · (iapply (reached0_at m K c (.fs 9)); iexact HR)
    isplitr; · (iapply (reached0_at m K (py c) (.fr 9)); iexact HR)
    isplitl [LDr9]; · iexact LDr9
    isplitl [OP9]; · iexact OP9
    isplitl [HO]; · iexact HO
    isplitl [Tfs9]; · iexact Tfs9
    iexact Tfr9
  iintro ⟨Kfs9, HO⟩
  -- chunk 11, half a: its staged rows have landed in slot 1
  iapply (wp_wait_ina m K c 11 (credit_viaS (slot2 11)) (oweD c 11 + oweF c 10) _) $$ [Kia11 HO Pia1]
  · isplitr; · (iapply (inv_at m K c (.ina (slot2 11))); iexact HR)
    isplitl [Kia11]; · iexact Kia11
    isplitl [HO]; · iexact HO
    isplitr; · (iapply (mayWait_own c (.ina (slot2 11)) rfl 11 10); iexact Hlev)
    iexact Pia1
  iintro ⟨HO, Pia1, #Ria11, VA1, XA11⟩
  -- chunk 11, half b: its staged rows have landed in slot 1
  iapply (wp_wait_inb m K c 11 (credit_vibS (slot2 11)) (oweD c 11 + oweF c 10) _) $$ [Kib11 HO Pib1]
  · isplitr; · (iapply (inv_at m K c (.inb (slot2 11))); iexact HR)
    isplitl [Kib11]; · iexact Kib11
    isplitl [HO]; · iexact HO
    isplitr; · (iapply (mayWait_own c (.inb (slot2 11)) rfl 11 10); iexact Hlev)
    iexact Pib1
  iintro ⟨HO, Pib1, #Rib11, VB1, XB11⟩
  -- chunk 8: its local copy of vcast_a has landed
  iapply (wp_wait_lca m K c 8 (credit_oA c 8) (oweD c 11 + oweF c 10) _) $$ [Kla8 HO Pla2]
  · isplitr; · (iapply (inv_at m K c (.lca (slot3 8))); iexact HR)
    isplitl [Kla8]; · iexact Kla8
    isplitl [HO]; · iexact HO
    isplitr; · (iapply (mayWait_own c (.lca (slot3 8)) rfl 11 10); iexact Hlev)
    iexact Pla2
  iintro ⟨HO, Pla2, #Rla8, OA8, CAm2⟩
  -- chunk 8: its local copy of vcast_b has landed
  iapply (wp_wait_lcb m K c 8 (credit_oB c 8) (oweD c 11 + oweF c 10) _) $$ [Klb8 HO Plb2]
  · isplitr; · (iapply (inv_at m K c (.lcb (slot3 8))); iexact HR)
    isplitl [Klb8]; · iexact Klb8
    isplitl [HO]; · iexact HO
    isplitr; · (iapply (mayWait_own c (.lcb (slot3 8)) rfl 11 10); iexact Hlev)
    iexact Plb2
  iintro ⟨HO, Plb2, #Rlb8, OB8, CBm2⟩
  -- chunk 8: its send along x has left the slot
  -- the printed part k0_part43 is opened
  simp only [k0_part43_eq_skeleton]
  unfold k0_part43_skel
  simp only [semSignalWord, semWaitWord, Prog.lift, Prog.bind_op, Prog.bind_ret, Prog.pure_eq_ret, wp_deviceId]
  iapply (wp_wait_ds m K c 8 (credit_vcaPeer c (slot3 8)) (oweD c 11 + oweF c 10) _) $$ [Kds8 HO Pds8]
  · isplitr; · (iapply (inv_at m K c (.ds 8)); iexact HR)
    isplitl [Kds8]; · iexact Kds8
    isplitl [HO]; · iexact HO
    isplitr; · (iapply (mayWait_own c (.ds 8) rfl 11 10); iexact Hlev)
    iexact Pds8
  iintro ⟨HO, Pds8, -, CAp2⟩
  -- slot 2 of both bf16 buffers is whole again
  ihave CA2 := (vca_slot_split c (slot3 8) fullShare _).2 $$ [CAm2 CAp2]
  · isplitl [CAm2]; · iexact CAm2
    iexact CAp2
  ihave CB2 := (vcb_slot_split c (slot3 8) fullShare _).2 $$ [CBm2 CBr2]
  · isplitl [CBm2]; · iexact CBm2
    iexact CBr2
  -- chunk 11, half a: staging slot 1 is loaded, cast and stored into bf16 slot 2
  iapply (wp_load_via c (slot2 11) _ _) $$ [VA1]
  · iexact VA1
  iintro VA1
  iapply (wp_load_vca c (slot3 11) _ _) $$ [CA2]
  · iexact CA2
  iintro CA2
  iapply (wp_store_vca c (slot3 11) _ _) $$ [CA2]
  · iexact CA2
  iintro CA2
  ihave CA2 := (store_vca_at m c 11 _ _ rfl) $$ [CA2]
  · iexact CA2
  -- chunk 11, half b: staging slot 1 is loaded, cast and stored into bf16 slot 2
  iapply (wp_load_vib c (slot2 11) _ _) $$ [VB1]
  · iexact VB1
  iintro VB1
  iapply (wp_load_vcb c (slot3 11) _ _) $$ [CB2]
  · iexact CB2
  iintro CB2
  iapply (wp_store_vcb c (slot3 11) _ _) $$ [CB2]
  · iexact CB2
  iintro CB2
  ihave CB2 := (store_vcb_at m c 11 _ _ rfl) $$ [CB2]
  · iexact CB2
  ihave H := (vca_slot_split c (slot3 11) fullShare _).1 $$ [CA2]
  · iexact CA2
  icases H with ⟨CAm2, CAp2⟩
  ihave H := (vcb_slot_split c (slot3 11) fullShare _).1 $$ [CB2]
  · iexact CB2
  icases H with ⟨CBm2, CBr2⟩
  -- chunk 11, half a: the device's own columns of slot 2 start for the result
  iapply (wp_lca m K c 11 _) $$ [CAm2 OA11 Tla11]
  · isplitr; · (iapply (inv_at m K c (.lca (slot3 11))); iexact HR)
    isplitr; · iexact Rla8
    isplitl [CAm2]; · iexact CAm2
    isplitl [OA11]; · iexact OA11
    iexact Tla11
  iintro Kla11
  -- chunk 11, half b: the device's own columns of slot 2 start for the result
  -- the printed part k0_part44 is opened
  simp only [k0_part44_eq_skeleton]
  unfold k0_part44_skel
  simp only [semSignalWord, semWaitWord, Prog.lift, Prog.bind_op, Prog.bind_ret, Prog.pure_eq_ret, wp_deviceId]
  iapply (wp_lcb m K c 11 _) $$ [CBm2 OB11 Tlb11]
  · isplitr; · (iapply (inv_at m K c (.lcb (slot3 11))); iexact HR)
    isplitr; · iexact Rlb8
    isplitl [CBm2]; · iexact CBm2
    isplitl [OB11]; · iexact OB11
    iexact Tlb11
  iintro Klb11
  -- chunk 11: the x-peer's columns of slot 2 are sent into its landing slot 11
  rw [show (oweD c 11 + oweF c 10 : CellTallies nD τ sig Unit) = (oweD c 12 + oweF c 10) + tallyAt (cell (px c) (.dr 11)) () Nout from by rw [oweD_peel c 11 (by decide), add_right_comm]; rfl]
  iapply (wp_send_d m K c _ (devx_eq c _ _ (k0_dev24_eq c)) 11 _ (oweD c 12 + oweF c 10) _) $$ [CAp2 LP11 HO Tds11 Tdr11]
  · isplitr; · (iapply (inv_at m K c (.ds 11)); iexact HR)
    isplitr; · (iapply (inv_at m K (px c) (.dr 11)); iexact HR)
    isplitr; · (iapply (reached0_at m K c (.ds 11)); iexact HR)
    isplitr; · (iapply (reached0_at m K (px c) (.dr 11)); iexact HR)
    isplitl [CAp2]; · iexact CAp2
    isplitl [LP11]; · iexact LP11
    isplitl [HO]; · iexact HO
    isplitl [Tds11]; · iexact Tds11
    iexact Tdr11
  iintro ⟨Kds11, HO⟩
  -- chunk 13, half a: its rows of x start for staging slot 1
  iapply (wp_stage_a m K c 13 _) $$ [XA13 VA1 Tia13]
  · isplitr; · (iapply (inv_at m K c (.ina (slot2 13))); iexact HR)
    isplitr; · iexact Ria11
    isplitl [XA13]; · iexact XA13
    isplitl [VA1]; · iexact VA1
    iexact Tia13
  iintro Kia13
  -- chunk 13, half b: its rows of x start for staging slot 1
  iapply (wp_stage_b m K c 13 _) $$ [XB13 VB1 Tib13]
  · isplitr; · (iapply (inv_at m K c (.inb (slot2 13))); iexact HR)
    isplitr; · iexact Rib11
    isplitl [XB13]; · iexact XB13
    isplitl [VB1]; · iexact VB1
    iexact Tib13
  iintro Kib13
  -- chunk 10 of the x-peer has landed: it is copied into the result and relayed to the y-peer
  -- the printed part k0_part45 is opened
  simp only [k0_part45_eq_skeleton]
  unfold k0_part45_skel
  simp only [semSignalWord, semWaitWord, Prog.lift, Prog.bind_op, Prog.bind_ret, Prog.pure_eq_ret, wp_deviceId]
  iapply (wp_wait_dr m K c 10 (credit_ldS 10) (oweD c 12 + oweF c 10) _) $$ [Cdr10 HO Pdr10]
  · isplitr; · (iapply (inv_at m K c (.dr 10)); iexact HR)
    isplitl [Cdr10]; · iexact Cdr10
    isplitl [HO]; · iexact HO
    isplitr; · (iapply (mayWait_dr c 10 12 10 (by decide) (by decide)); iexact Hlev)
    iexact Pdr10
  iintro ⟨HO, Pdr10, -, LD10⟩
  ihave H := (ld_share_split c 10 _).1 $$ [LD10]
  · iexact LD10
  icases H with ⟨LDl10, LDr10⟩
  iapply (wp_lo m K c 10 _) $$ [LDl10 OR10 Tlo10]
  · isplitr; · (iapply (inv_at m K c (.lo 10)); iexact HR)
    isplitr; · (iapply (reached0_at m K c (.lo 10)); iexact HR)
    isplitl [LDl10]; · iexact LDl10
    isplitl [OR10]; · iexact OR10
    iexact Tlo10
  iintro Klo10
  rw [show (oweD c 12 + oweF c 10 : CellTallies nD τ sig Unit) = (oweD c 12 + oweF c 11) + tallyAt (cell (py c) (.fr 10)) () Nout from by rw [oweF_peel c 10 (by decide), ← add_assoc]; rfl]
  iapply (wp_send_f m K c _ (devy_eq c _ _ (k0_dev25_eq c)) 10 _ (oweD c 12 + oweF c 11) _) $$ [LDr10 OP10 HO Tfs10 Tfr10]
  · isplitr; · (iapply (inv_at m K c (.fs 10)); iexact HR)
    isplitr; · (iapply (inv_at m K (py c) (.fr 10)); iexact HR)
    isplitr; · (iapply (reached0_at m K c (.fs 10)); iexact HR)
    isplitr; · (iapply (reached0_at m K (py c) (.fr 10)); iexact HR)
    isplitl [LDr10]; · iexact LDr10
    isplitl [OP10]; · iexact OP10
    isplitl [HO]; · iexact HO
    isplitl [Tfs10]; · iexact Tfs10
    iexact Tfr10
  iintro ⟨Kfs10, HO⟩
  -- chunk 12, half a: its staged rows have landed in slot 0
  -- the printed part k0_part46 is opened
  simp only [k0_part46_eq_skeleton]
  unfold k0_part46_skel
  simp only [semSignalWord, semWaitWord, Prog.lift, Prog.bind_op, Prog.bind_ret, Prog.pure_eq_ret, wp_deviceId]
  iapply (wp_wait_ina m K c 12 (credit_viaS (slot2 12)) (oweD c 12 + oweF c 11) _) $$ [Kia12 HO Pia0]
  · isplitr; · (iapply (inv_at m K c (.ina (slot2 12))); iexact HR)
    isplitl [Kia12]; · iexact Kia12
    isplitl [HO]; · iexact HO
    isplitr; · (iapply (mayWait_own c (.ina (slot2 12)) rfl 12 11); iexact Hlev)
    iexact Pia0
  iintro ⟨HO, Pia0, #Ria12, VA0, XA12⟩
  -- chunk 12, half b: its staged rows have landed in slot 0
  iapply (wp_wait_inb m K c 12 (credit_vibS (slot2 12)) (oweD c 12 + oweF c 11) _) $$ [Kib12 HO Pib0]
  · isplitr; · (iapply (inv_at m K c (.inb (slot2 12))); iexact HR)
    isplitl [Kib12]; · iexact Kib12
    isplitl [HO]; · iexact HO
    isplitr; · (iapply (mayWait_own c (.inb (slot2 12)) rfl 12 11); iexact Hlev)
    iexact Pib0
  iintro ⟨HO, Pib0, #Rib12, VB0, XB12⟩
  -- chunk 9: its local copy of vcast_a has landed
  iapply (wp_wait_lca m K c 9 (credit_oA c 9) (oweD c 12 + oweF c 11) _) $$ [Kla9 HO Pla0]
  · isplitr; · (iapply (inv_at m K c (.lca (slot3 9))); iexact HR)
    isplitl [Kla9]; · iexact Kla9
    isplitl [HO]; · iexact HO
    isplitr; · (iapply (mayWait_own c (.lca (slot3 9)) rfl 12 11); iexact Hlev)
    iexact Pla0
  iintro ⟨HO, Pla0, #Rla9, OA9, CAm0⟩
  -- chunk 9: its local copy of vcast_b has landed
  iapply (wp_wait_lcb m K c 9 (credit_oB c 9) (oweD c 12 + oweF c 11) _) $$ [Klb9 HO Plb0]
  · isplitr; · (iapply (inv_at m K c (.lcb (slot3 9))); iexact HR)
    isplitl [Klb9]; · iexact Klb9
    isplitl [HO]; · iexact HO
    isplitr; · (iapply (mayWait_own c (.lcb (slot3 9)) rfl 12 11); iexact Hlev)
    iexact Plb0
  iintro ⟨HO, Plb0, #Rlb9, OB9, CBm0⟩
  -- chunk 9: its send along x has left the slot
  iapply (wp_wait_ds m K c 9 (credit_vcaPeer c (slot3 9)) (oweD c 12 + oweF c 11) _) $$ [Kds9 HO Pds9]
  · isplitr; · (iapply (inv_at m K c (.ds 9)); iexact HR)
    isplitl [Kds9]; · iexact Kds9
    isplitl [HO]; · iexact HO
    isplitr; · (iapply (mayWait_own c (.ds 9) rfl 12 11); iexact Hlev)
    iexact Pds9
  iintro ⟨HO, Pds9, -, CAp0⟩
  -- slot 0 of both bf16 buffers is whole again
  ihave CA0 := (vca_slot_split c (slot3 9) fullShare _).2 $$ [CAm0 CAp0]
  · isplitl [CAm0]; · iexact CAm0
    iexact CAp0
  ihave CB0 := (vcb_slot_split c (slot3 9) fullShare _).2 $$ [CBm0 CBr0]
  · isplitl [CBm0]; · iexact CBm0
    iexact CBr0
  -- chunk 12, half a: staging slot 0 is loaded, cast and stored into bf16 slot 0
  iapply (wp_load_via c (slot2 12) _ _) $$ [VA0]
  · iexact VA0
  iintro VA0
  -- the printed part k0_part47 is opened
  simp only [k0_part47_eq_skeleton]
  unfold k0_part47_skel
  simp only [semSignalWord, semWaitWord, Prog.lift, Prog.bind_op, Prog.bind_ret, Prog.pure_eq_ret, wp_deviceId]
  iapply (wp_load_vca c (slot3 12) _ _) $$ [CA0]
  · iexact CA0
  iintro CA0
  iapply (wp_store_vca c (slot3 12) _ _) $$ [CA0]
  · iexact CA0
  iintro CA0
  ihave CA0 := (store_vca_at m c 12 _ _ rfl) $$ [CA0]
  · iexact CA0
  -- chunk 12, half b: staging slot 0 is loaded, cast and stored into bf16 slot 0
  iapply (wp_load_vib c (slot2 12) _ _) $$ [VB0]
  · iexact VB0
  iintro VB0
  iapply (wp_load_vcb c (slot3 12) _ _) $$ [CB0]
  · iexact CB0
  iintro CB0
  iapply (wp_store_vcb c (slot3 12) _ _) $$ [CB0]
  · iexact CB0
  iintro CB0
  ihave CB0 := (store_vcb_at m c 12 _ _ rfl) $$ [CB0]
  · iexact CB0
  ihave H := (vca_slot_split c (slot3 12) fullShare _).1 $$ [CA0]
  · iexact CA0
  icases H with ⟨CAm0, CAp0⟩
  ihave H := (vcb_slot_split c (slot3 12) fullShare _).1 $$ [CB0]
  · iexact CB0
  icases H with ⟨CBm0, CBr0⟩
  -- chunk 12, half a: the device's own columns of slot 0 start for the result
  iapply (wp_lca m K c 12 _) $$ [CAm0 OA12 Tla12]
  · isplitr; · (iapply (inv_at m K c (.lca (slot3 12))); iexact HR)
    isplitr; · iexact Rla9
    isplitl [CAm0]; · iexact CAm0
    isplitl [OA12]; · iexact OA12
    iexact Tla12
  iintro Kla12
  -- chunk 12, half b: the device's own columns of slot 0 start for the result
  iapply (wp_lcb m K c 12 _) $$ [CBm0 OB12 Tlb12]
  · isplitr; · (iapply (inv_at m K c (.lcb (slot3 12))); iexact HR)
    isplitr; · iexact Rlb9
    isplitl [CBm0]; · iexact CBm0
    isplitl [OB12]; · iexact OB12
    iexact Tlb12
  iintro Klb12
  -- chunk 12: the x-peer's columns of slot 0 are sent into its landing slot 12
  rw [show (oweD c 12 + oweF c 11 : CellTallies nD τ sig Unit) = (oweD c 13 + oweF c 11) + tallyAt (cell (px c) (.dr 12)) () Nout from by rw [oweD_peel c 12 (by decide), add_right_comm]; rfl]
  -- the printed part k0_part48 is opened
  simp only [k0_part48_eq_skeleton]
  unfold k0_part48_skel
  simp only [semSignalWord, semWaitWord, Prog.lift, Prog.bind_op, Prog.bind_ret, Prog.pure_eq_ret, wp_deviceId]
  iapply (wp_send_d m K c _ (devx_eq c _ _ (k0_dev26_eq c)) 12 _ (oweD c 13 + oweF c 11) _) $$ [CAp0 LP12 HO Tds12 Tdr12]
  · isplitr; · (iapply (inv_at m K c (.ds 12)); iexact HR)
    isplitr; · (iapply (inv_at m K (px c) (.dr 12)); iexact HR)
    isplitr; · (iapply (reached0_at m K c (.ds 12)); iexact HR)
    isplitr; · (iapply (reached0_at m K (px c) (.dr 12)); iexact HR)
    isplitl [CAp0]; · iexact CAp0
    isplitl [LP12]; · iexact LP12
    isplitl [HO]; · iexact HO
    isplitl [Tds12]; · iexact Tds12
    iexact Tdr12
  iintro ⟨Kds12, HO⟩
  -- chunk 14, half a: its rows of x start for staging slot 0
  iapply (wp_stage_a m K c 14 _) $$ [XA14 VA0 Tia14]
  · isplitr; · (iapply (inv_at m K c (.ina (slot2 14))); iexact HR)
    isplitr; · iexact Ria12
    isplitl [XA14]; · iexact XA14
    isplitl [VA0]; · iexact VA0
    iexact Tia14
  iintro Kia14
  -- chunk 14, half b: its rows of x start for staging slot 0
  iapply (wp_stage_b m K c 14 _) $$ [XB14 VB0 Tib14]
  · isplitr; · (iapply (inv_at m K c (.inb (slot2 14))); iexact HR)
    isplitr; · iexact Rib12
    isplitl [XB14]; · iexact XB14
    isplitl [VB0]; · iexact VB0
    iexact Tib14
  iintro Kib14
  -- chunk 11 of the x-peer has landed: it is copied into the result and relayed to the y-peer
  -- the printed part k0_part49 is opened
  simp only [k0_part49_eq_skeleton]
  unfold k0_part49_skel
  simp only [semSignalWord, semWaitWord, Prog.lift, Prog.bind_op, Prog.bind_ret, Prog.pure_eq_ret, wp_deviceId]
  iapply (wp_wait_dr m K c 11 (credit_ldS 11) (oweD c 13 + oweF c 11) _) $$ [Cdr11 HO Pdr11]
  · isplitr; · (iapply (inv_at m K c (.dr 11)); iexact HR)
    isplitl [Cdr11]; · iexact Cdr11
    isplitl [HO]; · iexact HO
    isplitr; · (iapply (mayWait_dr c 11 13 11 (by decide) (by decide)); iexact Hlev)
    iexact Pdr11
  iintro ⟨HO, Pdr11, -, LD11⟩
  ihave H := (ld_share_split c 11 _).1 $$ [LD11]
  · iexact LD11
  icases H with ⟨LDl11, LDr11⟩
  iapply (wp_lo m K c 11 _) $$ [LDl11 OR11 Tlo11]
  · isplitr; · (iapply (inv_at m K c (.lo 11)); iexact HR)
    isplitr; · (iapply (reached0_at m K c (.lo 11)); iexact HR)
    isplitl [LDl11]; · iexact LDl11
    isplitl [OR11]; · iexact OR11
    iexact Tlo11
  iintro Klo11
  rw [show (oweD c 13 + oweF c 11 : CellTallies nD τ sig Unit) = (oweD c 13 + oweF c 12) + tallyAt (cell (py c) (.fr 11)) () Nout from by rw [oweF_peel c 11 (by decide), ← add_assoc]; rfl]
  iapply (wp_send_f m K c _ (devy_eq c _ _ (k0_dev27_eq c)) 11 _ (oweD c 13 + oweF c 12) _) $$ [LDr11 OP11 HO Tfs11 Tfr11]
  · isplitr; · (iapply (inv_at m K c (.fs 11)); iexact HR)
    isplitr; · (iapply (inv_at m K (py c) (.fr 11)); iexact HR)
    isplitr; · (iapply (reached0_at m K c (.fs 11)); iexact HR)
    isplitr; · (iapply (reached0_at m K (py c) (.fr 11)); iexact HR)
    isplitl [LDr11]; · iexact LDr11
    isplitl [OP11]; · iexact OP11
    isplitl [HO]; · iexact HO
    isplitl [Tfs11]; · iexact Tfs11
    iexact Tfr11
  iintro ⟨Kfs11, HO⟩
  -- chunk 13, half a: its staged rows have landed in slot 1
  iapply (wp_wait_ina m K c 13 (credit_viaS (slot2 13)) (oweD c 13 + oweF c 12) _) $$ [Kia13 HO Pia1]
  · isplitr; · (iapply (inv_at m K c (.ina (slot2 13))); iexact HR)
    isplitl [Kia13]; · iexact Kia13
    isplitl [HO]; · iexact HO
    isplitr; · (iapply (mayWait_own c (.ina (slot2 13)) rfl 13 12); iexact Hlev)
    iexact Pia1
  iintro ⟨HO, Pia1, #Ria13, VA1, XA13⟩
  -- chunk 13, half b: its staged rows have landed in slot 1
  -- the printed part k0_part50 is opened
  simp only [k0_part50_eq_skeleton]
  unfold k0_part50_skel
  simp only [semSignalWord, semWaitWord, Prog.lift, Prog.bind_op, Prog.bind_ret, Prog.pure_eq_ret, wp_deviceId]
  iapply (wp_wait_inb m K c 13 (credit_vibS (slot2 13)) (oweD c 13 + oweF c 12) _) $$ [Kib13 HO Pib1]
  · isplitr; · (iapply (inv_at m K c (.inb (slot2 13))); iexact HR)
    isplitl [Kib13]; · iexact Kib13
    isplitl [HO]; · iexact HO
    isplitr; · (iapply (mayWait_own c (.inb (slot2 13)) rfl 13 12); iexact Hlev)
    iexact Pib1
  iintro ⟨HO, Pib1, #Rib13, VB1, XB13⟩
  -- chunk 10: its local copy of vcast_a has landed
  iapply (wp_wait_lca m K c 10 (credit_oA c 10) (oweD c 13 + oweF c 12) _) $$ [Kla10 HO Pla1]
  · isplitr; · (iapply (inv_at m K c (.lca (slot3 10))); iexact HR)
    isplitl [Kla10]; · iexact Kla10
    isplitl [HO]; · iexact HO
    isplitr; · (iapply (mayWait_own c (.lca (slot3 10)) rfl 13 12); iexact Hlev)
    iexact Pla1
  iintro ⟨HO, Pla1, #Rla10, OA10, CAm1⟩
  -- chunk 10: its local copy of vcast_b has landed
  iapply (wp_wait_lcb m K c 10 (credit_oB c 10) (oweD c 13 + oweF c 12) _) $$ [Klb10 HO Plb1]
  · isplitr; · (iapply (inv_at m K c (.lcb (slot3 10))); iexact HR)
    isplitl [Klb10]; · iexact Klb10
    isplitl [HO]; · iexact HO
    isplitr; · (iapply (mayWait_own c (.lcb (slot3 10)) rfl 13 12); iexact Hlev)
    iexact Plb1
  iintro ⟨HO, Plb1, #Rlb10, OB10, CBm1⟩
  -- chunk 10: its send along x has left the slot
  iapply (wp_wait_ds m K c 10 (credit_vcaPeer c (slot3 10)) (oweD c 13 + oweF c 12) _) $$ [Kds10 HO Pds10]
  · isplitr; · (iapply (inv_at m K c (.ds 10)); iexact HR)
    isplitl [Kds10]; · iexact Kds10
    isplitl [HO]; · iexact HO
    isplitr; · (iapply (mayWait_own c (.ds 10) rfl 13 12); iexact Hlev)
    iexact Pds10
  iintro ⟨HO, Pds10, -, CAp1⟩
  -- slot 1 of both bf16 buffers is whole again
  ihave CA1 := (vca_slot_split c (slot3 10) fullShare _).2 $$ [CAm1 CAp1]
  · isplitl [CAm1]; · iexact CAm1
    iexact CAp1
  ihave CB1 := (vcb_slot_split c (slot3 10) fullShare _).2 $$ [CBm1 CBr1]
  · isplitl [CBm1]; · iexact CBm1
    iexact CBr1
  -- chunk 13, half a: staging slot 1 is loaded, cast and stored into bf16 slot 1
  iapply (wp_load_via c (slot2 13) _ _) $$ [VA1]
  · iexact VA1
  iintro VA1
  iapply (wp_load_vca c (slot3 13) _ _) $$ [CA1]
  · iexact CA1
  iintro CA1
  iapply (wp_store_vca c (slot3 13) _ _) $$ [CA1]
  · iexact CA1
  iintro CA1
  ihave CA1 := (store_vca_at m c 13 _ _ rfl) $$ [CA1]
  · iexact CA1
  -- chunk 13, half b: staging slot 1 is loaded, cast and stored into bf16 slot 1
  -- the printed part k0_part51 is opened
  simp only [k0_part51_eq_skeleton]
  unfold k0_part51_skel
  simp only [semSignalWord, semWaitWord, Prog.lift, Prog.bind_op, Prog.bind_ret, Prog.pure_eq_ret, wp_deviceId]
  iapply (wp_load_vib c (slot2 13) _ _) $$ [VB1]
  · iexact VB1
  iintro VB1
  iapply (wp_load_vcb c (slot3 13) _ _) $$ [CB1]
  · iexact CB1
  iintro CB1
  iapply (wp_store_vcb c (slot3 13) _ _) $$ [CB1]
  · iexact CB1
  iintro CB1
  ihave CB1 := (store_vcb_at m c 13 _ _ rfl) $$ [CB1]
  · iexact CB1
  ihave H := (vca_slot_split c (slot3 13) fullShare _).1 $$ [CA1]
  · iexact CA1
  icases H with ⟨CAm1, CAp1⟩
  ihave H := (vcb_slot_split c (slot3 13) fullShare _).1 $$ [CB1]
  · iexact CB1
  icases H with ⟨CBm1, CBr1⟩
  -- chunk 13, half a: the device's own columns of slot 1 start for the result
  iapply (wp_lca m K c 13 _) $$ [CAm1 OA13 Tla13]
  · isplitr; · (iapply (inv_at m K c (.lca (slot3 13))); iexact HR)
    isplitr; · iexact Rla10
    isplitl [CAm1]; · iexact CAm1
    isplitl [OA13]; · iexact OA13
    iexact Tla13
  iintro Kla13
  -- chunk 13, half b: the device's own columns of slot 1 start for the result
  iapply (wp_lcb m K c 13 _) $$ [CBm1 OB13 Tlb13]
  · isplitr; · (iapply (inv_at m K c (.lcb (slot3 13))); iexact HR)
    isplitr; · iexact Rlb10
    isplitl [CBm1]; · iexact CBm1
    isplitl [OB13]; · iexact OB13
    iexact Tlb13
  iintro Klb13
  -- chunk 13: the x-peer's columns of slot 1 are sent into its landing slot 13
  rw [show (oweD c 13 + oweF c 12 : CellTallies nD τ sig Unit) = (oweD c 14 + oweF c 12) + tallyAt (cell (px c) (.dr 13)) () Nout from by rw [oweD_peel c 13 (by decide), add_right_comm]; rfl]
  -- the printed part k0_part52 is opened
  simp only [k0_part52_eq_skeleton]
  unfold k0_part52_skel
  simp only [semSignalWord, semWaitWord, Prog.lift, Prog.bind_op, Prog.bind_ret, Prog.pure_eq_ret, wp_deviceId]
  iapply (wp_send_d m K c _ (devx_eq c _ _ (k0_dev28_eq c)) 13 _ (oweD c 14 + oweF c 12) _) $$ [CAp1 LP13 HO Tds13 Tdr13]
  · isplitr; · (iapply (inv_at m K c (.ds 13)); iexact HR)
    isplitr; · (iapply (inv_at m K (px c) (.dr 13)); iexact HR)
    isplitr; · (iapply (reached0_at m K c (.ds 13)); iexact HR)
    isplitr; · (iapply (reached0_at m K (px c) (.dr 13)); iexact HR)
    isplitl [CAp1]; · iexact CAp1
    isplitl [LP13]; · iexact LP13
    isplitl [HO]; · iexact HO
    isplitl [Tds13]; · iexact Tds13
    iexact Tdr13
  iintro ⟨Kds13, HO⟩
  -- chunk 15, half a: its rows of x start for staging slot 1
  iapply (wp_stage_a m K c 15 _) $$ [XA15 VA1 Tia15]
  · isplitr; · (iapply (inv_at m K c (.ina (slot2 15))); iexact HR)
    isplitr; · iexact Ria13
    isplitl [XA15]; · iexact XA15
    isplitl [VA1]; · iexact VA1
    iexact Tia15
  iintro Kia15
  -- chunk 15, half b: its rows of x start for staging slot 1
  iapply (wp_stage_b m K c 15 _) $$ [XB15 VB1 Tib15]
  · isplitr; · (iapply (inv_at m K c (.inb (slot2 15))); iexact HR)
    isplitr; · iexact Rib13
    isplitl [XB15]; · iexact XB15
    isplitl [VB1]; · iexact VB1
    iexact Tib15
  iintro Kib15
  -- chunk 12 of the x-peer has landed: it is copied into the result and relayed to the y-peer
  iapply (wp_wait_dr m K c 12 (credit_ldS 12) (oweD c 14 + oweF c 12) _) $$ [Cdr12 HO Pdr12]
  · isplitr; · (iapply (inv_at m K c (.dr 12)); iexact HR)
    isplitl [Cdr12]; · iexact Cdr12
    isplitl [HO]; · iexact HO
    isplitr; · (iapply (mayWait_dr c 12 14 12 (by decide) (by decide)); iexact Hlev)
    iexact Pdr12
  iintro ⟨HO, Pdr12, -, LD12⟩
  ihave H := (ld_share_split c 12 _).1 $$ [LD12]
  · iexact LD12
  icases H with ⟨LDl12, LDr12⟩
  -- the printed part k0_part53 is opened
  simp only [k0_part53_eq_skeleton]
  unfold k0_part53_skel
  simp only [semSignalWord, semWaitWord, Prog.lift, Prog.bind_op, Prog.bind_ret, Prog.pure_eq_ret, wp_deviceId]
  iapply (wp_lo m K c 12 _) $$ [LDl12 OR12 Tlo12]
  · isplitr; · (iapply (inv_at m K c (.lo 12)); iexact HR)
    isplitr; · (iapply (reached0_at m K c (.lo 12)); iexact HR)
    isplitl [LDl12]; · iexact LDl12
    isplitl [OR12]; · iexact OR12
    iexact Tlo12
  iintro Klo12
  rw [show (oweD c 14 + oweF c 12 : CellTallies nD τ sig Unit) = (oweD c 14 + oweF c 13) + tallyAt (cell (py c) (.fr 12)) () Nout from by rw [oweF_peel c 12 (by decide), ← add_assoc]; rfl]
  iapply (wp_send_f m K c _ (devy_eq c _ _ (k0_dev29_eq c)) 12 _ (oweD c 14 + oweF c 13) _) $$ [LDr12 OP12 HO Tfs12 Tfr12]
  · isplitr; · (iapply (inv_at m K c (.fs 12)); iexact HR)
    isplitr; · (iapply (inv_at m K (py c) (.fr 12)); iexact HR)
    isplitr; · (iapply (reached0_at m K c (.fs 12)); iexact HR)
    isplitr; · (iapply (reached0_at m K (py c) (.fr 12)); iexact HR)
    isplitl [LDr12]; · iexact LDr12
    isplitl [OP12]; · iexact OP12
    isplitl [HO]; · iexact HO
    isplitl [Tfs12]; · iexact Tfs12
    iexact Tfr12
  iintro ⟨Kfs12, HO⟩
  -- chunk 14, half a: its staged rows have landed in slot 0
  iapply (wp_wait_ina m K c 14 (credit_viaS (slot2 14)) (oweD c 14 + oweF c 13) _) $$ [Kia14 HO Pia0]
  · isplitr; · (iapply (inv_at m K c (.ina (slot2 14))); iexact HR)
    isplitl [Kia14]; · iexact Kia14
    isplitl [HO]; · iexact HO
    isplitr; · (iapply (mayWait_own c (.ina (slot2 14)) rfl 14 13); iexact Hlev)
    iexact Pia0
  iintro ⟨HO, Pia0, #Ria14, VA0, XA14⟩
  -- chunk 14, half b: its staged rows have landed in slot 0
  -- the printed part k0_part54 is opened
  simp only [k0_part54_eq_skeleton]
  unfold k0_part54_skel
  simp only [semSignalWord, semWaitWord, Prog.lift, Prog.bind_op, Prog.bind_ret, Prog.pure_eq_ret, wp_deviceId]
  iapply (wp_wait_inb m K c 14 (credit_vibS (slot2 14)) (oweD c 14 + oweF c 13) _) $$ [Kib14 HO Pib0]
  · isplitr; · (iapply (inv_at m K c (.inb (slot2 14))); iexact HR)
    isplitl [Kib14]; · iexact Kib14
    isplitl [HO]; · iexact HO
    isplitr; · (iapply (mayWait_own c (.inb (slot2 14)) rfl 14 13); iexact Hlev)
    iexact Pib0
  iintro ⟨HO, Pib0, #Rib14, VB0, XB14⟩
  -- chunk 11: its local copy of vcast_a has landed
  iapply (wp_wait_lca m K c 11 (credit_oA c 11) (oweD c 14 + oweF c 13) _) $$ [Kla11 HO Pla2]
  · isplitr; · (iapply (inv_at m K c (.lca (slot3 11))); iexact HR)
    isplitl [Kla11]; · iexact Kla11
    isplitl [HO]; · iexact HO
    isplitr; · (iapply (mayWait_own c (.lca (slot3 11)) rfl 14 13); iexact Hlev)
    iexact Pla2
  iintro ⟨HO, Pla2, #Rla11, OA11, CAm2⟩
  -- chunk 11: its local copy of vcast_b has landed
  iapply (wp_wait_lcb m K c 11 (credit_oB c 11) (oweD c 14 + oweF c 13) _) $$ [Klb11 HO Plb2]
  · isplitr; · (iapply (inv_at m K c (.lcb (slot3 11))); iexact HR)
    isplitl [Klb11]; · iexact Klb11
    isplitl [HO]; · iexact HO
    isplitr; · (iapply (mayWait_own c (.lcb (slot3 11)) rfl 14 13); iexact Hlev)
    iexact Plb2
  iintro ⟨HO, Plb2, #Rlb11, OB11, CBm2⟩
  -- chunk 11: its send along x has left the slot
  iapply (wp_wait_ds m K c 11 (credit_vcaPeer c (slot3 11)) (oweD c 14 + oweF c 13) _) $$ [Kds11 HO Pds11]
  · isplitr; · (iapply (inv_at m K c (.ds 11)); iexact HR)
    isplitl [Kds11]; · iexact Kds11
    isplitl [HO]; · iexact HO
    isplitr; · (iapply (mayWait_own c (.ds 11) rfl 14 13); iexact Hlev)
    iexact Pds11
  iintro ⟨HO, Pds11, -, CAp2⟩
  -- slot 2 of both bf16 buffers is whole again
  ihave CA2 := (vca_slot_split c (slot3 11) fullShare _).2 $$ [CAm2 CAp2]
  · isplitl [CAm2]; · iexact CAm2
    iexact CAp2
  ihave CB2 := (vcb_slot_split c (slot3 11) fullShare _).2 $$ [CBm2 CBr2]
  · isplitl [CBm2]; · iexact CBm2
    iexact CBr2
  -- chunk 14, half a: staging slot 0 is loaded, cast and stored into bf16 slot 2
  iapply (wp_load_via c (slot2 14) _ _) $$ [VA0]
  · iexact VA0
  iintro VA0
  iapply (wp_load_vca c (slot3 14) _ _) $$ [CA2]
  · iexact CA2
  iintro CA2
  iapply (wp_store_vca c (slot3 14) _ _) $$ [CA2]
  · iexact CA2
  iintro CA2
  ihave CA2 := (store_vca_at m c 14 _ _ rfl) $$ [CA2]
  · iexact CA2
  -- chunk 14, half b: staging slot 0 is loaded, cast and stored into bf16 slot 2
  iapply (wp_load_vib c (slot2 14) _ _) $$ [VB0]
  · iexact VB0
  iintro VB0
  iapply (wp_load_vcb c (slot3 14) _ _) $$ [CB2]
  · iexact CB2
  iintro CB2
  -- the printed part k0_part55 is opened
  simp only [k0_part55_eq_skeleton]
  unfold k0_part55_skel
  simp only [semSignalWord, semWaitWord, Prog.lift, Prog.bind_op, Prog.bind_ret, Prog.pure_eq_ret, wp_deviceId]
  iapply (wp_store_vcb c (slot3 14) _ _) $$ [CB2]
  · iexact CB2
  iintro CB2
  ihave CB2 := (store_vcb_at m c 14 _ _ rfl) $$ [CB2]
  · iexact CB2
  ihave H := (vca_slot_split c (slot3 14) fullShare _).1 $$ [CA2]
  · iexact CA2
  icases H with ⟨CAm2, CAp2⟩
  ihave H := (vcb_slot_split c (slot3 14) fullShare _).1 $$ [CB2]
  · iexact CB2
  icases H with ⟨CBm2, CBr2⟩
  -- chunk 14, half a: the device's own columns of slot 2 start for the result
  iapply (wp_lca m K c 14 _) $$ [CAm2 OA14 Tla14]
  · isplitr; · (iapply (inv_at m K c (.lca (slot3 14))); iexact HR)
    isplitr; · iexact Rla11
    isplitl [CAm2]; · iexact CAm2
    isplitl [OA14]; · iexact OA14
    iexact Tla14
  iintro Kla14
  -- chunk 14, half b: the device's own columns of slot 2 start for the result
  iapply (wp_lcb m K c 14 _) $$ [CBm2 OB14 Tlb14]
  · isplitr; · (iapply (inv_at m K c (.lcb (slot3 14))); iexact HR)
    isplitr; · iexact Rlb11
    isplitl [CBm2]; · iexact CBm2
    isplitl [OB14]; · iexact OB14
    iexact Tlb14
  iintro Klb14
  -- chunk 14: the x-peer's columns of slot 2 are sent into its landing slot 14
  rw [show (oweD c 14 + oweF c 13 : CellTallies nD τ sig Unit) = (oweD c 15 + oweF c 13) + tallyAt (cell (px c) (.dr 14)) () Nout from by rw [oweD_peel c 14 (by decide), add_right_comm]; rfl]
  -- the printed part k0_part56 is opened
  simp only [k0_part56_eq_skeleton]
  unfold k0_part56_skel
  simp only [semSignalWord, semWaitWord, Prog.lift, Prog.bind_op, Prog.bind_ret, Prog.pure_eq_ret, wp_deviceId]
  iapply (wp_send_d m K c _ (devx_eq c _ _ (k0_dev30_eq c)) 14 _ (oweD c 15 + oweF c 13) _) $$ [CAp2 LP14 HO Tds14 Tdr14]
  · isplitr; · (iapply (inv_at m K c (.ds 14)); iexact HR)
    isplitr; · (iapply (inv_at m K (px c) (.dr 14)); iexact HR)
    isplitr; · (iapply (reached0_at m K c (.ds 14)); iexact HR)
    isplitr; · (iapply (reached0_at m K (px c) (.dr 14)); iexact HR)
    isplitl [CAp2]; · iexact CAp2
    isplitl [LP14]; · iexact LP14
    isplitl [HO]; · iexact HO
    isplitl [Tds14]; · iexact Tds14
    iexact Tdr14
  iintro ⟨Kds14, HO⟩
  -- chunk 16, half a: its rows of x start for staging slot 0
  iapply (wp_stage_a m K c 16 _) $$ [XA16 VA0 Tia16]
  · isplitr; · (iapply (inv_at m K c (.ina (slot2 16))); iexact HR)
    isplitr; · iexact Ria14
    isplitl [XA16]; · iexact XA16
    isplitl [VA0]; · iexact VA0
    iexact Tia16
  iintro Kia16
  -- chunk 16, half b: its rows of x start for staging slot 0
  iapply (wp_stage_b m K c 16 _) $$ [XB16 VB0 Tib16]
  · isplitr; · (iapply (inv_at m K c (.inb (slot2 16))); iexact HR)
    isplitr; · iexact Rib14
    isplitl [XB16]; · iexact XB16
    isplitl [VB0]; · iexact VB0
    iexact Tib16
  iintro Kib16
  -- chunk 13 of the x-peer has landed: it is copied into the result and relayed to the y-peer
  iapply (wp_wait_dr m K c 13 (credit_ldS 13) (oweD c 15 + oweF c 13) _) $$ [Cdr13 HO Pdr13]
  · isplitr; · (iapply (inv_at m K c (.dr 13)); iexact HR)
    isplitl [Cdr13]; · iexact Cdr13
    isplitl [HO]; · iexact HO
    isplitr; · (iapply (mayWait_dr c 13 15 13 (by decide) (by decide)); iexact Hlev)
    iexact Pdr13
  iintro ⟨HO, Pdr13, -, LD13⟩
  ihave H := (ld_share_split c 13 _).1 $$ [LD13]
  · iexact LD13
  icases H with ⟨LDl13, LDr13⟩
  -- the printed part k0_part57 is opened
  simp only [k0_part57_eq_skeleton]
  unfold k0_part57_skel
  simp only [semSignalWord, semWaitWord, Prog.lift, Prog.bind_op, Prog.bind_ret, Prog.pure_eq_ret, wp_deviceId]
  iapply (wp_lo m K c 13 _) $$ [LDl13 OR13 Tlo13]
  · isplitr; · (iapply (inv_at m K c (.lo 13)); iexact HR)
    isplitr; · (iapply (reached0_at m K c (.lo 13)); iexact HR)
    isplitl [LDl13]; · iexact LDl13
    isplitl [OR13]; · iexact OR13
    iexact Tlo13
  iintro Klo13
  rw [show (oweD c 15 + oweF c 13 : CellTallies nD τ sig Unit) = (oweD c 15 + oweF c 14) + tallyAt (cell (py c) (.fr 13)) () Nout from by rw [oweF_peel c 13 (by decide), ← add_assoc]; rfl]
  iapply (wp_send_f m K c _ (devy_eq c _ _ (k0_dev31_eq c)) 13 _ (oweD c 15 + oweF c 14) _) $$ [LDr13 OP13 HO Tfs13 Tfr13]
  · isplitr; · (iapply (inv_at m K c (.fs 13)); iexact HR)
    isplitr; · (iapply (inv_at m K (py c) (.fr 13)); iexact HR)
    isplitr; · (iapply (reached0_at m K c (.fs 13)); iexact HR)
    isplitr; · (iapply (reached0_at m K (py c) (.fr 13)); iexact HR)
    isplitl [LDr13]; · iexact LDr13
    isplitl [OP13]; · iexact OP13
    isplitl [HO]; · iexact HO
    isplitl [Tfs13]; · iexact Tfs13
    iexact Tfr13
  iintro ⟨Kfs13, HO⟩
  -- chunk 15, half a: its staged rows have landed in slot 1
  iapply (wp_wait_ina m K c 15 (credit_viaS (slot2 15)) (oweD c 15 + oweF c 14) _) $$ [Kia15 HO Pia1]
  · isplitr; · (iapply (inv_at m K c (.ina (slot2 15))); iexact HR)
    isplitl [Kia15]; · iexact Kia15
    isplitl [HO]; · iexact HO
    isplitr; · (iapply (mayWait_own c (.ina (slot2 15)) rfl 15 14); iexact Hlev)
    iexact Pia1
  iintro ⟨HO, Pia1, #Ria15, VA1, XA15⟩
  -- chunk 15, half b: its staged rows have landed in slot 1
  iapply (wp_wait_inb m K c 15 (credit_vibS (slot2 15)) (oweD c 15 + oweF c 14) _) $$ [Kib15 HO Pib1]
  · isplitr; · (iapply (inv_at m K c (.inb (slot2 15))); iexact HR)
    isplitl [Kib15]; · iexact Kib15
    isplitl [HO]; · iexact HO
    isplitr; · (iapply (mayWait_own c (.inb (slot2 15)) rfl 15 14); iexact Hlev)
    iexact Pib1
  iintro ⟨HO, Pib1, #Rib15, VB1, XB15⟩
  -- chunk 12: its local copy of vcast_a has landed
  -- the printed part k0_part58 is opened
  simp only [k0_part58_eq_skeleton]
  unfold k0_part58_skel
  simp only [semSignalWord, semWaitWord, Prog.lift, Prog.bind_op, Prog.bind_ret, Prog.pure_eq_ret, wp_deviceId]
  iapply (wp_wait_lca m K c 12 (credit_oA c 12) (oweD c 15 + oweF c 14) _) $$ [Kla12 HO Pla0]
  · isplitr; · (iapply (inv_at m K c (.lca (slot3 12))); iexact HR)
    isplitl [Kla12]; · iexact Kla12
    isplitl [HO]; · iexact HO
    isplitr; · (iapply (mayWait_own c (.lca (slot3 12)) rfl 15 14); iexact Hlev)
    iexact Pla0
  iintro ⟨HO, Pla0, #Rla12, OA12, CAm0⟩
  -- chunk 12: its local copy of vcast_b has landed
  iapply (wp_wait_lcb m K c 12 (credit_oB c 12) (oweD c 15 + oweF c 14) _) $$ [Klb12 HO Plb0]
  · isplitr; · (iapply (inv_at m K c (.lcb (slot3 12))); iexact HR)
    isplitl [Klb12]; · iexact Klb12
    isplitl [HO]; · iexact HO
    isplitr; · (iapply (mayWait_own c (.lcb (slot3 12)) rfl 15 14); iexact Hlev)
    iexact Plb0
  iintro ⟨HO, Plb0, #Rlb12, OB12, CBm0⟩
  -- chunk 12: its send along x has left the slot
  iapply (wp_wait_ds m K c 12 (credit_vcaPeer c (slot3 12)) (oweD c 15 + oweF c 14) _) $$ [Kds12 HO Pds12]
  · isplitr; · (iapply (inv_at m K c (.ds 12)); iexact HR)
    isplitl [Kds12]; · iexact Kds12
    isplitl [HO]; · iexact HO
    isplitr; · (iapply (mayWait_own c (.ds 12) rfl 15 14); iexact Hlev)
    iexact Pds12
  iintro ⟨HO, Pds12, -, CAp0⟩
  -- slot 0 of both bf16 buffers is whole again
  ihave CA0 := (vca_slot_split c (slot3 12) fullShare _).2 $$ [CAm0 CAp0]
  · isplitl [CAm0]; · iexact CAm0
    iexact CAp0
  ihave CB0 := (vcb_slot_split c (slot3 12) fullShare _).2 $$ [CBm0 CBr0]
  · isplitl [CBm0]; · iexact CBm0
    iexact CBr0
  -- chunk 15, half a: staging slot 1 is loaded, cast and stored into bf16 slot 0
  iapply (wp_load_via c (slot2 15) _ _) $$ [VA1]
  · iexact VA1
  iintro VA1
  iapply (wp_load_vca c (slot3 15) _ _) $$ [CA0]
  · iexact CA0
  iintro CA0
  iapply (wp_store_vca c (slot3 15) _ _) $$ [CA0]
  · iexact CA0
  iintro CA0
  ihave CA0 := (store_vca_at m c 15 _ _ rfl) $$ [CA0]
  · iexact CA0
  -- chunk 15, half b: staging slot 1 is loaded, cast and stored into bf16 slot 0
  iapply (wp_load_vib c (slot2 15) _ _) $$ [VB1]
  · iexact VB1
  iintro VB1
  iapply (wp_load_vcb c (slot3 15) _ _) $$ [CB0]
  · iexact CB0
  iintro CB0
  iapply (wp_store_vcb c (slot3 15) _ _) $$ [CB0]
  · iexact CB0
  iintro CB0
  ihave CB0 := (store_vcb_at m c 15 _ _ rfl) $$ [CB0]
  · iexact CB0
  ihave H := (vca_slot_split c (slot3 15) fullShare _).1 $$ [CA0]
  · iexact CA0
  icases H with ⟨CAm0, CAp0⟩
  ihave H := (vcb_slot_split c (slot3 15) fullShare _).1 $$ [CB0]
  · iexact CB0
  icases H with ⟨CBm0, CBr0⟩
  -- chunk 15, half a: the device's own columns of slot 0 start for the result
  -- the printed part k0_part59 is opened
  simp only [k0_part59_eq_skeleton]
  unfold k0_part59_skel
  simp only [semSignalWord, semWaitWord, Prog.lift, Prog.bind_op, Prog.bind_ret, Prog.pure_eq_ret, wp_deviceId]
  iapply (wp_lca m K c 15 _) $$ [CAm0 OA15 Tla15]
  · isplitr; · (iapply (inv_at m K c (.lca (slot3 15))); iexact HR)
    isplitr; · iexact Rla12
    isplitl [CAm0]; · iexact CAm0
    isplitl [OA15]; · iexact OA15
    iexact Tla15
  iintro Kla15
  -- chunk 15, half b: the device's own columns of slot 0 start for the result
  iapply (wp_lcb m K c 15 _) $$ [CBm0 OB15 Tlb15]
  · isplitr; · (iapply (inv_at m K c (.lcb (slot3 15))); iexact HR)
    isplitr; · iexact Rlb12
    isplitl [CBm0]; · iexact CBm0
    isplitl [OB15]; · iexact OB15
    iexact Tlb15
  iintro Klb15
  -- chunk 15: the x-peer's columns of slot 0 are sent into its landing slot 15
  rw [show (oweD c 15 + oweF c 14 : CellTallies nD τ sig Unit) = (oweD c 16 + oweF c 14) + tallyAt (cell (px c) (.dr 15)) () Nout from by rw [oweD_peel c 15 (by decide), add_right_comm]; rfl]
  iapply (wp_send_d m K c _ (devx_eq c _ _ (k0_dev32_eq c)) 15 _ (oweD c 16 + oweF c 14) _) $$ [CAp0 LP15 HO Tds15 Tdr15]
  · isplitr; · (iapply (inv_at m K c (.ds 15)); iexact HR)
    isplitr; · (iapply (inv_at m K (px c) (.dr 15)); iexact HR)
    isplitr; · (iapply (reached0_at m K c (.ds 15)); iexact HR)
    isplitr; · (iapply (reached0_at m K (px c) (.dr 15)); iexact HR)
    isplitl [CAp0]; · iexact CAp0
    isplitl [LP15]; · iexact LP15
    isplitl [HO]; · iexact HO
    isplitl [Tds15]; · iexact Tds15
    iexact Tdr15
  iintro ⟨Kds15, HO⟩
  -- chunk 17, half a: its rows of x start for staging slot 1
  -- the printed part k0_part60 is opened
  simp only [k0_part60_eq_skeleton]
  unfold k0_part60_skel
  simp only [semSignalWord, semWaitWord, Prog.lift, Prog.bind_op, Prog.bind_ret, Prog.pure_eq_ret, wp_deviceId]
  iapply (wp_stage_a m K c 17 _) $$ [XA17 VA1 Tia17]
  · isplitr; · (iapply (inv_at m K c (.ina (slot2 17))); iexact HR)
    isplitr; · iexact Ria15
    isplitl [XA17]; · iexact XA17
    isplitl [VA1]; · iexact VA1
    iexact Tia17
  iintro Kia17
  -- chunk 17, half b: its rows of x start for staging slot 1
  iapply (wp_stage_b m K c 17 _) $$ [XB17 VB1 Tib17]
  · isplitr; · (iapply (inv_at m K c (.inb (slot2 17))); iexact HR)
    isplitr; · iexact Rib15
    isplitl [XB17]; · iexact XB17
    isplitl [VB1]; · iexact VB1
    iexact Tib17
  iintro Kib17
  -- chunk 14 of the x-peer has landed: it is copied into the result and relayed to the y-peer
  iapply (wp_wait_dr m K c 14 (credit_ldS 14) (oweD c 16 + oweF c 14) _) $$ [Cdr14 HO Pdr14]
  · isplitr; · (iapply (inv_at m K c (.dr 14)); iexact HR)
    isplitl [Cdr14]; · iexact Cdr14
    isplitl [HO]; · iexact HO
    isplitr; · (iapply (mayWait_dr c 14 16 14 (by decide) (by decide)); iexact Hlev)
    iexact Pdr14
  iintro ⟨HO, Pdr14, -, LD14⟩
  ihave H := (ld_share_split c 14 _).1 $$ [LD14]
  · iexact LD14
  icases H with ⟨LDl14, LDr14⟩
  iapply (wp_lo m K c 14 _) $$ [LDl14 OR14 Tlo14]
  · isplitr; · (iapply (inv_at m K c (.lo 14)); iexact HR)
    isplitr; · (iapply (reached0_at m K c (.lo 14)); iexact HR)
    isplitl [LDl14]; · iexact LDl14
    isplitl [OR14]; · iexact OR14
    iexact Tlo14
  iintro Klo14
  rw [show (oweD c 16 + oweF c 14 : CellTallies nD τ sig Unit) = (oweD c 16 + oweF c 15) + tallyAt (cell (py c) (.fr 14)) () Nout from by rw [oweF_peel c 14 (by decide), ← add_assoc]; rfl]
  -- the printed part k0_part148 is opened
  simp only [k0_part148_eq_skeleton]
  unfold k0_part148_skel
  simp only [semSignalWord, semWaitWord, Prog.lift, Prog.bind_op, Prog.bind_ret, Prog.pure_eq_ret, wp_deviceId]
  -- the printed part k0_part61 is opened
  simp only [k0_part61_eq_skeleton]
  unfold k0_part61_skel
  simp only [semSignalWord, semWaitWord, Prog.lift, Prog.bind_op, Prog.bind_ret, Prog.pure_eq_ret, wp_deviceId]
  iapply (wp_send_f m K c _ (devy_eq c _ _ (k0_dev33_eq c)) 14 _ (oweD c 16 + oweF c 15) _) $$ [LDr14 OP14 HO Tfs14 Tfr14]
  · isplitr; · (iapply (inv_at m K c (.fs 14)); iexact HR)
    isplitr; · (iapply (inv_at m K (py c) (.fr 14)); iexact HR)
    isplitr; · (iapply (reached0_at m K c (.fs 14)); iexact HR)
    isplitr; · (iapply (reached0_at m K (py c) (.fr 14)); iexact HR)
    isplitl [LDr14]; · iexact LDr14
    isplitl [OP14]; · iexact OP14
    isplitl [HO]; · iexact HO
    isplitl [Tfs14]; · iexact Tfs14
    iexact Tfr14
  iintro ⟨Kfs14, HO⟩
  -- chunk 16, half a: its staged rows have landed in slot 0
  iapply (wp_wait_ina m K c 16 (credit_viaS (slot2 16)) (oweD c 16 + oweF c 15) _) $$ [Kia16 HO Pia0]
  · isplitr; · (iapply (inv_at m K c (.ina (slot2 16))); iexact HR)
    isplitl [Kia16]; · iexact Kia16
    isplitl [HO]; · iexact HO
    isplitr; · (iapply (mayWait_own c (.ina (slot2 16)) rfl 16 15); iexact Hlev)
    iexact Pia0
  iintro ⟨HO, Pia0, #Ria16, VA0, XA16⟩
  -- chunk 16, half b: its staged rows have landed in slot 0
  iapply (wp_wait_inb m K c 16 (credit_vibS (slot2 16)) (oweD c 16 + oweF c 15) _) $$ [Kib16 HO Pib0]
  · isplitr; · (iapply (inv_at m K c (.inb (slot2 16))); iexact HR)
    isplitl [Kib16]; · iexact Kib16
    isplitl [HO]; · iexact HO
    isplitr; · (iapply (mayWait_own c (.inb (slot2 16)) rfl 16 15); iexact Hlev)
    iexact Pib0
  iintro ⟨HO, Pib0, #Rib16, VB0, XB16⟩
  -- chunk 13: its local copy of vcast_a has landed
  iapply (wp_wait_lca m K c 13 (credit_oA c 13) (oweD c 16 + oweF c 15) _) $$ [Kla13 HO Pla1]
  · isplitr; · (iapply (inv_at m K c (.lca (slot3 13))); iexact HR)
    isplitl [Kla13]; · iexact Kla13
    isplitl [HO]; · iexact HO
    isplitr; · (iapply (mayWait_own c (.lca (slot3 13)) rfl 16 15); iexact Hlev)
    iexact Pla1
  iintro ⟨HO, Pla1, #Rla13, OA13, CAm1⟩
  -- chunk 13: its local copy of vcast_b has landed
  -- the printed part k0_part62 is opened
  simp only [k0_part62_eq_skeleton]
  unfold k0_part62_skel
  simp only [semSignalWord, semWaitWord, Prog.lift, Prog.bind_op, Prog.bind_ret, Prog.pure_eq_ret, wp_deviceId]
  iapply (wp_wait_lcb m K c 13 (credit_oB c 13) (oweD c 16 + oweF c 15) _) $$ [Klb13 HO Plb1]
  · isplitr; · (iapply (inv_at m K c (.lcb (slot3 13))); iexact HR)
    isplitl [Klb13]; · iexact Klb13
    isplitl [HO]; · iexact HO
    isplitr; · (iapply (mayWait_own c (.lcb (slot3 13)) rfl 16 15); iexact Hlev)
    iexact Plb1
  iintro ⟨HO, Plb1, #Rlb13, OB13, CBm1⟩
  -- chunk 13: its send along x has left the slot
  iapply (wp_wait_ds m K c 13 (credit_vcaPeer c (slot3 13)) (oweD c 16 + oweF c 15) _) $$ [Kds13 HO Pds13]
  · isplitr; · (iapply (inv_at m K c (.ds 13)); iexact HR)
    isplitl [Kds13]; · iexact Kds13
    isplitl [HO]; · iexact HO
    isplitr; · (iapply (mayWait_own c (.ds 13) rfl 16 15); iexact Hlev)
    iexact Pds13
  iintro ⟨HO, Pds13, -, CAp1⟩
  -- slot 1 of both bf16 buffers is whole again
  ihave CA1 := (vca_slot_split c (slot3 13) fullShare _).2 $$ [CAm1 CAp1]
  · isplitl [CAm1]; · iexact CAm1
    iexact CAp1
  ihave CB1 := (vcb_slot_split c (slot3 13) fullShare _).2 $$ [CBm1 CBr1]
  · isplitl [CBm1]; · iexact CBm1
    iexact CBr1
  -- chunk 16, half a: staging slot 0 is loaded, cast and stored into bf16 slot 1
  iapply (wp_load_via c (slot2 16) _ _) $$ [VA0]
  · iexact VA0
  iintro VA0
  iapply (wp_load_vca c (slot3 16) _ _) $$ [CA1]
  · iexact CA1
  iintro CA1
  iapply (wp_store_vca c (slot3 16) _ _) $$ [CA1]
  · iexact CA1
  iintro CA1
  ihave CA1 := (store_vca_at m c 16 _ _ rfl) $$ [CA1]
  · iexact CA1
  -- chunk 16, half b: staging slot 0 is loaded, cast and stored into bf16 slot 1
  iapply (wp_load_vib c (slot2 16) _ _) $$ [VB0]
  · iexact VB0
  iintro VB0
  iapply (wp_load_vcb c (slot3 16) _ _) $$ [CB1]
  · iexact CB1
  iintro CB1
  iapply (wp_store_vcb c (slot3 16) _ _) $$ [CB1]
  · iexact CB1
  iintro CB1
  ihave CB1 := (store_vcb_at m c 16 _ _ rfl) $$ [CB1]
  · iexact CB1
  ihave H := (vca_slot_split c (slot3 16) fullShare _).1 $$ [CA1]
  · iexact CA1
  icases H with ⟨CAm1, CAp1⟩
  ihave H := (vcb_slot_split c (slot3 16) fullShare _).1 $$ [CB1]
  · iexact CB1
  icases H with ⟨CBm1, CBr1⟩
  -- chunk 16, half a: the device's own columns of slot 1 start for the result
  -- the printed part k0_part63 is opened
  simp only [k0_part63_eq_skeleton]
  unfold k0_part63_skel
  simp only [semSignalWord, semWaitWord, Prog.lift, Prog.bind_op, Prog.bind_ret, Prog.pure_eq_ret, wp_deviceId]
  iapply (wp_lca m K c 16 _) $$ [CAm1 OA16 Tla16]
  · isplitr; · (iapply (inv_at m K c (.lca (slot3 16))); iexact HR)
    isplitr; · iexact Rla13
    isplitl [CAm1]; · iexact CAm1
    isplitl [OA16]; · iexact OA16
    iexact Tla16
  iintro Kla16
  -- chunk 16, half b: the device's own columns of slot 1 start for the result
  iapply (wp_lcb m K c 16 _) $$ [CBm1 OB16 Tlb16]
  · isplitr; · (iapply (inv_at m K c (.lcb (slot3 16))); iexact HR)
    isplitr; · iexact Rlb13
    isplitl [CBm1]; · iexact CBm1
    isplitl [OB16]; · iexact OB16
    iexact Tlb16
  iintro Klb16
  -- chunk 16: the x-peer's columns of slot 1 are sent into its landing slot 16
  rw [show (oweD c 16 + oweF c 15 : CellTallies nD τ sig Unit) = (oweD c 17 + oweF c 15) + tallyAt (cell (px c) (.dr 16)) () Nout from by rw [oweD_peel c 16 (by decide), add_right_comm]; rfl]
  iapply (wp_send_d m K c _ (devx_eq c _ _ (k0_dev34_eq c)) 16 _ (oweD c 17 + oweF c 15) _) $$ [CAp1 LP16 HO Tds16 Tdr16]
  · isplitr; · (iapply (inv_at m K c (.ds 16)); iexact HR)
    isplitr; · (iapply (inv_at m K (px c) (.dr 16)); iexact HR)
    isplitr; · (iapply (reached0_at m K c (.ds 16)); iexact HR)
    isplitr; · (iapply (reached0_at m K (px c) (.dr 16)); iexact HR)
    isplitl [CAp1]; · iexact CAp1
    isplitl [LP16]; · iexact LP16
    isplitl [HO]; · iexact HO
    isplitl [Tds16]; · iexact Tds16
    iexact Tdr16
  iintro ⟨Kds16, HO⟩
  -- chunk 18, half a: its rows of x start for staging slot 0
  iapply (wp_stage_a m K c 18 _) $$ [XA18 VA0 Tia18]
  · isplitr; · (iapply (inv_at m K c (.ina (slot2 18))); iexact HR)
    isplitr; · iexact Ria16
    isplitl [XA18]; · iexact XA18
    isplitl [VA0]; · iexact VA0
    iexact Tia18
  iintro Kia18
  -- chunk 18, half b: its rows of x start for staging slot 0
  -- the printed part k0_part64 is opened
  simp only [k0_part64_eq_skeleton]
  unfold k0_part64_skel
  simp only [semSignalWord, semWaitWord, Prog.lift, Prog.bind_op, Prog.bind_ret, Prog.pure_eq_ret, wp_deviceId]
  iapply (wp_stage_b m K c 18 _) $$ [XB18 VB0 Tib18]
  · isplitr; · (iapply (inv_at m K c (.inb (slot2 18))); iexact HR)
    isplitr; · iexact Rib16
    isplitl [XB18]; · iexact XB18
    isplitl [VB0]; · iexact VB0
    iexact Tib18
  iintro Kib18
  -- chunk 15 of the x-peer has landed: it is copied into the result and relayed to the y-peer
  iapply (wp_wait_dr m K c 15 (credit_ldS 15) (oweD c 17 + oweF c 15) _) $$ [Cdr15 HO Pdr15]
  · isplitr; · (iapply (inv_at m K c (.dr 15)); iexact HR)
    isplitl [Cdr15]; · iexact Cdr15
    isplitl [HO]; · iexact HO
    isplitr; · (iapply (mayWait_dr c 15 17 15 (by decide) (by decide)); iexact Hlev)
    iexact Pdr15
  iintro ⟨HO, Pdr15, -, LD15⟩
  ihave H := (ld_share_split c 15 _).1 $$ [LD15]
  · iexact LD15
  icases H with ⟨LDl15, LDr15⟩
  iapply (wp_lo m K c 15 _) $$ [LDl15 OR15 Tlo15]
  · isplitr; · (iapply (inv_at m K c (.lo 15)); iexact HR)
    isplitr; · (iapply (reached0_at m K c (.lo 15)); iexact HR)
    isplitl [LDl15]; · iexact LDl15
    isplitl [OR15]; · iexact OR15
    iexact Tlo15
  iintro Klo15
  rw [show (oweD c 17 + oweF c 15 : CellTallies nD τ sig Unit) = (oweD c 17 + oweF c 16) + tallyAt (cell (py c) (.fr 15)) () Nout from by rw [oweF_peel c 15 (by decide), ← add_assoc]; rfl]
  -- the printed part k0_part65 is opened
  simp only [k0_part65_eq_skeleton]
  unfold k0_part65_skel
  simp only [semSignalWord, semWaitWord, Prog.lift, Prog.bind_op, Prog.bind_ret, Prog.pure_eq_ret, wp_deviceId]
  iapply (wp_send_f m K c _ (devy_eq c _ _ (k0_dev35_eq c)) 15 _ (oweD c 17 + oweF c 16) _) $$ [LDr15 OP15 HO Tfs15 Tfr15]
  · isplitr; · (iapply (inv_at m K c (.fs 15)); iexact HR)
    isplitr; · (iapply (inv_at m K (py c) (.fr 15)); iexact HR)
    isplitr; · (iapply (reached0_at m K c (.fs 15)); iexact HR)
    isplitr; · (iapply (reached0_at m K (py c) (.fr 15)); iexact HR)
    isplitl [LDr15]; · iexact LDr15
    isplitl [OP15]; · iexact OP15
    isplitl [HO]; · iexact HO
    isplitl [Tfs15]; · iexact Tfs15
    iexact Tfr15
  iintro ⟨Kfs15, HO⟩
  -- chunk 17, half a: its staged rows have landed in slot 1
  iapply (wp_wait_ina m K c 17 (credit_viaS (slot2 17)) (oweD c 17 + oweF c 16) _) $$ [Kia17 HO Pia1]
  · isplitr; · (iapply (inv_at m K c (.ina (slot2 17))); iexact HR)
    isplitl [Kia17]; · iexact Kia17
    isplitl [HO]; · iexact HO
    isplitr; · (iapply (mayWait_own c (.ina (slot2 17)) rfl 17 16); iexact Hlev)
    iexact Pia1
  iintro ⟨HO, Pia1, #Ria17, VA1, XA17⟩
  -- chunk 17, half b: its staged rows have landed in slot 1
  iapply (wp_wait_inb m K c 17 (credit_vibS (slot2 17)) (oweD c 17 + oweF c 16) _) $$ [Kib17 HO Pib1]
  · isplitr; · (iapply (inv_at m K c (.inb (slot2 17))); iexact HR)
    isplitl [Kib17]; · iexact Kib17
    isplitl [HO]; · iexact HO
    isplitr; · (iapply (mayWait_own c (.inb (slot2 17)) rfl 17 16); iexact Hlev)
    iexact Pib1
  iintro ⟨HO, Pib1, #Rib17, VB1, XB17⟩
  -- chunk 14: its local copy of vcast_a has landed
  iapply (wp_wait_lca m K c 14 (credit_oA c 14) (oweD c 17 + oweF c 16) _) $$ [Kla14 HO Pla2]
  · isplitr; · (iapply (inv_at m K c (.lca (slot3 14))); iexact HR)
    isplitl [Kla14]; · iexact Kla14
    isplitl [HO]; · iexact HO
    isplitr; · (iapply (mayWait_own c (.lca (slot3 14)) rfl 17 16); iexact Hlev)
    iexact Pla2
  iintro ⟨HO, Pla2, #Rla14, OA14, CAm2⟩
  -- chunk 14: its local copy of vcast_b has landed
  iapply (wp_wait_lcb m K c 14 (credit_oB c 14) (oweD c 17 + oweF c 16) _) $$ [Klb14 HO Plb2]
  · isplitr; · (iapply (inv_at m K c (.lcb (slot3 14))); iexact HR)
    isplitl [Klb14]; · iexact Klb14
    isplitl [HO]; · iexact HO
    isplitr; · (iapply (mayWait_own c (.lcb (slot3 14)) rfl 17 16); iexact Hlev)
    iexact Plb2
  iintro ⟨HO, Plb2, #Rlb14, OB14, CBm2⟩
  -- chunk 14: its send along x has left the slot
  -- the printed part k0_part66 is opened
  simp only [k0_part66_eq_skeleton]
  unfold k0_part66_skel
  simp only [semSignalWord, semWaitWord, Prog.lift, Prog.bind_op, Prog.bind_ret, Prog.pure_eq_ret, wp_deviceId]
  iapply (wp_wait_ds m K c 14 (credit_vcaPeer c (slot3 14)) (oweD c 17 + oweF c 16) _) $$ [Kds14 HO Pds14]
  · isplitr; · (iapply (inv_at m K c (.ds 14)); iexact HR)
    isplitl [Kds14]; · iexact Kds14
    isplitl [HO]; · iexact HO
    isplitr; · (iapply (mayWait_own c (.ds 14) rfl 17 16); iexact Hlev)
    iexact Pds14
  iintro ⟨HO, Pds14, -, CAp2⟩
  -- slot 2 of both bf16 buffers is whole again
  ihave CA2 := (vca_slot_split c (slot3 14) fullShare _).2 $$ [CAm2 CAp2]
  · isplitl [CAm2]; · iexact CAm2
    iexact CAp2
  ihave CB2 := (vcb_slot_split c (slot3 14) fullShare _).2 $$ [CBm2 CBr2]
  · isplitl [CBm2]; · iexact CBm2
    iexact CBr2
  -- chunk 17, half a: staging slot 1 is loaded, cast and stored into bf16 slot 2
  iapply (wp_load_via c (slot2 17) _ _) $$ [VA1]
  · iexact VA1
  iintro VA1
  iapply (wp_load_vca c (slot3 17) _ _) $$ [CA2]
  · iexact CA2
  iintro CA2
  iapply (wp_store_vca c (slot3 17) _ _) $$ [CA2]
  · iexact CA2
  iintro CA2
  ihave CA2 := (store_vca_at m c 17 _ _ rfl) $$ [CA2]
  · iexact CA2
  -- chunk 17, half b: staging slot 1 is loaded, cast and stored into bf16 slot 2
  iapply (wp_load_vib c (slot2 17) _ _) $$ [VB1]
  · iexact VB1
  iintro VB1
  iapply (wp_load_vcb c (slot3 17) _ _) $$ [CB2]
  · iexact CB2
  iintro CB2
  iapply (wp_store_vcb c (slot3 17) _ _) $$ [CB2]
  · iexact CB2
  iintro CB2
  ihave CB2 := (store_vcb_at m c 17 _ _ rfl) $$ [CB2]
  · iexact CB2
  ihave H := (vca_slot_split c (slot3 17) fullShare _).1 $$ [CA2]
  · iexact CA2
  icases H with ⟨CAm2, CAp2⟩
  ihave H := (vcb_slot_split c (slot3 17) fullShare _).1 $$ [CB2]
  · iexact CB2
  icases H with ⟨CBm2, CBr2⟩
  -- chunk 17, half a: the device's own columns of slot 2 start for the result
  iapply (wp_lca m K c 17 _) $$ [CAm2 OA17 Tla17]
  · isplitr; · (iapply (inv_at m K c (.lca (slot3 17))); iexact HR)
    isplitr; · iexact Rla14
    isplitl [CAm2]; · iexact CAm2
    isplitl [OA17]; · iexact OA17
    iexact Tla17
  iintro Kla17
  -- chunk 17, half b: the device's own columns of slot 2 start for the result
  -- the printed part k0_part67 is opened
  simp only [k0_part67_eq_skeleton]
  unfold k0_part67_skel
  simp only [semSignalWord, semWaitWord, Prog.lift, Prog.bind_op, Prog.bind_ret, Prog.pure_eq_ret, wp_deviceId]
  iapply (wp_lcb m K c 17 _) $$ [CBm2 OB17 Tlb17]
  · isplitr; · (iapply (inv_at m K c (.lcb (slot3 17))); iexact HR)
    isplitr; · iexact Rlb14
    isplitl [CBm2]; · iexact CBm2
    isplitl [OB17]; · iexact OB17
    iexact Tlb17
  iintro Klb17
  -- chunk 17: the x-peer's columns of slot 2 are sent into its landing slot 17
  rw [show (oweD c 17 + oweF c 16 : CellTallies nD τ sig Unit) = (oweD c 18 + oweF c 16) + tallyAt (cell (px c) (.dr 17)) () Nout from by rw [oweD_peel c 17 (by decide), add_right_comm]; rfl]
  iapply (wp_send_d m K c _ (devx_eq c _ _ (k0_dev36_eq c)) 17 _ (oweD c 18 + oweF c 16) _) $$ [CAp2 LP17 HO Tds17 Tdr17]
  · isplitr; · (iapply (inv_at m K c (.ds 17)); iexact HR)
    isplitr; · (iapply (inv_at m K (px c) (.dr 17)); iexact HR)
    isplitr; · (iapply (reached0_at m K c (.ds 17)); iexact HR)
    isplitr; · (iapply (reached0_at m K (px c) (.dr 17)); iexact HR)
    isplitl [CAp2]; · iexact CAp2
    isplitl [LP17]; · iexact LP17
    isplitl [HO]; · iexact HO
    isplitl [Tds17]; · iexact Tds17
    iexact Tdr17
  iintro ⟨Kds17, HO⟩
  -- chunk 19, half a: its rows of x start for staging slot 1
  iapply (wp_stage_a m K c 19 _) $$ [XA19 VA1 Tia19]
  · isplitr; · (iapply (inv_at m K c (.ina (slot2 19))); iexact HR)
    isplitr; · iexact Ria17
    isplitl [XA19]; · iexact XA19
    isplitl [VA1]; · iexact VA1
    iexact Tia19
  iintro Kia19
  -- chunk 19, half b: its rows of x start for staging slot 1
  iapply (wp_stage_b m K c 19 _) $$ [XB19 VB1 Tib19]
  · isplitr; · (iapply (inv_at m K c (.inb (slot2 19))); iexact HR)
    isplitr; · iexact Rib17
    isplitl [XB19]; · iexact XB19
    isplitl [VB1]; · iexact VB1
    iexact Tib19
  iintro Kib19
  -- chunk 16 of the x-peer has landed: it is copied into the result and relayed to the y-peer
  -- the printed part k0_part68 is opened
  simp only [k0_part68_eq_skeleton]
  unfold k0_part68_skel
  simp only [semSignalWord, semWaitWord, Prog.lift, Prog.bind_op, Prog.bind_ret, Prog.pure_eq_ret, wp_deviceId]
  iapply (wp_wait_dr m K c 16 (credit_ldS 16) (oweD c 18 + oweF c 16) _) $$ [Cdr16 HO Pdr16]
  · isplitr; · (iapply (inv_at m K c (.dr 16)); iexact HR)
    isplitl [Cdr16]; · iexact Cdr16
    isplitl [HO]; · iexact HO
    isplitr; · (iapply (mayWait_dr c 16 18 16 (by decide) (by decide)); iexact Hlev)
    iexact Pdr16
  iintro ⟨HO, Pdr16, -, LD16⟩
  ihave H := (ld_share_split c 16 _).1 $$ [LD16]
  · iexact LD16
  icases H with ⟨LDl16, LDr16⟩
  iapply (wp_lo m K c 16 _) $$ [LDl16 OR16 Tlo16]
  · isplitr; · (iapply (inv_at m K c (.lo 16)); iexact HR)
    isplitr; · (iapply (reached0_at m K c (.lo 16)); iexact HR)
    isplitl [LDl16]; · iexact LDl16
    isplitl [OR16]; · iexact OR16
    iexact Tlo16
  iintro Klo16
  rw [show (oweD c 18 + oweF c 16 : CellTallies nD τ sig Unit) = (oweD c 18 + oweF c 17) + tallyAt (cell (py c) (.fr 16)) () Nout from by rw [oweF_peel c 16 (by decide), ← add_assoc]; rfl]
  -- the printed part k0_part69 is opened
  simp only [k0_part69_eq_skeleton]
  unfold k0_part69_skel
  simp only [semSignalWord, semWaitWord, Prog.lift, Prog.bind_op, Prog.bind_ret, Prog.pure_eq_ret, wp_deviceId]
  iapply (wp_send_f m K c _ (devy_eq c _ _ (k0_dev37_eq c)) 16 _ (oweD c 18 + oweF c 17) _) $$ [LDr16 OP16 HO Tfs16 Tfr16]
  · isplitr; · (iapply (inv_at m K c (.fs 16)); iexact HR)
    isplitr; · (iapply (inv_at m K (py c) (.fr 16)); iexact HR)
    isplitr; · (iapply (reached0_at m K c (.fs 16)); iexact HR)
    isplitr; · (iapply (reached0_at m K (py c) (.fr 16)); iexact HR)
    isplitl [LDr16]; · iexact LDr16
    isplitl [OP16]; · iexact OP16
    isplitl [HO]; · iexact HO
    isplitl [Tfs16]; · iexact Tfs16
    iexact Tfr16
  iintro ⟨Kfs16, HO⟩
  -- chunk 18, half a: its staged rows have landed in slot 0
  iapply (wp_wait_ina m K c 18 (credit_viaS (slot2 18)) (oweD c 18 + oweF c 17) _) $$ [Kia18 HO Pia0]
  · isplitr; · (iapply (inv_at m K c (.ina (slot2 18))); iexact HR)
    isplitl [Kia18]; · iexact Kia18
    isplitl [HO]; · iexact HO
    isplitr; · (iapply (mayWait_own c (.ina (slot2 18)) rfl 18 17); iexact Hlev)
    iexact Pia0
  iintro ⟨HO, Pia0, #Ria18, VA0, XA18⟩
  -- chunk 18, half b: its staged rows have landed in slot 0
  iapply (wp_wait_inb m K c 18 (credit_vibS (slot2 18)) (oweD c 18 + oweF c 17) _) $$ [Kib18 HO Pib0]
  · isplitr; · (iapply (inv_at m K c (.inb (slot2 18))); iexact HR)
    isplitl [Kib18]; · iexact Kib18
    isplitl [HO]; · iexact HO
    isplitr; · (iapply (mayWait_own c (.inb (slot2 18)) rfl 18 17); iexact Hlev)
    iexact Pib0
  iintro ⟨HO, Pib0, #Rib18, VB0, XB18⟩
  -- chunk 15: its local copy of vcast_a has landed
  iapply (wp_wait_lca m K c 15 (credit_oA c 15) (oweD c 18 + oweF c 17) _) $$ [Kla15 HO Pla0]
  · isplitr; · (iapply (inv_at m K c (.lca (slot3 15))); iexact HR)
    isplitl [Kla15]; · iexact Kla15
    isplitl [HO]; · iexact HO
    isplitr; · (iapply (mayWait_own c (.lca (slot3 15)) rfl 18 17); iexact Hlev)
    iexact Pla0
  iintro ⟨HO, Pla0, #Rla15, OA15, CAm0⟩
  -- chunk 15: its local copy of vcast_b has landed
  iapply (wp_wait_lcb m K c 15 (credit_oB c 15) (oweD c 18 + oweF c 17) _) $$ [Klb15 HO Plb0]
  · isplitr; · (iapply (inv_at m K c (.lcb (slot3 15))); iexact HR)
    isplitl [Klb15]; · iexact Klb15
    isplitl [HO]; · iexact HO
    isplitr; · (iapply (mayWait_own c (.lcb (slot3 15)) rfl 18 17); iexact Hlev)
    iexact Plb0
  iintro ⟨HO, Plb0, #Rlb15, OB15, CBm0⟩
  -- chunk 15: its send along x has left the slot
  iapply (wp_wait_ds m K c 15 (credit_vcaPeer c (slot3 15)) (oweD c 18 + oweF c 17) _) $$ [Kds15 HO Pds15]
  · isplitr; · (iapply (inv_at m K c (.ds 15)); iexact HR)
    isplitl [Kds15]; · iexact Kds15
    isplitl [HO]; · iexact HO
    isplitr; · (iapply (mayWait_own c (.ds 15) rfl 18 17); iexact Hlev)
    iexact Pds15
  iintro ⟨HO, Pds15, -, CAp0⟩
  -- slot 0 of both bf16 buffers is whole again
  ihave CA0 := (vca_slot_split c (slot3 15) fullShare _).2 $$ [CAm0 CAp0]
  · isplitl [CAm0]; · iexact CAm0
    iexact CAp0
  ihave CB0 := (vcb_slot_split c (slot3 15) fullShare _).2 $$ [CBm0 CBr0]
  · isplitl [CBm0]; · iexact CBm0
    iexact CBr0
  -- chunk 18, half a: staging slot 0 is loaded, cast and stored into bf16 slot 0
  -- the printed part k0_part70 is opened
  simp only [k0_part70_eq_skeleton]
  unfold k0_part70_skel
  simp only [semSignalWord, semWaitWord, Prog.lift, Prog.bind_op, Prog.bind_ret, Prog.pure_eq_ret, wp_deviceId]
  iapply (wp_load_via c (slot2 18) _ _) $$ [VA0]
  · iexact VA0
  iintro VA0
  iapply (wp_load_vca c (slot3 18) _ _) $$ [CA0]
  · iexact CA0
  iintro CA0
  iapply (wp_store_vca c (slot3 18) _ _) $$ [CA0]
  · iexact CA0
  iintro CA0
  ihave CA0 := (store_vca_at m c 18 _ _ rfl) $$ [CA0]
  · iexact CA0
  -- chunk 18, half b: staging slot 0 is loaded, cast and stored into bf16 slot 0
  iapply (wp_load_vib c (slot2 18) _ _) $$ [VB0]
  · iexact VB0
  iintro VB0
  iapply (wp_load_vcb c (slot3 18) _ _) $$ [CB0]
  · iexact CB0
  iintro CB0
  iapply (wp_store_vcb c (slot3 18) _ _) $$ [CB0]
  · iexact CB0
  iintro CB0
  ihave CB0 := (store_vcb_at m c 18 _ _ rfl) $$ [CB0]
  · iexact CB0
  ihave H := (vca_slot_split c (slot3 18) fullShare _).1 $$ [CA0]
  · iexact CA0
  icases H with ⟨CAm0, CAp0⟩
  ihave H := (vcb_slot_split c (slot3 18) fullShare _).1 $$ [CB0]
  · iexact CB0
  icases H with ⟨CBm0, CBr0⟩
  -- chunk 18, half a: the device's own columns of slot 0 start for the result
  iapply (wp_lca m K c 18 _) $$ [CAm0 OA18 Tla18]
  · isplitr; · (iapply (inv_at m K c (.lca (slot3 18))); iexact HR)
    isplitr; · iexact Rla15
    isplitl [CAm0]; · iexact CAm0
    isplitl [OA18]; · iexact OA18
    iexact Tla18
  iintro Kla18
  -- chunk 18, half b: the device's own columns of slot 0 start for the result
  iapply (wp_lcb m K c 18 _) $$ [CBm0 OB18 Tlb18]
  · isplitr; · (iapply (inv_at m K c (.lcb (slot3 18))); iexact HR)
    isplitr; · iexact Rlb15
    isplitl [CBm0]; · iexact CBm0
    isplitl [OB18]; · iexact OB18
    iexact Tlb18
  iintro Klb18
  -- chunk 18: the x-peer's columns of slot 0 are sent into its landing slot 18
  rw [show (oweD c 18 + oweF c 17 : CellTallies nD τ sig Unit) = (oweD c 19 + oweF c 17) + tallyAt (cell (px c) (.dr 18)) () Nout from by rw [oweD_peel c 18 (by decide), add_right_comm]; rfl]
  -- the printed part k0_part71 is opened
  simp only [k0_part71_eq_skeleton]
  unfold k0_part71_skel
  simp only [semSignalWord, semWaitWord, Prog.lift, Prog.bind_op, Prog.bind_ret, Prog.pure_eq_ret, wp_deviceId]
  iapply (wp_send_d m K c _ (devx_eq c _ _ (k0_dev38_eq c)) 18 _ (oweD c 19 + oweF c 17) _) $$ [CAp0 LP18 HO Tds18 Tdr18]
  · isplitr; · (iapply (inv_at m K c (.ds 18)); iexact HR)
    isplitr; · (iapply (inv_at m K (px c) (.dr 18)); iexact HR)
    isplitr; · (iapply (reached0_at m K c (.ds 18)); iexact HR)
    isplitr; · (iapply (reached0_at m K (px c) (.dr 18)); iexact HR)
    isplitl [CAp0]; · iexact CAp0
    isplitl [LP18]; · iexact LP18
    isplitl [HO]; · iexact HO
    isplitl [Tds18]; · iexact Tds18
    iexact Tdr18
  iintro ⟨Kds18, HO⟩
  -- chunk 20, half a: its rows of x start for staging slot 0
  iapply (wp_stage_a m K c 20 _) $$ [XA20 VA0 Tia20]
  · isplitr; · (iapply (inv_at m K c (.ina (slot2 20))); iexact HR)
    isplitr; · iexact Ria18
    isplitl [XA20]; · iexact XA20
    isplitl [VA0]; · iexact VA0
    iexact Tia20
  iintro Kia20
  -- chunk 20, half b: its rows of x start for staging slot 0
  iapply (wp_stage_b m K c 20 _) $$ [XB20 VB0 Tib20]
  · isplitr; · (iapply (inv_at m K c (.inb (slot2 20))); iexact HR)
    isplitr; · iexact Rib18
    isplitl [XB20]; · iexact XB20
    isplitl [VB0]; · iexact VB0
    iexact Tib20
  iintro Kib20
  -- chunk 17 of the x-peer has landed: it is copied into the result and relayed to the y-peer
  -- the printed part k0_part72 is opened
  simp only [k0_part72_eq_skeleton]
  unfold k0_part72_skel
  simp only [semSignalWord, semWaitWord, Prog.lift, Prog.bind_op, Prog.bind_ret, Prog.pure_eq_ret, wp_deviceId]
  iapply (wp_wait_dr m K c 17 (credit_ldS 17) (oweD c 19 + oweF c 17) _) $$ [Cdr17 HO Pdr17]
  · isplitr; · (iapply (inv_at m K c (.dr 17)); iexact HR)
    isplitl [Cdr17]; · iexact Cdr17
    isplitl [HO]; · iexact HO
    isplitr; · (iapply (mayWait_dr c 17 19 17 (by decide) (by decide)); iexact Hlev)
    iexact Pdr17
  iintro ⟨HO, Pdr17, -, LD17⟩
  ihave H := (ld_share_split c 17 _).1 $$ [LD17]
  · iexact LD17
  icases H with ⟨LDl17, LDr17⟩
  iapply (wp_lo m K c 17 _) $$ [LDl17 OR17 Tlo17]
  · isplitr; · (iapply (inv_at m K c (.lo 17)); iexact HR)
    isplitr; · (iapply (reached0_at m K c (.lo 17)); iexact HR)
    isplitl [LDl17]; · iexact LDl17
    isplitl [OR17]; · iexact OR17
    iexact Tlo17
  iintro Klo17
  rw [show (oweD c 19 + oweF c 17 : CellTallies nD τ sig Unit) = (oweD c 19 + oweF c 18) + tallyAt (cell (py c) (.fr 17)) () Nout from by rw [oweF_peel c 17 (by decide), ← add_assoc]; rfl]
  iapply (wp_send_f m K c _ (devy_eq c _ _ (k0_dev39_eq c)) 17 _ (oweD c 19 + oweF c 18) _) $$ [LDr17 OP17 HO Tfs17 Tfr17]
  · isplitr; · (iapply (inv_at m K c (.fs 17)); iexact HR)
    isplitr; · (iapply (inv_at m K (py c) (.fr 17)); iexact HR)
    isplitr; · (iapply (reached0_at m K c (.fs 17)); iexact HR)
    isplitr; · (iapply (reached0_at m K (py c) (.fr 17)); iexact HR)
    isplitl [LDr17]; · iexact LDr17
    isplitl [OP17]; · iexact OP17
    isplitl [HO]; · iexact HO
    isplitl [Tfs17]; · iexact Tfs17
    iexact Tfr17
  iintro ⟨Kfs17, HO⟩
  -- chunk 19, half a: its staged rows have landed in slot 1
  -- the printed part k0_part73 is opened
  simp only [k0_part73_eq_skeleton]
  unfold k0_part73_skel
  simp only [semSignalWord, semWaitWord, Prog.lift, Prog.bind_op, Prog.bind_ret, Prog.pure_eq_ret, wp_deviceId]
  iapply (wp_wait_ina m K c 19 (credit_viaS (slot2 19)) (oweD c 19 + oweF c 18) _) $$ [Kia19 HO Pia1]
  · isplitr; · (iapply (inv_at m K c (.ina (slot2 19))); iexact HR)
    isplitl [Kia19]; · iexact Kia19
    isplitl [HO]; · iexact HO
    isplitr; · (iapply (mayWait_own c (.ina (slot2 19)) rfl 19 18); iexact Hlev)
    iexact Pia1
  iintro ⟨HO, Pia1, #Ria19, VA1, XA19⟩
  -- chunk 19, half b: its staged rows have landed in slot 1
  iapply (wp_wait_inb m K c 19 (credit_vibS (slot2 19)) (oweD c 19 + oweF c 18) _) $$ [Kib19 HO Pib1]
  · isplitr; · (iapply (inv_at m K c (.inb (slot2 19))); iexact HR)
    isplitl [Kib19]; · iexact Kib19
    isplitl [HO]; · iexact HO
    isplitr; · (iapply (mayWait_own c (.inb (slot2 19)) rfl 19 18); iexact Hlev)
    iexact Pib1
  iintro ⟨HO, Pib1, #Rib19, VB1, XB19⟩
  -- chunk 16: its local copy of vcast_a has landed
  iapply (wp_wait_lca m K c 16 (credit_oA c 16) (oweD c 19 + oweF c 18) _) $$ [Kla16 HO Pla1]
  · isplitr; · (iapply (inv_at m K c (.lca (slot3 16))); iexact HR)
    isplitl [Kla16]; · iexact Kla16
    isplitl [HO]; · iexact HO
    isplitr; · (iapply (mayWait_own c (.lca (slot3 16)) rfl 19 18); iexact Hlev)
    iexact Pla1
  iintro ⟨HO, Pla1, #Rla16, OA16, CAm1⟩
  -- chunk 16: its local copy of vcast_b has landed
  iapply (wp_wait_lcb m K c 16 (credit_oB c 16) (oweD c 19 + oweF c 18) _) $$ [Klb16 HO Plb1]
  · isplitr; · (iapply (inv_at m K c (.lcb (slot3 16))); iexact HR)
    isplitl [Klb16]; · iexact Klb16
    isplitl [HO]; · iexact HO
    isplitr; · (iapply (mayWait_own c (.lcb (slot3 16)) rfl 19 18); iexact Hlev)
    iexact Plb1
  iintro ⟨HO, Plb1, #Rlb16, OB16, CBm1⟩
  -- chunk 16: its send along x has left the slot
  iapply (wp_wait_ds m K c 16 (credit_vcaPeer c (slot3 16)) (oweD c 19 + oweF c 18) _) $$ [Kds16 HO Pds16]
  · isplitr; · (iapply (inv_at m K c (.ds 16)); iexact HR)
    isplitl [Kds16]; · iexact Kds16
    isplitl [HO]; · iexact HO
    isplitr; · (iapply (mayWait_own c (.ds 16) rfl 19 18); iexact Hlev)
    iexact Pds16
  iintro ⟨HO, Pds16, -, CAp1⟩
  -- slot 1 of both bf16 buffers is whole again
  ihave CA1 := (vca_slot_split c (slot3 16) fullShare _).2 $$ [CAm1 CAp1]
  · isplitl [CAm1]; · iexact CAm1
    iexact CAp1
  ihave CB1 := (vcb_slot_split c (slot3 16) fullShare _).2 $$ [CBm1 CBr1]
  · isplitl [CBm1]; · iexact CBm1
    iexact CBr1
  -- chunk 19, half a: staging slot 1 is loaded, cast and stored into bf16 slot 1
  iapply (wp_load_via c (slot2 19) _ _) $$ [VA1]
  · iexact VA1
  iintro VA1
  -- the printed part k0_part74 is opened
  simp only [k0_part74_eq_skeleton]
  unfold k0_part74_skel
  simp only [semSignalWord, semWaitWord, Prog.lift, Prog.bind_op, Prog.bind_ret, Prog.pure_eq_ret, wp_deviceId]
  iapply (wp_load_vca c (slot3 19) _ _) $$ [CA1]
  · iexact CA1
  iintro CA1
  iapply (wp_store_vca c (slot3 19) _ _) $$ [CA1]
  · iexact CA1
  iintro CA1
  ihave CA1 := (store_vca_at m c 19 _ _ rfl) $$ [CA1]
  · iexact CA1
  -- chunk 19, half b: staging slot 1 is loaded, cast and stored into bf16 slot 1
  iapply (wp_load_vib c (slot2 19) _ _) $$ [VB1]
  · iexact VB1
  iintro VB1
  iapply (wp_load_vcb c (slot3 19) _ _) $$ [CB1]
  · iexact CB1
  iintro CB1
  iapply (wp_store_vcb c (slot3 19) _ _) $$ [CB1]
  · iexact CB1
  iintro CB1
  ihave CB1 := (store_vcb_at m c 19 _ _ rfl) $$ [CB1]
  · iexact CB1
  ihave H := (vca_slot_split c (slot3 19) fullShare _).1 $$ [CA1]
  · iexact CA1
  icases H with ⟨CAm1, CAp1⟩
  ihave H := (vcb_slot_split c (slot3 19) fullShare _).1 $$ [CB1]
  · iexact CB1
  icases H with ⟨CBm1, CBr1⟩
  -- chunk 19, half a: the device's own columns of slot 1 start for the result
  iapply (wp_lca m K c 19 _) $$ [CAm1 OA19 Tla19]
  · isplitr; · (iapply (inv_at m K c (.lca (slot3 19))); iexact HR)
    isplitr; · iexact Rla16
    isplitl [CAm1]; · iexact CAm1
    isplitl [OA19]; · iexact OA19
    iexact Tla19
  iintro Kla19
  -- chunk 19, half b: the device's own columns of slot 1 start for the result
  iapply (wp_lcb m K c 19 _) $$ [CBm1 OB19 Tlb19]
  · isplitr; · (iapply (inv_at m K c (.lcb (slot3 19))); iexact HR)
    isplitr; · iexact Rlb16
    isplitl [CBm1]; · iexact CBm1
    isplitl [OB19]; · iexact OB19
    iexact Tlb19
  iintro Klb19
  -- chunk 19: the x-peer's columns of slot 1 are sent into its landing slot 19
  rw [show (oweD c 19 + oweF c 18 : CellTallies nD τ sig Unit) = (oweD c 20 + oweF c 18) + tallyAt (cell (px c) (.dr 19)) () Nout from by rw [oweD_peel c 19 (by decide), add_right_comm]; rfl]
  -- the printed part k0_part75 is opened
  simp only [k0_part75_eq_skeleton]
  unfold k0_part75_skel
  simp only [semSignalWord, semWaitWord, Prog.lift, Prog.bind_op, Prog.bind_ret, Prog.pure_eq_ret, wp_deviceId]
  iapply (wp_send_d m K c _ (devx_eq c _ _ (k0_dev40_eq c)) 19 _ (oweD c 20 + oweF c 18) _) $$ [CAp1 LP19 HO Tds19 Tdr19]
  · isplitr; · (iapply (inv_at m K c (.ds 19)); iexact HR)
    isplitr; · (iapply (inv_at m K (px c) (.dr 19)); iexact HR)
    isplitr; · (iapply (reached0_at m K c (.ds 19)); iexact HR)
    isplitr; · (iapply (reached0_at m K (px c) (.dr 19)); iexact HR)
    isplitl [CAp1]; · iexact CAp1
    isplitl [LP19]; · iexact LP19
    isplitl [HO]; · iexact HO
    isplitl [Tds19]; · iexact Tds19
    iexact Tdr19
  iintro ⟨Kds19, HO⟩
  -- chunk 21, half a: its rows of x start for staging slot 1
  iapply (wp_stage_a m K c 21 _) $$ [XA21 VA1 Tia21]
  · isplitr; · (iapply (inv_at m K c (.ina (slot2 21))); iexact HR)
    isplitr; · iexact Ria19
    isplitl [XA21]; · iexact XA21
    isplitl [VA1]; · iexact VA1
    iexact Tia21
  iintro Kia21
  -- chunk 21, half b: its rows of x start for staging slot 1
  iapply (wp_stage_b m K c 21 _) $$ [XB21 VB1 Tib21]
  · isplitr; · (iapply (inv_at m K c (.inb (slot2 21))); iexact HR)
    isplitr; · iexact Rib19
    isplitl [XB21]; · iexact XB21
    isplitl [VB1]; · iexact VB1
    iexact Tib21
  iintro Kib21
  -- chunk 18 of the x-peer has landed: it is copied into the result and relayed to the y-peer
  -- the printed part k0_part76 is opened
  simp only [k0_part76_eq_skeleton]
  unfold k0_part76_skel
  simp only [semSignalWord, semWaitWord, Prog.lift, Prog.bind_op, Prog.bind_ret, Prog.pure_eq_ret, wp_deviceId]
  iapply (wp_wait_dr m K c 18 (credit_ldS 18) (oweD c 20 + oweF c 18) _) $$ [Cdr18 HO Pdr18]
  · isplitr; · (iapply (inv_at m K c (.dr 18)); iexact HR)
    isplitl [Cdr18]; · iexact Cdr18
    isplitl [HO]; · iexact HO
    isplitr; · (iapply (mayWait_dr c 18 20 18 (by decide) (by decide)); iexact Hlev)
    iexact Pdr18
  iintro ⟨HO, Pdr18, -, LD18⟩
  ihave H := (ld_share_split c 18 _).1 $$ [LD18]
  · iexact LD18
  icases H with ⟨LDl18, LDr18⟩
  iapply (wp_lo m K c 18 _) $$ [LDl18 OR18 Tlo18]
  · isplitr; · (iapply (inv_at m K c (.lo 18)); iexact HR)
    isplitr; · (iapply (reached0_at m K c (.lo 18)); iexact HR)
    isplitl [LDl18]; · iexact LDl18
    isplitl [OR18]; · iexact OR18
    iexact Tlo18
  iintro Klo18
  rw [show (oweD c 20 + oweF c 18 : CellTallies nD τ sig Unit) = (oweD c 20 + oweF c 19) + tallyAt (cell (py c) (.fr 18)) () Nout from by rw [oweF_peel c 18 (by decide), ← add_assoc]; rfl]
  iapply (wp_send_f m K c _ (devy_eq c _ _ (k0_dev41_eq c)) 18 _ (oweD c 20 + oweF c 19) _) $$ [LDr18 OP18 HO Tfs18 Tfr18]
  · isplitr; · (iapply (inv_at m K c (.fs 18)); iexact HR)
    isplitr; · (iapply (inv_at m K (py c) (.fr 18)); iexact HR)
    isplitr; · (iapply (reached0_at m K c (.fs 18)); iexact HR)
    isplitr; · (iapply (reached0_at m K (py c) (.fr 18)); iexact HR)
    isplitl [LDr18]; · iexact LDr18
    isplitl [OP18]; · iexact OP18
    isplitl [HO]; · iexact HO
    isplitl [Tfs18]; · iexact Tfs18
    iexact Tfr18
  iintro ⟨Kfs18, HO⟩
  -- chunk 20, half a: its staged rows have landed in slot 0
  iapply (wp_wait_ina m K c 20 (credit_viaS (slot2 20)) (oweD c 20 + oweF c 19) _) $$ [Kia20 HO Pia0]
  · isplitr; · (iapply (inv_at m K c (.ina (slot2 20))); iexact HR)
    isplitl [Kia20]; · iexact Kia20
    isplitl [HO]; · iexact HO
    isplitr; · (iapply (mayWait_own c (.ina (slot2 20)) rfl 20 19); iexact Hlev)
    iexact Pia0
  iintro ⟨HO, Pia0, #Ria20, VA0, XA20⟩
  -- chunk 20, half b: its staged rows have landed in slot 0
  -- the printed part k0_part77 is opened
  simp only [k0_part77_eq_skeleton]
  unfold k0_part77_skel
  simp only [semSignalWord, semWaitWord, Prog.lift, Prog.bind_op, Prog.bind_ret, Prog.pure_eq_ret, wp_deviceId]
  iapply (wp_wait_inb m K c 20 (credit_vibS (slot2 20)) (oweD c 20 + oweF c 19) _) $$ [Kib20 HO Pib0]
  · isplitr; · (iapply (inv_at m K c (.inb (slot2 20))); iexact HR)
    isplitl [Kib20]; · iexact Kib20
    isplitl [HO]; · iexact HO
    isplitr; · (iapply (mayWait_own c (.inb (slot2 20)) rfl 20 19); iexact Hlev)
    iexact Pib0
  iintro ⟨HO, Pib0, #Rib20, VB0, XB20⟩
  -- chunk 17: its local copy of vcast_a has landed
  iapply (wp_wait_lca m K c 17 (credit_oA c 17) (oweD c 20 + oweF c 19) _) $$ [Kla17 HO Pla2]
  · isplitr; · (iapply (inv_at m K c (.lca (slot3 17))); iexact HR)
    isplitl [Kla17]; · iexact Kla17
    isplitl [HO]; · iexact HO
    isplitr; · (iapply (mayWait_own c (.lca (slot3 17)) rfl 20 19); iexact Hlev)
    iexact Pla2
  iintro ⟨HO, Pla2, #Rla17, OA17, CAm2⟩
  -- chunk 17: its local copy of vcast_b has landed
  iapply (wp_wait_lcb m K c 17 (credit_oB c 17) (oweD c 20 + oweF c 19) _) $$ [Klb17 HO Plb2]
  · isplitr; · (iapply (inv_at m K c (.lcb (slot3 17))); iexact HR)
    isplitl [Klb17]; · iexact Klb17
    isplitl [HO]; · iexact HO
    isplitr; · (iapply (mayWait_own c (.lcb (slot3 17)) rfl 20 19); iexact Hlev)
    iexact Plb2
  iintro ⟨HO, Plb2, #Rlb17, OB17, CBm2⟩
  -- chunk 17: its send along x has left the slot
  iapply (wp_wait_ds m K c 17 (credit_vcaPeer c (slot3 17)) (oweD c 20 + oweF c 19) _) $$ [Kds17 HO Pds17]
  · isplitr; · (iapply (inv_at m K c (.ds 17)); iexact HR)
    isplitl [Kds17]; · iexact Kds17
    isplitl [HO]; · iexact HO
    isplitr; · (iapply (mayWait_own c (.ds 17) rfl 20 19); iexact Hlev)
    iexact Pds17
  iintro ⟨HO, Pds17, -, CAp2⟩
  -- slot 2 of both bf16 buffers is whole again
  ihave CA2 := (vca_slot_split c (slot3 17) fullShare _).2 $$ [CAm2 CAp2]
  · isplitl [CAm2]; · iexact CAm2
    iexact CAp2
  ihave CB2 := (vcb_slot_split c (slot3 17) fullShare _).2 $$ [CBm2 CBr2]
  · isplitl [CBm2]; · iexact CBm2
    iexact CBr2
  -- chunk 20, half a: staging slot 0 is loaded, cast and stored into bf16 slot 2
  iapply (wp_load_via c (slot2 20) _ _) $$ [VA0]
  · iexact VA0
  iintro VA0
  iapply (wp_load_vca c (slot3 20) _ _) $$ [CA2]
  · iexact CA2
  iintro CA2
  iapply (wp_store_vca c (slot3 20) _ _) $$ [CA2]
  · iexact CA2
  iintro CA2
  ihave CA2 := (store_vca_at m c 20 _ _ rfl) $$ [CA2]
  · iexact CA2
  -- chunk 20, half b: staging slot 0 is loaded, cast and stored into bf16 slot 2
  iapply (wp_load_vib c (slot2 20) _ _) $$ [VB0]
  · iexact VB0
  iintro VB0
  -- the printed part k0_part78 is opened
  simp only [k0_part78_eq_skeleton]
  unfold k0_part78_skel
  simp only [semSignalWord, semWaitWord, Prog.lift, Prog.bind_op, Prog.bind_ret, Prog.pure_eq_ret, wp_deviceId]
  iapply (wp_load_vcb c (slot3 20) _ _) $$ [CB2]
  · iexact CB2
  iintro CB2
  iapply (wp_store_vcb c (slot3 20) _ _) $$ [CB2]
  · iexact CB2
  iintro CB2
  ihave CB2 := (store_vcb_at m c 20 _ _ rfl) $$ [CB2]
  · iexact CB2
  ihave H := (vca_slot_split c (slot3 20) fullShare _).1 $$ [CA2]
  · iexact CA2
  icases H with ⟨CAm2, CAp2⟩
  ihave H := (vcb_slot_split c (slot3 20) fullShare _).1 $$ [CB2]
  · iexact CB2
  icases H with ⟨CBm2, CBr2⟩
  -- chunk 20, half a: the device's own columns of slot 2 start for the result
  iapply (wp_lca m K c 20 _) $$ [CAm2 OA20 Tla20]
  · isplitr; · (iapply (inv_at m K c (.lca (slot3 20))); iexact HR)
    isplitr; · iexact Rla17
    isplitl [CAm2]; · iexact CAm2
    isplitl [OA20]; · iexact OA20
    iexact Tla20
  iintro Kla20
  -- chunk 20, half b: the device's own columns of slot 2 start for the result
  iapply (wp_lcb m K c 20 _) $$ [CBm2 OB20 Tlb20]
  · isplitr; · (iapply (inv_at m K c (.lcb (slot3 20))); iexact HR)
    isplitr; · iexact Rlb17
    isplitl [CBm2]; · iexact CBm2
    isplitl [OB20]; · iexact OB20
    iexact Tlb20
  iintro Klb20
  -- chunk 20: the x-peer's columns of slot 2 are sent into its landing slot 20
  rw [show (oweD c 20 + oweF c 19 : CellTallies nD τ sig Unit) = (oweD c 21 + oweF c 19) + tallyAt (cell (px c) (.dr 20)) () Nout from by rw [oweD_peel c 20 (by decide), add_right_comm]; rfl]
  -- the printed part k0_part79 is opened
  simp only [k0_part79_eq_skeleton]
  unfold k0_part79_skel
  simp only [semSignalWord, semWaitWord, Prog.lift, Prog.bind_op, Prog.bind_ret, Prog.pure_eq_ret, wp_deviceId]
  iapply (wp_send_d m K c _ (devx_eq c _ _ (k0_dev42_eq c)) 20 _ (oweD c 21 + oweF c 19) _) $$ [CAp2 LP20 HO Tds20 Tdr20]
  · isplitr; · (iapply (inv_at m K c (.ds 20)); iexact HR)
    isplitr; · (iapply (inv_at m K (px c) (.dr 20)); iexact HR)
    isplitr; · (iapply (reached0_at m K c (.ds 20)); iexact HR)
    isplitr; · (iapply (reached0_at m K (px c) (.dr 20)); iexact HR)
    isplitl [CAp2]; · iexact CAp2
    isplitl [LP20]; · iexact LP20
    isplitl [HO]; · iexact HO
    isplitl [Tds20]; · iexact Tds20
    iexact Tdr20
  iintro ⟨Kds20, HO⟩
  -- chunk 22, half a: its rows of x start for staging slot 0
  iapply (wp_stage_a m K c 22 _) $$ [XA22 VA0 Tia22]
  · isplitr; · (iapply (inv_at m K c (.ina (slot2 22))); iexact HR)
    isplitr; · iexact Ria20
    isplitl [XA22]; · iexact XA22
    isplitl [VA0]; · iexact VA0
    iexact Tia22
  iintro Kia22
  -- chunk 22, half b: its rows of x start for staging slot 0
  iapply (wp_stage_b m K c 22 _) $$ [XB22 VB0 Tib22]
  · isplitr; · (iapply (inv_at m K c (.inb (slot2 22))); iexact HR)
    isplitr; · iexact Rib20
    isplitl [XB22]; · iexact XB22
    isplitl [VB0]; · iexact VB0
    iexact Tib22
  iintro Kib22
  -- chunk 19 of the x-peer has landed: it is copied into the result and relayed to the y-peer
  iapply (wp_wait_dr m K c 19 (credit_ldS 19) (oweD c 21 + oweF c 19) _) $$ [Cdr19 HO Pdr19]
  · isplitr; · (iapply (inv_at m K c (.dr 19)); iexact HR)
    isplitl [Cdr19]; · iexact Cdr19
    isplitl [HO]; · iexact HO
    isplitr; · (iapply (mayWait_dr c 19 21 19 (by decide) (by decide)); iexact Hlev)
    iexact Pdr19
  iintro ⟨HO, Pdr19, -, LD19⟩
  ihave H := (ld_share_split c 19 _).1 $$ [LD19]
  · iexact LD19
  icases H with ⟨LDl19, LDr19⟩
  -- the printed part k0_part80 is opened
  simp only [k0_part80_eq_skeleton]
  unfold k0_part80_skel
  simp only [semSignalWord, semWaitWord, Prog.lift, Prog.bind_op, Prog.bind_ret, Prog.pure_eq_ret, wp_deviceId]
  iapply (wp_lo m K c 19 _) $$ [LDl19 OR19 Tlo19]
  · isplitr; · (iapply (inv_at m K c (.lo 19)); iexact HR)
    isplitr; · (iapply (reached0_at m K c (.lo 19)); iexact HR)
    isplitl [LDl19]; · iexact LDl19
    isplitl [OR19]; · iexact OR19
    iexact Tlo19
  iintro Klo19
  rw [show (oweD c 21 + oweF c 19 : CellTallies nD τ sig Unit) = (oweD c 21 + oweF c 20) + tallyAt (cell (py c) (.fr 19)) () Nout from by rw [oweF_peel c 19 (by decide), ← add_assoc]; rfl]
  iapply (wp_send_f m K c _ (devy_eq c _ _ (k0_dev43_eq c)) 19 _ (oweD c 21 + oweF c 20) _) $$ [LDr19 OP19 HO Tfs19 Tfr19]
  · isplitr; · (iapply (inv_at m K c (.fs 19)); iexact HR)
    isplitr; · (iapply (inv_at m K (py c) (.fr 19)); iexact HR)
    isplitr; · (iapply (reached0_at m K c (.fs 19)); iexact HR)
    isplitr; · (iapply (reached0_at m K (py c) (.fr 19)); iexact HR)
    isplitl [LDr19]; · iexact LDr19
    isplitl [OP19]; · iexact OP19
    isplitl [HO]; · iexact HO
    isplitl [Tfs19]; · iexact Tfs19
    iexact Tfr19
  iintro ⟨Kfs19, HO⟩
  -- chunk 21, half a: its staged rows have landed in slot 1
  iapply (wp_wait_ina m K c 21 (credit_viaS (slot2 21)) (oweD c 21 + oweF c 20) _) $$ [Kia21 HO Pia1]
  · isplitr; · (iapply (inv_at m K c (.ina (slot2 21))); iexact HR)
    isplitl [Kia21]; · iexact Kia21
    isplitl [HO]; · iexact HO
    isplitr; · (iapply (mayWait_own c (.ina (slot2 21)) rfl 21 20); iexact Hlev)
    iexact Pia1
  iintro ⟨HO, Pia1, #Ria21, VA1, XA21⟩
  -- chunk 21, half b: its staged rows have landed in slot 1
  iapply (wp_wait_inb m K c 21 (credit_vibS (slot2 21)) (oweD c 21 + oweF c 20) _) $$ [Kib21 HO Pib1]
  · isplitr; · (iapply (inv_at m K c (.inb (slot2 21))); iexact HR)
    isplitl [Kib21]; · iexact Kib21
    isplitl [HO]; · iexact HO
    isplitr; · (iapply (mayWait_own c (.inb (slot2 21)) rfl 21 20); iexact Hlev)
    iexact Pib1
  iintro ⟨HO, Pib1, #Rib21, VB1, XB21⟩
  -- chunk 18: its local copy of vcast_a has landed
  -- the printed part k0_part81 is opened
  simp only [k0_part81_eq_skeleton]
  unfold k0_part81_skel
  simp only [semSignalWord, semWaitWord, Prog.lift, Prog.bind_op, Prog.bind_ret, Prog.pure_eq_ret, wp_deviceId]
  iapply (wp_wait_lca m K c 18 (credit_oA c 18) (oweD c 21 + oweF c 20) _) $$ [Kla18 HO Pla0]
  · isplitr; · (iapply (inv_at m K c (.lca (slot3 18))); iexact HR)
    isplitl [Kla18]; · iexact Kla18
    isplitl [HO]; · iexact HO
    isplitr; · (iapply (mayWait_own c (.lca (slot3 18)) rfl 21 20); iexact Hlev)
    iexact Pla0
  iintro ⟨HO, Pla0, #Rla18, OA18, CAm0⟩
  -- chunk 18: its local copy of vcast_b has landed
  iapply (wp_wait_lcb m K c 18 (credit_oB c 18) (oweD c 21 + oweF c 20) _) $$ [Klb18 HO Plb0]
  · isplitr; · (iapply (inv_at m K c (.lcb (slot3 18))); iexact HR)
    isplitl [Klb18]; · iexact Klb18
    isplitl [HO]; · iexact HO
    isplitr; · (iapply (mayWait_own c (.lcb (slot3 18)) rfl 21 20); iexact Hlev)
    iexact Plb0
  iintro ⟨HO, Plb0, #Rlb18, OB18, CBm0⟩
  -- chunk 18: its send along x has left the slot
  iapply (wp_wait_ds m K c 18 (credit_vcaPeer c (slot3 18)) (oweD c 21 + oweF c 20) _) $$ [Kds18 HO Pds18]
  · isplitr; · (iapply (inv_at m K c (.ds 18)); iexact HR)
    isplitl [Kds18]; · iexact Kds18
    isplitl [HO]; · iexact HO
    isplitr; · (iapply (mayWait_own c (.ds 18) rfl 21 20); iexact Hlev)
    iexact Pds18
  iintro ⟨HO, Pds18, -, CAp0⟩
  -- slot 0 of both bf16 buffers is whole again
  ihave CA0 := (vca_slot_split c (slot3 18) fullShare _).2 $$ [CAm0 CAp0]
  · isplitl [CAm0]; · iexact CAm0
    iexact CAp0
  ihave CB0 := (vcb_slot_split c (slot3 18) fullShare _).2 $$ [CBm0 CBr0]
  · isplitl [CBm0]; · iexact CBm0
    iexact CBr0
  -- chunk 21, half a: staging slot 1 is loaded, cast and stored into bf16 slot 0
  iapply (wp_load_via c (slot2 21) _ _) $$ [VA1]
  · iexact VA1
  iintro VA1
  iapply (wp_load_vca c (slot3 21) _ _) $$ [CA0]
  · iexact CA0
  iintro CA0
  iapply (wp_store_vca c (slot3 21) _ _) $$ [CA0]
  · iexact CA0
  iintro CA0
  ihave CA0 := (store_vca_at m c 21 _ _ rfl) $$ [CA0]
  · iexact CA0
  -- chunk 21, half b: staging slot 1 is loaded, cast and stored into bf16 slot 0
  iapply (wp_load_vib c (slot2 21) _ _) $$ [VB1]
  · iexact VB1
  iintro VB1
  iapply (wp_load_vcb c (slot3 21) _ _) $$ [CB0]
  · iexact CB0
  iintro CB0
  iapply (wp_store_vcb c (slot3 21) _ _) $$ [CB0]
  · iexact CB0
  iintro CB0
  ihave CB0 := (store_vcb_at m c 21 _ _ rfl) $$ [CB0]
  · iexact CB0
  ihave H := (vca_slot_split c (slot3 21) fullShare _).1 $$ [CA0]
  · iexact CA0
  icases H with ⟨CAm0, CAp0⟩
  ihave H := (vcb_slot_split c (slot3 21) fullShare _).1 $$ [CB0]
  · iexact CB0
  icases H with ⟨CBm0, CBr0⟩
  -- chunk 21, half a: the device's own columns of slot 0 start for the result
  -- the printed part k0_part82 is opened
  simp only [k0_part82_eq_skeleton]
  unfold k0_part82_skel
  simp only [semSignalWord, semWaitWord, Prog.lift, Prog.bind_op, Prog.bind_ret, Prog.pure_eq_ret, wp_deviceId]
  iapply (wp_lca m K c 21 _) $$ [CAm0 OA21 Tla21]
  · isplitr; · (iapply (inv_at m K c (.lca (slot3 21))); iexact HR)
    isplitr; · iexact Rla18
    isplitl [CAm0]; · iexact CAm0
    isplitl [OA21]; · iexact OA21
    iexact Tla21
  iintro Kla21
  -- chunk 21, half b: the device's own columns of slot 0 start for the result
  iapply (wp_lcb m K c 21 _) $$ [CBm0 OB21 Tlb21]
  · isplitr; · (iapply (inv_at m K c (.lcb (slot3 21))); iexact HR)
    isplitr; · iexact Rlb18
    isplitl [CBm0]; · iexact CBm0
    isplitl [OB21]; · iexact OB21
    iexact Tlb21
  iintro Klb21
  -- chunk 21: the x-peer's columns of slot 0 are sent into its landing slot 21
  rw [show (oweD c 21 + oweF c 20 : CellTallies nD τ sig Unit) = (oweD c 22 + oweF c 20) + tallyAt (cell (px c) (.dr 21)) () Nout from by rw [oweD_peel c 21 (by decide), add_right_comm]; rfl]
  iapply (wp_send_d m K c _ (devx_eq c _ _ (k0_dev44_eq c)) 21 _ (oweD c 22 + oweF c 20) _) $$ [CAp0 LP21 HO Tds21 Tdr21]
  · isplitr; · (iapply (inv_at m K c (.ds 21)); iexact HR)
    isplitr; · (iapply (inv_at m K (px c) (.dr 21)); iexact HR)
    isplitr; · (iapply (reached0_at m K c (.ds 21)); iexact HR)
    isplitr; · (iapply (reached0_at m K (px c) (.dr 21)); iexact HR)
    isplitl [CAp0]; · iexact CAp0
    isplitl [LP21]; · iexact LP21
    isplitl [HO]; · iexact HO
    isplitl [Tds21]; · iexact Tds21
    iexact Tdr21
  iintro ⟨Kds21, HO⟩
  -- chunk 23, half a: its rows of x start for staging slot 1
  -- the printed part k0_part83 is opened
  simp only [k0_part83_eq_skeleton]
  unfold k0_part83_skel
  simp only [semSignalWord, semWaitWord, Prog.lift, Prog.bind_op, Prog.bind_ret, Prog.pure_eq_ret, wp_deviceId]
  iapply (wp_stage_a m K c 23 _) $$ [XA23 VA1 Tia23]
  · isplitr; · (iapply (inv_at m K c (.ina (slot2 23))); iexact HR)
    isplitr; · iexact Ria21
    isplitl [XA23]; · iexact XA23
    isplitl [VA1]; · iexact VA1
    iexact Tia23
  iintro Kia23
  -- chunk 23, half b: its rows of x start for staging slot 1
  iapply (wp_stage_b m K c 23 _) $$ [XB23 VB1 Tib23]
  · isplitr; · (iapply (inv_at m K c (.inb (slot2 23))); iexact HR)
    isplitr; · iexact Rib21
    isplitl [XB23]; · iexact XB23
    isplitl [VB1]; · iexact VB1
    iexact Tib23
  iintro Kib23
  -- chunk 20 of the x-peer has landed: it is copied into the result and relayed to the y-peer
  iapply (wp_wait_dr m K c 20 (credit_ldS 20) (oweD c 22 + oweF c 20) _) $$ [Cdr20 HO Pdr20]
  · isplitr; · (iapply (inv_at m K c (.dr 20)); iexact HR)
    isplitl [Cdr20]; · iexact Cdr20
    isplitl [HO]; · iexact HO
    isplitr; · (iapply (mayWait_dr c 20 22 20 (by decide) (by decide)); iexact Hlev)
    iexact Pdr20
  iintro ⟨HO, Pdr20, -, LD20⟩
  ihave H := (ld_share_split c 20 _).1 $$ [LD20]
  · iexact LD20
  icases H with ⟨LDl20, LDr20⟩
  -- the printed part k0_part84 is opened
  simp only [k0_part84_eq_skeleton]
  unfold k0_part84_skel
  simp only [semSignalWord, semWaitWord, Prog.lift, Prog.bind_op, Prog.bind_ret, Prog.pure_eq_ret, wp_deviceId]
  iapply (wp_lo m K c 20 _) $$ [LDl20 OR20 Tlo20]
  · isplitr; · (iapply (inv_at m K c (.lo 20)); iexact HR)
    isplitr; · (iapply (reached0_at m K c (.lo 20)); iexact HR)
    isplitl [LDl20]; · iexact LDl20
    isplitl [OR20]; · iexact OR20
    iexact Tlo20
  iintro Klo20
  rw [show (oweD c 22 + oweF c 20 : CellTallies nD τ sig Unit) = (oweD c 22 + oweF c 21) + tallyAt (cell (py c) (.fr 20)) () Nout from by rw [oweF_peel c 20 (by decide), ← add_assoc]; rfl]
  iapply (wp_send_f m K c _ (devy_eq c _ _ (k0_dev45_eq c)) 20 _ (oweD c 22 + oweF c 21) _) $$ [LDr20 OP20 HO Tfs20 Tfr20]
  · isplitr; · (iapply (inv_at m K c (.fs 20)); iexact HR)
    isplitr; · (iapply (inv_at m K (py c) (.fr 20)); iexact HR)
    isplitr; · (iapply (reached0_at m K c (.fs 20)); iexact HR)
    isplitr; · (iapply (reached0_at m K (py c) (.fr 20)); iexact HR)
    isplitl [LDr20]; · iexact LDr20
    isplitl [OP20]; · iexact OP20
    isplitl [HO]; · iexact HO
    isplitl [Tfs20]; · iexact Tfs20
    iexact Tfr20
  iintro ⟨Kfs20, HO⟩
  -- chunk 22, half a: its staged rows have landed in slot 0
  iapply (wp_wait_ina m K c 22 (credit_viaS (slot2 22)) (oweD c 22 + oweF c 21) _) $$ [Kia22 HO Pia0]
  · isplitr; · (iapply (inv_at m K c (.ina (slot2 22))); iexact HR)
    isplitl [Kia22]; · iexact Kia22
    isplitl [HO]; · iexact HO
    isplitr; · (iapply (mayWait_own c (.ina (slot2 22)) rfl 22 21); iexact Hlev)
    iexact Pia0
  iintro ⟨HO, Pia0, #Ria22, VA0, XA22⟩
  -- chunk 22, half b: its staged rows have landed in slot 0
  iapply (wp_wait_inb m K c 22 (credit_vibS (slot2 22)) (oweD c 22 + oweF c 21) _) $$ [Kib22 HO Pib0]
  · isplitr; · (iapply (inv_at m K c (.inb (slot2 22))); iexact HR)
    isplitl [Kib22]; · iexact Kib22
    isplitl [HO]; · iexact HO
    isplitr; · (iapply (mayWait_own c (.inb (slot2 22)) rfl 22 21); iexact Hlev)
    iexact Pib0
  iintro ⟨HO, Pib0, #Rib22, VB0, XB22⟩
  -- chunk 19: its local copy of vcast_a has landed
  iapply (wp_wait_lca m K c 19 (credit_oA c 19) (oweD c 22 + oweF c 21) _) $$ [Kla19 HO Pla1]
  · isplitr; · (iapply (inv_at m K c (.lca (slot3 19))); iexact HR)
    isplitl [Kla19]; · iexact Kla19
    isplitl [HO]; · iexact HO
    isplitr; · (iapply (mayWait_own c (.lca (slot3 19)) rfl 22 21); iexact Hlev)
    iexact Pla1
  iintro ⟨HO, Pla1, #Rla19, OA19, CAm1⟩
  -- chunk 19: its local copy of vcast_b has landed
  -- the printed part k0_part85 is opened
  simp only [k0_part85_eq_skeleton]
  unfold k0_part85_skel
  simp only [semSignalWord, semWaitWord, Prog.lift, Prog.bind_op, Prog.bind_ret, Prog.pure_eq_ret, wp_deviceId]
  iapply (wp_wait_lcb m K c 19 (credit_oB c 19) (oweD c 22 + oweF c 21) _) $$ [Klb19 HO Plb1]
  · isplitr; · (iapply (inv_at m K c (.lcb (slot3 19))); iexact HR)
    isplitl [Klb19]; · iexact Klb19
    isplitl [HO]; · iexact HO
    isplitr; · (iapply (mayWait_own c (.lcb (slot3 19)) rfl 22 21); iexact Hlev)
    iexact Plb1
  iintro ⟨HO, Plb1, #Rlb19, OB19, CBm1⟩
  -- chunk 19: its send along x has left the slot
  iapply (wp_wait_ds m K c 19 (credit_vcaPeer c (slot3 19)) (oweD c 22 + oweF c 21) _) $$ [Kds19 HO Pds19]
  · isplitr; · (iapply (inv_at m K c (.ds 19)); iexact HR)
    isplitl [Kds19]; · iexact Kds19
    isplitl [HO]; · iexact HO
    isplitr; · (iapply (mayWait_own c (.ds 19) rfl 22 21); iexact Hlev)
    iexact Pds19
  iintro ⟨HO, Pds19, -, CAp1⟩
  -- slot 1 of both bf16 buffers is whole again
  ihave CA1 := (vca_slot_split c (slot3 19) fullShare _).2 $$ [CAm1 CAp1]
  · isplitl [CAm1]; · iexact CAm1
    iexact CAp1
  ihave CB1 := (vcb_slot_split c (slot3 19) fullShare _).2 $$ [CBm1 CBr1]
  · isplitl [CBm1]; · iexact CBm1
    iexact CBr1
  -- chunk 22, half a: staging slot 0 is loaded, cast and stored into bf16 slot 1
  iapply (wp_load_via c (slot2 22) _ _) $$ [VA0]
  · iexact VA0
  iintro VA0
  iapply (wp_load_vca c (slot3 22) _ _) $$ [CA1]
  · iexact CA1
  iintro CA1
  iapply (wp_store_vca c (slot3 22) _ _) $$ [CA1]
  · iexact CA1
  iintro CA1
  ihave CA1 := (store_vca_at m c 22 _ _ rfl) $$ [CA1]
  · iexact CA1
  -- chunk 22, half b: staging slot 0 is loaded, cast and stored into bf16 slot 1
  iapply (wp_load_vib c (slot2 22) _ _) $$ [VB0]
  · iexact VB0
  iintro VB0
  iapply (wp_load_vcb c (slot3 22) _ _) $$ [CB1]
  · iexact CB1
  iintro CB1
  iapply (wp_store_vcb c (slot3 22) _ _) $$ [CB1]
  · iexact CB1
  iintro CB1
  ihave CB1 := (store_vcb_at m c 22 _ _ rfl) $$ [CB1]
  · iexact CB1
  ihave H := (vca_slot_split c (slot3 22) fullShare _).1 $$ [CA1]
  · iexact CA1
  icases H with ⟨CAm1, CAp1⟩
  ihave H := (vcb_slot_split c (slot3 22) fullShare _).1 $$ [CB1]
  · iexact CB1
  icases H with ⟨CBm1, CBr1⟩
  -- chunk 22, half a: the device's own columns of slot 1 start for the result
  -- the printed part k0_part86 is opened
  simp only [k0_part86_eq_skeleton]
  unfold k0_part86_skel
  simp only [semSignalWord, semWaitWord, Prog.lift, Prog.bind_op, Prog.bind_ret, Prog.pure_eq_ret, wp_deviceId]
  iapply (wp_lca m K c 22 _) $$ [CAm1 OA22 Tla22]
  · isplitr; · (iapply (inv_at m K c (.lca (slot3 22))); iexact HR)
    isplitr; · iexact Rla19
    isplitl [CAm1]; · iexact CAm1
    isplitl [OA22]; · iexact OA22
    iexact Tla22
  iintro Kla22
  -- chunk 22, half b: the device's own columns of slot 1 start for the result
  iapply (wp_lcb m K c 22 _) $$ [CBm1 OB22 Tlb22]
  · isplitr; · (iapply (inv_at m K c (.lcb (slot3 22))); iexact HR)
    isplitr; · iexact Rlb19
    isplitl [CBm1]; · iexact CBm1
    isplitl [OB22]; · iexact OB22
    iexact Tlb22
  iintro Klb22
  -- chunk 22: the x-peer's columns of slot 1 are sent into its landing slot 22
  rw [show (oweD c 22 + oweF c 21 : CellTallies nD τ sig Unit) = (oweD c 23 + oweF c 21) + tallyAt (cell (px c) (.dr 22)) () Nout from by rw [oweD_peel c 22 (by decide), add_right_comm]; rfl]
  iapply (wp_send_d m K c _ (devx_eq c _ _ (k0_dev46_eq c)) 22 _ (oweD c 23 + oweF c 21) _) $$ [CAp1 LP22 HO Tds22 Tdr22]
  · isplitr; · (iapply (inv_at m K c (.ds 22)); iexact HR)
    isplitr; · (iapply (inv_at m K (px c) (.dr 22)); iexact HR)
    isplitr; · (iapply (reached0_at m K c (.ds 22)); iexact HR)
    isplitr; · (iapply (reached0_at m K (px c) (.dr 22)); iexact HR)
    isplitl [CAp1]; · iexact CAp1
    isplitl [LP22]; · iexact LP22
    isplitl [HO]; · iexact HO
    isplitl [Tds22]; · iexact Tds22
    iexact Tdr22
  iintro ⟨Kds22, HO⟩
  -- chunk 24, half a: its rows of x start for staging slot 0
  -- the printed part k0_part87 is opened
  simp only [k0_part87_eq_skeleton]
  unfold k0_part87_skel
  simp only [semSignalWord, semWaitWord, Prog.lift, Prog.bind_op, Prog.bind_ret, Prog.pure_eq_ret, wp_deviceId]
  iapply (wp_stage_a m K c 24 _) $$ [XA24 VA0 Tia24]
  · isplitr; · (iapply (inv_at m K c (.ina (slot2 24))); iexact HR)
    isplitr; · iexact Ria22
    isplitl [XA24]; · iexact XA24
    isplitl [VA0]; · iexact VA0
    iexact Tia24
  iintro Kia24
  -- chunk 24, half b: its rows of x start for staging slot 0
  iapply (wp_stage_b m K c 24 _) $$ [XB24 VB0 Tib24]
  · isplitr; · (iapply (inv_at m K c (.inb (slot2 24))); iexact HR)
    isplitr; · iexact Rib22
    isplitl [XB24]; · iexact XB24
    isplitl [VB0]; · iexact VB0
    iexact Tib24
  iintro Kib24
  -- chunk 21 of the x-peer has landed: it is copied into the result and relayed to the y-peer
  iapply (wp_wait_dr m K c 21 (credit_ldS 21) (oweD c 23 + oweF c 21) _) $$ [Cdr21 HO Pdr21]
  · isplitr; · (iapply (inv_at m K c (.dr 21)); iexact HR)
    isplitl [Cdr21]; · iexact Cdr21
    isplitl [HO]; · iexact HO
    isplitr; · (iapply (mayWait_dr c 21 23 21 (by decide) (by decide)); iexact Hlev)
    iexact Pdr21
  iintro ⟨HO, Pdr21, -, LD21⟩
  ihave H := (ld_share_split c 21 _).1 $$ [LD21]
  · iexact LD21
  icases H with ⟨LDl21, LDr21⟩
  iapply (wp_lo m K c 21 _) $$ [LDl21 OR21 Tlo21]
  · isplitr; · (iapply (inv_at m K c (.lo 21)); iexact HR)
    isplitr; · (iapply (reached0_at m K c (.lo 21)); iexact HR)
    isplitl [LDl21]; · iexact LDl21
    isplitl [OR21]; · iexact OR21
    iexact Tlo21
  iintro Klo21
  rw [show (oweD c 23 + oweF c 21 : CellTallies nD τ sig Unit) = (oweD c 23 + oweF c 22) + tallyAt (cell (py c) (.fr 21)) () Nout from by rw [oweF_peel c 21 (by decide), ← add_assoc]; rfl]
  -- the printed part k0_part88 is opened
  simp only [k0_part88_eq_skeleton]
  unfold k0_part88_skel
  simp only [semSignalWord, semWaitWord, Prog.lift, Prog.bind_op, Prog.bind_ret, Prog.pure_eq_ret, wp_deviceId]
  iapply (wp_send_f m K c _ (devy_eq c _ _ (k0_dev47_eq c)) 21 _ (oweD c 23 + oweF c 22) _) $$ [LDr21 OP21 HO Tfs21 Tfr21]
  · isplitr; · (iapply (inv_at m K c (.fs 21)); iexact HR)
    isplitr; · (iapply (inv_at m K (py c) (.fr 21)); iexact HR)
    isplitr; · (iapply (reached0_at m K c (.fs 21)); iexact HR)
    isplitr; · (iapply (reached0_at m K (py c) (.fr 21)); iexact HR)
    isplitl [LDr21]; · iexact LDr21
    isplitl [OP21]; · iexact OP21
    isplitl [HO]; · iexact HO
    isplitl [Tfs21]; · iexact Tfs21
    iexact Tfr21
  iintro ⟨Kfs21, HO⟩
  -- chunk 23, half a: its staged rows have landed in slot 1
  iapply (wp_wait_ina m K c 23 (credit_viaS (slot2 23)) (oweD c 23 + oweF c 22) _) $$ [Kia23 HO Pia1]
  · isplitr; · (iapply (inv_at m K c (.ina (slot2 23))); iexact HR)
    isplitl [Kia23]; · iexact Kia23
    isplitl [HO]; · iexact HO
    isplitr; · (iapply (mayWait_own c (.ina (slot2 23)) rfl 23 22); iexact Hlev)
    iexact Pia1
  iintro ⟨HO, Pia1, #Ria23, VA1, XA23⟩
  -- chunk 23, half b: its staged rows have landed in slot 1
  iapply (wp_wait_inb m K c 23 (credit_vibS (slot2 23)) (oweD c 23 + oweF c 22) _) $$ [Kib23 HO Pib1]
  · isplitr; · (iapply (inv_at m K c (.inb (slot2 23))); iexact HR)
    isplitl [Kib23]; · iexact Kib23
    isplitl [HO]; · iexact HO
    isplitr; · (iapply (mayWait_own c (.inb (slot2 23)) rfl 23 22); iexact Hlev)
    iexact Pib1
  iintro ⟨HO, Pib1, #Rib23, VB1, XB23⟩
  -- chunk 20: its local copy of vcast_a has landed
  iapply (wp_wait_lca m K c 20 (credit_oA c 20) (oweD c 23 + oweF c 22) _) $$ [Kla20 HO Pla2]
  · isplitr; · (iapply (inv_at m K c (.lca (slot3 20))); iexact HR)
    isplitl [Kla20]; · iexact Kla20
    isplitl [HO]; · iexact HO
    isplitr; · (iapply (mayWait_own c (.lca (slot3 20)) rfl 23 22); iexact Hlev)
    iexact Pla2
  iintro ⟨HO, Pla2, #Rla20, OA20, CAm2⟩
  -- chunk 20: its local copy of vcast_b has landed
  iapply (wp_wait_lcb m K c 20 (credit_oB c 20) (oweD c 23 + oweF c 22) _) $$ [Klb20 HO Plb2]
  · isplitr; · (iapply (inv_at m K c (.lcb (slot3 20))); iexact HR)
    isplitl [Klb20]; · iexact Klb20
    isplitl [HO]; · iexact HO
    isplitr; · (iapply (mayWait_own c (.lcb (slot3 20)) rfl 23 22); iexact Hlev)
    iexact Plb2
  iintro ⟨HO, Plb2, #Rlb20, OB20, CBm2⟩
  -- chunk 20: its send along x has left the slot
  -- the printed part k0_part89 is opened
  simp only [k0_part89_eq_skeleton]
  unfold k0_part89_skel
  simp only [semSignalWord, semWaitWord, Prog.lift, Prog.bind_op, Prog.bind_ret, Prog.pure_eq_ret, wp_deviceId]
  iapply (wp_wait_ds m K c 20 (credit_vcaPeer c (slot3 20)) (oweD c 23 + oweF c 22) _) $$ [Kds20 HO Pds20]
  · isplitr; · (iapply (inv_at m K c (.ds 20)); iexact HR)
    isplitl [Kds20]; · iexact Kds20
    isplitl [HO]; · iexact HO
    isplitr; · (iapply (mayWait_own c (.ds 20) rfl 23 22); iexact Hlev)
    iexact Pds20
  iintro ⟨HO, Pds20, -, CAp2⟩
  -- slot 2 of both bf16 buffers is whole again
  ihave CA2 := (vca_slot_split c (slot3 20) fullShare _).2 $$ [CAm2 CAp2]
  · isplitl [CAm2]; · iexact CAm2
    iexact CAp2
  ihave CB2 := (vcb_slot_split c (slot3 20) fullShare _).2 $$ [CBm2 CBr2]
  · isplitl [CBm2]; · iexact CBm2
    iexact CBr2
  -- chunk 23, half a: staging slot 1 is loaded, cast and stored into bf16 slot 2
  iapply (wp_load_via c (slot2 23) _ _) $$ [VA1]
  · iexact VA1
  iintro VA1
  iapply (wp_load_vca c (slot3 23) _ _) $$ [CA2]
  · iexact CA2
  iintro CA2
  iapply (wp_store_vca c (slot3 23) _ _) $$ [CA2]
  · iexact CA2
  iintro CA2
  ihave CA2 := (store_vca_at m c 23 _ _ rfl) $$ [CA2]
  · iexact CA2
  -- chunk 23, half b: staging slot 1 is loaded, cast and stored into bf16 slot 2
  iapply (wp_load_vib c (slot2 23) _ _) $$ [VB1]
  · iexact VB1
  iintro VB1
  iapply (wp_load_vcb c (slot3 23) _ _) $$ [CB2]
  · iexact CB2
  iintro CB2
  iapply (wp_store_vcb c (slot3 23) _ _) $$ [CB2]
  · iexact CB2
  iintro CB2
  ihave CB2 := (store_vcb_at m c 23 _ _ rfl) $$ [CB2]
  · iexact CB2
  ihave H := (vca_slot_split c (slot3 23) fullShare _).1 $$ [CA2]
  · iexact CA2
  icases H with ⟨CAm2, CAp2⟩
  ihave H := (vcb_slot_split c (slot3 23) fullShare _).1 $$ [CB2]
  · iexact CB2
  icases H with ⟨CBm2, CBr2⟩
  -- chunk 23, half a: the device's own columns of slot 2 start for the result
  -- the printed part k0_part90 is opened
  simp only [k0_part90_eq_skeleton]
  unfold k0_part90_skel
  simp only [semSignalWord, semWaitWord, Prog.lift, Prog.bind_op, Prog.bind_ret, Prog.pure_eq_ret, wp_deviceId]
  iapply (wp_lca m K c 23 _) $$ [CAm2 OA23 Tla23]
  · isplitr; · (iapply (inv_at m K c (.lca (slot3 23))); iexact HR)
    isplitr; · iexact Rla20
    isplitl [CAm2]; · iexact CAm2
    isplitl [OA23]; · iexact OA23
    iexact Tla23
  iintro Kla23
  -- chunk 23, half b: the device's own columns of slot 2 start for the result
  iapply (wp_lcb m K c 23 _) $$ [CBm2 OB23 Tlb23]
  · isplitr; · (iapply (inv_at m K c (.lcb (slot3 23))); iexact HR)
    isplitr; · iexact Rlb20
    isplitl [CBm2]; · iexact CBm2
    isplitl [OB23]; · iexact OB23
    iexact Tlb23
  iintro Klb23
  -- chunk 23: the x-peer's columns of slot 2 are sent into its landing slot 23
  rw [show (oweD c 23 + oweF c 22 : CellTallies nD τ sig Unit) = (oweD c 24 + oweF c 22) + tallyAt (cell (px c) (.dr 23)) () Nout from by rw [oweD_peel c 23 (by decide), add_right_comm]; rfl]
  iapply (wp_send_d m K c _ (devx_eq c _ _ (k0_dev48_eq c)) 23 _ (oweD c 24 + oweF c 22) _) $$ [CAp2 LP23 HO Tds23 Tdr23]
  · isplitr; · (iapply (inv_at m K c (.ds 23)); iexact HR)
    isplitr; · (iapply (inv_at m K (px c) (.dr 23)); iexact HR)
    isplitr; · (iapply (reached0_at m K c (.ds 23)); iexact HR)
    isplitr; · (iapply (reached0_at m K (px c) (.dr 23)); iexact HR)
    isplitl [CAp2]; · iexact CAp2
    isplitl [LP23]; · iexact LP23
    isplitl [HO]; · iexact HO
    isplitl [Tds23]; · iexact Tds23
    iexact Tdr23
  iintro ⟨Kds23, HO⟩
  -- chunk 25, half a: its rows of x start for staging slot 1
  iapply (wp_stage_a m K c 25 _) $$ [XA25 VA1 Tia25]
  · isplitr; · (iapply (inv_at m K c (.ina (slot2 25))); iexact HR)
    isplitr; · iexact Ria23
    isplitl [XA25]; · iexact XA25
    isplitl [VA1]; · iexact VA1
    iexact Tia25
  iintro Kia25
  -- chunk 25, half b: its rows of x start for staging slot 1
  -- the printed part k0_part91 is opened
  simp only [k0_part91_eq_skeleton]
  unfold k0_part91_skel
  simp only [semSignalWord, semWaitWord, Prog.lift, Prog.bind_op, Prog.bind_ret, Prog.pure_eq_ret, wp_deviceId]
  iapply (wp_stage_b m K c 25 _) $$ [XB25 VB1 Tib25]
  · isplitr; · (iapply (inv_at m K c (.inb (slot2 25))); iexact HR)
    isplitr; · iexact Rib23
    isplitl [XB25]; · iexact XB25
    isplitl [VB1]; · iexact VB1
    iexact Tib25
  iintro Kib25
  -- chunk 22 of the x-peer has landed: it is copied into the result and relayed to the y-peer
  iapply (wp_wait_dr m K c 22 (credit_ldS 22) (oweD c 24 + oweF c 22) _) $$ [Cdr22 HO Pdr22]
  · isplitr; · (iapply (inv_at m K c (.dr 22)); iexact HR)
    isplitl [Cdr22]; · iexact Cdr22
    isplitl [HO]; · iexact HO
    isplitr; · (iapply (mayWait_dr c 22 24 22 (by decide) (by decide)); iexact Hlev)
    iexact Pdr22
  iintro ⟨HO, Pdr22, -, LD22⟩
  ihave H := (ld_share_split c 22 _).1 $$ [LD22]
  · iexact LD22
  icases H with ⟨LDl22, LDr22⟩
  iapply (wp_lo m K c 22 _) $$ [LDl22 OR22 Tlo22]
  · isplitr; · (iapply (inv_at m K c (.lo 22)); iexact HR)
    isplitr; · (iapply (reached0_at m K c (.lo 22)); iexact HR)
    isplitl [LDl22]; · iexact LDl22
    isplitl [OR22]; · iexact OR22
    iexact Tlo22
  iintro Klo22
  rw [show (oweD c 24 + oweF c 22 : CellTallies nD τ sig Unit) = (oweD c 24 + oweF c 23) + tallyAt (cell (py c) (.fr 22)) () Nout from by rw [oweF_peel c 22 (by decide), ← add_assoc]; rfl]
  -- the printed part k0_part92 is opened
  simp only [k0_part92_eq_skeleton]
  unfold k0_part92_skel
  simp only [semSignalWord, semWaitWord, Prog.lift, Prog.bind_op, Prog.bind_ret, Prog.pure_eq_ret, wp_deviceId]
  iapply (wp_send_f m K c _ (devy_eq c _ _ (k0_dev49_eq c)) 22 _ (oweD c 24 + oweF c 23) _) $$ [LDr22 OP22 HO Tfs22 Tfr22]
  · isplitr; · (iapply (inv_at m K c (.fs 22)); iexact HR)
    isplitr; · (iapply (inv_at m K (py c) (.fr 22)); iexact HR)
    isplitr; · (iapply (reached0_at m K c (.fs 22)); iexact HR)
    isplitr; · (iapply (reached0_at m K (py c) (.fr 22)); iexact HR)
    isplitl [LDr22]; · iexact LDr22
    isplitl [OP22]; · iexact OP22
    isplitl [HO]; · iexact HO
    isplitl [Tfs22]; · iexact Tfs22
    iexact Tfr22
  iintro ⟨Kfs22, HO⟩
  -- chunk 24, half a: its staged rows have landed in slot 0
  iapply (wp_wait_ina m K c 24 (credit_viaS (slot2 24)) (oweD c 24 + oweF c 23) _) $$ [Kia24 HO Pia0]
  · isplitr; · (iapply (inv_at m K c (.ina (slot2 24))); iexact HR)
    isplitl [Kia24]; · iexact Kia24
    isplitl [HO]; · iexact HO
    isplitr; · (iapply (mayWait_own c (.ina (slot2 24)) rfl 24 23); iexact Hlev)
    iexact Pia0
  iintro ⟨HO, Pia0, #Ria24, VA0, XA24⟩
  -- chunk 24, half b: its staged rows have landed in slot 0
  iapply (wp_wait_inb m K c 24 (credit_vibS (slot2 24)) (oweD c 24 + oweF c 23) _) $$ [Kib24 HO Pib0]
  · isplitr; · (iapply (inv_at m K c (.inb (slot2 24))); iexact HR)
    isplitl [Kib24]; · iexact Kib24
    isplitl [HO]; · iexact HO
    isplitr; · (iapply (mayWait_own c (.inb (slot2 24)) rfl 24 23); iexact Hlev)
    iexact Pib0
  iintro ⟨HO, Pib0, #Rib24, VB0, XB24⟩
  -- chunk 21: its local copy of vcast_a has landed
  iapply (wp_wait_lca m K c 21 (credit_oA c 21) (oweD c 24 + oweF c 23) _) $$ [Kla21 HO Pla0]
  · isplitr; · (iapply (inv_at m K c (.lca (slot3 21))); iexact HR)
    isplitl [Kla21]; · iexact Kla21
    isplitl [HO]; · iexact HO
    isplitr; · (iapply (mayWait_own c (.lca (slot3 21)) rfl 24 23); iexact Hlev)
    iexact Pla0
  iintro ⟨HO, Pla0, #Rla21, OA21, CAm0⟩
  -- chunk 21: its local copy of vcast_b has landed
  iapply (wp_wait_lcb m K c 21 (credit_oB c 21) (oweD c 24 + oweF c 23) _) $$ [Klb21 HO Plb0]
  · isplitr; · (iapply (inv_at m K c (.lcb (slot3 21))); iexact HR)
    isplitl [Klb21]; · iexact Klb21
    isplitl [HO]; · iexact HO
    isplitr; · (iapply (mayWait_own c (.lcb (slot3 21)) rfl 24 23); iexact Hlev)
    iexact Plb0
  iintro ⟨HO, Plb0, #Rlb21, OB21, CBm0⟩
  -- chunk 21: its send along x has left the slot
  -- the printed part k0_part93 is opened
  simp only [k0_part93_eq_skeleton]
  unfold k0_part93_skel
  simp only [semSignalWord, semWaitWord, Prog.lift, Prog.bind_op, Prog.bind_ret, Prog.pure_eq_ret, wp_deviceId]
  iapply (wp_wait_ds m K c 21 (credit_vcaPeer c (slot3 21)) (oweD c 24 + oweF c 23) _) $$ [Kds21 HO Pds21]
  · isplitr; · (iapply (inv_at m K c (.ds 21)); iexact HR)
    isplitl [Kds21]; · iexact Kds21
    isplitl [HO]; · iexact HO
    isplitr; · (iapply (mayWait_own c (.ds 21) rfl 24 23); iexact Hlev)
    iexact Pds21
  iintro ⟨HO, Pds21, -, CAp0⟩
  -- slot 0 of both bf16 buffers is whole again
  ihave CA0 := (vca_slot_split c (slot3 21) fullShare _).2 $$ [CAm0 CAp0]
  · isplitl [CAm0]; · iexact CAm0
    iexact CAp0
  ihave CB0 := (vcb_slot_split c (slot3 21) fullShare _).2 $$ [CBm0 CBr0]
  · isplitl [CBm0]; · iexact CBm0
    iexact CBr0
  -- chunk 24, half a: staging slot 0 is loaded, cast and stored into bf16 slot 0
  iapply (wp_load_via c (slot2 24) _ _) $$ [VA0]
  · iexact VA0
  iintro VA0
  iapply (wp_load_vca c (slot3 24) _ _) $$ [CA0]
  · iexact CA0
  iintro CA0
  iapply (wp_store_vca c (slot3 24) _ _) $$ [CA0]
  · iexact CA0
  iintro CA0
  ihave CA0 := (store_vca_at m c 24 _ _ rfl) $$ [CA0]
  · iexact CA0
  -- chunk 24, half b: staging slot 0 is loaded, cast and stored into bf16 slot 0
  iapply (wp_load_vib c (slot2 24) _ _) $$ [VB0]
  · iexact VB0
  iintro VB0
  iapply (wp_load_vcb c (slot3 24) _ _) $$ [CB0]
  · iexact CB0
  iintro CB0
  iapply (wp_store_vcb c (slot3 24) _ _) $$ [CB0]
  · iexact CB0
  iintro CB0
  ihave CB0 := (store_vcb_at m c 24 _ _ rfl) $$ [CB0]
  · iexact CB0
  ihave H := (vca_slot_split c (slot3 24) fullShare _).1 $$ [CA0]
  · iexact CA0
  icases H with ⟨CAm0, CAp0⟩
  ihave H := (vcb_slot_split c (slot3 24) fullShare _).1 $$ [CB0]
  · iexact CB0
  icases H with ⟨CBm0, CBr0⟩
  -- chunk 24, half a: the device's own columns of slot 0 start for the result
  iapply (wp_lca m K c 24 _) $$ [CAm0 OA24 Tla24]
  · isplitr; · (iapply (inv_at m K c (.lca (slot3 24))); iexact HR)
    isplitr; · iexact Rla21
    isplitl [CAm0]; · iexact CAm0
    isplitl [OA24]; · iexact OA24
    iexact Tla24
  iintro Kla24
  -- chunk 24, half b: the device's own columns of slot 0 start for the result
  -- the printed part k0_part94 is opened
  simp only [k0_part94_eq_skeleton]
  unfold k0_part94_skel
  simp only [semSignalWord, semWaitWord, Prog.lift, Prog.bind_op, Prog.bind_ret, Prog.pure_eq_ret, wp_deviceId]
  iapply (wp_lcb m K c 24 _) $$ [CBm0 OB24 Tlb24]
  · isplitr; · (iapply (inv_at m K c (.lcb (slot3 24))); iexact HR)
    isplitr; · iexact Rlb21
    isplitl [CBm0]; · iexact CBm0
    isplitl [OB24]; · iexact OB24
    iexact Tlb24
  iintro Klb24
  -- chunk 24: the x-peer's columns of slot 0 are sent into its landing slot 24
  rw [show (oweD c 24 + oweF c 23 : CellTallies nD τ sig Unit) = (oweD c 25 + oweF c 23) + tallyAt (cell (px c) (.dr 24)) () Nout from by rw [oweD_peel c 24 (by decide), add_right_comm]; rfl]
  iapply (wp_send_d m K c _ (devx_eq c _ _ (k0_dev50_eq c)) 24 _ (oweD c 25 + oweF c 23) _) $$ [CAp0 LP24 HO Tds24 Tdr24]
  · isplitr; · (iapply (inv_at m K c (.ds 24)); iexact HR)
    isplitr; · (iapply (inv_at m K (px c) (.dr 24)); iexact HR)
    isplitr; · (iapply (reached0_at m K c (.ds 24)); iexact HR)
    isplitr; · (iapply (reached0_at m K (px c) (.dr 24)); iexact HR)
    isplitl [CAp0]; · iexact CAp0
    isplitl [LP24]; · iexact LP24
    isplitl [HO]; · iexact HO
    isplitl [Tds24]; · iexact Tds24
    iexact Tdr24
  iintro ⟨Kds24, HO⟩
  -- chunk 26, half a: its rows of x start for staging slot 0
  iapply (wp_stage_a m K c 26 _) $$ [XA26 VA0 Tia26]
  · isplitr; · (iapply (inv_at m K c (.ina (slot2 26))); iexact HR)
    isplitr; · iexact Ria24
    isplitl [XA26]; · iexact XA26
    isplitl [VA0]; · iexact VA0
    iexact Tia26
  iintro Kia26
  -- chunk 26, half b: its rows of x start for staging slot 0
  iapply (wp_stage_b m K c 26 _) $$ [XB26 VB0 Tib26]
  · isplitr; · (iapply (inv_at m K c (.inb (slot2 26))); iexact HR)
    isplitr; · iexact Rib24
    isplitl [XB26]; · iexact XB26
    isplitl [VB0]; · iexact VB0
    iexact Tib26
  iintro Kib26
  -- chunk 23 of the x-peer has landed: it is copied into the result and relayed to the y-peer
  -- the printed part k0_part95 is opened
  simp only [k0_part95_eq_skeleton]
  unfold k0_part95_skel
  simp only [semSignalWord, semWaitWord, Prog.lift, Prog.bind_op, Prog.bind_ret, Prog.pure_eq_ret, wp_deviceId]
  iapply (wp_wait_dr m K c 23 (credit_ldS 23) (oweD c 25 + oweF c 23) _) $$ [Cdr23 HO Pdr23]
  · isplitr; · (iapply (inv_at m K c (.dr 23)); iexact HR)
    isplitl [Cdr23]; · iexact Cdr23
    isplitl [HO]; · iexact HO
    isplitr; · (iapply (mayWait_dr c 23 25 23 (by decide) (by decide)); iexact Hlev)
    iexact Pdr23
  iintro ⟨HO, Pdr23, -, LD23⟩
  ihave H := (ld_share_split c 23 _).1 $$ [LD23]
  · iexact LD23
  icases H with ⟨LDl23, LDr23⟩
  iapply (wp_lo m K c 23 _) $$ [LDl23 OR23 Tlo23]
  · isplitr; · (iapply (inv_at m K c (.lo 23)); iexact HR)
    isplitr; · (iapply (reached0_at m K c (.lo 23)); iexact HR)
    isplitl [LDl23]; · iexact LDl23
    isplitl [OR23]; · iexact OR23
    iexact Tlo23
  iintro Klo23
  rw [show (oweD c 25 + oweF c 23 : CellTallies nD τ sig Unit) = (oweD c 25 + oweF c 24) + tallyAt (cell (py c) (.fr 23)) () Nout from by rw [oweF_peel c 23 (by decide), ← add_assoc]; rfl]
  iapply (wp_send_f m K c _ (devy_eq c _ _ (k0_dev51_eq c)) 23 _ (oweD c 25 + oweF c 24) _) $$ [LDr23 OP23 HO Tfs23 Tfr23]
  · isplitr; · (iapply (inv_at m K c (.fs 23)); iexact HR)
    isplitr; · (iapply (inv_at m K (py c) (.fr 23)); iexact HR)
    isplitr; · (iapply (reached0_at m K c (.fs 23)); iexact HR)
    isplitr; · (iapply (reached0_at m K (py c) (.fr 23)); iexact HR)
    isplitl [LDr23]; · iexact LDr23
    isplitl [OP23]; · iexact OP23
    isplitl [HO]; · iexact HO
    isplitl [Tfs23]; · iexact Tfs23
    iexact Tfr23
  iintro ⟨Kfs23, HO⟩
  -- chunk 25, half a: its staged rows have landed in slot 1
  -- the printed part k0_part96 is opened
  simp only [k0_part96_eq_skeleton]
  unfold k0_part96_skel
  simp only [semSignalWord, semWaitWord, Prog.lift, Prog.bind_op, Prog.bind_ret, Prog.pure_eq_ret, wp_deviceId]
  iapply (wp_wait_ina m K c 25 (credit_viaS (slot2 25)) (oweD c 25 + oweF c 24) _) $$ [Kia25 HO Pia1]
  · isplitr; · (iapply (inv_at m K c (.ina (slot2 25))); iexact HR)
    isplitl [Kia25]; · iexact Kia25
    isplitl [HO]; · iexact HO
    isplitr; · (iapply (mayWait_own c (.ina (slot2 25)) rfl 25 24); iexact Hlev)
    iexact Pia1
  iintro ⟨HO, Pia1, #Ria25, VA1, XA25⟩
  -- chunk 25, half b: its staged rows have landed in slot 1
  iapply (wp_wait_inb m K c 25 (credit_vibS (slot2 25)) (oweD c 25 + oweF c 24) _) $$ [Kib25 HO Pib1]
  · isplitr; · (iapply (inv_at m K c (.inb (slot2 25))); iexact HR)
    isplitl [Kib25]; · iexact Kib25
    isplitl [HO]; · iexact HO
    isplitr; · (iapply (mayWait_own c (.inb (slot2 25)) rfl 25 24); iexact Hlev)
    iexact Pib1
  iintro ⟨HO, Pib1, #Rib25, VB1, XB25⟩
  -- chunk 22: its local copy of vcast_a has landed
  iapply (wp_wait_lca m K c 22 (credit_oA c 22) (oweD c 25 + oweF c 24) _) $$ [Kla22 HO Pla1]
  · isplitr; · (iapply (inv_at m K c (.lca (slot3 22))); iexact HR)
    isplitl [Kla22]; · iexact Kla22
    isplitl [HO]; · iexact HO
    isplitr; · (iapply (mayWait_own c (.lca (slot3 22)) rfl 25 24); iexact Hlev)
    iexact Pla1
  iintro ⟨HO, Pla1, #Rla22, OA22, CAm1⟩
  -- chunk 22: its local copy of vcast_b has landed
  iapply (wp_wait_lcb m K c 22 (credit_oB c 22) (oweD c 25 + oweF c 24) _) $$ [Klb22 HO Plb1]
  · isplitr; · (iapply (inv_at m K c (.lcb (slot3 22))); iexact HR)
    isplitl [Klb22]; · iexact Klb22
    isplitl [HO]; · iexact HO
    isplitr; · (iapply (mayWait_own c (.lcb (slot3 22)) rfl 25 24); iexact Hlev)
    iexact Plb1
  iintro ⟨HO, Plb1, #Rlb22, OB22, CBm1⟩
  -- chunk 22: its send along x has left the slot
  iapply (wp_wait_ds m K c 22 (credit_vcaPeer c (slot3 22)) (oweD c 25 + oweF c 24) _) $$ [Kds22 HO Pds22]
  · isplitr; · (iapply (inv_at m K c (.ds 22)); iexact HR)
    isplitl [Kds22]; · iexact Kds22
    isplitl [HO]; · iexact HO
    isplitr; · (iapply (mayWait_own c (.ds 22) rfl 25 24); iexact Hlev)
    iexact Pds22
  iintro ⟨HO, Pds22, -, CAp1⟩
  -- slot 1 of both bf16 buffers is whole again
  ihave CA1 := (vca_slot_split c (slot3 22) fullShare _).2 $$ [CAm1 CAp1]
  · isplitl [CAm1]; · iexact CAm1
    iexact CAp1
  ihave CB1 := (vcb_slot_split c (slot3 22) fullShare _).2 $$ [CBm1 CBr1]
  · isplitl [CBm1]; · iexact CBm1
    iexact CBr1
  -- chunk 25, half a: staging slot 1 is loaded, cast and stored into bf16 slot 1
  -- the printed part k0_part97 is opened
  simp only [k0_part97_eq_skeleton]
  unfold k0_part97_skel
  simp only [semSignalWord, semWaitWord, Prog.lift, Prog.bind_op, Prog.bind_ret, Prog.pure_eq_ret, wp_deviceId]
  iapply (wp_load_via c (slot2 25) _ _) $$ [VA1]
  · iexact VA1
  iintro VA1
  iapply (wp_load_vca c (slot3 25) _ _) $$ [CA1]
  · iexact CA1
  iintro CA1
  iapply (wp_store_vca c (slot3 25) _ _) $$ [CA1]
  · iexact CA1
  iintro CA1
  ihave CA1 := (store_vca_at m c 25 _ _ rfl) $$ [CA1]
  · iexact CA1
  -- chunk 25, half b: staging slot 1 is loaded, cast and stored into bf16 slot 1
  iapply (wp_load_vib c (slot2 25) _ _) $$ [VB1]
  · iexact VB1
  iintro VB1
  iapply (wp_load_vcb c (slot3 25) _ _) $$ [CB1]
  · iexact CB1
  iintro CB1
  iapply (wp_store_vcb c (slot3 25) _ _) $$ [CB1]
  · iexact CB1
  iintro CB1
  ihave CB1 := (store_vcb_at m c 25 _ _ rfl) $$ [CB1]
  · iexact CB1
  ihave H := (vca_slot_split c (slot3 25) fullShare _).1 $$ [CA1]
  · iexact CA1
  icases H with ⟨CAm1, CAp1⟩
  ihave H := (vcb_slot_split c (slot3 25) fullShare _).1 $$ [CB1]
  · iexact CB1
  icases H with ⟨CBm1, CBr1⟩
  -- chunk 25, half a: the device's own columns of slot 1 start for the result
  iapply (wp_lca m K c 25 _) $$ [CAm1 OA25 Tla25]
  · isplitr; · (iapply (inv_at m K c (.lca (slot3 25))); iexact HR)
    isplitr; · iexact Rla22
    isplitl [CAm1]; · iexact CAm1
    isplitl [OA25]; · iexact OA25
    iexact Tla25
  iintro Kla25
  -- chunk 25, half b: the device's own columns of slot 1 start for the result
  iapply (wp_lcb m K c 25 _) $$ [CBm1 OB25 Tlb25]
  · isplitr; · (iapply (inv_at m K c (.lcb (slot3 25))); iexact HR)
    isplitr; · iexact Rlb22
    isplitl [CBm1]; · iexact CBm1
    isplitl [OB25]; · iexact OB25
    iexact Tlb25
  iintro Klb25
  -- chunk 25: the x-peer's columns of slot 1 are sent into its landing slot 25
  rw [show (oweD c 25 + oweF c 24 : CellTallies nD τ sig Unit) = (oweD c 26 + oweF c 24) + tallyAt (cell (px c) (.dr 25)) () Nout from by rw [oweD_peel c 25 (by decide), add_right_comm]; rfl]
  -- the printed part k0_part98 is opened
  simp only [k0_part98_eq_skeleton]
  unfold k0_part98_skel
  simp only [semSignalWord, semWaitWord, Prog.lift, Prog.bind_op, Prog.bind_ret, Prog.pure_eq_ret, wp_deviceId]
  iapply (wp_send_d m K c _ (devx_eq c _ _ (k0_dev52_eq c)) 25 _ (oweD c 26 + oweF c 24) _) $$ [CAp1 LP25 HO Tds25 Tdr25]
  · isplitr; · (iapply (inv_at m K c (.ds 25)); iexact HR)
    isplitr; · (iapply (inv_at m K (px c) (.dr 25)); iexact HR)
    isplitr; · (iapply (reached0_at m K c (.ds 25)); iexact HR)
    isplitr; · (iapply (reached0_at m K (px c) (.dr 25)); iexact HR)
    isplitl [CAp1]; · iexact CAp1
    isplitl [LP25]; · iexact LP25
    isplitl [HO]; · iexact HO
    isplitl [Tds25]; · iexact Tds25
    iexact Tdr25
  iintro ⟨Kds25, HO⟩
  -- chunk 27, half a: its rows of x start for staging slot 1
  iapply (wp_stage_a m K c 27 _) $$ [XA27 VA1 Tia27]
  · isplitr; · (iapply (inv_at m K c (.ina (slot2 27))); iexact HR)
    isplitr; · iexact Ria25
    isplitl [XA27]; · iexact XA27
    isplitl [VA1]; · iexact VA1
    iexact Tia27
  iintro Kia27
  -- chunk 27, half b: its rows of x start for staging slot 1
  iapply (wp_stage_b m K c 27 _) $$ [XB27 VB1 Tib27]
  · isplitr; · (iapply (inv_at m K c (.inb (slot2 27))); iexact HR)
    isplitr; · iexact Rib25
    isplitl [XB27]; · iexact XB27
    isplitl [VB1]; · iexact VB1
    iexact Tib27
  iintro Kib27
  -- chunk 24 of the x-peer has landed: it is copied into the result and relayed to the y-peer
  -- the printed part k0_part99 is opened
  simp only [k0_part99_eq_skeleton]
  unfold k0_part99_skel
  simp only [semSignalWord, semWaitWord, Prog.lift, Prog.bind_op, Prog.bind_ret, Prog.pure_eq_ret, wp_deviceId]
  iapply (wp_wait_dr m K c 24 (credit_ldS 24) (oweD c 26 + oweF c 24) _) $$ [Cdr24 HO Pdr24]
  · isplitr; · (iapply (inv_at m K c (.dr 24)); iexact HR)
    isplitl [Cdr24]; · iexact Cdr24
    isplitl [HO]; · iexact HO
    isplitr; · (iapply (mayWait_dr c 24 26 24 (by decide) (by decide)); iexact Hlev)
    iexact Pdr24
  iintro ⟨HO, Pdr24, -, LD24⟩
  ihave H := (ld_share_split c 24 _).1 $$ [LD24]
  · iexact LD24
  icases H with ⟨LDl24, LDr24⟩
  iapply (wp_lo m K c 24 _) $$ [LDl24 OR24 Tlo24]
  · isplitr; · (iapply (inv_at m K c (.lo 24)); iexact HR)
    isplitr; · (iapply (reached0_at m K c (.lo 24)); iexact HR)
    isplitl [LDl24]; · iexact LDl24
    isplitl [OR24]; · iexact OR24
    iexact Tlo24
  iintro Klo24
  rw [show (oweD c 26 + oweF c 24 : CellTallies nD τ sig Unit) = (oweD c 26 + oweF c 25) + tallyAt (cell (py c) (.fr 24)) () Nout from by rw [oweF_peel c 24 (by decide), ← add_assoc]; rfl]
  iapply (wp_send_f m K c _ (devy_eq c _ _ (k0_dev53_eq c)) 24 _ (oweD c 26 + oweF c 25) _) $$ [LDr24 OP24 HO Tfs24 Tfr24]
  · isplitr; · (iapply (inv_at m K c (.fs 24)); iexact HR)
    isplitr; · (iapply (inv_at m K (py c) (.fr 24)); iexact HR)
    isplitr; · (iapply (reached0_at m K c (.fs 24)); iexact HR)
    isplitr; · (iapply (reached0_at m K (py c) (.fr 24)); iexact HR)
    isplitl [LDr24]; · iexact LDr24
    isplitl [OP24]; · iexact OP24
    isplitl [HO]; · iexact HO
    isplitl [Tfs24]; · iexact Tfs24
    iexact Tfr24
  iintro ⟨Kfs24, HO⟩
  -- chunk 26, half a: its staged rows have landed in slot 0
  -- the printed part k0_part100 is opened
  simp only [k0_part100_eq_skeleton]
  unfold k0_part100_skel
  simp only [semSignalWord, semWaitWord, Prog.lift, Prog.bind_op, Prog.bind_ret, Prog.pure_eq_ret, wp_deviceId]
  iapply (wp_wait_ina m K c 26 (credit_viaS (slot2 26)) (oweD c 26 + oweF c 25) _) $$ [Kia26 HO Pia0]
  · isplitr; · (iapply (inv_at m K c (.ina (slot2 26))); iexact HR)
    isplitl [Kia26]; · iexact Kia26
    isplitl [HO]; · iexact HO
    isplitr; · (iapply (mayWait_own c (.ina (slot2 26)) rfl 26 25); iexact Hlev)
    iexact Pia0
  iintro ⟨HO, Pia0, #Ria26, VA0, XA26⟩
  -- chunk 26, half b: its staged rows have landed in slot 0
  iapply (wp_wait_inb m K c 26 (credit_vibS (slot2 26)) (oweD c 26 + oweF c 25) _) $$ [Kib26 HO Pib0]
  · isplitr; · (iapply (inv_at m K c (.inb (slot2 26))); iexact HR)
    isplitl [Kib26]; · iexact Kib26
    isplitl [HO]; · iexact HO
    isplitr; · (iapply (mayWait_own c (.inb (slot2 26)) rfl 26 25); iexact Hlev)
    iexact Pib0
  iintro ⟨HO, Pib0, #Rib26, VB0, XB26⟩
  -- chunk 23: its local copy of vcast_a has landed
  iapply (wp_wait_lca m K c 23 (credit_oA c 23) (oweD c 26 + oweF c 25) _) $$ [Kla23 HO Pla2]
  · isplitr; · (iapply (inv_at m K c (.lca (slot3 23))); iexact HR)
    isplitl [Kla23]; · iexact Kla23
    isplitl [HO]; · iexact HO
    isplitr; · (iapply (mayWait_own c (.lca (slot3 23)) rfl 26 25); iexact Hlev)
    iexact Pla2
  iintro ⟨HO, Pla2, #Rla23, OA23, CAm2⟩
  -- chunk 23: its local copy of vcast_b has landed
  iapply (wp_wait_lcb m K c 23 (credit_oB c 23) (oweD c 26 + oweF c 25) _) $$ [Klb23 HO Plb2]
  · isplitr; · (iapply (inv_at m K c (.lcb (slot3 23))); iexact HR)
    isplitl [Klb23]; · iexact Klb23
    isplitl [HO]; · iexact HO
    isplitr; · (iapply (mayWait_own c (.lcb (slot3 23)) rfl 26 25); iexact Hlev)
    iexact Plb2
  iintro ⟨HO, Plb2, #Rlb23, OB23, CBm2⟩
  -- chunk 23: its send along x has left the slot
  iapply (wp_wait_ds m K c 23 (credit_vcaPeer c (slot3 23)) (oweD c 26 + oweF c 25) _) $$ [Kds23 HO Pds23]
  · isplitr; · (iapply (inv_at m K c (.ds 23)); iexact HR)
    isplitl [Kds23]; · iexact Kds23
    isplitl [HO]; · iexact HO
    isplitr; · (iapply (mayWait_own c (.ds 23) rfl 26 25); iexact Hlev)
    iexact Pds23
  iintro ⟨HO, Pds23, -, CAp2⟩
  -- slot 2 of both bf16 buffers is whole again
  ihave CA2 := (vca_slot_split c (slot3 23) fullShare _).2 $$ [CAm2 CAp2]
  · isplitl [CAm2]; · iexact CAm2
    iexact CAp2
  ihave CB2 := (vcb_slot_split c (slot3 23) fullShare _).2 $$ [CBm2 CBr2]
  · isplitl [CBm2]; · iexact CBm2
    iexact CBr2
  -- chunk 26, half a: staging slot 0 is loaded, cast and stored into bf16 slot 2
  iapply (wp_load_via c (slot2 26) _ _) $$ [VA0]
  · iexact VA0
  iintro VA0
  iapply (wp_load_vca c (slot3 26) _ _) $$ [CA2]
  · iexact CA2
  iintro CA2
  -- the printed part k0_part101 is opened
  simp only [k0_part101_eq_skeleton]
  unfold k0_part101_skel
  simp only [semSignalWord, semWaitWord, Prog.lift, Prog.bind_op, Prog.bind_ret, Prog.pure_eq_ret, wp_deviceId]
  iapply (wp_store_vca c (slot3 26) _ _) $$ [CA2]
  · iexact CA2
  iintro CA2
  ihave CA2 := (store_vca_at m c 26 _ _ rfl) $$ [CA2]
  · iexact CA2
  -- chunk 26, half b: staging slot 0 is loaded, cast and stored into bf16 slot 2
  iapply (wp_load_vib c (slot2 26) _ _) $$ [VB0]
  · iexact VB0
  iintro VB0
  iapply (wp_load_vcb c (slot3 26) _ _) $$ [CB2]
  · iexact CB2
  iintro CB2
  iapply (wp_store_vcb c (slot3 26) _ _) $$ [CB2]
  · iexact CB2
  iintro CB2
  ihave CB2 := (store_vcb_at m c 26 _ _ rfl) $$ [CB2]
  · iexact CB2
  ihave H := (vca_slot_split c (slot3 26) fullShare _).1 $$ [CA2]
  · iexact CA2
  icases H with ⟨CAm2, CAp2⟩
  ihave H := (vcb_slot_split c (slot3 26) fullShare _).1 $$ [CB2]
  · iexact CB2
  icases H with ⟨CBm2, CBr2⟩
  -- chunk 26, half a: the device's own columns of slot 2 start for the result
  iapply (wp_lca m K c 26 _) $$ [CAm2 OA26 Tla26]
  · isplitr; · (iapply (inv_at m K c (.lca (slot3 26))); iexact HR)
    isplitr; · iexact Rla23
    isplitl [CAm2]; · iexact CAm2
    isplitl [OA26]; · iexact OA26
    iexact Tla26
  iintro Kla26
  -- chunk 26, half b: the device's own columns of slot 2 start for the result
  iapply (wp_lcb m K c 26 _) $$ [CBm2 OB26 Tlb26]
  · isplitr; · (iapply (inv_at m K c (.lcb (slot3 26))); iexact HR)
    isplitr; · iexact Rlb23
    isplitl [CBm2]; · iexact CBm2
    isplitl [OB26]; · iexact OB26
    iexact Tlb26
  iintro Klb26
  -- chunk 26: the x-peer's columns of slot 2 are sent into its landing slot 26
  rw [show (oweD c 26 + oweF c 25 : CellTallies nD τ sig Unit) = (oweD c 27 + oweF c 25) + tallyAt (cell (px c) (.dr 26)) () Nout from by rw [oweD_peel c 26 (by decide), add_right_comm]; rfl]
  -- the printed part k0_part102 is opened
  simp only [k0_part102_eq_skeleton]
  unfold k0_part102_skel
  simp only [semSignalWord, semWaitWord, Prog.lift, Prog.bind_op, Prog.bind_ret, Prog.pure_eq_ret, wp_deviceId]
  iapply (wp_send_d m K c _ (devx_eq c _ _ (k0_dev54_eq c)) 26 _ (oweD c 27 + oweF c 25) _) $$ [CAp2 LP26 HO Tds26 Tdr26]
  · isplitr; · (iapply (inv_at m K c (.ds 26)); iexact HR)
    isplitr; · (iapply (inv_at m K (px c) (.dr 26)); iexact HR)
    isplitr; · (iapply (reached0_at m K c (.ds 26)); iexact HR)
    isplitr; · (iapply (reached0_at m K (px c) (.dr 26)); iexact HR)
    isplitl [CAp2]; · iexact CAp2
    isplitl [LP26]; · iexact LP26
    isplitl [HO]; · iexact HO
    isplitl [Tds26]; · iexact Tds26
    iexact Tdr26
  iintro ⟨Kds26, HO⟩
  -- chunk 28, half a: its rows of x start for staging slot 0
  iapply (wp_stage_a m K c 28 _) $$ [XA28 VA0 Tia28]
  · isplitr; · (iapply (inv_at m K c (.ina (slot2 28))); iexact HR)
    isplitr; · iexact Ria26
    isplitl [XA28]; · iexact XA28
    isplitl [VA0]; · iexact VA0
    iexact Tia28
  iintro Kia28
  -- chunk 28, half b: its rows of x start for staging slot 0
  iapply (wp_stage_b m K c 28 _) $$ [XB28 VB0 Tib28]
  · isplitr; · (iapply (inv_at m K c (.inb (slot2 28))); iexact HR)
    isplitr; · iexact Rib26
    isplitl [XB28]; · iexact XB28
    isplitl [VB0]; · iexact VB0
    iexact Tib28
  iintro Kib28
  -- chunk 25 of the x-peer has landed: it is copied into the result and relayed to the y-peer
  iapply (wp_wait_dr m K c 25 (credit_ldS 25) (oweD c 27 + oweF c 25) _) $$ [Cdr25 HO Pdr25]
  · isplitr; · (iapply (inv_at m K c (.dr 25)); iexact HR)
    isplitl [Cdr25]; · iexact Cdr25
    isplitl [HO]; · iexact HO
    isplitr; · (iapply (mayWait_dr c 25 27 25 (by decide) (by decide)); iexact Hlev)
    iexact Pdr25
  iintro ⟨HO, Pdr25, -, LD25⟩
  ihave H := (ld_share_split c 25 _).1 $$ [LD25]
  · iexact LD25
  icases H with ⟨LDl25, LDr25⟩
  -- the printed part k0_part103 is opened
  simp only [k0_part103_eq_skeleton]
  unfold k0_part103_skel
  simp only [semSignalWord, semWaitWord, Prog.lift, Prog.bind_op, Prog.bind_ret, Prog.pure_eq_ret, wp_deviceId]
  iapply (wp_lo m K c 25 _) $$ [LDl25 OR25 Tlo25]
  · isplitr; · (iapply (inv_at m K c (.lo 25)); iexact HR)
    isplitr; · (iapply (reached0_at m K c (.lo 25)); iexact HR)
    isplitl [LDl25]; · iexact LDl25
    isplitl [OR25]; · iexact OR25
    iexact Tlo25
  iintro Klo25
  rw [show (oweD c 27 + oweF c 25 : CellTallies nD τ sig Unit) = (oweD c 27 + oweF c 26) + tallyAt (cell (py c) (.fr 25)) () Nout from by rw [oweF_peel c 25 (by decide), ← add_assoc]; rfl]
  iapply (wp_send_f m K c _ (devy_eq c _ _ (k0_dev55_eq c)) 25 _ (oweD c 27 + oweF c 26) _) $$ [LDr25 OP25 HO Tfs25 Tfr25]
  · isplitr; · (iapply (inv_at m K c (.fs 25)); iexact HR)
    isplitr; · (iapply (inv_at m K (py c) (.fr 25)); iexact HR)
    isplitr; · (iapply (reached0_at m K c (.fs 25)); iexact HR)
    isplitr; · (iapply (reached0_at m K (py c) (.fr 25)); iexact HR)
    isplitl [LDr25]; · iexact LDr25
    isplitl [OP25]; · iexact OP25
    isplitl [HO]; · iexact HO
    isplitl [Tfs25]; · iexact Tfs25
    iexact Tfr25
  iintro ⟨Kfs25, HO⟩
  -- chunk 27, half a: its staged rows have landed in slot 1
  iapply (wp_wait_ina m K c 27 (credit_viaS (slot2 27)) (oweD c 27 + oweF c 26) _) $$ [Kia27 HO Pia1]
  · isplitr; · (iapply (inv_at m K c (.ina (slot2 27))); iexact HR)
    isplitl [Kia27]; · iexact Kia27
    isplitl [HO]; · iexact HO
    isplitr; · (iapply (mayWait_own c (.ina (slot2 27)) rfl 27 26); iexact Hlev)
    iexact Pia1
  iintro ⟨HO, Pia1, #Ria27, VA1, XA27⟩
  -- chunk 27, half b: its staged rows have landed in slot 1
  -- the printed part k0_part104 is opened
  simp only [k0_part104_eq_skeleton]
  unfold k0_part104_skel
  simp only [semSignalWord, semWaitWord, Prog.lift, Prog.bind_op, Prog.bind_ret, Prog.pure_eq_ret, wp_deviceId]
  iapply (wp_wait_inb m K c 27 (credit_vibS (slot2 27)) (oweD c 27 + oweF c 26) _) $$ [Kib27 HO Pib1]
  · isplitr; · (iapply (inv_at m K c (.inb (slot2 27))); iexact HR)
    isplitl [Kib27]; · iexact Kib27
    isplitl [HO]; · iexact HO
    isplitr; · (iapply (mayWait_own c (.inb (slot2 27)) rfl 27 26); iexact Hlev)
    iexact Pib1
  iintro ⟨HO, Pib1, #Rib27, VB1, XB27⟩
  -- chunk 24: its local copy of vcast_a has landed
  iapply (wp_wait_lca m K c 24 (credit_oA c 24) (oweD c 27 + oweF c 26) _) $$ [Kla24 HO Pla0]
  · isplitr; · (iapply (inv_at m K c (.lca (slot3 24))); iexact HR)
    isplitl [Kla24]; · iexact Kla24
    isplitl [HO]; · iexact HO
    isplitr; · (iapply (mayWait_own c (.lca (slot3 24)) rfl 27 26); iexact Hlev)
    iexact Pla0
  iintro ⟨HO, Pla0, #Rla24, OA24, CAm0⟩
  -- chunk 24: its local copy of vcast_b has landed
  iapply (wp_wait_lcb m K c 24 (credit_oB c 24) (oweD c 27 + oweF c 26) _) $$ [Klb24 HO Plb0]
  · isplitr; · (iapply (inv_at m K c (.lcb (slot3 24))); iexact HR)
    isplitl [Klb24]; · iexact Klb24
    isplitl [HO]; · iexact HO
    isplitr; · (iapply (mayWait_own c (.lcb (slot3 24)) rfl 27 26); iexact Hlev)
    iexact Plb0
  iintro ⟨HO, Plb0, #Rlb24, OB24, CBm0⟩
  -- chunk 24: its send along x has left the slot
  iapply (wp_wait_ds m K c 24 (credit_vcaPeer c (slot3 24)) (oweD c 27 + oweF c 26) _) $$ [Kds24 HO Pds24]
  · isplitr; · (iapply (inv_at m K c (.ds 24)); iexact HR)
    isplitl [Kds24]; · iexact Kds24
    isplitl [HO]; · iexact HO
    isplitr; · (iapply (mayWait_own c (.ds 24) rfl 27 26); iexact Hlev)
    iexact Pds24
  iintro ⟨HO, Pds24, -, CAp0⟩
  -- slot 0 of both bf16 buffers is whole again
  ihave CA0 := (vca_slot_split c (slot3 24) fullShare _).2 $$ [CAm0 CAp0]
  · isplitl [CAm0]; · iexact CAm0
    iexact CAp0
  ihave CB0 := (vcb_slot_split c (slot3 24) fullShare _).2 $$ [CBm0 CBr0]
  · isplitl [CBm0]; · iexact CBm0
    iexact CBr0
  -- chunk 27, half a: staging slot 1 is loaded, cast and stored into bf16 slot 0
  iapply (wp_load_via c (slot2 27) _ _) $$ [VA1]
  · iexact VA1
  iintro VA1
  iapply (wp_load_vca c (slot3 27) _ _) $$ [CA0]
  · iexact CA0
  iintro CA0
  iapply (wp_store_vca c (slot3 27) _ _) $$ [CA0]
  · iexact CA0
  iintro CA0
  ihave CA0 := (store_vca_at m c 27 _ _ rfl) $$ [CA0]
  · iexact CA0
  -- chunk 27, half b: staging slot 1 is loaded, cast and stored into bf16 slot 0
  iapply (wp_load_vib c (slot2 27) _ _) $$ [VB1]
  · iexact VB1
  iintro VB1
  -- the printed part k0_part105 is opened
  simp only [k0_part105_eq_skeleton]
  unfold k0_part105_skel
  simp only [semSignalWord, semWaitWord, Prog.lift, Prog.bind_op, Prog.bind_ret, Prog.pure_eq_ret, wp_deviceId]
  iapply (wp_load_vcb c (slot3 27) _ _) $$ [CB0]
  · iexact CB0
  iintro CB0
  iapply (wp_store_vcb c (slot3 27) _ _) $$ [CB0]
  · iexact CB0
  iintro CB0
  ihave CB0 := (store_vcb_at m c 27 _ _ rfl) $$ [CB0]
  · iexact CB0
  ihave H := (vca_slot_split c (slot3 27) fullShare _).1 $$ [CA0]
  · iexact CA0
  icases H with ⟨CAm0, CAp0⟩
  ihave H := (vcb_slot_split c (slot3 27) fullShare _).1 $$ [CB0]
  · iexact CB0
  icases H with ⟨CBm0, CBr0⟩
  -- chunk 27, half a: the device's own columns of slot 0 start for the result
  iapply (wp_lca m K c 27 _) $$ [CAm0 OA27 Tla27]
  · isplitr; · (iapply (inv_at m K c (.lca (slot3 27))); iexact HR)
    isplitr; · iexact Rla24
    isplitl [CAm0]; · iexact CAm0
    isplitl [OA27]; · iexact OA27
    iexact Tla27
  iintro Kla27
  -- chunk 27, half b: the device's own columns of slot 0 start for the result
  iapply (wp_lcb m K c 27 _) $$ [CBm0 OB27 Tlb27]
  · isplitr; · (iapply (inv_at m K c (.lcb (slot3 27))); iexact HR)
    isplitr; · iexact Rlb24
    isplitl [CBm0]; · iexact CBm0
    isplitl [OB27]; · iexact OB27
    iexact Tlb27
  iintro Klb27
  -- chunk 27: the x-peer's columns of slot 0 are sent into its landing slot 27
  rw [show (oweD c 27 + oweF c 26 : CellTallies nD τ sig Unit) = (oweD c 28 + oweF c 26) + tallyAt (cell (px c) (.dr 27)) () Nout from by rw [oweD_peel c 27 (by decide), add_right_comm]; rfl]
  -- the printed part k0_part106 is opened
  simp only [k0_part106_eq_skeleton]
  unfold k0_part106_skel
  simp only [semSignalWord, semWaitWord, Prog.lift, Prog.bind_op, Prog.bind_ret, Prog.pure_eq_ret, wp_deviceId]
  iapply (wp_send_d m K c _ (devx_eq c _ _ (k0_dev56_eq c)) 27 _ (oweD c 28 + oweF c 26) _) $$ [CAp0 LP27 HO Tds27 Tdr27]
  · isplitr; · (iapply (inv_at m K c (.ds 27)); iexact HR)
    isplitr; · (iapply (inv_at m K (px c) (.dr 27)); iexact HR)
    isplitr; · (iapply (reached0_at m K c (.ds 27)); iexact HR)
    isplitr; · (iapply (reached0_at m K (px c) (.dr 27)); iexact HR)
    isplitl [CAp0]; · iexact CAp0
    isplitl [LP27]; · iexact LP27
    isplitl [HO]; · iexact HO
    isplitl [Tds27]; · iexact Tds27
    iexact Tdr27
  iintro ⟨Kds27, HO⟩
  -- chunk 29, half a: its rows of x start for staging slot 1
  iapply (wp_stage_a m K c 29 _) $$ [XA29 VA1 Tia29]
  · isplitr; · (iapply (inv_at m K c (.ina (slot2 29))); iexact HR)
    isplitr; · iexact Ria27
    isplitl [XA29]; · iexact XA29
    isplitl [VA1]; · iexact VA1
    iexact Tia29
  iintro Kia29
  -- chunk 29, half b: its rows of x start for staging slot 1
  iapply (wp_stage_b m K c 29 _) $$ [XB29 VB1 Tib29]
  · isplitr; · (iapply (inv_at m K c (.inb (slot2 29))); iexact HR)
    isplitr; · iexact Rib27
    isplitl [XB29]; · iexact XB29
    isplitl [VB1]; · iexact VB1
    iexact Tib29
  iintro Kib29
  -- chunk 26 of the x-peer has landed: it is copied into the result and relayed to the y-peer
  iapply (wp_wait_dr m K c 26 (credit_ldS 26) (oweD c 28 + oweF c 26) _) $$ [Cdr26 HO Pdr26]
  · isplitr; · (iapply (inv_at m K c (.dr 26)); iexact HR)
    isplitl [Cdr26]; · iexact Cdr26
    isplitl [HO]; · iexact HO
    isplitr; · (iapply (mayWait_dr c 26 28 26 (by decide) (by decide)); iexact Hlev)
    iexact Pdr26
  iintro ⟨HO, Pdr26, -, LD26⟩
  ihave H := (ld_share_split c 26 _).1 $$ [LD26]
  · iexact LD26
  icases H with ⟨LDl26, LDr26⟩
  -- the printed part k0_part107 is opened
  simp only [k0_part107_eq_skeleton]
  unfold k0_part107_skel
  simp only [semSignalWord, semWaitWord, Prog.lift, Prog.bind_op, Prog.bind_ret, Prog.pure_eq_ret, wp_deviceId]
  iapply (wp_lo m K c 26 _) $$ [LDl26 OR26 Tlo26]
  · isplitr; · (iapply (inv_at m K c (.lo 26)); iexact HR)
    isplitr; · (iapply (reached0_at m K c (.lo 26)); iexact HR)
    isplitl [LDl26]; · iexact LDl26
    isplitl [OR26]; · iexact OR26
    iexact Tlo26
  iintro Klo26
  rw [show (oweD c 28 + oweF c 26 : CellTallies nD τ sig Unit) = (oweD c 28 + oweF c 27) + tallyAt (cell (py c) (.fr 26)) () Nout from by rw [oweF_peel c 26 (by decide), ← add_assoc]; rfl]
  iapply (wp_send_f m K c _ (devy_eq c _ _ (k0_dev57_eq c)) 26 _ (oweD c 28 + oweF c 27) _) $$ [LDr26 OP26 HO Tfs26 Tfr26]
  · isplitr; · (iapply (inv_at m K c (.fs 26)); iexact HR)
    isplitr; · (iapply (inv_at m K (py c) (.fr 26)); iexact HR)
    isplitr; · (iapply (reached0_at m K c (.fs 26)); iexact HR)
    isplitr; · (iapply (reached0_at m K (py c) (.fr 26)); iexact HR)
    isplitl [LDr26]; · iexact LDr26
    isplitl [OP26]; · iexact OP26
    isplitl [HO]; · iexact HO
    isplitl [Tfs26]; · iexact Tfs26
    iexact Tfr26
  iintro ⟨Kfs26, HO⟩
  -- chunk 28, half a: its staged rows have landed in slot 0
  iapply (wp_wait_ina m K c 28 (credit_viaS (slot2 28)) (oweD c 28 + oweF c 27) _) $$ [Kia28 HO Pia0]
  · isplitr; · (iapply (inv_at m K c (.ina (slot2 28))); iexact HR)
    isplitl [Kia28]; · iexact Kia28
    isplitl [HO]; · iexact HO
    isplitr; · (iapply (mayWait_own c (.ina (slot2 28)) rfl 28 27); iexact Hlev)
    iexact Pia0
  iintro ⟨HO, Pia0, #Ria28, VA0, XA28⟩
  -- chunk 28, half b: its staged rows have landed in slot 0
  iapply (wp_wait_inb m K c 28 (credit_vibS (slot2 28)) (oweD c 28 + oweF c 27) _) $$ [Kib28 HO Pib0]
  · isplitr; · (iapply (inv_at m K c (.inb (slot2 28))); iexact HR)
    isplitl [Kib28]; · iexact Kib28
    isplitl [HO]; · iexact HO
    isplitr; · (iapply (mayWait_own c (.inb (slot2 28)) rfl 28 27); iexact Hlev)
    iexact Pib0
  iintro ⟨HO, Pib0, #Rib28, VB0, XB28⟩
  -- chunk 25: its local copy of vcast_a has landed
  -- the printed part k0_part108 is opened
  simp only [k0_part108_eq_skeleton]
  unfold k0_part108_skel
  simp only [semSignalWord, semWaitWord, Prog.lift, Prog.bind_op, Prog.bind_ret, Prog.pure_eq_ret, wp_deviceId]
  iapply (wp_wait_lca m K c 25 (credit_oA c 25) (oweD c 28 + oweF c 27) _) $$ [Kla25 HO Pla1]
  · isplitr; · (iapply (inv_at m K c (.lca (slot3 25))); iexact HR)
    isplitl [Kla25]; · iexact Kla25
    isplitl [HO]; · iexact HO
    isplitr; · (iapply (mayWait_own c (.lca (slot3 25)) rfl 28 27); iexact Hlev)
    iexact Pla1
  iintro ⟨HO, Pla1, #Rla25, OA25, CAm1⟩
  -- chunk 25: its local copy of vcast_b has landed
  iapply (wp_wait_lcb m K c 25 (credit_oB c 25) (oweD c 28 + oweF c 27) _) $$ [Klb25 HO Plb1]
  · isplitr; · (iapply (inv_at m K c (.lcb (slot3 25))); iexact HR)
    isplitl [Klb25]; · iexact Klb25
    isplitl [HO]; · iexact HO
    isplitr; · (iapply (mayWait_own c (.lcb (slot3 25)) rfl 28 27); iexact Hlev)
    iexact Plb1
  iintro ⟨HO, Plb1, #Rlb25, OB25, CBm1⟩
  -- chunk 25: its send along x has left the slot
  iapply (wp_wait_ds m K c 25 (credit_vcaPeer c (slot3 25)) (oweD c 28 + oweF c 27) _) $$ [Kds25 HO Pds25]
  · isplitr; · (iapply (inv_at m K c (.ds 25)); iexact HR)
    isplitl [Kds25]; · iexact Kds25
    isplitl [HO]; · iexact HO
    isplitr; · (iapply (mayWait_own c (.ds 25) rfl 28 27); iexact Hlev)
    iexact Pds25
  iintro ⟨HO, Pds25, -, CAp1⟩
  -- slot 1 of both bf16 buffers is whole again
  ihave CA1 := (vca_slot_split c (slot3 25) fullShare _).2 $$ [CAm1 CAp1]
  · isplitl [CAm1]; · iexact CAm1
    iexact CAp1
  ihave CB1 := (vcb_slot_split c (slot3 25) fullShare _).2 $$ [CBm1 CBr1]
  · isplitl [CBm1]; · iexact CBm1
    iexact CBr1
  -- chunk 28, half a: staging slot 0 is loaded, cast and stored into bf16 slot 1
  iapply (wp_load_via c (slot2 28) _ _) $$ [VA0]
  · iexact VA0
  iintro VA0
  iapply (wp_load_vca c (slot3 28) _ _) $$ [CA1]
  · iexact CA1
  iintro CA1
  iapply (wp_store_vca c (slot3 28) _ _) $$ [CA1]
  · iexact CA1
  iintro CA1
  ihave CA1 := (store_vca_at m c 28 _ _ rfl) $$ [CA1]
  · iexact CA1
  -- chunk 28, half b: staging slot 0 is loaded, cast and stored into bf16 slot 1
  iapply (wp_load_vib c (slot2 28) _ _) $$ [VB0]
  · iexact VB0
  iintro VB0
  iapply (wp_load_vcb c (slot3 28) _ _) $$ [CB1]
  · iexact CB1
  iintro CB1
  iapply (wp_store_vcb c (slot3 28) _ _) $$ [CB1]
  · iexact CB1
  iintro CB1
  ihave CB1 := (store_vcb_at m c 28 _ _ rfl) $$ [CB1]
  · iexact CB1
  ihave H := (vca_slot_split c (slot3 28) fullShare _).1 $$ [CA1]
  · iexact CA1
  icases H with ⟨CAm1, CAp1⟩
  ihave H := (vcb_slot_split c (slot3 28) fullShare _).1 $$ [CB1]
  · iexact CB1
  icases H with ⟨CBm1, CBr1⟩
  -- chunk 28, half a: the device's own columns of slot 1 start for the result
  -- the printed part k0_part109 is opened
  simp only [k0_part109_eq_skeleton]
  unfold k0_part109_skel
  simp only [semSignalWord, semWaitWord, Prog.lift, Prog.bind_op, Prog.bind_ret, Prog.pure_eq_ret, wp_deviceId]
  iapply (wp_lca m K c 28 _) $$ [CAm1 OA28 Tla28]
  · isplitr; · (iapply (inv_at m K c (.lca (slot3 28))); iexact HR)
    isplitr; · iexact Rla25
    isplitl [CAm1]; · iexact CAm1
    isplitl [OA28]; · iexact OA28
    iexact Tla28
  iintro Kla28
  -- chunk 28, half b: the device's own columns of slot 1 start for the result
  iapply (wp_lcb m K c 28 _) $$ [CBm1 OB28 Tlb28]
  · isplitr; · (iapply (inv_at m K c (.lcb (slot3 28))); iexact HR)
    isplitr; · iexact Rlb25
    isplitl [CBm1]; · iexact CBm1
    isplitl [OB28]; · iexact OB28
    iexact Tlb28
  iintro Klb28
  -- chunk 28: the x-peer's columns of slot 1 are sent into its landing slot 28
  rw [show (oweD c 28 + oweF c 27 : CellTallies nD τ sig Unit) = (oweD c 29 + oweF c 27) + tallyAt (cell (px c) (.dr 28)) () Nout from by rw [oweD_peel c 28 (by decide), add_right_comm]; rfl]
  iapply (wp_send_d m K c _ (devx_eq c _ _ (k0_dev58_eq c)) 28 _ (oweD c 29 + oweF c 27) _) $$ [CAp1 LP28 HO Tds28 Tdr28]
  · isplitr; · (iapply (inv_at m K c (.ds 28)); iexact HR)
    isplitr; · (iapply (inv_at m K (px c) (.dr 28)); iexact HR)
    isplitr; · (iapply (reached0_at m K c (.ds 28)); iexact HR)
    isplitr; · (iapply (reached0_at m K (px c) (.dr 28)); iexact HR)
    isplitl [CAp1]; · iexact CAp1
    isplitl [LP28]; · iexact LP28
    isplitl [HO]; · iexact HO
    isplitl [Tds28]; · iexact Tds28
    iexact Tdr28
  iintro ⟨Kds28, HO⟩
  -- chunk 30, half a: its rows of x start for staging slot 0
  -- the printed part k0_part110 is opened
  simp only [k0_part110_eq_skeleton]
  unfold k0_part110_skel
  simp only [semSignalWord, semWaitWord, Prog.lift, Prog.bind_op, Prog.bind_ret, Prog.pure_eq_ret, wp_deviceId]
  iapply (wp_stage_a m K c 30 _) $$ [XA30 VA0 Tia30]
  · isplitr; · (iapply (inv_at m K c (.ina (slot2 30))); iexact HR)
    isplitr; · iexact Ria28
    isplitl [XA30]; · iexact XA30
    isplitl [VA0]; · iexact VA0
    iexact Tia30
  iintro Kia30
  -- chunk 30, half b: its rows of x start for staging slot 0
  iapply (wp_stage_b m K c 30 _) $$ [XB30 VB0 Tib30]
  · isplitr; · (iapply (inv_at m K c (.inb (slot2 30))); iexact HR)
    isplitr; · iexact Rib28
    isplitl [XB30]; · iexact XB30
    isplitl [VB0]; · iexact VB0
    iexact Tib30
  iintro Kib30
  -- chunk 27 of the x-peer has landed: it is copied into the result and relayed to the y-peer
  iapply (wp_wait_dr m K c 27 (credit_ldS 27) (oweD c 29 + oweF c 27) _) $$ [Cdr27 HO Pdr27]
  · isplitr; · (iapply (inv_at m K c (.dr 27)); iexact HR)
    isplitl [Cdr27]; · iexact Cdr27
    isplitl [HO]; · iexact HO
    isplitr; · (iapply (mayWait_dr c 27 29 27 (by decide) (by decide)); iexact Hlev)
    iexact Pdr27
  iintro ⟨HO, Pdr27, -, LD27⟩
  ihave H := (ld_share_split c 27 _).1 $$ [LD27]
  · iexact LD27
  icases H with ⟨LDl27, LDr27⟩
  iapply (wp_lo m K c 27 _) $$ [LDl27 OR27 Tlo27]
  · isplitr; · (iapply (inv_at m K c (.lo 27)); iexact HR)
    isplitr; · (iapply (reached0_at m K c (.lo 27)); iexact HR)
    isplitl [LDl27]; · iexact LDl27
    isplitl [OR27]; · iexact OR27
    iexact Tlo27
  iintro Klo27
  rw [show (oweD c 29 + oweF c 27 : CellTallies nD τ sig Unit) = (oweD c 29 + oweF c 28) + tallyAt (cell (py c) (.fr 27)) () Nout from by rw [oweF_peel c 27 (by decide), ← add_assoc]; rfl]
  -- the printed part k0_part111 is opened
  simp only [k0_part111_eq_skeleton]
  unfold k0_part111_skel
  simp only [semSignalWord, semWaitWord, Prog.lift, Prog.bind_op, Prog.bind_ret, Prog.pure_eq_ret, wp_deviceId]
  iapply (wp_send_f m K c _ (devy_eq c _ _ (k0_dev59_eq c)) 27 _ (oweD c 29 + oweF c 28) _) $$ [LDr27 OP27 HO Tfs27 Tfr27]
  · isplitr; · (iapply (inv_at m K c (.fs 27)); iexact HR)
    isplitr; · (iapply (inv_at m K (py c) (.fr 27)); iexact HR)
    isplitr; · (iapply (reached0_at m K c (.fs 27)); iexact HR)
    isplitr; · (iapply (reached0_at m K (py c) (.fr 27)); iexact HR)
    isplitl [LDr27]; · iexact LDr27
    isplitl [OP27]; · iexact OP27
    isplitl [HO]; · iexact HO
    isplitl [Tfs27]; · iexact Tfs27
    iexact Tfr27
  iintro ⟨Kfs27, HO⟩
  -- chunk 29, half a: its staged rows have landed in slot 1
  iapply (wp_wait_ina m K c 29 (credit_viaS (slot2 29)) (oweD c 29 + oweF c 28) _) $$ [Kia29 HO Pia1]
  · isplitr; · (iapply (inv_at m K c (.ina (slot2 29))); iexact HR)
    isplitl [Kia29]; · iexact Kia29
    isplitl [HO]; · iexact HO
    isplitr; · (iapply (mayWait_own c (.ina (slot2 29)) rfl 29 28); iexact Hlev)
    iexact Pia1
  iintro ⟨HO, Pia1, #Ria29, VA1, XA29⟩
  -- chunk 29, half b: its staged rows have landed in slot 1
  iapply (wp_wait_inb m K c 29 (credit_vibS (slot2 29)) (oweD c 29 + oweF c 28) _) $$ [Kib29 HO Pib1]
  · isplitr; · (iapply (inv_at m K c (.inb (slot2 29))); iexact HR)
    isplitl [Kib29]; · iexact Kib29
    isplitl [HO]; · iexact HO
    isplitr; · (iapply (mayWait_own c (.inb (slot2 29)) rfl 29 28); iexact Hlev)
    iexact Pib1
  iintro ⟨HO, Pib1, #Rib29, VB1, XB29⟩
  -- chunk 26: its local copy of vcast_a has landed
  iapply (wp_wait_lca m K c 26 (credit_oA c 26) (oweD c 29 + oweF c 28) _) $$ [Kla26 HO Pla2]
  · isplitr; · (iapply (inv_at m K c (.lca (slot3 26))); iexact HR)
    isplitl [Kla26]; · iexact Kla26
    isplitl [HO]; · iexact HO
    isplitr; · (iapply (mayWait_own c (.lca (slot3 26)) rfl 29 28); iexact Hlev)
    iexact Pla2
  iintro ⟨HO, Pla2, #Rla26, OA26, CAm2⟩
  -- chunk 26: its local copy of vcast_b has landed
  -- the printed part k0_part112 is opened
  simp only [k0_part112_eq_skeleton]
  unfold k0_part112_skel
  simp only [semSignalWord, semWaitWord, Prog.lift, Prog.bind_op, Prog.bind_ret, Prog.pure_eq_ret, wp_deviceId]
  iapply (wp_wait_lcb m K c 26 (credit_oB c 26) (oweD c 29 + oweF c 28) _) $$ [Klb26 HO Plb2]
  · isplitr; · (iapply (inv_at m K c (.lcb (slot3 26))); iexact HR)
    isplitl [Klb26]; · iexact Klb26
    isplitl [HO]; · iexact HO
    isplitr; · (iapply (mayWait_own c (.lcb (slot3 26)) rfl 29 28); iexact Hlev)
    iexact Plb2
  iintro ⟨HO, Plb2, #Rlb26, OB26, CBm2⟩
  -- chunk 26: its send along x has left the slot
  iapply (wp_wait_ds m K c 26 (credit_vcaPeer c (slot3 26)) (oweD c 29 + oweF c 28) _) $$ [Kds26 HO Pds26]
  · isplitr; · (iapply (inv_at m K c (.ds 26)); iexact HR)
    isplitl [Kds26]; · iexact Kds26
    isplitl [HO]; · iexact HO
    isplitr; · (iapply (mayWait_own c (.ds 26) rfl 29 28); iexact Hlev)
    iexact Pds26
  iintro ⟨HO, Pds26, -, CAp2⟩
  -- slot 2 of both bf16 buffers is whole again
  ihave CA2 := (vca_slot_split c (slot3 26) fullShare _).2 $$ [CAm2 CAp2]
  · isplitl [CAm2]; · iexact CAm2
    iexact CAp2
  ihave CB2 := (vcb_slot_split c (slot3 26) fullShare _).2 $$ [CBm2 CBr2]
  · isplitl [CBm2]; · iexact CBm2
    iexact CBr2
  -- chunk 29, half a: staging slot 1 is loaded, cast and stored into bf16 slot 2
  iapply (wp_load_via c (slot2 29) _ _) $$ [VA1]
  · iexact VA1
  iintro VA1
  iapply (wp_load_vca c (slot3 29) _ _) $$ [CA2]
  · iexact CA2
  iintro CA2
  iapply (wp_store_vca c (slot3 29) _ _) $$ [CA2]
  · iexact CA2
  iintro CA2
  ihave CA2 := (store_vca_at m c 29 _ _ rfl) $$ [CA2]
  · iexact CA2
  -- chunk 29, half b: staging slot 1 is loaded, cast and stored into bf16 slot 2
  iapply (wp_load_vib c (slot2 29) _ _) $$ [VB1]
  · iexact VB1
  iintro VB1
  iapply (wp_load_vcb c (slot3 29) _ _) $$ [CB2]
  · iexact CB2
  iintro CB2
  iapply (wp_store_vcb c (slot3 29) _ _) $$ [CB2]
  · iexact CB2
  iintro CB2
  ihave CB2 := (store_vcb_at m c 29 _ _ rfl) $$ [CB2]
  · iexact CB2
  ihave H := (vca_slot_split c (slot3 29) fullShare _).1 $$ [CA2]
  · iexact CA2
  icases H with ⟨CAm2, CAp2⟩
  ihave H := (vcb_slot_split c (slot3 29) fullShare _).1 $$ [CB2]
  · iexact CB2
  icases H with ⟨CBm2, CBr2⟩
  -- chunk 29, half a: the device's own columns of slot 2 start for the result
  -- the printed part k0_part113 is opened
  simp only [k0_part113_eq_skeleton]
  unfold k0_part113_skel
  simp only [semSignalWord, semWaitWord, Prog.lift, Prog.bind_op, Prog.bind_ret, Prog.pure_eq_ret, wp_deviceId]
  iapply (wp_lca m K c 29 _) $$ [CAm2 OA29 Tla29]
  · isplitr; · (iapply (inv_at m K c (.lca (slot3 29))); iexact HR)
    isplitr; · iexact Rla26
    isplitl [CAm2]; · iexact CAm2
    isplitl [OA29]; · iexact OA29
    iexact Tla29
  iintro Kla29
  -- chunk 29, half b: the device's own columns of slot 2 start for the result
  iapply (wp_lcb m K c 29 _) $$ [CBm2 OB29 Tlb29]
  · isplitr; · (iapply (inv_at m K c (.lcb (slot3 29))); iexact HR)
    isplitr; · iexact Rlb26
    isplitl [CBm2]; · iexact CBm2
    isplitl [OB29]; · iexact OB29
    iexact Tlb29
  iintro Klb29
  -- chunk 29: the x-peer's columns of slot 2 are sent into its landing slot 29
  rw [show (oweD c 29 + oweF c 28 : CellTallies nD τ sig Unit) = (oweD c 30 + oweF c 28) + tallyAt (cell (px c) (.dr 29)) () Nout from by rw [oweD_peel c 29 (by decide), add_right_comm]; rfl]
  iapply (wp_send_d m K c _ (devx_eq c _ _ (k0_dev60_eq c)) 29 _ (oweD c 30 + oweF c 28) _) $$ [CAp2 LP29 HO Tds29 Tdr29]
  · isplitr; · (iapply (inv_at m K c (.ds 29)); iexact HR)
    isplitr; · (iapply (inv_at m K (px c) (.dr 29)); iexact HR)
    isplitr; · (iapply (reached0_at m K c (.ds 29)); iexact HR)
    isplitr; · (iapply (reached0_at m K (px c) (.dr 29)); iexact HR)
    isplitl [CAp2]; · iexact CAp2
    isplitl [LP29]; · iexact LP29
    isplitl [HO]; · iexact HO
    isplitl [Tds29]; · iexact Tds29
    iexact Tdr29
  iintro ⟨Kds29, HO⟩
  -- chunk 31, half a: its rows of x start for staging slot 1
  -- the printed part k0_part114 is opened
  simp only [k0_part114_eq_skeleton]
  unfold k0_part114_skel
  simp only [semSignalWord, semWaitWord, Prog.lift, Prog.bind_op, Prog.bind_ret, Prog.pure_eq_ret, wp_deviceId]
  iapply (wp_stage_a m K c 31 _) $$ [XA31 VA1 Tia31]
  · isplitr; · (iapply (inv_at m K c (.ina (slot2 31))); iexact HR)
    isplitr; · iexact Ria29
    isplitl [XA31]; · iexact XA31
    isplitl [VA1]; · iexact VA1
    iexact Tia31
  iintro Kia31
  -- chunk 31, half b: its rows of x start for staging slot 1
  iapply (wp_stage_b m K c 31 _) $$ [XB31 VB1 Tib31]
  · isplitr; · (iapply (inv_at m K c (.inb (slot2 31))); iexact HR)
    isplitr; · iexact Rib29
    isplitl [XB31]; · iexact XB31
    isplitl [VB1]; · iexact VB1
    iexact Tib31
  iintro Kib31
  -- chunk 28 of the x-peer has landed: it is copied into the result and relayed to the y-peer
  iapply (wp_wait_dr m K c 28 (credit_ldS 28) (oweD c 30 + oweF c 28) _) $$ [Cdr28 HO Pdr28]
  · isplitr; · (iapply (inv_at m K c (.dr 28)); iexact HR)
    isplitl [Cdr28]; · iexact Cdr28
    isplitl [HO]; · iexact HO
    isplitr; · (iapply (mayWait_dr c 28 30 28 (by decide) (by decide)); iexact Hlev)
    iexact Pdr28
  iintro ⟨HO, Pdr28, -, LD28⟩
  ihave H := (ld_share_split c 28 _).1 $$ [LD28]
  · iexact LD28
  icases H with ⟨LDl28, LDr28⟩
  iapply (wp_lo m K c 28 _) $$ [LDl28 OR28 Tlo28]
  · isplitr; · (iapply (inv_at m K c (.lo 28)); iexact HR)
    isplitr; · (iapply (reached0_at m K c (.lo 28)); iexact HR)
    isplitl [LDl28]; · iexact LDl28
    isplitl [OR28]; · iexact OR28
    iexact Tlo28
  iintro Klo28
  rw [show (oweD c 30 + oweF c 28 : CellTallies nD τ sig Unit) = (oweD c 30 + oweF c 29) + tallyAt (cell (py c) (.fr 28)) () Nout from by rw [oweF_peel c 28 (by decide), ← add_assoc]; rfl]
  -- the printed part k0_part115 is opened
  simp only [k0_part115_eq_skeleton]
  unfold k0_part115_skel
  simp only [semSignalWord, semWaitWord, Prog.lift, Prog.bind_op, Prog.bind_ret, Prog.pure_eq_ret, wp_deviceId]
  iapply (wp_send_f m K c _ (devy_eq c _ _ (k0_dev61_eq c)) 28 _ (oweD c 30 + oweF c 29) _) $$ [LDr28 OP28 HO Tfs28 Tfr28]
  · isplitr; · (iapply (inv_at m K c (.fs 28)); iexact HR)
    isplitr; · (iapply (inv_at m K (py c) (.fr 28)); iexact HR)
    isplitr; · (iapply (reached0_at m K c (.fs 28)); iexact HR)
    isplitr; · (iapply (reached0_at m K (py c) (.fr 28)); iexact HR)
    isplitl [LDr28]; · iexact LDr28
    isplitl [OP28]; · iexact OP28
    isplitl [HO]; · iexact HO
    isplitl [Tfs28]; · iexact Tfs28
    iexact Tfr28
  iintro ⟨Kfs28, HO⟩
  -- chunk 30, half a: its staged rows have landed in slot 0
  iapply (wp_wait_ina m K c 30 (credit_viaS (slot2 30)) (oweD c 30 + oweF c 29) _) $$ [Kia30 HO Pia0]
  · isplitr; · (iapply (inv_at m K c (.ina (slot2 30))); iexact HR)
    isplitl [Kia30]; · iexact Kia30
    isplitl [HO]; · iexact HO
    isplitr; · (iapply (mayWait_own c (.ina (slot2 30)) rfl 30 29); iexact Hlev)
    iexact Pia0
  iintro ⟨HO, Pia0, #Ria30, VA0, XA30⟩
  -- chunk 30, half b: its staged rows have landed in slot 0
  iapply (wp_wait_inb m K c 30 (credit_vibS (slot2 30)) (oweD c 30 + oweF c 29) _) $$ [Kib30 HO Pib0]
  · isplitr; · (iapply (inv_at m K c (.inb (slot2 30))); iexact HR)
    isplitl [Kib30]; · iexact Kib30
    isplitl [HO]; · iexact HO
    isplitr; · (iapply (mayWait_own c (.inb (slot2 30)) rfl 30 29); iexact Hlev)
    iexact Pib0
  iintro ⟨HO, Pib0, #Rib30, VB0, XB30⟩
  -- chunk 27: its local copy of vcast_a has landed
  iapply (wp_wait_lca m K c 27 (credit_oA c 27) (oweD c 30 + oweF c 29) _) $$ [Kla27 HO Pla0]
  · isplitr; · (iapply (inv_at m K c (.lca (slot3 27))); iexact HR)
    isplitl [Kla27]; · iexact Kla27
    isplitl [HO]; · iexact HO
    isplitr; · (iapply (mayWait_own c (.lca (slot3 27)) rfl 30 29); iexact Hlev)
    iexact Pla0
  iintro ⟨HO, Pla0, #Rla27, OA27, CAm0⟩
  -- chunk 27: its local copy of vcast_b has landed
  iapply (wp_wait_lcb m K c 27 (credit_oB c 27) (oweD c 30 + oweF c 29) _) $$ [Klb27 HO Plb0]
  · isplitr; · (iapply (inv_at m K c (.lcb (slot3 27))); iexact HR)
    isplitl [Klb27]; · iexact Klb27
    isplitl [HO]; · iexact HO
    isplitr; · (iapply (mayWait_own c (.lcb (slot3 27)) rfl 30 29); iexact Hlev)
    iexact Plb0
  iintro ⟨HO, Plb0, #Rlb27, OB27, CBm0⟩
  -- chunk 27: its send along x has left the slot
  -- the printed part k0_part116 is opened
  simp only [k0_part116_eq_skeleton]
  unfold k0_part116_skel
  simp only [semSignalWord, semWaitWord, Prog.lift, Prog.bind_op, Prog.bind_ret, Prog.pure_eq_ret, wp_deviceId]
  iapply (wp_wait_ds m K c 27 (credit_vcaPeer c (slot3 27)) (oweD c 30 + oweF c 29) _) $$ [Kds27 HO Pds27]
  · isplitr; · (iapply (inv_at m K c (.ds 27)); iexact HR)
    isplitl [Kds27]; · iexact Kds27
    isplitl [HO]; · iexact HO
    isplitr; · (iapply (mayWait_own c (.ds 27) rfl 30 29); iexact Hlev)
    iexact Pds27
  iintro ⟨HO, Pds27, -, CAp0⟩
  -- slot 0 of both bf16 buffers is whole again
  ihave CA0 := (vca_slot_split c (slot3 27) fullShare _).2 $$ [CAm0 CAp0]
  · isplitl [CAm0]; · iexact CAm0
    iexact CAp0
  ihave CB0 := (vcb_slot_split c (slot3 27) fullShare _).2 $$ [CBm0 CBr0]
  · isplitl [CBm0]; · iexact CBm0
    iexact CBr0
  -- chunk 30, half a: staging slot 0 is loaded, cast and stored into bf16 slot 0
  iapply (wp_load_via c (slot2 30) _ _) $$ [VA0]
  · iexact VA0
  iintro VA0
  iapply (wp_load_vca c (slot3 30) _ _) $$ [CA0]
  · iexact CA0
  iintro CA0
  iapply (wp_store_vca c (slot3 30) _ _) $$ [CA0]
  · iexact CA0
  iintro CA0
  ihave CA0 := (store_vca_at m c 30 _ _ rfl) $$ [CA0]
  · iexact CA0
  -- chunk 30, half b: staging slot 0 is loaded, cast and stored into bf16 slot 0
  iapply (wp_load_vib c (slot2 30) _ _) $$ [VB0]
  · iexact VB0
  iintro VB0
  iapply (wp_load_vcb c (slot3 30) _ _) $$ [CB0]
  · iexact CB0
  iintro CB0
  iapply (wp_store_vcb c (slot3 30) _ _) $$ [CB0]
  · iexact CB0
  iintro CB0
  ihave CB0 := (store_vcb_at m c 30 _ _ rfl) $$ [CB0]
  · iexact CB0
  ihave H := (vca_slot_split c (slot3 30) fullShare _).1 $$ [CA0]
  · iexact CA0
  icases H with ⟨CAm0, CAp0⟩
  ihave H := (vcb_slot_split c (slot3 30) fullShare _).1 $$ [CB0]
  · iexact CB0
  icases H with ⟨CBm0, CBr0⟩
  -- chunk 30, half a: the device's own columns of slot 0 start for the result
  -- the printed part k0_part117 is opened
  simp only [k0_part117_eq_skeleton]
  unfold k0_part117_skel
  simp only [semSignalWord, semWaitWord, Prog.lift, Prog.bind_op, Prog.bind_ret, Prog.pure_eq_ret, wp_deviceId]
  iapply (wp_lca m K c 30 _) $$ [CAm0 OA30 Tla30]
  · isplitr; · (iapply (inv_at m K c (.lca (slot3 30))); iexact HR)
    isplitr; · iexact Rla27
    isplitl [CAm0]; · iexact CAm0
    isplitl [OA30]; · iexact OA30
    iexact Tla30
  iintro Kla30
  -- chunk 30, half b: the device's own columns of slot 0 start for the result
  iapply (wp_lcb m K c 30 _) $$ [CBm0 OB30 Tlb30]
  · isplitr; · (iapply (inv_at m K c (.lcb (slot3 30))); iexact HR)
    isplitr; · iexact Rlb27
    isplitl [CBm0]; · iexact CBm0
    isplitl [OB30]; · iexact OB30
    iexact Tlb30
  iintro Klb30
  -- chunk 30: the x-peer's columns of slot 0 are sent into its landing slot 30
  rw [show (oweD c 30 + oweF c 29 : CellTallies nD τ sig Unit) = (oweD c 31 + oweF c 29) + tallyAt (cell (px c) (.dr 30)) () Nout from by rw [oweD_peel c 30 (by decide), add_right_comm]; rfl]
  iapply (wp_send_d m K c _ (devx_eq c _ _ (k0_dev62_eq c)) 30 _ (oweD c 31 + oweF c 29) _) $$ [CAp0 LP30 HO Tds30 Tdr30]
  · isplitr; · (iapply (inv_at m K c (.ds 30)); iexact HR)
    isplitr; · (iapply (inv_at m K (px c) (.dr 30)); iexact HR)
    isplitr; · (iapply (reached0_at m K c (.ds 30)); iexact HR)
    isplitr; · (iapply (reached0_at m K (px c) (.dr 30)); iexact HR)
    isplitl [CAp0]; · iexact CAp0
    isplitl [LP30]; · iexact LP30
    isplitl [HO]; · iexact HO
    isplitl [Tds30]; · iexact Tds30
    iexact Tdr30
  iintro ⟨Kds30, HO⟩
  -- chunk 29 of the x-peer has landed: it is copied into the result and relayed to the y-peer
  iapply (wp_wait_dr m K c 29 (credit_ldS 29) (oweD c 31 + oweF c 29) _) $$ [Cdr29 HO Pdr29]
  · isplitr; · (iapply (inv_at m K c (.dr 29)); iexact HR)
    isplitl [Cdr29]; · iexact Cdr29
    isplitl [HO]; · iexact HO
    isplitr; · (iapply (mayWait_dr c 29 31 29 (by decide) (by decide)); iexact Hlev)
    iexact Pdr29
  iintro ⟨HO, Pdr29, -, LD29⟩
  ihave H := (ld_share_split c 29 _).1 $$ [LD29]
  · iexact LD29
  icases H with ⟨LDl29, LDr29⟩
  -- the printed part k0_part118 is opened
  simp only [k0_part118_eq_skeleton]
  unfold k0_part118_skel
  simp only [semSignalWord, semWaitWord, Prog.lift, Prog.bind_op, Prog.bind_ret, Prog.pure_eq_ret, wp_deviceId]
  iapply (wp_lo m K c 29 _) $$ [LDl29 OR29 Tlo29]
  · isplitr; · (iapply (inv_at m K c (.lo 29)); iexact HR)
    isplitr; · (iapply (reached0_at m K c (.lo 29)); iexact HR)
    isplitl [LDl29]; · iexact LDl29
    isplitl [OR29]; · iexact OR29
    iexact Tlo29
  iintro Klo29
  rw [show (oweD c 31 + oweF c 29 : CellTallies nD τ sig Unit) = (oweD c 31 + oweF c 30) + tallyAt (cell (py c) (.fr 29)) () Nout from by rw [oweF_peel c 29 (by decide), ← add_assoc]; rfl]
  iapply (wp_send_f m K c _ (devy_eq c _ _ (k0_dev63_eq c)) 29 _ (oweD c 31 + oweF c 30) _) $$ [LDr29 OP29 HO Tfs29 Tfr29]
  · isplitr; · (iapply (inv_at m K c (.fs 29)); iexact HR)
    isplitr; · (iapply (inv_at m K (py c) (.fr 29)); iexact HR)
    isplitr; · (iapply (reached0_at m K c (.fs 29)); iexact HR)
    isplitr; · (iapply (reached0_at m K (py c) (.fr 29)); iexact HR)
    isplitl [LDr29]; · iexact LDr29
    isplitl [OP29]; · iexact OP29
    isplitl [HO]; · iexact HO
    isplitl [Tfs29]; · iexact Tfs29
    iexact Tfr29
  iintro ⟨Kfs29, HO⟩
  -- chunk 31, half a: its staged rows have landed in slot 1
  iapply (wp_wait_ina m K c 31 (credit_viaS (slot2 31)) (oweD c 31 + oweF c 30) _) $$ [Kia31 HO Pia1]
  · isplitr; · (iapply (inv_at m K c (.ina (slot2 31))); iexact HR)
    isplitl [Kia31]; · iexact Kia31
    isplitl [HO]; · iexact HO
    isplitr; · (iapply (mayWait_own c (.ina (slot2 31)) rfl 31 30); iexact Hlev)
    iexact Pia1
  iintro ⟨HO, Pia1, #Ria31, VA1, XA31⟩
  -- chunk 31, half b: its staged rows have landed in slot 1
  -- the printed part k0_part119 is opened
  simp only [k0_part119_eq_skeleton]
  unfold k0_part119_skel
  simp only [semSignalWord, semWaitWord, Prog.lift, Prog.bind_op, Prog.bind_ret, Prog.pure_eq_ret, wp_deviceId]
  iapply (wp_wait_inb m K c 31 (credit_vibS (slot2 31)) (oweD c 31 + oweF c 30) _) $$ [Kib31 HO Pib1]
  · isplitr; · (iapply (inv_at m K c (.inb (slot2 31))); iexact HR)
    isplitl [Kib31]; · iexact Kib31
    isplitl [HO]; · iexact HO
    isplitr; · (iapply (mayWait_own c (.inb (slot2 31)) rfl 31 30); iexact Hlev)
    iexact Pib1
  iintro ⟨HO, Pib1, #Rib31, VB1, XB31⟩
  -- chunk 28: its local copy of vcast_a has landed
  iapply (wp_wait_lca m K c 28 (credit_oA c 28) (oweD c 31 + oweF c 30) _) $$ [Kla28 HO Pla1]
  · isplitr; · (iapply (inv_at m K c (.lca (slot3 28))); iexact HR)
    isplitl [Kla28]; · iexact Kla28
    isplitl [HO]; · iexact HO
    isplitr; · (iapply (mayWait_own c (.lca (slot3 28)) rfl 31 30); iexact Hlev)
    iexact Pla1
  iintro ⟨HO, Pla1, #Rla28, OA28, CAm1⟩
  -- chunk 28: its local copy of vcast_b has landed
  iapply (wp_wait_lcb m K c 28 (credit_oB c 28) (oweD c 31 + oweF c 30) _) $$ [Klb28 HO Plb1]
  · isplitr; · (iapply (inv_at m K c (.lcb (slot3 28))); iexact HR)
    isplitl [Klb28]; · iexact Klb28
    isplitl [HO]; · iexact HO
    isplitr; · (iapply (mayWait_own c (.lcb (slot3 28)) rfl 31 30); iexact Hlev)
    iexact Plb1
  iintro ⟨HO, Plb1, #Rlb28, OB28, CBm1⟩
  -- chunk 28: its send along x has left the slot
  iapply (wp_wait_ds m K c 28 (credit_vcaPeer c (slot3 28)) (oweD c 31 + oweF c 30) _) $$ [Kds28 HO Pds28]
  · isplitr; · (iapply (inv_at m K c (.ds 28)); iexact HR)
    isplitl [Kds28]; · iexact Kds28
    isplitl [HO]; · iexact HO
    isplitr; · (iapply (mayWait_own c (.ds 28) rfl 31 30); iexact Hlev)
    iexact Pds28
  iintro ⟨HO, Pds28, -, CAp1⟩
  -- slot 1 of both bf16 buffers is whole again
  ihave CA1 := (vca_slot_split c (slot3 28) fullShare _).2 $$ [CAm1 CAp1]
  · isplitl [CAm1]; · iexact CAm1
    iexact CAp1
  ihave CB1 := (vcb_slot_split c (slot3 28) fullShare _).2 $$ [CBm1 CBr1]
  · isplitl [CBm1]; · iexact CBm1
    iexact CBr1
  -- chunk 31, half a: staging slot 1 is loaded, cast and stored into bf16 slot 1
  iapply (wp_load_via c (slot2 31) _ _) $$ [VA1]
  · iexact VA1
  iintro VA1
  iapply (wp_load_vca c (slot3 31) _ _) $$ [CA1]
  · iexact CA1
  iintro CA1
  iapply (wp_store_vca c (slot3 31) _ _) $$ [CA1]
  · iexact CA1
  iintro CA1
  ihave CA1 := (store_vca_at m c 31 _ _ rfl) $$ [CA1]
  · iexact CA1
  -- chunk 31, half b: staging slot 1 is loaded, cast and stored into bf16 slot 1
  iapply (wp_load_vib c (slot2 31) _ _) $$ [VB1]
  · iexact VB1
  iintro VB1
  iapply (wp_load_vcb c (slot3 31) _ _) $$ [CB1]
  · iexact CB1
  iintro CB1
  -- the printed part k0_part120 is opened
  simp only [k0_part120_eq_skeleton]
  unfold k0_part120_skel
  simp only [semSignalWord, semWaitWord, Prog.lift, Prog.bind_op, Prog.bind_ret, Prog.pure_eq_ret, wp_deviceId]
  iapply (wp_store_vcb c (slot3 31) _ _) $$ [CB1]
  · iexact CB1
  iintro CB1
  ihave CB1 := (store_vcb_at m c 31 _ _ rfl) $$ [CB1]
  · iexact CB1
  ihave H := (vca_slot_split c (slot3 31) fullShare _).1 $$ [CA1]
  · iexact CA1
  icases H with ⟨CAm1, CAp1⟩
  ihave H := (vcb_slot_split c (slot3 31) fullShare _).1 $$ [CB1]
  · iexact CB1
  icases H with ⟨CBm1, CBr1⟩
  -- chunk 31, half a: the device's own columns of slot 1 start for the result
  iapply (wp_lca m K c 31 _) $$ [CAm1 OA31 Tla31]
  · isplitr; · (iapply (inv_at m K c (.lca (slot3 31))); iexact HR)
    isplitr; · iexact Rla28
    isplitl [CAm1]; · iexact CAm1
    isplitl [OA31]; · iexact OA31
    iexact Tla31
  iintro Kla31
  -- chunk 31, half b: the device's own columns of slot 1 start for the result
  iapply (wp_lcb m K c 31 _) $$ [CBm1 OB31 Tlb31]
  · isplitr; · (iapply (inv_at m K c (.lcb (slot3 31))); iexact HR)
    isplitr; · iexact Rlb28
    isplitl [CBm1]; · iexact CBm1
    isplitl [OB31]; · iexact OB31
    iexact Tlb31
  iintro Klb31
  -- chunk 31: the x-peer's columns of slot 1 are sent into its landing slot 31
  rw [show (oweD c 31 + oweF c 30 : CellTallies nD τ sig Unit) = (oweD c 32 + oweF c 30) + tallyAt (cell (px c) (.dr 31)) () Nout from by rw [oweD_peel c 31 (by decide), add_right_comm]; rfl]
  -- the printed part k0_part149 is opened
  simp only [k0_part149_eq_skeleton]
  unfold k0_part149_skel
  simp only [semSignalWord, semWaitWord, Prog.lift, Prog.bind_op, Prog.bind_ret, Prog.pure_eq_ret, wp_deviceId]
  -- the printed part k0_part121 is opened
  simp only [k0_part121_eq_skeleton]
  unfold k0_part121_skel
  simp only [semSignalWord, semWaitWord, Prog.lift, Prog.bind_op, Prog.bind_ret, Prog.pure_eq_ret, wp_deviceId]
  iapply (wp_send_d m K c _ (devx_eq c _ _ (k0_dev64_eq c)) 31 _ (oweD c 32 + oweF c 30) _) $$ [CAp1 LP31 HO Tds31 Tdr31]
  · isplitr; · (iapply (inv_at m K c (.ds 31)); iexact HR)
    isplitr; · (iapply (inv_at m K (px c) (.dr 31)); iexact HR)
    isplitr; · (iapply (reached0_at m K c (.ds 31)); iexact HR)
    isplitr; · (iapply (reached0_at m K (px c) (.dr 31)); iexact HR)
    isplitl [CAp1]; · iexact CAp1
    isplitl [LP31]; · iexact LP31
    isplitl [HO]; · iexact HO
    isplitl [Tds31]; · iexact Tds31
    iexact Tdr31
  iintro ⟨Kds31, HO⟩
  -- chunk 30 of the x-peer has landed: it is copied into the result and relayed to the y-peer
  iapply (wp_wait_dr m K c 30 (credit_ldS 30) (oweD c 32 + oweF c 30) _) $$ [Cdr30 HO Pdr30]
  · isplitr; · (iapply (inv_at m K c (.dr 30)); iexact HR)
    isplitl [Cdr30]; · iexact Cdr30
    isplitl [HO]; · iexact HO
    isplitr; · (iapply (mayWait_dr c 30 32 30 (by decide) (by decide)); iexact Hlev)
    iexact Pdr30
  iintro ⟨HO, Pdr30, -, LD30⟩
  ihave H := (ld_share_split c 30 _).1 $$ [LD30]
  · iexact LD30
  icases H with ⟨LDl30, LDr30⟩
  iapply (wp_lo m K c 30 _) $$ [LDl30 OR30 Tlo30]
  · isplitr; · (iapply (inv_at m K c (.lo 30)); iexact HR)
    isplitr; · (iapply (reached0_at m K c (.lo 30)); iexact HR)
    isplitl [LDl30]; · iexact LDl30
    isplitl [OR30]; · iexact OR30
    iexact Tlo30
  iintro Klo30
  rw [show (oweD c 32 + oweF c 30 : CellTallies nD τ sig Unit) = (oweD c 32 + oweF c 31) + tallyAt (cell (py c) (.fr 30)) () Nout from by rw [oweF_peel c 30 (by decide), ← add_assoc]; rfl]
  -- the printed part k0_part122 is opened
  simp only [k0_part122_eq_skeleton]
  unfold k0_part122_skel
  simp only [semSignalWord, semWaitWord, Prog.lift, Prog.bind_op, Prog.bind_ret, Prog.pure_eq_ret, wp_deviceId]
  iapply (wp_send_f m K c _ (devy_eq c _ _ (k0_dev65_eq c)) 30 _ (oweD c 32 + oweF c 31) _) $$ [LDr30 OP30 HO Tfs30 Tfr30]
  · isplitr; · (iapply (inv_at m K c (.fs 30)); iexact HR)
    isplitr; · (iapply (inv_at m K (py c) (.fr 30)); iexact HR)
    isplitr; · (iapply (reached0_at m K c (.fs 30)); iexact HR)
    isplitr; · (iapply (reached0_at m K (py c) (.fr 30)); iexact HR)
    isplitl [LDr30]; · iexact LDr30
    isplitl [OP30]; · iexact OP30
    isplitl [HO]; · iexact HO
    isplitl [Tfs30]; · iexact Tfs30
    iexact Tfr30
  iintro ⟨Kfs30, HO⟩
  -- chunk 31 of the x-peer has landed: it is copied into the result and relayed to the y-peer
  iapply (wp_wait_dr m K c 31 (credit_ldS 31) (oweD c 32 + oweF c 31) _) $$ [Cdr31 HO Pdr31]
  · isplitr; · (iapply (inv_at m K c (.dr 31)); iexact HR)
    isplitl [Cdr31]; · iexact Cdr31
    isplitl [HO]; · iexact HO
    isplitr; · (iapply (mayWait_dr c 31 32 31 (by decide) (by decide)); iexact Hlev)
    iexact Pdr31
  iintro ⟨HO, Pdr31, -, LD31⟩
  ihave H := (ld_share_split c 31 _).1 $$ [LD31]
  · iexact LD31
  icases H with ⟨LDl31, LDr31⟩
  iapply (wp_lo m K c 31 _) $$ [LDl31 OR31 Tlo31]
  · isplitr; · (iapply (inv_at m K c (.lo 31)); iexact HR)
    isplitr; · (iapply (reached0_at m K c (.lo 31)); iexact HR)
    isplitl [LDl31]; · iexact LDl31
    isplitl [OR31]; · iexact OR31
    iexact Tlo31
  iintro Klo31
  rw [show (oweD c 32 + oweF c 31 : CellTallies nD τ sig Unit) = (oweD c 32 + oweF c 32) + tallyAt (cell (py c) (.fr 31)) () Nout from by rw [oweF_peel c 31 (by decide), ← add_assoc]; rfl]
  -- the printed part k0_part123 is opened
  simp only [k0_part123_eq_skeleton]
  unfold k0_part123_skel
  simp only [semSignalWord, semWaitWord, Prog.lift, Prog.bind_op, Prog.bind_ret, Prog.pure_eq_ret, wp_deviceId]
  iapply (wp_send_f m K c _ (devy_eq c _ _ (k0_dev66_eq c)) 31 _ (oweD c 32 + oweF c 32) _) $$ [LDr31 OP31 HO Tfs31 Tfr31]
  · isplitr; · (iapply (inv_at m K c (.fs 31)); iexact HR)
    isplitr; · (iapply (inv_at m K (py c) (.fr 31)); iexact HR)
    isplitr; · (iapply (reached0_at m K c (.fs 31)); iexact HR)
    isplitr; · (iapply (reached0_at m K (py c) (.fr 31)); iexact HR)
    isplitl [LDr31]; · iexact LDr31
    isplitl [OP31]; · iexact OP31
    isplitl [HO]; · iexact HO
    isplitl [Tfs31]; · iexact Tfs31
    iexact Tfr31
  iintro ⟨Kfs31, HO⟩
  -- the y-peer's relay of chunk 0 has landed in the result
  iapply (wp_wait_fr m K c 0 (credit_oR c 0) (oweD c 32 + oweF c 32) _) $$ [Cfr0 HO Pfr0]
  · isplitr; · (iapply (inv_at m K c (.fr 0)); iexact HR)
    isplitl [Cfr0]; · iexact Cfr0
    isplitl [HO]; · iexact HO
    isplitr; · (iapply (mayWait_fr c 0 32 32 (by decide) (by decide)); iexact Hlev)
    iexact Pfr0
  iintro ⟨HO, Pfr0, -, OF0⟩
  -- the y-peer's relay of chunk 1 has landed in the result
  iapply (wp_wait_fr m K c 1 (credit_oR c 1) (oweD c 32 + oweF c 32) _) $$ [Cfr1 HO Pfr1]
  · isplitr; · (iapply (inv_at m K c (.fr 1)); iexact HR)
    isplitl [Cfr1]; · iexact Cfr1
    isplitl [HO]; · iexact HO
    isplitr; · (iapply (mayWait_fr c 1 32 32 (by decide) (by decide)); iexact Hlev)
    iexact Pfr1
  iintro ⟨HO, Pfr1, -, OF1⟩
  -- the y-peer's relay of chunk 2 has landed in the result
  -- the printed part k0_part124 is opened
  simp only [k0_part124_eq_skeleton]
  unfold k0_part124_skel
  simp only [semSignalWord, semWaitWord, Prog.lift, Prog.bind_op, Prog.bind_ret, Prog.pure_eq_ret, wp_deviceId]
  iapply (wp_wait_fr m K c 2 (credit_oR c 2) (oweD c 32 + oweF c 32) _) $$ [Cfr2 HO Pfr2]
  · isplitr; · (iapply (inv_at m K c (.fr 2)); iexact HR)
    isplitl [Cfr2]; · iexact Cfr2
    isplitl [HO]; · iexact HO
    isplitr; · (iapply (mayWait_fr c 2 32 32 (by decide) (by decide)); iexact Hlev)
    iexact Pfr2
  iintro ⟨HO, Pfr2, -, OF2⟩
  -- the y-peer's relay of chunk 3 has landed in the result
  iapply (wp_wait_fr m K c 3 (credit_oR c 3) (oweD c 32 + oweF c 32) _) $$ [Cfr3 HO Pfr3]
  · isplitr; · (iapply (inv_at m K c (.fr 3)); iexact HR)
    isplitl [Cfr3]; · iexact Cfr3
    isplitl [HO]; · iexact HO
    isplitr; · (iapply (mayWait_fr c 3 32 32 (by decide) (by decide)); iexact Hlev)
    iexact Pfr3
  iintro ⟨HO, Pfr3, -, OF3⟩
  -- the y-peer's relay of chunk 4 has landed in the result
  iapply (wp_wait_fr m K c 4 (credit_oR c 4) (oweD c 32 + oweF c 32) _) $$ [Cfr4 HO Pfr4]
  · isplitr; · (iapply (inv_at m K c (.fr 4)); iexact HR)
    isplitl [Cfr4]; · iexact Cfr4
    isplitl [HO]; · iexact HO
    isplitr; · (iapply (mayWait_fr c 4 32 32 (by decide) (by decide)); iexact Hlev)
    iexact Pfr4
  iintro ⟨HO, Pfr4, -, OF4⟩
  -- the y-peer's relay of chunk 5 has landed in the result
  -- the printed part k0_part125 is opened
  simp only [k0_part125_eq_skeleton]
  unfold k0_part125_skel
  simp only [semSignalWord, semWaitWord, Prog.lift, Prog.bind_op, Prog.bind_ret, Prog.pure_eq_ret, wp_deviceId]
  iapply (wp_wait_fr m K c 5 (credit_oR c 5) (oweD c 32 + oweF c 32) _) $$ [Cfr5 HO Pfr5]
  · isplitr; · (iapply (inv_at m K c (.fr 5)); iexact HR)
    isplitl [Cfr5]; · iexact Cfr5
    isplitl [HO]; · iexact HO
    isplitr; · (iapply (mayWait_fr c 5 32 32 (by decide) (by decide)); iexact Hlev)
    iexact Pfr5
  iintro ⟨HO, Pfr5, -, OF5⟩
  -- the y-peer's relay of chunk 6 has landed in the result
  iapply (wp_wait_fr m K c 6 (credit_oR c 6) (oweD c 32 + oweF c 32) _) $$ [Cfr6 HO Pfr6]
  · isplitr; · (iapply (inv_at m K c (.fr 6)); iexact HR)
    isplitl [Cfr6]; · iexact Cfr6
    isplitl [HO]; · iexact HO
    isplitr; · (iapply (mayWait_fr c 6 32 32 (by decide) (by decide)); iexact Hlev)
    iexact Pfr6
  iintro ⟨HO, Pfr6, -, OF6⟩
  -- the y-peer's relay of chunk 7 has landed in the result
  iapply (wp_wait_fr m K c 7 (credit_oR c 7) (oweD c 32 + oweF c 32) _) $$ [Cfr7 HO Pfr7]
  · isplitr; · (iapply (inv_at m K c (.fr 7)); iexact HR)
    isplitl [Cfr7]; · iexact Cfr7
    isplitl [HO]; · iexact HO
    isplitr; · (iapply (mayWait_fr c 7 32 32 (by decide) (by decide)); iexact Hlev)
    iexact Pfr7
  iintro ⟨HO, Pfr7, -, OF7⟩
  -- the y-peer's relay of chunk 8 has landed in the result
  iapply (wp_wait_fr m K c 8 (credit_oR c 8) (oweD c 32 + oweF c 32) _) $$ [Cfr8 HO Pfr8]
  · isplitr; · (iapply (inv_at m K c (.fr 8)); iexact HR)
    isplitl [Cfr8]; · iexact Cfr8
    isplitl [HO]; · iexact HO
    isplitr; · (iapply (mayWait_fr c 8 32 32 (by decide) (by decide)); iexact Hlev)
    iexact Pfr8
  iintro ⟨HO, Pfr8, -, OF8⟩
  -- the y-peer's relay of chunk 9 has landed in the result
  -- the printed part k0_part126 is opened
  simp only [k0_part126_eq_skeleton]
  unfold k0_part126_skel
  simp only [semSignalWord, semWaitWord, Prog.lift, Prog.bind_op, Prog.bind_ret, Prog.pure_eq_ret, wp_deviceId]
  iapply (wp_wait_fr m K c 9 (credit_oR c 9) (oweD c 32 + oweF c 32) _) $$ [Cfr9 HO Pfr9]
  · isplitr; · (iapply (inv_at m K c (.fr 9)); iexact HR)
    isplitl [Cfr9]; · iexact Cfr9
    isplitl [HO]; · iexact HO
    isplitr; · (iapply (mayWait_fr c 9 32 32 (by decide) (by decide)); iexact Hlev)
    iexact Pfr9
  iintro ⟨HO, Pfr9, -, OF9⟩
  -- the y-peer's relay of chunk 10 has landed in the result
  iapply (wp_wait_fr m K c 10 (credit_oR c 10) (oweD c 32 + oweF c 32) _) $$ [Cfr10 HO Pfr10]
  · isplitr; · (iapply (inv_at m K c (.fr 10)); iexact HR)
    isplitl [Cfr10]; · iexact Cfr10
    isplitl [HO]; · iexact HO
    isplitr; · (iapply (mayWait_fr c 10 32 32 (by decide) (by decide)); iexact Hlev)
    iexact Pfr10
  iintro ⟨HO, Pfr10, -, OF10⟩
  -- the y-peer's relay of chunk 11 has landed in the result
  iapply (wp_wait_fr m K c 11 (credit_oR c 11) (oweD c 32 + oweF c 32) _) $$ [Cfr11 HO Pfr11]
  · isplitr; · (iapply (inv_at m K c (.fr 11)); iexact HR)
    isplitl [Cfr11]; · iexact Cfr11
    isplitl [HO]; · iexact HO
    isplitr; · (iapply (mayWait_fr c 11 32 32 (by decide) (by decide)); iexact Hlev)
    iexact Pfr11
  iintro ⟨HO, Pfr11, -, OF11⟩
  -- the y-peer's relay of chunk 12 has landed in the result
  -- the printed part k0_part127 is opened
  simp only [k0_part127_eq_skeleton]
  unfold k0_part127_skel
  simp only [semSignalWord, semWaitWord, Prog.lift, Prog.bind_op, Prog.bind_ret, Prog.pure_eq_ret, wp_deviceId]
  iapply (wp_wait_fr m K c 12 (credit_oR c 12) (oweD c 32 + oweF c 32) _) $$ [Cfr12 HO Pfr12]
  · isplitr; · (iapply (inv_at m K c (.fr 12)); iexact HR)
    isplitl [Cfr12]; · iexact Cfr12
    isplitl [HO]; · iexact HO
    isplitr; · (iapply (mayWait_fr c 12 32 32 (by decide) (by decide)); iexact Hlev)
    iexact Pfr12
  iintro ⟨HO, Pfr12, -, OF12⟩
  -- the y-peer's relay of chunk 13 has landed in the result
  iapply (wp_wait_fr m K c 13 (credit_oR c 13) (oweD c 32 + oweF c 32) _) $$ [Cfr13 HO Pfr13]
  · isplitr; · (iapply (inv_at m K c (.fr 13)); iexact HR)
    isplitl [Cfr13]; · iexact Cfr13
    isplitl [HO]; · iexact HO
    isplitr; · (iapply (mayWait_fr c 13 32 32 (by decide) (by decide)); iexact Hlev)
    iexact Pfr13
  iintro ⟨HO, Pfr13, -, OF13⟩
  -- the y-peer's relay of chunk 14 has landed in the result
  iapply (wp_wait_fr m K c 14 (credit_oR c 14) (oweD c 32 + oweF c 32) _) $$ [Cfr14 HO Pfr14]
  · isplitr; · (iapply (inv_at m K c (.fr 14)); iexact HR)
    isplitl [Cfr14]; · iexact Cfr14
    isplitl [HO]; · iexact HO
    isplitr; · (iapply (mayWait_fr c 14 32 32 (by decide) (by decide)); iexact Hlev)
    iexact Pfr14
  iintro ⟨HO, Pfr14, -, OF14⟩
  -- the y-peer's relay of chunk 15 has landed in the result
  -- the printed part k0_part128 is opened
  simp only [k0_part128_eq_skeleton]
  unfold k0_part128_skel
  simp only [semSignalWord, semWaitWord, Prog.lift, Prog.bind_op, Prog.bind_ret, Prog.pure_eq_ret, wp_deviceId]
  iapply (wp_wait_fr m K c 15 (credit_oR c 15) (oweD c 32 + oweF c 32) _) $$ [Cfr15 HO Pfr15]
  · isplitr; · (iapply (inv_at m K c (.fr 15)); iexact HR)
    isplitl [Cfr15]; · iexact Cfr15
    isplitl [HO]; · iexact HO
    isplitr; · (iapply (mayWait_fr c 15 32 32 (by decide) (by decide)); iexact Hlev)
    iexact Pfr15
  iintro ⟨HO, Pfr15, -, OF15⟩
  -- the y-peer's relay of chunk 16 has landed in the result
  iapply (wp_wait_fr m K c 16 (credit_oR c 16) (oweD c 32 + oweF c 32) _) $$ [Cfr16 HO Pfr16]
  · isplitr; · (iapply (inv_at m K c (.fr 16)); iexact HR)
    isplitl [Cfr16]; · iexact Cfr16
    isplitl [HO]; · iexact HO
    isplitr; · (iapply (mayWait_fr c 16 32 32 (by decide) (by decide)); iexact Hlev)
    iexact Pfr16
  iintro ⟨HO, Pfr16, -, OF16⟩
  -- the y-peer's relay of chunk 17 has landed in the result
  iapply (wp_wait_fr m K c 17 (credit_oR c 17) (oweD c 32 + oweF c 32) _) $$ [Cfr17 HO Pfr17]
  · isplitr; · (iapply (inv_at m K c (.fr 17)); iexact HR)
    isplitl [Cfr17]; · iexact Cfr17
    isplitl [HO]; · iexact HO
    isplitr; · (iapply (mayWait_fr c 17 32 32 (by decide) (by decide)); iexact Hlev)
    iexact Pfr17
  iintro ⟨HO, Pfr17, -, OF17⟩
  -- the y-peer's relay of chunk 18 has landed in the result
  -- the printed part k0_part129 is opened
  simp only [k0_part129_eq_skeleton]
  unfold k0_part129_skel
  simp only [semSignalWord, semWaitWord, Prog.lift, Prog.bind_op, Prog.bind_ret, Prog.pure_eq_ret, wp_deviceId]
  iapply (wp_wait_fr m K c 18 (credit_oR c 18) (oweD c 32 + oweF c 32) _) $$ [Cfr18 HO Pfr18]
  · isplitr; · (iapply (inv_at m K c (.fr 18)); iexact HR)
    isplitl [Cfr18]; · iexact Cfr18
    isplitl [HO]; · iexact HO
    isplitr; · (iapply (mayWait_fr c 18 32 32 (by decide) (by decide)); iexact Hlev)
    iexact Pfr18
  iintro ⟨HO, Pfr18, -, OF18⟩
  -- the y-peer's relay of chunk 19 has landed in the result
  iapply (wp_wait_fr m K c 19 (credit_oR c 19) (oweD c 32 + oweF c 32) _) $$ [Cfr19 HO Pfr19]
  · isplitr; · (iapply (inv_at m K c (.fr 19)); iexact HR)
    isplitl [Cfr19]; · iexact Cfr19
    isplitl [HO]; · iexact HO
    isplitr; · (iapply (mayWait_fr c 19 32 32 (by decide) (by decide)); iexact Hlev)
    iexact Pfr19
  iintro ⟨HO, Pfr19, -, OF19⟩
  -- the y-peer's relay of chunk 20 has landed in the result
  iapply (wp_wait_fr m K c 20 (credit_oR c 20) (oweD c 32 + oweF c 32) _) $$ [Cfr20 HO Pfr20]
  · isplitr; · (iapply (inv_at m K c (.fr 20)); iexact HR)
    isplitl [Cfr20]; · iexact Cfr20
    isplitl [HO]; · iexact HO
    isplitr; · (iapply (mayWait_fr c 20 32 32 (by decide) (by decide)); iexact Hlev)
    iexact Pfr20
  iintro ⟨HO, Pfr20, -, OF20⟩
  -- the y-peer's relay of chunk 21 has landed in the result
  -- the printed part k0_part130 is opened
  simp only [k0_part130_eq_skeleton]
  unfold k0_part130_skel
  simp only [semSignalWord, semWaitWord, Prog.lift, Prog.bind_op, Prog.bind_ret, Prog.pure_eq_ret, wp_deviceId]
  iapply (wp_wait_fr m K c 21 (credit_oR c 21) (oweD c 32 + oweF c 32) _) $$ [Cfr21 HO Pfr21]
  · isplitr; · (iapply (inv_at m K c (.fr 21)); iexact HR)
    isplitl [Cfr21]; · iexact Cfr21
    isplitl [HO]; · iexact HO
    isplitr; · (iapply (mayWait_fr c 21 32 32 (by decide) (by decide)); iexact Hlev)
    iexact Pfr21
  iintro ⟨HO, Pfr21, -, OF21⟩
  -- the y-peer's relay of chunk 22 has landed in the result
  iapply (wp_wait_fr m K c 22 (credit_oR c 22) (oweD c 32 + oweF c 32) _) $$ [Cfr22 HO Pfr22]
  · isplitr; · (iapply (inv_at m K c (.fr 22)); iexact HR)
    isplitl [Cfr22]; · iexact Cfr22
    isplitl [HO]; · iexact HO
    isplitr; · (iapply (mayWait_fr c 22 32 32 (by decide) (by decide)); iexact Hlev)
    iexact Pfr22
  iintro ⟨HO, Pfr22, -, OF22⟩
  -- the y-peer's relay of chunk 23 has landed in the result
  iapply (wp_wait_fr m K c 23 (credit_oR c 23) (oweD c 32 + oweF c 32) _) $$ [Cfr23 HO Pfr23]
  · isplitr; · (iapply (inv_at m K c (.fr 23)); iexact HR)
    isplitl [Cfr23]; · iexact Cfr23
    isplitl [HO]; · iexact HO
    isplitr; · (iapply (mayWait_fr c 23 32 32 (by decide) (by decide)); iexact Hlev)
    iexact Pfr23
  iintro ⟨HO, Pfr23, -, OF23⟩
  -- the y-peer's relay of chunk 24 has landed in the result
  -- the printed part k0_part131 is opened
  simp only [k0_part131_eq_skeleton]
  unfold k0_part131_skel
  simp only [semSignalWord, semWaitWord, Prog.lift, Prog.bind_op, Prog.bind_ret, Prog.pure_eq_ret, wp_deviceId]
  iapply (wp_wait_fr m K c 24 (credit_oR c 24) (oweD c 32 + oweF c 32) _) $$ [Cfr24 HO Pfr24]
  · isplitr; · (iapply (inv_at m K c (.fr 24)); iexact HR)
    isplitl [Cfr24]; · iexact Cfr24
    isplitl [HO]; · iexact HO
    isplitr; · (iapply (mayWait_fr c 24 32 32 (by decide) (by decide)); iexact Hlev)
    iexact Pfr24
  iintro ⟨HO, Pfr24, -, OF24⟩
  -- the y-peer's relay of chunk 25 has landed in the result
  iapply (wp_wait_fr m K c 25 (credit_oR c 25) (oweD c 32 + oweF c 32) _) $$ [Cfr25 HO Pfr25]
  · isplitr; · (iapply (inv_at m K c (.fr 25)); iexact HR)
    isplitl [Cfr25]; · iexact Cfr25
    isplitl [HO]; · iexact HO
    isplitr; · (iapply (mayWait_fr c 25 32 32 (by decide) (by decide)); iexact Hlev)
    iexact Pfr25
  iintro ⟨HO, Pfr25, -, OF25⟩
  -- the y-peer's relay of chunk 26 has landed in the result
  iapply (wp_wait_fr m K c 26 (credit_oR c 26) (oweD c 32 + oweF c 32) _) $$ [Cfr26 HO Pfr26]
  · isplitr; · (iapply (inv_at m K c (.fr 26)); iexact HR)
    isplitl [Cfr26]; · iexact Cfr26
    isplitl [HO]; · iexact HO
    isplitr; · (iapply (mayWait_fr c 26 32 32 (by decide) (by decide)); iexact Hlev)
    iexact Pfr26
  iintro ⟨HO, Pfr26, -, OF26⟩
  -- the y-peer's relay of chunk 27 has landed in the result
  iapply (wp_wait_fr m K c 27 (credit_oR c 27) (oweD c 32 + oweF c 32) _) $$ [Cfr27 HO Pfr27]
  · isplitr; · (iapply (inv_at m K c (.fr 27)); iexact HR)
    isplitl [Cfr27]; · iexact Cfr27
    isplitl [HO]; · iexact HO
    isplitr; · (iapply (mayWait_fr c 27 32 32 (by decide) (by decide)); iexact Hlev)
    iexact Pfr27
  iintro ⟨HO, Pfr27, -, OF27⟩
  -- the y-peer's relay of chunk 28 has landed in the result
  -- the printed part k0_part132 is opened
  simp only [k0_part132_eq_skeleton]
  unfold k0_part132_skel
  simp only [semSignalWord, semWaitWord, Prog.lift, Prog.bind_op, Prog.bind_ret, Prog.pure_eq_ret, wp_deviceId]
  iapply (wp_wait_fr m K c 28 (credit_oR c 28) (oweD c 32 + oweF c 32) _) $$ [Cfr28 HO Pfr28]
  · isplitr; · (iapply (inv_at m K c (.fr 28)); iexact HR)
    isplitl [Cfr28]; · iexact Cfr28
    isplitl [HO]; · iexact HO
    isplitr; · (iapply (mayWait_fr c 28 32 32 (by decide) (by decide)); iexact Hlev)
    iexact Pfr28
  iintro ⟨HO, Pfr28, -, OF28⟩
  -- the y-peer's relay of chunk 29 has landed in the result
  iapply (wp_wait_fr m K c 29 (credit_oR c 29) (oweD c 32 + oweF c 32) _) $$ [Cfr29 HO Pfr29]
  · isplitr; · (iapply (inv_at m K c (.fr 29)); iexact HR)
    isplitl [Cfr29]; · iexact Cfr29
    isplitl [HO]; · iexact HO
    isplitr; · (iapply (mayWait_fr c 29 32 32 (by decide) (by decide)); iexact Hlev)
    iexact Pfr29
  iintro ⟨HO, Pfr29, -, OF29⟩
  -- the y-peer's relay of chunk 30 has landed in the result
  iapply (wp_wait_fr m K c 30 (credit_oR c 30) (oweD c 32 + oweF c 32) _) $$ [Cfr30 HO Pfr30]
  · isplitr; · (iapply (inv_at m K c (.fr 30)); iexact HR)
    isplitl [Cfr30]; · iexact Cfr30
    isplitl [HO]; · iexact HO
    isplitr; · (iapply (mayWait_fr c 30 32 32 (by decide) (by decide)); iexact Hlev)
    iexact Pfr30
  iintro ⟨HO, Pfr30, -, OF30⟩
  -- the y-peer's relay of chunk 31 has landed in the result
  -- the printed part k0_part133 is opened
  simp only [k0_part133_eq_skeleton]
  unfold k0_part133_skel
  simp only [semSignalWord, semWaitWord, Prog.lift, Prog.bind_op, Prog.bind_ret, Prog.pure_eq_ret, wp_deviceId]
  iapply (wp_wait_fr m K c 31 (credit_oR c 31) (oweD c 32 + oweF c 32) _) $$ [Cfr31 HO Pfr31]
  · isplitr; · (iapply (inv_at m K c (.fr 31)); iexact HR)
    isplitl [Cfr31]; · iexact Cfr31
    isplitl [HO]; · iexact HO
    isplitr; · (iapply (mayWait_fr c 31 32 32 (by decide) (by decide)); iexact Hlev)
    iexact Pfr31
  iintro ⟨HO, Pfr31, -, OF31⟩
  -- chunk 29: its send along x has left the slot
  iapply (wp_wait_ds m K c 29 (credit_vcaPeer c (slot3 29)) (oweD c 32 + oweF c 32) _) $$ [Kds29 HO Pds29]
  · isplitr; · (iapply (inv_at m K c (.ds 29)); iexact HR)
    isplitl [Kds29]; · iexact Kds29
    isplitl [HO]; · iexact HO
    isplitr; · (iapply (mayWait_own c (.ds 29) rfl 32 32); iexact Hlev)
    iexact Pds29
  iintro ⟨HO, Pds29, -, CAp2⟩
  -- chunk 29: its local copy of vcast_a has landed
  iapply (wp_wait_lca m K c 29 (credit_oA c 29) (oweD c 32 + oweF c 32) _) $$ [Kla29 HO Pla2]
  · isplitr; · (iapply (inv_at m K c (.lca (slot3 29))); iexact HR)
    isplitl [Kla29]; · iexact Kla29
    isplitl [HO]; · iexact HO
    isplitr; · (iapply (mayWait_own c (.lca (slot3 29)) rfl 32 32); iexact Hlev)
    iexact Pla2
  iintro ⟨HO, Pla2, #Rla29, OA29, CAm2⟩
  -- chunk 29: its local copy of vcast_b has landed
  iapply (wp_wait_lcb m K c 29 (credit_oB c 29) (oweD c 32 + oweF c 32) _) $$ [Klb29 HO Plb2]
  · isplitr; · (iapply (inv_at m K c (.lcb (slot3 29))); iexact HR)
    isplitl [Klb29]; · iexact Klb29
    isplitl [HO]; · iexact HO
    isplitr; · (iapply (mayWait_own c (.lcb (slot3 29)) rfl 32 32); iexact Hlev)
    iexact Plb2
  iintro ⟨HO, Plb2, #Rlb29, OB29, CBm2⟩
  -- slot 2 of both bf16 buffers is whole again
  ihave CA2 := (vca_slot_split c (slot3 29) fullShare _).2 $$ [CAm2 CAp2]
  · isplitl [CAm2]; · iexact CAm2
    iexact CAp2
  ihave CB2 := (vcb_slot_split c (slot3 29) fullShare _).2 $$ [CBm2 CBr2]
  · isplitl [CBm2]; · iexact CBm2
    iexact CBr2
  -- chunk 30: its send along x has left the slot
  -- the printed part k0_part134 is opened
  simp only [k0_part134_eq_skeleton]
  unfold k0_part134_skel
  simp only [semSignalWord, semWaitWord, Prog.lift, Prog.bind_op, Prog.bind_ret, Prog.pure_eq_ret, wp_deviceId]
  iapply (wp_wait_ds m K c 30 (credit_vcaPeer c (slot3 30)) (oweD c 32 + oweF c 32) _) $$ [Kds30 HO Pds30]
  · isplitr; · (iapply (inv_at m K c (.ds 30)); iexact HR)
    isplitl [Kds30]; · iexact Kds30
    isplitl [HO]; · iexact HO
    isplitr; · (iapply (mayWait_own c (.ds 30) rfl 32 32); iexact Hlev)
    iexact Pds30
  iintro ⟨HO, Pds30, -, CAp0⟩
  -- chunk 30: its local copy of vcast_a has landed
  iapply (wp_wait_lca m K c 30 (credit_oA c 30) (oweD c 32 + oweF c 32) _) $$ [Kla30 HO Pla0]
  · isplitr; · (iapply (inv_at m K c (.lca (slot3 30))); iexact HR)
    isplitl [Kla30]; · iexact Kla30
    isplitl [HO]; · iexact HO
    isplitr; · (iapply (mayWait_own c (.lca (slot3 30)) rfl 32 32); iexact Hlev)
    iexact Pla0
  iintro ⟨HO, Pla0, #Rla30, OA30, CAm0⟩
  -- chunk 30: its local copy of vcast_b has landed
  iapply (wp_wait_lcb m K c 30 (credit_oB c 30) (oweD c 32 + oweF c 32) _) $$ [Klb30 HO Plb0]
  · isplitr; · (iapply (inv_at m K c (.lcb (slot3 30))); iexact HR)
    isplitl [Klb30]; · iexact Klb30
    isplitl [HO]; · iexact HO
    isplitr; · (iapply (mayWait_own c (.lcb (slot3 30)) rfl 32 32); iexact Hlev)
    iexact Plb0
  iintro ⟨HO, Plb0, #Rlb30, OB30, CBm0⟩
  -- slot 0 of both bf16 buffers is whole again
  ihave CA0 := (vca_slot_split c (slot3 30) fullShare _).2 $$ [CAm0 CAp0]
  · isplitl [CAm0]; · iexact CAm0
    iexact CAp0
  ihave CB0 := (vcb_slot_split c (slot3 30) fullShare _).2 $$ [CBm0 CBr0]
  · isplitl [CBm0]; · iexact CBm0
    iexact CBr0
  -- chunk 31: its send along x has left the slot
  iapply (wp_wait_ds m K c 31 (credit_vcaPeer c (slot3 31)) (oweD c 32 + oweF c 32) _) $$ [Kds31 HO Pds31]
  · isplitr; · (iapply (inv_at m K c (.ds 31)); iexact HR)
    isplitl [Kds31]; · iexact Kds31
    isplitl [HO]; · iexact HO
    isplitr; · (iapply (mayWait_own c (.ds 31) rfl 32 32); iexact Hlev)
    iexact Pds31
  iintro ⟨HO, Pds31, -, CAp1⟩
  -- chunk 31: its local copy of vcast_a has landed
  iapply (wp_wait_lca m K c 31 (credit_oA c 31) (oweD c 32 + oweF c 32) _) $$ [Kla31 HO Pla1]
  · isplitr; · (iapply (inv_at m K c (.lca (slot3 31))); iexact HR)
    isplitl [Kla31]; · iexact Kla31
    isplitl [HO]; · iexact HO
    isplitr; · (iapply (mayWait_own c (.lca (slot3 31)) rfl 32 32); iexact Hlev)
    iexact Pla1
  iintro ⟨HO, Pla1, #Rla31, OA31, CAm1⟩
  -- chunk 31: its local copy of vcast_b has landed
  -- the printed part k0_part135 is opened
  simp only [k0_part135_eq_skeleton]
  unfold k0_part135_skel
  simp only [semSignalWord, semWaitWord, Prog.lift, Prog.bind_op, Prog.bind_ret, Prog.pure_eq_ret, wp_deviceId]
  iapply (wp_wait_lcb m K c 31 (credit_oB c 31) (oweD c 32 + oweF c 32) _) $$ [Klb31 HO Plb1]
  · isplitr; · (iapply (inv_at m K c (.lcb (slot3 31))); iexact HR)
    isplitl [Klb31]; · iexact Klb31
    isplitl [HO]; · iexact HO
    isplitr; · (iapply (mayWait_own c (.lcb (slot3 31)) rfl 32 32); iexact Hlev)
    iexact Plb1
  iintro ⟨HO, Plb1, #Rlb31, OB31, CBm1⟩
  -- slot 1 of both bf16 buffers is whole again
  ihave CA1 := (vca_slot_split c (slot3 31) fullShare _).2 $$ [CAm1 CAp1]
  · isplitl [CAm1]; · iexact CAm1
    iexact CAp1
  ihave CB1 := (vcb_slot_split c (slot3 31) fullShare _).2 $$ [CBm1 CBr1]
  · isplitl [CBm1]; · iexact CBm1
    iexact CBr1
  -- chunk 0: the copy out of its landing slot and its relay have both read the slot
  iapply (wp_wait_lo m K c 0 (credit_oR c 0) (oweD c 32 + oweF c 32) _) $$ [Klo0 HO Plo0]
  · isplitr; · (iapply (inv_at m K c (.lo 0)); iexact HR)
    isplitl [Klo0]; · iexact Klo0
    isplitl [HO]; · iexact HO
    isplitr; · (iapply (mayWait_own c (.lo 0) rfl 32 32); iexact Hlev)
    iexact Plo0
  iintro ⟨HO, Plo0, -, OR0, LDl0⟩
  iapply (wp_wait_fs m K c 0 (credit_ldS 0) (oweD c 32 + oweF c 32) _) $$ [Kfs0 HO Pfs0]
  · isplitr; · (iapply (inv_at m K c (.fs 0)); iexact HR)
    isplitl [Kfs0]; · iexact Kfs0
    isplitl [HO]; · iexact HO
    isplitr; · (iapply (mayWait_own c (.fs 0) rfl 32 32); iexact Hlev)
    iexact Pfs0
  iintro ⟨HO, Pfs0, -, LDr0⟩
  ihave LD0 := (ld_share_split c 0 _).2 $$ [LDl0 LDr0]
  · isplitl [LDl0]; · iexact LDl0
    iexact LDr0
  -- chunk 1: the copy out of its landing slot and its relay have both read the slot
  iapply (wp_wait_lo m K c 1 (credit_oR c 1) (oweD c 32 + oweF c 32) _) $$ [Klo1 HO Plo1]
  · isplitr; · (iapply (inv_at m K c (.lo 1)); iexact HR)
    isplitl [Klo1]; · iexact Klo1
    isplitl [HO]; · iexact HO
    isplitr; · (iapply (mayWait_own c (.lo 1) rfl 32 32); iexact Hlev)
    iexact Plo1
  iintro ⟨HO, Plo1, -, OR1, LDl1⟩
  iapply (wp_wait_fs m K c 1 (credit_ldS 1) (oweD c 32 + oweF c 32) _) $$ [Kfs1 HO Pfs1]
  · isplitr; · (iapply (inv_at m K c (.fs 1)); iexact HR)
    isplitl [Kfs1]; · iexact Kfs1
    isplitl [HO]; · iexact HO
    isplitr; · (iapply (mayWait_own c (.fs 1) rfl 32 32); iexact Hlev)
    iexact Pfs1
  iintro ⟨HO, Pfs1, -, LDr1⟩
  ihave LD1 := (ld_share_split c 1 _).2 $$ [LDl1 LDr1]
  · isplitl [LDl1]; · iexact LDl1
    iexact LDr1
  -- chunk 2: the copy out of its landing slot and its relay have both read the slot
  iapply (wp_wait_lo m K c 2 (credit_oR c 2) (oweD c 32 + oweF c 32) _) $$ [Klo2 HO Plo2]
  · isplitr; · (iapply (inv_at m K c (.lo 2)); iexact HR)
    isplitl [Klo2]; · iexact Klo2
    isplitl [HO]; · iexact HO
    isplitr; · (iapply (mayWait_own c (.lo 2) rfl 32 32); iexact Hlev)
    iexact Plo2
  iintro ⟨HO, Plo2, -, OR2, LDl2⟩
  -- the printed part k0_part136 is opened
  simp only [k0_part136_eq_skeleton]
  unfold k0_part136_skel
  simp only [semSignalWord, semWaitWord, Prog.lift, Prog.bind_op, Prog.bind_ret, Prog.pure_eq_ret, wp_deviceId]
  iapply (wp_wait_fs m K c 2 (credit_ldS 2) (oweD c 32 + oweF c 32) _) $$ [Kfs2 HO Pfs2]
  · isplitr; · (iapply (inv_at m K c (.fs 2)); iexact HR)
    isplitl [Kfs2]; · iexact Kfs2
    isplitl [HO]; · iexact HO
    isplitr; · (iapply (mayWait_own c (.fs 2) rfl 32 32); iexact Hlev)
    iexact Pfs2
  iintro ⟨HO, Pfs2, -, LDr2⟩
  ihave LD2 := (ld_share_split c 2 _).2 $$ [LDl2 LDr2]
  · isplitl [LDl2]; · iexact LDl2
    iexact LDr2
  -- chunk 3: the copy out of its landing slot and its relay have both read the slot
  iapply (wp_wait_lo m K c 3 (credit_oR c 3) (oweD c 32 + oweF c 32) _) $$ [Klo3 HO Plo3]
  · isplitr; · (iapply (inv_at m K c (.lo 3)); iexact HR)
    isplitl [Klo3]; · iexact Klo3
    isplitl [HO]; · iexact HO
    isplitr; · (iapply (mayWait_own c (.lo 3) rfl 32 32); iexact Hlev)
    iexact Plo3
  iintro ⟨HO, Plo3, -, OR3, LDl3⟩
  iapply (wp_wait_fs m K c 3 (credit_ldS 3) (oweD c 32 + oweF c 32) _) $$ [Kfs3 HO Pfs3]
  · isplitr; · (iapply (inv_at m K c (.fs 3)); iexact HR)
    isplitl [Kfs3]; · iexact Kfs3
    isplitl [HO]; · iexact HO
    isplitr; · (iapply (mayWait_own c (.fs 3) rfl 32 32); iexact Hlev)
    iexact Pfs3
  iintro ⟨HO, Pfs3, -, LDr3⟩
  ihave LD3 := (ld_share_split c 3 _).2 $$ [LDl3 LDr3]
  · isplitl [LDl3]; · iexact LDl3
    iexact LDr3
  -- chunk 4: the copy out of its landing slot and its relay have both read the slot
  iapply (wp_wait_lo m K c 4 (credit_oR c 4) (oweD c 32 + oweF c 32) _) $$ [Klo4 HO Plo4]
  · isplitr; · (iapply (inv_at m K c (.lo 4)); iexact HR)
    isplitl [Klo4]; · iexact Klo4
    isplitl [HO]; · iexact HO
    isplitr; · (iapply (mayWait_own c (.lo 4) rfl 32 32); iexact Hlev)
    iexact Plo4
  iintro ⟨HO, Plo4, -, OR4, LDl4⟩
  -- the printed part k0_part137 is opened
  simp only [k0_part137_eq_skeleton]
  unfold k0_part137_skel
  simp only [semSignalWord, semWaitWord, Prog.lift, Prog.bind_op, Prog.bind_ret, Prog.pure_eq_ret, wp_deviceId]
  iapply (wp_wait_fs m K c 4 (credit_ldS 4) (oweD c 32 + oweF c 32) _) $$ [Kfs4 HO Pfs4]
  · isplitr; · (iapply (inv_at m K c (.fs 4)); iexact HR)
    isplitl [Kfs4]; · iexact Kfs4
    isplitl [HO]; · iexact HO
    isplitr; · (iapply (mayWait_own c (.fs 4) rfl 32 32); iexact Hlev)
    iexact Pfs4
  iintro ⟨HO, Pfs4, -, LDr4⟩
  ihave LD4 := (ld_share_split c 4 _).2 $$ [LDl4 LDr4]
  · isplitl [LDl4]; · iexact LDl4
    iexact LDr4
  -- chunk 5: the copy out of its landing slot and its relay have both read the slot
  iapply (wp_wait_lo m K c 5 (credit_oR c 5) (oweD c 32 + oweF c 32) _) $$ [Klo5 HO Plo5]
  · isplitr; · (iapply (inv_at m K c (.lo 5)); iexact HR)
    isplitl [Klo5]; · iexact Klo5
    isplitl [HO]; · iexact HO
    isplitr; · (iapply (mayWait_own c (.lo 5) rfl 32 32); iexact Hlev)
    iexact Plo5
  iintro ⟨HO, Plo5, -, OR5, LDl5⟩
  iapply (wp_wait_fs m K c 5 (credit_ldS 5) (oweD c 32 + oweF c 32) _) $$ [Kfs5 HO Pfs5]
  · isplitr; · (iapply (inv_at m K c (.fs 5)); iexact HR)
    isplitl [Kfs5]; · iexact Kfs5
    isplitl [HO]; · iexact HO
    isplitr; · (iapply (mayWait_own c (.fs 5) rfl 32 32); iexact Hlev)
    iexact Pfs5
  iintro ⟨HO, Pfs5, -, LDr5⟩
  ihave LD5 := (ld_share_split c 5 _).2 $$ [LDl5 LDr5]
  · isplitl [LDl5]; · iexact LDl5
    iexact LDr5
  -- chunk 6: the copy out of its landing slot and its relay have both read the slot
  iapply (wp_wait_lo m K c 6 (credit_oR c 6) (oweD c 32 + oweF c 32) _) $$ [Klo6 HO Plo6]
  · isplitr; · (iapply (inv_at m K c (.lo 6)); iexact HR)
    isplitl [Klo6]; · iexact Klo6
    isplitl [HO]; · iexact HO
    isplitr; · (iapply (mayWait_own c (.lo 6) rfl 32 32); iexact Hlev)
    iexact Plo6
  iintro ⟨HO, Plo6, -, OR6, LDl6⟩
  iapply (wp_wait_fs m K c 6 (credit_ldS 6) (oweD c 32 + oweF c 32) _) $$ [Kfs6 HO Pfs6]
  · isplitr; · (iapply (inv_at m K c (.fs 6)); iexact HR)
    isplitl [Kfs6]; · iexact Kfs6
    isplitl [HO]; · iexact HO
    isplitr; · (iapply (mayWait_own c (.fs 6) rfl 32 32); iexact Hlev)
    iexact Pfs6
  iintro ⟨HO, Pfs6, -, LDr6⟩
  ihave LD6 := (ld_share_split c 6 _).2 $$ [LDl6 LDr6]
  · isplitl [LDl6]; · iexact LDl6
    iexact LDr6
  -- chunk 7: the copy out of its landing slot and its relay have both read the slot
  iapply (wp_wait_lo m K c 7 (credit_oR c 7) (oweD c 32 + oweF c 32) _) $$ [Klo7 HO Plo7]
  · isplitr; · (iapply (inv_at m K c (.lo 7)); iexact HR)
    isplitl [Klo7]; · iexact Klo7
    isplitl [HO]; · iexact HO
    isplitr; · (iapply (mayWait_own c (.lo 7) rfl 32 32); iexact Hlev)
    iexact Plo7
  iintro ⟨HO, Plo7, -, OR7, LDl7⟩
  -- the printed part k0_part138 is opened
  simp only [k0_part138_eq_skeleton]
  unfold k0_part138_skel
  simp only [semSignalWord, semWaitWord, Prog.lift, Prog.bind_op, Prog.bind_ret, Prog.pure_eq_ret, wp_deviceId]
  iapply (wp_wait_fs m K c 7 (credit_ldS 7) (oweD c 32 + oweF c 32) _) $$ [Kfs7 HO Pfs7]
  · isplitr; · (iapply (inv_at m K c (.fs 7)); iexact HR)
    isplitl [Kfs7]; · iexact Kfs7
    isplitl [HO]; · iexact HO
    isplitr; · (iapply (mayWait_own c (.fs 7) rfl 32 32); iexact Hlev)
    iexact Pfs7
  iintro ⟨HO, Pfs7, -, LDr7⟩
  ihave LD7 := (ld_share_split c 7 _).2 $$ [LDl7 LDr7]
  · isplitl [LDl7]; · iexact LDl7
    iexact LDr7
  -- chunk 8: the copy out of its landing slot and its relay have both read the slot
  iapply (wp_wait_lo m K c 8 (credit_oR c 8) (oweD c 32 + oweF c 32) _) $$ [Klo8 HO Plo8]
  · isplitr; · (iapply (inv_at m K c (.lo 8)); iexact HR)
    isplitl [Klo8]; · iexact Klo8
    isplitl [HO]; · iexact HO
    isplitr; · (iapply (mayWait_own c (.lo 8) rfl 32 32); iexact Hlev)
    iexact Plo8
  iintro ⟨HO, Plo8, -, OR8, LDl8⟩
  iapply (wp_wait_fs m K c 8 (credit_ldS 8) (oweD c 32 + oweF c 32) _) $$ [Kfs8 HO Pfs8]
  · isplitr; · (iapply (inv_at m K c (.fs 8)); iexact HR)
    isplitl [Kfs8]; · iexact Kfs8
    isplitl [HO]; · iexact HO
    isplitr; · (iapply (mayWait_own c (.fs 8) rfl 32 32); iexact Hlev)
    iexact Pfs8
  iintro ⟨HO, Pfs8, -, LDr8⟩
  ihave LD8 := (ld_share_split c 8 _).2 $$ [LDl8 LDr8]
  · isplitl [LDl8]; · iexact LDl8
    iexact LDr8
  -- chunk 9: the copy out of its landing slot and its relay have both read the slot
  iapply (wp_wait_lo m K c 9 (credit_oR c 9) (oweD c 32 + oweF c 32) _) $$ [Klo9 HO Plo9]
  · isplitr; · (iapply (inv_at m K c (.lo 9)); iexact HR)
    isplitl [Klo9]; · iexact Klo9
    isplitl [HO]; · iexact HO
    isplitr; · (iapply (mayWait_own c (.lo 9) rfl 32 32); iexact Hlev)
    iexact Plo9
  iintro ⟨HO, Plo9, -, OR9, LDl9⟩
  -- the printed part k0_part139 is opened
  simp only [k0_part139_eq_skeleton]
  unfold k0_part139_skel
  simp only [semSignalWord, semWaitWord, Prog.lift, Prog.bind_op, Prog.bind_ret, Prog.pure_eq_ret, wp_deviceId]
  iapply (wp_wait_fs m K c 9 (credit_ldS 9) (oweD c 32 + oweF c 32) _) $$ [Kfs9 HO Pfs9]
  · isplitr; · (iapply (inv_at m K c (.fs 9)); iexact HR)
    isplitl [Kfs9]; · iexact Kfs9
    isplitl [HO]; · iexact HO
    isplitr; · (iapply (mayWait_own c (.fs 9) rfl 32 32); iexact Hlev)
    iexact Pfs9
  iintro ⟨HO, Pfs9, -, LDr9⟩
  ihave LD9 := (ld_share_split c 9 _).2 $$ [LDl9 LDr9]
  · isplitl [LDl9]; · iexact LDl9
    iexact LDr9
  -- chunk 10: the copy out of its landing slot and its relay have both read the slot
  iapply (wp_wait_lo m K c 10 (credit_oR c 10) (oweD c 32 + oweF c 32) _) $$ [Klo10 HO Plo10]
  · isplitr; · (iapply (inv_at m K c (.lo 10)); iexact HR)
    isplitl [Klo10]; · iexact Klo10
    isplitl [HO]; · iexact HO
    isplitr; · (iapply (mayWait_own c (.lo 10) rfl 32 32); iexact Hlev)
    iexact Plo10
  iintro ⟨HO, Plo10, -, OR10, LDl10⟩
  iapply (wp_wait_fs m K c 10 (credit_ldS 10) (oweD c 32 + oweF c 32) _) $$ [Kfs10 HO Pfs10]
  · isplitr; · (iapply (inv_at m K c (.fs 10)); iexact HR)
    isplitl [Kfs10]; · iexact Kfs10
    isplitl [HO]; · iexact HO
    isplitr; · (iapply (mayWait_own c (.fs 10) rfl 32 32); iexact Hlev)
    iexact Pfs10
  iintro ⟨HO, Pfs10, -, LDr10⟩
  ihave LD10 := (ld_share_split c 10 _).2 $$ [LDl10 LDr10]
  · isplitl [LDl10]; · iexact LDl10
    iexact LDr10
  -- chunk 11: the copy out of its landing slot and its relay have both read the slot
  iapply (wp_wait_lo m K c 11 (credit_oR c 11) (oweD c 32 + oweF c 32) _) $$ [Klo11 HO Plo11]
  · isplitr; · (iapply (inv_at m K c (.lo 11)); iexact HR)
    isplitl [Klo11]; · iexact Klo11
    isplitl [HO]; · iexact HO
    isplitr; · (iapply (mayWait_own c (.lo 11) rfl 32 32); iexact Hlev)
    iexact Plo11
  iintro ⟨HO, Plo11, -, OR11, LDl11⟩
  iapply (wp_wait_fs m K c 11 (credit_ldS 11) (oweD c 32 + oweF c 32) _) $$ [Kfs11 HO Pfs11]
  · isplitr; · (iapply (inv_at m K c (.fs 11)); iexact HR)
    isplitl [Kfs11]; · iexact Kfs11
    isplitl [HO]; · iexact HO
    isplitr; · (iapply (mayWait_own c (.fs 11) rfl 32 32); iexact Hlev)
    iexact Pfs11
  iintro ⟨HO, Pfs11, -, LDr11⟩
  ihave LD11 := (ld_share_split c 11 _).2 $$ [LDl11 LDr11]
  · isplitl [LDl11]; · iexact LDl11
    iexact LDr11
  -- chunk 12: the copy out of its landing slot and its relay have both read the slot
  iapply (wp_wait_lo m K c 12 (credit_oR c 12) (oweD c 32 + oweF c 32) _) $$ [Klo12 HO Plo12]
  · isplitr; · (iapply (inv_at m K c (.lo 12)); iexact HR)
    isplitl [Klo12]; · iexact Klo12
    isplitl [HO]; · iexact HO
    isplitr; · (iapply (mayWait_own c (.lo 12) rfl 32 32); iexact Hlev)
    iexact Plo12
  iintro ⟨HO, Plo12, -, OR12, LDl12⟩
  -- the printed part k0_part140 is opened
  simp only [k0_part140_eq_skeleton]
  unfold k0_part140_skel
  simp only [semSignalWord, semWaitWord, Prog.lift, Prog.bind_op, Prog.bind_ret, Prog.pure_eq_ret, wp_deviceId]
  iapply (wp_wait_fs m K c 12 (credit_ldS 12) (oweD c 32 + oweF c 32) _) $$ [Kfs12 HO Pfs12]
  · isplitr; · (iapply (inv_at m K c (.fs 12)); iexact HR)
    isplitl [Kfs12]; · iexact Kfs12
    isplitl [HO]; · iexact HO
    isplitr; · (iapply (mayWait_own c (.fs 12) rfl 32 32); iexact Hlev)
    iexact Pfs12
  iintro ⟨HO, Pfs12, -, LDr12⟩
  ihave LD12 := (ld_share_split c 12 _).2 $$ [LDl12 LDr12]
  · isplitl [LDl12]; · iexact LDl12
    iexact LDr12
  -- chunk 13: the copy out of its landing slot and its relay have both read the slot
  iapply (wp_wait_lo m K c 13 (credit_oR c 13) (oweD c 32 + oweF c 32) _) $$ [Klo13 HO Plo13]
  · isplitr; · (iapply (inv_at m K c (.lo 13)); iexact HR)
    isplitl [Klo13]; · iexact Klo13
    isplitl [HO]; · iexact HO
    isplitr; · (iapply (mayWait_own c (.lo 13) rfl 32 32); iexact Hlev)
    iexact Plo13
  iintro ⟨HO, Plo13, -, OR13, LDl13⟩
  iapply (wp_wait_fs m K c 13 (credit_ldS 13) (oweD c 32 + oweF c 32) _) $$ [Kfs13 HO Pfs13]
  · isplitr; · (iapply (inv_at m K c (.fs 13)); iexact HR)
    isplitl [Kfs13]; · iexact Kfs13
    isplitl [HO]; · iexact HO
    isplitr; · (iapply (mayWait_own c (.fs 13) rfl 32 32); iexact Hlev)
    iexact Pfs13
  iintro ⟨HO, Pfs13, -, LDr13⟩
  ihave LD13 := (ld_share_split c 13 _).2 $$ [LDl13 LDr13]
  · isplitl [LDl13]; · iexact LDl13
    iexact LDr13
  -- chunk 14: the copy out of its landing slot and its relay have both read the slot
  iapply (wp_wait_lo m K c 14 (credit_oR c 14) (oweD c 32 + oweF c 32) _) $$ [Klo14 HO Plo14]
  · isplitr; · (iapply (inv_at m K c (.lo 14)); iexact HR)
    isplitl [Klo14]; · iexact Klo14
    isplitl [HO]; · iexact HO
    isplitr; · (iapply (mayWait_own c (.lo 14) rfl 32 32); iexact Hlev)
    iexact Plo14
  iintro ⟨HO, Plo14, -, OR14, LDl14⟩
  -- the printed part k0_part141 is opened
  simp only [k0_part141_eq_skeleton]
  unfold k0_part141_skel
  simp only [semSignalWord, semWaitWord, Prog.lift, Prog.bind_op, Prog.bind_ret, Prog.pure_eq_ret, wp_deviceId]
  iapply (wp_wait_fs m K c 14 (credit_ldS 14) (oweD c 32 + oweF c 32) _) $$ [Kfs14 HO Pfs14]
  · isplitr; · (iapply (inv_at m K c (.fs 14)); iexact HR)
    isplitl [Kfs14]; · iexact Kfs14
    isplitl [HO]; · iexact HO
    isplitr; · (iapply (mayWait_own c (.fs 14) rfl 32 32); iexact Hlev)
    iexact Pfs14
  iintro ⟨HO, Pfs14, -, LDr14⟩
  ihave LD14 := (ld_share_split c 14 _).2 $$ [LDl14 LDr14]
  · isplitl [LDl14]; · iexact LDl14
    iexact LDr14
  -- chunk 15: the copy out of its landing slot and its relay have both read the slot
  iapply (wp_wait_lo m K c 15 (credit_oR c 15) (oweD c 32 + oweF c 32) _) $$ [Klo15 HO Plo15]
  · isplitr; · (iapply (inv_at m K c (.lo 15)); iexact HR)
    isplitl [Klo15]; · iexact Klo15
    isplitl [HO]; · iexact HO
    isplitr; · (iapply (mayWait_own c (.lo 15) rfl 32 32); iexact Hlev)
    iexact Plo15
  iintro ⟨HO, Plo15, -, OR15, LDl15⟩
  iapply (wp_wait_fs m K c 15 (credit_ldS 15) (oweD c 32 + oweF c 32) _) $$ [Kfs15 HO Pfs15]
  · isplitr; · (iapply (inv_at m K c (.fs 15)); iexact HR)
    isplitl [Kfs15]; · iexact Kfs15
    isplitl [HO]; · iexact HO
    isplitr; · (iapply (mayWait_own c (.fs 15) rfl 32 32); iexact Hlev)
    iexact Pfs15
  iintro ⟨HO, Pfs15, -, LDr15⟩
  ihave LD15 := (ld_share_split c 15 _).2 $$ [LDl15 LDr15]
  · isplitl [LDl15]; · iexact LDl15
    iexact LDr15
  -- chunk 16: the copy out of its landing slot and its relay have both read the slot
  iapply (wp_wait_lo m K c 16 (credit_oR c 16) (oweD c 32 + oweF c 32) _) $$ [Klo16 HO Plo16]
  · isplitr; · (iapply (inv_at m K c (.lo 16)); iexact HR)
    isplitl [Klo16]; · iexact Klo16
    isplitl [HO]; · iexact HO
    isplitr; · (iapply (mayWait_own c (.lo 16) rfl 32 32); iexact Hlev)
    iexact Plo16
  iintro ⟨HO, Plo16, -, OR16, LDl16⟩
  iapply (wp_wait_fs m K c 16 (credit_ldS 16) (oweD c 32 + oweF c 32) _) $$ [Kfs16 HO Pfs16]
  · isplitr; · (iapply (inv_at m K c (.fs 16)); iexact HR)
    isplitl [Kfs16]; · iexact Kfs16
    isplitl [HO]; · iexact HO
    isplitr; · (iapply (mayWait_own c (.fs 16) rfl 32 32); iexact Hlev)
    iexact Pfs16
  iintro ⟨HO, Pfs16, -, LDr16⟩
  ihave LD16 := (ld_share_split c 16 _).2 $$ [LDl16 LDr16]
  · isplitl [LDl16]; · iexact LDl16
    iexact LDr16
  -- chunk 17: the copy out of its landing slot and its relay have both read the slot
  iapply (wp_wait_lo m K c 17 (credit_oR c 17) (oweD c 32 + oweF c 32) _) $$ [Klo17 HO Plo17]
  · isplitr; · (iapply (inv_at m K c (.lo 17)); iexact HR)
    isplitl [Klo17]; · iexact Klo17
    isplitl [HO]; · iexact HO
    isplitr; · (iapply (mayWait_own c (.lo 17) rfl 32 32); iexact Hlev)
    iexact Plo17
  iintro ⟨HO, Plo17, -, OR17, LDl17⟩
  -- the printed part k0_part142 is opened
  simp only [k0_part142_eq_skeleton]
  unfold k0_part142_skel
  simp only [semSignalWord, semWaitWord, Prog.lift, Prog.bind_op, Prog.bind_ret, Prog.pure_eq_ret, wp_deviceId]
  iapply (wp_wait_fs m K c 17 (credit_ldS 17) (oweD c 32 + oweF c 32) _) $$ [Kfs17 HO Pfs17]
  · isplitr; · (iapply (inv_at m K c (.fs 17)); iexact HR)
    isplitl [Kfs17]; · iexact Kfs17
    isplitl [HO]; · iexact HO
    isplitr; · (iapply (mayWait_own c (.fs 17) rfl 32 32); iexact Hlev)
    iexact Pfs17
  iintro ⟨HO, Pfs17, -, LDr17⟩
  ihave LD17 := (ld_share_split c 17 _).2 $$ [LDl17 LDr17]
  · isplitl [LDl17]; · iexact LDl17
    iexact LDr17
  -- chunk 18: the copy out of its landing slot and its relay have both read the slot
  iapply (wp_wait_lo m K c 18 (credit_oR c 18) (oweD c 32 + oweF c 32) _) $$ [Klo18 HO Plo18]
  · isplitr; · (iapply (inv_at m K c (.lo 18)); iexact HR)
    isplitl [Klo18]; · iexact Klo18
    isplitl [HO]; · iexact HO
    isplitr; · (iapply (mayWait_own c (.lo 18) rfl 32 32); iexact Hlev)
    iexact Plo18
  iintro ⟨HO, Plo18, -, OR18, LDl18⟩
  iapply (wp_wait_fs m K c 18 (credit_ldS 18) (oweD c 32 + oweF c 32) _) $$ [Kfs18 HO Pfs18]
  · isplitr; · (iapply (inv_at m K c (.fs 18)); iexact HR)
    isplitl [Kfs18]; · iexact Kfs18
    isplitl [HO]; · iexact HO
    isplitr; · (iapply (mayWait_own c (.fs 18) rfl 32 32); iexact Hlev)
    iexact Pfs18
  iintro ⟨HO, Pfs18, -, LDr18⟩
  ihave LD18 := (ld_share_split c 18 _).2 $$ [LDl18 LDr18]
  · isplitl [LDl18]; · iexact LDl18
    iexact LDr18
  -- chunk 19: the copy out of its landing slot and its relay have both read the slot
  iapply (wp_wait_lo m K c 19 (credit_oR c 19) (oweD c 32 + oweF c 32) _) $$ [Klo19 HO Plo19]
  · isplitr; · (iapply (inv_at m K c (.lo 19)); iexact HR)
    isplitl [Klo19]; · iexact Klo19
    isplitl [HO]; · iexact HO
    isplitr; · (iapply (mayWait_own c (.lo 19) rfl 32 32); iexact Hlev)
    iexact Plo19
  iintro ⟨HO, Plo19, -, OR19, LDl19⟩
  -- the printed part k0_part143 is opened
  simp only [k0_part143_eq_skeleton]
  unfold k0_part143_skel
  simp only [semSignalWord, semWaitWord, Prog.lift, Prog.bind_op, Prog.bind_ret, Prog.pure_eq_ret, wp_deviceId]
  iapply (wp_wait_fs m K c 19 (credit_ldS 19) (oweD c 32 + oweF c 32) _) $$ [Kfs19 HO Pfs19]
  · isplitr; · (iapply (inv_at m K c (.fs 19)); iexact HR)
    isplitl [Kfs19]; · iexact Kfs19
    isplitl [HO]; · iexact HO
    isplitr; · (iapply (mayWait_own c (.fs 19) rfl 32 32); iexact Hlev)
    iexact Pfs19
  iintro ⟨HO, Pfs19, -, LDr19⟩
  ihave LD19 := (ld_share_split c 19 _).2 $$ [LDl19 LDr19]
  · isplitl [LDl19]; · iexact LDl19
    iexact LDr19
  -- chunk 20: the copy out of its landing slot and its relay have both read the slot
  iapply (wp_wait_lo m K c 20 (credit_oR c 20) (oweD c 32 + oweF c 32) _) $$ [Klo20 HO Plo20]
  · isplitr; · (iapply (inv_at m K c (.lo 20)); iexact HR)
    isplitl [Klo20]; · iexact Klo20
    isplitl [HO]; · iexact HO
    isplitr; · (iapply (mayWait_own c (.lo 20) rfl 32 32); iexact Hlev)
    iexact Plo20
  iintro ⟨HO, Plo20, -, OR20, LDl20⟩
  iapply (wp_wait_fs m K c 20 (credit_ldS 20) (oweD c 32 + oweF c 32) _) $$ [Kfs20 HO Pfs20]
  · isplitr; · (iapply (inv_at m K c (.fs 20)); iexact HR)
    isplitl [Kfs20]; · iexact Kfs20
    isplitl [HO]; · iexact HO
    isplitr; · (iapply (mayWait_own c (.fs 20) rfl 32 32); iexact Hlev)
    iexact Pfs20
  iintro ⟨HO, Pfs20, -, LDr20⟩
  ihave LD20 := (ld_share_split c 20 _).2 $$ [LDl20 LDr20]
  · isplitl [LDl20]; · iexact LDl20
    iexact LDr20
  -- chunk 21: the copy out of its landing slot and its relay have both read the slot
  iapply (wp_wait_lo m K c 21 (credit_oR c 21) (oweD c 32 + oweF c 32) _) $$ [Klo21 HO Plo21]
  · isplitr; · (iapply (inv_at m K c (.lo 21)); iexact HR)
    isplitl [Klo21]; · iexact Klo21
    isplitl [HO]; · iexact HO
    isplitr; · (iapply (mayWait_own c (.lo 21) rfl 32 32); iexact Hlev)
    iexact Plo21
  iintro ⟨HO, Plo21, -, OR21, LDl21⟩
  iapply (wp_wait_fs m K c 21 (credit_ldS 21) (oweD c 32 + oweF c 32) _) $$ [Kfs21 HO Pfs21]
  · isplitr; · (iapply (inv_at m K c (.fs 21)); iexact HR)
    isplitl [Kfs21]; · iexact Kfs21
    isplitl [HO]; · iexact HO
    isplitr; · (iapply (mayWait_own c (.fs 21) rfl 32 32); iexact Hlev)
    iexact Pfs21
  iintro ⟨HO, Pfs21, -, LDr21⟩
  ihave LD21 := (ld_share_split c 21 _).2 $$ [LDl21 LDr21]
  · isplitl [LDl21]; · iexact LDl21
    iexact LDr21
  -- chunk 22: the copy out of its landing slot and its relay have both read the slot
  iapply (wp_wait_lo m K c 22 (credit_oR c 22) (oweD c 32 + oweF c 32) _) $$ [Klo22 HO Plo22]
  · isplitr; · (iapply (inv_at m K c (.lo 22)); iexact HR)
    isplitl [Klo22]; · iexact Klo22
    isplitl [HO]; · iexact HO
    isplitr; · (iapply (mayWait_own c (.lo 22) rfl 32 32); iexact Hlev)
    iexact Plo22
  iintro ⟨HO, Plo22, -, OR22, LDl22⟩
  -- the printed part k0_part144 is opened
  simp only [k0_part144_eq_skeleton]
  unfold k0_part144_skel
  simp only [semSignalWord, semWaitWord, Prog.lift, Prog.bind_op, Prog.bind_ret, Prog.pure_eq_ret, wp_deviceId]
  iapply (wp_wait_fs m K c 22 (credit_ldS 22) (oweD c 32 + oweF c 32) _) $$ [Kfs22 HO Pfs22]
  · isplitr; · (iapply (inv_at m K c (.fs 22)); iexact HR)
    isplitl [Kfs22]; · iexact Kfs22
    isplitl [HO]; · iexact HO
    isplitr; · (iapply (mayWait_own c (.fs 22) rfl 32 32); iexact Hlev)
    iexact Pfs22
  iintro ⟨HO, Pfs22, -, LDr22⟩
  ihave LD22 := (ld_share_split c 22 _).2 $$ [LDl22 LDr22]
  · isplitl [LDl22]; · iexact LDl22
    iexact LDr22
  -- chunk 23: the copy out of its landing slot and its relay have both read the slot
  iapply (wp_wait_lo m K c 23 (credit_oR c 23) (oweD c 32 + oweF c 32) _) $$ [Klo23 HO Plo23]
  · isplitr; · (iapply (inv_at m K c (.lo 23)); iexact HR)
    isplitl [Klo23]; · iexact Klo23
    isplitl [HO]; · iexact HO
    isplitr; · (iapply (mayWait_own c (.lo 23) rfl 32 32); iexact Hlev)
    iexact Plo23
  iintro ⟨HO, Plo23, -, OR23, LDl23⟩
  iapply (wp_wait_fs m K c 23 (credit_ldS 23) (oweD c 32 + oweF c 32) _) $$ [Kfs23 HO Pfs23]
  · isplitr; · (iapply (inv_at m K c (.fs 23)); iexact HR)
    isplitl [Kfs23]; · iexact Kfs23
    isplitl [HO]; · iexact HO
    isplitr; · (iapply (mayWait_own c (.fs 23) rfl 32 32); iexact Hlev)
    iexact Pfs23
  iintro ⟨HO, Pfs23, -, LDr23⟩
  ihave LD23 := (ld_share_split c 23 _).2 $$ [LDl23 LDr23]
  · isplitl [LDl23]; · iexact LDl23
    iexact LDr23
  -- chunk 24: the copy out of its landing slot and its relay have both read the slot
  iapply (wp_wait_lo m K c 24 (credit_oR c 24) (oweD c 32 + oweF c 32) _) $$ [Klo24 HO Plo24]
  · isplitr; · (iapply (inv_at m K c (.lo 24)); iexact HR)
    isplitl [Klo24]; · iexact Klo24
    isplitl [HO]; · iexact HO
    isplitr; · (iapply (mayWait_own c (.lo 24) rfl 32 32); iexact Hlev)
    iexact Plo24
  iintro ⟨HO, Plo24, -, OR24, LDl24⟩
  -- the printed part k0_part145 is opened
  simp only [k0_part145_eq_skeleton]
  unfold k0_part145_skel
  simp only [semSignalWord, semWaitWord, Prog.lift, Prog.bind_op, Prog.bind_ret, Prog.pure_eq_ret, wp_deviceId]
  iapply (wp_wait_fs m K c 24 (credit_ldS 24) (oweD c 32 + oweF c 32) _) $$ [Kfs24 HO Pfs24]
  · isplitr; · (iapply (inv_at m K c (.fs 24)); iexact HR)
    isplitl [Kfs24]; · iexact Kfs24
    isplitl [HO]; · iexact HO
    isplitr; · (iapply (mayWait_own c (.fs 24) rfl 32 32); iexact Hlev)
    iexact Pfs24
  iintro ⟨HO, Pfs24, -, LDr24⟩
  ihave LD24 := (ld_share_split c 24 _).2 $$ [LDl24 LDr24]
  · isplitl [LDl24]; · iexact LDl24
    iexact LDr24
  -- chunk 25: the copy out of its landing slot and its relay have both read the slot
  iapply (wp_wait_lo m K c 25 (credit_oR c 25) (oweD c 32 + oweF c 32) _) $$ [Klo25 HO Plo25]
  · isplitr; · (iapply (inv_at m K c (.lo 25)); iexact HR)
    isplitl [Klo25]; · iexact Klo25
    isplitl [HO]; · iexact HO
    isplitr; · (iapply (mayWait_own c (.lo 25) rfl 32 32); iexact Hlev)
    iexact Plo25
  iintro ⟨HO, Plo25, -, OR25, LDl25⟩
  iapply (wp_wait_fs m K c 25 (credit_ldS 25) (oweD c 32 + oweF c 32) _) $$ [Kfs25 HO Pfs25]
  · isplitr; · (iapply (inv_at m K c (.fs 25)); iexact HR)
    isplitl [Kfs25]; · iexact Kfs25
    isplitl [HO]; · iexact HO
    isplitr; · (iapply (mayWait_own c (.fs 25) rfl 32 32); iexact Hlev)
    iexact Pfs25
  iintro ⟨HO, Pfs25, -, LDr25⟩
  ihave LD25 := (ld_share_split c 25 _).2 $$ [LDl25 LDr25]
  · isplitl [LDl25]; · iexact LDl25
    iexact LDr25
  -- chunk 26: the copy out of its landing slot and its relay have both read the slot
  iapply (wp_wait_lo m K c 26 (credit_oR c 26) (oweD c 32 + oweF c 32) _) $$ [Klo26 HO Plo26]
  · isplitr; · (iapply (inv_at m K c (.lo 26)); iexact HR)
    isplitl [Klo26]; · iexact Klo26
    isplitl [HO]; · iexact HO
    isplitr; · (iapply (mayWait_own c (.lo 26) rfl 32 32); iexact Hlev)
    iexact Plo26
  iintro ⟨HO, Plo26, -, OR26, LDl26⟩
  iapply (wp_wait_fs m K c 26 (credit_ldS 26) (oweD c 32 + oweF c 32) _) $$ [Kfs26 HO Pfs26]
  · isplitr; · (iapply (inv_at m K c (.fs 26)); iexact HR)
    isplitl [Kfs26]; · iexact Kfs26
    isplitl [HO]; · iexact HO
    isplitr; · (iapply (mayWait_own c (.fs 26) rfl 32 32); iexact Hlev)
    iexact Pfs26
  iintro ⟨HO, Pfs26, -, LDr26⟩
  ihave LD26 := (ld_share_split c 26 _).2 $$ [LDl26 LDr26]
  · isplitl [LDl26]; · iexact LDl26
    iexact LDr26
  -- chunk 27: the copy out of its landing slot and its relay have both read the slot
  iapply (wp_wait_lo m K c 27 (credit_oR c 27) (oweD c 32 + oweF c 32) _) $$ [Klo27 HO Plo27]
  · isplitr; · (iapply (inv_at m K c (.lo 27)); iexact HR)
    isplitl [Klo27]; · iexact Klo27
    isplitl [HO]; · iexact HO
    isplitr; · (iapply (mayWait_own c (.lo 27) rfl 32 32); iexact Hlev)
    iexact Plo27
  iintro ⟨HO, Plo27, -, OR27, LDl27⟩
  -- the printed part k0_part146 is opened
  simp only [k0_part146_eq_skeleton]
  unfold k0_part146_skel
  simp only [semSignalWord, semWaitWord, Prog.lift, Prog.bind_op, Prog.bind_ret, Prog.pure_eq_ret, wp_deviceId]
  iapply (wp_wait_fs m K c 27 (credit_ldS 27) (oweD c 32 + oweF c 32) _) $$ [Kfs27 HO Pfs27]
  · isplitr; · (iapply (inv_at m K c (.fs 27)); iexact HR)
    isplitl [Kfs27]; · iexact Kfs27
    isplitl [HO]; · iexact HO
    isplitr; · (iapply (mayWait_own c (.fs 27) rfl 32 32); iexact Hlev)
    iexact Pfs27
  iintro ⟨HO, Pfs27, -, LDr27⟩
  ihave LD27 := (ld_share_split c 27 _).2 $$ [LDl27 LDr27]
  · isplitl [LDl27]; · iexact LDl27
    iexact LDr27
  -- chunk 28: the copy out of its landing slot and its relay have both read the slot
  iapply (wp_wait_lo m K c 28 (credit_oR c 28) (oweD c 32 + oweF c 32) _) $$ [Klo28 HO Plo28]
  · isplitr; · (iapply (inv_at m K c (.lo 28)); iexact HR)
    isplitl [Klo28]; · iexact Klo28
    isplitl [HO]; · iexact HO
    isplitr; · (iapply (mayWait_own c (.lo 28) rfl 32 32); iexact Hlev)
    iexact Plo28
  iintro ⟨HO, Plo28, -, OR28, LDl28⟩
  iapply (wp_wait_fs m K c 28 (credit_ldS 28) (oweD c 32 + oweF c 32) _) $$ [Kfs28 HO Pfs28]
  · isplitr; · (iapply (inv_at m K c (.fs 28)); iexact HR)
    isplitl [Kfs28]; · iexact Kfs28
    isplitl [HO]; · iexact HO
    isplitr; · (iapply (mayWait_own c (.fs 28) rfl 32 32); iexact Hlev)
    iexact Pfs28
  iintro ⟨HO, Pfs28, -, LDr28⟩
  ihave LD28 := (ld_share_split c 28 _).2 $$ [LDl28 LDr28]
  · isplitl [LDl28]; · iexact LDl28
    iexact LDr28
  -- chunk 29: the copy out of its landing slot and its relay have both read the slot
  iapply (wp_wait_lo m K c 29 (credit_oR c 29) (oweD c 32 + oweF c 32) _) $$ [Klo29 HO Plo29]
  · isplitr; · (iapply (inv_at m K c (.lo 29)); iexact HR)
    isplitl [Klo29]; · iexact Klo29
    isplitl [HO]; · iexact HO
    isplitr; · (iapply (mayWait_own c (.lo 29) rfl 32 32); iexact Hlev)
    iexact Plo29
  iintro ⟨HO, Plo29, -, OR29, LDl29⟩
  iapply (wp_wait_fs m K c 29 (credit_ldS 29) (oweD c 32 + oweF c 32) _) $$ [Kfs29 HO Pfs29]
  · isplitr; · (iapply (inv_at m K c (.fs 29)); iexact HR)
    isplitl [Kfs29]; · iexact Kfs29
    isplitl [HO]; · iexact HO
    isplitr; · (iapply (mayWait_own c (.fs 29) rfl 32 32); iexact Hlev)
    iexact Pfs29
  iintro ⟨HO, Pfs29, -, LDr29⟩
  ihave LD29 := (ld_share_split c 29 _).2 $$ [LDl29 LDr29]
  · isplitl [LDl29]; · iexact LDl29
    iexact LDr29
  -- chunk 30: the copy out of its landing slot and its relay have both read the slot
  iapply (wp_wait_lo m K c 30 (credit_oR c 30) (oweD c 32 + oweF c 32) _) $$ [Klo30 HO Plo30]
  · isplitr; · (iapply (inv_at m K c (.lo 30)); iexact HR)
    isplitl [Klo30]; · iexact Klo30
    isplitl [HO]; · iexact HO
    isplitr; · (iapply (mayWait_own c (.lo 30) rfl 32 32); iexact Hlev)
    iexact Plo30
  iintro ⟨HO, Plo30, -, OR30, LDl30⟩
  iapply (wp_wait_fs m K c 30 (credit_ldS 30) (oweD c 32 + oweF c 32) _) $$ [Kfs30 HO Pfs30]
  · isplitr; · (iapply (inv_at m K c (.fs 30)); iexact HR)
    isplitl [Kfs30]; · iexact Kfs30
    isplitl [HO]; · iexact HO
    isplitr; · (iapply (mayWait_own c (.fs 30) rfl 32 32); iexact Hlev)
    iexact Pfs30
  iintro ⟨HO, Pfs30, -, LDr30⟩
  ihave LD30 := (ld_share_split c 30 _).2 $$ [LDl30 LDr30]
  · isplitl [LDl30]; · iexact LDl30
    iexact LDr30
  -- chunk 31: the copy out of its landing slot and its relay have both read the slot
  iapply (wp_wait_lo m K c 31 (credit_oR c 31) (oweD c 32 + oweF c 32) _) $$ [Klo31 HO Plo31]
  · isplitr; · (iapply (inv_at m K c (.lo 31)); iexact HR)
    isplitl [Klo31]; · iexact Klo31
    isplitl [HO]; · iexact HO
    isplitr; · (iapply (mayWait_own c (.lo 31) rfl 32 32); iexact Hlev)
    iexact Plo31
  iintro ⟨HO, Plo31, -, OR31, LDl31⟩
  iapply (wp_wait_fs m K c 31 (credit_ldS 31) (oweD c 32 + oweF c 32) _) $$ [Kfs31 HO Pfs31]
  · isplitr; · (iapply (inv_at m K c (.fs 31)); iexact HR)
    isplitl [Kfs31]; · iexact Kfs31
    isplitl [HO]; · iexact HO
    isplitr; · (iapply (mayWait_own c (.fs 31) rfl 32 32); iexact Hlev)
    iexact Pfs31
  iintro ⟨HO, Pfs31, -, LDr31⟩
  ihave LD31 := (ld_share_split c 31 _).2 $$ [LDl31 LDr31]
  · isplitl [LDl31]; · iexact LDl31
    iexact LDr31
  -- the end: every piece and every own cell goes back whole
  rw [oweD_end c, oweF_end c, add_zero]
  ihave GXA := (Entails.of_eq (bigSep_fin32 (fun k : Fin 32 => piece c (xA c k) fullShare (Xc m c))).symm) $$ [XA0 XA1 XA2 XA3 XA4 XA5 XA6 XA7 XA8 XA9 XA10 XA11 XA12 XA13 XA14 XA15 XA16 XA17 XA18 XA19 XA20 XA21 XA22 XA23 XA24 XA25 XA26 XA27 XA28 XA29 XA30 XA31]
  · isplitl [XA0]; · iexact XA0
    isplitl [XA1]; · iexact XA1
    isplitl [XA2]; · iexact XA2
    isplitl [XA3]; · iexact XA3
    isplitl [XA4]; · iexact XA4
    isplitl [XA5]; · iexact XA5
    isplitl [XA6]; · iexact XA6
    isplitl [XA7]; · iexact XA7
    isplitl [XA8]; · iexact XA8
    isplitl [XA9]; · iexact XA9
    isplitl [XA10]; · iexact XA10
    isplitl [XA11]; · iexact XA11
    isplitl [XA12]; · iexact XA12
    isplitl [XA13]; · iexact XA13
    isplitl [XA14]; · iexact XA14
    isplitl [XA15]; · iexact XA15
    isplitl [XA16]; · iexact XA16
    isplitl [XA17]; · iexact XA17
    isplitl [XA18]; · iexact XA18
    isplitl [XA19]; · iexact XA19
    isplitl [XA20]; · iexact XA20
    isplitl [XA21]; · iexact XA21
    isplitl [XA22]; · iexact XA22
    isplitl [XA23]; · iexact XA23
    isplitl [XA24]; · iexact XA24
    isplitl [XA25]; · iexact XA25
    isplitl [XA26]; · iexact XA26
    isplitl [XA27]; · iexact XA27
    isplitl [XA28]; · iexact XA28
    isplitl [XA29]; · iexact XA29
    isplitl [XA30]; · iexact XA30
    iexact XA31
  ihave GXB := (Entails.of_eq (bigSep_fin32 (fun k : Fin 32 => piece c (xB c k) fullShare (Xc m c))).symm) $$ [XB0 XB1 XB2 XB3 XB4 XB5 XB6 XB7 XB8 XB9 XB10 XB11 XB12 XB13 XB14 XB15 XB16 XB17 XB18 XB19 XB20 XB21 XB22 XB23 XB24 XB25 XB26 XB27 XB28 XB29 XB30 XB31]
  · isplitl [XB0]; · iexact XB0
    isplitl [XB1]; · iexact XB1
    isplitl [XB2]; · iexact XB2
    isplitl [XB3]; · iexact XB3
    isplitl [XB4]; · iexact XB4
    isplitl [XB5]; · iexact XB5
    isplitl [XB6]; · iexact XB6
    isplitl [XB7]; · iexact XB7
    isplitl [XB8]; · iexact XB8
    isplitl [XB9]; · iexact XB9
    isplitl [XB10]; · iexact XB10
    isplitl [XB11]; · iexact XB11
    isplitl [XB12]; · iexact XB12
    isplitl [XB13]; · iexact XB13
    isplitl [XB14]; · iexact XB14
    isplitl [XB15]; · iexact XB15
    isplitl [XB16]; · iexact XB16
    isplitl [XB17]; · iexact XB17
    isplitl [XB18]; · iexact XB18
    isplitl [XB19]; · iexact XB19
    isplitl [XB20]; · iexact XB20
    isplitl [XB21]; · iexact XB21
    isplitl [XB22]; · iexact XB22
    isplitl [XB23]; · iexact XB23
    isplitl [XB24]; · iexact XB24
    isplitl [XB25]; · iexact XB25
    isplitl [XB26]; · iexact XB26
    isplitl [XB27]; · iexact XB27
    isplitl [XB28]; · iexact XB28
    isplitl [XB29]; · iexact XB29
    isplitl [XB30]; · iexact XB30
    iexact XB31
  ihave GOA := (Entails.of_eq (bigSep_fin32 (fun k : Fin 32 => piece c (oA c k) fullShare (outA m c k))).symm) $$ [OA0 OA1 OA2 OA3 OA4 OA5 OA6 OA7 OA8 OA9 OA10 OA11 OA12 OA13 OA14 OA15 OA16 OA17 OA18 OA19 OA20 OA21 OA22 OA23 OA24 OA25 OA26 OA27 OA28 OA29 OA30 OA31]
  · isplitl [OA0]; · iexact OA0
    isplitl [OA1]; · iexact OA1
    isplitl [OA2]; · iexact OA2
    isplitl [OA3]; · iexact OA3
    isplitl [OA4]; · iexact OA4
    isplitl [OA5]; · iexact OA5
    isplitl [OA6]; · iexact OA6
    isplitl [OA7]; · iexact OA7
    isplitl [OA8]; · iexact OA8
    isplitl [OA9]; · iexact OA9
    isplitl [OA10]; · iexact OA10
    isplitl [OA11]; · iexact OA11
    isplitl [OA12]; · iexact OA12
    isplitl [OA13]; · iexact OA13
    isplitl [OA14]; · iexact OA14
    isplitl [OA15]; · iexact OA15
    isplitl [OA16]; · iexact OA16
    isplitl [OA17]; · iexact OA17
    isplitl [OA18]; · iexact OA18
    isplitl [OA19]; · iexact OA19
    isplitl [OA20]; · iexact OA20
    isplitl [OA21]; · iexact OA21
    isplitl [OA22]; · iexact OA22
    isplitl [OA23]; · iexact OA23
    isplitl [OA24]; · iexact OA24
    isplitl [OA25]; · iexact OA25
    isplitl [OA26]; · iexact OA26
    isplitl [OA27]; · iexact OA27
    isplitl [OA28]; · iexact OA28
    isplitl [OA29]; · iexact OA29
    isplitl [OA30]; · iexact OA30
    iexact OA31
  ihave GOB := (Entails.of_eq (bigSep_fin32 (fun k : Fin 32 => piece c (oB c k) fullShare (outB m c k))).symm) $$ [OB0 OB1 OB2 OB3 OB4 OB5 OB6 OB7 OB8 OB9 OB10 OB11 OB12 OB13 OB14 OB15 OB16 OB17 OB18 OB19 OB20 OB21 OB22 OB23 OB24 OB25 OB26 OB27 OB28 OB29 OB30 OB31]
  · isplitl [OB0]; · iexact OB0
    isplitl [OB1]; · iexact OB1
    isplitl [OB2]; · iexact OB2
    isplitl [OB3]; · iexact OB3
    isplitl [OB4]; · iexact OB4
    isplitl [OB5]; · iexact OB5
    isplitl [OB6]; · iexact OB6
    isplitl [OB7]; · iexact OB7
    isplitl [OB8]; · iexact OB8
    isplitl [OB9]; · iexact OB9
    isplitl [OB10]; · iexact OB10
    isplitl [OB11]; · iexact OB11
    isplitl [OB12]; · iexact OB12
    isplitl [OB13]; · iexact OB13
    isplitl [OB14]; · iexact OB14
    isplitl [OB15]; · iexact OB15
    isplitl [OB16]; · iexact OB16
    isplitl [OB17]; · iexact OB17
    isplitl [OB18]; · iexact OB18
    isplitl [OB19]; · iexact OB19
    isplitl [OB20]; · iexact OB20
    isplitl [OB21]; · iexact OB21
    isplitl [OB22]; · iexact OB22
    isplitl [OB23]; · iexact OB23
    isplitl [OB24]; · iexact OB24
    isplitl [OB25]; · iexact OB25
    isplitl [OB26]; · iexact OB26
    isplitl [OB27]; · iexact OB27
    isplitl [OB28]; · iexact OB28
    isplitl [OB29]; · iexact OB29
    isplitl [OB30]; · iexact OB30
    iexact OB31
  ihave GOR := (Entails.of_eq (bigSep_fin32 (fun k : Fin 32 => piece c (oR c k) fullShare (outL m c k))).symm) $$ [OR0 OR1 OR2 OR3 OR4 OR5 OR6 OR7 OR8 OR9 OR10 OR11 OR12 OR13 OR14 OR15 OR16 OR17 OR18 OR19 OR20 OR21 OR22 OR23 OR24 OR25 OR26 OR27 OR28 OR29 OR30 OR31]
  · isplitl [OR0]; · iexact OR0
    isplitl [OR1]; · iexact OR1
    isplitl [OR2]; · iexact OR2
    isplitl [OR3]; · iexact OR3
    isplitl [OR4]; · iexact OR4
    isplitl [OR5]; · iexact OR5
    isplitl [OR6]; · iexact OR6
    isplitl [OR7]; · iexact OR7
    isplitl [OR8]; · iexact OR8
    isplitl [OR9]; · iexact OR9
    isplitl [OR10]; · iexact OR10
    isplitl [OR11]; · iexact OR11
    isplitl [OR12]; · iexact OR12
    isplitl [OR13]; · iexact OR13
    isplitl [OR14]; · iexact OR14
    isplitl [OR15]; · iexact OR15
    isplitl [OR16]; · iexact OR16
    isplitl [OR17]; · iexact OR17
    isplitl [OR18]; · iexact OR18
    isplitl [OR19]; · iexact OR19
    isplitl [OR20]; · iexact OR20
    isplitl [OR21]; · iexact OR21
    isplitl [OR22]; · iexact OR22
    isplitl [OR23]; · iexact OR23
    isplitl [OR24]; · iexact OR24
    isplitl [OR25]; · iexact OR25
    isplitl [OR26]; · iexact OR26
    isplitl [OR27]; · iexact OR27
    isplitl [OR28]; · iexact OR28
    isplitl [OR29]; · iexact OR29
    isplitl [OR30]; · iexact OR30
    iexact OR31
  ihave GOF := (Entails.of_eq (bigSep_fin32 (fun k : Fin 32 => piece c (oR (py c) k) fullShare (outF m c k))).symm) $$ [OF0 OF1 OF2 OF3 OF4 OF5 OF6 OF7 OF8 OF9 OF10 OF11 OF12 OF13 OF14 OF15 OF16 OF17 OF18 OF19 OF20 OF21 OF22 OF23 OF24 OF25 OF26 OF27 OF28 OF29 OF30 OF31]
  · isplitl [OF0]; · iexact OF0
    isplitl [OF1]; · iexact OF1
    isplitl [OF2]; · iexact OF2
    isplitl [OF3]; · iexact OF3
    isplitl [OF4]; · iexact OF4
    isplitl [OF5]; · iexact OF5
    isplitl [OF6]; · iexact OF6
    isplitl [OF7]; · iexact OF7
    isplitl [OF8]; · iexact OF8
    isplitl [OF9]; · iexact OF9
    isplitl [OF10]; · iexact OF10
    isplitl [OF11]; · iexact OF11
    isplitl [OF12]; · iexact OF12
    isplitl [OF13]; · iexact OF13
    isplitl [OF14]; · iexact OF14
    isplitl [OF15]; · iexact OF15
    isplitl [OF16]; · iexact OF16
    isplitl [OF17]; · iexact OF17
    isplitl [OF18]; · iexact OF18
    isplitl [OF19]; · iexact OF19
    isplitl [OF20]; · iexact OF20
    isplitl [OF21]; · iexact OF21
    isplitl [OF22]; · iexact OF22
    isplitl [OF23]; · iexact OF23
    isplitl [OF24]; · iexact OF24
    isplitl [OF25]; · iexact OF25
    isplitl [OF26]; · iexact OF26
    isplitl [OF27]; · iexact OF27
    isplitl [OF28]; · iexact OF28
    isplitl [OF29]; · iexact OF29
    isplitl [OF30]; · iexact OF30
    iexact OF31
  ihave GVA := (Entails.of_eq (bigSep_fin2 (fun j : Fin 2 => (iprop(∃ f, piece c (viaS j) fullShare f) : sProp 𝕄))).symm) $$ [VA0 VA1]
  · isplitl [VA0]; · (iexists _; iexact VA0)
    (iexists _; iexact VA1)
  ihave GVB := (Entails.of_eq (bigSep_fin2 (fun j : Fin 2 => (iprop(∃ f, piece c (vibS j) fullShare f) : sProp 𝕄))).symm) $$ [VB0 VB1]
  · isplitl [VB0]; · (iexists _; iexact VB0)
    (iexists _; iexact VB1)
  ihave GCA := (Entails.of_eq (bigSep_fin3 (fun s : Fin 3 => (iprop(∃ f, ((vcaM.access (rVc s) : View sig .tc _ _ _).loc (c : Thread nD τ) ↦[(vcaM.access (rVc s) : View sig .tc _ _ _).set]{fullShare} f)) : sProp 𝕄))).symm) $$ [CA0 CA1 CA2]
  · isplitl [CA0]; · (iexists _; iexact CA0)
    isplitl [CA1]; · (iexists _; iexact CA1)
    (iexists _; iexact CA2)
  ihave GCB := (Entails.of_eq (bigSep_fin3 (fun s : Fin 3 => (iprop(∃ f, ((vcbM.access (rVc s) : View sig .tc _ _ _).loc (c : Thread nD τ) ↦[(vcbM.access (rVc s) : View sig .tc _ _ _).set]{fullShare} f)) : sProp 𝕄))).symm) $$ [CB0 CB1 CB2]
  · isplitl [CB0]; · (iexists _; iexact CB0)
    isplitl [CB1]; · (iexists _; iexact CB1)
    (iexists _; iexact CB2)
  ihave GLD := (Entails.of_eq (bigSep_fin32 (fun k : Fin 32 => (iprop(∃ f, piece c (ldS k) fullShare f) : sProp 𝕄))).symm) $$ [LD0 LD1 LD2 LD3 LD4 LD5 LD6 LD7 LD8 LD9 LD10 LD11 LD12 LD13 LD14 LD15 LD16 LD17 LD18 LD19 LD20 LD21 LD22 LD23 LD24 LD25 LD26 LD27 LD28 LD29 LD30 LD31]
  · isplitl [LD0]; · (iexists _; iexact LD0)
    isplitl [LD1]; · (iexists _; iexact LD1)
    isplitl [LD2]; · (iexists _; iexact LD2)
    isplitl [LD3]; · (iexists _; iexact LD3)
    isplitl [LD4]; · (iexists _; iexact LD4)
    isplitl [LD5]; · (iexists _; iexact LD5)
    isplitl [LD6]; · (iexists _; iexact LD6)
    isplitl [LD7]; · (iexists _; iexact LD7)
    isplitl [LD8]; · (iexists _; iexact LD8)
    isplitl [LD9]; · (iexists _; iexact LD9)
    isplitl [LD10]; · (iexists _; iexact LD10)
    isplitl [LD11]; · (iexists _; iexact LD11)
    isplitl [LD12]; · (iexists _; iexact LD12)
    isplitl [LD13]; · (iexists _; iexact LD13)
    isplitl [LD14]; · (iexists _; iexact LD14)
    isplitl [LD15]; · (iexists _; iexact LD15)
    isplitl [LD16]; · (iexists _; iexact LD16)
    isplitl [LD17]; · (iexists _; iexact LD17)
    isplitl [LD18]; · (iexists _; iexact LD18)
    isplitl [LD19]; · (iexists _; iexact LD19)
    isplitl [LD20]; · (iexists _; iexact LD20)
    isplitl [LD21]; · (iexists _; iexact LD21)
    isplitl [LD22]; · (iexists _; iexact LD22)
    isplitl [LD23]; · (iexists _; iexact LD23)
    isplitl [LD24]; · (iexists _; iexact LD24)
    isplitl [LD25]; · (iexists _; iexact LD25)
    isplitl [LD26]; · (iexists _; iexact LD26)
    isplitl [LD27]; · (iexists _; iexact LD27)
    isplitl [LD28]; · (iexists _; iexact LD28)
    isplitl [LD29]; · (iexists _; iexact LD29)
    isplitl [LD30]; · (iexists _; iexact LD30)
    (iexists _; iexact LD31)
  ihave GP2 := (Entails.of_eq (bigSep_fin2 (fun j : Fin 2 => (iprop(atPos ER (cell c (.ina j)) 16 ∅ 0 ∗ atPos ER (cell c (.inb j)) 16 ∅ 0) : sProp 𝕄))).symm) $$ [Pia0 Pib0 Pia1 Pib1]
  · isplitl [Pia0 Pib0]
    · isplitl [Pia0]; · iexact Pia0
      iexact Pib0
    isplitl [Pia1]; · iexact Pia1
    iexact Pib1
  ihave GP3 := (Entails.of_eq (bigSep_fin3 (fun s : Fin 3 => (iprop(atPos ER (cell c (.lca s)) (Fam.lca s).rounds ∅ 0 ∗ atPos ER (cell c (.lcb s)) (Fam.lcb s).rounds ∅ 0) : sProp 𝕄))).symm) $$ [Pla0 Plb0 Pla1 Plb1 Pla2 Plb2]
  · isplitl [Pla0 Plb0]
    · isplitl [Pla0]; · iexact Pla0
      iexact Plb0
    isplitl [Pla1 Plb1]
    · isplitl [Pla1]; · iexact Pla1
      iexact Plb1
    isplitl [Pla2]; · iexact Pla2
    iexact Plb2
  ihave GPK := (Entails.of_eq (bigSep_fin32 (fun k : Fin 32 => (iprop(atPos ER (cell c (.lo k)) 1 ∅ 0 ∗ atPos ER (cell c (.ds k)) 1 ∅ 0 ∗ atPos ER (cell c (.dr k)) 1 ∅ 0 ∗ atPos ER (cell c (.fs k)) 1 ∅ 0 ∗ atPos ER (cell c (.fr k)) 1 ∅ 0) : sProp 𝕄))).symm) $$ [Plo0 Pds0 Pdr0 Pfs0 Pfr0 Plo1 Pds1 Pdr1 Pfs1 Pfr1 Plo2 Pds2 Pdr2 Pfs2 Pfr2 Plo3 Pds3 Pdr3 Pfs3 Pfr3 Plo4 Pds4 Pdr4 Pfs4 Pfr4 Plo5 Pds5 Pdr5 Pfs5 Pfr5 Plo6 Pds6 Pdr6 Pfs6 Pfr6 Plo7 Pds7 Pdr7 Pfs7 Pfr7 Plo8 Pds8 Pdr8 Pfs8 Pfr8 Plo9 Pds9 Pdr9 Pfs9 Pfr9 Plo10 Pds10 Pdr10 Pfs10 Pfr10 Plo11 Pds11 Pdr11 Pfs11 Pfr11 Plo12 Pds12 Pdr12 Pfs12 Pfr12 Plo13 Pds13 Pdr13 Pfs13 Pfr13 Plo14 Pds14 Pdr14 Pfs14 Pfr14 Plo15 Pds15 Pdr15 Pfs15 Pfr15 Plo16 Pds16 Pdr16 Pfs16 Pfr16 Plo17 Pds17 Pdr17 Pfs17 Pfr17 Plo18 Pds18 Pdr18 Pfs18 Pfr18 Plo19 Pds19 Pdr19 Pfs19 Pfr19 Plo20 Pds20 Pdr20 Pfs20 Pfr20 Plo21 Pds21 Pdr21 Pfs21 Pfr21 Plo22 Pds22 Pdr22 Pfs22 Pfr22 Plo23 Pds23 Pdr23 Pfs23 Pfr23 Plo24 Pds24 Pdr24 Pfs24 Pfr24 Plo25 Pds25 Pdr25 Pfs25 Pfr25 Plo26 Pds26 Pdr26 Pfs26 Pfr26 Plo27 Pds27 Pdr27 Pfs27 Pfr27 Plo28 Pds28 Pdr28 Pfs28 Pfr28 Plo29 Pds29 Pdr29 Pfs29 Pfr29 Plo30 Pds30 Pdr30 Pfs30 Pfr30 Plo31 Pds31 Pdr31 Pfs31 Pfr31]
  · isplitl [Plo0 Pds0 Pdr0 Pfs0 Pfr0]
    · isplitl [Plo0]; · iexact Plo0
      isplitl [Pds0]; · iexact Pds0
      isplitl [Pdr0]; · iexact Pdr0
      isplitl [Pfs0]; · iexact Pfs0
      iexact Pfr0
    isplitl [Plo1 Pds1 Pdr1 Pfs1 Pfr1]
    · isplitl [Plo1]; · iexact Plo1
      isplitl [Pds1]; · iexact Pds1
      isplitl [Pdr1]; · iexact Pdr1
      isplitl [Pfs1]; · iexact Pfs1
      iexact Pfr1
    isplitl [Plo2 Pds2 Pdr2 Pfs2 Pfr2]
    · isplitl [Plo2]; · iexact Plo2
      isplitl [Pds2]; · iexact Pds2
      isplitl [Pdr2]; · iexact Pdr2
      isplitl [Pfs2]; · iexact Pfs2
      iexact Pfr2
    isplitl [Plo3 Pds3 Pdr3 Pfs3 Pfr3]
    · isplitl [Plo3]; · iexact Plo3
      isplitl [Pds3]; · iexact Pds3
      isplitl [Pdr3]; · iexact Pdr3
      isplitl [Pfs3]; · iexact Pfs3
      iexact Pfr3
    isplitl [Plo4 Pds4 Pdr4 Pfs4 Pfr4]
    · isplitl [Plo4]; · iexact Plo4
      isplitl [Pds4]; · iexact Pds4
      isplitl [Pdr4]; · iexact Pdr4
      isplitl [Pfs4]; · iexact Pfs4
      iexact Pfr4
    isplitl [Plo5 Pds5 Pdr5 Pfs5 Pfr5]
    · isplitl [Plo5]; · iexact Plo5
      isplitl [Pds5]; · iexact Pds5
      isplitl [Pdr5]; · iexact Pdr5
      isplitl [Pfs5]; · iexact Pfs5
      iexact Pfr5
    isplitl [Plo6 Pds6 Pdr6 Pfs6 Pfr6]
    · isplitl [Plo6]; · iexact Plo6
      isplitl [Pds6]; · iexact Pds6
      isplitl [Pdr6]; · iexact Pdr6
      isplitl [Pfs6]; · iexact Pfs6
      iexact Pfr6
    isplitl [Plo7 Pds7 Pdr7 Pfs7 Pfr7]
    · isplitl [Plo7]; · iexact Plo7
      isplitl [Pds7]; · iexact Pds7
      isplitl [Pdr7]; · iexact Pdr7
      isplitl [Pfs7]; · iexact Pfs7
      iexact Pfr7
    isplitl [Plo8 Pds8 Pdr8 Pfs8 Pfr8]
    · isplitl [Plo8]; · iexact Plo8
      isplitl [Pds8]; · iexact Pds8
      isplitl [Pdr8]; · iexact Pdr8
      isplitl [Pfs8]; · iexact Pfs8
      iexact Pfr8
    isplitl [Plo9 Pds9 Pdr9 Pfs9 Pfr9]
    · isplitl [Plo9]; · iexact Plo9
      isplitl [Pds9]; · iexact Pds9
      isplitl [Pdr9]; · iexact Pdr9
      isplitl [Pfs9]; · iexact Pfs9
      iexact Pfr9
    isplitl [Plo10 Pds10 Pdr10 Pfs10 Pfr10]
    · isplitl [Plo10]; · iexact Plo10
      isplitl [Pds10]; · iexact Pds10
      isplitl [Pdr10]; · iexact Pdr10
      isplitl [Pfs10]; · iexact Pfs10
      iexact Pfr10
    isplitl [Plo11 Pds11 Pdr11 Pfs11 Pfr11]
    · isplitl [Plo11]; · iexact Plo11
      isplitl [Pds11]; · iexact Pds11
      isplitl [Pdr11]; · iexact Pdr11
      isplitl [Pfs11]; · iexact Pfs11
      iexact Pfr11
    isplitl [Plo12 Pds12 Pdr12 Pfs12 Pfr12]
    · isplitl [Plo12]; · iexact Plo12
      isplitl [Pds12]; · iexact Pds12
      isplitl [Pdr12]; · iexact Pdr12
      isplitl [Pfs12]; · iexact Pfs12
      iexact Pfr12
    isplitl [Plo13 Pds13 Pdr13 Pfs13 Pfr13]
    · isplitl [Plo13]; · iexact Plo13
      isplitl [Pds13]; · iexact Pds13
      isplitl [Pdr13]; · iexact Pdr13
      isplitl [Pfs13]; · iexact Pfs13
      iexact Pfr13
    isplitl [Plo14 Pds14 Pdr14 Pfs14 Pfr14]
    · isplitl [Plo14]; · iexact Plo14
      isplitl [Pds14]; · iexact Pds14
      isplitl [Pdr14]; · iexact Pdr14
      isplitl [Pfs14]; · iexact Pfs14
      iexact Pfr14
    isplitl [Plo15 Pds15 Pdr15 Pfs15 Pfr15]
    · isplitl [Plo15]; · iexact Plo15
      isplitl [Pds15]; · iexact Pds15
      isplitl [Pdr15]; · iexact Pdr15
      isplitl [Pfs15]; · iexact Pfs15
      iexact Pfr15
    isplitl [Plo16 Pds16 Pdr16 Pfs16 Pfr16]
    · isplitl [Plo16]; · iexact Plo16
      isplitl [Pds16]; · iexact Pds16
      isplitl [Pdr16]; · iexact Pdr16
      isplitl [Pfs16]; · iexact Pfs16
      iexact Pfr16
    isplitl [Plo17 Pds17 Pdr17 Pfs17 Pfr17]
    · isplitl [Plo17]; · iexact Plo17
      isplitl [Pds17]; · iexact Pds17
      isplitl [Pdr17]; · iexact Pdr17
      isplitl [Pfs17]; · iexact Pfs17
      iexact Pfr17
    isplitl [Plo18 Pds18 Pdr18 Pfs18 Pfr18]
    · isplitl [Plo18]; · iexact Plo18
      isplitl [Pds18]; · iexact Pds18
      isplitl [Pdr18]; · iexact Pdr18
      isplitl [Pfs18]; · iexact Pfs18
      iexact Pfr18
    isplitl [Plo19 Pds19 Pdr19 Pfs19 Pfr19]
    · isplitl [Plo19]; · iexact Plo19
      isplitl [Pds19]; · iexact Pds19
      isplitl [Pdr19]; · iexact Pdr19
      isplitl [Pfs19]; · iexact Pfs19
      iexact Pfr19
    isplitl [Plo20 Pds20 Pdr20 Pfs20 Pfr20]
    · isplitl [Plo20]; · iexact Plo20
      isplitl [Pds20]; · iexact Pds20
      isplitl [Pdr20]; · iexact Pdr20
      isplitl [Pfs20]; · iexact Pfs20
      iexact Pfr20
    isplitl [Plo21 Pds21 Pdr21 Pfs21 Pfr21]
    · isplitl [Plo21]; · iexact Plo21
      isplitl [Pds21]; · iexact Pds21
      isplitl [Pdr21]; · iexact Pdr21
      isplitl [Pfs21]; · iexact Pfs21
      iexact Pfr21
    isplitl [Plo22 Pds22 Pdr22 Pfs22 Pfr22]
    · isplitl [Plo22]; · iexact Plo22
      isplitl [Pds22]; · iexact Pds22
      isplitl [Pdr22]; · iexact Pdr22
      isplitl [Pfs22]; · iexact Pfs22
      iexact Pfr22
    isplitl [Plo23 Pds23 Pdr23 Pfs23 Pfr23]
    · isplitl [Plo23]; · iexact Plo23
      isplitl [Pds23]; · iexact Pds23
      isplitl [Pdr23]; · iexact Pdr23
      isplitl [Pfs23]; · iexact Pfs23
      iexact Pfr23
    isplitl [Plo24 Pds24 Pdr24 Pfs24 Pfr24]
    · isplitl [Plo24]; · iexact Plo24
      isplitl [Pds24]; · iexact Pds24
      isplitl [Pdr24]; · iexact Pdr24
      isplitl [Pfs24]; · iexact Pfs24
      iexact Pfr24
    isplitl [Plo25 Pds25 Pdr25 Pfs25 Pfr25]
    · isplitl [Plo25]; · iexact Plo25
      isplitl [Pds25]; · iexact Pds25
      isplitl [Pdr25]; · iexact Pdr25
      isplitl [Pfs25]; · iexact Pfs25
      iexact Pfr25
    isplitl [Plo26 Pds26 Pdr26 Pfs26 Pfr26]
    · isplitl [Plo26]; · iexact Plo26
      isplitl [Pds26]; · iexact Pds26
      isplitl [Pdr26]; · iexact Pdr26
      isplitl [Pfs26]; · iexact Pfs26
      iexact Pfr26
    isplitl [Plo27 Pds27 Pdr27 Pfs27 Pfr27]
    · isplitl [Plo27]; · iexact Plo27
      isplitl [Pds27]; · iexact Pds27
      isplitl [Pdr27]; · iexact Pdr27
      isplitl [Pfs27]; · iexact Pfs27
      iexact Pfr27
    isplitl [Plo28 Pds28 Pdr28 Pfs28 Pfr28]
    · isplitl [Plo28]; · iexact Plo28
      isplitl [Pds28]; · iexact Pds28
      isplitl [Pdr28]; · iexact Pdr28
      isplitl [Pfs28]; · iexact Pfs28
      iexact Pfr28
    isplitl [Plo29 Pds29 Pdr29 Pfs29 Pfr29]
    · isplitl [Plo29]; · iexact Plo29
      isplitl [Pds29]; · iexact Pds29
      isplitl [Pdr29]; · iexact Pdr29
      isplitl [Pfs29]; · iexact Pfs29
      iexact Pfr29
    isplitl [Plo30 Pds30 Pdr30 Pfs30 Pfr30]
    · isplitl [Plo30]; · iexact Plo30
      isplitl [Pds30]; · iexact Pds30
      isplitl [Pdr30]; · iexact Pdr30
      isplitl [Pfs30]; · iexact Pfs30
      iexact Pfr30
    isplitl [Plo31]; · iexact Plo31
    isplitl [Pds31]; · iexact Pds31
    isplitl [Pdr31]; · iexact Pdr31
    isplitl [Pfs31]; · iexact Pfs31
    iexact Pfr31
  imod (finish m K c) $$ [GXA GXB GOA GOB GOR GOF GVA GVB GCA GCB GLD GP2 GP3 GPK] with HΦ
  · isplitr; · iexact HR
    isplitl [GXA]; · iexact GXA
    isplitl [GXB]; · iexact GXB
    isplitl [GOA]; · iexact GOA
    isplitl [GOB]; · iexact GOB
    isplitl [GOR]; · iexact GOR
    isplitl [GOF]; · iexact GOF
    isplitl [GVA]; · iexact GVA
    isplitl [GVB]; · iexact GVB
    isplitl [GCA]; · iexact GCA
    isplitl [GCB]; · iexact GCB
    isplitl [GLD]; · iexact GLD
    isplitl [GP2]; · iexact GP2
    isplitl [GP3]; · iexact GP3
    iexact GPK
  rw [wp_ret]; imodintro
  iapply Hk
  isplitl [HΦ]; · iexact HΦ
  iexists _; iexact HO

end Cert.KernelIdealA2A
end
-- ==== Proof.A2ALaunch.lean ====
/-
  The launch of the all-to-all. Every semaphore of every device is a cell of the rounds schedule: the launch element funds
  them all, one global step allocates every cell's invariant from its counter at zero and deals each duty's token to the
  device that pays it, the launch credit gives each device the units its peers owe it, and the launch theorem then turns
  the four bodies' obligations into the run of the program, with `x` unchanged and the result at the written blocks.
-/
import proofs.«900012_g7700000000000013_dist_a2a_v7x_xy2x2_x_m16384_n1024_bf16_1_alg».proof.Proof.A2AGhost
import proofs.«900012_g7700000000000013_dist_a2a_v7x_xy2x2_x_m16384_n1024_bf16_1_alg».proof.Proof.A2ABody
import proofs.«900012_g7700000000000013_dist_a2a_v7x_xy2x2_x_m16384_n1024_bf16_1_alg».proof.Proof.Gen.KernelIdeal.Launch
import proofs.«900012_g7700000000000013_dist_a2a_v7x_xy2x2_x_m16384_n1024_bf16_1_alg».proof.Proof.Gen.KernelIdeal.Points
import proofs.«900012_g7700000000000013_dist_a2a_v7x_xy2x2_x_m16384_n1024_bf16_1_alg».proof.Proof.Gen.KernelIdeal.Frame
import Idealize.ShloMosaic.Lib.Pipeline.Launch
import Idealize.ShloMosaic.Lib.Pipeline.Kit

noncomputable section

namespace Cert.KernelIdealA2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A big separating conjunction is monotone in its summands (the summands' entailments stated through `⊢`). -/
theorem bigSep_mono' {I : Type} {S : Finset I} {Φ Ψ : I → sProp 𝕄} (h : ∀ i ∈ S, Φ i ⊢ Ψ i) : bigSep S Φ ⊢ bigSep S Ψ :=
  bigSep_mono h

/-! ## The families of cells, enumerated -/

abbrev FamIx : Type := Fin 2 ⊕ Fin 2 ⊕ Fin 3 ⊕ Fin 3 ⊕ Fin 32 ⊕ Fin 32 ⊕ Fin 32 ⊕ Fin 32 ⊕ Fin 32 ⊕ Unit

def famAt : FamIx → Fam
  | .inl j => .ina j
  | .inr (.inl j) => .inb j
  | .inr (.inr (.inl s)) => .lca s
  | .inr (.inr (.inr (.inl s))) => .lcb s
  | .inr (.inr (.inr (.inr (.inl k)))) => .lo k
  | .inr (.inr (.inr (.inr (.inr (.inl k))))) => .ds k
  | .inr (.inr (.inr (.inr (.inr (.inr (.inl k)))))) => .dr k
  | .inr (.inr (.inr (.inr (.inr (.inr (.inr (.inl k))))))) => .fs k
  | .inr (.inr (.inr (.inr (.inr (.inr (.inr (.inr (.inl k)))))))) => .fr k
  | .inr (.inr (.inr (.inr (.inr (.inr (.inr (.inr (.inr _)))))))) => .bar

def ixOf : Fam → FamIx
  | .ina j => .inl j
  | .inb j => .inr (.inl j)
  | .lca s => .inr (.inr (.inl s))
  | .lcb s => .inr (.inr (.inr (.inl s)))
  | .lo k => .inr (.inr (.inr (.inr (.inl k))))
  | .ds k => .inr (.inr (.inr (.inr (.inr (.inl k)))))
  | .dr k => .inr (.inr (.inr (.inr (.inr (.inr (.inl k))))))
  | .fs k => .inr (.inr (.inr (.inr (.inr (.inr (.inr (.inl k)))))))
  | .fr k => .inr (.inr (.inr (.inr (.inr (.inr (.inr (.inr (.inl k))))))))
  | .bar => .inr (.inr (.inr (.inr (.inr (.inr (.inr (.inr (.inr ()))))))))

def famE : FamIx ≃ Fam :=
  ⟨famAt, ixOf, by rintro (j | j | s | s | k | k | k | k | k | u) <;> rfl, by intro f; cases f <;> rfl⟩

instance : Fintype Fam := Fintype.ofEquiv FamIx famE

theorem sem_injective : Function.Injective (Fam.sem) := fun a b h =>
  Option.some.inj (by rw [← decode_sem a, ← decode_sem b, h])

/-- One assertion per family is one per enumerated family. -/
theorem overFam_eq (Φ : Fam → sProp 𝕄) : (bigSep Finset.univ fun i : FamIx => Φ (famAt i)) = overFam Φ := by
  unfold overFam
  rw [bigSep_univ_sum, bigSep_univ_sum, bigSep_univ_sum, bigSep_univ_sum, bigSep_univ_sum, bigSep_univ_sum, bigSep_univ_sum,
    bigSep_univ_sum, bigSep_univ_sum, show (Finset.univ : Finset Unit) = {()} from rfl, bigSep_singleton]
  rfl

theorem bigSep_fam (Φ : Fam → sProp 𝕄) : bigSep Finset.univ Φ = overFam Φ :=
  (bigSep_univ_equiv famE Φ).trans (overFam_eq Φ)

/-- The cell of a device and a family. -/
abbrev kcell (cf : Dev nD × Fam) : GSem nD τ sig := cell cf.1 cf.2

theorem kcell_injective : Function.Injective (kcell : Dev nD × Fam → GSem nD τ sig) := by
  rintro ⟨c, f⟩ ⟨c', f'⟩ h
  have h1 : c = c' := by have := congrArg (fun g : GSem nD τ sig => g.1.1) h; exact this
  have h2 : f = f' := sem_injective (congrArg Prod.snd h)
  rw [h1, h2]

/-- Every cell of every device. -/
def myCells : Finset (GSem nD τ sig) := Finset.univ.map ⟨kcell, kcell_injective⟩

theorem bigSep_myCells (Φ : GSem nD τ sig → sProp 𝕄) :
    bigSep myCells Φ = bigSep Finset.univ fun c : Dev nD => bigSep Finset.univ fun f : Fam => Φ (cell c f) := by
  unfold myCells; rw [bigSep_map, bigSep_univ_prod]; rfl

/-! ## The duty tokens, enumerated: nine per chunk, and the handshake's two -/

abbrev TokIx : Type := (Fin 32 × Fin 9) ⊕ Bool

/-- The (family, round, duty) of a token: chunk `k` uses round `k / 2` of its staging cells, round `k / 3` of its
    local-copy cells, and the one round of its own five cells. -/
def famTok : TokIx → Fam × ℕ × Bool
  | .inl (k, ⟨0, _⟩) => (.ina (slot2 k), k.val / 2, false)
  | .inl (k, ⟨1, _⟩) => (.inb (slot2 k), k.val / 2, false)
  | .inl (k, ⟨2, _⟩) => (.lca (slot3 k), k.val / 3, false)
  | .inl (k, ⟨3, _⟩) => (.lcb (slot3 k), k.val / 3, false)
  | .inl (k, ⟨4, _⟩) => (.lo k, 0, false)
  | .inl (k, ⟨5, _⟩) => (.ds k, 0, false)
  | .inl (k, ⟨6, _⟩) => (.fs k, 0, false)
  | .inl (k, ⟨7, _⟩) => (.dr k, 0, false)
  | .inl (k, ⟨_ + 8, _⟩) => (.fr k, 0, false)
  | .inr d => (.bar, 0, d)

theorem famTok_injective : Function.Injective famTok := by decide +kernel

abbrev tokOf (cx : Dev nD × TokIx) : GSem nD τ sig × ℕ × Bool :=
  (cell cx.1 (famTok cx.2).1, (famTok cx.2).2.1, (famTok cx.2).2.2)

theorem tokOf_injective : Function.Injective (tokOf : Dev nD × TokIx → GSem nD τ sig × ℕ × Bool) := by
  rintro ⟨c, x⟩ ⟨c', x'⟩ h
  have h1 : c = c' := by have := congrArg (fun y : GSem nD τ sig × ℕ × Bool => y.1.1.1) h; exact this
  have h2 : famTok x = famTok x' :=
    Prod.ext (sem_injective (congrArg (fun y : GSem nD τ sig × ℕ × Bool => y.1.2) h))
      (Prod.ext (congrArg (fun y : GSem nD τ sig × ℕ × Bool => y.2.1) h) (congrArg (fun y : GSem nD τ sig × ℕ × Bool => y.2.2) h))
  rw [h1, famTok_injective h2]

def myToks : Finset (GSem nD τ sig × ℕ × Bool) := Finset.univ.map ⟨tokOf, tokOf_injective⟩

/-- The tokens of chunk `k`'s nine duties on device `e`'s own cells, and all of a device's own cells' tokens. -/
def chunkToks (e : Dev nD) (k : Fin 32) : sProp 𝕄 :=
  iprop(dutyTok ER (cell e (.ina (slot2 k))) (k.val / 2) false ∗ dutyTok ER (cell e (.inb (slot2 k))) (k.val / 2) false
    ∗ dutyTok ER (cell e (.lca (slot3 k))) (k.val / 3) false ∗ dutyTok ER (cell e (.lcb (slot3 k))) (k.val / 3) false
    ∗ dutyTok ER (cell e (.lo k)) 0 false ∗ dutyTok ER (cell e (.ds k)) 0 false ∗ dutyTok ER (cell e (.fs k)) 0 false
    ∗ dutyTok ER (cell e (.dr k)) 0 false ∗ dutyTok ER (cell e (.fr k)) 0 false)
def toks (e : Dev nD) : sProp 𝕄 :=
  iprop(bigSep Finset.univ (chunkToks (F := F) e) ∗ dutyTok ER (cell e .bar) 0 false ∗ dutyTok ER (cell e .bar) 0 true)

theorem bigSep_myToks :
    bigSep myToks (fun x => (dutyTok ER x.1 x.2.1 x.2.2 : sProp 𝕄)) = bigSep Finset.univ fun c : Dev nD => toks c := by
  unfold myToks; rw [bigSep_map, bigSep_univ_prod]
  refine bigSep_congr fun c _ => ?_
  unfold toks
  rw [bigSep_univ_sum, bigSep_univ_prod, bigSep_univ_eq_bigSepL [false, true] (by decide) (by decide)]
  refine congrArg₂ (fun a b : sProp 𝕄 => iprop(a ∗ b)) (bigSep_congr fun k _ => ?_) rfl
  rw [bigSep_univ_eq_bigSepL [0, 1, 2, 3, 4, 5, 6, 7, 8] (by decide) (by decide)]
  rfl

/-- The launch element: the pipeline library's (no staging cell here) beside this protocol's. -/
def u₀ : UU :=
  (initOf (Pipeline.cells cfgs cellOf_inj) (Pipeline.launchToks cfgs cellOf_inj), initOf myCells myToks)

/-! ## The kernel's own semaphores, and every counter of a device at zero -/

abbrev osem : DmaSem sig → SemLoc sig := fun q => .dma q

theorem ownSemFacts : Pipeline.OwnSemFacts cfg0.spec osem :=
  ⟨by decide +kernel, fun a b h => SemLoc.dma.inj h, fun k w => w.elim0⟩

/-- A device's semaphores are its barrier semaphore and its DMA semaphores. -/
theorem bigSep_semLoc (Φ : SemLoc sig → sProp 𝕄) :
    bigSep Finset.univ Φ = iprop(Φ (.reg barS) ∗ bigSep Finset.univ fun q : DmaSem sig => Φ (.dma q)) := by
  rw [bigSep_univ_equiv (SemLoc.equivSum sig).symm Φ, bigSep_univ_sum, bigSep_univ_eq_bigSepL [barS] (by decide) (by decide)]
  rfl

/-- The families' semaphores are all of them. -/
theorem semOf_bijective : Function.Bijective (Fam.sem) :=
  (Fintype.bijective_iff_injective_and_card _).mpr
    ⟨sem_injective, by
      rw [SemLoc.card_eq, Fintype.ofEquiv_card]; simp only [Fintype.card_sum, Fintype.card_fin, Fintype.card_unit]⟩
def semE : Fam ≃ SemLoc sig := Equiv.ofBijective _ semOf_bijective

/-- The barrier semaphore is the launch's one unscoped semaphore. -/
theorem unscopedSems0_eq (c : Dev nD) : (unscopedSems0 c : sProp 𝕄) = semVal ((c : Thread nD τ), .reg barS) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun f : Fam => semVal (cell c f) 0 : sProp 𝕄) := by
  have h1 : (bigSep Finset.univ fun f : Fam => semVal (cell c f) 0 : sProp 𝕄)
      = bigSep Finset.univ fun sm : SemLoc sig => semVal ((c : Thread nD τ), sm) 0 :=
    (bigSep_univ_equiv semE (fun sm : SemLoc sig => (semVal ((c : Thread nD τ), sm) 0 : sProp 𝕄))).symm
  rw [h1, bigSep_semLoc, unscopedSems0_eq]
  unfold Pipeline.ownSems0
  iintro ⟨H1, H2⟩
  isplitl [H2]
  · iexact H2
  · iexact H1

variable (m : (ℓ : Loc nD τ sig) → Buf (Elt F) ℓ)

/-! ## Funding: what the launch element deals each device -/

instance Rd_payload_storable (g : GSem nD τ sig) (r : ℕ) (d : Bool) :
    BI.Storable (upEmb : UEmb _ 𝕄) ((Rd (F := F) m).payload g r d) := by
  show BI.Storable upEmb (match decode g.2 with | some f => payOf m g.1.1 r d f | none => iprop(emp))
  split
  · rename_i f _
    cases f <;> dsimp only [payOf, payIna, payInb, payLca, payLcb, payLo, payDs, payDr, payFs, payFr, payBar] <;>
      (repeat' split) <;> infer_instance
  · infer_instance

/-- What the launch element deals device `c` (the theorem's `G`): its own cells' round states, positions and reached
    marks, and its own cells' duty tokens. -/
def G (c : Dev nD) : sProp 𝕄 :=
  iprop((bigSep Finset.univ fun f : Fam => roundState ER (Rd m) (cell c f) 0)
    ∗ (bigSep Finset.univ fun f : Fam => iprop(atPos ER (cell c f) 0 ∅ 0 ∗ reached ER (cell c f) 0)) ∗ toks c)

theorem fund_mine : BI.own (ER (initOf myCells myToks)) ⊢ (|==> bigSep Finset.univ (G m) : sProp 𝕄) := by
  iintro HX
  imod (Rounds.fund ER (Rd m) myCells myToks) $$ HX with ⟨Hst, Hr, Hat, Htok⟩
  imodintro
  ihave Hst' := (Entails.of_eq (bigSep_myCells fun g => roundState ER (Rd m) g 0)) $$ Hst
  ihave Hat' := (Entails.of_eq (bigSep_myCells (F := F) fun g => atPos ER g 0 ∅ 0)) $$ Hat
  ihave Hr' := (Entails.of_eq (bigSep_myCells (F := F) fun g => reached ER g 0)) $$ Hr
  ihave Htok' := (Entails.of_eq (bigSep_myToks (F := F))) $$ Htok
  unfold G; simp only [bigSep_sep']
  isplitl [Hst']; · iexact Hst'
  isplitl [Hat' Hr']
  · isplitl [Hat'] <;> iassumption
  iexact Htok'

/-! ## The global step: every cell's invariant from its counter at zero -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun f : Fam => iprop(∃ κ : ℕ, cellInv ER (Rd m) κ (cell c f)))
          ∗ (bigSep Finset.univ fun f : Fam => iprop(atPos ER (cell c f) 0 ∅ 0 ∗ reached ER (cell c f) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun f : Fam => semVal (cell c f) 0) ∗ bigSep Finset.univ fun f : Fam => roundState ER (Rd m) (cell c f) 0)
      ⊢ (|={Set.univ}=> bigSep Finset.univ fun f : Fam => iprop(∃ κ : ℕ, cellInv ER (Rd m) κ (cell c f)) : sProp 𝕄) from by
        rw [← bigSep_sep']
        exact (bigSep_mono fun f _ => (Rounds.body_intro ER (Rd m) (cell c f)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to who pays -/

/-- The seven tokens of chunk `k` that stay with the device, and the two landings' tokens that go to its peers. -/
def stayTok (e : Dev nD) (k : Fin 32) : sProp 𝕄 :=
  iprop(dutyTok ER (cell e (.ina (slot2 k))) (k.val / 2) false ∗ dutyTok ER (cell e (.inb (slot2 k))) (k.val / 2) false
    ∗ dutyTok ER (cell e (.lca (slot3 k))) (k.val / 3) false ∗ dutyTok ER (cell e (.lcb (slot3 k))) (k.val / 3) false
    ∗ dutyTok ER (cell e (.lo k)) 0 false ∗ dutyTok ER (cell e (.ds k)) 0 false ∗ dutyTok ER (cell e (.fs k)) 0 false)
def drTok (e : Dev nD) (k : Fin 32) : sProp 𝕄 := dutyTok ER (cell e (.dr k)) 0 false
def frTok (e : Dev nD) (k : Fin 32) : sProp 𝕄 := dutyTok ER (cell e (.fr k)) 0 false

/-- A device's own cells' tokens, sorted by who pays. -/
def toks' (e : Dev nD) : sProp 𝕄 :=
  iprop(bigSep Finset.univ (stayTok (F := F) e) ∗ bigSep Finset.univ (drTok (F := F) e) ∗ bigSep Finset.univ (frTok (F := F) e)
    ∗ dutyTok ER (cell e .bar) 0 false ∗ dutyTok ER (cell e .bar) 0 true)
/-- The tokens of the duties device `c` pays. -/
def payToks (c : Dev nD) : sProp 𝕄 :=
  iprop(bigSep Finset.univ (stayTok (F := F) c) ∗ bigSep Finset.univ (drTok (F := F) (px c)) ∗ bigSep Finset.univ (frTok (F := F) (py c))
    ∗ dutyTok ER (cell (px c) .bar) 0 false ∗ dutyTok ER (cell (py c) .bar) 0 true)

theorem toks_split (e : Dev nD) : (toks e : sProp 𝕄) ⊢ toks' e := by
  unfold toks toks'
  iintro ⟨Hk, HF, HT⟩
  ihave Hk' := (show (bigSep Finset.univ (chunkToks (F := F) e) : sProp 𝕄)
      ⊢ iprop(bigSep Finset.univ (stayTok (F := F) e) ∗ bigSep Finset.univ (drTok (F := F) e) ∗ bigSep Finset.univ (frTok (F := F) e)) from by
        rw [← bigSep_sep', ← bigSep_sep']
        exact bigSep_mono' fun k _ => by
          unfold chunkToks stayTok drTok frTok
          iintro ⟨H0, H1, H2, H3, H4, H5, H6, H7, H8⟩
          isplitl [H0 H1 H2 H3 H4 H5 H6]
          · iframe
          · isplitl [H7] <;> iassumption) $$ Hk
  icases Hk' with ⟨Hs, Hd, Hf⟩
  isplitl [Hs]; · iexact Hs
  isplitl [Hd]; · iexact Hd
  isplitl [Hf]; · iexact Hf
  isplitl [HF] <;> iassumption

/-- The landings' tokens go to the peers that pay them: along x to `px`, along y to `py`; the handshake's likewise. -/
theorem toks_around : (bigSep Finset.univ fun c : Dev nD => (toks' c : sProp 𝕄)) ⊢ bigSep Finset.univ fun c : Dev nD => payToks c := by
  unfold toks' payToks
  rw [bigSep_sep', bigSep_sep', bigSep_sep', bigSep_sep', bigSep_sep', bigSep_sep', bigSep_sep', bigSep_sep',
    bigSep_univ_equiv pxE (fun c : Dev nD => (bigSep Finset.univ (drTok (F := F) c) : sProp 𝕄)),
    bigSep_univ_equiv pyE (fun c : Dev nD => (bigSep Finset.univ (frTok (F := F) c) : sProp 𝕄)),
    bigSep_univ_equiv pxE (fun c : Dev nD => (dutyTok ER (cell c .bar) 0 false : sProp 𝕄)),
    bigSep_univ_equiv pyE (fun c : Dev nD => (dutyTok ER (cell c .bar) 0 true : sProp 𝕄))]
  exact .rfl

theorem toks_deal : (bigSep Finset.univ fun c : Dev nD => (toks c : sProp 𝕄)) ⊢ bigSep Finset.univ fun c : Dev nD => payToks c :=
  (bigSep_mono fun c _ => toks_split (F := F) c).trans (toks_around (F := F))

/-! ## Regrouping per chunk -/

/-- Chunk `k`'s share of the ghost state before the launch credit arrives. -/
def chunkLin (c : Dev nD) (k : Fin 32) : sProp 𝕄 :=
  iprop(dutyTok ER (cell c (.ina (slot2 k))) (k.val / 2) false ∗ dutyTok ER (cell c (.inb (slot2 k))) (k.val / 2) false
    ∗ dutyTok ER (cell c (.lca (slot3 k))) (k.val / 3) false ∗ dutyTok ER (cell c (.lcb (slot3 k))) (k.val / 3) false
    ∗ dutyTok ER (cell c (.lo k)) 0 false ∗ dutyTok ER (cell c (.ds k)) 0 false ∗ dutyTok ER (cell c (.fs k)) 0 false
    ∗ dutyTok ER (cell (px c) (.dr k)) 0 false ∗ dutyTok ER (cell (py c) (.fr k)) 0 false
    ∗ atPos ER (cell c (.lo k)) 0 ∅ 0 ∗ atPos ER (cell c (.ds k)) 0 ∅ 0 ∗ atPos ER (cell c (.dr k)) 0 ∅ 0
    ∗ atPos ER (cell c (.fs k)) 0 ∅ 0 ∗ atPos ER (cell c (.fr k)) 0 ∅ 0)

/-- What stays with device `c` of the linear ghost state: per chunk, and its positions on its multi-round cells and on
    its barrier cell, and the two handshake tokens it pays. -/
def linear (c : Dev nD) : sProp 𝕄 :=
  iprop(bigSep Finset.univ (chunkLin (F := F) c)
    ∗ (bigSep Finset.univ fun j : Fin 2 => iprop(atPos ER (cell c (.ina j)) 0 ∅ 0 ∗ atPos ER (cell c (.inb j)) 0 ∅ 0))
    ∗ (bigSep Finset.univ fun s : Fin 3 => iprop(atPos ER (cell c (.lca s)) 0 ∅ 0 ∗ atPos ER (cell c (.lcb s)) 0 ∅ 0))
    ∗ atPos ER (cell c .bar) 0 ∅ 0
    ∗ dutyTok ER (cell (px c) .bar) 0 false ∗ dutyTok ER (cell (py c) .bar) 0 true)

/-- The ghost state before the launch credit and the levels arrive, and what the global step makes (`G'`). -/
def ghost0 (K : Dev nD × Fam → ℕ) (c : Dev nD) : sProp 𝕄 := iprop(records m K ∗ linear c)
def G' (c : Dev nD) : sProp 𝕄 := iprop(∃ K, ghost0 m K c)

theorem linear_intro (c : Dev nD) :
    iprop((bigSep Finset.univ fun f : Fam => (atPos ER (cell c f) 0 ∅ 0 : sProp 𝕄)) ∗ payToks c) ⊢ linear c := by
  rw [bigSep_fam]
  unfold overFam payToks linear
  iintro ⟨⟨Aina, Ainb, Alca, Alcb, Alo, Ads, Adr, Afs, Afr, Abar⟩, Hs, Hd, Hf, HbF, HbT⟩
  ihave Hch := (show iprop(bigSep Finset.univ (stayTok (F := F) c) ∗ bigSep Finset.univ (drTok (F := F) (px c)) ∗ bigSep Finset.univ (frTok (F := F) (py c))
        ∗ (bigSep Finset.univ fun k : Fin 32 => atPos ER (cell c (.lo k)) 0 ∅ 0) ∗ (bigSep Finset.univ fun k : Fin 32 => atPos ER (cell c (.ds k)) 0 ∅ 0)
        ∗ (bigSep Finset.univ fun k : Fin 32 => atPos ER (cell c (.dr k)) 0 ∅ 0) ∗ (bigSep Finset.univ fun k : Fin 32 => atPos ER (cell c (.fs k)) 0 ∅ 0)
        ∗ (bigSep Finset.univ fun k : Fin 32 => atPos ER (cell c (.fr k)) 0 ∅ 0))
      ⊢ (bigSep Finset.univ (chunkLin (F := F) c) : sProp 𝕄) from by
        rw [← bigSep_sep', ← bigSep_sep', ← bigSep_sep', ← bigSep_sep', ← bigSep_sep', ← bigSep_sep', ← bigSep_sep']
        exact bigSep_mono' fun k _ => by
          unfold stayTok drTok frTok chunkLin
          iintro ⟨⟨H0, H1, H2, H3, H4, H5, H6⟩, H7, H8, A1, A2, A3, A4, A5⟩
          iframe) $$ [Hs Hd Hf Alo Ads Adr Afs Afr]
  · iframe
  ihave Hj := (Entails.of_eq (bigSep_sep' Finset.univ (fun j : Fin 2 => (atPos ER (cell c (.ina j)) 0 ∅ 0 : sProp 𝕄)) (fun j : Fin 2 => atPos ER (cell c (.inb j)) 0 ∅ 0)).symm) $$ [Aina Ainb]
  · isplitl [Aina] <;> iassumption
  ihave Hs3 := (Entails.of_eq (bigSep_sep' Finset.univ (fun s : Fin 3 => (atPos ER (cell c (.lca s)) 0 ∅ 0 : sProp 𝕄)) (fun s : Fin 3 => atPos ER (cell c (.lcb s)) 0 ∅ 0)).symm) $$ [Alca Alcb]
  · isplitl [Alca] <;> iassumption
  isplitl [Hch]; · iexact Hch
  isplitl [Hj]; · iexact Hj
  isplitl [Hs3]; · iexact Hs3
  isplitl [Abar]; · iexact Abar
  isplitl [HbF] <;> iassumption

/-- The cells' invariants and reached marks, gathered over all devices and families, are the records. -/
theorem records_eq (K : Dev nD × Fam → ℕ) :
    records m K = iprop((bigSep Finset.univ fun cf : Dev nD × Fam => cellInv ER (Rd m) (K cf) (cell cf.1 cf.2))
      ∗ bigSep Finset.univ fun cf : Dev nD × Fam => reached ER (cell cf.1 cf.2) 0) := by
  unfold records
  rw [bigSep_congr (s := Finset.univ) (fun (c : Dev nD) _ => (bigSep_fam (fun f : Fam => iprop(cellInv ER (Rd m) (K (c, f)) (cell c f) ∗ reached ER (cell c f) 0))).symm),
    ← bigSep_univ_prod (fun cf : Dev nD × Fam => iprop(cellInv ER (Rd m) (K cf) (cell cf.1 cf.2) ∗ reached ER (cell cf.1 cf.2) 0)), bigSep_sep']

theorem ghost0_intro (K : Dev nD × Fam → ℕ) (c : Dev nD) :
    iprop(records m K ∗ ((bigSep Finset.univ fun f : Fam => (atPos ER (cell c f) 0 ∅ 0 : sProp 𝕄)) ∗ payToks c)) ⊢ G' m c := by
  unfold G' ghost0
  iintro ⟨#HR, Hl⟩
  iexists K
  isplitr
  · iexact HR
  · iapply (linear_intro (F := F) c); iexact Hl

theorem regroup :
    (bigSep Finset.univ fun c : Dev nD => iprop((bigSep Finset.univ fun f : Fam => iprop(∃ κ : ℕ, cellInv ER (Rd m) κ (cell c f)))
          ∗ (bigSep Finset.univ fun f : Fam => iprop(atPos ER (cell c f) 0 ∅ 0 ∗ reached ER (cell c f) 0)) ∗ toks c) : sProp 𝕄)
      ⊢ bigSep Finset.univ (G' m) := by
  rw [bigSep_sep', bigSep_sep', ← bigSep_univ_prod (fun cf : Dev nD × Fam => iprop(∃ κ : ℕ, cellInv ER (Rd m) κ (cell cf.1 cf.2))),
    bigSep_congr (s := Finset.univ) (fun (c : Dev nD) _ => bigSep_sep' Finset.univ (fun f : Fam => (atPos ER (cell c f) 0 ∅ 0 : sProp 𝕄)) (fun f => reached ER (cell c f) 0)),
    bigSep_sep', ← bigSep_univ_prod (fun cf : Dev nD × Fam => (reached ER (cell cf.1 cf.2) 0 : sProp 𝕄))]
  iintro ⟨HI, ⟨Hat, #HR⟩, Htok⟩
  ihave HK := (BI.bigSep_exists_pi Finset.univ (fun (cf : Dev nD × Fam) (κ : ℕ) => (cellInv ER (Rd m) κ (cell cf.1 cf.2) : sProp 𝕄))) $$ HI
  icases HK with ⟨%K, #HI⟩
  ihave Htk' := (toks_deal (F := F)) $$ Htok
  iapply (bigSep_with_persistent (R := records m K) fun c _ => ghost0_intro m K c)
  isplitr
  · rw [records_eq]; isplitl; · iexact HI
    iexact HR
  · iapply (Entails.of_eq (bigSep_sep' Finset.univ (fun c : Dev nD => bigSep Finset.univ fun f : Fam => (atPos ER (cell c f) 0 ∅ 0 : sProp 𝕄)) payToks).symm)
    isplitl [Hat]; · iexact Hat
    iexact Htk'

/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem credD (c : Dev nD) :
    (Pipeline.launchCred (fun d : Dev nD => oweD d 0) c : sProp 𝕄) ⊢ bigSep Finset.univ fun k : Fin 32 => cred (tallyAt (cell c (.dr k)) () Nout) := by
  have e : (fun d : Dev nD => oweD d 0) = fun d : Dev nD => ∑ k ∈ (Finset.univ : Finset (Fin 32)), (tallyAt (cell (px d) (.dr k)) () Nout : CellTallies nD τ sig Unit) := by
    funext d; unfold oweD; rw [Finset.filter_true_of_mem (fun k _ => Nat.zero_le _)]
  rw [e, Pipeline.launchCred_sum Finset.univ (fun (k : Fin 32) (d : Dev nD) => (tallyAt (cell (px d) (.dr k)) () Nout : CellTallies nD τ sig Unit))]
  exact bigSep_mono fun k _ => Pipeline.launchCred_tallyAt (Fam.dr k).sem px px px_px px_px () Nout c

theorem credF (c : Dev nD) :
    (Pipeline.launchCred (fun d : Dev nD => oweF d 0) c : sProp 𝕄) ⊢ bigSep Finset.univ fun k : Fin 32 => cred (tallyAt (cell c (.fr k)) () Nout) := by
  have e : (fun d : Dev nD => oweF d 0) = fun d : Dev nD => ∑ k ∈ (Finset.univ : Finset (Fin 32)), (tallyAt (cell (py d) (.fr k)) () Nout : CellTallies nD τ sig Unit) := by
    funext d; unfold oweF; rw [Finset.filter_true_of_mem (fun k _ => Nat.zero_le _)]
  rw [e, Pipeline.launchCred_sum Finset.univ (fun (k : Fin 32) (d : Dev nD) => (tallyAt (cell (py d) (.fr k)) () Nout : CellTallies nD τ sig Unit))]
  exact bigSep_mono fun k _ => Pipeline.launchCred_tallyAt (Fam.fr k).sem py py py_py py_py () Nout c

theorem cred_bar2 (c : Dev nD) :
    iprop(cred (tallyAt (cell c .bar) () 1) ∗ cred (tallyAt (cell c .bar) () 1)) ⊢ (cred (tallyAt (cell c .bar) () 2) : sProp 𝕄) :=
  (cred_add _ _).2.trans (Entails.of_eq (by rw [tallyAt_add]))

/-- What its peers owe a device at launch: every chunk's landing along x and its relay's landing, and the handshake's two units. -/
theorem creds (c : Dev nD) :
    (Pipeline.launchCred O₀ c : sProp 𝕄)
      ⊢ iprop((bigSep Finset.univ fun k : Fin 32 => cred (tallyAt (cell c (.dr k)) () Nout))
          ∗ (bigSep Finset.univ fun k : Fin 32 => cred (tallyAt (cell c (.fr k)) () Nout))
          ∗ cred (tallyAt (cell c .bar) () 2)) := by
  have e : (O₀ : Dev nD → CellTallies nD τ sig Unit)
      = fun d => ((oweD d 0 + oweF d 0) + tallyAt (cell (py d) .bar) () 1) + tallyAt (cell (px d) .bar) () 1 := rfl
  rw [e, Pipeline.launchCred_add (fun d : Dev nD => (oweD d 0 + oweF d 0) + tallyAt (cell (py d) .bar) () 1) (fun d : Dev nD => tallyAt (cell (px d) .bar) () 1),
    Pipeline.launchCred_add (fun d : Dev nD => oweD d 0 + oweF d 0) (fun d : Dev nD => tallyAt (cell (py d) .bar) () 1),
    Pipeline.launchCred_add (fun d : Dev nD => oweD d 0) (fun d : Dev nD => oweF d 0)]
  iintro ⟨⟨⟨HD, HF⟩, Hy⟩, Hx⟩
  ihave HD' := (credD (F := F) c) $$ HD
  ihave HF' := (credF (F := F) c) $$ HF
  ihave Hy' := (Pipeline.launchCred_tallyAt (Fam.sem .bar) py py py_py py_py () 1 c) $$ Hy
  ihave Hx' := (Pipeline.launchCred_tallyAt (Fam.sem .bar) px px px_px px_px () 1 c) $$ Hx
  ihave Hb := (cred_bar2 (F := F) c) $$ [Hy' Hx']
  · isplitl [Hy'] <;> iassumption
  isplitl [HD']; · iexact HD'
  isplitl [HF']; · iexact HF'
  iexact Hb

/-- The ghost state a body starts from: what the global step made, the launch credit, the levels. -/
theorem ghost_intro (K : Dev nD × Fam → ℕ) (c : Dev nD) :
    iprop(ghost0 m K c
        ∗ ((bigSep Finset.univ fun k : Fin 32 => cred (tallyAt (cell c (.dr k)) () Nout))
          ∗ (bigSep Finset.univ fun k : Fin 32 => cred (tallyAt (cell c (.fr k)) () Nout))
          ∗ cred (tallyAt (cell c .bar) () 2))
        ∗ levAts L lv)
      ⊢ ghost m K c := by
  unfold ghost0 linear ghost
  iintro ⟨⟨HR, Hch, Hj, Hs, Hb, HtF, HtT⟩, ⟨HcD, HcF, Hcb⟩, Hlev⟩
  ihave Hch' := (show iprop(bigSep Finset.univ (chunkLin (F := F) c)
        ∗ (bigSep Finset.univ fun k : Fin 32 => cred (tallyAt (cell c (.dr k)) () Nout))
        ∗ (bigSep Finset.univ fun k : Fin 32 => cred (tallyAt (cell c (.fr k)) () Nout)))
      ⊢ (bigSep Finset.univ (chunkRes (F := F) c) : sProp 𝕄) from by
        rw [← bigSep_sep', ← bigSep_sep']
        exact bigSep_mono' fun k _ => by
          unfold chunkLin chunkRes
          iintro ⟨⟨H1, H2, H3, H4, H5, H6, H7, H8, H9, H10, H11, H12, H13, H14⟩, C1, C2⟩
          iframe) $$ [Hch HcD HcF]
  · iframe
  isplitl [HR]; · iexact HR
  isplitl [Hch']; · iexact Hch'
  isplitl [Hj]; · iexact Hj
  isplitl [Hs]; · iexact Hs
  isplitl [Hb]; · iexact Hb
  isplitl [Hcb]; · iexact Hcb
  isplitl [HtF]; · iexact HtF
  isplitl [HtT]; · iexact HtT
  iexact Hlev

/-! ## The pipeline's proof data: one point, no window -/

def dats (ρ : Dev nD → PrngReg) (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

variable (ρ : Dev nD → PrngReg)

/-! ## The body obligation, from the body's run -/

set_option maxRecDepth 16384 in
/-- The library's body obligation on device `c`: the one point's invariants are `Φ₀` and `Φ₁`, no window stages anything,
    and what the device owes goes from `O₀ c` to nothing. -/
theorem body_obligation (c : Dev nD) : BodyObligation (dats (F := F) m ρ 0 c) (defs₀ (F := F)) 𝒱₀ () Set.univ := fun t => by
  rw [fin_N0 t]
  have hE : ∀ Φ : Fin cfg0.W → sProp 𝕄, bigSep Finset.univ Φ = iprop(emp) := fun Φ => by rw [Finset.univ_eq_empty]; rfl
  have hb : defs₀ (F := F) .tc cfg0.body (cfg0.bodyArgs t0_0 (cfg0.slots t0_0)) = bodyAt0 t0_0 := rfl
  have hΦ0 : (dats (F := F) m ρ 0 c).Φ t0_0.castSucc = Φ₀ m c := rfl
  have hΦ1 : (dats (F := F) m ρ 0 c).Φ t0_0.succ = Φ₁ m c := rfl
  have hO0 : (dats (F := F) m ρ 0 c).owed t0_0.castSucc = O₀ c := rfl
  have hO1 : (dats (F := F) m ρ 0 c).owed t0_0.succ = 0 := rfl
  simp only [hE]
  rw [hb, hΦ0, hΦ1]
  unfold Dat.owesAt Pipeline.owesWithin
  rw [hO0, hO1]
  iintro ⟨HΦ, ⟨%W, %hW, Ho⟩, -⟩
  iapply (sound_body m c W _)
  isplitl [HΦ]; · iexact HΦ
  isplitl [Ho]; · iexact Ho
  iintro ⟨HΦ1, %W', Ho'⟩
  isplitl [HΦ1]; · iexact HΦ1
  isplitl [Ho']
  · iexists W'
    isplitr
    · ipureintro; exact Set.subset_union_of_subset_left (Set.subset_univ _) _
    · iexact Ho'
  · iempintro

/-! ## The theorem's side conditions -/

/-- What a device takes into its first point beside the scratch buffers: the ghost state, `x` and the result as launched. -/
def X (c : Dev nD) : sProp 𝕄 :=
  iprop((∃ K, ghost m K c) ∗ (((c : Thread nD τ).loc main_arg0) ↦{fullShare} Xc m c)
    ∗ (((c : Thread nD τ).loc main_v1) ↦{fullShare} m ((c : Thread nD τ).loc main_v1)))
/-- What it hands back beside them: `x` as launched, the result at the written blocks. -/
def Y (c : Dev nD) : sProp 𝕄 :=
  iprop((((c : Thread nD τ).loc main_arg0) ↦{fullShare} Xc m c) ∗ (∃ g, ⌜OutOk m c g⌝ ∗ (((c : Thread nD τ).loc main_v1) ↦{fullShare} g)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Ho⟩, Hlev, Hcr, -, ⟨%K, HG⟩⟩
  ihave Hc := (creds (F := F) c) $$ Hcr
  imodintro
  unfold X
  isplitl
  · isplitl [HG Hc Hlev]
    · iexists K
      iapply (ghost_intro m K c)
      isplitl [HG]; · iexact HG
      isplitl [Hc]; · iexact Hc
      iexact Hlev
    · isplitl [Hx] <;> iassumption
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X
  iintro ⟨⟨HG, Hx, Ho⟩, -, ⟨H0, H1, H2, H3, H4⟩⟩
  isplitl [HG]; · iexact HG
  isplitl [H0]; · iexact H0
  isplitl [H1]; · iexact H1
  isplitl [H2]; · iexact H2
  isplitl [H3]; · iexact H3
  isplitl [H4]; · iexact H4
  isplitl [Hx] <;> iassumption

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq]
  unfold Φ₁ Y Pipeline.ownSems0
  iintro ⟨H0, H1, H2, H3, H4, Hx, Ho, Hz⟩
  isplitl [Hx Ho]
  · isplitl [Hx] <;> iassumption
  isplitl [Hz]; · iexact Hz
  isplitl [H0]; · iexact H0
  isplitl [H1]; · iexact H1
  isplitl [H2]; · iexact H2
  isplitl [H3] <;> iassumption

theorem waits (c : Dev nD) : (levAts L lv : sProp 𝕄) ⊢ Pipeline.cellsWaits cfgs (dats m ρ) () 0 c :=
  Pipeline.cellsWaits_intro cfgs (dats m ρ) () 0 c fun w => w.elim0

/-! ## The run -/

set_option maxRecDepth 65536 in
/-- At the compiled mesh of four devices, for any float values, from any memory with zero counters: every weakly fair
    execution of @main terminates, and every final state has each device's `x` unchanged and its result holding, block
    by block, what the block's copy wrote. -/
theorem run_main : θ_run defs (onTc (τ := τ) (main (F := F))) ⟨m, fun _ => 0, ρ⟩
    (fun r => ∀ c : Dev nD, r.2.mem ((c.tc : Thread nD τ).loc main_arg0) = m ((c.tc : Thread nD τ).loc main_arg0)
      ∧ OutOk m c (r.2.mem ((c.tc : Thread nD τ).loc main_v1))) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_mine m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m ρ) (hout := phi1_exit m ρ)
    (QY := fun c s => s.mem ((c.tc : Thread nD τ).loc main_arg0) = m ((c.tc : Thread nD τ).loc main_arg0)
      ∧ OutOk m c (s.mem ((c.tc : Thread nD τ).loc main_v1)))
    (hY := fun c s' => by
      unfold Y
      iintro ⟨⟨Hx, %g, %hg, Ho⟩, -, HSI⟩
      icombine HSI Hx gives %hx
      icombine HSI Ho gives %ho
      imodintro
      isplitr
      · ipureintro
        exact ⟨Buf.eq_of_forall_mem_univ hx, by rw [Buf.eq_of_forall_mem_univ ho]; exact hg⟩
      iexact HSI)
    (hQ := fun _ h c => (h c).2.2)

/-- info: 'Cert.KernelIdealA2A.run_main' depends on axioms: [propext, Classical.choice, Quot.sound] -/
#guard_msgs in #print axioms run_main

end Cert.KernelIdealA2A
end
-- ==== Proof.A2AFrame.lean ====
/-
  The program's frame: the argument half of its run.
-/
import proofs.«900012_g7700000000000013_dist_a2a_v7x_xy2x2_x_m16384_n1024_bf16_1_alg».proof.Proof.A2ALaunch

noncomputable section

namespace Cert.KernelIdealA2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem frame_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).1) (run_main m ρ)

end Cert.KernelIdealA2A
end
-- ==== Proof.B2AViews.lean ====
/-
  The all-to-all on a 2 x 2 mesh: names for the two peers of a device, the views every copy of the kernel reads and
  writes (stated through the printed offset functions), the semaphores, and the cells they make.
-/
import proofs.«900012_g7700000000000013_dist_a2a_v7x_xy2x2_x_m16384_n1024_bf16_1_alg».proof.Proof.Gen.Kernel.Skeleton
import proofs.«900012_g7700000000000013_dist_a2a_v7x_xy2x2_x_m16384_n1024_bf16_1_alg».proof.Proof.Gen.Kernel.Launch
import Idealize.ShloMosaic.Lib.Pipeline.Launch
import Idealize.ShloMosaic.Lib.Pipeline.Kit
import Idealize.ShloMosaic.Lib.Tactic

noncomputable section

namespace Cert.KernelA2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the rounds of this kernel's cells (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The two peers: a device's id is `2 * mx + my`; `px` flips `mx`, `py` flips `my` -/

def px (c : Dev nD) : Dev nD := ⟨(c.val + 2) % 4, Nat.mod_lt _ (by decide)⟩
def py (c : Dev nD) : Dev nD := ⟨2 * (c.val / 2) + (c.val + 1) % 2, by have h : c.val < 4 := c.isLt; show _ < 4; omega⟩

theorem px_px (c : Dev nD) : px (px c) = c := by revert c; decide
theorem py_py (c : Dev nD) : py (py c) = c := by revert c; decide
theorem px_ne (c : Dev nD) : px c ≠ c := by revert c; decide
theorem py_ne (c : Dev nD) : py c ≠ c := by revert c; decide
theorem px_ne_py (c : Dev nD) : px c ≠ py c := by revert c; decide

def pxE : Dev nD ≃ Dev nD := ⟨px, px, px_px, px_px⟩
def pyE : Dev nD ≃ Dev nD := ⟨py, py, py_py, py_py⟩

/-- The printed device chains: the copies addressed along x name `px c`, those along y name `py c`. -/
theorem devx_eq (c : Dev nD) (n : ℕ) (hn : n < nD) (h : n = ((c.val % 2) + 2) - 2 * (c.val / 2)) : (⟨n, hn⟩ : Dev nD) = px c := by
  subst h; revert c; decide
theorem devy_eq (c : Dev nD) (n : ℕ) (hn : n < nD) (h : n = (2 * (c.val / 2) + 1) - (c.val % 2)) : (⟨n, hn⟩ : Dev nD) = py c := by
  subst h; revert c; decide

/-! ## The buffers and the views of the copies -/

abbrev xM : Memref sig .tc .hbm S16384x2048 .f32 := Memref.whole main_arg0
abbrev oM : Memref sig .tc .hbm S32768x1024 .bf16 := Memref.whole main_v1
abbrev viaM : Memref sig .tc .vmem S2x256x2048 .f32 := Memref.whole cc0_scratch0
abbrev vibM : Memref sig .tc .vmem S2x256x2048 .f32 := Memref.whole cc0_scratch1
abbrev vcaM : Memref sig .tc .vmem S3x256x2048 .bf16 := Memref.whole cc0_scratch2
abbrev vcbM : Memref sig .tc .vmem S3x256x2048 .bf16 := Memref.whole cc0_scratch3
abbrev ldM : Memref sig .tc .vmem S32x256x1024 .bf16 := Memref.whole cc0_scratch4

theorem inb_vin (j : Fin 2) : ∀ a, (![j.val, 0, 0] : Fin 3 → ℕ) a + S1x256x2048.size a ≤ S2x256x2048.size a := by revert j; decide
theorem inb_vc (s : Fin 3) : ∀ a, (![s.val, 0, 0] : Fin 3 → ℕ) a + S1x256x2048.size a ≤ S3x256x2048.size a := by revert s; decide
theorem inb_ld (k : Fin 32) : ∀ a, (![k.val, 0, 0] : Fin 3 → ℕ) a + S1x256x1024.size a ≤ S32x256x1024.size a := by revert k; decide

/-- Rows `[8192 my + 256 k, + 256)` of the device's block of `x` (the half the device relays along x), and rows
    `[8192 (1 - my) + 256 k, + 256)` (the other half). -/
abbrev xA (c : Dev nD) (k : Fin 32) : Memref sig .tc .hbm S256x2048 .f32 :=
  xM.slice (Rect.unit (s := S16384x2048) (k0_off1 c (BitVec.ofNat 32 (256 * k.val))) S256x2048.size (k0_off1_inb c k)) (fun _ => rfl)
abbrev xB (c : Dev nD) (k : Fin 32) : Memref sig .tc .hbm S256x2048 .f32 :=
  xM.slice (Rect.unit (s := S16384x2048) (k0_off2 c (BitVec.ofNat 32 (256 * k.val))) S256x2048.size (k0_off2_inb c k)) (fun _ => rfl)

/-- Slot `j` of the two f32 staging buffers. -/
abbrev viaS (j : Fin 2) : Memref sig .tc .vmem S256x2048 .f32 :=
  (viaM.slice (Rect.unit (s := S2x256x2048) ![j.val, 0, 0] S1x256x2048.size (inb_vin j)) (fun _ => rfl)).squeeze S256x2048 squeezes_S1x256x2048_S256x2048
abbrev vibS (j : Fin 2) : Memref sig .tc .vmem S256x2048 .f32 :=
  (vibM.slice (Rect.unit (s := S2x256x2048) ![j.val, 0, 0] S1x256x2048.size (inb_vin j)) (fun _ => rfl)).squeeze S256x2048 squeezes_S1x256x2048_S256x2048

/-- Slot `k` of the landing buffer. -/
abbrev ldS (k : Fin 32) : Memref sig .tc .vmem S256x1024 .bf16 :=
  (ldM.slice (Rect.unit (s := S32x256x1024) ![k.val, 0, 0] S1x256x1024.size (inb_ld k)) (fun _ => rfl)).squeeze S256x1024 squeezes_S1x256x1024_S256x1024

/-- The printed column offsets of a bf16 slot's two halves: the device's own columns, and its x-peer's. -/
def offMine (c : Dev nD) : Fin 3 → (Fin 3 → ℕ) := ![k0_off4 c, k0_off7 c, k0_off10 c]
def offPeer (c : Dev nD) : Fin 3 → (Fin 3 → ℕ) := ![k0_off6 c, k0_off8 c, k0_off11 c]
theorem offMine_inb (c : Dev nD) (s : Fin 3) : ∀ a, offMine c s a + S1x256x1024.size a ≤ S3x256x2048.size a := by
  fin_cases s
  · exact k0_off4_inb c
  · exact k0_off7_inb c
  · exact k0_off10_inb c
theorem offPeer_inb (c : Dev nD) (s : Fin 3) : ∀ a, offPeer c s a + S1x256x1024.size a ≤ S3x256x2048.size a := by
  fin_cases s
  · exact k0_off6_inb c
  · exact k0_off8_inb c
  · exact k0_off11_inb c

/-- The half of slot `s` of a bf16 buffer a local copy reads (the device's own columns), and the half of `vcast_a`'s
    the copy along x reads. -/
abbrev vcaMine (c : Dev nD) (s : Fin 3) : Memref sig .tc .vmem S256x1024 .bf16 :=
  (vcaM.slice (Rect.unit (s := S3x256x2048) (offMine c s) S1x256x1024.size (offMine_inb c s)) (fun _ => rfl)).squeeze S256x1024 squeezes_S1x256x1024_S256x1024
abbrev vcbMine (c : Dev nD) (s : Fin 3) : Memref sig .tc .vmem S256x1024 .bf16 :=
  (vcbM.slice (Rect.unit (s := S3x256x2048) (offMine c s) S1x256x1024.size (offMine_inb c s)) (fun _ => rfl)).squeeze S256x1024 squeezes_S1x256x1024_S256x1024
abbrev vcaPeer (c : Dev nD) (s : Fin 3) : Memref sig .tc .vmem S256x1024 .bf16 :=
  (vcaM.slice (Rect.unit (s := S3x256x2048) (offPeer c s) S1x256x1024.size (offPeer_inb c s)) (fun _ => rfl)).squeeze S256x1024 squeezes_S1x256x1024_S256x1024

/-- The four families of 256-row blocks of the result: written by the local copy of `vcast_a` (`oA`), of `vcast_b`
    (`oB`), by the copy out of the landing buffer and, on the y-peer, by its relay (`oR`: both through one printed offset). -/
abbrev oA (c : Dev nD) (k : Fin 32) : Memref sig .tc .hbm S256x1024 .bf16 :=
  oM.slice (Rect.unit (s := S32768x1024) (k0_off3 c (BitVec.ofNat 32 (256 * k.val))) S256x1024.size (k0_off3_inb c k)) (fun _ => rfl)
abbrev oB (c : Dev nD) (k : Fin 32) : Memref sig .tc .hbm S256x1024 .bf16 :=
  oM.slice (Rect.unit (s := S32768x1024) (k0_off5 c (BitVec.ofNat 32 (256 * k.val))) S256x1024.size (k0_off5_inb c k)) (fun _ => rfl)
abbrev oR (c : Dev nD) (k : Fin 32) : Memref sig .tc .hbm S256x1024 .bf16 :=
  oM.slice (Rect.unit (s := S32768x1024) (k0_off9 c (BitVec.ofNat 32 (256 * k.val))) S256x1024.size (k0_off9_inb c k)) (fun _ => rfl)

/-! ## The semaphores -/

abbrev barS : Sem sig := (SemArray.scalar (sig.barrier 0 rfl) : Sems sig S_).sem

theorem inb_s2 (j : Fin 2) : ∀ a, (![j.val] : Fin 1 → ℕ) a + S1.size a ≤ S2.size a := by revert j; decide
theorem inb_s3 (s : Fin 3) : ∀ a, (![s.val] : Fin 1 → ℕ) a + S1.size a ≤ S3.size a := by revert s; decide
theorem inb_s32 (k : Fin 32) : ∀ a, (![k.val] : Fin 1 → ℕ) a + S1.size a ≤ S32.size a := by revert k; decide

abbrev sem2 (A : DmaSems sig S2) (j : Fin 2) : DmaSem sig := ((A.slice (Rect.unit (s := S2) ![j.val] S1.size (inb_s2 j))).squeeze S_ squeezes_S1_S_).sem
abbrev sem3 (A : DmaSems sig S3) (s : Fin 3) : DmaSem sig := ((A.slice (Rect.unit (s := S3) ![s.val] S1.size (inb_s3 s))).squeeze S_ squeezes_S1_S_).sem
abbrev sem32 (A : DmaSems sig S32) (k : Fin 32) : DmaSem sig := ((A.slice (Rect.unit (s := S32) ![k.val] S1.size (inb_s32 k))).squeeze S_ squeezes_S1_S_).sem

abbrev inaS (j : Fin 2) : DmaSem sig := sem2 cc0_scratch5 j
abbrev inbS (j : Fin 2) : DmaSem sig := sem2 cc0_scratch6 j
abbrev lcaS (s : Fin 3) : DmaSem sig := sem3 cc0_scratch7 s
abbrev lcbS (s : Fin 3) : DmaSem sig := sem3 cc0_scratch8 s
abbrev loS (k : Fin 32) : DmaSem sig := sem32 cc0_scratch9 k
abbrev dsS (k : Fin 32) : DmaSem sig := sem32 cc0_scratch10 k
abbrev drS (k : Fin 32) : DmaSem sig := sem32 cc0_scratch11 k
abbrev fsS (k : Fin 32) : DmaSem sig := sem32 cc0_scratch12 k
abbrev frS (k : Fin 32) : DmaSem sig := sem32 cc0_scratch13 k

theorem inaS_val (j : Fin 2) : (inaS j).val = j.val := by revert j; decide
theorem inbS_val (j : Fin 2) : (inbS j).val = 2 + j.val := by revert j; decide
theorem lcaS_val (s : Fin 3) : (lcaS s).val = 4 + s.val := by revert s; decide
theorem lcbS_val (s : Fin 3) : (lcbS s).val = 7 + s.val := by revert s; decide
theorem loS_val (k : Fin 32) : (loS k).val = 10 + k.val := by revert k; decide
theorem dsS_val (k : Fin 32) : (dsS k).val = 42 + k.val := by revert k; decide
theorem drS_val (k : Fin 32) : (drS k).val = 74 + k.val := by revert k; decide
theorem fsS_val (k : Fin 32) : (fsS k).val = 106 + k.val := by revert k; decide
theorem frS_val (k : Fin 32) : (frS k).val = 138 + k.val := by revert k; decide

/-- What a copy of a 256 x 2048 f32 block, and of a 256 x 1024 bf16 block, credits its semaphore. -/
def Nin : ℕ := (viaS 0).view.dmaCredit
def Nout : ℕ := (ldS 0).view.dmaCredit
theorem Nin_pos : 0 < Nin := by unfold Nin; exact View.dmaCredit_pos _ (by decide +kernel)
theorem Nout_pos : 0 < Nout := by unfold Nout; exact View.dmaCredit_pos _ (by decide +kernel)

end Cert.KernelA2A
end
-- ==== Proof.B2AContents.lean ====
/-
  What each piece of each buffer holds once a copy or a store of the kernel has written it, as the terms the copy and
  store rules themselves produce: a write, through the destination's view, of the source's read.
-/
import proofs.«900012_g7700000000000013_dist_a2a_v7x_xy2x2_x_m16384_n1024_bf16_1_alg».proof.Proof.B2AViews

noncomputable section

namespace Cert.KernelA2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The elements of memref `M` on device `c` at share `q`, at contents `f` of the buffer it views. -/
abbrev piece (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦[M.view.set]{q} f

variable (m : (ℓ : Loc nD τ sig) → Buf (Elt F) ℓ)

/-! ## The contents of each piece, as the copies and the stores write them -/

/-- The chunk a round of a staging cell, and of a local-copy cell, carries. -/
def chunk2 (j : Fin 2) (r : ℕ) (h : r < 16) : Fin 32 := ⟨2 * r + j.val, by have := j.isLt; omega⟩
def chunk3 (s : Fin 3) (r : ℕ) (h : r < (if s.val = 2 then 10 else 11)) : Fin 32 := ⟨3 * r + s.val, by have := s.isLt; split at h <;> omega⟩
def slot2 (k : Fin 32) : Fin 2 := ⟨k.val % 2, Nat.mod_lt _ (by decide)⟩
def slot3 (k : Fin 32) : Fin 3 := ⟨k.val % 3, Nat.mod_lt _ (by decide)⟩

abbrev Xc (c : Dev nD) : Buf (Elt F) ((c : Thread nD τ).loc main_arg0) := m ((c : Thread nD τ).loc main_arg0)

theorem inb_vinL (j : Fin 2) : ∀ a, (![j.val, 0, 0] : Fin 3 → ℕ) a + S1x256x2048.size a ≤ S2x256x2048.size a := inb_vin j
abbrev rVin (j : Fin 2) : Rect S2x256x2048 := Rect.unit (s := S2x256x2048) ![j.val, 0, 0] S1x256x2048.size (inb_vin j)
abbrev rVc (s : Fin 3) : Rect S3x256x2048 := Rect.unit (s := S3x256x2048) ![s.val, 0, 0] S1x256x2048.size (inb_vc s)

/-- The f32 chunk `k` in its staging slot. -/
def vinA (c : Dev nD) (k : Fin 32) : Buf (Elt F) ((c : Thread nD τ).loc cc0_scratch0) :=
  (viaS (slot2 k)).view.write (Elt F) (m ((c : Thread nD τ).loc cc0_scratch0)) ((xA c k).view.read (Elt F) (Xc m c)) Finset.univ
def vinB (c : Dev nD) (k : Fin 32) : Buf (Elt F) ((c : Thread nD τ).loc cc0_scratch1) :=
  (vibS (slot2 k)).view.write (Elt F) (m ((c : Thread nD τ).loc cc0_scratch1)) ((xB c k).view.read (Elt F) (Xc m c)) Finset.univ

/-- The cast of a loaded slot, as every iteration's payload computes it. -/
def castSlot (v : Vec F S1x256x2048 .f32) : FVec F S1x256x2048 .bf16 :=
  shapeCast S1x256x2048 (truncf .bf16 (shapeCast S256x2048 v shapeCasts_S1x256x2048_S256x2048) bitsLt_bf16_f32) shapeCasts_S256x2048_S1x256x2048

/-- The bf16 chunk `k` in its slot of `vcast_a` / `vcast_b`. -/
def vcA (c : Dev nD) (k : Fin 32) : Buf (Elt F) ((c : Thread nD τ).loc cc0_scratch2) :=
  ((vcaM.access (rVc (slot3 k)) : View sig .tc _ _ _)).write (Elt F) (m ((c : Thread nD τ).loc cc0_scratch2))
    (castSlot (viaM.view.readAt (Elt F) (rVin (slot2 k)).toLoadRect (vinA m c k))) Finset.univ
def vcB (c : Dev nD) (k : Fin 32) : Buf (Elt F) ((c : Thread nD τ).loc cc0_scratch3) :=
  ((vcbM.access (rVc (slot3 k)) : View sig .tc _ _ _)).write (Elt F) (m ((c : Thread nD τ).loc cc0_scratch3))
    (castSlot (vibM.view.readAt (Elt F) (rVin (slot2 k)).toLoadRect (vinB m c k))) Finset.univ

/-- Chunk `k` of the x-peer's half, landed in slot `k` of the landing buffer. -/
def landed (c : Dev nD) (k : Fin 32) : Buf (Elt F) ((c : Thread nD τ).loc cc0_scratch4) :=
  (ldS k).view.write (Elt F) (m ((c : Thread nD τ).loc cc0_scratch4)) ((vcaPeer (px c) (slot3 k)).view.read (Elt F) (vcA m (px c) k)) Finset.univ

/-- The four families of blocks of the result, written. -/
def outA (c : Dev nD) (k : Fin 32) : Buf (Elt F) ((c : Thread nD τ).loc main_v1) :=
  (oA c k).view.write (Elt F) (m ((c : Thread nD τ).loc main_v1)) ((vcaMine c (slot3 k)).view.read (Elt F) (vcA m c k)) Finset.univ
def outB (c : Dev nD) (k : Fin 32) : Buf (Elt F) ((c : Thread nD τ).loc main_v1) :=
  (oB c k).view.write (Elt F) (m ((c : Thread nD τ).loc main_v1)) ((vcbMine c (slot3 k)).view.read (Elt F) (vcB m c k)) Finset.univ
def outL (c : Dev nD) (k : Fin 32) : Buf (Elt F) ((c : Thread nD τ).loc main_v1) :=
  (oR c k).view.write (Elt F) (m ((c : Thread nD τ).loc main_v1)) ((ldS k).view.read (Elt F) (landed m c k)) Finset.univ
def outF (c : Dev nD) (k : Fin 32) : Buf (Elt F) ((c : Thread nD τ).loc main_v1) :=
  (oR (py c) k).view.write (Elt F) (m ((c : Thread nD τ).loc main_v1)) ((ldS k).view.read (Elt F) (landed m (py c) k)) Finset.univ

end Cert.KernelA2A
end
-- ==== Proof.B2ASched.lean ====
/-
  The protocol of the all-to-all as a rounds schedule. Every semaphore of the kernel is a cell. A copy pays one duty of
  one round of its cell(s), and what a landing hands the waiter is the destination at the copied contents (and, on the
  issuer's cell, the source back). The barrier handshake hands each peer the buffer pieces it will write into.
-/
import proofs.«900012_g7700000000000013_dist_a2a_v7x_xy2x2_x_m16384_n1024_bf16_1_alg».proof.Proof.B2AContents

noncomputable section

namespace Cert.KernelA2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The families of cells -/

inductive Fam : Type
  | ina (j : Fin 2) | inb (j : Fin 2) | lca (s : Fin 3) | lcb (s : Fin 3)
  | lo (k : Fin 32) | ds (k : Fin 32) | dr (k : Fin 32) | fs (k : Fin 32) | fr (k : Fin 32) | bar
  deriving DecidableEq

def Fam.sem : Fam → SemLoc sig
  | .ina j => .dma (inaS j) | .inb j => .dma (inbS j) | .lca s => .dma (lcaS s) | .lcb s => .dma (lcbS s)
  | .lo k => .dma (loS k) | .ds k => .dma (dsS k) | .dr k => .dma (drS k) | .fs k => .dma (fsS k) | .fr k => .dma (frS k)
  | .bar => .reg barS

abbrev cell (c : Dev nD) (f : Fam) : GSem nD τ sig := ((c : Thread nD τ), f.sem)

/-- Which family a semaphore belongs to (the DMA semaphores are numbered consecutively, family after family). -/
def decode : SemLoc sig → Option Fam
  | .reg s => if s = barS then some .bar else none
  | .dma q =>
    if h : q.val < 2 then some (.ina ⟨q.val, h⟩)
    else if h : q.val < 4 then some (.inb ⟨q.val - 2, by omega⟩)
    else if h : q.val < 7 then some (.lca ⟨q.val - 4, by omega⟩)
    else if h : q.val < 10 then some (.lcb ⟨q.val - 7, by omega⟩)
    else if h : q.val < 42 then some (.lo ⟨q.val - 10, by omega⟩)
    else if h : q.val < 74 then some (.ds ⟨q.val - 42, by omega⟩)
    else if h : q.val < 106 then some (.dr ⟨q.val - 74, by omega⟩)
    else if h : q.val < 138 then some (.fs ⟨q.val - 106, by omega⟩)
    else if h : q.val < 170 then some (.fr ⟨q.val - 138, by omega⟩)
    else none

theorem decode_sem (f : Fam) : decode f.sem = some f := by
  cases f with
  | ina j => revert j; decide +kernel
  | inb j => revert j; decide +kernel
  | lca s => revert s; decide +kernel
  | lcb s => revert s; decide +kernel
  | lo k => revert k; decide +kernel
  | ds k => revert k; decide +kernel
  | dr k => revert k; decide +kernel
  | fs k => revert k; decide +kernel
  | fr k => revert k; decide +kernel
  | bar => decide +kernel

/-- How many rounds a cell has: a staging semaphore is used by every second chunk, a local-copy semaphore by every third. -/
def Fam.rounds : Fam → ℕ
  | .ina _ => 16 | .inb _ => 16
  | .lca s => if s.val = 2 then 10 else 11 | .lcb s => if s.val = 2 then 10 else 11
  | _ => 1

variable (m : (ℓ : Loc nD τ sig) → Buf (Elt F) ℓ)

/-! ## The pieces as assertions -/

/-! ## The payloads -/

def payIna (c : Dev nD) (j : Fin 2) (r : ℕ) : sProp 𝕄 :=
  if h : r < 16 then iprop(piece c (viaS j) fullShare (vinA m c (chunk2 j r h)) ∗ piece c (xA c (chunk2 j r h)) fullShare (Xc m c)) else iprop(emp)
def payInb (c : Dev nD) (j : Fin 2) (r : ℕ) : sProp 𝕄 :=
  if h : r < 16 then iprop(piece c (vibS j) fullShare (vinB m c (chunk2 j r h)) ∗ piece c (xB c (chunk2 j r h)) fullShare (Xc m c)) else iprop(emp)
def payLca (c : Dev nD) (s : Fin 3) (r : ℕ) : sProp 𝕄 :=
  if h : r < (if s.val = 2 then 10 else 11) then
    iprop(piece c (oA c (chunk3 s r h)) fullShare (outA m c (chunk3 s r h)) ∗ piece c (vcaMine c s) fullShare (vcA m c (chunk3 s r h))) else iprop(emp)
def payLcb (c : Dev nD) (s : Fin 3) (r : ℕ) : sProp 𝕄 :=
  if h : r < (if s.val = 2 then 10 else 11) then
    iprop(piece c (oB c (chunk3 s r h)) fullShare (outB m c (chunk3 s r h)) ∗ piece c (vcbMine c s) fullShare (vcB m c (chunk3 s r h))) else iprop(emp)
/-- The copy out of the landing slot reads it at the left half of the share, the relay at the right half. -/
def payLo (c : Dev nD) (k : Fin 32) : sProp 𝕄 :=
  iprop(piece c (oR c k) fullShare (outL m c k) ∗ piece c (ldS k) fullShare.left (landed m c k))
def payDs (c : Dev nD) (k : Fin 32) : sProp 𝕄 := piece c (vcaPeer c (slot3 k)) fullShare (vcA m c k)
def payDr (c : Dev nD) (k : Fin 32) : sProp 𝕄 := piece c (ldS k) fullShare (landed m c k)
def payFs (c : Dev nD) (k : Fin 32) : sProp 𝕄 := piece c (ldS k) fullShare.right (landed m c k)
def payFr (c : Dev nD) (k : Fin 32) : sProp 𝕄 := piece c (oR (py c) k) fullShare (outF m c k)
/-- The handshake: the x-peer's signal (duty `false`) hands over its whole landing buffer, the y-peer's (duty `true`) the
    32 blocks of its result this device's relays write. -/
def payBar (c : Dev nD) (d : Bool) : sProp 𝕄 :=
  if d then bigSep Finset.univ fun k : Fin 32 => iprop(∃ f, piece (py c) (oR c k) fullShare f)
  else iprop(∃ f, piece (px c) ldM fullShare f)

def payOf (c : Dev nD) (r : ℕ) (d : Bool) : Fam → sProp 𝕄
  | .ina j => payIna m c j r | .inb j => payInb m c j r | .lca s => payLca m c s r | .lcb s => payLcb m c s r
  | .lo k => payLo m c k | .ds k => payDs m c k | .dr k => payDr m c k | .fs k => payFs m c k | .fr k => payFr m c k
  | .bar => payBar c d

def amountOfFam : Fam → ℕ
  | .ina _ => Nin | .inb _ => Nin | .bar => 1 | _ => Nout

theorem amountOfFam_pos (f : Fam) : 0 < amountOfFam f := by
  cases f with
  | ina _ => exact Nin_pos
  | inb _ => exact Nin_pos
  | lca _ => exact Nout_pos
  | lcb _ => exact Nout_pos
  | lo _ => exact Nout_pos
  | ds _ => exact Nout_pos
  | dr _ => exact Nout_pos
  | fs _ => exact Nout_pos
  | fr _ => exact Nout_pos
  | bar => exact Nat.one_pos

/-- The schedule: a cell of family `f` on a TensorCore has `f.rounds` rounds, each of the one duty `false` — the barrier cell
    of both duties —; its units are the copied block's credit (one unit for a barrier signal). -/
def Rd : Rounds.Schedule (GSem nD τ sig) Bool 𝕄 where
  duties g r := if g.1.2 = .tc then (match decode g.2 with
    | some f => if r < f.rounds then (if f = .bar then Finset.univ else {false}) else ∅
    | none => ∅) else ∅
  unitless _ := False
  amount g _ _ := match decode g.2 with | some f => amountOfFam f | none => 1
  payload g r d := match decode g.2 with | some f => payOf m g.1.1 r d f | none => iprop(emp)
  amount_pos g _ _ _ := by
    cases h : decode g.2 with
    | none => exact Nat.one_pos
    | some f => exact amountOfFam_pos f

/-! ## The schedule's tables -/

section Tables
variable (c : Dev nD) (f : Fam)

theorem duties_of {r : ℕ} (h : r < f.rounds) (hb : f ≠ .bar) : (Rd (F := F) m).duties (cell c f) r = {false} := by
  dsimp only [Rd]; rw [if_pos rfl, decode_sem]; dsimp only; rw [if_pos h, if_neg hb]
theorem duties_bar : (Rd (F := F) m).duties (cell c .bar) 0 = Finset.univ := by
  dsimp only [Rd]; rw [if_pos rfl, decode_sem]; dsimp only; rw [if_pos (by decide), if_pos rfl]
theorem duties_later {r : ℕ} (h : f.rounds ≤ r) : (Rd (F := F) m).duties (cell c f) r = ∅ := by
  dsimp only [Rd]; rw [if_pos rfl, decode_sem]; dsimp only; rw [if_neg (by omega)]
theorem amount_of (r : ℕ) (d : Bool) : (Rd (F := F) m).amount (cell c f) r d = amountOfFam f := by
  dsimp only [Rd]; rw [decode_sem]
theorem payload_of (r : ℕ) (d : Bool) : (Rd (F := F) m).payload (cell c f) r d = payOf m c r d f := by
  dsimp only [Rd]; rw [decode_sem]
theorem expect_of {r : ℕ} (h : r < f.rounds) (hb : f ≠ .bar) : (Rd (F := F) m).expect (cell c f) r = amountOfFam f := by
  unfold Schedule.expect Schedule.amountOf; rw [duties_of m c f h hb, Finset.sum_singleton, amount_of]
theorem expect_bar : (Rd (F := F) m).expect (cell c .bar) 0 = 2 := by
  unfold Schedule.expect Schedule.amountOf
  rw [duties_bar, Finset.sum_congr rfl fun d _ => amount_of m c .bar 0 d, Finset.sum_const, Finset.card_univ, Fintype.card_bool, smul_eq_mul]; rfl
theorem rest_of {r : ℕ} (h : r < f.rounds) (hb : f ≠ .bar) :
    bigSep ((Rd (F := F) m).duties (cell c f) r \ ∅) (fun d => (Rd (F := F) m).payload (cell c f) r d) = payOf m c r false f := by
  rw [Finset.sdiff_empty, duties_of m c f h hb, bigSep_singleton, payload_of]
theorem rest_bar : bigSep ((Rd (F := F) m).duties (cell c .bar) 0 \ ∅) (fun d => (Rd (F := F) m).payload (cell c .bar) 0 d)
    = iprop(payBar (F := F) c false ∗ payBar c true) := by
  rw [Finset.sdiff_empty, duties_bar, bigSep_univ_eq_bigSepL [false, true] (by decide) (by decide), bigSepL_cons_cons, bigSepL_singleton,
    payload_of, payload_of]
  rfl

end Tables

end Cert.KernelA2A
end
-- ==== Proof.B2AGhost.lean ====
/-
  The ghost state of the protocol: the levels that order the waits, what a device still owes its peers, what each
  device's body starts from (per chunk: the tokens of the duties it pays, its positions on the chunk's own cells, the
  credit its peers owe it) and what it ends with (every buffer whole again, every own counter at zero).
-/
import proofs.«900012_g7700000000000013_dist_a2a_v7x_xy2x2_x_m16384_n1024_bf16_1_alg».proof.Proof.B2ASched

noncomputable section

namespace Cert.KernelA2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Levels: own copies lowest, then the handshake, then the landings chunk by chunk (a landing along x below the relay of the same chunk) -/

def L (g : GSem nD τ sig) : Finset Unit := if g.1.2 = .tc then {()} else ∅
def lvF : Fam → ℕ
  | .bar => 1 | .dr k => 2 + 2 * k.val | .fr k => 3 + 2 * k.val | _ => 0
def lv (g : GSem nD τ sig) (_ : Unit) : ℕ := match decode g.2 with | some f => lvF f | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (f : Fam) (u : Unit) : lv (cell c f) u = lvF f := by unfold lv; rw [decode_sem]

/-! ## What a device owes: the landings of its copies along x from chunk `n` on, of its relays from chunk `n` on, and its two handshake signals -/

def oweD (c : Dev nD) (n : ℕ) : CellTallies nD τ sig Unit :=
  ∑ k ∈ Finset.univ.filter (fun k : Fin 32 => n ≤ k.val), tallyAt (cell (px c) (.dr k)) () Nout
def oweF (c : Dev nD) (n : ℕ) : CellTallies nD τ sig Unit :=
  ∑ k ∈ Finset.univ.filter (fun k : Fin 32 => n ≤ k.val), tallyAt (cell (py c) (.fr k)) () Nout
/-- At launch: everything, summed so that the first signal (to `px c`) peels the last summand and the second (to `py c`) the next. -/
def O₀ (c : Dev nD) : CellTallies nD τ sig Unit :=
  oweD c 0 + oweF c 0 + tallyAt (cell (py c) .bar) () 1 + tallyAt (cell (px c) .bar) () 1

/-! ## The invariants' names and the rounds reached at launch, for every cell of every device -/

/-- One assertion per cell of a device, family by family. -/
def overFam (Φ : Fam → sProp 𝕄) : sProp 𝕄 :=
  iprop((bigSep Finset.univ fun j : Fin 2 => Φ (.ina j)) ∗ (bigSep Finset.univ fun j : Fin 2 => Φ (.inb j))
    ∗ (bigSep Finset.univ fun s : Fin 3 => Φ (.lca s)) ∗ (bigSep Finset.univ fun s : Fin 3 => Φ (.lcb s))
    ∗ (bigSep Finset.univ fun k : Fin 32 => Φ (.lo k)) ∗ (bigSep Finset.univ fun k : Fin 32 => Φ (.ds k))
    ∗ (bigSep Finset.univ fun k : Fin 32 => Φ (.dr k)) ∗ (bigSep Finset.univ fun k : Fin 32 => Φ (.fs k))
    ∗ (bigSep Finset.univ fun k : Fin 32 => Φ (.fr k)) ∗ Φ .bar)

theorem overFam_elim (Φ : Fam → sProp 𝕄) (f : Fam) : overFam Φ ⊢ Φ f := by
  unfold overFam
  cases f with
  | ina j =>
    have h : (bigSep Finset.univ (fun j : Fin 2 => Φ (.ina j)) : sProp 𝕄) ⊢ Φ (.ina j) := bigSep_elim (Finset.mem_univ j)
    iintro ⟨H1, H2, H3, H4, H5, H6, H7, H8, H9, H10⟩
    iapply h
    iexact H1
  | inb j =>
    have h : (bigSep Finset.univ (fun j : Fin 2 => Φ (.inb j)) : sProp 𝕄) ⊢ Φ (.inb j) := bigSep_elim (Finset.mem_univ j)
    iintro ⟨H1, H2, H3, H4, H5, H6, H7, H8, H9, H10⟩
    iapply h
    iexact H2
  | lca s =>
    have h : (bigSep Finset.univ (fun s : Fin 3 => Φ (.lca s)) : sProp 𝕄) ⊢ Φ (.lca s) := bigSep_elim (Finset.mem_univ s)
    iintro ⟨H1, H2, H3, H4, H5, H6, H7, H8, H9, H10⟩
    iapply h
    iexact H3
  | lcb s =>
    have h : (bigSep Finset.univ (fun s : Fin 3 => Φ (.lcb s)) : sProp 𝕄) ⊢ Φ (.lcb s) := bigSep_elim (Finset.mem_univ s)
    iintro ⟨H1, H2, H3, H4, H5, H6, H7, H8, H9, H10⟩
    iapply h
    iexact H4
  | lo k =>
    have h : (bigSep Finset.univ (fun k : Fin 32 => Φ (.lo k)) : sProp 𝕄) ⊢ Φ (.lo k) := bigSep_elim (Finset.mem_univ k)
    iintro ⟨H1, H2, H3, H4, H5, H6, H7, H8, H9, H10⟩
    iapply h
    iexact H5
  | ds k =>
    have h : (bigSep Finset.univ (fun k : Fin 32 => Φ (.ds k)) : sProp 𝕄) ⊢ Φ (.ds k) := bigSep_elim (Finset.mem_univ k)
    iintro ⟨H1, H2, H3, H4, H5, H6, H7, H8, H9, H10⟩
    iapply h
    iexact H6
  | dr k =>
    have h : (bigSep Finset.univ (fun k : Fin 32 => Φ (.dr k)) : sProp 𝕄) ⊢ Φ (.dr k) := bigSep_elim (Finset.mem_univ k)
    iintro ⟨H1, H2, H3, H4, H5, H6, H7, H8, H9, H10⟩
    iapply h
    iexact H7
  | fs k =>
    have h : (bigSep Finset.univ (fun k : Fin 32 => Φ (.fs k)) : sProp 𝕄) ⊢ Φ (.fs k) := bigSep_elim (Finset.mem_univ k)
    iintro ⟨H1, H2, H3, H4, H5, H6, H7, H8, H9, H10⟩
    iapply h
    iexact H8
  | fr k =>
    have h : (bigSep Finset.univ (fun k : Fin 32 => Φ (.fr k)) : sProp 𝕄) ⊢ Φ (.fr k) := bigSep_elim (Finset.mem_univ k)
    iintro ⟨H1, H2, H3, H4, H5, H6, H7, H8, H9, H10⟩
    iapply h
    iexact H9
  | bar =>
    iintro ⟨H1, H2, H3, H4, H5, H6, H7, H8, H9, H10⟩
    iexact H10

def records (K : Dev nD × Fam → ℕ) : sProp 𝕄 :=
  bigSep Finset.univ fun c : Dev nD => overFam fun f => iprop(cellInv ER (Rd m) (K (c, f)) (cell c f) ∗ reached ER (cell c f) 0)

instance records_persistent (K : Dev nD × Fam → ℕ) : BI.Persistent (records m K) := by unfold records overFam; infer_instance

theorem inv_at (K : Dev nD × Fam → ℕ) (c : Dev nD) (f : Fam) : records m K ⊢ cellInv ER (Rd m) (K (c, f)) (cell c f) := by
  unfold records
  refine (bigSep_elim (Finset.mem_univ c)).trans ((overFam_elim _ f).trans ?_)
  iintro ⟨H, -⟩; iexact H
theorem reached0_at (K : Dev nD × Fam → ℕ) (c : Dev nD) (f : Fam) : records m K ⊢ reached ER (cell c f) 0 := by
  unfold records
  refine (bigSep_elim (Finset.mem_univ c)).trans ((overFam_elim _ f).trans ?_)
  iintro ⟨-, H⟩; iexact H

/-! ## What a device's body starts from -/

/-- Chunk `k`'s share of the ghost state: the tokens of the nine duties the device pays for it (four on its multi-round
    cells at the chunk's round, three on the chunk's own local and send cells, the two landings on its peers), its
    positions on the chunk's five one-round cells, and the credit its two peers owe it for the chunk. -/
def chunkRes (c : Dev nD) (k : Fin 32) : sProp 𝕄 :=
  iprop(dutyTok ER (cell c (.ina (slot2 k))) (k.val / 2) false ∗ dutyTok ER (cell c (.inb (slot2 k))) (k.val / 2) false
    ∗ dutyTok ER (cell c (.lca (slot3 k))) (k.val / 3) false ∗ dutyTok ER (cell c (.lcb (slot3 k))) (k.val / 3) false
    ∗ dutyTok ER (cell c (.lo k)) 0 false ∗ dutyTok ER (cell c (.ds k)) 0 false ∗ dutyTok ER (cell c (.fs k)) 0 false
    ∗ dutyTok ER (cell (px c) (.dr k)) 0 false ∗ dutyTok ER (cell (py c) (.fr k)) 0 false
    ∗ atPos ER (cell c (.lo k)) 0 ∅ 0 ∗ atPos ER (cell c (.ds k)) 0 ∅ 0 ∗ atPos ER (cell c (.dr k)) 0 ∅ 0
    ∗ atPos ER (cell c (.fs k)) 0 ∅ 0 ∗ atPos ER (cell c (.fr k)) 0 ∅ 0
    ∗ cred (tallyAt (cell c (.dr k)) () Nout) ∗ cred (tallyAt (cell c (.fr k)) () Nout))

def ghost (K : Dev nD × Fam → ℕ) (c : Dev nD) : sProp 𝕄 :=
  iprop(records m K ∗ bigSep Finset.univ (chunkRes (F := F) c)
    ∗ (bigSep Finset.univ fun j : Fin 2 => iprop(atPos ER (cell c (.ina j)) 0 ∅ 0 ∗ atPos ER (cell c (.inb j)) 0 ∅ 0))
    ∗ (bigSep Finset.univ fun s : Fin 3 => iprop(atPos ER (cell c (.lca s)) 0 ∅ 0 ∗ atPos ER (cell c (.lcb s)) 0 ∅ 0))
    ∗ atPos ER (cell c .bar) 0 ∅ 0 ∗ cred (tallyAt (cell c .bar) () 2)
    ∗ dutyTok ER (cell (px c) .bar) 0 false ∗ dutyTok ER (cell (py c) .bar) 0 true
    ∗ levAts L lv)

/-- A whole buffer of the device at some contents. -/
abbrev someBuf (c : Dev nD) (b : Ref sig .tc) : sProp 𝕄 := iprop(∃ f : Buf (Elt F) ((c : Thread nD τ).loc b), ((c : Thread nD τ).loc b) ↦{fullShare} f)

/-- Before the body: the ghost state, the five scratch buffers at whatever they hold, `x` and the result as launched. -/
def Φ₀ (c : Dev nD) : sProp 𝕄 :=
  iprop((∃ K, ghost m K c)
    ∗ someBuf c cc0_scratch0 ∗ someBuf c cc0_scratch1 ∗ someBuf c cc0_scratch2 ∗ someBuf c cc0_scratch3 ∗ someBuf c cc0_scratch4
    ∗ (((c : Thread nD τ).loc main_arg0) ↦{fullShare} Xc m c) ∗ (((c : Thread nD τ).loc main_v1) ↦{fullShare} m ((c : Thread nD τ).loc main_v1)))

/-- What the result holds after the body: on each of its 128 blocks, what the block's copy wrote. -/
def OutOk (c : Dev nD) (g : Buf (Elt F) ((c : Thread nD τ).loc main_v1)) : Prop :=
  (∀ k : Fin 32, ∀ i ∈ (oA c k).view.set, g i = outA m c k i) ∧ (∀ k : Fin 32, ∀ i ∈ (oB c k).view.set, g i = outB m c k i)
  ∧ (∀ k : Fin 32, ∀ i ∈ (oR c k).view.set, g i = outL m c k i) ∧ (∀ k : Fin 32, ∀ i ∈ (oR (py c) k).view.set, g i = outF m c k i)

/-- After the body: the scratch buffers whole at something, `x` as launched, the result at the written blocks, and every
    one of the device's own (scoped) counters at zero. -/
def Φ₁ (c : Dev nD) : sProp 𝕄 :=
  iprop(someBuf c cc0_scratch0 ∗ someBuf c cc0_scratch1 ∗ someBuf c cc0_scratch2 ∗ someBuf c cc0_scratch3 ∗ someBuf c cc0_scratch4
    ∗ (((c : Thread nD τ).loc main_arg0) ↦{fullShare} Xc m c)
    ∗ (∃ g, ⌜OutOk m c g⌝ ∗ (((c : Thread nD τ).loc main_v1) ↦{fullShare} g))
    ∗ bigSep Finset.univ fun q : DmaSem sig => semVal ((c : Thread nD τ), .dma q) 0)

end Cert.KernelA2A
end
-- ==== Proof.B2AOps.lean ====
/-
  The operations of the all-to-all's body, one lemma per kind: each takes the pieces, tokens and positions the operation
  needs and gives back what it leaves, over the rounds schedule of the kernel's cells.
-/
import proofs.«900012_g7700000000000013_dist_a2a_v7x_xy2x2_x_m16384_n1024_bf16_1_alg».proof.Proof.B2AGhost

noncomputable section

namespace Cert.KernelA2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! # The body's operations, one lemma per kind -/

variable (K : Dev nD × Fam → ℕ)

/-! ## Which chunk a round of a multi-round cell carries -/

theorem chunk2_at (k : Fin 32) (h : k.val / 2 < 16) : chunk2 (slot2 k) (k.val / 2) h = k := Fin.ext (by show 2 * (k.val / 2) + k.val % 2 = k.val; omega)
theorem chunk3_at (k : Fin 32) (h : k.val / 3 < (if (slot3 k).val = 2 then 10 else 11)) : chunk3 (slot3 k) (k.val / 3) h = k :=
  Fin.ext (by show 3 * (k.val / 3) + k.val % 3 = k.val; omega)
theorem round2_lt (k : Fin 32) : k.val / 2 < 16 := by have := k.isLt; omega
theorem round3_lt (k : Fin 32) : k.val / 3 < (if (slot3 k).val = 2 then 10 else 11) := by
  have := k.isLt; show k.val / 3 < (if k.val % 3 = 2 then 10 else 11); split <;> omega

/-- What is written under a view does not depend on what it is written over. -/
theorem piece_write_over (c : Dev nD) {sp : Space} {S : Shape} {e : EltTy} (M : Memref sig .tc sp S e)
    (q : PosShare TreeShare) (f g : Buf (Elt F) (M.view.loc (c : Thread nD τ))) (w : S.Idx → Elt F e) :
    piece c M q (M.view.write (Elt F) f w Finset.univ) = piece c M q (M.view.write (Elt F) g w Finset.univ) :=
  pointsTo_congr fun i hi => by
    obtain ⟨y, -, rfl⟩ := Finset.mem_map.mp hi
    rw [View.write_emb_of_mem _ _ (Finset.mem_univ y), View.write_emb_of_mem _ _ (Finset.mem_univ y)]

/-! ## The payloads at a chunk -/

theorem payIna_at (c : Dev nD) (k : Fin 32) :
    payIna m c (slot2 k) (k.val / 2) = iprop(piece c (viaS (slot2 k)) fullShare (vinA m c k) ∗ piece c (xA c k) fullShare (Xc m c)) := by
  unfold payIna; rw [dif_pos (round2_lt k), chunk2_at]
theorem payInb_at (c : Dev nD) (k : Fin 32) :
    payInb m c (slot2 k) (k.val / 2) = iprop(piece c (vibS (slot2 k)) fullShare (vinB m c k) ∗ piece c (xB c k) fullShare (Xc m c)) := by
  unfold payInb; rw [dif_pos (round2_lt k), chunk2_at]
theorem payLca_at (c : Dev nD) (k : Fin 32) :
    payLca m c (slot3 k) (k.val / 3) = iprop(piece c (oA c k) fullShare (outA m c k) ∗ piece c (vcaMine c (slot3 k)) fullShare (vcA m c k)) := by
  unfold payLca; rw [dif_pos (round3_lt k), chunk3_at]
theorem payLcb_at (c : Dev nD) (k : Fin 32) :
    payLcb m c (slot3 k) (k.val / 3) = iprop(piece c (oB c k) fullShare (outB m c k) ∗ piece c (vcbMine c (slot3 k)) fullShare (vcB m c k)) := by
  unfold payLcb; rw [dif_pos (round3_lt k), chunk3_at]

/-! ## A local copy on a cell of the device, and the wait for a round of a DMA cell -/

/-- A local copy paying the one duty of round `r` of cell `f` of the device. -/
theorem wp_copy_cell (c : Dev nD) (f : Fam) (hb : f ≠ .bar) (r : ℕ) (hr : r < f.rounds) {sp sp' : Space} {s : Shape} {e : EltTy}
    {src : Memref sig .tc sp s e} {dst : Memref sig .tc sp' s e}
    {hsrc : src.view.WordExact} {hdst : dst.view.WordExact} {hsem : DmaTarget.Typed (nD := nD) sp f.sem (DmaTarget.here (p := .tc) dst)}
    {α : Type} {Q : α → sProp 𝕄} {kk : PUnit → Prog (TpuEff nD τ sig (Elt F) Λ₀ .tc) α}
    (q : PosShare TreeShare) (fs : Buf (Elt F) (src.view.loc (c : Thread nD τ))) (fd : Buf (Elt F) (dst.view.loc (c : Thread nD τ)))
    (hN : dst.view.amount f.sem = amountOfFam f)
    (hpay : iprop(piece c dst fullShare (dst.view.write (Elt F) fd (src.view.read (Elt F) fs) Finset.univ) ∗ piece c src q fs) ⊢ payOf m c r false f) :
    iprop(cellInv ER (Rd m) (K (c, f)) (cell c f) ∗ reached ER (cell c f) r ∗ piece c src q fs ∗ piece c dst fullShare fd
        ∗ dutyTok ER (cell c f) r false)
      ⊢ iprop((cred (tallyAt (cell c f) () (amountOfFam f)) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.here dst) f.sem hsrc hdst hsem) kk) Q) := by
  have hd : false ∈ (Rd m).duties (cell c f) r := by rw [duties_of m c f hr hb]; exact Finset.mem_singleton_self _
  iintro ⟨#Hg, #Hr, Hs, Hd, Htok⟩ Hk
  iapply (Rounds.wp_copy_pointsTo 𝒱₀ ER (Rd m) (c : Thread nD τ) none (κ := K (c, f)) (r := r) (d := false) (q := q) (fs := fs) (fd := fd)
    hd () (amountOfFam f) hN (amount_of m c f r false) (by rw [payload_of]; exact hpay)) $$ [Hs Hd Htok]
  · isplitr; · iexact Hg
    isplitl [Hs]; · iexact Hs
    isplitl [Hd]; · iexact Hd
    isplitl [Htok]; · iexact Htok
    iexact Hr
  iexact Hk

/-- The wait for the rest of round `r` of a DMA cell `f` of the device, holding the round's credit. -/
theorem wp_wait_cell (c : Dev nD) (f : Fam) (hb : f ≠ .bar) (r : ℕ) (hr : r < f.rounds) (sem : DmaSem sig) (hf : f.sem = .dma sem)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = amountOfFam f) (O : CellTallies nD τ sig Unit) (W : Waits sig Unit) :
    iprop(cellInv ER (Rd m) (K (c, f)) (cell c f) ∗ cred (tallyAt (cell c f) () (amountOfFam f)) ∗ owes (c : Thread nD τ) O W
        ∗ MayWait (c : Thread nD τ) f.sem () O ∗ atPos ER (cell c f) r ∅ 0)
      ⊢ iprop(((owes (c : Thread nD τ) O (insert (f.sem, ()) W) ∗ atPos ER (cell c f) (r + 1) ∅ 0 ∗ reached ER (cell c f) (r + 1)
              ∗ payOf m c r false f) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  rw [← rest_of m c f hr hb]
  exact Rounds.wp_wait_rest_token 𝒱₀ ER (Rd m) (c : Thread nD τ) none (κ := K (c, f)) (sm := f.sem) (k' := amountOfFam f)
    (fun K' => by rw [hf, ← hN]; exact wpE_waitDma2_eq 𝒱₀ (c : Thread nD τ) none Set.univ K') (Set.mem_univ _) () (O := O) (W := W) (R := r) (m := 0) (T := ∅)
    (by rw [Nat.zero_add, expect_of m c f hr hb])

/-! ## Staging a chunk of `x` -/

/-- The copy of chunk `k`'s rows of the relayed half of `x` into its staging slot. -/
theorem wp_stage_a (c : Dev nD) (k : Fin 32)
    {hsrc : (xA c k).view.WordExact} {hdst : (viaS (slot2 k)).view.WordExact} {hsem : DmaTarget.Typed (nD := nD) .hbm (.dma (inaS (slot2 k))) (DmaTarget.here (p := .tc) (viaS (slot2 k)))}
    {α : Type} {Q : α → sProp 𝕄} {kk : PUnit → Prog (TpuEff nD τ sig (Elt F) Λ₀ .tc) α}
    (fd : Buf (Elt F) ((viaS (slot2 k)).view.loc (c : Thread nD τ))) :
    iprop(cellInv ER (Rd m) (K (c, .ina (slot2 k))) (cell c (.ina (slot2 k))) ∗ reached ER (cell c (.ina (slot2 k))) (k.val / 2)
        ∗ piece c (xA c k) fullShare (Xc m c) ∗ piece c (viaS (slot2 k)) fullShare fd ∗ dutyTok ER (cell c (.ina (slot2 k))) (k.val / 2) false)
      ⊢ iprop((cred (tallyAt (cell c (.ina (slot2 k))) () Nin) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (xA c k) (.here (viaS (slot2 k))) (.dma (inaS (slot2 k))) hsrc hdst hsem) kk) Q) := by
  refine wp_copy_cell m K c (.ina (slot2 k)) (by intro h; cases h) (k.val / 2) (round2_lt k) _ _ fd rfl ?_
  show _ ⊢ payIna m c (slot2 k) (k.val / 2)
  rw [payIna_at, piece_write_over c (viaS (slot2 k)) fullShare fd (m _)]
  exact .rfl

/-- The copy of chunk `k`'s rows of the other half. -/
theorem wp_stage_b (c : Dev nD) (k : Fin 32)
    {hsrc : (xB c k).view.WordExact} {hdst : (vibS (slot2 k)).view.WordExact} {hsem : DmaTarget.Typed (nD := nD) .hbm (.dma (inbS (slot2 k))) (DmaTarget.here (p := .tc) (vibS (slot2 k)))}
    {α : Type} {Q : α → sProp 𝕄} {kk : PUnit → Prog (TpuEff nD τ sig (Elt F) Λ₀ .tc) α}
    (fd : Buf (Elt F) ((vibS (slot2 k)).view.loc (c : Thread nD τ))) :
    iprop(cellInv ER (Rd m) (K (c, .inb (slot2 k))) (cell c (.inb (slot2 k))) ∗ reached ER (cell c (.inb (slot2 k))) (k.val / 2)
        ∗ piece c (xB c k) fullShare (Xc m c) ∗ piece c (vibS (slot2 k)) fullShare fd ∗ dutyTok ER (cell c (.inb (slot2 k))) (k.val / 2) false)
      ⊢ iprop((cred (tallyAt (cell c (.inb (slot2 k))) () Nin) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (xB c k) (.here (vibS (slot2 k))) (.dma (inbS (slot2 k))) hsrc hdst hsem) kk) Q) := by
  refine wp_copy_cell m K c (.inb (slot2 k)) (by intro h; cases h) (k.val / 2) (round2_lt k) _ _ fd rfl ?_
  show _ ⊢ payInb m c (slot2 k) (k.val / 2)
  rw [payInb_at, piece_write_over c (vibS (slot2 k)) fullShare fd (m _)]
  exact .rfl

/-! ## The local copies into the result -/

/-- The device's own columns of chunk `k` of `vcast_a`, copied into the result. -/
theorem wp_lca (c : Dev nD) (k : Fin 32)
    {hsrc : (vcaMine c (slot3 k)).view.WordExact} {hdst : (oA c k).view.WordExact} {hsem : DmaTarget.Typed (nD := nD) .vmem (.dma (lcaS (slot3 k))) (DmaTarget.here (p := .tc) (oA c k))}
    {α : Type} {Q : α → sProp 𝕄} {kk : PUnit → Prog (TpuEff nD τ sig (Elt F) Λ₀ .tc) α}
    (fd : Buf (Elt F) ((oA c k).view.loc (c : Thread nD τ))) :
    iprop(cellInv ER (Rd m) (K (c, .lca (slot3 k))) (cell c (.lca (slot3 k))) ∗ reached ER (cell c (.lca (slot3 k))) (k.val / 3)
        ∗ piece c (vcaMine c (slot3 k)) fullShare (vcA m c k) ∗ piece c (oA c k) fullShare fd ∗ dutyTok ER (cell c (.lca (slot3 k))) (k.val / 3) false)
      ⊢ iprop((cred (tallyAt (cell c (.lca (slot3 k))) () Nout) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (vcaMine c (slot3 k)) (.here (oA c k)) (.dma (lcaS (slot3 k))) hsrc hdst hsem) kk) Q) := by
  refine wp_copy_cell m K c (.lca (slot3 k)) (by intro h; cases h) (k.val / 3) (round3_lt k) _ _ fd rfl ?_
  show _ ⊢ payLca m c (slot3 k) (k.val / 3)
  rw [payLca_at, piece_write_over c (oA c k) fullShare fd (m _)]
  exact .rfl

/-- The same of `vcast_b`. -/
theorem wp_lcb (c : Dev nD) (k : Fin 32)
    {hsrc : (vcbMine c (slot3 k)).view.WordExact} {hdst : (oB c k).view.WordExact} {hsem : DmaTarget.Typed (nD := nD) .vmem (.dma (lcbS (slot3 k))) (DmaTarget.here (p := .tc) (oB c k))}
    {α : Type} {Q : α → sProp 𝕄} {kk : PUnit → Prog (TpuEff nD τ sig (Elt F) Λ₀ .tc) α}
    (fd : Buf (Elt F) ((oB c k).view.loc (c : Thread nD τ))) :
    iprop(cellInv ER (Rd m) (K (c, .lcb (slot3 k))) (cell c (.lcb (slot3 k))) ∗ reached ER (cell c (.lcb (slot3 k))) (k.val / 3)
        ∗ piece c (vcbMine c (slot3 k)) fullShare (vcB m c k) ∗ piece c (oB c k) fullShare fd ∗ dutyTok ER (cell c (.lcb (slot3 k))) (k.val / 3) false)
      ⊢ iprop((cred (tallyAt (cell c (.lcb (slot3 k))) () Nout) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (vcbMine c (slot3 k)) (.here (oB c k)) (.dma (lcbS (slot3 k))) hsrc hdst hsem) kk) Q) := by
  refine wp_copy_cell m K c (.lcb (slot3 k)) (by intro h; cases h) (k.val / 3) (round3_lt k) _ _ fd rfl ?_
  show _ ⊢ payLcb m c (slot3 k) (k.val / 3)
  rw [payLcb_at, piece_write_over c (oB c k) fullShare fd (m _)]
  exact .rfl

/-- The landed chunk `k`, copied into the result; the landing slot is read at the left half of its share. -/
theorem wp_lo (c : Dev nD) (k : Fin 32)
    {hsrc : (ldS k).view.WordExact} {hdst : (oR c k).view.WordExact} {hsem : DmaTarget.Typed (nD := nD) .vmem (.dma (loS k)) (DmaTarget.here (p := .tc) (oR c k))}
    {α : Type} {Q : α → sProp 𝕄} {kk : PUnit → Prog (TpuEff nD τ sig (Elt F) Λ₀ .tc) α}
    (fd : Buf (Elt F) ((oR c k).view.loc (c : Thread nD τ))) :
    iprop(cellInv ER (Rd m) (K (c, .lo k)) (cell c (.lo k)) ∗ reached ER (cell c (.lo k)) (0)
        ∗ piece c (ldS k) fullShare.left (landed m c k) ∗ piece c (oR c k) fullShare fd ∗ dutyTok ER (cell c (.lo k)) (0) false)
      ⊢ iprop((cred (tallyAt (cell c (.lo k)) () Nout) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ldS k) (.here (oR c k)) (.dma (loS k)) hsrc hdst hsem) kk) Q) := by
  refine wp_copy_cell m K c (.lo k) (by intro h; cases h) 0 Nat.one_pos _ _ fd rfl ?_
  show _ ⊢ payLo m c k
  unfold payLo outL
  rw [piece_write_over c (oR c k) fullShare fd (m _)]

/-! ## The waits on the device's own cells -/

/-- The wait for chunk `k`'s staging copy: the staged slot and the rows of `x` come back. -/
theorem wp_wait_ina (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nin) (O : CellTallies nD τ sig Unit) (W : Waits sig Unit) :
    iprop(cellInv ER (Rd m) (K (c, .ina (slot2 k))) (cell c (.ina (slot2 k))) ∗ cred (tallyAt (cell c (.ina (slot2 k))) () Nin) ∗ owes (c : Thread nD τ) O W
        ∗ MayWait (c : Thread nD τ) (.dma (inaS (slot2 k))) () O ∗ atPos ER (cell c (.ina (slot2 k))) (k.val / 2) ∅ 0)
      ⊢ iprop(((owes (c : Thread nD τ) O (insert (SemLoc.dma (inaS (slot2 k)), ()) W) ∗ atPos ER (cell c (.ina (slot2 k))) (k.val / 2 + 1) ∅ 0
              ∗ reached ER (cell c (.ina (slot2 k))) (k.val / 2 + 1) ∗ piece c (viaS (slot2 k)) fullShare (vinA m c k) ∗ piece c (xA c k) fullShare (Xc m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (inaS (slot2 k)) src dst hsrc hdst) kk) Q) := by
  have h := wp_wait_cell m K c (.ina (slot2 k)) (by intro h; cases h) (k.val / 2) (round2_lt k) (inaS (slot2 k)) rfl (src := src) (dst := dst) (hsrc := hsrc) (hdst := hdst) (kk := kk) (Q := Q) hN O W
  rw [show payOf m c (k.val / 2) false (.ina (slot2 k)) = _ from payIna_at m c k] at h
  exact h

/-- The same for the other half. -/
theorem wp_wait_inb (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nin) (O : CellTallies nD τ sig Unit) (W : Waits sig Unit) :
    iprop(cellInv ER (Rd m) (K (c, .inb (slot2 k))) (cell c (.inb (slot2 k))) ∗ cred (tallyAt (cell c (.inb (slot2 k))) () Nin) ∗ owes (c : Thread nD τ) O W
        ∗ MayWait (c : Thread nD τ) (.dma (inbS (slot2 k))) () O ∗ atPos ER (cell c (.inb (slot2 k))) (k.val / 2) ∅ 0)
      ⊢ iprop(((owes (c : Thread nD τ) O (insert (SemLoc.dma (inbS (slot2 k)), ()) W) ∗ atPos ER (cell c (.inb (slot2 k))) (k.val / 2 + 1) ∅ 0
              ∗ reached ER (cell c (.inb (slot2 k))) (k.val / 2 + 1) ∗ piece c (vibS (slot2 k)) fullShare (vinB m c k) ∗ piece c (xB c k) fullShare (Xc m c)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (inbS (slot2 k)) src dst hsrc hdst) kk) Q) := by
  have h := wp_wait_cell m K c (.inb (slot2 k)) (by intro h; cases h) (k.val / 2) (round2_lt k) (inbS (slot2 k)) rfl (src := src) (dst := dst) (hsrc := hsrc) (hdst := hdst) (kk := kk) (Q := Q) hN O W
  rw [show payOf m c (k.val / 2) false (.inb (slot2 k)) = _ from payInb_at m c k] at h
  exact h

/-- The wait for chunk `k`'s local copy of `vcast_a`: the written block of the result and the half slot come back. -/
theorem wp_wait_lca (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .lca (slot3 k))) (cell c (.lca (slot3 k))) ∗ cred (tallyAt (cell c (.lca (slot3 k))) () Nout) ∗ owes (c : Thread nD τ) O W
        ∗ MayWait (c : Thread nD τ) (.dma (lcaS (slot3 k))) () O ∗ atPos ER (cell c (.lca (slot3 k))) (k.val / 3) ∅ 0)
      ⊢ iprop(((owes (c : Thread nD τ) O (insert (SemLoc.dma (lcaS (slot3 k)), ()) W) ∗ atPos ER (cell c (.lca (slot3 k))) (k.val / 3 + 1) ∅ 0
              ∗ reached ER (cell c (.lca (slot3 k))) (k.val / 3 + 1) ∗ piece c (oA c k) fullShare (outA m c k) ∗ piece c (vcaMine c (slot3 k)) fullShare (vcA m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (lcaS (slot3 k)) src dst hsrc hdst) kk) Q) := by
  have h := wp_wait_cell m K c (.lca (slot3 k)) (by intro h; cases h) (k.val / 3) (round3_lt k) (lcaS (slot3 k)) rfl (src := src) (dst := dst) (hsrc := hsrc) (hdst := hdst) (kk := kk) (Q := Q) hN O W
  rw [show payOf m c (k.val / 3) false (.lca (slot3 k)) = _ from payLca_at m c k] at h
  exact h

/-- The same of `vcast_b`. -/
theorem wp_wait_lcb (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .lcb (slot3 k))) (cell c (.lcb (slot3 k))) ∗ cred (tallyAt (cell c (.lcb (slot3 k))) () Nout) ∗ owes (c : Thread nD τ) O W
        ∗ MayWait (c : Thread nD τ) (.dma (lcbS (slot3 k))) () O ∗ atPos ER (cell c (.lcb (slot3 k))) (k.val / 3) ∅ 0)
      ⊢ iprop(((owes (c : Thread nD τ) O (insert (SemLoc.dma (lcbS (slot3 k)), ()) W) ∗ atPos ER (cell c (.lcb (slot3 k))) (k.val / 3 + 1) ∅ 0
              ∗ reached ER (cell c (.lcb (slot3 k))) (k.val / 3 + 1) ∗ piece c (oB c k) fullShare (outB m c k) ∗ piece c (vcbMine c (slot3 k)) fullShare (vcB m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (lcbS (slot3 k)) src dst hsrc hdst) kk) Q) := by
  have h := wp_wait_cell m K c (.lcb (slot3 k)) (by intro h; cases h) (k.val / 3) (round3_lt k) (lcbS (slot3 k)) rfl (src := src) (dst := dst) (hsrc := hsrc) (hdst := hdst) (kk := kk) (Q := Q) hN O W
  rw [show payOf m c (k.val / 3) false (.lcb (slot3 k)) = _ from payLcb_at m c k] at h
  exact h

/-- The wait for the copy out of landing slot `k`. -/
theorem wp_wait_lo (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .lo k)) (cell c (.lo k)) ∗ cred (tallyAt (cell c (.lo k)) () Nout) ∗ owes (c : Thread nD τ) O W
        ∗ MayWait (c : Thread nD τ) (.dma (loS k)) () O ∗ atPos ER (cell c (.lo k)) (0) ∅ 0)
      ⊢ iprop(((owes (c : Thread nD τ) O (insert (SemLoc.dma (loS k), ()) W) ∗ atPos ER (cell c (.lo k)) (0 + 1) ∅ 0
              ∗ reached ER (cell c (.lo k)) (0 + 1) ∗ piece c (oR c k) fullShare (outL m c k) ∗ piece c (ldS k) fullShare.left (landed m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (loS k) src dst hsrc hdst) kk) Q) := by
  have h := wp_wait_cell m K c (.lo k) (by intro h; cases h) (0) Nat.one_pos (loS k) rfl (src := src) (dst := dst) (hsrc := hsrc) (hdst := hdst) (kk := kk) (Q := Q) hN O W
  exact h

/-- The wait for the send of chunk `k` along x to have left: the sent half slot comes back. -/
theorem wp_wait_ds (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .ds k)) (cell c (.ds k)) ∗ cred (tallyAt (cell c (.ds k)) () Nout) ∗ owes (c : Thread nD τ) O W
        ∗ MayWait (c : Thread nD τ) (.dma (dsS k)) () O ∗ atPos ER (cell c (.ds k)) (0) ∅ 0)
      ⊢ iprop(((owes (c : Thread nD τ) O (insert (SemLoc.dma (dsS k), ()) W) ∗ atPos ER (cell c (.ds k)) (0 + 1) ∅ 0
              ∗ reached ER (cell c (.ds k)) (0 + 1) ∗ piece c (vcaPeer c (slot3 k)) fullShare (vcA m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (dsS k) src dst hsrc hdst) kk) Q) := by
  have h := wp_wait_cell m K c (.ds k) (by intro h; cases h) (0) Nat.one_pos (dsS k) rfl (src := src) (dst := dst) (hsrc := hsrc) (hdst := hdst) (kk := kk) (Q := Q) hN O W
  exact h

/-- The wait for the x-peer's chunk `k` to have landed: landing slot `k` at what landed. -/
theorem wp_wait_dr (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .dr k)) (cell c (.dr k)) ∗ cred (tallyAt (cell c (.dr k)) () Nout) ∗ owes (c : Thread nD τ) O W
        ∗ MayWait (c : Thread nD τ) (.dma (drS k)) () O ∗ atPos ER (cell c (.dr k)) (0) ∅ 0)
      ⊢ iprop(((owes (c : Thread nD τ) O (insert (SemLoc.dma (drS k), ()) W) ∗ atPos ER (cell c (.dr k)) (0 + 1) ∅ 0
              ∗ reached ER (cell c (.dr k)) (0 + 1) ∗ piece c (ldS k) fullShare (landed m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (drS k) src dst hsrc hdst) kk) Q) := by
  have h := wp_wait_cell m K c (.dr k) (by intro h; cases h) (0) Nat.one_pos (drS k) rfl (src := src) (dst := dst) (hsrc := hsrc) (hdst := hdst) (kk := kk) (Q := Q) hN O W
  exact h

/-- The wait for the relay of chunk `k` to have left: the right half of the landing slot's share comes back. -/
theorem wp_wait_fs (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .fs k)) (cell c (.fs k)) ∗ cred (tallyAt (cell c (.fs k)) () Nout) ∗ owes (c : Thread nD τ) O W
        ∗ MayWait (c : Thread nD τ) (.dma (fsS k)) () O ∗ atPos ER (cell c (.fs k)) (0) ∅ 0)
      ⊢ iprop(((owes (c : Thread nD τ) O (insert (SemLoc.dma (fsS k), ()) W) ∗ atPos ER (cell c (.fs k)) (0 + 1) ∅ 0
              ∗ reached ER (cell c (.fs k)) (0 + 1) ∗ piece c (ldS k) fullShare.right (landed m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (fsS k) src dst hsrc hdst) kk) Q) := by
  have h := wp_wait_cell m K c (.fs k) (by intro h; cases h) (0) Nat.one_pos (fsS k) rfl (src := src) (dst := dst) (hsrc := hsrc) (hdst := hdst) (kk := kk) (Q := Q) hN O W
  exact h

/-- The wait for the y-peer's relay of chunk `k` to have landed: the block of the result at what it wrote. -/
theorem wp_wait_fr (c : Dev nD) (k : Fin 32)
    {sp sp' : Space} {s s' : Shape} {e e' : EltTy} {src : Memref sig .tc sp' s' e'} {dst : Memref sig .tc sp s e}
    {hsrc : src.view.WordExact} {hdst : dst.view.WordExact}
    {α : Type} {Q : α → sProp 𝕄} {kk : PUnit → Prog (TpuEff nD τ sig (Elt F) Λ₀ .tc) α}
    (hN : dst.view.dmaCredit = Nout) (O : CellTallies nD τ sig Unit) (W : Waits sig Unit) :
    iprop(cellInv ER (Rd m) (K (c, .fr k)) (cell c (.fr k)) ∗ cred (tallyAt (cell c (.fr k)) () Nout) ∗ owes (c : Thread nD τ) O W
        ∗ MayWait (c : Thread nD τ) (.dma (frS k)) () O ∗ atPos ER (cell c (.fr k)) (0) ∅ 0)
      ⊢ iprop(((owes (c : Thread nD τ) O (insert (SemLoc.dma (frS k), ()) W) ∗ atPos ER (cell c (.fr k)) (0 + 1) ∅ 0
              ∗ reached ER (cell c (.fr k)) (0 + 1) ∗ piece c (oR (py c) k) fullShare (outF m c k)) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (frS k) src dst hsrc hdst) kk) Q) := by
  have h := wp_wait_cell m K c (.fr k) (by intro h; cases h) (0) Nat.one_pos (frS k) rfl (src := src) (dst := dst) (hsrc := hsrc) (hdst := hdst) (kk := kk) (Q := Q) hN O W
  exact h

/-! ## The copies addressed to the peers -/

/-- The x-peer's columns of chunk `k` of `vcast_a`, sent into the x-peer's landing slot `k`. -/
theorem wp_send_d (c n : Dev nD) (hn : n = px c) (k : Fin 32)
    {hsc : (ldS k : Memref sig (Dev.tc n : Thread nD τ).2.kind .vmem S256x1024 .bf16).view.ref.isScScratch = false}
    {hsrc : (vcaPeer c (slot3 k)).view.WordExact} {hdst : (ldS k).view.WordExact}
    {hsem : DmaTarget.Typed .vmem (.dma (drS k)) (.remote (Dev.tc n : Thread nD τ) (ldS k) (.dma (dsS k)) hsc)}
    {α : Type} {Q : α → sProp 𝕄} {kk : PUnit → Prog (TpuEff nD τ sig (Elt F) Λ₀ .tc) α}
    (fd : Buf (Elt F) ((ldS k).view.loc (px c : Thread nD τ))) (O : CellTallies nD τ sig Unit) (W : Waits sig Unit) :
    iprop(cellInv ER (Rd m) (K (c, .ds k)) (cell c (.ds k)) ∗ cellInv ER (Rd m) (K (px c, .dr k)) (cell (px c) (.dr k))
        ∗ reached ER (cell c (.ds k)) 0 ∗ reached ER (cell (px c) (.dr k)) 0
        ∗ piece c (vcaPeer c (slot3 k)) fullShare (vcA m c k) ∗ piece (px c) (ldS k) fullShare fd
        ∗ owes (c : Thread nD τ) (O + tallyAt (cell (px c) (.dr k)) () Nout) W
        ∗ dutyTok ER (cell c (.ds k)) 0 false ∗ dutyTok ER (cell (px c) (.dr k)) 0 false)
      ⊢ iprop(((cred (tallyAt (cell c (.ds k)) () Nout) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (vcaPeer c (slot3 k)) (.remote (Dev.tc n : Thread nD τ) (ldS k) (.dma (dsS k)) hsc) (.dma (drS k)) hsrc hdst hsem) kk) Q) := by
  subst hn
  have h1 : false ∈ (Rd m).duties (cell c (.ds k)) 0 := by rw [duties_of m c (.ds k) Nat.one_pos (by intro h; cases h)]; exact Finset.mem_singleton_self _
  have h2 : false ∈ (Rd m).duties (cell (px c) (.dr k)) 0 := by rw [duties_of m (px c) (.dr k) Nat.one_pos (by intro h; cases h)]; exact Finset.mem_singleton_self _
  iintro ⟨#Hg1, #Hg2, #Hr1, #Hr2, Hs, Hd, HO, Ht1, Ht2⟩ Hk
  iapply (Rounds.wp_send_pointsTo 𝒱₀ ER (Rd m) (c : Thread nD τ) none (κ₁ := K (c, .ds k)) (κ₂ := K (px c, .dr k))
    (r₁ := 0) (r₂ := 0) (d₁ := false) (d₂ := false) (fd := fd) (q := fullShare) (fs := vcA m c k)
    h1 h2 () () Nout rfl (amount_of m c (.ds k) 0 false) (amount_of m (px c) (.dr k) 0 false) O rfl (W := W)
    (by rw [payload_of]; exact .rfl)
    (by rw [payload_of]; show _ ⊢ payDr m (px c) k; unfold payDr landed; rw [px_px, piece_write_over (px c) (ldS k) fullShare (m _) fd])) $$ [Hs Hd HO Ht1 Ht2]
  · isplitr; · iexact Hg1
    isplitr; · iexact Hg2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- The relay of the landed chunk `k` into the y-peer's result; the landing slot is read at the right half of its share. -/
theorem wp_send_f (c n : Dev nD) (hn : n = py c) (k : Fin 32)
    {hsc : (oR c k : Memref sig (Dev.tc n : Thread nD τ).2.kind .hbm S256x1024 .bf16).view.ref.isScScratch = false}
    {hsrc : (ldS k).view.WordExact} {hdst : (oR c k).view.WordExact}
    {hsem : DmaTarget.Typed .vmem (.dma (frS k)) (.remote (Dev.tc n : Thread nD τ) (oR c k) (.dma (fsS k)) hsc)}
    {α : Type} {Q : α → sProp 𝕄} {kk : PUnit → Prog (TpuEff nD τ sig (Elt F) Λ₀ .tc) α}
    (fd : Buf (Elt F) ((oR c k).view.loc (py c : Thread nD τ))) (O : CellTallies nD τ sig Unit) (W : Waits sig Unit) :
    iprop(cellInv ER (Rd m) (K (c, .fs k)) (cell c (.fs k)) ∗ cellInv ER (Rd m) (K (py c, .fr k)) (cell (py c) (.fr k))
        ∗ reached ER (cell c (.fs k)) 0 ∗ reached ER (cell (py c) (.fr k)) 0
        ∗ piece c (ldS k) fullShare.right (landed m c k) ∗ piece (py c) (oR c k) fullShare fd
        ∗ owes (c : Thread nD τ) (O + tallyAt (cell (py c) (.fr k)) () Nout) W
        ∗ dutyTok ER (cell c (.fs k)) 0 false ∗ dutyTok ER (cell (py c) (.fr k)) 0 false)
      ⊢ iprop(((cred (tallyAt (cell c (.fs k)) () Nout) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (ldS k) (.remote (Dev.tc n : Thread nD τ) (oR c k) (.dma (fsS k)) hsc) (.dma (frS k)) hsrc hdst hsem) kk) Q) := by
  subst hn
  have h1 : false ∈ (Rd m).duties (cell c (.fs k)) 0 := by rw [duties_of m c (.fs k) Nat.one_pos (by intro h; cases h)]; exact Finset.mem_singleton_self _
  have h2 : false ∈ (Rd m).duties (cell (py c) (.fr k)) 0 := by rw [duties_of m (py c) (.fr k) Nat.one_pos (by intro h; cases h)]; exact Finset.mem_singleton_self _
  iintro ⟨#Hg1, #Hg2, #Hr1, #Hr2, Hs, Hd, HO, Ht1, Ht2⟩ Hk
  iapply (Rounds.wp_send_pointsTo 𝒱₀ ER (Rd m) (c : Thread nD τ) none (κ₁ := K (c, .fs k)) (κ₂ := K (py c, .fr k))
    (r₁ := 0) (r₂ := 0) (d₁ := false) (d₂ := false) (fd := fd) (q := fullShare.right) (fs := landed m c k)
    h1 h2 () () Nout rfl (amount_of m c (.fs k) 0 false) (amount_of m (py c) (.fr k) 0 false) O rfl (W := W)
    (by rw [payload_of]; exact .rfl)
    (by rw [payload_of]; show _ ⊢ payFr m (py c) k; unfold payFr outF; rw [py_py, piece_write_over (py c) (oR c k) fullShare (m _) fd])) $$ [Hs Hd HO Ht1 Ht2]
  · isplitr; · iexact Hg1
    isplitr; · iexact Hg2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-! ## The handshake -/

theorem payload_bar_x (c : Dev nD) :
    (Rd (F := F) m).payload ((px c : Thread nD τ), SemLoc.reg barS) 0 false = iprop(∃ f, piece (F := F) c ldM fullShare f) := by
  rw [show ((px c : Thread nD τ), SemLoc.reg barS) = cell (px c) .bar from rfl, payload_of]
  show payBar (F := F) (px c) false = _
  unfold payBar; rw [if_neg (by decide), px_px]
theorem payload_bar_y (c : Dev nD) :
    (Rd (F := F) m).payload ((py c : Thread nD τ), SemLoc.reg barS) 0 true
      = (bigSep Finset.univ fun k : Fin 32 => iprop(∃ f, piece (F := F) c (oR (py c) k) fullShare f)) := by
  rw [show ((py c : Thread nD τ), SemLoc.reg barS) = cell (py c) .bar from rfl, payload_of]
  show payBar (F := F) (py c) true = _
  unfold payBar; rw [if_pos rfl, py_py]

/-- The signal to the x-peer: duty `false` of its barrier cell, handing over this device's whole landing buffer. -/
theorem wp_signal_x (c n : Dev nD) (hn : n = px c) (a : ℕ) (ha : a = 1)
    {α : Type} {Q : α → sProp 𝕄} {kk : PUnit → Prog (TpuEff nD τ sig (Elt F) Λ₀ .tc) α}
    (O : CellTallies nD τ sig Unit) (W : Waits sig Unit) :
    iprop(cellInv ER (Rd m) (K (px c, .bar)) (cell (px c) .bar) ∗ reached ER (cell (px c) .bar) 0
        ∗ owes (c : Thread nD τ) (O + tallyAt (cell (px c) .bar) () 1) W
        ∗ dutyTok ER (cell (px c) .bar) 0 false ∗ (∃ f, piece c ldM fullShare f))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS a) kk) Q) := by
  subst hn; subst ha
  iintro ⟨#Hg, #Hr, HO, Htok, Hpay⟩ Hk
  iapply (Rounds.wp_signal 𝒱₀ ER (Rd m) (c : Thread nD τ) none (dst := (px c : Thread nD τ)) (κ := K (px c, .bar)) (d := false)
      (by show false ∈ (Rd m).duties (cell (px c) .bar) 0; rw [duties_bar]; exact Finset.mem_univ _) (amount_of m (px c) .bar 0 false) () O rfl) $$ [HO Htok Hpay]
  · isplitr; · iexact Hg
    isplitl [HO]; · iexact HO
    isplitl [Htok]; · iexact Htok
    isplitl [Hpay]
    · rw [payload_bar_x]; iexact Hpay
    iexact Hr
  iexact Hk

/-- The signal to the y-peer: duty `true` of its barrier cell, handing over the 32 blocks of this device's result its relays write. -/
theorem wp_signal_y (c n : Dev nD) (hn : n = py c) (a : ℕ) (ha : a = 1)
    {α : Type} {Q : α → sProp 𝕄} {kk : PUnit → Prog (TpuEff nD τ sig (Elt F) Λ₀ .tc) α}
    (O : CellTallies nD τ sig Unit) (W : Waits sig Unit) :
    iprop(cellInv ER (Rd m) (K (py c, .bar)) (cell (py c) .bar) ∗ reached ER (cell (py c) .bar) 0
        ∗ owes (c : Thread nD τ) (O + tallyAt (cell (py c) .bar) () 1) W
        ∗ dutyTok ER (cell (py c) .bar) 0 true ∗ (bigSep Finset.univ fun k : Fin 32 => iprop(∃ f, piece c (oR (py c) k) fullShare f)))
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS a) kk) Q) := by
  subst hn; subst ha
  iintro ⟨#Hg, #Hr, HO, Htok, Hpay⟩ Hk
  iapply (Rounds.wp_signal 𝒱₀ ER (Rd m) (c : Thread nD τ) none (dst := (py c : Thread nD τ)) (κ := K (py c, .bar)) (d := true)
      (by show true ∈ (Rd m).duties (cell (py c) .bar) 0; rw [duties_bar]; exact Finset.mem_univ _) (amount_of m (py c) .bar 0 true) () O rfl) $$ [HO Htok Hpay]
  · isplitr; · iexact Hg
    isplitl [HO]; · iexact HO
    isplitl [Htok]; · iexact Htok
    isplitl [Hpay]
    · rw [payload_bar_y]; iexact Hpay
    iexact Hr
  iexact Hk

/-- The wait for both peers' signals: the x-peer's landing buffer and the 32 blocks of the y-peer's result come with them. -/
theorem wp_wait_bar (c : Dev nD) (a : ℕ) (ha : a = 2)
    {α : Type} {Q : α → sProp 𝕄} {kk : PUnit → Prog (TpuEff nD τ sig (Elt F) Λ₀ .tc) α}
    (O : CellTallies nD τ sig Unit) (W : Waits sig Unit) :
    iprop(cellInv ER (Rd m) (K (c, .bar)) (cell c .bar) ∗ cred (tallyAt (cell c .bar) () 2) ∗ owes (c : Thread nD τ) O W
        ∗ MayWait (c : Thread nD τ) (.reg barS) () O ∗ atPos ER (cell c .bar) 0 ∅ 0)
      ⊢ iprop(((owes (c : Thread nD τ) O (insert (SemLoc.reg barS, ()) W) ∗ atPos ER (cell c .bar) (0 + 1) ∅ 0 ∗ reached ER (cell c .bar) (0 + 1)
              ∗ (∃ f, piece (px c) ldM fullShare f) ∗ (bigSep Finset.univ fun k : Fin 32 => iprop(∃ f, piece (py c) (oR c k) fullShare f))) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS a) kk) Q) := by
  subst ha
  have e : bigSep ((Rd (F := F) m).duties (cell c .bar) 0 \ ∅) (fun d => (Rd (F := F) m).payload (cell c .bar) 0 d)
      = iprop((∃ f, piece (F := F) (px c) ldM fullShare f) ∗ (bigSep Finset.univ fun k : Fin 32 => iprop(∃ f, piece (F := F) (py c) (oR c k) fullShare f))) := by
    rw [rest_bar]; rfl
  rw [← e]
  exact Rounds.wp_wait_rest_token 𝒱₀ ER (Rd m) (c : Thread nD τ) none (κ := K (c, .bar)) (sm := .reg barS) (k' := 2)
    (wpE_semWait_eq 𝒱₀ (c : Thread nD τ) none Set.univ) (Set.mem_univ _) () (O := O) (W := W) (R := 0) (m := 0) (T := ∅)
    (by show 0 + 2 = (Rd m).expect (cell c .bar) 0; rw [expect_bar])

/-! ## Vector loads and stores of a slot -/

theorem viaS_set_eq (j : Fin 2) : viaM.view.setOn (rVin j).toLoadRect.set = (viaS j).view.set := by
  have h1 : (viaS j).view.set = (viaM.view.slice (rVin j)).set := View.set_reshape _ _
  have h2 : (viaM.view.slice (rVin j)).set = (rVin j).set.map viaM.view.emb := View.set_slice _ _
  exact (h1.trans h2).symm
theorem vibS_set_eq (j : Fin 2) : vibM.view.setOn (rVin j).toLoadRect.set = (vibS j).view.set := by
  have h1 : (vibS j).view.set = (vibM.view.slice (rVin j)).set := View.set_reshape _ _
  have h2 : (vibM.view.slice (rVin j)).set = (rVin j).set.map vibM.view.emb := View.set_slice _ _
  exact (h1.trans h2).symm

/-- The vector load of staging slot `j` of `vin_a`, from the slot's piece. -/
theorem wp_load_via (c : Dev nD) (j : Fin 2) {hl : viaM.view.LoadsAt (rVin j).toLoadRect}
    {α : Type} {Q : α → sProp 𝕄} {kk : ((rVin j).toLoadRect.shape.Idx → Elt F .f32) → Prog (TpuEff nD τ sig (Elt F) Λ₀ .tc) α}
    (q : PosShare TreeShare) (f : Buf (Elt F) ((viaS j).view.loc (c : Thread nD τ))) :
    piece c (viaS j) q f
      ⊢ iprop((piece c (viaS j) q f -∗ wp frame (wpE (defs₀ (F := F)) 𝒱₀ (c : Thread nD τ) none) Set.univ (kk (viaM.view.readAt (Elt F) (rVin j).toLoadRect f)) Q)
          -∗ wp frame (wpE (defs₀ (F := F)) 𝒱₀ (c : Thread nD τ) none) Set.univ (.op (.load viaM (rVin j).toLoadRect hl) kk) Q) := by
  exact wp_load 𝒱₀ (c : Thread nD τ) none Set.univ (m := viaM) (r := (rVin j).toLoadRect) (S := (viaS j).view.set) (q := q) (f := f) (by rw [viaS_set_eq j])
theorem wp_load_vib (c : Dev nD) (j : Fin 2) {hl : vibM.view.LoadsAt (rVin j).toLoadRect}
    {α : Type} {Q : α → sProp 𝕄} {kk : ((rVin j).toLoadRect.shape.Idx → Elt F .f32) → Prog (TpuEff nD τ sig (Elt F) Λ₀ .tc) α}
    (q : PosShare TreeShare) (f : Buf (Elt F) ((vibS j).view.loc (c : Thread nD τ))) :
    piece c (vibS j) q f
      ⊢ iprop((piece c (vibS j) q f -∗ wp frame (wpE (defs₀ (F := F)) 𝒱₀ (c : Thread nD τ) none) Set.univ (kk (vibM.view.readAt (Elt F) (rVin j).toLoadRect f)) Q)
          -∗ wp frame (wpE (defs₀ (F := F)) 𝒱₀ (c : Thread nD τ) none) Set.univ (.op (.load vibM (rVin j).toLoadRect hl) kk) Q) := by
  exact wp_load 𝒱₀ (c : Thread nD τ) none Set.univ (m := vibM) (r := (rVin j).toLoadRect) (S := (vibS j).view.set) (q := q) (f := f) (by rw [vibS_set_eq j])

/-- The vector load of slot `s` of `vcast_a` / `vcast_b`, the slot held through the store's rectangle. -/
theorem wp_load_vca (c : Dev nD) (s : Fin 3) {hl : vcaM.view.LoadsAt (rVc s).toLoadRect}
    {α : Type} {Q : α → sProp 𝕄} {kk : ((rVc s).toLoadRect.shape.Idx → Elt F .bf16) → Prog (TpuEff nD τ sig (Elt F) Λ₀ .tc) α}
    (q : PosShare TreeShare) (f : Buf (Elt F) ((vcaM.access (rVc s) : View sig .tc _ _ _).loc (c : Thread nD τ))) :
    ((vcaM.access (rVc s) : View sig .tc _ _ _).loc (c : Thread nD τ) ↦[(vcaM.access (rVc s) : View sig .tc _ _ _).set]{q} f : sProp 𝕄)
      ⊢ iprop((((vcaM.access (rVc s) : View sig .tc _ _ _).loc (c : Thread nD τ) ↦[(vcaM.access (rVc s) : View sig .tc _ _ _).set]{q} f)
            -∗ wp frame (wpE (defs₀ (F := F)) 𝒱₀ (c : Thread nD τ) none) Set.univ (kk (vcaM.view.readAt (Elt F) (rVc s).toLoadRect f)) Q)
          -∗ wp frame (wpE (defs₀ (F := F)) 𝒱₀ (c : Thread nD τ) none) Set.univ (.op (.load vcaM (rVc s).toLoadRect hl) kk) Q) := by
  exact wp_load_rect 𝒱₀ (c : Thread nD τ) none Set.univ (m := vcaM) (r := rVc s) (Finset.Subset.refl _)
theorem wp_load_vcb (c : Dev nD) (s : Fin 3) {hl : vcbM.view.LoadsAt (rVc s).toLoadRect}
    {α : Type} {Q : α → sProp 𝕄} {kk : ((rVc s).toLoadRect.shape.Idx → Elt F .bf16) → Prog (TpuEff nD τ sig (Elt F) Λ₀ .tc) α}
    (q : PosShare TreeShare) (f : Buf (Elt F) ((vcbM.access (rVc s) : View sig .tc _ _ _).loc (c : Thread nD τ))) :
    ((vcbM.access (rVc s) : View sig .tc _ _ _).loc (c : Thread nD τ) ↦[(vcbM.access (rVc s) : View sig .tc _ _ _).set]{q} f : sProp 𝕄)
      ⊢ iprop((((vcbM.access (rVc s) : View sig .tc _ _ _).loc (c : Thread nD τ) ↦[(vcbM.access (rVc s) : View sig .tc _ _ _).set]{q} f)
            -∗ wp frame (wpE (defs₀ (F := F)) 𝒱₀ (c : Thread nD τ) none) Set.univ (kk (vcbM.view.readAt (Elt F) (rVc s).toLoadRect f)) Q)
          -∗ wp frame (wpE (defs₀ (F := F)) 𝒱₀ (c : Thread nD τ) none) Set.univ (.op (.load vcbM (rVc s).toLoadRect hl) kk) Q) := by
  exact wp_load_rect 𝒱₀ (c : Thread nD τ) none Set.univ (m := vcbM) (r := rVc s) (Finset.Subset.refl _)

/-- The vector store of a payload into slot `s` of `vcast_a` / `vcast_b`. -/
theorem wp_store_vca (c : Dev nD) (s : Fin 3) (w : (rVc s).shape.Idx → Elt F .bf16)
    {hx : (vcaM.access (rVc s)).Stores Finset.univ} {hm : (Finset.univ : Finset (rVc s).shape.Idx) = Finset.univ ∨ ∀ a, (rVc s).stride a = 1}
    {α : Type} {Q : α → sProp 𝕄} {kk : PUnit → Prog (TpuEff nD τ sig (Elt F) Λ₀ .tc) α}
    (f : Buf (Elt F) ((vcaM.access (rVc s) : View sig .tc _ _ _).loc (c : Thread nD τ))) :
    ((vcaM.access (rVc s) : View sig .tc _ _ _).loc (c : Thread nD τ) ↦[(vcaM.access (rVc s) : View sig .tc _ _ _).set]{fullShare} f : sProp 𝕄)
      ⊢ iprop((((vcaM.access (rVc s) : View sig .tc _ _ _).loc (c : Thread nD τ) ↦[(vcaM.access (rVc s) : View sig .tc _ _ _).set]{fullShare}
              ((vcaM.access (rVc s) : View sig .tc _ _ _).write (Elt F) f w Finset.univ)) -∗ wp frame (wpE (defs₀ (F := F)) 𝒱₀ (c : Thread nD τ) none) Set.univ (kk ⟨⟩) Q)
          -∗ wp frame (wpE (defs₀ (F := F)) 𝒱₀ (c : Thread nD τ) none) Set.univ (.op (.store vcaM (rVc s) w Finset.univ hx hm) kk) Q) := by
  exact wp_store 𝒱₀ (c : Thread nD τ) none Set.univ (m := vcaM) (r := rVc s) (Mk := Finset.univ) (Finset.Subset.refl _)
theorem wp_store_vcb (c : Dev nD) (s : Fin 3) (w : (rVc s).shape.Idx → Elt F .bf16)
    {hx : (vcbM.access (rVc s)).Stores Finset.univ} {hm : (Finset.univ : Finset (rVc s).shape.Idx) = Finset.univ ∨ ∀ a, (rVc s).stride a = 1}
    {α : Type} {Q : α → sProp 𝕄} {kk : PUnit → Prog (TpuEff nD τ sig (Elt F) Λ₀ .tc) α}
    (f : Buf (Elt F) ((vcbM.access (rVc s) : View sig .tc _ _ _).loc (c : Thread nD τ))) :
    ((vcbM.access (rVc s) : View sig .tc _ _ _).loc (c : Thread nD τ) ↦[(vcbM.access (rVc s) : View sig .tc _ _ _).set]{fullShare} f : sProp 𝕄)
      ⊢ iprop((((vcbM.access (rVc s) : View sig .tc _ _ _).loc (c : Thread nD τ) ↦[(vcbM.access (rVc s) : View sig .tc _ _ _).set]{fullShare}
              ((vcbM.access (rVc s) : View sig .tc _ _ _).write (Elt F) f w Finset.univ)) -∗ wp frame (wpE (defs₀ (F := F)) 𝒱₀ (c : Thread nD τ) none) Set.univ (kk ⟨⟩) Q)
          -∗ wp frame (wpE (defs₀ (F := F)) 𝒱₀ (c : Thread nD τ) none) Set.univ (.op (.store vcbM (rVc s) w Finset.univ hx hm) kk) Q) := by
  exact wp_store 𝒱₀ (c : Thread nD τ) none Set.univ (m := vcbM) (r := rVc s) (Mk := Finset.univ) (Finset.Subset.refl _)

/-! ## What a device may wait on while it owes -/

/-- Everything owed in `O` sits on a TensorCore cell of level above `b`. -/
def Above (b : ℕ) (O : CellTallies nD τ sig Unit) : Prop := ∀ (g : GSem nD τ sig) (u : Unit), 0 < O g u → g.1.2 = .tc ∧ b < lv g u

theorem above_zero (b : ℕ) : Above b (0 : CellTallies nD τ sig Unit) := by
  intro g u hg
  rw [Pi.zero_apply, Finsupp.zero_apply] at hg
  exact absurd hg (Nat.lt_irrefl 0)
theorem above_add {b : ℕ} {O O' : CellTallies nD τ sig Unit} (h : Above b O) (h' : Above b O') : Above b (O + O') := by
  intro g u hg
  rw [Pi.add_apply, Finsupp.add_apply] at hg
  by_cases h0 : 0 < O g u
  · exact h g u h0
  · exact h' g u (by omega)

theorem above_sum {b : ℕ} {ι : Type} (s : Finset ι) (T : ι → CellTallies nD τ sig Unit) (h : ∀ i ∈ s, Above b (T i)) :
    Above b (∑ i ∈ s, T i) := by
  classical
  revert h
  refine Finset.induction_on s (fun _ => by rw [Finset.sum_empty]; exact above_zero b) ?_
  intro a s ha ih h
  rw [Finset.sum_insert ha]
  exact above_add (h a (Finset.mem_insert_self a s)) (ih fun i hi => h i (Finset.mem_insert_of_mem hi))
theorem above_tally {b : ℕ} (d : Dev nD) (f : Fam) (n : ℕ) (h : b < lvF f) : Above b (tallyAt (cell d f) () n) := by
  intro g u hg
  rw [tallyAt_apply] at hg
  by_cases hh : g = cell d f ∧ u = ()
  · rw [hh.1]; exact ⟨rfl, by rw [lv_cell]; exact h⟩
  · rw [if_neg hh] at hg; exact absurd hg (Nat.lt_irrefl 0)
theorem above_oweD {b : ℕ} (c : Dev nD) (n : ℕ) (h : b < 2 + 2 * n) : Above b (oweD c n) := by
  unfold oweD
  exact above_sum _ _ fun k hk => above_tally (px c) (.dr k) Nout (by have := (Finset.mem_filter.mp hk).2; show b < 2 + 2 * k.val; omega)
theorem above_oweF {b : ℕ} (c : Dev nD) (n : ℕ) (h : b < 3 + 2 * n) : Above b (oweF c n) := by
  unfold oweF
  exact above_sum _ _ fun k hk => above_tally (py c) (.fr k) Nout (by have := (Finset.mem_filter.mp hk).2; show b < 3 + 2 * k.val; omega)
theorem above_mono {b b' : ℕ} {O : CellTallies nD τ sig Unit} (hb : b ≤ b') (h : Above b' O) : Above b O :=
  fun g u hg => ⟨(h g u hg).1, lt_of_le_of_lt hb (h g u hg).2⟩

/-- A device may wait on its cell `f` while everything it owes sits above `f`'s level. -/
theorem mayWait_cell (c : Dev nD) (f : Fam) (O : CellTallies nD τ sig Unit) (h : Above (lvF f) O) :
    (levAts L lv : sProp 𝕄) ⊢ MayWait (c : Thread nD τ) f.sem () O :=
  MayOwe.of_cut (L := L) (lev := lv) (lvF f)
    (fun p hp => by rw [Finset.mem_singleton.mp hp, L_tc]; exact Finset.mem_singleton_self _)
    (fun g u hg => by
      have h1 := (h g u hg).1
      have : L g = {()} := if_pos h1
      rw [this]; exact Finset.mem_singleton_self _)
    (fun p hp => by rw [Finset.mem_singleton.mp hp]; exact le_of_eq (lv_cell c f ()))
    (fun g u hg => (h g u hg).2)

/-- The landing of chunk `j` along x may be waited for once the device has sent its own chunks up to `j` along x and relayed
    those before `j`; the relay's landing once it has sent and relayed its own up to `j`. -/
theorem mayWait_dr (c : Dev nD) (j : Fin 32) (nd nf : ℕ) (hd : j.val < nd) (hf : j.val ≤ nf) :
    (levAts L lv : sProp 𝕄) ⊢ MayWait (c : Thread nD τ) (.dma (drS j)) () (oweD c nd + oweF c nf) :=
  mayWait_cell c (.dr j) _ (above_add (above_oweD c nd (by show 2 + 2 * j.val < _; omega)) (above_oweF c nf (by show 2 + 2 * j.val < _; omega)))
theorem mayWait_fr (c : Dev nD) (j : Fin 32) (nd nf : ℕ) (hd : j.val < nd) (hf : j.val < nf) :
    (levAts L lv : sProp 𝕄) ⊢ MayWait (c : Thread nD τ) (.dma (frS j)) () (oweD c nd + oweF c nf) :=
  mayWait_cell c (.fr j) _ (above_add (above_oweD c nd (by show 3 + 2 * j.val < _; omega)) (above_oweF c nf (by show 3 + 2 * j.val < _; omega)))
/-- Its own local and send cells (level 0) a device may wait on whatever of the handshake and the landings it still owes. -/
theorem mayWait_own (c : Dev nD) (f : Fam) (hf : lvF f = 0) (nd nf : ℕ) :
    (levAts L lv : sProp 𝕄) ⊢ MayWait (c : Thread nD τ) f.sem () (oweD c nd + oweF c nf) :=
  mayWait_cell c f _ (above_add (above_oweD c nd (by rw [hf]; omega)) (above_oweF c nf (by rw [hf]; omega)))
theorem mayWait_own_start (c : Dev nD) (f : Fam) (hf : lvF f = 0) :
    (levAts L lv : sProp 𝕄) ⊢ MayWait (c : Thread nD τ) f.sem () (O₀ c) :=
  mayWait_cell c f _ (above_add (above_add (above_add (above_oweD c 0 (by rw [hf]; omega)) (above_oweF c 0 (by rw [hf]; omega)))
    (above_tally (py c) .bar 1 (by rw [hf]; decide))) (above_tally (px c) .bar 1 (by rw [hf]; decide)))
/-- The handshake (level 1) while it owes the landings only. -/
theorem mayWait_bar (c : Dev nD) :
    (levAts L lv : sProp 𝕄) ⊢ MayWait (c : Thread nD τ) (.reg barS) () (oweD c 0 + oweF c 0) :=
  mayWait_cell c .bar _ (above_add (above_oweD c 0 (by decide)) (above_oweF c 0 (by decide)))

/-- What is owed from chunk `n` on is what is owed from `n + 1` on and chunk `n`'s landing. -/
theorem filter_peel (n : ℕ) (h : n < 32) :
    Finset.univ.filter (fun k : Fin 32 => n ≤ k.val) = insert (⟨n, h⟩ : Fin 32) (Finset.univ.filter (fun k : Fin 32 => n + 1 ≤ k.val)) := by
  ext k
  simp only [Finset.mem_filter, Finset.mem_univ, true_and, Finset.mem_insert, Fin.ext_iff]
  omega
theorem not_mem_filter_succ (n : ℕ) (h : n < 32) : (⟨n, h⟩ : Fin 32) ∉ Finset.univ.filter (fun k : Fin 32 => n + 1 ≤ k.val) := by
  simp only [Finset.mem_filter, Finset.mem_univ, true_and]; omega
theorem oweD_peel (c : Dev nD) (n : ℕ) (h : n < 32) : oweD c n = oweD c (n + 1) + tallyAt (cell (px c) (.dr ⟨n, h⟩)) () Nout := by
  unfold oweD
  rw [filter_peel n h, Finset.sum_insert (not_mem_filter_succ n h), add_comm]
theorem oweF_peel (c : Dev nD) (n : ℕ) (h : n < 32) : oweF c n = oweF c (n + 1) + tallyAt (cell (py c) (.fr ⟨n, h⟩)) () Nout := by
  unfold oweF
  rw [filter_peel n h, Finset.sum_insert (not_mem_filter_succ n h), add_comm]
theorem filter_end : Finset.univ.filter (fun k : Fin 32 => 32 ≤ k.val) = ∅ :=
  Finset.filter_false_of_mem fun k _ => by have := k.isLt; omega
theorem oweD_end (c : Dev nD) : oweD c 32 = 0 := by
  unfold oweD; rw [filter_end, Finset.sum_empty]
theorem oweF_end (c : Dev nD) : oweF c 32 = 0 := by
  unfold oweF; rw [filter_end, Finset.sum_empty]

/-! ## A cell at its last round closes: its counter is at zero -/

theorem close_cell (c : Dev nD) (f : Fam) :
    iprop(cellInv ER (Rd m) (K (c, f)) (cell c f) ∗ atPos ER (cell c f) f.rounds ∅ 0) ⊢ iprop(|={Set.univ}=> semVal (cell c f) 0) :=
  Rounds.cell_close ER (Rd m) (Set.mem_univ _) (fun h => h) (R := f.rounds) (fun r hr => duties_later m c f hr)

/-! ## Glue: a landing slot's share in halves, a stored slot at its contents, a whole buffer's piece -/

theorem ld_share_split (c : Dev nD) (k : Fin 32) (f : Buf (Elt F) ((ldS k).view.loc (c : Thread nD τ))) :
    piece c (ldS k) fullShare f ⊣⊢ iprop(piece c (ldS k) fullShare.left f ∗ piece c (ldS k) fullShare.right f) :=
  pointsTo_share (PosShare.mem_left_op_right fullShare)

/-- What a store on every index through a view leaves under the view does not depend on what it is written over. -/
theorem access_write_over (c : Dev nD) {sp : Space} {S : Shape} {e : EltTy} (v : View sig .tc sp S e) (q : PosShare TreeShare)
    (f g : Buf (Elt F) (v.loc (c : Thread nD τ))) (w : S.Idx → Elt F e) :
    (v.loc (c : Thread nD τ) ↦[v.set]{q} v.write (Elt F) f w Finset.univ : sProp 𝕄)
      = v.loc (c : Thread nD τ) ↦[v.set]{q} v.write (Elt F) g w Finset.univ :=
  pointsTo_congr fun i hi => by
    obtain ⟨y, -, rfl⟩ := Finset.mem_map.mp hi
    rw [View.write_emb_of_mem _ _ (Finset.mem_univ y), View.write_emb_of_mem _ _ (Finset.mem_univ y)]

/-- Slot `slot3 k` of `vcast_a` after the store of chunk `k`'s cast holds `vcA m c k` under the slot. -/
theorem store_vca_at (c : Dev nD) (k : Fin 32)
    (f : Buf (Elt F) ((vcaM.access (rVc (slot3 k)) : View sig .tc _ _ _).loc (c : Thread nD τ))) (w : (rVc (slot3 k)).shape.Idx → Elt F .bf16)
    (hw : w = castSlot (viaM.view.readAt (Elt F) (rVin (slot2 k)).toLoadRect (vinA m c k))) :
    ((vcaM.access (rVc (slot3 k)) : View sig .tc _ _ _).loc (c : Thread nD τ) ↦[(vcaM.access (rVc (slot3 k)) : View sig .tc _ _ _).set]{fullShare}
        (vcaM.access (rVc (slot3 k)) : View sig .tc _ _ _).write (Elt F) f w Finset.univ : sProp 𝕄)
      ⊢ ((vcaM.access (rVc (slot3 k)) : View sig .tc _ _ _).loc (c : Thread nD τ) ↦[(vcaM.access (rVc (slot3 k)) : View sig .tc _ _ _).set]{fullShare} vcA m c k) := by
  subst hw
  exact Entails.of_eq (access_write_over c (vcaM.access (rVc (slot3 k)) : View sig .tc _ _ _) fullShare f (m _) _)
theorem store_vcb_at (c : Dev nD) (k : Fin 32)
    (f : Buf (Elt F) ((vcbM.access (rVc (slot3 k)) : View sig .tc _ _ _).loc (c : Thread nD τ))) (w : (rVc (slot3 k)).shape.Idx → Elt F .bf16)
    (hw : w = castSlot (vibM.view.readAt (Elt F) (rVin (slot2 k)).toLoadRect (vinB m c k))) :
    ((vcbM.access (rVc (slot3 k)) : View sig .tc _ _ _).loc (c : Thread nD τ) ↦[(vcbM.access (rVc (slot3 k)) : View sig .tc _ _ _).set]{fullShare}
        (vcbM.access (rVc (slot3 k)) : View sig .tc _ _ _).write (Elt F) f w Finset.univ : sProp 𝕄)
      ⊢ ((vcbM.access (rVc (slot3 k)) : View sig .tc _ _ _).loc (c : Thread nD τ) ↦[(vcbM.access (rVc (slot3 k)) : View sig .tc _ _ _).set]{fullShare} vcB m c k) := by
  subst hw
  exact Entails.of_eq (access_write_over c (vcbM.access (rVc (slot3 k)) : View sig .tc _ _ _) fullShare f (m _) _)

/-- The printed payloads of the stores are the cast of the loaded slot. -/
theorem pay2_pay1_eq (v : Vec F S1x256x2048 .f32) : k0_pay2 (k0_pay1 v) = castSlot v := rfl
theorem pay4_eq (v : Vec F S1x256x2048 .f32) : k0_pay4 v = castSlot v := rfl

/-- The piece of a whole buffer is the buffer. -/
theorem piece_whole (c : Dev nD) (b : Ref sig .tc) (q : PosShare TreeShare) (f : Buf (Elt F) ((c : Thread nD τ).loc b)) :
    piece c (Memref.whole b) q f = (((c : Thread nD τ).loc b) ↦{q} f : sProp 𝕄) := by
  show (((c : Thread nD τ).loc b) ↦[(View.whole b : View sig .tc _ _ _).set]{q} f : sProp 𝕄) = _
  rw [View.set_whole]

/-! ## What a copied block credits its semaphore -/

theorem credit_viaS (j : Fin 2) : (viaS j).view.dmaCredit = Nin := rfl
theorem credit_vibS (j : Fin 2) : (vibS j).view.dmaCredit = Nin := rfl
theorem credit_ldS (k : Fin 32) : (ldS k).view.dmaCredit = Nout := rfl
theorem credit_oA (c : Dev nD) (k : Fin 32) : (oA c k).view.dmaCredit = Nout := rfl
theorem credit_oB (c : Dev nD) (k : Fin 32) : (oB c k).view.dmaCredit = Nout := rfl
theorem credit_oR (c : Dev nD) (k : Fin 32) : (oR c k).view.dmaCredit = Nout := rfl

end Cert.KernelA2A
end
-- ==== Proof.B2AGeom.lean ====
/-
  The geometry of the pieces: every buffer of a device is cut into the blocks the copies and the stores address, and
  put back together from them. The facts are about sets of buffer indices (unit-stride rectangles at the printed
  offsets, read through their closed forms) and are carried to points-to assertions by the splitting and joining
  laws of the region library.
-/
import proofs.«900012_g7700000000000013_dist_a2a_v7x_xy2x2_x_m16384_n1024_bf16_1_alg».proof.Proof.B2AContents

noncomputable section

namespace Cert.KernelA2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer cut along a finite family of pairwise disjoint sets that cover it -/

section Tiling
variable {ℓ : Loc nD τ sig} {T : Type} [Fintype T] [DecidableEq T]

/-- Pairwise disjoint sets of one size whose sizes add up to the whole type cover it. -/
theorem biUnion_eq_univ_of_card {α : Type} [Fintype α] [DecidableEq α] (K : T → Finset α) (n : ℕ)
    (hd : ∀ t t', t ≠ t' → Disjoint (K t) (K t')) (hn : ∀ t, (K t).card = n)
    (h : Fintype.card T * n = Fintype.card α) : Finset.univ.biUnion K = Finset.univ := by
  apply Finset.eq_univ_of_card
  rw [Finset.card_biUnion (fun t _ t' _ ht => hd t t' ht), Finset.sum_congr rfl (fun t _ => hn t), Finset.sum_const,
    Finset.card_univ, smul_eq_mul, h]

/-- A whole buffer is the separating conjunction of its tiles, at the same contents. -/
theorem tile_split (K : T → Finset (Idx ℓ)) (hd : ∀ t t', t ≠ t' → Disjoint (K t) (K t'))
    (hc : Finset.univ.biUnion K = Finset.univ) (q : PosShare TreeShare) (f : Buf (Elt F) ℓ) :
    (ℓ ↦{q} f : sProp 𝕄) ⊣⊢ bigSep Finset.univ fun t => ℓ ↦[K t]{q} f := by
  have e : (ℓ ↦{q} f : sProp 𝕄) = bigSep Finset.univ fun t => ℓ ↦[K t]{q} f := by
    rw [← hc]; exact pointsTo_biUnion Finset.univ K (fun t _ t' _ ht => hd t t' ht)
  have h := BI.equiv_iff.mpr e
  exact ⟨h.1, h.2⟩

/-- Tiles held at different contents join into the whole buffer at contents that agree with each on its tile. -/
theorem tile_join [Nonempty T] (K : T → Finset (Idx ℓ)) (hd : ∀ t t', t ≠ t' → Disjoint (K t) (K t'))
    (hc : Finset.univ.biUnion K = Finset.univ) (q : PosShare TreeShare) (fs : T → Buf (Elt F) ℓ) :
    bigSep Finset.univ (fun t => ℓ ↦[K t]{q} fs t)
      ⊢ (iprop(∃ g, ⌜∀ t, ∀ i ∈ K t, g i = fs t i⌝ ∗ ℓ ↦{q} g) : sProp 𝕄) := by
  refine (pointsTo_biUnion_join Finset.univ K fs (fs (Classical.choice inferInstance))
    (fun t _ t' _ ht => hd t t' ht)).trans ?_
  rw [hc]
  iintro ⟨%g, %hg, H⟩
  iexists g
  isplitr
  · ipureintro; exact fun t => hg t (Finset.mem_univ t)
  · iexact H

/-- The same with the contents of each tile left open. -/
theorem tile_join_ex [Nonempty T] (K : T → Finset (Idx ℓ)) (hd : ∀ t t', t ≠ t' → Disjoint (K t) (K t'))
    (hc : Finset.univ.biUnion K = Finset.univ) (q : PosShare TreeShare) :
    bigSep Finset.univ (fun t => iprop(∃ f : Buf (Elt F) ℓ, ℓ ↦[K t]{q} f))
      ⊢ (iprop(∃ g, ℓ ↦{q} g) : sProp 𝕄) := by
  by_cases hne : Nonempty (Buf (Elt F) ℓ)
  · haveI : ∀ t : T, Nonempty (Buf (Elt F) ℓ) := fun _ => hne
    refine (bigSep_exists_pi (Y := fun _ : T => Buf (Elt F) ℓ) Finset.univ (fun t f => ℓ ↦[K t]{q} f)).trans ?_
    iintro ⟨%fs, H⟩
    ihave H' := (tile_join K hd hc q fs) $$ H
    icases H' with ⟨%g, -, H'⟩
    iexists g
    iexact H'
  · have e : (bigSep Finset.univ (fun t => iprop(∃ f : Buf (Elt F) ℓ, ℓ ↦[K t]{q} f)) : sProp 𝕄)
        = iprop((∃ f : Buf (Elt F) ℓ, ℓ ↦[K (Classical.choice ‹Nonempty T›)]{q} f)
          ∗ bigSep (Finset.univ.erase (Classical.choice ‹Nonempty T›)) (fun t => iprop(∃ f : Buf (Elt F) ℓ, ℓ ↦[K t]{q} f))) :=
      bigSep_univ_split _
    rw [e]
    iintro ⟨⟨%f, -⟩, -⟩
    exact (hne ⟨f⟩).elim

end Tiling

/-! ## (1) What a whole write leaves under the view does not depend on the contents written over -/

theorem view_write_irrel {κ : Kind} {sp : Space} {S : Shape} {e : EltTy} (v : View sig κ sp S e)
    (f g : v.ty.Contents (Elt F)) (w : S.Idx → Elt F e) :
    ∀ i ∈ v.set, v.write (Elt F) f w Finset.univ i = v.write (Elt F) g w Finset.univ i := by
  intro i hi
  obtain ⟨y, -, rfl⟩ := Finset.mem_map.mp hi
  rw [View.write_emb_of_mem _ _ (Finset.mem_univ y), View.write_emb_of_mem _ _ (Finset.mem_univ y)]

theorem write_irrel {sp : Space} {S : Shape} {e : EltTy} (M : Memref sig .tc sp S e)
    (f g : M.view.ty.Contents (Elt F)) (w : S.Idx → Elt F e) :
    ∀ i ∈ M.view.set, M.view.write (Elt F) f w Finset.univ i = M.view.write (Elt F) g w Finset.univ i :=
  view_write_irrel M.view f g w

theorem piece_write_irrel (c : Dev nD) {sp : Space} {S : Shape} {e : EltTy} (M : Memref sig .tc sp S e)
    (q : PosShare TreeShare) (f g : Buf (Elt F) (M.view.loc (c : Thread nD τ))) (w : S.Idx → Elt F e) :
    piece c M q (M.view.write (Elt F) f w Finset.univ) = piece c M q (M.view.write (Elt F) g w Finset.univ) :=
  pointsTo_congr (write_irrel M f g w)

/-- The same through any view (the rectangle a vector store addresses), on any part of what the view covers. -/
theorem access_write_irrel (c : Dev nD) {sp : Space} {S : Shape} {e : EltTy} (v : View sig .tc sp S e)
    {I : Finset v.ty.Idx} (hI : I ⊆ v.set) (q : PosShare TreeShare)
    (f g : Buf (Elt F) (v.loc (c : Thread nD τ))) (w : S.Idx → Elt F e) :
    (v.loc (c : Thread nD τ) ↦[I]{q} v.write (Elt F) f w Finset.univ : sProp 𝕄)
      = v.loc (c : Thread nD τ) ↦[I]{q} v.write (Elt F) g w Finset.univ :=
  pointsTo_congr fun i hi => view_write_irrel v f g w i (hI hi)

/-! ## Unit-stride blocks of one size, told apart by their first coordinate on one axis -/

theorem disjoint_of_rows {s : Shape} (a : Fin s.rank) (size : Fin s.rank → ℕ) {T : Type} (K : T → Finset s.Idx) (row : T → ℕ)
    (hK : ∀ t, ∃ (off : Fin s.rank → ℕ) (inb : ∀ a, off a + size a ≤ s.size a),
      K t = (Rect.unit off size inb).set ∧ off a = row t)
    (hsep : ∀ t t', t ≠ t' → row t + size a ≤ row t' ∨ row t' + size a ≤ row t) :
    ∀ t t', t ≠ t' → Disjoint (K t) (K t') := by
  intro t t' h
  obtain ⟨off, inb, e, r⟩ := hK t
  obtain ⟨off', inb', e', r'⟩ := hK t'
  rw [e, e']
  exact Rect.unit_disjoint a (by rw [r, r']; exact hsep t t' h)

/-! ## (2) The landing buffer: 32 slots -/

theorem ldS_set (k : Fin 32) :
    (ldS k).view.set = (Rect.unit (s := S32x256x1024) ![k.val, 0, 0] S1x256x1024.size (inb_ld k)).set :=
  (View.set_reshape _ _).trans (View.set_slice_whole _ _)

theorem ld_disj : ∀ k k' : Fin 32, k ≠ k' → Disjoint (ldS k).view.set (ldS k').view.set :=
  disjoint_of_rows (s := S32x256x1024) 0 S1x256x1024.size (fun k : Fin 32 => (ldS k).view.set) (fun k => k.val)
    (fun k => ⟨_, _, ldS_set k, rfl⟩)
    (fun k k' h => by
      have := Fin.val_ne_of_ne h
      show k.val + 1 ≤ k'.val ∨ k'.val + 1 ≤ k.val
      omega)

theorem numel_ld : 32 * S256x1024.numel = S32x256x1024.numel := by decide +kernel

theorem ld_cover (c : Dev nD) : Finset.univ.biUnion (fun k : Fin 32 => (ldS k).view.set)
    = (Finset.univ : Finset (Idx (ldM.view.loc (c : Thread nD τ)))) := by
  refine biUnion_eq_univ_of_card (α := Idx (ldM.view.loc (c : Thread nD τ))) (fun k : Fin 32 => (ldS k).view.set)
    S256x1024.numel ld_disj (fun k => View.card_set _) ?_
  rw [Fintype.card_fin]
  exact numel_ld.trans (Shape.card_idx _).symm

theorem ld_split (c : Dev nD) (f : Buf (Elt F) (ldM.view.loc (c : Thread nD τ))) :
    (ldM.view.loc (c : Thread nD τ) ↦{fullShare} f : sProp 𝕄)
      ⊣⊢ bigSep Finset.univ fun k : Fin 32 => piece c (ldS k) fullShare f :=
by
  have h := tile_split (F := F) (ℓ := ldM.view.loc (c : Thread nD τ)) (fun k : Fin 32 => (ldS k).view.set) ld_disj (ld_cover c) fullShare f
  exact h

theorem ld_join (c : Dev nD) :
    bigSep Finset.univ (fun k : Fin 32 => iprop(∃ f, piece c (ldS k) fullShare f))
      ⊢ (iprop(∃ f, ldM.view.loc (c : Thread nD τ) ↦{fullShare} f) : sProp 𝕄) := by
  have h := tile_join_ex (F := F) (ℓ := ldM.view.loc (c : Thread nD τ)) (fun k : Fin 32 => (ldS k).view.set) ld_disj
    (ld_cover c) fullShare
  exact h

/-! ## (3) The device's block of x: two halves of 32 row blocks -/

theorem xA_set (c : Dev nD) (k : Fin 32) : (xA c k).view.set
    = (Rect.unit (s := S16384x2048) (k0_off1 c (BitVec.ofNat 32 (256 * k.val))) S256x2048.size (k0_off1_inb c k)).set :=
  View.set_slice_whole _ _
theorem xB_set (c : Dev nD) (k : Fin 32) : (xB c k).view.set
    = (Rect.unit (s := S16384x2048) (k0_off2 c (BitVec.ofNat 32 (256 * k.val))) S256x2048.size (k0_off2_inb c k)).set :=
  View.set_slice_whole _ _

/-- The 64 row blocks of `x`, and the first row of each. -/
def KX (c : Dev nD) : Fin 32 ⊕ Fin 32 → Finset (Idx (xM.view.loc (c : Thread nD τ))) :=
  Sum.elim (fun k => (xA c k).view.set) (fun k => (xB c k).view.set)
def rowX (c : Dev nD) : Fin 32 ⊕ Fin 32 → ℕ :=
  Sum.elim (fun k => 8192 * (c.val % 2) + 256 * k.val) (fun k => (256 * k.val + 8192) - 8192 * (c.val % 2))

theorem KX_unit (c : Dev nD) : ∀ t, ∃ (off : Fin S16384x2048.rank → ℕ) (inb : ∀ a, off a + S256x2048.size a ≤ S16384x2048.size a),
    KX c t = (Rect.unit off S256x2048.size inb).set ∧ off 0 = rowX c t
  | .inl k => ⟨_, _, xA_set c k, by rw [k0_off1_eq c k]; rfl⟩
  | .inr k => ⟨_, _, xB_set c k, by rw [k0_off2_eq c k]; rfl⟩

theorem rowX_sep (c : Dev nD) : ∀ t t', t ≠ t' → rowX c t + 256 ≤ rowX c t' ∨ rowX c t' + 256 ≤ rowX c t := by
  intro t t' h
  have hc : c.val < 4 := c.isLt
  rcases t with k | k <;> rcases t' with k' | k' <;> simp only [rowX, Sum.elim_inl, Sum.elim_inr] <;>
    have hk := k.isLt <;> have hk' := k'.isLt
  · have : k.val ≠ k'.val := fun e => h (congrArg Sum.inl (Fin.ext e))
    omega
  · omega
  · omega
  · have : k.val ≠ k'.val := fun e => h (congrArg Sum.inr (Fin.ext e))
    omega

theorem KX_disj (c : Dev nD) : ∀ t t', t ≠ t' → Disjoint (KX c t) (KX c t') :=
  disjoint_of_rows (s := S16384x2048) 0 S256x2048.size (KX c) (rowX c) (KX_unit c) (rowX_sep c)

theorem KX_card (c : Dev nD) : ∀ t, (KX c t).card = S256x2048.numel
  | .inl k => View.card_set _
  | .inr k => View.card_set _

theorem numel_x : (32 + 32) * S256x2048.numel = S16384x2048.numel := by decide +kernel

theorem KX_cover (c : Dev nD) : Finset.univ.biUnion (KX c) = Finset.univ := by
  refine biUnion_eq_univ_of_card (α := Idx (xM.view.loc (c : Thread nD τ))) (KX c) S256x2048.numel (KX_disj c) (KX_card c) ?_
  rw [Fintype.card_sum, Fintype.card_fin]
  exact numel_x.trans (Shape.card_idx _).symm

theorem x_split (c : Dev nD) (f : Buf (Elt F) (xM.view.loc (c : Thread nD τ))) :
    (xM.view.loc (c : Thread nD τ) ↦{fullShare} f : sProp 𝕄)
      ⊣⊢ iprop((bigSep Finset.univ fun k : Fin 32 => piece c (xA c k) fullShare f)
          ∗ (bigSep Finset.univ fun k : Fin 32 => piece c (xB c k) fullShare f)) := by
  have h := tile_split (F := F) (ℓ := xM.view.loc (c : Thread nD τ)) (KX c) (KX_disj c) (KX_cover c) fullShare f
  rw [bigSep_univ_sum] at h
  exact h

/-! ## (4) The result: four families of 32 row blocks -/

theorem oA_set (c : Dev nD) (k : Fin 32) : (oA c k).view.set
    = (Rect.unit (s := S32768x1024) (k0_off3 c (BitVec.ofNat 32 (256 * k.val))) S256x1024.size (k0_off3_inb c k)).set :=
  View.set_slice_whole _ _
theorem oB_set (c : Dev nD) (k : Fin 32) : (oB c k).view.set
    = (Rect.unit (s := S32768x1024) (k0_off5 c (BitVec.ofNat 32 (256 * k.val))) S256x1024.size (k0_off5_inb c k)).set :=
  View.set_slice_whole _ _
theorem oR_set (c : Dev nD) (k : Fin 32) : (oR c k).view.set
    = (Rect.unit (s := S32768x1024) (k0_off9 c (BitVec.ofNat 32 (256 * k.val))) S256x1024.size (k0_off9_inb c k)).set :=
  View.set_slice_whole _ _

/-- The index of the 128 row blocks of the result: the four families in the order of the statement. -/
abbrev T4 : Type := Fin 32 ⊕ (Fin 32 ⊕ (Fin 32 ⊕ Fin 32))

def KO (c : Dev nD) : T4 → Finset (Idx (oM.view.loc (c : Thread nD τ))) :=
  Sum.elim (fun k => (oA c k).view.set) (Sum.elim (fun k => (oB c k).view.set)
    (Sum.elim (fun k => (oR c k).view.set) (fun k => (oR (py c) k).view.set)))
def rowO (c : Dev nD) : T4 → ℕ :=
  Sum.elim (fun k => 16384 * (c.val / 2) + 8192 * (c.val % 2) + 256 * k.val)
    (Sum.elim (fun k => (16384 * (c.val / 2) + 256 * k.val + 8192) - 8192 * (c.val % 2))
      (Sum.elim (fun k => (8192 * (c.val % 2) + 256 * k.val + 16384) - 16384 * (c.val / 2))
        (fun k => (8192 * ((py c).val % 2) + 256 * k.val + 16384) - 16384 * ((py c).val / 2))))

theorem KO_unit (c : Dev nD) : ∀ t, ∃ (off : Fin S32768x1024.rank → ℕ) (inb : ∀ a, off a + S256x1024.size a ≤ S32768x1024.size a),
    KO c t = (Rect.unit off S256x1024.size inb).set ∧ off 0 = rowO c t
  | .inl k => ⟨_, _, oA_set c k, by rw [k0_off3_eq c k]; rfl⟩
  | .inr (.inl k) => ⟨_, _, oB_set c k, by rw [k0_off5_eq c k]; rfl⟩
  | .inr (.inr (.inl k)) => ⟨_, _, oR_set c k, by rw [k0_off9_eq c k]; rfl⟩
  | .inr (.inr (.inr k)) => ⟨_, _, oR_set (py c) k, by rw [k0_off9_eq (py c) k]; rfl⟩

theorem rowO_sep (c : Dev nD) : ∀ t t', t ≠ t' → rowO c t + 256 ≤ rowO c t' ∨ rowO c t' + 256 ≤ rowO c t := by
  intro t t' h
  have hc : c.val < 4 := c.isLt
  have hpy : (py c).val = 2 * (c.val / 2) + (c.val + 1) % 2 := rfl
  rcases t with k | k | k | k <;> rcases t' with k' | k' | k' | k' <;>
    simp only [rowO, Sum.elim_inl, Sum.elim_inr] <;> have hk := k.isLt <;> have hk' := k'.isLt
  · have : k.val ≠ k'.val := fun e => h (congrArg Sum.inl (Fin.ext e))
    omega
  · omega
  · omega
  · omega
  · omega
  · have : k.val ≠ k'.val := fun e => h (congrArg (fun x => Sum.inr (Sum.inl x)) (Fin.ext e))
    omega
  · omega
  · omega
  · omega
  · omega
  · have : k.val ≠ k'.val := fun e => h (congrArg (fun x => Sum.inr (Sum.inr (Sum.inl x))) (Fin.ext e))
    omega
  · omega
  · omega
  · omega
  · omega
  · have : k.val ≠ k'.val := fun e => h (congrArg (fun x => Sum.inr (Sum.inr (Sum.inr x))) (Fin.ext e))
    omega

theorem KO_disj (c : Dev nD) : ∀ t t', t ≠ t' → Disjoint (KO c t) (KO c t') :=
  disjoint_of_rows (s := S32768x1024) 0 S256x1024.size (KO c) (rowO c) (KO_unit c) (rowO_sep c)

theorem KO_card (c : Dev nD) : ∀ t, (KO c t).card = S256x1024.numel
  | .inl k => View.card_set _
  | .inr (.inl k) => View.card_set _
  | .inr (.inr (.inl k)) => View.card_set _
  | .inr (.inr (.inr k)) => View.card_set _

theorem numel_o : (32 + (32 + (32 + 32))) * S256x1024.numel = S32768x1024.numel := by decide +kernel

theorem KO_cover (c : Dev nD) : Finset.univ.biUnion (KO c) = Finset.univ := by
  refine biUnion_eq_univ_of_card (α := Idx (oM.view.loc (c : Thread nD τ))) (KO c) S256x1024.numel (KO_disj c) (KO_card c) ?_
  rw [Fintype.card_sum, Fintype.card_sum, Fintype.card_sum, Fintype.card_fin]
  exact numel_o.trans (Shape.card_idx _).symm

theorem out_split (c : Dev nD) (f : Buf (Elt F) (oM.view.loc (c : Thread nD τ))) :
    (oM.view.loc (c : Thread nD τ) ↦{fullShare} f : sProp 𝕄)
      ⊣⊢ iprop((bigSep Finset.univ fun k : Fin 32 => piece c (oA c k) fullShare f)
          ∗ (bigSep Finset.univ fun k : Fin 32 => piece c (oB c k) fullShare f)
          ∗ (bigSep Finset.univ fun k : Fin 32 => piece c (oR c k) fullShare f)
          ∗ (bigSep Finset.univ fun k : Fin 32 => piece c (oR (py c) k) fullShare f)) := by
  have h := tile_split (F := F) (ℓ := oM.view.loc (c : Thread nD τ)) (KO c) (KO_disj c) (KO_cover c) fullShare f
  rw [bigSep_univ_sum, bigSep_univ_sum, bigSep_univ_sum] at h
  exact h

theorem out_join (c : Dev nD) (fA fB fL fF : Fin 32 → Buf (Elt F) (oM.view.loc (c : Thread nD τ))) :
    iprop((bigSep Finset.univ fun k : Fin 32 => piece c (oA c k) fullShare (fA k))
          ∗ (bigSep Finset.univ fun k : Fin 32 => piece c (oB c k) fullShare (fB k))
          ∗ (bigSep Finset.univ fun k : Fin 32 => piece c (oR c k) fullShare (fL k))
          ∗ (bigSep Finset.univ fun k : Fin 32 => piece c (oR (py c) k) fullShare (fF k)))
      ⊢ (iprop(∃ g : Buf (Elt F) (oM.view.loc (c : Thread nD τ)),
          ⌜(∀ k, ∀ i ∈ (oA c k).view.set, g i = fA k i) ∧ (∀ k, ∀ i ∈ (oB c k).view.set, g i = fB k i)
            ∧ (∀ k, ∀ i ∈ (oR c k).view.set, g i = fL k i) ∧ (∀ k, ∀ i ∈ (oR (py c) k).view.set, g i = fF k i)⌝
          ∗ (oM.view.loc (c : Thread nD τ) ↦{fullShare} g)) : sProp 𝕄) := by
  have h := tile_join (F := F) (ℓ := oM.view.loc (c : Thread nD τ)) (KO c) (KO_disj c) (KO_cover c) fullShare
    (Sum.elim fA (Sum.elim fB (Sum.elim fL fF)))
  rw [bigSep_univ_sum, bigSep_univ_sum, bigSep_univ_sum] at h
  refine h.trans ?_
  iintro ⟨%g, %hg, H⟩
  iexists g
  isplitr
  · ipureintro
    exact ⟨fun k => hg (.inl k), fun k => hg (.inr (.inl k)), fun k => hg (.inr (.inr (.inl k))),
      fun k => hg (.inr (.inr (.inr k)))⟩
  · iexact H

/-! ## (5) The staging buffers: slots, and the column halves of a bf16 slot -/

theorem forall_fin3 {P : Fin 3 → Prop} (h0 : P 0) (h1 : P 1) (h2 : P 2) : ∀ a, P a := by
  intro a; fin_cases a <;> assumption

theorem viaS_set (j : Fin 2) : (viaS j).view.set = (rVin j).set :=
  (View.set_reshape _ _).trans (View.set_slice_whole _ _)
theorem vibS_set (j : Fin 2) : (vibS j).view.set = (rVin j).set :=
  (View.set_reshape _ _).trans (View.set_slice_whole _ _)

/-- The elements a vector load or store of slot `j` touches are the slot memref's. -/
theorem via_access_set (j : Fin 2) : ((viaM.access (rVin j) : View sig .tc _ _ _)).set = (viaS j).view.set :=
  (View.set_slice_whole _ _).trans (viaS_set j).symm
theorem vib_access_set (j : Fin 2) : ((vibM.access (rVin j) : View sig .tc _ _ _)).set = (vibS j).view.set :=
  (View.set_slice_whole _ _).trans (vibS_set j).symm

theorem vca_access_set (s : Fin 3) : ((vcaM.access (rVc s) : View sig .tc _ _ _)).set = (rVc s).set :=
  View.set_slice_whole _ _
theorem vcb_access_set (s : Fin 3) : ((vcbM.access (rVc s) : View sig .tc _ _ _)).set = (rVc s).set :=
  View.set_slice_whole _ _

/-- The closed forms of the column offsets: the device's own 1024 columns of slot `s`, and its x-peer's. -/
theorem offMine_eq (c : Dev nD) (s : Fin 3) : offMine c s = ![s.val, 0, 1024 * (c.val / 2)] := by
  fin_cases s
  · exact k0_off4_eq c
  · exact k0_off7_eq c
  · exact k0_off10_eq c
theorem offPeer_eq (c : Dev nD) (s : Fin 3) : offPeer c s = ![s.val, 0, 1024 - 1024 * (c.val / 2)] := by
  fin_cases s
  · exact k0_off6_eq c
  · exact k0_off8_eq c
  · exact k0_off11_eq c

abbrev rMine (c : Dev nD) (s : Fin 3) : Rect S3x256x2048 :=
  Rect.unit (s := S3x256x2048) (offMine c s) S1x256x1024.size (offMine_inb c s)
abbrev rPeer (c : Dev nD) (s : Fin 3) : Rect S3x256x2048 :=
  Rect.unit (s := S3x256x2048) (offPeer c s) S1x256x1024.size (offPeer_inb c s)

theorem vcaMine_set (c : Dev nD) (s : Fin 3) : (vcaMine c s).view.set = (rMine c s).set :=
  (View.set_reshape _ _).trans (View.set_slice_whole _ _)
theorem vcbMine_set (c : Dev nD) (s : Fin 3) : (vcbMine c s).view.set = (rMine c s).set :=
  (View.set_reshape _ _).trans (View.set_slice_whole _ _)
theorem vcaPeer_set (c : Dev nD) (s : Fin 3) : (vcaPeer c s).view.set = (rPeer c s).set :=
  (View.set_reshape _ _).trans (View.set_slice_whole _ _)

theorem rMine_subset (c : Dev nD) (s : Fin 3) : (rMine c s).set ⊆ (rVc s).set := by
  have hc : c.val < 4 := c.isLt
  refine Rect.set_subset_of_span _ _ (fun _ => rfl) ?_
  show ∀ a, (![s.val, 0, 0] : Fin 3 → ℕ) a ≤ offMine c s a
    ∧ offMine c s a + 1 * S1x256x1024.size a ≤ (![s.val, 0, 0] : Fin 3 → ℕ) a + S1x256x2048.size a + (1 - 1)
  rw [offMine_eq]
  refine forall_fin3 ?_ ?_ ?_ <;> simp <;> omega
theorem rPeer_subset (c : Dev nD) (s : Fin 3) : (rPeer c s).set ⊆ (rVc s).set := by
  have hc : c.val < 4 := c.isLt
  refine Rect.set_subset_of_span _ _ (fun _ => rfl) ?_
  show ∀ a, (![s.val, 0, 0] : Fin 3 → ℕ) a ≤ offPeer c s a
    ∧ offPeer c s a + 1 * S1x256x1024.size a ≤ (![s.val, 0, 0] : Fin 3 → ℕ) a + S1x256x2048.size a + (1 - 1)
  rw [offPeer_eq]
  refine forall_fin3 ?_ ?_ ?_ <;> simp <;> omega
theorem rMine_rPeer_disjoint (c : Dev nD) (s : Fin 3) : Disjoint (rMine c s).set (rPeer c s).set := by
  have hc : c.val < 4 := c.isLt
  refine Rect.unit_disjoint (2 : Fin 3) ?_
  rw [offMine_eq, offPeer_eq]
  show 1024 * (c.val / 2) + 1024 ≤ 1024 - 1024 * (c.val / 2) ∨ 1024 - 1024 * (c.val / 2) + 1024 ≤ 1024 * (c.val / 2)
  omega

theorem numel_halves : S1x256x2048.numel ≤ S1x256x1024.numel + S1x256x1024.numel := by decide +kernel
theorem rVc_card (s : Fin 3) : (rVc s).set.card = S1x256x2048.numel := Rect.card_set _
theorem rMine_card (c : Dev nD) (s : Fin 3) : (rMine c s).set.card = S1x256x1024.numel := Rect.card_set _
theorem rPeer_card (c : Dev nD) (s : Fin 3) : (rPeer c s).set.card = S1x256x1024.numel := Rect.card_set _

theorem rMine_union_rPeer (c : Dev nD) (s : Fin 3) : (rMine c s).set ∪ (rPeer c s).set = (rVc s).set := by
  refine Finset.eq_of_subset_of_card_le (Finset.union_subset (rMine_subset c s) (rPeer_subset c s)) ?_
  rw [Finset.card_union_of_disjoint (rMine_rPeer_disjoint c s), rVc_card, rMine_card, rPeer_card]
  exact numel_halves

theorem vca_halves_union (c : Dev nD) (s : Fin 3) :
    (vcaMine c s).view.set ∪ (vcaPeer c s).view.set = ((vcaM.access (rVc s) : View sig .tc _ _ _)).set := by
  rw [vcaMine_set, vcaPeer_set, vca_access_set]; exact rMine_union_rPeer c s
theorem vca_halves_disjoint (c : Dev nD) (s : Fin 3) : Disjoint (vcaMine c s).view.set (vcaPeer c s).view.set := by
  rw [vcaMine_set, vcaPeer_set]; exact rMine_rPeer_disjoint c s
theorem vca_mine_subset (c : Dev nD) (s : Fin 3) :
    (vcaMine c s).view.set ⊆ ((vcaM.access (rVc s) : View sig .tc _ _ _)).set := by
  rw [vcaMine_set, vca_access_set]; exact rMine_subset c s
theorem vca_peer_subset (c : Dev nD) (s : Fin 3) :
    (vcaPeer c s).view.set ⊆ ((vcaM.access (rVc s) : View sig .tc _ _ _)).set := by
  rw [vcaPeer_set, vca_access_set]; exact rPeer_subset c s
theorem vcb_mine_subset (c : Dev nD) (s : Fin 3) :
    (vcbMine c s).view.set ⊆ ((vcbM.access (rVc s) : View sig .tc _ _ _)).set := by
  rw [vcbMine_set, vcb_access_set]; exact rMine_subset c s

/-- A slot of `vcast_a` is its two column halves. -/
theorem vca_slot_split (c : Dev nD) (s : Fin 3) (q : PosShare TreeShare) (f : Buf (Elt F) (vcaM.view.loc (c : Thread nD τ))) :
    (vcaM.view.loc (c : Thread nD τ) ↦[((vcaM.access (rVc s) : View sig .tc _ _ _)).set]{q} f : sProp 𝕄)
      ⊣⊢ iprop(piece c (vcaMine c s) q f ∗ piece c (vcaPeer c s) q f) := by
  have h : (vcaM.view.loc (c : Thread nD τ) ↦[(vcaMine c s).view.set ∪ (vcaPeer c s).view.set]{q} f : sProp 𝕄)
      ⊣⊢ iprop((vcaM.view.loc (c : Thread nD τ) ↦[(vcaMine c s).view.set]{q} f)
        ∗ (vcaM.view.loc (c : Thread nD τ) ↦[(vcaPeer c s).view.set]{q} f)) :=
    pointsTo_union (vca_halves_disjoint c s)
  rw [vca_halves_union c s] at h
  exact h

theorem vca_slot_join (c : Dev nD) (s : Fin 3) (q : PosShare TreeShare) (f g : Buf (Elt F) (vcaM.view.loc (c : Thread nD τ))) :
    iprop(piece c (vcaMine c s) q f ∗ piece c (vcaPeer c s) q g)
      ⊢ (iprop(∃ h : Buf (Elt F) (vcaM.view.loc (c : Thread nD τ)),
          ⌜(∀ i ∈ (vcaMine c s).view.set, h i = f i) ∧ (∀ i ∈ (vcaPeer c s).view.set, h i = g i)⌝
          ∗ (vcaM.view.loc (c : Thread nD τ) ↦[((vcaM.access (rVc s) : View sig .tc _ _ _)).set]{q} h)) : sProp 𝕄) := by
  have h : iprop((vcaM.view.loc (c : Thread nD τ) ↦[(vcaMine c s).view.set]{q} f)
        ∗ (vcaM.view.loc (c : Thread nD τ) ↦[(vcaPeer c s).view.set]{q} g))
      ⊢ (vcaM.view.loc (c : Thread nD τ) ↦[(vcaMine c s).view.set ∪ (vcaPeer c s).view.set]{q}
          ((vcaPeer c s).view.set.piecewise g f) : sProp 𝕄) :=
    pointsTo_join (vca_halves_disjoint c s)
  rw [vca_halves_union c s] at h
  refine h.trans ?_
  iintro H
  iexists ((vcaPeer c s).view.set.piecewise g f)
  isplitr
  · ipureintro
    exact ⟨fun i hi => Finset.piecewise_eq_of_notMem _ _ _ (Finset.disjoint_left.mp (vca_halves_disjoint c s) hi),
      fun i hi => Finset.piecewise_eq_of_mem _ _ _ hi⟩
  · iexact H

/-- A slot of `vcast_b` is the device's own column half and the rest of the slot. -/
theorem vcb_slot_split (c : Dev nD) (s : Fin 3) (q : PosShare TreeShare) (f : Buf (Elt F) (vcbM.view.loc (c : Thread nD τ))) :
    (vcbM.view.loc (c : Thread nD τ) ↦[((vcbM.access (rVc s) : View sig .tc _ _ _)).set]{q} f : sProp 𝕄)
      ⊣⊢ iprop(piece c (vcbMine c s) q f
          ∗ (vcbM.view.loc (c : Thread nD τ) ↦[((vcbM.access (rVc s) : View sig .tc _ _ _)).set \ (vcbMine c s).view.set]{q} f)) :=
  pointsTo_split_subset (vcb_mine_subset c s)

/-! ### The slots of a staging buffer -/

theorem rVin_disj : ∀ j j' : Fin 2, j ≠ j' → Disjoint (rVin j).set (rVin j').set :=
  disjoint_of_rows (s := S2x256x2048) 0 S1x256x2048.size (fun j : Fin 2 => (rVin j).set) (fun j => j.val)
    (fun j => ⟨_, _, rfl, rfl⟩)
    (fun j j' h => by
      have := Fin.val_ne_of_ne h
      show j.val + 1 ≤ j'.val ∨ j'.val + 1 ≤ j.val
      omega)
theorem rVc_disj : ∀ s s' : Fin 3, s ≠ s' → Disjoint (rVc s).set (rVc s').set :=
  disjoint_of_rows (s := S3x256x2048) 0 S1x256x2048.size (fun s : Fin 3 => (rVc s).set) (fun s => s.val)
    (fun s => ⟨_, _, rfl, rfl⟩)
    (fun s s' h => by
      have := Fin.val_ne_of_ne h
      show s.val + 1 ≤ s'.val ∨ s'.val + 1 ≤ s.val
      omega)

theorem numel_vin : 2 * S1x256x2048.numel = S2x256x2048.numel := by decide +kernel
theorem numel_vc : 3 * S1x256x2048.numel = S3x256x2048.numel := by decide +kernel

theorem rVin_cover : Finset.univ.biUnion (fun j : Fin 2 => (rVin j).set) = Finset.univ := by
  refine biUnion_eq_univ_of_card (α := S2x256x2048.Idx) (fun j : Fin 2 => (rVin j).set) S1x256x2048.numel rVin_disj
    (fun j => Rect.card_set _) ?_
  rw [Fintype.card_fin]
  exact numel_vin.trans (Shape.card_idx _).symm
theorem rVc_cover : Finset.univ.biUnion (fun s : Fin 3 => (rVc s).set) = Finset.univ := by
  refine biUnion_eq_univ_of_card (α := S3x256x2048.Idx) (fun s : Fin 3 => (rVc s).set) S1x256x2048.numel rVc_disj
    (fun s => Rect.card_set _) ?_
  rw [Fintype.card_fin]
  exact numel_vc.trans (Shape.card_idx _).symm

theorem via_split (c : Dev nD) (f : Buf (Elt F) (viaM.view.loc (c : Thread nD τ))) :
    (viaM.view.loc (c : Thread nD τ) ↦{fullShare} f : sProp 𝕄)
      ⊣⊢ bigSep Finset.univ fun j : Fin 2 => piece c (viaS j) fullShare f := by
  have h := tile_split (F := F) (ℓ := viaM.view.loc (c : Thread nD τ)) (fun j : Fin 2 => (rVin j).set) rVin_disj rVin_cover fullShare f
  simp only [← viaS_set] at h
  exact h
theorem vib_split (c : Dev nD) (f : Buf (Elt F) (vibM.view.loc (c : Thread nD τ))) :
    (vibM.view.loc (c : Thread nD τ) ↦{fullShare} f : sProp 𝕄)
      ⊣⊢ bigSep Finset.univ fun j : Fin 2 => piece c (vibS j) fullShare f := by
  have h := tile_split (F := F) (ℓ := vibM.view.loc (c : Thread nD τ)) (fun j : Fin 2 => (rVin j).set) rVin_disj rVin_cover fullShare f
  simp only [← vibS_set] at h
  exact h
theorem via_join (c : Dev nD) :
    bigSep Finset.univ (fun j : Fin 2 => iprop(∃ f, piece c (viaS j) fullShare f))
      ⊢ (iprop(∃ f, viaM.view.loc (c : Thread nD τ) ↦{fullShare} f) : sProp 𝕄) := by
  have h := tile_join_ex (F := F) (ℓ := viaM.view.loc (c : Thread nD τ)) (fun j : Fin 2 => (rVin j).set) rVin_disj rVin_cover fullShare
  simp only [← viaS_set] at h
  exact h
theorem vib_join (c : Dev nD) :
    bigSep Finset.univ (fun j : Fin 2 => iprop(∃ f, piece c (vibS j) fullShare f))
      ⊢ (iprop(∃ f, vibM.view.loc (c : Thread nD τ) ↦{fullShare} f) : sProp 𝕄) := by
  have h := tile_join_ex (F := F) (ℓ := vibM.view.loc (c : Thread nD τ)) (fun j : Fin 2 => (rVin j).set) rVin_disj rVin_cover fullShare
  simp only [← vibS_set] at h
  exact h
theorem vca_split (c : Dev nD) (f : Buf (Elt F) (vcaM.view.loc (c : Thread nD τ))) :
    (vcaM.view.loc (c : Thread nD τ) ↦{fullShare} f : sProp 𝕄)
      ⊣⊢ bigSep Finset.univ fun s : Fin 3 =>
          (vcaM.view.loc (c : Thread nD τ) ↦[((vcaM.access (rVc s) : View sig .tc _ _ _)).set]{fullShare} f) := by
  have h := tile_split (F := F) (ℓ := vcaM.view.loc (c : Thread nD τ)) (fun s : Fin 3 => (rVc s).set) rVc_disj rVc_cover fullShare f
  simp only [← vca_access_set] at h
  exact h
theorem vcb_split (c : Dev nD) (f : Buf (Elt F) (vcbM.view.loc (c : Thread nD τ))) :
    (vcbM.view.loc (c : Thread nD τ) ↦{fullShare} f : sProp 𝕄)
      ⊣⊢ bigSep Finset.univ fun s : Fin 3 =>
          (vcbM.view.loc (c : Thread nD τ) ↦[((vcbM.access (rVc s) : View sig .tc _ _ _)).set]{fullShare} f) := by
  have h := tile_split (F := F) (ℓ := vcbM.view.loc (c : Thread nD τ)) (fun s : Fin 3 => (rVc s).set) rVc_disj rVc_cover fullShare f
  simp only [← vcb_access_set] at h
  exact h
theorem vca_join (c : Dev nD) :
    bigSep Finset.univ (fun s : Fin 3 => iprop(∃ f : Buf (Elt F) (vcaM.view.loc (c : Thread nD τ)),
        vcaM.view.loc (c : Thread nD τ) ↦[((vcaM.access (rVc s) : View sig .tc _ _ _)).set]{fullShare} f))
      ⊢ (iprop(∃ f, vcaM.view.loc (c : Thread nD τ) ↦{fullShare} f) : sProp 𝕄) := by
  have h := tile_join_ex (F := F) (ℓ := vcaM.view.loc (c : Thread nD τ)) (fun s : Fin 3 => (rVc s).set) rVc_disj rVc_cover fullShare
  simp only [← vca_access_set] at h
  exact h
theorem vcb_join (c : Dev nD) :
    bigSep Finset.univ (fun s : Fin 3 => iprop(∃ f : Buf (Elt F) (vcbM.view.loc (c : Thread nD τ)),
        vcbM.view.loc (c : Thread nD τ) ↦[((vcbM.access (rVc s) : View sig .tc _ _ _)).set]{fullShare} f))
      ⊢ (iprop(∃ f, vcbM.view.loc (c : Thread nD τ) ↦{fullShare} f) : sProp 𝕄) := by
  have h := tile_join_ex (F := F) (ℓ := vcbM.view.loc (c : Thread nD τ)) (fun s : Fin 3 => (rVc s).set) rVc_disj rVc_cover fullShare
  simp only [← vcb_access_set] at h
  exact h

/-! ### What a whole store to a slot leaves in each column half does not depend on the contents stored over -/

theorem vcaMine_write_irrel (c : Dev nD) (s : Fin 3) (q : PosShare TreeShare)
    (f g : Buf (Elt F) (vcaM.view.loc (c : Thread nD τ))) (w : S1x256x2048.Idx → Elt F .bf16) :
    piece c (vcaMine c s) q (((vcaM.access (rVc s) : View sig .tc _ _ _)).write (Elt F) f w Finset.univ)
      = piece c (vcaMine c s) q (((vcaM.access (rVc s) : View sig .tc _ _ _)).write (Elt F) g w Finset.univ) :=
  access_write_irrel c (vcaM.access (rVc s) : View sig .tc _ _ _) (vca_mine_subset c s) q f g w
theorem vcaPeer_write_irrel (c : Dev nD) (s : Fin 3) (q : PosShare TreeShare)
    (f g : Buf (Elt F) (vcaM.view.loc (c : Thread nD τ))) (w : S1x256x2048.Idx → Elt F .bf16) :
    piece c (vcaPeer c s) q (((vcaM.access (rVc s) : View sig .tc _ _ _)).write (Elt F) f w Finset.univ)
      = piece c (vcaPeer c s) q (((vcaM.access (rVc s) : View sig .tc _ _ _)).write (Elt F) g w Finset.univ) :=
  access_write_irrel c (vcaM.access (rVc s) : View sig .tc _ _ _) (vca_peer_subset c s) q f g w
theorem vcbMine_write_irrel (c : Dev nD) (s : Fin 3) (q : PosShare TreeShare)
    (f g : Buf (Elt F) (vcbM.view.loc (c : Thread nD τ))) (w : S1x256x2048.Idx → Elt F .bf16) :
    piece c (vcbMine c s) q (((vcbM.access (rVc s) : View sig .tc _ _ _)).write (Elt F) f w Finset.univ)
      = piece c (vcbMine c s) q (((vcbM.access (rVc s) : View sig .tc _ _ _)).write (Elt F) g w Finset.univ) :=
  access_write_irrel c (vcbM.access (rVc s) : View sig .tc _ _ _) (vcb_mine_subset c s) q f g w

end Cert.KernelA2A
end
-- ==== Proof.B2AFinish.lean ====
/-
  The two ends of a device's body. At the start each whole buffer is cut into the pieces the copies and the stores
  address. At the end every piece is back and every cell of the device stands at its last round: the pieces join into
  whole buffers (the result at contents that agree, block by block, with what the block's copy wrote) and every cell
  closes with its counter at zero.
-/
import proofs.«900012_g7700000000000013_dist_a2a_v7x_xy2x2_x_m16384_n1024_bf16_1_alg».proof.Proof.B2AGhost
import proofs.«900012_g7700000000000013_dist_a2a_v7x_xy2x2_x_m16384_n1024_bf16_1_alg».proof.Proof.B2AGeom

noncomputable section

namespace Cert.KernelA2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.SL.BI (bigSepL bigSep_univ_eq_bigSepL)

variable {F : FTy → Type} [FloatOps F]

local notation "𝕄" => MT nD τ sig Unit (Elt F) ℕ UU ℕ

variable (m : (ℓ : Loc nD τ sig) → Buf (Elt F) ℓ)

/-! ## A `bigSep` over a small index type, written out -/

theorem bigSep_fin2 (Φ : Fin 2 → sProp 𝕄) : bigSep Finset.univ Φ = iprop(Φ 0 ∗ Φ 1) :=
  bigSep_univ_eq_bigSepL [0, 1] (by decide) (by decide) Φ
theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin32 (Φ : Fin 32 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28,
    29, 30, 31] (by decide +kernel) (by decide +kernel) Φ

/-- One choice serves every summand. -/
theorem bigSep_ex_intro {ι : Type} {Y : Type} (s : Finset ι) (P : ι → Y → sProp 𝕄) (y : Y) :
    bigSep s (fun i => P i y) ⊢ bigSep s (fun i => iprop(∃ y, P i y)) :=
  bigSep_mono fun i _ => exists_intro (PROP := sProp 𝕄) (Φ := P i) y

/-! ## The start of the body: every buffer into its pieces -/

theorem start_x (c : Dev nD) :
    (((c : Thread nD τ).loc main_arg0) ↦{fullShare} Xc m c : sProp 𝕄)
      ⊢ iprop((bigSep Finset.univ fun k : Fin 32 => piece c (xA c k) fullShare (Xc m c))
          ∗ (bigSep Finset.univ fun k : Fin 32 => piece c (xB c k) fullShare (Xc m c))) := by
  have h := (x_split (F := F) c (Xc m c)).1
  exact h
theorem start_out (c : Dev nD) :
    (((c : Thread nD τ).loc main_v1) ↦{fullShare} m ((c : Thread nD τ).loc main_v1) : sProp 𝕄)
      ⊢ iprop((bigSep Finset.univ fun k : Fin 32 => piece c (oA c k) fullShare (m ((c : Thread nD τ).loc main_v1)))
          ∗ (bigSep Finset.univ fun k : Fin 32 => piece c (oB c k) fullShare (m ((c : Thread nD τ).loc main_v1)))
          ∗ (bigSep Finset.univ fun k : Fin 32 => piece c (oR c k) fullShare (m ((c : Thread nD τ).loc main_v1)))
          ∗ (bigSep Finset.univ fun k : Fin 32 => piece c (oR (py c) k) fullShare (m ((c : Thread nD τ).loc main_v1)))) := by
  have h := (out_split (F := F) c (m ((c : Thread nD τ).loc main_v1))).1
  exact h
theorem start_via (c : Dev nD) :
    (someBuf c cc0_scratch0 : sProp 𝕄) ⊢ bigSep Finset.univ fun j : Fin 2 => iprop(∃ f, piece c (viaS j) fullShare f) := by
  iintro ⟨%f, H⟩
  ihave H' := (via_split (F := F) c f).1 $$ H
  iapply (bigSep_ex_intro Finset.univ (fun (j : Fin 2) f => piece c (viaS j) fullShare f) f) $$ H'
theorem start_vib (c : Dev nD) :
    (someBuf c cc0_scratch1 : sProp 𝕄) ⊢ bigSep Finset.univ fun j : Fin 2 => iprop(∃ f, piece c (vibS j) fullShare f) := by
  iintro ⟨%f, H⟩
  ihave H' := (vib_split (F := F) c f).1 $$ H
  iapply (bigSep_ex_intro Finset.univ (fun (j : Fin 2) f => piece c (vibS j) fullShare f) f) $$ H'
theorem start_vca (c : Dev nD) :
    (someBuf c cc0_scratch2 : sProp 𝕄) ⊢ bigSep Finset.univ fun s : Fin 3 =>
      iprop(∃ f, ((vcaM.access (rVc s) : View sig .tc _ _ _).loc (c : Thread nD τ) ↦[(vcaM.access (rVc s) : View sig .tc _ _ _).set]{fullShare} f)) := by
  iintro ⟨%f, H⟩
  ihave H' := (vca_split (F := F) c f).1 $$ H
  iapply (bigSep_ex_intro Finset.univ (fun (s : Fin 3) (f : Buf (Elt F) (vcaM.view.loc (c : Thread nD τ))) =>
    (vcaM.view.loc (c : Thread nD τ) ↦[(vcaM.access (rVc s) : View sig .tc _ _ _).set]{fullShare} f : sProp 𝕄)) f) $$ H'
theorem start_vcb (c : Dev nD) :
    (someBuf c cc0_scratch3 : sProp 𝕄) ⊢ bigSep Finset.univ fun s : Fin 3 =>
      iprop(∃ f, ((vcbM.access (rVc s) : View sig .tc _ _ _).loc (c : Thread nD τ) ↦[(vcbM.access (rVc s) : View sig .tc _ _ _).set]{fullShare} f)) := by
  iintro ⟨%f, H⟩
  ihave H' := (vcb_split (F := F) c f).1 $$ H
  iapply (bigSep_ex_intro Finset.univ (fun (s : Fin 3) (f : Buf (Elt F) (vcbM.view.loc (c : Thread nD τ))) =>
    (vcbM.view.loc (c : Thread nD τ) ↦[(vcbM.access (rVc s) : View sig .tc _ _ _).set]{fullShare} f : sProp 𝕄)) f) $$ H'

/-- The whole landing buffer, as a piece. -/
theorem piece_ld (c : Dev nD) (q : PosShare TreeShare) (f : Buf (Elt F) (ldM.view.loc (c : Thread nD τ))) :
    piece c ldM q f = (ldM.view.loc (c : Thread nD τ) ↦{q} f : sProp 𝕄) :=
  congrArg (fun I => (ldM.view.loc (c : Thread nD τ) ↦[I]{q} f : sProp 𝕄)) (View.set_whole _)

theorem start_ld (c : Dev nD) :
    (someBuf c cc0_scratch4 : sProp 𝕄) ⊢ iprop(∃ f, piece c ldM fullShare f) := by
  iintro ⟨%f, H⟩
  iexists f
  rw [piece_ld]
  iexact H

/-! ## The device's own counters: the DMA semaphores, family after family -/

abbrev TQ : Type := Fin 2 ⊕ (Fin 2 ⊕ (Fin 3 ⊕ (Fin 3 ⊕ (Fin 32 ⊕ (Fin 32 ⊕ (Fin 32 ⊕ (Fin 32 ⊕ Fin 32)))))))

instance : DecidableEq TQ := Classical.decEq TQ

def famOf : TQ → Fam :=
  Sum.elim .ina (Sum.elim .inb (Sum.elim .lca (Sum.elim .lcb (Sum.elim .lo (Sum.elim .ds (Sum.elim .dr (Sum.elim .fs .fr)))))))
def semOf : TQ → DmaSem sig :=
  Sum.elim inaS (Sum.elim inbS (Sum.elim lcaS (Sum.elim lcbS (Sum.elim loS (Sum.elim dsS (Sum.elim drS (Sum.elim fsS frS)))))))
def unFam : Fam → TQ
  | .ina j => .inl j | .inb j => .inr (.inl j) | .lca s => .inr (.inr (.inl s)) | .lcb s => .inr (.inr (.inr (.inl s)))
  | .lo k => .inr (.inr (.inr (.inr (.inl k)))) | .ds k => .inr (.inr (.inr (.inr (.inr (.inl k)))))
  | .dr k => .inr (.inr (.inr (.inr (.inr (.inr (.inl k)))))) | .fs k => .inr (.inr (.inr (.inr (.inr (.inr (.inr (.inl k)))))))
  | .fr k => .inr (.inr (.inr (.inr (.inr (.inr (.inr (.inr k))))))) | .bar => .inl 0

theorem famOf_sem (t : TQ) : (famOf t).sem = .dma (semOf t) := by
  rcases t with j | j | s | s | k | k | k | k | k <;> rfl
theorem unFam_famOf (t : TQ) : unFam (famOf t) = t := by
  rcases t with j | j | s | s | k | k | k | k | k <;> rfl

/-- Every DMA semaphore is the semaphore of exactly one cell that is not the barrier's. -/
theorem semOf_inj : Function.Injective semOf := by
  intro t t' h
  have h1 : some (famOf t) = some (famOf t') := by rw [← decode_sem, ← decode_sem, famOf_sem, famOf_sem, h]
  have h2 := congrArg unFam (Option.some.inj h1)
  rwa [unFam_famOf, unFam_famOf] at h2
theorem semOf_image : Finset.univ.image semOf = (Finset.univ : Finset (DmaSem sig)) := by
  apply Finset.eq_univ_of_card
  rw [Finset.card_image_of_injective _ semOf_inj, Finset.card_univ]
  show Fintype.card TQ = Fintype.card (Fin sig.nDmaSem)
  simp only [Fintype.card_sum, Fintype.card_fin]

theorem sems_eq (c : Dev nD) :
    (bigSep Finset.univ fun q : DmaSem sig => (semVal ((c : Thread nD τ), .dma q) 0 : sProp 𝕄))
      = bigSep Finset.univ fun t : TQ => semVal (cell c (famOf t)) 0 := by
  rw [← semOf_image, bigSep_image_of_injOn (semOf_inj.injOn)]
  refine bigSep_congr fun t _ => ?_
  show (semVal ((c : Thread nD τ), SemLoc.dma (semOf t)) 0 : sProp 𝕄) = semVal ((c : Thread nD τ), (famOf t).sem) 0
  rw [famOf_sem]

/-- A `bigSep` over the families, family after family. -/
theorem tq_split (Φ : TQ → sProp 𝕄) : bigSep Finset.univ Φ
    = iprop((bigSep Finset.univ fun j : Fin 2 => Φ (.inl j)) ∗ (bigSep Finset.univ fun j : Fin 2 => Φ (.inr (.inl j)))
      ∗ (bigSep Finset.univ fun s : Fin 3 => Φ (.inr (.inr (.inl s)))) ∗ (bigSep Finset.univ fun s : Fin 3 => Φ (.inr (.inr (.inr (.inl s)))))
      ∗ (bigSep Finset.univ fun k : Fin 32 => Φ (.inr (.inr (.inr (.inr (.inl k))))))
      ∗ (bigSep Finset.univ fun k : Fin 32 => Φ (.inr (.inr (.inr (.inr (.inr (.inl k)))))))
      ∗ (bigSep Finset.univ fun k : Fin 32 => Φ (.inr (.inr (.inr (.inr (.inr (.inr (.inl k))))))))
      ∗ (bigSep Finset.univ fun k : Fin 32 => Φ (.inr (.inr (.inr (.inr (.inr (.inr (.inr (.inl k)))))))))
      ∗ (bigSep Finset.univ fun k : Fin 32 => Φ (.inr (.inr (.inr (.inr (.inr (.inr (.inr (.inr k)))))))))) := by
  rw [bigSep_univ_sum, bigSep_univ_sum, bigSep_univ_sum, bigSep_univ_sum, bigSep_univ_sum, bigSep_univ_sum, bigSep_univ_sum,
    bigSep_univ_sum]
  rfl

/-- A cell at its last round closes: its counter is at zero. -/
theorem close_cell_fin (K : Dev nD × Fam → ℕ) (c : Dev nD) (f : Fam) :
    iprop(cellInv ER (Rd m) (K (c, f)) (cell c f) ∗ atPos ER (cell c f) f.rounds ∅ 0) ⊢ iprop(|={Set.univ}=> semVal (cell c f) 0) :=
  Rounds.cell_close ER (Rd m) (Set.mem_univ _) (fun h => h) (R := f.rounds) (fun r hr => duties_later m c f hr)

/-- Every cell of the device that is not the barrier's, at its last round, closes. -/
theorem close_all (K : Dev nD × Fam → ℕ) (c : Dev nD) :
    iprop(records m K ∗ bigSep Finset.univ (fun t : TQ => atPos ER (cell c (famOf t)) (famOf t).rounds ∅ 0))
      ⊢ iprop(|={Set.univ}=> bigSep Finset.univ fun q : DmaSem sig => semVal ((c : Thread nD τ), .dma q) 0) := by
  rw [sems_eq]
  refine (bigSep_with_persistent (Ψ := fun t : TQ => iprop(|={Set.univ}=> semVal (cell c (famOf t)) 0)) (fun t _ => ?_)).trans
    (bigSep_fupd _ _)
  iintro ⟨#Hrec, Hat⟩
  ihave Hinv := (inv_at m K c (famOf t)) $$ Hrec
  iapply (close_cell_fin m K c (famOf t))
  isplitl [Hinv] <;> iassumption

/-! ## The end of the body -/

/-- The positions as the body holds them, family after family. -/
theorem atPos_regroup (c : Dev nD) :
    iprop((bigSep Finset.univ fun j : Fin 2 => iprop(atPos ER (cell c (.ina j)) 16 ∅ 0 ∗ atPos ER (cell c (.inb j)) 16 ∅ 0))
      ∗ (bigSep Finset.univ fun s : Fin 3 => iprop(atPos ER (cell c (.lca s)) (Fam.lca s).rounds ∅ 0 ∗ atPos ER (cell c (.lcb s)) (Fam.lcb s).rounds ∅ 0))
      ∗ (bigSep Finset.univ fun k : Fin 32 => iprop(atPos ER (cell c (.lo k)) 1 ∅ 0 ∗ atPos ER (cell c (.ds k)) 1 ∅ 0 ∗ atPos ER (cell c (.dr k)) 1 ∅ 0 ∗ atPos ER (cell c (.fs k)) 1 ∅ 0 ∗ atPos ER (cell c (.fr k)) 1 ∅ 0)))
      ⊢ (bigSep Finset.univ (fun t : TQ => atPos ER (cell c (famOf t)) (famOf t).rounds ∅ 0) : sProp 𝕄) := by
  rw [tq_split, bigSep_sep', bigSep_sep', bigSep_sep', bigSep_sep', bigSep_sep', bigSep_sep']
  iintro ⟨⟨H1, H2⟩, ⟨H3, H4⟩, H5, H6, H7, H8, H9⟩
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iexact H9

theorem finish (K : Dev nD × Fam → ℕ) (c : Dev nD) :
    iprop(records m K
      ∗ (bigSep Finset.univ fun k : Fin 32 => piece c (xA c k) fullShare (Xc m c)) ∗ (bigSep Finset.univ fun k : Fin 32 => piece c (xB c k) fullShare (Xc m c))
      ∗ (bigSep Finset.univ fun k : Fin 32 => piece c (oA c k) fullShare (outA m c k)) ∗ (bigSep Finset.univ fun k : Fin 32 => piece c (oB c k) fullShare (outB m c k))
      ∗ (bigSep Finset.univ fun k : Fin 32 => piece c (oR c k) fullShare (outL m c k)) ∗ (bigSep Finset.univ fun k : Fin 32 => piece c (oR (py c) k) fullShare (outF m c k))
      ∗ (bigSep Finset.univ fun j : Fin 2 => iprop(∃ f, piece c (viaS j) fullShare f)) ∗ (bigSep Finset.univ fun j : Fin 2 => iprop(∃ f, piece c (vibS j) fullShare f))
      ∗ (bigSep Finset.univ fun s : Fin 3 => iprop(∃ f, ((vcaM.access (rVc s) : View sig .tc _ _ _).loc (c : Thread nD τ) ↦[(vcaM.access (rVc s) : View sig .tc _ _ _).set]{fullShare} f)))
      ∗ (bigSep Finset.univ fun s : Fin 3 => iprop(∃ f, ((vcbM.access (rVc s) : View sig .tc _ _ _).loc (c : Thread nD τ) ↦[(vcbM.access (rVc s) : View sig .tc _ _ _).set]{fullShare} f)))
      ∗ (bigSep Finset.univ fun k : Fin 32 => iprop(∃ f, piece c (ldS k) fullShare f))
      ∗ (bigSep Finset.univ fun j : Fin 2 => iprop(atPos ER (cell c (.ina j)) 16 ∅ 0 ∗ atPos ER (cell c (.inb j)) 16 ∅ 0))
      ∗ (bigSep Finset.univ fun s : Fin 3 => iprop(atPos ER (cell c (.lca s)) (Fam.lca s).rounds ∅ 0 ∗ atPos ER (cell c (.lcb s)) (Fam.lcb s).rounds ∅ 0))
      ∗ (bigSep Finset.univ fun k : Fin 32 => iprop(atPos ER (cell c (.lo k)) 1 ∅ 0 ∗ atPos ER (cell c (.ds k)) 1 ∅ 0 ∗ atPos ER (cell c (.dr k)) 1 ∅ 0 ∗ atPos ER (cell c (.fs k)) 1 ∅ 0 ∗ atPos ER (cell c (.fr k)) 1 ∅ 0)))
    ⊢ iprop(|={Set.univ}=> Φ₁ m c) := by
  iintro ⟨#Hrec, HxA, HxB, HoA, HoB, HoL, HoF, Hvia, Hvib, Hvca, Hvcb, Hld, Hin, Hlc, Hk⟩
  ihave Hx := (x_split (F := F) c (Xc m c)).2 $$ [HxA HxB]
  · isplitl [HxA] <;> iassumption
  ihave Hout := (out_join (F := F) c (outA m c) (outB m c) (outL m c) (outF m c)) $$ [HoA HoB HoL HoF]
  · isplitl [HoA]
    · iassumption
    isplitl [HoB]
    · iassumption
    isplitl [HoL] <;> iassumption
  ihave H0 := (via_join (F := F) c) $$ Hvia
  ihave H1 := (vib_join (F := F) c) $$ Hvib
  ihave H2 := (vca_join (F := F) c) $$ Hvca
  ihave H3 := (vcb_join (F := F) c) $$ Hvcb
  ihave H4 := (ld_join (F := F) c) $$ Hld
  ihave Hpos := (atPos_regroup (F := F) c) $$ [Hin Hlc Hk]
  · isplitl [Hin]
    · iassumption
    isplitl [Hlc] <;> iassumption
  ihave Hsem := (close_all m K c) $$ [Hpos]
  · isplitr
    · iexact Hrec
    · iexact Hpos
  imod Hsem
  imodintro
  unfold Φ₁
  isplitl [H0]
  · iexact H0
  isplitl [H1]
  · iexact H1
  isplitl [H2]
  · iexact H2
  isplitl [H3]
  · iexact H3
  isplitl [H4]
  · iexact H4
  isplitl [Hx]
  · iexact Hx
  isplitl [Hout]
  · icases Hout with ⟨%g, %hg, Hg⟩
    iexists g
    isplitr
    · ipureintro; exact hg
    · iexact Hg
  iexact Hsem

end Cert.KernelA2A
end
-- ==== Proof.B2ABody.lean ====
/- The device's body, effect by effect in program order: each printed copy, wait, load, store and signal is met by one
   application, at its literal chunk number, of the lemma that states what that effect takes and hands back; between
   them the slots of the two bf16 buffers are cut into the halves the copies read and joined again, and a landed
   chunk's share is halved for its two readers. -/
import proofs.«900012_g7700000000000013_dist_a2a_v7x_xy2x2_x_m16384_n1024_bf16_1_alg».proof.Proof.A2ABody
import proofs.«900012_g7700000000000013_dist_a2a_v7x_xy2x2_x_m16384_n1024_bf16_1_alg».proof.Proof.B2AOps
import proofs.«900012_g7700000000000013_dist_a2a_v7x_xy2x2_x_m16384_n1024_bf16_1_alg».proof.Proof.B2AGeom
import proofs.«900012_g7700000000000013_dist_a2a_v7x_xy2x2_x_m16384_n1024_bf16_1_alg».proof.Proof.B2AFinish

noncomputable section

namespace Cert.KernelA2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The x-peer's landing buffer, slot by slot. -/
theorem peer_ld_split (c : Dev nD) (f : Buf (Elt F) (ldM.view.loc (px c : Thread nD τ))) :
    piece (px c) ldM fullShare f ⊢ (bigSep Finset.univ fun k : Fin 32 => piece (px c) (ldS k) fullShare f : sProp 𝕄) := by
  rw [piece_ld]; exact (ld_split (px c) f).1

/-- The relayed quarter of the result, each block at some contents. -/
theorem out_quarter_ex (c : Dev nD) (f : Buf (Elt F) (oM.view.loc (c : Thread nD τ))) :
    (bigSep Finset.univ fun k : Fin 32 => piece c (oR (py c) k) fullShare f : sProp 𝕄)
      ⊢ bigSep Finset.univ fun k : Fin 32 => iprop(∃ g, piece c (oR (py c) k) fullShare g) :=
  bigSep_mono fun k _ => exists_intro (PROP := sProp 𝕄) (Φ := fun g => piece c (oR (py c) k) fullShare g) f

/-- A half slot of the bf16 buffer credits a copy's semaphore what every 256 x 1024 bf16 block does. -/
theorem credit_vcaPeer (c : Dev nD) (s : Fin 3) : (vcaPeer c s).view.dmaCredit = Nout := rfl

set_option maxHeartbeats 40000000 in
set_option maxRecDepth 65536 in
theorem sound_body (c : Dev nD) (W : Waits sig Unit) (Kt : PUnit → sProp 𝕄) :
    iprop(Φ₀ m c ∗ owes (c : Thread nD τ) (O₀ c) W ∗ ((Φ₁ m c ∗ ∃ W', owes (c : Thread nD τ) 0 W') -∗ Kt ⟨⟩))
      ⊢ wp frame (wpE (defs₀ (F := F)) 𝒱₀ c none) Set.univ
          (cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13) Kt := by
  simp only [cc0_body_eq_skeleton]
  unfold cc0_body_skel
  -- the printed part k0_part147 is opened
  simp only [k0_part147_eq_skeleton]
  unfold k0_part147_skel
  simp only [semSignalWord, semWaitWord, Prog.lift, Prog.bind_op, Prog.bind_ret, Prog.pure_eq_ret, wp_deviceId]
  -- the printed part k0_part1 is opened
  simp only [k0_part1_eq_skeleton]
  unfold k0_part1_skel
  simp only [semSignalWord, semWaitWord, Prog.lift, Prog.bind_op, Prog.bind_ret, Prog.pure_eq_ret, wp_deviceId]
  unfold Φ₀ ghost
  iintro ⟨⟨⟨%K, #HR, Hch, Hp2, Hp3, Pbar, Cbar, TbarX, TbarY, #Hlev⟩, S0, S1, S2, S3, S4, HX, HOut⟩, HO, Hk⟩
  -- the ghost state chunk by chunk, the buffers piece by piece
  ihave Hch := (Entails.of_eq (bigSep_fin32 _)) $$ Hch
  unfold chunkRes
  icases Hch with ⟨⟨Tia0, Tib0, Tla0, Tlb0, Tlo0, Tds0, Tfs0, Tdr0, Tfr0, Plo0, Pds0, Pdr0, Pfs0, Pfr0, Cdr0, Cfr0⟩, ⟨Tia1, Tib1, Tla1, Tlb1, Tlo1, Tds1, Tfs1, Tdr1, Tfr1, Plo1, Pds1, Pdr1, Pfs1, Pfr1, Cdr1, Cfr1⟩, ⟨Tia2, Tib2, Tla2, Tlb2, Tlo2, Tds2, Tfs2, Tdr2, Tfr2, Plo2, Pds2, Pdr2, Pfs2, Pfr2, Cdr2, Cfr2⟩, ⟨Tia3, Tib3, Tla3, Tlb3, Tlo3, Tds3, Tfs3, Tdr3, Tfr3, Plo3, Pds3, Pdr3, Pfs3, Pfr3, Cdr3, Cfr3⟩, ⟨Tia4, Tib4, Tla4, Tlb4, Tlo4, Tds4, Tfs4, Tdr4, Tfr4, Plo4, Pds4, Pdr4, Pfs4, Pfr4, Cdr4, Cfr4⟩, ⟨Tia5, Tib5, Tla5, Tlb5, Tlo5, Tds5, Tfs5, Tdr5, Tfr5, Plo5, Pds5, Pdr5, Pfs5, Pfr5, Cdr5, Cfr5⟩, ⟨Tia6, Tib6, Tla6, Tlb6, Tlo6, Tds6, Tfs6, Tdr6, Tfr6, Plo6, Pds6, Pdr6, Pfs6, Pfr6, Cdr6, Cfr6⟩, ⟨Tia7, Tib7, Tla7, Tlb7, Tlo7, Tds7, Tfs7, Tdr7, Tfr7, Plo7, Pds7, Pdr7, Pfs7, Pfr7, Cdr7, Cfr7⟩, ⟨Tia8, Tib8, Tla8, Tlb8, Tlo8, Tds8, Tfs8, Tdr8, Tfr8, Plo8, Pds8, Pdr8, Pfs8, Pfr8, Cdr8, Cfr8⟩, ⟨Tia9, Tib9, Tla9, Tlb9, Tlo9, Tds9, Tfs9, Tdr9, Tfr9, Plo9, Pds9, Pdr9, Pfs9, Pfr9, Cdr9, Cfr9⟩, ⟨Tia10, Tib10, Tla10, Tlb10, Tlo10, Tds10, Tfs10, Tdr10, Tfr10, Plo10, Pds10, Pdr10, Pfs10, Pfr10, Cdr10, Cfr10⟩, ⟨Tia11, Tib11, Tla11, Tlb11, Tlo11, Tds11, Tfs11, Tdr11, Tfr11, Plo11, Pds11, Pdr11, Pfs11, Pfr11, Cdr11, Cfr11⟩, ⟨Tia12, Tib12, Tla12, Tlb12, Tlo12, Tds12, Tfs12, Tdr12, Tfr12, Plo12, Pds12, Pdr12, Pfs12, Pfr12, Cdr12, Cfr12⟩, ⟨Tia13, Tib13, Tla13, Tlb13, Tlo13, Tds13, Tfs13, Tdr13, Tfr13, Plo13, Pds13, Pdr13, Pfs13, Pfr13, Cdr13, Cfr13⟩, ⟨Tia14, Tib14, Tla14, Tlb14, Tlo14, Tds14, Tfs14, Tdr14, Tfr14, Plo14, Pds14, Pdr14, Pfs14, Pfr14, Cdr14, Cfr14⟩, ⟨Tia15, Tib15, Tla15, Tlb15, Tlo15, Tds15, Tfs15, Tdr15, Tfr15, Plo15, Pds15, Pdr15, Pfs15, Pfr15, Cdr15, Cfr15⟩, ⟨Tia16, Tib16, Tla16, Tlb16, Tlo16, Tds16, Tfs16, Tdr16, Tfr16, Plo16, Pds16, Pdr16, Pfs16, Pfr16, Cdr16, Cfr16⟩, ⟨Tia17, Tib17, Tla17, Tlb17, Tlo17, Tds17, Tfs17, Tdr17, Tfr17, Plo17, Pds17, Pdr17, Pfs17, Pfr17, Cdr17, Cfr17⟩, ⟨Tia18, Tib18, Tla18, Tlb18, Tlo18, Tds18, Tfs18, Tdr18, Tfr18, Plo18, Pds18, Pdr18, Pfs18, Pfr18, Cdr18, Cfr18⟩, ⟨Tia19, Tib19, Tla19, Tlb19, Tlo19, Tds19, Tfs19, Tdr19, Tfr19, Plo19, Pds19, Pdr19, Pfs19, Pfr19, Cdr19, Cfr19⟩, ⟨Tia20, Tib20, Tla20, Tlb20, Tlo20, Tds20, Tfs20, Tdr20, Tfr20, Plo20, Pds20, Pdr20, Pfs20, Pfr20, Cdr20, Cfr20⟩, ⟨Tia21, Tib21, Tla21, Tlb21, Tlo21, Tds21, Tfs21, Tdr21, Tfr21, Plo21, Pds21, Pdr21, Pfs21, Pfr21, Cdr21, Cfr21⟩, ⟨Tia22, Tib22, Tla22, Tlb22, Tlo22, Tds22, Tfs22, Tdr22, Tfr22, Plo22, Pds22, Pdr22, Pfs22, Pfr22, Cdr22, Cfr22⟩, ⟨Tia23, Tib23, Tla23, Tlb23, Tlo23, Tds23, Tfs23, Tdr23, Tfr23, Plo23, Pds23, Pdr23, Pfs23, Pfr23, Cdr23, Cfr23⟩, ⟨Tia24, Tib24, Tla24, Tlb24, Tlo24, Tds24, Tfs24, Tdr24, Tfr24, Plo24, Pds24, Pdr24, Pfs24, Pfr24, Cdr24, Cfr24⟩, ⟨Tia25, Tib25, Tla25, Tlb25, Tlo25, Tds25, Tfs25, Tdr25, Tfr25, Plo25, Pds25, Pdr25, Pfs25, Pfr25, Cdr25, Cfr25⟩, ⟨Tia26, Tib26, Tla26, Tlb26, Tlo26, Tds26, Tfs26, Tdr26, Tfr26, Plo26, Pds26, Pdr26, Pfs26, Pfr26, Cdr26, Cfr26⟩, ⟨Tia27, Tib27, Tla27, Tlb27, Tlo27, Tds27, Tfs27, Tdr27, Tfr27, Plo27, Pds27, Pdr27, Pfs27, Pfr27, Cdr27, Cfr27⟩, ⟨Tia28, Tib28, Tla28, Tlb28, Tlo28, Tds28, Tfs28, Tdr28, Tfr28, Plo28, Pds28, Pdr28, Pfs28, Pfr28, Cdr28, Cfr28⟩, ⟨Tia29, Tib29, Tla29, Tlb29, Tlo29, Tds29, Tfs29, Tdr29, Tfr29, Plo29, Pds29, Pdr29, Pfs29, Pfr29, Cdr29, Cfr29⟩, ⟨Tia30, Tib30, Tla30, Tlb30, Tlo30, Tds30, Tfs30, Tdr30, Tfr30, Plo30, Pds30, Pdr30, Pfs30, Pfr30, Cdr30, Cfr30⟩, ⟨Tia31, Tib31, Tla31, Tlb31, Tlo31, Tds31, Tfs31, Tdr31, Tfr31, Plo31, Pds31, Pdr31, Pfs31, Pfr31, Cdr31, Cfr31⟩⟩
  ihave Hp2 := (Entails.of_eq (bigSep_fin2 _)) $$ Hp2; icases Hp2 with ⟨⟨Pia0, Pib0⟩, ⟨Pia1, Pib1⟩⟩
  ihave Hp3 := (Entails.of_eq (bigSep_fin3 _)) $$ Hp3; icases Hp3 with ⟨⟨Pla0, Plb0⟩, ⟨Pla1, Plb1⟩, ⟨Pla2, Plb2⟩⟩
  ihave H := (start_x m c) $$ HX; icases H with ⟨HXA, HXB⟩
  ihave HXA := (Entails.of_eq (bigSep_fin32 _)) $$ HXA; icases HXA with ⟨XA0, XA1, XA2, XA3, XA4, XA5, XA6, XA7, XA8, XA9, XA10, XA11, XA12, XA13, XA14, XA15, XA16, XA17, XA18, XA19, XA20, XA21, XA22, XA23, XA24, XA25, XA26, XA27, XA28, XA29, XA30, XA31⟩
  ihave HXB := (Entails.of_eq (bigSep_fin32 _)) $$ HXB; icases HXB with ⟨XB0, XB1, XB2, XB3, XB4, XB5, XB6, XB7, XB8, XB9, XB10, XB11, XB12, XB13, XB14, XB15, XB16, XB17, XB18, XB19, XB20, XB21, XB22, XB23, XB24, XB25, XB26, XB27, XB28, XB29, XB30, XB31⟩
  ihave H := (start_out m c) $$ HOut; icases H with ⟨HOA, HOB, HOR, HOF⟩
  ihave HOF := (out_quarter_ex c _) $$ HOF
  ihave HOA := (Entails.of_eq (bigSep_fin32 _)) $$ HOA; icases HOA with ⟨OA0, OA1, OA2, OA3, OA4, OA5, OA6, OA7, OA8, OA9, OA10, OA11, OA12, OA13, OA14, OA15, OA16, OA17, OA18, OA19, OA20, OA21, OA22, OA23, OA24, OA25, OA26, OA27, OA28, OA29, OA30, OA31⟩
  ihave HOB := (Entails.of_eq (bigSep_fin32 _)) $$ HOB; icases HOB with ⟨OB0, OB1, OB2, OB3, OB4, OB5, OB6, OB7, OB8, OB9, OB10, OB11, OB12, OB13, OB14, OB15, OB16, OB17, OB18, OB19, OB20, OB21, OB22, OB23, OB24, OB25, OB26, OB27, OB28, OB29, OB30, OB31⟩
  ihave HOR := (Entails.of_eq (bigSep_fin32 _)) $$ HOR; icases HOR with ⟨OR0, OR1, OR2, OR3, OR4, OR5, OR6, OR7, OR8, OR9, OR10, OR11, OR12, OR13, OR14, OR15, OR16, OR17, OR18, OR19, OR20, OR21, OR22, OR23, OR24, OR25, OR26, OR27, OR28, OR29, OR30, OR31⟩
  ihave H := (start_via c) $$ S0; ihave H := (Entails.of_eq (bigSep_fin2 _)) $$ H; icases H with ⟨⟨%fva0, VA0⟩, ⟨%fva1, VA1⟩⟩
  ihave H := (start_vib c) $$ S1; ihave H := (Entails.of_eq (bigSep_fin2 _)) $$ H; icases H with ⟨⟨%fvb0, VB0⟩, ⟨%fvb1, VB1⟩⟩
  ihave H := (start_vca c) $$ S2; ihave H := (Entails.of_eq (bigSep_fin3 _)) $$ H; icases H with ⟨⟨%fca0, CA0⟩, ⟨%fca1, CA1⟩, ⟨%fca2, CA2⟩⟩
  ihave H := (start_vcb c) $$ S3; ihave H := (Entails.of_eq (bigSep_fin3 _)) $$ H; icases H with ⟨⟨%fcb0, CB0⟩, ⟨%fcb1, CB1⟩, ⟨%fcb2, CB2⟩⟩
  ihave HLD := (start_ld c) $$ S4
  -- chunk 0, half a: its rows of x start for staging slot 0
  iapply (wp_stage_a m K c 0 _) $$ [XA0 VA0 Tia0]
  · isplitr; · (iapply (inv_at m K c (.ina (slot2 0))); iexact HR)
    isplitr; · (iapply (reached0_at m K c (.ina (slot2 0))); iexact HR)
    isplitl [XA0]; · iexact XA0
    isplitl [VA0]; · iexact VA0
    iexact Tia0
  iintro Kia0
  -- chunk 0, half b: its rows of x start for staging slot 0
  iapply (wp_stage_b m K c 0 _) $$ [XB0 VB0 Tib0]
  · isplitr; · (iapply (inv_at m K c (.inb (slot2 0))); iexact HR)
    isplitr; · (iapply (reached0_at m K c (.inb (slot2 0))); iexact HR)
    isplitl [XB0]; · iexact XB0
    isplitl [VB0]; · iexact VB0
    iexact Tib0
  iintro Kib0
  -- chunk 1, half a: its rows of x start for staging slot 1
  iapply (wp_stage_a m K c 1 _) $$ [XA1 VA1 Tia1]
  · isplitr; · (iapply (inv_at m K c (.ina (slot2 1))); iexact HR)
    isplitr; · (iapply (reached0_at m K c (.ina (slot2 1))); iexact HR)
    isplitl [XA1]; · iexact XA1
    isplitl [VA1]; · iexact VA1
    iexact Tia1
  iintro Kia1
  -- chunk 1, half b: its rows of x start for staging slot 1
  -- the printed part k0_part2 is opened
  simp only [k0_part2_eq_skeleton]
  unfold k0_part2_skel
  simp only [semSignalWord, semWaitWord, Prog.lift, Prog.bind_op, Prog.bind_ret, Prog.pure_eq_ret, wp_deviceId]
  iapply (wp_stage_b m K c 1 _) $$ [XB1 VB1 Tib1]
  · isplitr; · (iapply (inv_at m K c (.inb (slot2 1))); iexact HR)
    isplitr; · (iapply (reached0_at m K c (.inb (slot2 1))); iexact HR)
    isplitl [XB1]; · iexact XB1
    isplitl [VB1]; · iexact VB1
    iexact Tib1
  iintro Kib1
  -- the handshake: the landing buffer goes to the x-peer, the relayed quarter of the result to the y-peer
  unfold O₀
  iapply (wp_signal_x m K c _ (devx_eq c _ _ (k0_dev1_eq c)) _ (by decide) (oweD c 0 + oweF c 0 + tallyAt (cell (py c) .bar) () 1) _) $$ [HO TbarX HLD]
  · isplitr; · (iapply (inv_at m K (px c) .bar); iexact HR)
    isplitr; · (iapply (reached0_at m K (px c) .bar); iexact HR)
    isplitl [HO]; · iexact HO
    isplitl [TbarX]; · iexact TbarX
    iexact HLD
  iintro HO
  iapply (wp_signal_y m K c _ (devy_eq c _ _ (k0_dev2_eq c)) _ (by decide) (oweD c 0 + oweF c 0) _) $$ [HO TbarY HOF]
  · isplitr; · (iapply (inv_at m K (py c) .bar); iexact HR)
    isplitr; · (iapply (reached0_at m K (py c) .bar); iexact HR)
    isplitl [HO]; · iexact HO
    isplitl [TbarY]; · iexact TbarY
    iexact HOF
  iintro HO
  iapply (wp_wait_bar m K c _ (by decide) (oweD c 0 + oweF c 0) _) $$ [Cbar HO Pbar]
  · isplitr; · (iapply (inv_at m K c .bar); iexact HR)
    isplitl [Cbar]; · iexact Cbar
    isplitl [HO]; · iexact HO
    isplitr; · (iapply (mayWait_bar c); iexact Hlev)
    iexact Pbar
  iintro ⟨HO, Pbar, -, ⟨%fl, HLP⟩, HOP⟩
  ihave HLP := (peer_ld_split c fl) $$ HLP
  ihave HLP := (Entails.of_eq (bigSep_fin32 _)) $$ HLP; icases HLP with ⟨LP0, LP1, LP2, LP3, LP4, LP5, LP6, LP7, LP8, LP9, LP10, LP11, LP12, LP13, LP14, LP15, LP16, LP17, LP18, LP19, LP20, LP21, LP22, LP23, LP24, LP25, LP26, LP27, LP28, LP29, LP30, LP31⟩
  ihave HOP := (Entails.of_eq (bigSep_fin32 _)) $$ HOP; icases HOP with ⟨⟨%fop0, OP0⟩, ⟨%fop1, OP1⟩, ⟨%fop2, OP2⟩, ⟨%fop3, OP3⟩, ⟨%fop4, OP4⟩, ⟨%fop5, OP5⟩, ⟨%fop6, OP6⟩, ⟨%fop7, OP7⟩, ⟨%fop8, OP8⟩, ⟨%fop9, OP9⟩, ⟨%fop10, OP10⟩, ⟨%fop11, OP11⟩, ⟨%fop12, OP12⟩, ⟨%fop13, OP13⟩, ⟨%fop14, OP14⟩, ⟨%fop15, OP15⟩, ⟨%fop16, OP16⟩, ⟨%fop17, OP17⟩, ⟨%fop18, OP18⟩, ⟨%fop19, OP19⟩, ⟨%fop20, OP20⟩, ⟨%fop21, OP21⟩, ⟨%fop22, OP22⟩, ⟨%fop23, OP23⟩, ⟨%fop24, OP24⟩, ⟨%fop25, OP25⟩, ⟨%fop26, OP26⟩, ⟨%fop27, OP27⟩, ⟨%fop28, OP28⟩, ⟨%fop29, OP29⟩, ⟨%fop30, OP30⟩, ⟨%fop31, OP31⟩⟩
  -- chunk 0, half a: its staged rows have landed in slot 0
  iapply (wp_wait_ina m K c 0 (credit_viaS (slot2 0)) (oweD c 0 + oweF c 0) _) $$ [Kia0 HO Pia0]
  · isplitr; · (iapply (inv_at m K c (.ina (slot2 0))); iexact HR)
    isplitl [Kia0]; · iexact Kia0
    isplitl [HO]; · iexact HO
    isplitr; · (iapply (mayWait_own c (.ina (slot2 0)) rfl 0 0); iexact Hlev)
    iexact Pia0
  iintro ⟨HO, Pia0, #Ria0, VA0, XA0⟩
  -- chunk 0, half b: its staged rows have landed in slot 0
  iapply (wp_wait_inb m K c 0 (credit_vibS (slot2 0)) (oweD c 0 + oweF c 0) _) $$ [Kib0 HO Pib0]
  · isplitr; · (iapply (inv_at m K c (.inb (slot2 0))); iexact HR)
    isplitl [Kib0]; · iexact Kib0
    isplitl [HO]; · iexact HO
    isplitr; · (iapply (mayWait_own c (.inb (slot2 0)) rfl 0 0); iexact Hlev)
    iexact Pib0
  iintro ⟨HO, Pib0, #Rib0, VB0, XB0⟩
  -- chunk 0, half a: staging slot 0 is loaded, cast and stored into bf16 slot 0
  iapply (wp_load_via c (slot2 0) _ _) $$ [VA0]
  · iexact VA0
  iintro VA0
  -- the printed part k0_part3 is opened
  simp only [k0_part3_eq_skeleton]
  unfold k0_part3_skel
  simp only [semSignalWord, semWaitWord, Prog.lift, Prog.bind_op, Prog.bind_ret, Prog.pure_eq_ret, wp_deviceId]
  iapply (wp_load_vca c (slot3 0) _ _) $$ [CA0]
  · iexact CA0
  iintro CA0
  iapply (wp_store_vca c (slot3 0) _ _) $$ [CA0]
  · iexact CA0
  iintro CA0
  ihave CA0 := (store_vca_at m c 0 _ _ rfl) $$ [CA0]
  · iexact CA0
  -- chunk 0, half b: staging slot 0 is loaded, cast and stored into bf16 slot 0
  iapply (wp_load_vib c (slot2 0) _ _) $$ [VB0]
  · iexact VB0
  iintro VB0
  iapply (wp_load_vcb c (slot3 0) _ _) $$ [CB0]
  · iexact CB0
  iintro CB0
  iapply (wp_store_vcb c (slot3 0) _ _) $$ [CB0]
  · iexact CB0
  iintro CB0
  ihave CB0 := (store_vcb_at m c 0 _ _ rfl) $$ [CB0]
  · iexact CB0
  ihave H := (vca_slot_split c (slot3 0) fullShare _).1 $$ [CA0]
  · iexact CA0
  icases H with ⟨CAm0, CAp0⟩
  ihave H := (vcb_slot_split c (slot3 0) fullShare _).1 $$ [CB0]
  · iexact CB0
  icases H with ⟨CBm0, CBr0⟩
  -- chunk 0, half a: the device's own columns of slot 0 start for the result
  iapply (wp_lca m K c 0 _) $$ [CAm0 OA0 Tla0]
  · isplitr; · (iapply (inv_at m K c (.lca (slot3 0))); iexact HR)
    isplitr; · (iapply (reached0_at m K c (.lca (slot3 0))); iexact HR)
    isplitl [CAm0]; · iexact CAm0
    isplitl [OA0]; · iexact OA0
    iexact Tla0
  iintro Kla0
  -- chunk 0, half b: the device's own columns of slot 0 start for the result
  iapply (wp_lcb m K c 0 _) $$ [CBm0 OB0 Tlb0]
  · isplitr; · (iapply (inv_at m K c (.lcb (slot3 0))); iexact HR)
    isplitr; · (iapply (reached0_at m K c (.lcb (slot3 0))); iexact HR)
    isplitl [CBm0]; · iexact CBm0
    isplitl [OB0]; · iexact OB0
    iexact Tlb0
  iintro Klb0
  -- chunk 0: the x-peer's columns of slot 0 are sent into its landing slot 0
  rw [show (oweD c 0 + oweF c 0 : CellTallies nD τ sig Unit) = (oweD c 1 + oweF c 0) + tallyAt (cell (px c) (.dr 0)) () Nout from by rw [oweD_peel c 0 (by decide), add_right_comm]; rfl]
  -- the printed part k0_part4 is opened
  simp only [k0_part4_eq_skeleton]
  unfold k0_part4_skel
  simp only [semSignalWord, semWaitWord, Prog.lift, Prog.bind_op, Prog.bind_ret, Prog.pure_eq_ret, wp_deviceId]
  iapply (wp_send_d m K c _ (devx_eq c _ _ (k0_dev3_eq c)) 0 _ (oweD c 1 + oweF c 0) _) $$ [CAp0 LP0 HO Tds0 Tdr0]
  · isplitr; · (iapply (inv_at m K c (.ds 0)); iexact HR)
    isplitr; · (iapply (inv_at m K (px c) (.dr 0)); iexact HR)
    isplitr; · (iapply (reached0_at m K c (.ds 0)); iexact HR)
    isplitr; · (iapply (reached0_at m K (px c) (.dr 0)); iexact HR)
    isplitl [CAp0]; · iexact CAp0
    isplitl [LP0]; · iexact LP0
    isplitl [HO]; · iexact HO
    isplitl [Tds0]; · iexact Tds0
    iexact Tdr0
  iintro ⟨Kds0, HO⟩
  -- chunk 2, half a: its rows of x start for staging slot 0
  iapply (wp_stage_a m K c 2 _) $$ [XA2 VA0 Tia2]
  · isplitr; · (iapply (inv_at m K c (.ina (slot2 2))); iexact HR)
    isplitr; · iexact Ria0
    isplitl [XA2]; · iexact XA2
    isplitl [VA0]; · iexact VA0
    iexact Tia2
  iintro Kia2
  -- chunk 2, half b: its rows of x start for staging slot 0
  iapply (wp_stage_b m K c 2 _) $$ [XB2 VB0 Tib2]
  · isplitr; · (iapply (inv_at m K c (.inb (slot2 2))); iexact HR)
    isplitr; · iexact Rib0
    isplitl [XB2]; · iexact XB2
    isplitl [VB0]; · iexact VB0
    iexact Tib2
  iintro Kib2
  -- chunk 1, half a: its staged rows have landed in slot 1
  iapply (wp_wait_ina m K c 1 (credit_viaS (slot2 1)) (oweD c 1 + oweF c 0) _) $$ [Kia1 HO Pia1]
  · isplitr; · (iapply (inv_at m K c (.ina (slot2 1))); iexact HR)
    isplitl [Kia1]; · iexact Kia1
    isplitl [HO]; · iexact HO
    isplitr; · (iapply (mayWait_own c (.ina (slot2 1)) rfl 1 0); iexact Hlev)
    iexact Pia1
  iintro ⟨HO, Pia1, #Ria1, VA1, XA1⟩
  -- chunk 1, half b: its staged rows have landed in slot 1
  -- the printed part k0_part5 is opened
  simp only [k0_part5_eq_skeleton]
  unfold k0_part5_skel
  simp only [semSignalWord, semWaitWord, Prog.lift, Prog.bind_op, Prog.bind_ret, Prog.pure_eq_ret, wp_deviceId]
  iapply (wp_wait_inb m K c 1 (credit_vibS (slot2 1)) (oweD c 1 + oweF c 0) _) $$ [Kib1 HO Pib1]
  · isplitr; · (iapply (inv_at m K c (.inb (slot2 1))); iexact HR)
    isplitl [Kib1]; · iexact Kib1
    isplitl [HO]; · iexact HO
    isplitr; · (iapply (mayWait_own c (.inb (slot2 1)) rfl 1 0); iexact Hlev)
    iexact Pib1
  iintro ⟨HO, Pib1, #Rib1, VB1, XB1⟩
  -- chunk 1, half a: staging slot 1 is loaded, cast and stored into bf16 slot 1
  iapply (wp_load_via c (slot2 1) _ _) $$ [VA1]
  · iexact VA1
  iintro VA1
  iapply (wp_load_vca c (slot3 1) _ _) $$ [CA1]
  · iexact CA1
  iintro CA1
  iapply (wp_store_vca c (slot3 1) _ _) $$ [CA1]
  · iexact CA1
  iintro CA1
  ihave CA1 := (store_vca_at m c 1 _ _ rfl) $$ [CA1]
  · iexact CA1
  -- chunk 1, half b: staging slot 1 is loaded, cast and stored into bf16 slot 1
  iapply (wp_load_vib c (slot2 1) _ _) $$ [VB1]
  · iexact VB1
  iintro VB1
  iapply (wp_load_vcb c (slot3 1) _ _) $$ [CB1]
  · iexact CB1
  iintro CB1
  iapply (wp_store_vcb c (slot3 1) _ _) $$ [CB1]
  · iexact CB1
  iintro CB1
  ihave CB1 := (store_vcb_at m c 1 _ _ rfl) $$ [CB1]
  · iexact CB1
  ihave H := (vca_slot_split c (slot3 1) fullShare _).1 $$ [CA1]
  · iexact CA1
  icases H with ⟨CAm1, CAp1⟩
  ihave H := (vcb_slot_split c (slot3 1) fullShare _).1 $$ [CB1]
  · iexact CB1
  icases H with ⟨CBm1, CBr1⟩
  -- chunk 1, half a: the device's own columns of slot 1 start for the result
  iapply (wp_lca m K c 1 _) $$ [CAm1 OA1 Tla1]
  · isplitr; · (iapply (inv_at m K c (.lca (slot3 1))); iexact HR)
    isplitr; · (iapply (reached0_at m K c (.lca (slot3 1))); iexact HR)
    isplitl [CAm1]; · iexact CAm1
    isplitl [OA1]; · iexact OA1
    iexact Tla1
  iintro Kla1
  -- chunk 1, half b: the device's own columns of slot 1 start for the result
  -- the printed part k0_part6 is opened
  simp only [k0_part6_eq_skeleton]
  unfold k0_part6_skel
  simp only [semSignalWord, semWaitWord, Prog.lift, Prog.bind_op, Prog.bind_ret, Prog.pure_eq_ret, wp_deviceId]
  iapply (wp_lcb m K c 1 _) $$ [CBm1 OB1 Tlb1]
  · isplitr; · (iapply (inv_at m K c (.lcb (slot3 1))); iexact HR)
    isplitr; · (iapply (reached0_at m K c (.lcb (slot3 1))); iexact HR)
    isplitl [CBm1]; · iexact CBm1
    isplitl [OB1]; · iexact OB1
    iexact Tlb1
  iintro Klb1
  -- chunk 1: the x-peer's columns of slot 1 are sent into its landing slot 1
  rw [show (oweD c 1 + oweF c 0 : CellTallies nD τ sig Unit) = (oweD c 2 + oweF c 0) + tallyAt (cell (px c) (.dr 1)) () Nout from by rw [oweD_peel c 1 (by decide), add_right_comm]; rfl]
  iapply (wp_send_d m K c _ (devx_eq c _ _ (k0_dev4_eq c)) 1 _ (oweD c 2 + oweF c 0) _) $$ [CAp1 LP1 HO Tds1 Tdr1]
  · isplitr; · (iapply (inv_at m K c (.ds 1)); iexact HR)
    isplitr; · (iapply (inv_at m K (px c) (.dr 1)); iexact HR)
    isplitr; · (iapply (reached0_at m K c (.ds 1)); iexact HR)
    isplitr; · (iapply (reached0_at m K (px c) (.dr 1)); iexact HR)
    isplitl [CAp1]; · iexact CAp1
    isplitl [LP1]; · iexact LP1
    isplitl [HO]; · iexact HO
    isplitl [Tds1]; · iexact Tds1
    iexact Tdr1
  iintro ⟨Kds1, HO⟩
  -- chunk 3, half a: its rows of x start for staging slot 1
  iapply (wp_stage_a m K c 3 _) $$ [XA3 VA1 Tia3]
  · isplitr; · (iapply (inv_at m K c (.ina (slot2 3))); iexact HR)
    isplitr; · iexact Ria1
    isplitl [XA3]; · iexact XA3
    isplitl [VA1]; · iexact VA1
    iexact Tia3
  iintro Kia3
  -- chunk 3, half b: its rows of x start for staging slot 1
  iapply (wp_stage_b m K c 3 _) $$ [XB3 VB1 Tib3]
  · isplitr; · (iapply (inv_at m K c (.inb (slot2 3))); iexact HR)
    isplitr; · iexact Rib1
    isplitl [XB3]; · iexact XB3
    isplitl [VB1]; · iexact VB1
    iexact Tib3
  iintro Kib3
  -- chunk 0 of the x-peer has landed: it is copied into the result and relayed to the y-peer
  -- the printed part k0_part7 is opened
  simp only [k0_part7_eq_skeleton]
  unfold k0_part7_skel
  simp only [semSignalWord, semWaitWord, Prog.lift, Prog.bind_op, Prog.bind_ret, Prog.pure_eq_ret, wp_deviceId]
  iapply (wp_wait_dr m K c 0 (credit_ldS 0) (oweD c 2 + oweF c 0) _) $$ [Cdr0 HO Pdr0]
  · isplitr; · (iapply (inv_at m K c (.dr 0)); iexact HR)
    isplitl [Cdr0]; · iexact Cdr0
    isplitl [HO]; · iexact HO
    isplitr; · (iapply (mayWait_dr c 0 2 0 (by decide) (by decide)); iexact Hlev)
    iexact Pdr0
  iintro ⟨HO, Pdr0, -, LD0⟩
  ihave H := (ld_share_split c 0 _).1 $$ [LD0]
  · iexact LD0
  icases H with ⟨LDl0, LDr0⟩
  iapply (wp_lo m K c 0 _) $$ [LDl0 OR0 Tlo0]
  · isplitr; · (iapply (inv_at m K c (.lo 0)); iexact HR)
    isplitr; · (iapply (reached0_at m K c (.lo 0)); iexact HR)
    isplitl [LDl0]; · iexact LDl0
    isplitl [OR0]; · iexact OR0
    iexact Tlo0
  iintro Klo0
  rw [show (oweD c 2 + oweF c 0 : CellTallies nD τ sig Unit) = (oweD c 2 + oweF c 1) + tallyAt (cell (py c) (.fr 0)) () Nout from by rw [oweF_peel c 0 (by decide), ← add_assoc]; rfl]
  -- the printed part k0_part8 is opened
  simp only [k0_part8_eq_skeleton]
  unfold k0_part8_skel
  simp only [semSignalWord, semWaitWord, Prog.lift, Prog.bind_op, Prog.bind_ret, Prog.pure_eq_ret, wp_deviceId]
  iapply (wp_send_f m K c _ (devy_eq c _ _ (k0_dev5_eq c)) 0 _ (oweD c 2 + oweF c 1) _) $$ [LDr0 OP0 HO Tfs0 Tfr0]
  · isplitr; · (iapply (inv_at m K c (.fs 0)); iexact HR)
    isplitr; · (iapply (inv_at m K (py c) (.fr 0)); iexact HR)
    isplitr; · (iapply (reached0_at m K c (.fs 0)); iexact HR)
    isplitr; · (iapply (reached0_at m K (py c) (.fr 0)); iexact HR)
    isplitl [LDr0]; · iexact LDr0
    isplitl [OP0]; · iexact OP0
    isplitl [HO]; · iexact HO
    isplitl [Tfs0]; · iexact Tfs0
    iexact Tfr0
  iintro ⟨Kfs0, HO⟩
  -- chunk 2, half a: its staged rows have landed in slot 0
  iapply (wp_wait_ina m K c 2 (credit_viaS (slot2 2)) (oweD c 2 + oweF c 1) _) $$ [Kia2 HO Pia0]
  · isplitr; · (iapply (inv_at m K c (.ina (slot2 2))); iexact HR)
    isplitl [Kia2]; · iexact Kia2
    isplitl [HO]; · iexact HO
    isplitr; · (iapply (mayWait_own c (.ina (slot2 2)) rfl 2 1); iexact Hlev)
    iexact Pia0
  iintro ⟨HO, Pia0, #Ria2, VA0, XA2⟩
  -- chunk 2, half b: its staged rows have landed in slot 0
  iapply (wp_wait_inb m K c 2 (credit_vibS (slot2 2)) (oweD c 2 + oweF c 1) _) $$ [Kib2 HO Pib0]
  · isplitr; · (iapply (inv_at m K c (.inb (slot2 2))); iexact HR)
    isplitl [Kib2]; · iexact Kib2
    isplitl [HO]; · iexact HO
    isplitr; · (iapply (mayWait_own c (.inb (slot2 2)) rfl 2 1); iexact Hlev)
    iexact Pib0
  iintro ⟨HO, Pib0, #Rib2, VB0, XB2⟩
  -- chunk 2, half a: staging slot 0 is loaded, cast and stored into bf16 slot 2
  iapply (wp_load_via c (slot2 2) _ _) $$ [VA0]
  · iexact VA0
  iintro VA0
  iapply (wp_load_vca c (slot3 2) _ _) $$ [CA2]
  · iexact CA2
  iintro CA2
  iapply (wp_store_vca c (slot3 2) _ _) $$ [CA2]
  · iexact CA2
  iintro CA2
  ihave CA2 := (store_vca_at m c 2 _ _ rfl) $$ [CA2]
  · iexact CA2
  -- chunk 2, half b: staging slot 0 is loaded, cast and stored into bf16 slot 2
  iapply (wp_load_vib c (slot2 2) _ _) $$ [VB0]
  · iexact VB0
  iintro VB0
  iapply (wp_load_vcb c (slot3 2) _ _) $$ [CB2]
  · iexact CB2
  iintro CB2
  iapply (wp_store_vcb c (slot3 2) _ _) $$ [CB2]
  · iexact CB2
  iintro CB2
  ihave CB2 := (store_vcb_at m c 2 _ _ rfl) $$ [CB2]
  · iexact CB2
  ihave H := (vca_slot_split c (slot3 2) fullShare _).1 $$ [CA2]
  · iexact CA2
  icases H with ⟨CAm2, CAp2⟩
  ihave H := (vcb_slot_split c (slot3 2) fullShare _).1 $$ [CB2]
  · iexact CB2
  icases H with ⟨CBm2, CBr2⟩
  -- chunk 2, half a: the device's own columns of slot 2 start for the result
  -- the printed part k0_part9 is opened
  simp only [k0_part9_eq_skeleton]
  unfold k0_part9_skel
  simp only [semSignalWord, semWaitWord, Prog.lift, Prog.bind_op, Prog.bind_ret, Prog.pure_eq_ret, wp_deviceId]
  iapply (wp_lca m K c 2 _) $$ [CAm2 OA2 Tla2]
  · isplitr; · (iapply (inv_at m K c (.lca (slot3 2))); iexact HR)
    isplitr; · (iapply (reached0_at m K c (.lca (slot3 2))); iexact HR)
    isplitl [CAm2]; · iexact CAm2
    isplitl [OA2]; · iexact OA2
    iexact Tla2
  iintro Kla2
  -- chunk 2, half b: the device's own columns of slot 2 start for the result
  iapply (wp_lcb m K c 2 _) $$ [CBm2 OB2 Tlb2]
  · isplitr; · (iapply (inv_at m K c (.lcb (slot3 2))); iexact HR)
    isplitr; · (iapply (reached0_at m K c (.lcb (slot3 2))); iexact HR)
    isplitl [CBm2]; · iexact CBm2
    isplitl [OB2]; · iexact OB2
    iexact Tlb2
  iintro Klb2
  -- chunk 2: the x-peer's columns of slot 2 are sent into its landing slot 2
  rw [show (oweD c 2 + oweF c 1 : CellTallies nD τ sig Unit) = (oweD c 3 + oweF c 1) + tallyAt (cell (px c) (.dr 2)) () Nout from by rw [oweD_peel c 2 (by decide), add_right_comm]; rfl]
  iapply (wp_send_d m K c _ (devx_eq c _ _ (k0_dev6_eq c)) 2 _ (oweD c 3 + oweF c 1) _) $$ [CAp2 LP2 HO Tds2 Tdr2]
  · isplitr; · (iapply (inv_at m K c (.ds 2)); iexact HR)
    isplitr; · (iapply (inv_at m K (px c) (.dr 2)); iexact HR)
    isplitr; · (iapply (reached0_at m K c (.ds 2)); iexact HR)
    isplitr; · (iapply (reached0_at m K (px c) (.dr 2)); iexact HR)
    isplitl [CAp2]; · iexact CAp2
    isplitl [LP2]; · iexact LP2
    isplitl [HO]; · iexact HO
    isplitl [Tds2]; · iexact Tds2
    iexact Tdr2
  iintro ⟨Kds2, HO⟩
  -- chunk 4, half a: its rows of x start for staging slot 0
  -- the printed part k0_part10 is opened
  simp only [k0_part10_eq_skeleton]
  unfold k0_part10_skel
  simp only [semSignalWord, semWaitWord, Prog.lift, Prog.bind_op, Prog.bind_ret, Prog.pure_eq_ret, wp_deviceId]
  iapply (wp_stage_a m K c 4 _) $$ [XA4 VA0 Tia4]
  · isplitr; · (iapply (inv_at m K c (.ina (slot2 4))); iexact HR)
    isplitr; · iexact Ria2
    isplitl [XA4]; · iexact XA4
    isplitl [VA0]; · iexact VA0
    iexact Tia4
  iintro Kia4
  -- chunk 4, half b: its rows of x start for staging slot 0
  iapply (wp_stage_b m K c 4 _) $$ [XB4 VB0 Tib4]
  · isplitr; · (iapply (inv_at m K c (.inb (slot2 4))); iexact HR)
    isplitr; · iexact Rib2
    isplitl [XB4]; · iexact XB4
    isplitl [VB0]; · iexact VB0
    iexact Tib4
  iintro Kib4
  -- chunk 1 of the x-peer has landed: it is copied into the result and relayed to the y-peer
  iapply (wp_wait_dr m K c 1 (credit_ldS 1) (oweD c 3 + oweF c 1) _) $$ [Cdr1 HO Pdr1]
  · isplitr; · (iapply (inv_at m K c (.dr 1)); iexact HR)
    isplitl [Cdr1]; · iexact Cdr1
    isplitl [HO]; · iexact HO
    isplitr; · (iapply (mayWait_dr c 1 3 1 (by decide) (by decide)); iexact Hlev)
    iexact Pdr1
  iintro ⟨HO, Pdr1, -, LD1⟩
  ihave H := (ld_share_split c 1 _).1 $$ [LD1]
  · iexact LD1
  icases H with ⟨LDl1, LDr1⟩
  iapply (wp_lo m K c 1 _) $$ [LDl1 OR1 Tlo1]
  · isplitr; · (iapply (inv_at m K c (.lo 1)); iexact HR)
    isplitr; · (iapply (reached0_at m K c (.lo 1)); iexact HR)
    isplitl [LDl1]; · iexact LDl1
    isplitl [OR1]; · iexact OR1
    iexact Tlo1
  iintro Klo1
  rw [show (oweD c 3 + oweF c 1 : CellTallies nD τ sig Unit) = (oweD c 3 + oweF c 2) + tallyAt (cell (py c) (.fr 1)) () Nout from by rw [oweF_peel c 1 (by decide), ← add_assoc]; rfl]
  -- the printed part k0_part11 is opened
  simp only [k0_part11_eq_skeleton]
  unfold k0_part11_skel
  simp only [semSignalWord, semWaitWord, Prog.lift, Prog.bind_op, Prog.bind_ret, Prog.pure_eq_ret, wp_deviceId]
  iapply (wp_send_f m K c _ (devy_eq c _ _ (k0_dev7_eq c)) 1 _ (oweD c 3 + oweF c 2) _) $$ [LDr1 OP1 HO Tfs1 Tfr1]
  · isplitr; · (iapply (inv_at m K c (.fs 1)); iexact HR)
    isplitr; · (iapply (inv_at m K (py c) (.fr 1)); iexact HR)
    isplitr; · (iapply (reached0_at m K c (.fs 1)); iexact HR)
    isplitr; · (iapply (reached0_at m K (py c) (.fr 1)); iexact HR)
    isplitl [LDr1]; · iexact LDr1
    isplitl [OP1]; · iexact OP1
    isplitl [HO]; · iexact HO
    isplitl [Tfs1]; · iexact Tfs1
    iexact Tfr1
  iintro ⟨Kfs1, HO⟩
  -- chunk 3, half a: its staged rows have landed in slot 1
  iapply (wp_wait_ina m K c 3 (credit_viaS (slot2 3)) (oweD c 3 + oweF c 2) _) $$ [Kia3 HO Pia1]
  · isplitr; · (iapply (inv_at m K c (.ina (slot2 3))); iexact HR)
    isplitl [Kia3]; · iexact Kia3
    isplitl [HO]; · iexact HO
    isplitr; · (iapply (mayWait_own c (.ina (slot2 3)) rfl 3 2); iexact Hlev)
    iexact Pia1
  iintro ⟨HO, Pia1, #Ria3, VA1, XA3⟩
  -- chunk 3, half b: its staged rows have landed in slot 1
  iapply (wp_wait_inb m K c 3 (credit_vibS (slot2 3)) (oweD c 3 + oweF c 2) _) $$ [Kib3 HO Pib1]
  · isplitr; · (iapply (inv_at m K c (.inb (slot2 3))); iexact HR)
    isplitl [Kib3]; · iexact Kib3
    isplitl [HO]; · iexact HO
    isplitr; · (iapply (mayWait_own c (.inb (slot2 3)) rfl 3 2); iexact Hlev)
    iexact Pib1
  iintro ⟨HO, Pib1, #Rib3, VB1, XB3⟩
  -- chunk 0: its local copy of vcast_a has landed
  iapply (wp_wait_lca m K c 0 (credit_oA c 0) (oweD c 3 + oweF c 2) _) $$ [Kla0 HO Pla0]
  · isplitr; · (iapply (inv_at m K c (.lca (slot3 0))); iexact HR)
    isplitl [Kla0]; · iexact Kla0
    isplitl [HO]; · iexact HO
    isplitr; · (iapply (mayWait_own c (.lca (slot3 0)) rfl 3 2); iexact Hlev)
    iexact Pla0
  iintro ⟨HO, Pla0, #Rla0, OA0, CAm0⟩
  -- chunk 0: its local copy of vcast_b has landed
  iapply (wp_wait_lcb m K c 0 (credit_oB c 0) (oweD c 3 + oweF c 2) _) $$ [Klb0 HO Plb0]
  · isplitr; · (iapply (inv_at m K c (.lcb (slot3 0))); iexact HR)
    isplitl [Klb0]; · iexact Klb0
    isplitl [HO]; · iexact HO
    isplitr; · (iapply (mayWait_own c (.lcb (slot3 0)) rfl 3 2); iexact Hlev)
    iexact Plb0
  iintro ⟨HO, Plb0, #Rlb0, OB0, CBm0⟩
  -- chunk 0: its send along x has left the slot
  -- the printed part k0_part12 is opened
  simp only [k0_part12_eq_skeleton]
  unfold k0_part12_skel
  simp only [semSignalWord, semWaitWord, Prog.lift, Prog.bind_op, Prog.bind_ret, Prog.pure_eq_ret, wp_deviceId]
  iapply (wp_wait_ds m K c 0 (credit_vcaPeer c (slot3 0)) (oweD c 3 + oweF c 2) _) $$ [Kds0 HO Pds0]
  · isplitr; · (iapply (inv_at m K c (.ds 0)); iexact HR)
    isplitl [Kds0]; · iexact Kds0
    isplitl [HO]; · iexact HO
    isplitr; · (iapply (mayWait_own c (.ds 0) rfl 3 2); iexact Hlev)
    iexact Pds0
  iintro ⟨HO, Pds0, -, CAp0⟩
  -- slot 0 of both bf16 buffers is whole again
  ihave CA0 := (vca_slot_split c (slot3 0) fullShare _).2 $$ [CAm0 CAp0]
  · isplitl [CAm0]; · iexact CAm0
    iexact CAp0
  ihave CB0 := (vcb_slot_split c (slot3 0) fullShare _).2 $$ [CBm0 CBr0]
  · isplitl [CBm0]; · iexact CBm0
    iexact CBr0
  -- chunk 3, half a: staging slot 1 is loaded, cast and stored into bf16 slot 0
  iapply (wp_load_via c (slot2 3) _ _) $$ [VA1]
  · iexact VA1
  iintro VA1
  iapply (wp_load_vca c (slot3 3) _ _) $$ [CA0]
  · iexact CA0
  iintro CA0
  iapply (wp_store_vca c (slot3 3) _ _) $$ [CA0]
  · iexact CA0
  iintro CA0
  ihave CA0 := (store_vca_at m c 3 _ _ rfl) $$ [CA0]
  · iexact CA0
  -- chunk 3, half b: staging slot 1 is loaded, cast and stored into bf16 slot 0
  iapply (wp_load_vib c (slot2 3) _ _) $$ [VB1]
  · iexact VB1
  iintro VB1
  iapply (wp_load_vcb c (slot3 3) _ _) $$ [CB0]
  · iexact CB0
  iintro CB0
  iapply (wp_store_vcb c (slot3 3) _ _) $$ [CB0]
  · iexact CB0
  iintro CB0
  ihave CB0 := (store_vcb_at m c 3 _ _ rfl) $$ [CB0]
  · iexact CB0
  ihave H := (vca_slot_split c (slot3 3) fullShare _).1 $$ [CA0]
  · iexact CA0
  icases H with ⟨CAm0, CAp0⟩
  ihave H := (vcb_slot_split c (slot3 3) fullShare _).1 $$ [CB0]
  · iexact CB0
  icases H with ⟨CBm0, CBr0⟩
  -- chunk 3, half a: the device's own columns of slot 0 start for the result
  -- the printed part k0_part13 is opened
  simp only [k0_part13_eq_skeleton]
  unfold k0_part13_skel
  simp only [semSignalWord, semWaitWord, Prog.lift, Prog.bind_op, Prog.bind_ret, Prog.pure_eq_ret, wp_deviceId]
  iapply (wp_lca m K c 3 _) $$ [CAm0 OA3 Tla3]
  · isplitr; · (iapply (inv_at m K c (.lca (slot3 3))); iexact HR)
    isplitr; · iexact Rla0
    isplitl [CAm0]; · iexact CAm0
    isplitl [OA3]; · iexact OA3
    iexact Tla3
  iintro Kla3
  -- chunk 3, half b: the device's own columns of slot 0 start for the result
  iapply (wp_lcb m K c 3 _) $$ [CBm0 OB3 Tlb3]
  · isplitr; · (iapply (inv_at m K c (.lcb (slot3 3))); iexact HR)
    isplitr; · iexact Rlb0
    isplitl [CBm0]; · iexact CBm0
    isplitl [OB3]; · iexact OB3
    iexact Tlb3
  iintro Klb3
  -- chunk 3: the x-peer's columns of slot 0 are sent into its landing slot 3
  rw [show (oweD c 3 + oweF c 2 : CellTallies nD τ sig Unit) = (oweD c 4 + oweF c 2) + tallyAt (cell (px c) (.dr 3)) () Nout from by rw [oweD_peel c 3 (by decide), add_right_comm]; rfl]
  iapply (wp_send_d m K c _ (devx_eq c _ _ (k0_dev8_eq c)) 3 _ (oweD c 4 + oweF c 2) _) $$ [CAp0 LP3 HO Tds3 Tdr3]
  · isplitr; · (iapply (inv_at m K c (.ds 3)); iexact HR)
    isplitr; · (iapply (inv_at m K (px c) (.dr 3)); iexact HR)
    isplitr; · (iapply (reached0_at m K c (.ds 3)); iexact HR)
    isplitr; · (iapply (reached0_at m K (px c) (.dr 3)); iexact HR)
    isplitl [CAp0]; · iexact CAp0
    isplitl [LP3]; · iexact LP3
    isplitl [HO]; · iexact HO
    isplitl [Tds3]; · iexact Tds3
    iexact Tdr3
  iintro ⟨Kds3, HO⟩
  -- chunk 5, half a: its rows of x start for staging slot 1
  iapply (wp_stage_a m K c 5 _) $$ [XA5 VA1 Tia5]
  · isplitr; · (iapply (inv_at m K c (.ina (slot2 5))); iexact HR)
    isplitr; · iexact Ria3
    isplitl [XA5]; · iexact XA5
    isplitl [VA1]; · iexact VA1
    iexact Tia5
  iintro Kia5
  -- chunk 5, half b: its rows of x start for staging slot 1
  -- the printed part k0_part14 is opened
  simp only [k0_part14_eq_skeleton]
  unfold k0_part14_skel
  simp only [semSignalWord, semWaitWord, Prog.lift, Prog.bind_op, Prog.bind_ret, Prog.pure_eq_ret, wp_deviceId]
  iapply (wp_stage_b m K c 5 _) $$ [XB5 VB1 Tib5]
  · isplitr; · (iapply (inv_at m K c (.inb (slot2 5))); iexact HR)
    isplitr; · iexact Rib3
    isplitl [XB5]; · iexact XB5
    isplitl [VB1]; · iexact VB1
    iexact Tib5
  iintro Kib5
  -- chunk 2 of the x-peer has landed: it is copied into the result and relayed to the y-peer
  iapply (wp_wait_dr m K c 2 (credit_ldS 2) (oweD c 4 + oweF c 2) _) $$ [Cdr2 HO Pdr2]
  · isplitr; · (iapply (inv_at m K c (.dr 2)); iexact HR)
    isplitl [Cdr2]; · iexact Cdr2
    isplitl [HO]; · iexact HO
    isplitr; · (iapply (mayWait_dr c 2 4 2 (by decide) (by decide)); iexact Hlev)
    iexact Pdr2
  iintro ⟨HO, Pdr2, -, LD2⟩
  ihave H := (ld_share_split c 2 _).1 $$ [LD2]
  · iexact LD2
  icases H with ⟨LDl2, LDr2⟩
  iapply (wp_lo m K c 2 _) $$ [LDl2 OR2 Tlo2]
  · isplitr; · (iapply (inv_at m K c (.lo 2)); iexact HR)
    isplitr; · (iapply (reached0_at m K c (.lo 2)); iexact HR)
    isplitl [LDl2]; · iexact LDl2
    isplitl [OR2]; · iexact OR2
    iexact Tlo2
  iintro Klo2
  rw [show (oweD c 4 + oweF c 2 : CellTallies nD τ sig Unit) = (oweD c 4 + oweF c 3) + tallyAt (cell (py c) (.fr 2)) () Nout from by rw [oweF_peel c 2 (by decide), ← add_assoc]; rfl]
  -- the printed part k0_part15 is opened
  simp only [k0_part15_eq_skeleton]
  unfold k0_part15_skel
  simp only [semSignalWord, semWaitWord, Prog.lift, Prog.bind_op, Prog.bind_ret, Prog.pure_eq_ret, wp_deviceId]
  iapply (wp_send_f m K c _ (devy_eq c _ _ (k0_dev9_eq c)) 2 _ (oweD c 4 + oweF c 3) _) $$ [LDr2 OP2 HO Tfs2 Tfr2]
  · isplitr; · (iapply (inv_at m K c (.fs 2)); iexact HR)
    isplitr; · (iapply (inv_at m K (py c) (.fr 2)); iexact HR)
    isplitr; · (iapply (reached0_at m K c (.fs 2)); iexact HR)
    isplitr; · (iapply (reached0_at m K (py c) (.fr 2)); iexact HR)
    isplitl [LDr2]; · iexact LDr2
    isplitl [OP2]; · iexact OP2
    isplitl [HO]; · iexact HO
    isplitl [Tfs2]; · iexact Tfs2
    iexact Tfr2
  iintro ⟨Kfs2, HO⟩
  -- chunk 4, half a: its staged rows have landed in slot 0
  iapply (wp_wait_ina m K c 4 (credit_viaS (slot2 4)) (oweD c 4 + oweF c 3) _) $$ [Kia4 HO Pia0]
  · isplitr; · (iapply (inv_at m K c (.ina (slot2 4))); iexact HR)
    isplitl [Kia4]; · iexact Kia4
    isplitl [HO]; · iexact HO
    isplitr; · (iapply (mayWait_own c (.ina (slot2 4)) rfl 4 3); iexact Hlev)
    iexact Pia0
  iintro ⟨HO, Pia0, #Ria4, VA0, XA4⟩
  -- chunk 4, half b: its staged rows have landed in slot 0
  iapply (wp_wait_inb m K c 4 (credit_vibS (slot2 4)) (oweD c 4 + oweF c 3) _) $$ [Kib4 HO Pib0]
  · isplitr; · (iapply (inv_at m K c (.inb (slot2 4))); iexact HR)
    isplitl [Kib4]; · iexact Kib4
    isplitl [HO]; · iexact HO
    isplitr; · (iapply (mayWait_own c (.inb (slot2 4)) rfl 4 3); iexact Hlev)
    iexact Pib0
  iintro ⟨HO, Pib0, #Rib4, VB0, XB4⟩
  -- chunk 1: its local copy of vcast_a has landed
  iapply (wp_wait_lca m K c 1 (credit_oA c 1) (oweD c 4 + oweF c 3) _) $$ [Kla1 HO Pla1]
  · isplitr; · (iapply (inv_at m K c (.lca (slot3 1))); iexact HR)
    isplitl [Kla1]; · iexact Kla1
    isplitl [HO]; · iexact HO
    isplitr; · (iapply (mayWait_own c (.lca (slot3 1)) rfl 4 3); iexact Hlev)
    iexact Pla1
  iintro ⟨HO, Pla1, #Rla1, OA1, CAm1⟩
  -- chunk 1: its local copy of vcast_b has landed
  iapply (wp_wait_lcb m K c 1 (credit_oB c 1) (oweD c 4 + oweF c 3) _) $$ [Klb1 HO Plb1]
  · isplitr; · (iapply (inv_at m K c (.lcb (slot3 1))); iexact HR)
    isplitl [Klb1]; · iexact Klb1
    isplitl [HO]; · iexact HO
    isplitr; · (iapply (mayWait_own c (.lcb (slot3 1)) rfl 4 3); iexact Hlev)
    iexact Plb1
  iintro ⟨HO, Plb1, #Rlb1, OB1, CBm1⟩
  -- chunk 1: its send along x has left the slot
  -- the printed part k0_part16 is opened
  simp only [k0_part16_eq_skeleton]
  unfold k0_part16_skel
  simp only [semSignalWord, semWaitWord, Prog.lift, Prog.bind_op, Prog.bind_ret, Prog.pure_eq_ret, wp_deviceId]
  iapply (wp_wait_ds m K c 1 (credit_vcaPeer c (slot3 1)) (oweD c 4 + oweF c 3) _) $$ [Kds1 HO Pds1]
  · isplitr; · (iapply (inv_at m K c (.ds 1)); iexact HR)
    isplitl [Kds1]; · iexact Kds1
    isplitl [HO]; · iexact HO
    isplitr; · (iapply (mayWait_own c (.ds 1) rfl 4 3); iexact Hlev)
    iexact Pds1
  iintro ⟨HO, Pds1, -, CAp1⟩
  -- slot 1 of both bf16 buffers is whole again
  ihave CA1 := (vca_slot_split c (slot3 1) fullShare _).2 $$ [CAm1 CAp1]
  · isplitl [CAm1]; · iexact CAm1
    iexact CAp1
  ihave CB1 := (vcb_slot_split c (slot3 1) fullShare _).2 $$ [CBm1 CBr1]
  · isplitl [CBm1]; · iexact CBm1
    iexact CBr1
  -- chunk 4, half a: staging slot 0 is loaded, cast and stored into bf16 slot 1
  iapply (wp_load_via c (slot2 4) _ _) $$ [VA0]
  · iexact VA0
  iintro VA0
  iapply (wp_load_vca c (slot3 4) _ _) $$ [CA1]
  · iexact CA1
  iintro CA1
  iapply (wp_store_vca c (slot3 4) _ _) $$ [CA1]
  · iexact CA1
  iintro CA1
  ihave CA1 := (store_vca_at m c 4 _ _ rfl) $$ [CA1]
  · iexact CA1
  -- chunk 4, half b: staging slot 0 is loaded, cast and stored into bf16 slot 1
  iapply (wp_load_vib c (slot2 4) _ _) $$ [VB0]
  · iexact VB0
  iintro VB0
  iapply (wp_load_vcb c (slot3 4) _ _) $$ [CB1]
  · iexact CB1
  iintro CB1
  iapply (wp_store_vcb c (slot3 4) _ _) $$ [CB1]
  · iexact CB1
  iintro CB1
  ihave CB1 := (store_vcb_at m c 4 _ _ rfl) $$ [CB1]
  · iexact CB1
  ihave H := (vca_slot_split c (slot3 4) fullShare _).1 $$ [CA1]
  · iexact CA1
  icases H with ⟨CAm1, CAp1⟩
  ihave H := (vcb_slot_split c (slot3 4) fullShare _).1 $$ [CB1]
  · iexact CB1
  icases H with ⟨CBm1, CBr1⟩
  -- chunk 4, half a: the device's own columns of slot 1 start for the result
  iapply (wp_lca m K c 4 _) $$ [CAm1 OA4 Tla4]
  · isplitr; · (iapply (inv_at m K c (.lca (slot3 4))); iexact HR)
    isplitr; · iexact Rla1
    isplitl [CAm1]; · iexact CAm1
    isplitl [OA4]; · iexact OA4
    iexact Tla4
  iintro Kla4
  -- chunk 4, half b: the device's own columns of slot 1 start for the result
  -- the printed part k0_part17 is opened
  simp only [k0_part17_eq_skeleton]
  unfold k0_part17_skel
  simp only [semSignalWord, semWaitWord, Prog.lift, Prog.bind_op, Prog.bind_ret, Prog.pure_eq_ret, wp_deviceId]
  iapply (wp_lcb m K c 4 _) $$ [CBm1 OB4 Tlb4]
  · isplitr; · (iapply (inv_at m K c (.lcb (slot3 4))); iexact HR)
    isplitr; · iexact Rlb1
    isplitl [CBm1]; · iexact CBm1
    isplitl [OB4]; · iexact OB4
    iexact Tlb4
  iintro Klb4
  -- chunk 4: the x-peer's columns of slot 1 are sent into its landing slot 4
  rw [show (oweD c 4 + oweF c 3 : CellTallies nD τ sig Unit) = (oweD c 5 + oweF c 3) + tallyAt (cell (px c) (.dr 4)) () Nout from by rw [oweD_peel c 4 (by decide), add_right_comm]; rfl]
  iapply (wp_send_d m K c _ (devx_eq c _ _ (k0_dev10_eq c)) 4 _ (oweD c 5 + oweF c 3) _) $$ [CAp1 LP4 HO Tds4 Tdr4]
  · isplitr; · (iapply (inv_at m K c (.ds 4)); iexact HR)
    isplitr; · (iapply (inv_at m K (px c) (.dr 4)); iexact HR)
    isplitr; · (iapply (reached0_at m K c (.ds 4)); iexact HR)
    isplitr; · (iapply (reached0_at m K (px c) (.dr 4)); iexact HR)
    isplitl [CAp1]; · iexact CAp1
    isplitl [LP4]; · iexact LP4
    isplitl [HO]; · iexact HO
    isplitl [Tds4]; · iexact Tds4
    iexact Tdr4
  iintro ⟨Kds4, HO⟩
  -- chunk 6, half a: its rows of x start for staging slot 0
  iapply (wp_stage_a m K c 6 _) $$ [XA6 VA0 Tia6]
  · isplitr; · (iapply (inv_at m K c (.ina (slot2 6))); iexact HR)
    isplitr; · iexact Ria4
    isplitl [XA6]; · iexact XA6
    isplitl [VA0]; · iexact VA0
    iexact Tia6
  iintro Kia6
  -- chunk 6, half b: its rows of x start for staging slot 0
  iapply (wp_stage_b m K c 6 _) $$ [XB6 VB0 Tib6]
  · isplitr; · (iapply (inv_at m K c (.inb (slot2 6))); iexact HR)
    isplitr; · iexact Rib4
    isplitl [XB6]; · iexact XB6
    isplitl [VB0]; · iexact VB0
    iexact Tib6
  iintro Kib6
  -- chunk 3 of the x-peer has landed: it is copied into the result and relayed to the y-peer
  -- the printed part k0_part18 is opened
  simp only [k0_part18_eq_skeleton]
  unfold k0_part18_skel
  simp only [semSignalWord, semWaitWord, Prog.lift, Prog.bind_op, Prog.bind_ret, Prog.pure_eq_ret, wp_deviceId]
  iapply (wp_wait_dr m K c 3 (credit_ldS 3) (oweD c 5 + oweF c 3) _) $$ [Cdr3 HO Pdr3]
  · isplitr; · (iapply (inv_at m K c (.dr 3)); iexact HR)
    isplitl [Cdr3]; · iexact Cdr3
    isplitl [HO]; · iexact HO
    isplitr; · (iapply (mayWait_dr c 3 5 3 (by decide) (by decide)); iexact Hlev)
    iexact Pdr3
  iintro ⟨HO, Pdr3, -, LD3⟩
  ihave H := (ld_share_split c 3 _).1 $$ [LD3]
  · iexact LD3
  icases H with ⟨LDl3, LDr3⟩
  iapply (wp_lo m K c 3 _) $$ [LDl3 OR3 Tlo3]
  · isplitr; · (iapply (inv_at m K c (.lo 3)); iexact HR)
    isplitr; · (iapply (reached0_at m K c (.lo 3)); iexact HR)
    isplitl [LDl3]; · iexact LDl3
    isplitl [OR3]; · iexact OR3
    iexact Tlo3
  iintro Klo3
  rw [show (oweD c 5 + oweF c 3 : CellTallies nD τ sig Unit) = (oweD c 5 + oweF c 4) + tallyAt (cell (py c) (.fr 3)) () Nout from by rw [oweF_peel c 3 (by decide), ← add_assoc]; rfl]
  iapply (wp_send_f m K c _ (devy_eq c _ _ (k0_dev11_eq c)) 3 _ (oweD c 5 + oweF c 4) _) $$ [LDr3 OP3 HO Tfs3 Tfr3]
  · isplitr; · (iapply (inv_at m K c (.fs 3)); iexact HR)
    isplitr; · (iapply (inv_at m K (py c) (.fr 3)); iexact HR)
    isplitr; · (iapply (reached0_at m K c (.fs 3)); iexact HR)
    isplitr; · (iapply (reached0_at m K (py c) (.fr 3)); iexact HR)
    isplitl [LDr3]; · iexact LDr3
    isplitl [OP3]; · iexact OP3
    isplitl [HO]; · iexact HO
    isplitl [Tfs3]; · iexact Tfs3
    iexact Tfr3
  iintro ⟨Kfs3, HO⟩
  -- chunk 5, half a: its staged rows have landed in slot 1
  -- the printed part k0_part19 is opened
  simp only [k0_part19_eq_skeleton]
  unfold k0_part19_skel
  simp only [semSignalWord, semWaitWord, Prog.lift, Prog.bind_op, Prog.bind_ret, Prog.pure_eq_ret, wp_deviceId]
  iapply (wp_wait_ina m K c 5 (credit_viaS (slot2 5)) (oweD c 5 + oweF c 4) _) $$ [Kia5 HO Pia1]
  · isplitr; · (iapply (inv_at m K c (.ina (slot2 5))); iexact HR)
    isplitl [Kia5]; · iexact Kia5
    isplitl [HO]; · iexact HO
    isplitr; · (iapply (mayWait_own c (.ina (slot2 5)) rfl 5 4); iexact Hlev)
    iexact Pia1
  iintro ⟨HO, Pia1, #Ria5, VA1, XA5⟩
  -- chunk 5, half b: its staged rows have landed in slot 1
  iapply (wp_wait_inb m K c 5 (credit_vibS (slot2 5)) (oweD c 5 + oweF c 4) _) $$ [Kib5 HO Pib1]
  · isplitr; · (iapply (inv_at m K c (.inb (slot2 5))); iexact HR)
    isplitl [Kib5]; · iexact Kib5
    isplitl [HO]; · iexact HO
    isplitr; · (iapply (mayWait_own c (.inb (slot2 5)) rfl 5 4); iexact Hlev)
    iexact Pib1
  iintro ⟨HO, Pib1, #Rib5, VB1, XB5⟩
  -- chunk 2: its local copy of vcast_a has landed
  iapply (wp_wait_lca m K c 2 (credit_oA c 2) (oweD c 5 + oweF c 4) _) $$ [Kla2 HO Pla2]
  · isplitr; · (iapply (inv_at m K c (.lca (slot3 2))); iexact HR)
    isplitl [Kla2]; · iexact Kla2
    isplitl [HO]; · iexact HO
    isplitr; · (iapply (mayWait_own c (.lca (slot3 2)) rfl 5 4); iexact Hlev)
    iexact Pla2
  iintro ⟨HO, Pla2, #Rla2, OA2, CAm2⟩
  -- chunk 2: its local copy of vcast_b has landed
  iapply (wp_wait_lcb m K c 2 (credit_oB c 2) (oweD c 5 + oweF c 4) _) $$ [Klb2 HO Plb2]
  · isplitr; · (iapply (inv_at m K c (.lcb (slot3 2))); iexact HR)
    isplitl [Klb2]; · iexact Klb2
    isplitl [HO]; · iexact HO
    isplitr; · (iapply (mayWait_own c (.lcb (slot3 2)) rfl 5 4); iexact Hlev)
    iexact Plb2
  iintro ⟨HO, Plb2, #Rlb2, OB2, CBm2⟩
  -- chunk 2: its send along x has left the slot
  iapply (wp_wait_ds m K c 2 (credit_vcaPeer c (slot3 2)) (oweD c 5 + oweF c 4) _) $$ [Kds2 HO Pds2]
  · isplitr; · (iapply (inv_at m K c (.ds 2)); iexact HR)
    isplitl [Kds2]; · iexact Kds2
    isplitl [HO]; · iexact HO
    isplitr; · (iapply (mayWait_own c (.ds 2) rfl 5 4); iexact Hlev)
    iexact Pds2
  iintro ⟨HO, Pds2, -, CAp2⟩
  -- slot 2 of both bf16 buffers is whole again
  ihave CA2 := (vca_slot_split c (slot3 2) fullShare _).2 $$ [CAm2 CAp2]
  · isplitl [CAm2]; · iexact CAm2
    iexact CAp2
  ihave CB2 := (vcb_slot_split c (slot3 2) fullShare _).2 $$ [CBm2 CBr2]
  · isplitl [CBm2]; · iexact CBm2
    iexact CBr2
  -- chunk 5, half a: staging slot 1 is loaded, cast and stored into bf16 slot 2
  -- the printed part k0_part20 is opened
  simp only [k0_part20_eq_skeleton]
  unfold k0_part20_skel
  simp only [semSignalWord, semWaitWord, Prog.lift, Prog.bind_op, Prog.bind_ret, Prog.pure_eq_ret, wp_deviceId]
  iapply (wp_load_via c (slot2 5) _ _) $$ [VA1]
  · iexact VA1
  iintro VA1
  iapply (wp_load_vca c (slot3 5) _ _) $$ [CA2]
  · iexact CA2
  iintro CA2
  iapply (wp_store_vca c (slot3 5) _ _) $$ [CA2]
  · iexact CA2
  iintro CA2
  ihave CA2 := (store_vca_at m c 5 _ _ rfl) $$ [CA2]
  · iexact CA2
  -- chunk 5, half b: staging slot 1 is loaded, cast and stored into bf16 slot 2
  iapply (wp_load_vib c (slot2 5) _ _) $$ [VB1]
  · iexact VB1
  iintro VB1
  iapply (wp_load_vcb c (slot3 5) _ _) $$ [CB2]
  · iexact CB2
  iintro CB2
  iapply (wp_store_vcb c (slot3 5) _ _) $$ [CB2]
  · iexact CB2
  iintro CB2
  ihave CB2 := (store_vcb_at m c 5 _ _ rfl) $$ [CB2]
  · iexact CB2
  ihave H := (vca_slot_split c (slot3 5) fullShare _).1 $$ [CA2]
  · iexact CA2
  icases H with ⟨CAm2, CAp2⟩
  ihave H := (vcb_slot_split c (slot3 5) fullShare _).1 $$ [CB2]
  · iexact CB2
  icases H with ⟨CBm2, CBr2⟩
  -- chunk 5, half a: the device's own columns of slot 2 start for the result
  iapply (wp_lca m K c 5 _) $$ [CAm2 OA5 Tla5]
  · isplitr; · (iapply (inv_at m K c (.lca (slot3 5))); iexact HR)
    isplitr; · iexact Rla2
    isplitl [CAm2]; · iexact CAm2
    isplitl [OA5]; · iexact OA5
    iexact Tla5
  iintro Kla5
  -- chunk 5, half b: the device's own columns of slot 2 start for the result
  iapply (wp_lcb m K c 5 _) $$ [CBm2 OB5 Tlb5]
  · isplitr; · (iapply (inv_at m K c (.lcb (slot3 5))); iexact HR)
    isplitr; · iexact Rlb2
    isplitl [CBm2]; · iexact CBm2
    isplitl [OB5]; · iexact OB5
    iexact Tlb5
  iintro Klb5
  -- chunk 5: the x-peer's columns of slot 2 are sent into its landing slot 5
  rw [show (oweD c 5 + oweF c 4 : CellTallies nD τ sig Unit) = (oweD c 6 + oweF c 4) + tallyAt (cell (px c) (.dr 5)) () Nout from by rw [oweD_peel c 5 (by decide), add_right_comm]; rfl]
  -- the printed part k0_part21 is opened
  simp only [k0_part21_eq_skeleton]
  unfold k0_part21_skel
  simp only [semSignalWord, semWaitWord, Prog.lift, Prog.bind_op, Prog.bind_ret, Prog.pure_eq_ret, wp_deviceId]
  iapply (wp_send_d m K c _ (devx_eq c _ _ (k0_dev12_eq c)) 5 _ (oweD c 6 + oweF c 4) _) $$ [CAp2 LP5 HO Tds5 Tdr5]
  · isplitr; · (iapply (inv_at m K c (.ds 5)); iexact HR)
    isplitr; · (iapply (inv_at m K (px c) (.dr 5)); iexact HR)
    isplitr; · (iapply (reached0_at m K c (.ds 5)); iexact HR)
    isplitr; · (iapply (reached0_at m K (px c) (.dr 5)); iexact HR)
    isplitl [CAp2]; · iexact CAp2
    isplitl [LP5]; · iexact LP5
    isplitl [HO]; · iexact HO
    isplitl [Tds5]; · iexact Tds5
    iexact Tdr5
  iintro ⟨Kds5, HO⟩
  -- chunk 7, half a: its rows of x start for staging slot 1
  iapply (wp_stage_a m K c 7 _) $$ [XA7 VA1 Tia7]
  · isplitr; · (iapply (inv_at m K c (.ina (slot2 7))); iexact HR)
    isplitr; · iexact Ria5
    isplitl [XA7]; · iexact XA7
    isplitl [VA1]; · iexact VA1
    iexact Tia7
  iintro Kia7
  -- chunk 7, half b: its rows of x start for staging slot 1
  iapply (wp_stage_b m K c 7 _) $$ [XB7 VB1 Tib7]
  · isplitr; · (iapply (inv_at m K c (.inb (slot2 7))); iexact HR)
    isplitr; · iexact Rib5
    isplitl [XB7]; · iexact XB7
    isplitl [VB1]; · iexact VB1
    iexact Tib7
  iintro Kib7
  -- chunk 4 of the x-peer has landed: it is copied into the result and relayed to the y-peer
  -- the printed part k0_part22 is opened
  simp only [k0_part22_eq_skeleton]
  unfold k0_part22_skel
  simp only [semSignalWord, semWaitWord, Prog.lift, Prog.bind_op, Prog.bind_ret, Prog.pure_eq_ret, wp_deviceId]
  iapply (wp_wait_dr m K c 4 (credit_ldS 4) (oweD c 6 + oweF c 4) _) $$ [Cdr4 HO Pdr4]
  · isplitr; · (iapply (inv_at m K c (.dr 4)); iexact HR)
    isplitl [Cdr4]; · iexact Cdr4
    isplitl [HO]; · iexact HO
    isplitr; · (iapply (mayWait_dr c 4 6 4 (by decide) (by decide)); iexact Hlev)
    iexact Pdr4
  iintro ⟨HO, Pdr4, -, LD4⟩
  ihave H := (ld_share_split c 4 _).1 $$ [LD4]
  · iexact LD4
  icases H with ⟨LDl4, LDr4⟩
  iapply (wp_lo m K c 4 _) $$ [LDl4 OR4 Tlo4]
  · isplitr; · (iapply (inv_at m K c (.lo 4)); iexact HR)
    isplitr; · (iapply (reached0_at m K c (.lo 4)); iexact HR)
    isplitl [LDl4]; · iexact LDl4
    isplitl [OR4]; · iexact OR4
    iexact Tlo4
  iintro Klo4
  rw [show (oweD c 6 + oweF c 4 : CellTallies nD τ sig Unit) = (oweD c 6 + oweF c 5) + tallyAt (cell (py c) (.fr 4)) () Nout from by rw [oweF_peel c 4 (by decide), ← add_assoc]; rfl]
  iapply (wp_send_f m K c _ (devy_eq c _ _ (k0_dev13_eq c)) 4 _ (oweD c 6 + oweF c 5) _) $$ [LDr4 OP4 HO Tfs4 Tfr4]
  · isplitr; · (iapply (inv_at m K c (.fs 4)); iexact HR)
    isplitr; · (iapply (inv_at m K (py c) (.fr 4)); iexact HR)
    isplitr; · (iapply (reached0_at m K c (.fs 4)); iexact HR)
    isplitr; · (iapply (reached0_at m K (py c) (.fr 4)); iexact HR)
    isplitl [LDr4]; · iexact LDr4
    isplitl [OP4]; · iexact OP4
    isplitl [HO]; · iexact HO
    isplitl [Tfs4]; · iexact Tfs4
    iexact Tfr4
  iintro ⟨Kfs4, HO⟩
  -- chunk 6, half a: its staged rows have landed in slot 0
  -- the printed part k0_part23 is opened
  simp only [k0_part23_eq_skeleton]
  unfold k0_part23_skel
  simp only [semSignalWord, semWaitWord, Prog.lift, Prog.bind_op, Prog.bind_ret, Prog.pure_eq_ret, wp_deviceId]
  iapply (wp_wait_ina m K c 6 (credit_viaS (slot2 6)) (oweD c 6 + oweF c 5) _) $$ [Kia6 HO Pia0]
  · isplitr; · (iapply (inv_at m K c (.ina (slot2 6))); iexact HR)
    isplitl [Kia6]; · iexact Kia6
    isplitl [HO]; · iexact HO
    isplitr; · (iapply (mayWait_own c (.ina (slot2 6)) rfl 6 5); iexact Hlev)
    iexact Pia0
  iintro ⟨HO, Pia0, #Ria6, VA0, XA6⟩
  -- chunk 6, half b: its staged rows have landed in slot 0
  iapply (wp_wait_inb m K c 6 (credit_vibS (slot2 6)) (oweD c 6 + oweF c 5) _) $$ [Kib6 HO Pib0]
  · isplitr; · (iapply (inv_at m K c (.inb (slot2 6))); iexact HR)
    isplitl [Kib6]; · iexact Kib6
    isplitl [HO]; · iexact HO
    isplitr; · (iapply (mayWait_own c (.inb (slot2 6)) rfl 6 5); iexact Hlev)
    iexact Pib0
  iintro ⟨HO, Pib0, #Rib6, VB0, XB6⟩
  -- chunk 3: its local copy of vcast_a has landed
  iapply (wp_wait_lca m K c 3 (credit_oA c 3) (oweD c 6 + oweF c 5) _) $$ [Kla3 HO Pla0]
  · isplitr; · (iapply (inv_at m K c (.lca (slot3 3))); iexact HR)
    isplitl [Kla3]; · iexact Kla3
    isplitl [HO]; · iexact HO
    isplitr; · (iapply (mayWait_own c (.lca (slot3 3)) rfl 6 5); iexact Hlev)
    iexact Pla0
  iintro ⟨HO, Pla0, #Rla3, OA3, CAm0⟩
  -- chunk 3: its local copy of vcast_b has landed
  iapply (wp_wait_lcb m K c 3 (credit_oB c 3) (oweD c 6 + oweF c 5) _) $$ [Klb3 HO Plb0]
  · isplitr; · (iapply (inv_at m K c (.lcb (slot3 3))); iexact HR)
    isplitl [Klb3]; · iexact Klb3
    isplitl [HO]; · iexact HO
    isplitr; · (iapply (mayWait_own c (.lcb (slot3 3)) rfl 6 5); iexact Hlev)
    iexact Plb0
  iintro ⟨HO, Plb0, #Rlb3, OB3, CBm0⟩
  -- chunk 3: its send along x has left the slot
  iapply (wp_wait_ds m K c 3 (credit_vcaPeer c (slot3 3)) (oweD c 6 + oweF c 5) _) $$ [Kds3 HO Pds3]
  · isplitr; · (iapply (inv_at m K c (.ds 3)); iexact HR)
    isplitl [Kds3]; · iexact Kds3
    isplitl [HO]; · iexact HO
    isplitr; · (iapply (mayWait_own c (.ds 3) rfl 6 5); iexact Hlev)
    iexact Pds3
  iintro ⟨HO, Pds3, -, CAp0⟩
  -- slot 0 of both bf16 buffers is whole again
  ihave CA0 := (vca_slot_split c (slot3 3) fullShare _).2 $$ [CAm0 CAp0]
  · isplitl [CAm0]; · iexact CAm0
    iexact CAp0
  ihave CB0 := (vcb_slot_split c (slot3 3) fullShare _).2 $$ [CBm0 CBr0]
  · isplitl [CBm0]; · iexact CBm0
    iexact CBr0
  -- chunk 6, half a: staging slot 0 is loaded, cast and stored into bf16 slot 0
  iapply (wp_load_via c (slot2 6) _ _) $$ [VA0]
  · iexact VA0
  iintro VA0
  iapply (wp_load_vca c (slot3 6) _ _) $$ [CA0]
  · iexact CA0
  iintro CA0
  -- the printed part k0_part24 is opened
  simp only [k0_part24_eq_skeleton]
  unfold k0_part24_skel
  simp only [semSignalWord, semWaitWord, Prog.lift, Prog.bind_op, Prog.bind_ret, Prog.pure_eq_ret, wp_deviceId]
  iapply (wp_store_vca c (slot3 6) _ _) $$ [CA0]
  · iexact CA0
  iintro CA0
  ihave CA0 := (store_vca_at m c 6 _ _ rfl) $$ [CA0]
  · iexact CA0
  -- chunk 6, half b: staging slot 0 is loaded, cast and stored into bf16 slot 0
  iapply (wp_load_vib c (slot2 6) _ _) $$ [VB0]
  · iexact VB0
  iintro VB0
  iapply (wp_load_vcb c (slot3 6) _ _) $$ [CB0]
  · iexact CB0
  iintro CB0
  iapply (wp_store_vcb c (slot3 6) _ _) $$ [CB0]
  · iexact CB0
  iintro CB0
  ihave CB0 := (store_vcb_at m c 6 _ _ rfl) $$ [CB0]
  · iexact CB0
  ihave H := (vca_slot_split c (slot3 6) fullShare _).1 $$ [CA0]
  · iexact CA0
  icases H with ⟨CAm0, CAp0⟩
  ihave H := (vcb_slot_split c (slot3 6) fullShare _).1 $$ [CB0]
  · iexact CB0
  icases H with ⟨CBm0, CBr0⟩
  -- chunk 6, half a: the device's own columns of slot 0 start for the result
  iapply (wp_lca m K c 6 _) $$ [CAm0 OA6 Tla6]
  · isplitr; · (iapply (inv_at m K c (.lca (slot3 6))); iexact HR)
    isplitr; · iexact Rla3
    isplitl [CAm0]; · iexact CAm0
    isplitl [OA6]; · iexact OA6
    iexact Tla6
  iintro Kla6
  -- chunk 6, half b: the device's own columns of slot 0 start for the result
  iapply (wp_lcb m K c 6 _) $$ [CBm0 OB6 Tlb6]
  · isplitr; · (iapply (inv_at m K c (.lcb (slot3 6))); iexact HR)
    isplitr; · iexact Rlb3
    isplitl [CBm0]; · iexact CBm0
    isplitl [OB6]; · iexact OB6
    iexact Tlb6
  iintro Klb6
  -- chunk 6: the x-peer's columns of slot 0 are sent into its landing slot 6
  rw [show (oweD c 6 + oweF c 5 : CellTallies nD τ sig Unit) = (oweD c 7 + oweF c 5) + tallyAt (cell (px c) (.dr 6)) () Nout from by rw [oweD_peel c 6 (by decide), add_right_comm]; rfl]
  -- the printed part k0_part25 is opened
  simp only [k0_part25_eq_skeleton]
  unfold k0_part25_skel
  simp only [semSignalWord, semWaitWord, Prog.lift, Prog.bind_op, Prog.bind_ret, Prog.pure_eq_ret, wp_deviceId]
  iapply (wp_send_d m K c _ (devx_eq c _ _ (k0_dev14_eq c)) 6 _ (oweD c 7 + oweF c 5) _) $$ [CAp0 LP6 HO Tds6 Tdr6]
  · isplitr; · (iapply (inv_at m K c (.ds 6)); iexact HR)
    isplitr; · (iapply (inv_at m K (px c) (.dr 6)); iexact HR)
    isplitr; · (iapply (reached0_at m K c (.ds 6)); iexact HR)
    isplitr; · (iapply (reached0_at m K (px c) (.dr 6)); iexact HR)
    isplitl [CAp0]; · iexact CAp0
    isplitl [LP6]; · iexact LP6
    isplitl [HO]; · iexact HO
    isplitl [Tds6]; · iexact Tds6
    iexact Tdr6
  iintro ⟨Kds6, HO⟩
  -- chunk 8, half a: its rows of x start for staging slot 0
  iapply (wp_stage_a m K c 8 _) $$ [XA8 VA0 Tia8]
  · isplitr; · (iapply (inv_at m K c (.ina (slot2 8))); iexact HR)
    isplitr; · iexact Ria6
    isplitl [XA8]; · iexact XA8
    isplitl [VA0]; · iexact VA0
    iexact Tia8
  iintro Kia8
  -- chunk 8, half b: its rows of x start for staging slot 0
  iapply (wp_stage_b m K c 8 _) $$ [XB8 VB0 Tib8]
  · isplitr; · (iapply (inv_at m K c (.inb (slot2 8))); iexact HR)
    isplitr; · iexact Rib6
    isplitl [XB8]; · iexact XB8
    isplitl [VB0]; · iexact VB0
    iexact Tib8
  iintro Kib8
  -- chunk 5 of the x-peer has landed: it is copied into the result and relayed to the y-peer
  iapply (wp_wait_dr m K c 5 (credit_ldS 5) (oweD c 7 + oweF c 5) _) $$ [Cdr5 HO Pdr5]
  · isplitr; · (iapply (inv_at m K c (.dr 5)); iexact HR)
    isplitl [Cdr5]; · iexact Cdr5
    isplitl [HO]; · iexact HO
    isplitr; · (iapply (mayWait_dr c 5 7 5 (by decide) (by decide)); iexact Hlev)
    iexact Pdr5
  iintro ⟨HO, Pdr5, -, LD5⟩
  ihave H := (ld_share_split c 5 _).1 $$ [LD5]
  · iexact LD5
  icases H with ⟨LDl5, LDr5⟩
  -- the printed part k0_part26 is opened
  simp only [k0_part26_eq_skeleton]
  unfold k0_part26_skel
  simp only [semSignalWord, semWaitWord, Prog.lift, Prog.bind_op, Prog.bind_ret, Prog.pure_eq_ret, wp_deviceId]
  iapply (wp_lo m K c 5 _) $$ [LDl5 OR5 Tlo5]
  · isplitr; · (iapply (inv_at m K c (.lo 5)); iexact HR)
    isplitr; · (iapply (reached0_at m K c (.lo 5)); iexact HR)
    isplitl [LDl5]; · iexact LDl5
    isplitl [OR5]; · iexact OR5
    iexact Tlo5
  iintro Klo5
  rw [show (oweD c 7 + oweF c 5 : CellTallies nD τ sig Unit) = (oweD c 7 + oweF c 6) + tallyAt (cell (py c) (.fr 5)) () Nout from by rw [oweF_peel c 5 (by decide), ← add_assoc]; rfl]
  iapply (wp_send_f m K c _ (devy_eq c _ _ (k0_dev15_eq c)) 5 _ (oweD c 7 + oweF c 6) _) $$ [LDr5 OP5 HO Tfs5 Tfr5]
  · isplitr; · (iapply (inv_at m K c (.fs 5)); iexact HR)
    isplitr; · (iapply (inv_at m K (py c) (.fr 5)); iexact HR)
    isplitr; · (iapply (reached0_at m K c (.fs 5)); iexact HR)
    isplitr; · (iapply (reached0_at m K (py c) (.fr 5)); iexact HR)
    isplitl [LDr5]; · iexact LDr5
    isplitl [OP5]; · iexact OP5
    isplitl [HO]; · iexact HO
    isplitl [Tfs5]; · iexact Tfs5
    iexact Tfr5
  iintro ⟨Kfs5, HO⟩
  -- chunk 7, half a: its staged rows have landed in slot 1
  iapply (wp_wait_ina m K c 7 (credit_viaS (slot2 7)) (oweD c 7 + oweF c 6) _) $$ [Kia7 HO Pia1]
  · isplitr; · (iapply (inv_at m K c (.ina (slot2 7))); iexact HR)
    isplitl [Kia7]; · iexact Kia7
    isplitl [HO]; · iexact HO
    isplitr; · (iapply (mayWait_own c (.ina (slot2 7)) rfl 7 6); iexact Hlev)
    iexact Pia1
  iintro ⟨HO, Pia1, #Ria7, VA1, XA7⟩
  -- chunk 7, half b: its staged rows have landed in slot 1
  -- the printed part k0_part27 is opened
  simp only [k0_part27_eq_skeleton]
  unfold k0_part27_skel
  simp only [semSignalWord, semWaitWord, Prog.lift, Prog.bind_op, Prog.bind_ret, Prog.pure_eq_ret, wp_deviceId]
  iapply (wp_wait_inb m K c 7 (credit_vibS (slot2 7)) (oweD c 7 + oweF c 6) _) $$ [Kib7 HO Pib1]
  · isplitr; · (iapply (inv_at m K c (.inb (slot2 7))); iexact HR)
    isplitl [Kib7]; · iexact Kib7
    isplitl [HO]; · iexact HO
    isplitr; · (iapply (mayWait_own c (.inb (slot2 7)) rfl 7 6); iexact Hlev)
    iexact Pib1
  iintro ⟨HO, Pib1, #Rib7, VB1, XB7⟩
  -- chunk 4: its local copy of vcast_a has landed
  iapply (wp_wait_lca m K c 4 (credit_oA c 4) (oweD c 7 + oweF c 6) _) $$ [Kla4 HO Pla1]
  · isplitr; · (iapply (inv_at m K c (.lca (slot3 4))); iexact HR)
    isplitl [Kla4]; · iexact Kla4
    isplitl [HO]; · iexact HO
    isplitr; · (iapply (mayWait_own c (.lca (slot3 4)) rfl 7 6); iexact Hlev)
    iexact Pla1
  iintro ⟨HO, Pla1, #Rla4, OA4, CAm1⟩
  -- chunk 4: its local copy of vcast_b has landed
  iapply (wp_wait_lcb m K c 4 (credit_oB c 4) (oweD c 7 + oweF c 6) _) $$ [Klb4 HO Plb1]
  · isplitr; · (iapply (inv_at m K c (.lcb (slot3 4))); iexact HR)
    isplitl [Klb4]; · iexact Klb4
    isplitl [HO]; · iexact HO
    isplitr; · (iapply (mayWait_own c (.lcb (slot3 4)) rfl 7 6); iexact Hlev)
    iexact Plb1
  iintro ⟨HO, Plb1, #Rlb4, OB4, CBm1⟩
  -- chunk 4: its send along x has left the slot
  iapply (wp_wait_ds m K c 4 (credit_vcaPeer c (slot3 4)) (oweD c 7 + oweF c 6) _) $$ [Kds4 HO Pds4]
  · isplitr; · (iapply (inv_at m K c (.ds 4)); iexact HR)
    isplitl [Kds4]; · iexact Kds4
    isplitl [HO]; · iexact HO
    isplitr; · (iapply (mayWait_own c (.ds 4) rfl 7 6); iexact Hlev)
    iexact Pds4
  iintro ⟨HO, Pds4, -, CAp1⟩
  -- slot 1 of both bf16 buffers is whole again
  ihave CA1 := (vca_slot_split c (slot3 4) fullShare _).2 $$ [CAm1 CAp1]
  · isplitl [CAm1]; · iexact CAm1
    iexact CAp1
  ihave CB1 := (vcb_slot_split c (slot3 4) fullShare _).2 $$ [CBm1 CBr1]
  · isplitl [CBm1]; · iexact CBm1
    iexact CBr1
  -- chunk 7, half a: staging slot 1 is loaded, cast and stored into bf16 slot 1
  iapply (wp_load_via c (slot2 7) _ _) $$ [VA1]
  · iexact VA1
  iintro VA1
  iapply (wp_load_vca c (slot3 7) _ _) $$ [CA1]
  · iexact CA1
  iintro CA1
  iapply (wp_store_vca c (slot3 7) _ _) $$ [CA1]
  · iexact CA1
  iintro CA1
  ihave CA1 := (store_vca_at m c 7 _ _ rfl) $$ [CA1]
  · iexact CA1
  -- chunk 7, half b: staging slot 1 is loaded, cast and stored into bf16 slot 1
  iapply (wp_load_vib c (slot2 7) _ _) $$ [VB1]
  · iexact VB1
  iintro VB1
  -- the printed part k0_part28 is opened
  simp only [k0_part28_eq_skeleton]
  unfold k0_part28_skel
  simp only [semSignalWord, semWaitWord, Prog.lift, Prog.bind_op, Prog.bind_ret, Prog.pure_eq_ret, wp_deviceId]
  iapply (wp_load_vcb c (slot3 7) _ _) $$ [CB1]
  · iexact CB1
  iintro CB1
  iapply (wp_store_vcb c (slot3 7) _ _) $$ [CB1]
  · iexact CB1
  iintro CB1
  ihave CB1 := (store_vcb_at m c 7 _ _ rfl) $$ [CB1]
  · iexact CB1
  ihave H := (vca_slot_split c (slot3 7) fullShare _).1 $$ [CA1]
  · iexact CA1
  icases H with ⟨CAm1, CAp1⟩
  ihave H := (vcb_slot_split c (slot3 7) fullShare _).1 $$ [CB1]
  · iexact CB1
  icases H with ⟨CBm1, CBr1⟩
  -- chunk 7, half a: the device's own columns of slot 1 start for the result
  iapply (wp_lca m K c 7 _) $$ [CAm1 OA7 Tla7]
  · isplitr; · (iapply (inv_at m K c (.lca (slot3 7))); iexact HR)
    isplitr; · iexact Rla4
    isplitl [CAm1]; · iexact CAm1
    isplitl [OA7]; · iexact OA7
    iexact Tla7
  iintro Kla7
  -- chunk 7, half b: the device's own columns of slot 1 start for the result
  iapply (wp_lcb m K c 7 _) $$ [CBm1 OB7 Tlb7]
  · isplitr; · (iapply (inv_at m K c (.lcb (slot3 7))); iexact HR)
    isplitr; · iexact Rlb4
    isplitl [CBm1]; · iexact CBm1
    isplitl [OB7]; · iexact OB7
    iexact Tlb7
  iintro Klb7
  -- chunk 7: the x-peer's columns of slot 1 are sent into its landing slot 7
  rw [show (oweD c 7 + oweF c 6 : CellTallies nD τ sig Unit) = (oweD c 8 + oweF c 6) + tallyAt (cell (px c) (.dr 7)) () Nout from by rw [oweD_peel c 7 (by decide), add_right_comm]; rfl]
  -- the printed part k0_part29 is opened
  simp only [k0_part29_eq_skeleton]
  unfold k0_part29_skel
  simp only [semSignalWord, semWaitWord, Prog.lift, Prog.bind_op, Prog.bind_ret, Prog.pure_eq_ret, wp_deviceId]
  iapply (wp_send_d m K c _ (devx_eq c _ _ (k0_dev16_eq c)) 7 _ (oweD c 8 + oweF c 6) _) $$ [CAp1 LP7 HO Tds7 Tdr7]
  · isplitr; · (iapply (inv_at m K c (.ds 7)); iexact HR)
    isplitr; · (iapply (inv_at m K (px c) (.dr 7)); iexact HR)
    isplitr; · (iapply (reached0_at m K c (.ds 7)); iexact HR)
    isplitr; · (iapply (reached0_at m K (px c) (.dr 7)); iexact HR)
    isplitl [CAp1]; · iexact CAp1
    isplitl [LP7]; · iexact LP7
    isplitl [HO]; · iexact HO
    isplitl [Tds7]; · iexact Tds7
    iexact Tdr7
  iintro ⟨Kds7, HO⟩
  -- chunk 9, half a: its rows of x start for staging slot 1
  iapply (wp_stage_a m K c 9 _) $$ [XA9 VA1 Tia9]
  · isplitr; · (iapply (inv_at m K c (.ina (slot2 9))); iexact HR)
    isplitr; · iexact Ria7
    isplitl [XA9]; · iexact XA9
    isplitl [VA1]; · iexact VA1
    iexact Tia9
  iintro Kia9
  -- chunk 9, half b: its rows of x start for staging slot 1
  iapply (wp_stage_b m K c 9 _) $$ [XB9 VB1 Tib9]
  · isplitr; · (iapply (inv_at m K c (.inb (slot2 9))); iexact HR)
    isplitr; · iexact Rib7
    isplitl [XB9]; · iexact XB9
    isplitl [VB1]; · iexact VB1
    iexact Tib9
  iintro Kib9
  -- chunk 6 of the x-peer has landed: it is copied into the result and relayed to the y-peer
  iapply (wp_wait_dr m K c 6 (credit_ldS 6) (oweD c 8 + oweF c 6) _) $$ [Cdr6 HO Pdr6]
  · isplitr; · (iapply (inv_at m K c (.dr 6)); iexact HR)
    isplitl [Cdr6]; · iexact Cdr6
    isplitl [HO]; · iexact HO
    isplitr; · (iapply (mayWait_dr c 6 8 6 (by decide) (by decide)); iexact Hlev)
    iexact Pdr6
  iintro ⟨HO, Pdr6, -, LD6⟩
  ihave H := (ld_share_split c 6 _).1 $$ [LD6]
  · iexact LD6
  icases H with ⟨LDl6, LDr6⟩
  -- the printed part k0_part30 is opened
  simp only [k0_part30_eq_skeleton]
  unfold k0_part30_skel
  simp only [semSignalWord, semWaitWord, Prog.lift, Prog.bind_op, Prog.bind_ret, Prog.pure_eq_ret, wp_deviceId]
  iapply (wp_lo m K c 6 _) $$ [LDl6 OR6 Tlo6]
  · isplitr; · (iapply (inv_at m K c (.lo 6)); iexact HR)
    isplitr; · (iapply (reached0_at m K c (.lo 6)); iexact HR)
    isplitl [LDl6]; · iexact LDl6
    isplitl [OR6]; · iexact OR6
    iexact Tlo6
  iintro Klo6
  rw [show (oweD c 8 + oweF c 6 : CellTallies nD τ sig Unit) = (oweD c 8 + oweF c 7) + tallyAt (cell (py c) (.fr 6)) () Nout from by rw [oweF_peel c 6 (by decide), ← add_assoc]; rfl]
  iapply (wp_send_f m K c _ (devy_eq c _ _ (k0_dev17_eq c)) 6 _ (oweD c 8 + oweF c 7) _) $$ [LDr6 OP6 HO Tfs6 Tfr6]
  · isplitr; · (iapply (inv_at m K c (.fs 6)); iexact HR)
    isplitr; · (iapply (inv_at m K (py c) (.fr 6)); iexact HR)
    isplitr; · (iapply (reached0_at m K c (.fs 6)); iexact HR)
    isplitr; · (iapply (reached0_at m K (py c) (.fr 6)); iexact HR)
    isplitl [LDr6]; · iexact LDr6
    isplitl [OP6]; · iexact OP6
    isplitl [HO]; · iexact HO
    isplitl [Tfs6]; · iexact Tfs6
    iexact Tfr6
  iintro ⟨Kfs6, HO⟩
  -- chunk 8, half a: its staged rows have landed in slot 0
  iapply (wp_wait_ina m K c 8 (credit_viaS (slot2 8)) (oweD c 8 + oweF c 7) _) $$ [Kia8 HO Pia0]
  · isplitr; · (iapply (inv_at m K c (.ina (slot2 8))); iexact HR)
    isplitl [Kia8]; · iexact Kia8
    isplitl [HO]; · iexact HO
    isplitr; · (iapply (mayWait_own c (.ina (slot2 8)) rfl 8 7); iexact Hlev)
    iexact Pia0
  iintro ⟨HO, Pia0, #Ria8, VA0, XA8⟩
  -- chunk 8, half b: its staged rows have landed in slot 0
  iapply (wp_wait_inb m K c 8 (credit_vibS (slot2 8)) (oweD c 8 + oweF c 7) _) $$ [Kib8 HO Pib0]
  · isplitr; · (iapply (inv_at m K c (.inb (slot2 8))); iexact HR)
    isplitl [Kib8]; · iexact Kib8
    isplitl [HO]; · iexact HO
    isplitr; · (iapply (mayWait_own c (.inb (slot2 8)) rfl 8 7); iexact Hlev)
    iexact Pib0
  iintro ⟨HO, Pib0, #Rib8, VB0, XB8⟩
  -- chunk 5: its local copy of vcast_a has landed
  -- the printed part k0_part31 is opened
  simp only [k0_part31_eq_skeleton]
  unfold k0_part31_skel
  simp only [semSignalWord, semWaitWord, Prog.lift, Prog.bind_op, Prog.bind_ret, Prog.pure_eq_ret, wp_deviceId]
  iapply (wp_wait_lca m K c 5 (credit_oA c 5) (oweD c 8 + oweF c 7) _) $$ [Kla5 HO Pla2]
  · isplitr; · (iapply (inv_at m K c (.lca (slot3 5))); iexact HR)
    isplitl [Kla5]; · iexact Kla5
    isplitl [HO]; · iexact HO
    isplitr; · (iapply (mayWait_own c (.lca (slot3 5)) rfl 8 7); iexact Hlev)
    iexact Pla2
  iintro ⟨HO, Pla2, #Rla5, OA5, CAm2⟩
  -- chunk 5: its local copy of vcast_b has landed
  iapply (wp_wait_lcb m K c 5 (credit_oB c 5) (oweD c 8 + oweF c 7) _) $$ [Klb5 HO Plb2]
  · isplitr; · (iapply (inv_at m K c (.lcb (slot3 5))); iexact HR)
    isplitl [Klb5]; · iexact Klb5
    isplitl [HO]; · iexact HO
    isplitr; · (iapply (mayWait_own c (.lcb (slot3 5)) rfl 8 7); iexact Hlev)
    iexact Plb2
  iintro ⟨HO, Plb2, #Rlb5, OB5, CBm2⟩
  -- chunk 5: its send along x has left the slot
  iapply (wp_wait_ds m K c 5 (credit_vcaPeer c (slot3 5)) (oweD c 8 + oweF c 7) _) $$ [Kds5 HO Pds5]
  · isplitr; · (iapply (inv_at m K c (.ds 5)); iexact HR)
    isplitl [Kds5]; · iexact Kds5
    isplitl [HO]; · iexact HO
    isplitr; · (iapply (mayWait_own c (.ds 5) rfl 8 7); iexact Hlev)
    iexact Pds5
  iintro ⟨HO, Pds5, -, CAp2⟩
  -- slot 2 of both bf16 buffers is whole again
  ihave CA2 := (vca_slot_split c (slot3 5) fullShare _).2 $$ [CAm2 CAp2]
  · isplitl [CAm2]; · iexact CAm2
    iexact CAp2
  ihave CB2 := (vcb_slot_split c (slot3 5) fullShare _).2 $$ [CBm2 CBr2]
  · isplitl [CBm2]; · iexact CBm2
    iexact CBr2
  -- chunk 8, half a: staging slot 0 is loaded, cast and stored into bf16 slot 2
  iapply (wp_load_via c (slot2 8) _ _) $$ [VA0]
  · iexact VA0
  iintro VA0
  iapply (wp_load_vca c (slot3 8) _ _) $$ [CA2]
  · iexact CA2
  iintro CA2
  iapply (wp_store_vca c (slot3 8) _ _) $$ [CA2]
  · iexact CA2
  iintro CA2
  ihave CA2 := (store_vca_at m c 8 _ _ rfl) $$ [CA2]
  · iexact CA2
  -- chunk 8, half b: staging slot 0 is loaded, cast and stored into bf16 slot 2
  iapply (wp_load_vib c (slot2 8) _ _) $$ [VB0]
  · iexact VB0
  iintro VB0
  iapply (wp_load_vcb c (slot3 8) _ _) $$ [CB2]
  · iexact CB2
  iintro CB2
  iapply (wp_store_vcb c (slot3 8) _ _) $$ [CB2]
  · iexact CB2
  iintro CB2
  ihave CB2 := (store_vcb_at m c 8 _ _ rfl) $$ [CB2]
  · iexact CB2
  ihave H := (vca_slot_split c (slot3 8) fullShare _).1 $$ [CA2]
  · iexact CA2
  icases H with ⟨CAm2, CAp2⟩
  ihave H := (vcb_slot_split c (slot3 8) fullShare _).1 $$ [CB2]
  · iexact CB2
  icases H with ⟨CBm2, CBr2⟩
  -- chunk 8, half a: the device's own columns of slot 2 start for the result
  -- the printed part k0_part32 is opened
  simp only [k0_part32_eq_skeleton]
  unfold k0_part32_skel
  simp only [semSignalWord, semWaitWord, Prog.lift, Prog.bind_op, Prog.bind_ret, Prog.pure_eq_ret, wp_deviceId]
  iapply (wp_lca m K c 8 _) $$ [CAm2 OA8 Tla8]
  · isplitr; · (iapply (inv_at m K c (.lca (slot3 8))); iexact HR)
    isplitr; · iexact Rla5
    isplitl [CAm2]; · iexact CAm2
    isplitl [OA8]; · iexact OA8
    iexact Tla8
  iintro Kla8
  -- chunk 8, half b: the device's own columns of slot 2 start for the result
  iapply (wp_lcb m K c 8 _) $$ [CBm2 OB8 Tlb8]
  · isplitr; · (iapply (inv_at m K c (.lcb (slot3 8))); iexact HR)
    isplitr; · iexact Rlb5
    isplitl [CBm2]; · iexact CBm2
    isplitl [OB8]; · iexact OB8
    iexact Tlb8
  iintro Klb8
  -- chunk 8: the x-peer's columns of slot 2 are sent into its landing slot 8
  rw [show (oweD c 8 + oweF c 7 : CellTallies nD τ sig Unit) = (oweD c 9 + oweF c 7) + tallyAt (cell (px c) (.dr 8)) () Nout from by rw [oweD_peel c 8 (by decide), add_right_comm]; rfl]
  iapply (wp_send_d m K c _ (devx_eq c _ _ (k0_dev18_eq c)) 8 _ (oweD c 9 + oweF c 7) _) $$ [CAp2 LP8 HO Tds8 Tdr8]
  · isplitr; · (iapply (inv_at m K c (.ds 8)); iexact HR)
    isplitr; · (iapply (inv_at m K (px c) (.dr 8)); iexact HR)
    isplitr; · (iapply (reached0_at m K c (.ds 8)); iexact HR)
    isplitr; · (iapply (reached0_at m K (px c) (.dr 8)); iexact HR)
    isplitl [CAp2]; · iexact CAp2
    isplitl [LP8]; · iexact LP8
    isplitl [HO]; · iexact HO
    isplitl [Tds8]; · iexact Tds8
    iexact Tdr8
  iintro ⟨Kds8, HO⟩
  -- chunk 10, half a: its rows of x start for staging slot 0
  -- the printed part k0_part33 is opened
  simp only [k0_part33_eq_skeleton]
  unfold k0_part33_skel
  simp only [semSignalWord, semWaitWord, Prog.lift, Prog.bind_op, Prog.bind_ret, Prog.pure_eq_ret, wp_deviceId]
  iapply (wp_stage_a m K c 10 _) $$ [XA10 VA0 Tia10]
  · isplitr; · (iapply (inv_at m K c (.ina (slot2 10))); iexact HR)
    isplitr; · iexact Ria8
    isplitl [XA10]; · iexact XA10
    isplitl [VA0]; · iexact VA0
    iexact Tia10
  iintro Kia10
  -- chunk 10, half b: its rows of x start for staging slot 0
  iapply (wp_stage_b m K c 10 _) $$ [XB10 VB0 Tib10]
  · isplitr; · (iapply (inv_at m K c (.inb (slot2 10))); iexact HR)
    isplitr; · iexact Rib8
    isplitl [XB10]; · iexact XB10
    isplitl [VB0]; · iexact VB0
    iexact Tib10
  iintro Kib10
  -- chunk 7 of the x-peer has landed: it is copied into the result and relayed to the y-peer
  iapply (wp_wait_dr m K c 7 (credit_ldS 7) (oweD c 9 + oweF c 7) _) $$ [Cdr7 HO Pdr7]
  · isplitr; · (iapply (inv_at m K c (.dr 7)); iexact HR)
    isplitl [Cdr7]; · iexact Cdr7
    isplitl [HO]; · iexact HO
    isplitr; · (iapply (mayWait_dr c 7 9 7 (by decide) (by decide)); iexact Hlev)
    iexact Pdr7
  iintro ⟨HO, Pdr7, -, LD7⟩
  ihave H := (ld_share_split c 7 _).1 $$ [LD7]
  · iexact LD7
  icases H with ⟨LDl7, LDr7⟩
  iapply (wp_lo m K c 7 _) $$ [LDl7 OR7 Tlo7]
  · isplitr; · (iapply (inv_at m K c (.lo 7)); iexact HR)
    isplitr; · (iapply (reached0_at m K c (.lo 7)); iexact HR)
    isplitl [LDl7]; · iexact LDl7
    isplitl [OR7]; · iexact OR7
    iexact Tlo7
  iintro Klo7
  rw [show (oweD c 9 + oweF c 7 : CellTallies nD τ sig Unit) = (oweD c 9 + oweF c 8) + tallyAt (cell (py c) (.fr 7)) () Nout from by rw [oweF_peel c 7 (by decide), ← add_assoc]; rfl]
  -- the printed part k0_part34 is opened
  simp only [k0_part34_eq_skeleton]
  unfold k0_part34_skel
  simp only [semSignalWord, semWaitWord, Prog.lift, Prog.bind_op, Prog.bind_ret, Prog.pure_eq_ret, wp_deviceId]
  iapply (wp_send_f m K c _ (devy_eq c _ _ (k0_dev19_eq c)) 7 _ (oweD c 9 + oweF c 8) _) $$ [LDr7 OP7 HO Tfs7 Tfr7]
  · isplitr; · (iapply (inv_at m K c (.fs 7)); iexact HR)
    isplitr; · (iapply (inv_at m K (py c) (.fr 7)); iexact HR)
    isplitr; · (iapply (reached0_at m K c (.fs 7)); iexact HR)
    isplitr; · (iapply (reached0_at m K (py c) (.fr 7)); iexact HR)
    isplitl [LDr7]; · iexact LDr7
    isplitl [OP7]; · iexact OP7
    isplitl [HO]; · iexact HO
    isplitl [Tfs7]; · iexact Tfs7
    iexact Tfr7
  iintro ⟨Kfs7, HO⟩
  -- chunk 9, half a: its staged rows have landed in slot 1
  iapply (wp_wait_ina m K c 9 (credit_viaS (slot2 9)) (oweD c 9 + oweF c 8) _) $$ [Kia9 HO Pia1]
  · isplitr; · (iapply (inv_at m K c (.ina (slot2 9))); iexact HR)
    isplitl [Kia9]; · iexact Kia9
    isplitl [HO]; · iexact HO
    isplitr; · (iapply (mayWait_own c (.ina (slot2 9)) rfl 9 8); iexact Hlev)
    iexact Pia1
  iintro ⟨HO, Pia1, #Ria9, VA1, XA9⟩
  -- chunk 9, half b: its staged rows have landed in slot 1
  iapply (wp_wait_inb m K c 9 (credit_vibS (slot2 9)) (oweD c 9 + oweF c 8) _) $$ [Kib9 HO Pib1]
  · isplitr; · (iapply (inv_at m K c (.inb (slot2 9))); iexact HR)
    isplitl [Kib9]; · iexact Kib9
    isplitl [HO]; · iexact HO
    isplitr; · (iapply (mayWait_own c (.inb (slot2 9)) rfl 9 8); iexact Hlev)
    iexact Pib1
  iintro ⟨HO, Pib1, #Rib9, VB1, XB9⟩
  -- chunk 6: its local copy of vcast_a has landed
  iapply (wp_wait_lca m K c 6 (credit_oA c 6) (oweD c 9 + oweF c 8) _) $$ [Kla6 HO Pla0]
  · isplitr; · (iapply (inv_at m K c (.lca (slot3 6))); iexact HR)
    isplitl [Kla6]; · iexact Kla6
    isplitl [HO]; · iexact HO
    isplitr; · (iapply (mayWait_own c (.lca (slot3 6)) rfl 9 8); iexact Hlev)
    iexact Pla0
  iintro ⟨HO, Pla0, #Rla6, OA6, CAm0⟩
  -- chunk 6: its local copy of vcast_b has landed
  -- the printed part k0_part35 is opened
  simp only [k0_part35_eq_skeleton]
  unfold k0_part35_skel
  simp only [semSignalWord, semWaitWord, Prog.lift, Prog.bind_op, Prog.bind_ret, Prog.pure_eq_ret, wp_deviceId]
  iapply (wp_wait_lcb m K c 6 (credit_oB c 6) (oweD c 9 + oweF c 8) _) $$ [Klb6 HO Plb0]
  · isplitr; · (iapply (inv_at m K c (.lcb (slot3 6))); iexact HR)
    isplitl [Klb6]; · iexact Klb6
    isplitl [HO]; · iexact HO
    isplitr; · (iapply (mayWait_own c (.lcb (slot3 6)) rfl 9 8); iexact Hlev)
    iexact Plb0
  iintro ⟨HO, Plb0, #Rlb6, OB6, CBm0⟩
  -- chunk 6: its send along x has left the slot
  iapply (wp_wait_ds m K c 6 (credit_vcaPeer c (slot3 6)) (oweD c 9 + oweF c 8) _) $$ [Kds6 HO Pds6]
  · isplitr; · (iapply (inv_at m K c (.ds 6)); iexact HR)
    isplitl [Kds6]; · iexact Kds6
    isplitl [HO]; · iexact HO
    isplitr; · (iapply (mayWait_own c (.ds 6) rfl 9 8); iexact Hlev)
    iexact Pds6
  iintro ⟨HO, Pds6, -, CAp0⟩
  -- slot 0 of both bf16 buffers is whole again
  ihave CA0 := (vca_slot_split c (slot3 6) fullShare _).2 $$ [CAm0 CAp0]
  · isplitl [CAm0]; · iexact CAm0
    iexact CAp0
  ihave CB0 := (vcb_slot_split c (slot3 6) fullShare _).2 $$ [CBm0 CBr0]
  · isplitl [CBm0]; · iexact CBm0
    iexact CBr0
  -- chunk 9, half a: staging slot 1 is loaded, cast and stored into bf16 slot 0
  iapply (wp_load_via c (slot2 9) _ _) $$ [VA1]
  · iexact VA1
  iintro VA1
  iapply (wp_load_vca c (slot3 9) _ _) $$ [CA0]
  · iexact CA0
  iintro CA0
  iapply (wp_store_vca c (slot3 9) _ _) $$ [CA0]
  · iexact CA0
  iintro CA0
  ihave CA0 := (store_vca_at m c 9 _ _ rfl) $$ [CA0]
  · iexact CA0
  -- chunk 9, half b: staging slot 1 is loaded, cast and stored into bf16 slot 0
  iapply (wp_load_vib c (slot2 9) _ _) $$ [VB1]
  · iexact VB1
  iintro VB1
  iapply (wp_load_vcb c (slot3 9) _ _) $$ [CB0]
  · iexact CB0
  iintro CB0
  iapply (wp_store_vcb c (slot3 9) _ _) $$ [CB0]
  · iexact CB0
  iintro CB0
  ihave CB0 := (store_vcb_at m c 9 _ _ rfl) $$ [CB0]
  · iexact CB0
  ihave H := (vca_slot_split c (slot3 9) fullShare _).1 $$ [CA0]
  · iexact CA0
  icases H with ⟨CAm0, CAp0⟩
  ihave H := (vcb_slot_split c (slot3 9) fullShare _).1 $$ [CB0]
  · iexact CB0
  icases H with ⟨CBm0, CBr0⟩
  -- chunk 9, half a: the device's own columns of slot 0 start for the result
  -- the printed part k0_part36 is opened
  simp only [k0_part36_eq_skeleton]
  unfold k0_part36_skel
  simp only [semSignalWord, semWaitWord, Prog.lift, Prog.bind_op, Prog.bind_ret, Prog.pure_eq_ret, wp_deviceId]
  iapply (wp_lca m K c 9 _) $$ [CAm0 OA9 Tla9]
  · isplitr; · (iapply (inv_at m K c (.lca (slot3 9))); iexact HR)
    isplitr; · iexact Rla6
    isplitl [CAm0]; · iexact CAm0
    isplitl [OA9]; · iexact OA9
    iexact Tla9
  iintro Kla9
  -- chunk 9, half b: the device's own columns of slot 0 start for the result
  iapply (wp_lcb m K c 9 _) $$ [CBm0 OB9 Tlb9]
  · isplitr; · (iapply (inv_at m K c (.lcb (slot3 9))); iexact HR)
    isplitr; · iexact Rlb6
    isplitl [CBm0]; · iexact CBm0
    isplitl [OB9]; · iexact OB9
    iexact Tlb9
  iintro Klb9
  -- chunk 9: the x-peer's columns of slot 0 are sent into its landing slot 9
  rw [show (oweD c 9 + oweF c 8 : CellTallies nD τ sig Unit) = (oweD c 10 + oweF c 8) + tallyAt (cell (px c) (.dr 9)) () Nout from by rw [oweD_peel c 9 (by decide), add_right_comm]; rfl]
  iapply (wp_send_d m K c _ (devx_eq c _ _ (k0_dev20_eq c)) 9 _ (oweD c 10 + oweF c 8) _) $$ [CAp0 LP9 HO Tds9 Tdr9]
  · isplitr; · (iapply (inv_at m K c (.ds 9)); iexact HR)
    isplitr; · (iapply (inv_at m K (px c) (.dr 9)); iexact HR)
    isplitr; · (iapply (reached0_at m K c (.ds 9)); iexact HR)
    isplitr; · (iapply (reached0_at m K (px c) (.dr 9)); iexact HR)
    isplitl [CAp0]; · iexact CAp0
    isplitl [LP9]; · iexact LP9
    isplitl [HO]; · iexact HO
    isplitl [Tds9]; · iexact Tds9
    iexact Tdr9
  iintro ⟨Kds9, HO⟩
  -- chunk 11, half a: its rows of x start for staging slot 1
  -- the printed part k0_part37 is opened
  simp only [k0_part37_eq_skeleton]
  unfold k0_part37_skel
  simp only [semSignalWord, semWaitWord, Prog.lift, Prog.bind_op, Prog.bind_ret, Prog.pure_eq_ret, wp_deviceId]
  iapply (wp_stage_a m K c 11 _) $$ [XA11 VA1 Tia11]
  · isplitr; · (iapply (inv_at m K c (.ina (slot2 11))); iexact HR)
    isplitr; · iexact Ria9
    isplitl [XA11]; · iexact XA11
    isplitl [VA1]; · iexact VA1
    iexact Tia11
  iintro Kia11
  -- chunk 11, half b: its rows of x start for staging slot 1
  iapply (wp_stage_b m K c 11 _) $$ [XB11 VB1 Tib11]
  · isplitr; · (iapply (inv_at m K c (.inb (slot2 11))); iexact HR)
    isplitr; · iexact Rib9
    isplitl [XB11]; · iexact XB11
    isplitl [VB1]; · iexact VB1
    iexact Tib11
  iintro Kib11
  -- chunk 8 of the x-peer has landed: it is copied into the result and relayed to the y-peer
  iapply (wp_wait_dr m K c 8 (credit_ldS 8) (oweD c 10 + oweF c 8) _) $$ [Cdr8 HO Pdr8]
  · isplitr; · (iapply (inv_at m K c (.dr 8)); iexact HR)
    isplitl [Cdr8]; · iexact Cdr8
    isplitl [HO]; · iexact HO
    isplitr; · (iapply (mayWait_dr c 8 10 8 (by decide) (by decide)); iexact Hlev)
    iexact Pdr8
  iintro ⟨HO, Pdr8, -, LD8⟩
  ihave H := (ld_share_split c 8 _).1 $$ [LD8]
  · iexact LD8
  icases H with ⟨LDl8, LDr8⟩
  iapply (wp_lo m K c 8 _) $$ [LDl8 OR8 Tlo8]
  · isplitr; · (iapply (inv_at m K c (.lo 8)); iexact HR)
    isplitr; · (iapply (reached0_at m K c (.lo 8)); iexact HR)
    isplitl [LDl8]; · iexact LDl8
    isplitl [OR8]; · iexact OR8
    iexact Tlo8
  iintro Klo8
  rw [show (oweD c 10 + oweF c 8 : CellTallies nD τ sig Unit) = (oweD c 10 + oweF c 9) + tallyAt (cell (py c) (.fr 8)) () Nout from by rw [oweF_peel c 8 (by decide), ← add_assoc]; rfl]
  -- the printed part k0_part38 is opened
  simp only [k0_part38_eq_skeleton]
  unfold k0_part38_skel
  simp only [semSignalWord, semWaitWord, Prog.lift, Prog.bind_op, Prog.bind_ret, Prog.pure_eq_ret, wp_deviceId]
  iapply (wp_send_f m K c _ (devy_eq c _ _ (k0_dev21_eq c)) 8 _ (oweD c 10 + oweF c 9) _) $$ [LDr8 OP8 HO Tfs8 Tfr8]
  · isplitr; · (iapply (inv_at m K c (.fs 8)); iexact HR)
    isplitr; · (iapply (inv_at m K (py c) (.fr 8)); iexact HR)
    isplitr; · (iapply (reached0_at m K c (.fs 8)); iexact HR)
    isplitr; · (iapply (reached0_at m K (py c) (.fr 8)); iexact HR)
    isplitl [LDr8]; · iexact LDr8
    isplitl [OP8]; · iexact OP8
    isplitl [HO]; · iexact HO
    isplitl [Tfs8]; · iexact Tfs8
    iexact Tfr8
  iintro ⟨Kfs8, HO⟩
  -- chunk 10, half a: its staged rows have landed in slot 0
  iapply (wp_wait_ina m K c 10 (credit_viaS (slot2 10)) (oweD c 10 + oweF c 9) _) $$ [Kia10 HO Pia0]
  · isplitr; · (iapply (inv_at m K c (.ina (slot2 10))); iexact HR)
    isplitl [Kia10]; · iexact Kia10
    isplitl [HO]; · iexact HO
    isplitr; · (iapply (mayWait_own c (.ina (slot2 10)) rfl 10 9); iexact Hlev)
    iexact Pia0
  iintro ⟨HO, Pia0, #Ria10, VA0, XA10⟩
  -- chunk 10, half b: its staged rows have landed in slot 0
  iapply (wp_wait_inb m K c 10 (credit_vibS (slot2 10)) (oweD c 10 + oweF c 9) _) $$ [Kib10 HO Pib0]
  · isplitr; · (iapply (inv_at m K c (.inb (slot2 10))); iexact HR)
    isplitl [Kib10]; · iexact Kib10
    isplitl [HO]; · iexact HO
    isplitr; · (iapply (mayWait_own c (.inb (slot2 10)) rfl 10 9); iexact Hlev)
    iexact Pib0
  iintro ⟨HO, Pib0, #Rib10, VB0, XB10⟩
  -- chunk 7: its local copy of vcast_a has landed
  iapply (wp_wait_lca m K c 7 (credit_oA c 7) (oweD c 10 + oweF c 9) _) $$ [Kla7 HO Pla1]
  · isplitr; · (iapply (inv_at m K c (.lca (slot3 7))); iexact HR)
    isplitl [Kla7]; · iexact Kla7
    isplitl [HO]; · iexact HO
    isplitr; · (iapply (mayWait_own c (.lca (slot3 7)) rfl 10 9); iexact Hlev)
    iexact Pla1
  iintro ⟨HO, Pla1, #Rla7, OA7, CAm1⟩
  -- chunk 7: its local copy of vcast_b has landed
  iapply (wp_wait_lcb m K c 7 (credit_oB c 7) (oweD c 10 + oweF c 9) _) $$ [Klb7 HO Plb1]
  · isplitr; · (iapply (inv_at m K c (.lcb (slot3 7))); iexact HR)
    isplitl [Klb7]; · iexact Klb7
    isplitl [HO]; · iexact HO
    isplitr; · (iapply (mayWait_own c (.lcb (slot3 7)) rfl 10 9); iexact Hlev)
    iexact Plb1
  iintro ⟨HO, Plb1, #Rlb7, OB7, CBm1⟩
  -- chunk 7: its send along x has left the slot
  -- the printed part k0_part39 is opened
  simp only [k0_part39_eq_skeleton]
  unfold k0_part39_skel
  simp only [semSignalWord, semWaitWord, Prog.lift, Prog.bind_op, Prog.bind_ret, Prog.pure_eq_ret, wp_deviceId]
  iapply (wp_wait_ds m K c 7 (credit_vcaPeer c (slot3 7)) (oweD c 10 + oweF c 9) _) $$ [Kds7 HO Pds7]
  · isplitr; · (iapply (inv_at m K c (.ds 7)); iexact HR)
    isplitl [Kds7]; · iexact Kds7
    isplitl [HO]; · iexact HO
    isplitr; · (iapply (mayWait_own c (.ds 7) rfl 10 9); iexact Hlev)
    iexact Pds7
  iintro ⟨HO, Pds7, -, CAp1⟩
  -- slot 1 of both bf16 buffers is whole again
  ihave CA1 := (vca_slot_split c (slot3 7) fullShare _).2 $$ [CAm1 CAp1]
  · isplitl [CAm1]; · iexact CAm1
    iexact CAp1
  ihave CB1 := (vcb_slot_split c (slot3 7) fullShare _).2 $$ [CBm1 CBr1]
  · isplitl [CBm1]; · iexact CBm1
    iexact CBr1
  -- chunk 10, half a: staging slot 0 is loaded, cast and stored into bf16 slot 1
  iapply (wp_load_via c (slot2 10) _ _) $$ [VA0]
  · iexact VA0
  iintro VA0
  iapply (wp_load_vca c (slot3 10) _ _) $$ [CA1]
  · iexact CA1
  iintro CA1
  iapply (wp_store_vca c (slot3 10) _ _) $$ [CA1]
  · iexact CA1
  iintro CA1
  ihave CA1 := (store_vca_at m c 10 _ _ rfl) $$ [CA1]
  · iexact CA1
  -- chunk 10, half b: staging slot 0 is loaded, cast and stored into bf16 slot 1
  iapply (wp_load_vib c (slot2 10) _ _) $$ [VB0]
  · iexact VB0
  iintro VB0
  iapply (wp_load_vcb c (slot3 10) _ _) $$ [CB1]
  · iexact CB1
  iintro CB1
  iapply (wp_store_vcb c (slot3 10) _ _) $$ [CB1]
  · iexact CB1
  iintro CB1
  ihave CB1 := (store_vcb_at m c 10 _ _ rfl) $$ [CB1]
  · iexact CB1
  ihave H := (vca_slot_split c (slot3 10) fullShare _).1 $$ [CA1]
  · iexact CA1
  icases H with ⟨CAm1, CAp1⟩
  ihave H := (vcb_slot_split c (slot3 10) fullShare _).1 $$ [CB1]
  · iexact CB1
  icases H with ⟨CBm1, CBr1⟩
  -- chunk 10, half a: the device's own columns of slot 1 start for the result
  -- the printed part k0_part40 is opened
  simp only [k0_part40_eq_skeleton]
  unfold k0_part40_skel
  simp only [semSignalWord, semWaitWord, Prog.lift, Prog.bind_op, Prog.bind_ret, Prog.pure_eq_ret, wp_deviceId]
  iapply (wp_lca m K c 10 _) $$ [CAm1 OA10 Tla10]
  · isplitr; · (iapply (inv_at m K c (.lca (slot3 10))); iexact HR)
    isplitr; · iexact Rla7
    isplitl [CAm1]; · iexact CAm1
    isplitl [OA10]; · iexact OA10
    iexact Tla10
  iintro Kla10
  -- chunk 10, half b: the device's own columns of slot 1 start for the result
  iapply (wp_lcb m K c 10 _) $$ [CBm1 OB10 Tlb10]
  · isplitr; · (iapply (inv_at m K c (.lcb (slot3 10))); iexact HR)
    isplitr; · iexact Rlb7
    isplitl [CBm1]; · iexact CBm1
    isplitl [OB10]; · iexact OB10
    iexact Tlb10
  iintro Klb10
  -- chunk 10: the x-peer's columns of slot 1 are sent into its landing slot 10
  rw [show (oweD c 10 + oweF c 9 : CellTallies nD τ sig Unit) = (oweD c 11 + oweF c 9) + tallyAt (cell (px c) (.dr 10)) () Nout from by rw [oweD_peel c 10 (by decide), add_right_comm]; rfl]
  iapply (wp_send_d m K c _ (devx_eq c _ _ (k0_dev22_eq c)) 10 _ (oweD c 11 + oweF c 9) _) $$ [CAp1 LP10 HO Tds10 Tdr10]
  · isplitr; · (iapply (inv_at m K c (.ds 10)); iexact HR)
    isplitr; · (iapply (inv_at m K (px c) (.dr 10)); iexact HR)
    isplitr; · (iapply (reached0_at m K c (.ds 10)); iexact HR)
    isplitr; · (iapply (reached0_at m K (px c) (.dr 10)); iexact HR)
    isplitl [CAp1]; · iexact CAp1
    isplitl [LP10]; · iexact LP10
    isplitl [HO]; · iexact HO
    isplitl [Tds10]; · iexact Tds10
    iexact Tdr10
  iintro ⟨Kds10, HO⟩
  -- chunk 12, half a: its rows of x start for staging slot 0
  iapply (wp_stage_a m K c 12 _) $$ [XA12 VA0 Tia12]
  · isplitr; · (iapply (inv_at m K c (.ina (slot2 12))); iexact HR)
    isplitr; · iexact Ria10
    isplitl [XA12]; · iexact XA12
    isplitl [VA0]; · iexact VA0
    iexact Tia12
  iintro Kia12
  -- chunk 12, half b: its rows of x start for staging slot 0
  -- the printed part k0_part41 is opened
  simp only [k0_part41_eq_skeleton]
  unfold k0_part41_skel
  simp only [semSignalWord, semWaitWord, Prog.lift, Prog.bind_op, Prog.bind_ret, Prog.pure_eq_ret, wp_deviceId]
  iapply (wp_stage_b m K c 12 _) $$ [XB12 VB0 Tib12]
  · isplitr; · (iapply (inv_at m K c (.inb (slot2 12))); iexact HR)
    isplitr; · iexact Rib10
    isplitl [XB12]; · iexact XB12
    isplitl [VB0]; · iexact VB0
    iexact Tib12
  iintro Kib12
  -- chunk 9 of the x-peer has landed: it is copied into the result and relayed to the y-peer
  iapply (wp_wait_dr m K c 9 (credit_ldS 9) (oweD c 11 + oweF c 9) _) $$ [Cdr9 HO Pdr9]
  · isplitr; · (iapply (inv_at m K c (.dr 9)); iexact HR)
    isplitl [Cdr9]; · iexact Cdr9
    isplitl [HO]; · iexact HO
    isplitr; · (iapply (mayWait_dr c 9 11 9 (by decide) (by decide)); iexact Hlev)
    iexact Pdr9
  iintro ⟨HO, Pdr9, -, LD9⟩
  ihave H := (ld_share_split c 9 _).1 $$ [LD9]
  · iexact LD9
  icases H with ⟨LDl9, LDr9⟩
  iapply (wp_lo m K c 9 _) $$ [LDl9 OR9 Tlo9]
  · isplitr; · (iapply (inv_at m K c (.lo 9)); iexact HR)
    isplitr; · (iapply (reached0_at m K c (.lo 9)); iexact HR)
    isplitl [LDl9]; · iexact LDl9
    isplitl [OR9]; · iexact OR9
    iexact Tlo9
  iintro Klo9
  rw [show (oweD c 11 + oweF c 9 : CellTallies nD τ sig Unit) = (oweD c 11 + oweF c 10) + tallyAt (cell (py c) (.fr 9)) () Nout from by rw [oweF_peel c 9 (by decide), ← add_assoc]; rfl]
  -- the printed part k0_part42 is opened
  simp only [k0_part42_eq_skeleton]
  unfold k0_part42_skel
  simp only [semSignalWord, semWaitWord, Prog.lift, Prog.bind_op, Prog.bind_ret, Prog.pure_eq_ret, wp_deviceId]
  iapply (wp_send_f m K c _ (devy_eq c _ _ (k0_dev23_eq c)) 9 _ (oweD c 11 + oweF c 10) _) $$ [LDr9 OP9 HO Tfs9 Tfr9]
  · isplitr; · (iapply (inv_at m K c (.fs 9)); iexact HR)
    isplitr; · (iapply (inv_at m K (py c) (.fr 9)); iexact HR)
    isplitr; · (iapply (reached0_at m K c (.fs 9)); iexact HR)
    isplitr; · (iapply (reached0_at m K (py c) (.fr 9)); iexact HR)
    isplitl [LDr9]; · iexact LDr9
    isplitl [OP9]; · iexact OP9
    isplitl [HO]; · iexact HO
    isplitl [Tfs9]; · iexact Tfs9
    iexact Tfr9
  iintro ⟨Kfs9, HO⟩
  -- chunk 11, half a: its staged rows have landed in slot 1
  iapply (wp_wait_ina m K c 11 (credit_viaS (slot2 11)) (oweD c 11 + oweF c 10) _) $$ [Kia11 HO Pia1]
  · isplitr; · (iapply (inv_at m K c (.ina (slot2 11))); iexact HR)
    isplitl [Kia11]; · iexact Kia11
    isplitl [HO]; · iexact HO
    isplitr; · (iapply (mayWait_own c (.ina (slot2 11)) rfl 11 10); iexact Hlev)
    iexact Pia1
  iintro ⟨HO, Pia1, #Ria11, VA1, XA11⟩
  -- chunk 11, half b: its staged rows have landed in slot 1
  iapply (wp_wait_inb m K c 11 (credit_vibS (slot2 11)) (oweD c 11 + oweF c 10) _) $$ [Kib11 HO Pib1]
  · isplitr; · (iapply (inv_at m K c (.inb (slot2 11))); iexact HR)
    isplitl [Kib11]; · iexact Kib11
    isplitl [HO]; · iexact HO
    isplitr; · (iapply (mayWait_own c (.inb (slot2 11)) rfl 11 10); iexact Hlev)
    iexact Pib1
  iintro ⟨HO, Pib1, #Rib11, VB1, XB11⟩
  -- chunk 8: its local copy of vcast_a has landed
  iapply (wp_wait_lca m K c 8 (credit_oA c 8) (oweD c 11 + oweF c 10) _) $$ [Kla8 HO Pla2]
  · isplitr; · (iapply (inv_at m K c (.lca (slot3 8))); iexact HR)
    isplitl [Kla8]; · iexact Kla8
    isplitl [HO]; · iexact HO
    isplitr; · (iapply (mayWait_own c (.lca (slot3 8)) rfl 11 10); iexact Hlev)
    iexact Pla2
  iintro ⟨HO, Pla2, #Rla8, OA8, CAm2⟩
  -- chunk 8: its local copy of vcast_b has landed
  iapply (wp_wait_lcb m K c 8 (credit_oB c 8) (oweD c 11 + oweF c 10) _) $$ [Klb8 HO Plb2]
  · isplitr; · (iapply (inv_at m K c (.lcb (slot3 8))); iexact HR)
    isplitl [Klb8]; · iexact Klb8
    isplitl [HO]; · iexact HO
    isplitr; · (iapply (mayWait_own c (.lcb (slot3 8)) rfl 11 10); iexact Hlev)
    iexact Plb2
  iintro ⟨HO, Plb2, #Rlb8, OB8, CBm2⟩
  -- chunk 8: its send along x has left the slot
  -- the printed part k0_part43 is opened
  simp only [k0_part43_eq_skeleton]
  unfold k0_part43_skel
  simp only [semSignalWord, semWaitWord, Prog.lift, Prog.bind_op, Prog.bind_ret, Prog.pure_eq_ret, wp_deviceId]
  iapply (wp_wait_ds m K c 8 (credit_vcaPeer c (slot3 8)) (oweD c 11 + oweF c 10) _) $$ [Kds8 HO Pds8]
  · isplitr; · (iapply (inv_at m K c (.ds 8)); iexact HR)
    isplitl [Kds8]; · iexact Kds8
    isplitl [HO]; · iexact HO
    isplitr; · (iapply (mayWait_own c (.ds 8) rfl 11 10); iexact Hlev)
    iexact Pds8
  iintro ⟨HO, Pds8, -, CAp2⟩
  -- slot 2 of both bf16 buffers is whole again
  ihave CA2 := (vca_slot_split c (slot3 8) fullShare _).2 $$ [CAm2 CAp2]
  · isplitl [CAm2]; · iexact CAm2
    iexact CAp2
  ihave CB2 := (vcb_slot_split c (slot3 8) fullShare _).2 $$ [CBm2 CBr2]
  · isplitl [CBm2]; · iexact CBm2
    iexact CBr2
  -- chunk 11, half a: staging slot 1 is loaded, cast and stored into bf16 slot 2
  iapply (wp_load_via c (slot2 11) _ _) $$ [VA1]
  · iexact VA1
  iintro VA1
  iapply (wp_load_vca c (slot3 11) _ _) $$ [CA2]
  · iexact CA2
  iintro CA2
  iapply (wp_store_vca c (slot3 11) _ _) $$ [CA2]
  · iexact CA2
  iintro CA2
  ihave CA2 := (store_vca_at m c 11 _ _ rfl) $$ [CA2]
  · iexact CA2
  -- chunk 11, half b: staging slot 1 is loaded, cast and stored into bf16 slot 2
  iapply (wp_load_vib c (slot2 11) _ _) $$ [VB1]
  · iexact VB1
  iintro VB1
  iapply (wp_load_vcb c (slot3 11) _ _) $$ [CB2]
  · iexact CB2
  iintro CB2
  iapply (wp_store_vcb c (slot3 11) _ _) $$ [CB2]
  · iexact CB2
  iintro CB2
  ihave CB2 := (store_vcb_at m c 11 _ _ rfl) $$ [CB2]
  · iexact CB2
  ihave H := (vca_slot_split c (slot3 11) fullShare _).1 $$ [CA2]
  · iexact CA2
  icases H with ⟨CAm2, CAp2⟩
  ihave H := (vcb_slot_split c (slot3 11) fullShare _).1 $$ [CB2]
  · iexact CB2
  icases H with ⟨CBm2, CBr2⟩
  -- chunk 11, half a: the device's own columns of slot 2 start for the result
  iapply (wp_lca m K c 11 _) $$ [CAm2 OA11 Tla11]
  · isplitr; · (iapply (inv_at m K c (.lca (slot3 11))); iexact HR)
    isplitr; · iexact Rla8
    isplitl [CAm2]; · iexact CAm2
    isplitl [OA11]; · iexact OA11
    iexact Tla11
  iintro Kla11
  -- chunk 11, half b: the device's own columns of slot 2 start for the result
  -- the printed part k0_part44 is opened
  simp only [k0_part44_eq_skeleton]
  unfold k0_part44_skel
  simp only [semSignalWord, semWaitWord, Prog.lift, Prog.bind_op, Prog.bind_ret, Prog.pure_eq_ret, wp_deviceId]
  iapply (wp_lcb m K c 11 _) $$ [CBm2 OB11 Tlb11]
  · isplitr; · (iapply (inv_at m K c (.lcb (slot3 11))); iexact HR)
    isplitr; · iexact Rlb8
    isplitl [CBm2]; · iexact CBm2
    isplitl [OB11]; · iexact OB11
    iexact Tlb11
  iintro Klb11
  -- chunk 11: the x-peer's columns of slot 2 are sent into its landing slot 11
  rw [show (oweD c 11 + oweF c 10 : CellTallies nD τ sig Unit) = (oweD c 12 + oweF c 10) + tallyAt (cell (px c) (.dr 11)) () Nout from by rw [oweD_peel c 11 (by decide), add_right_comm]; rfl]
  iapply (wp_send_d m K c _ (devx_eq c _ _ (k0_dev24_eq c)) 11 _ (oweD c 12 + oweF c 10) _) $$ [CAp2 LP11 HO Tds11 Tdr11]
  · isplitr; · (iapply (inv_at m K c (.ds 11)); iexact HR)
    isplitr; · (iapply (inv_at m K (px c) (.dr 11)); iexact HR)
    isplitr; · (iapply (reached0_at m K c (.ds 11)); iexact HR)
    isplitr; · (iapply (reached0_at m K (px c) (.dr 11)); iexact HR)
    isplitl [CAp2]; · iexact CAp2
    isplitl [LP11]; · iexact LP11
    isplitl [HO]; · iexact HO
    isplitl [Tds11]; · iexact Tds11
    iexact Tdr11
  iintro ⟨Kds11, HO⟩
  -- chunk 13, half a: its rows of x start for staging slot 1
  iapply (wp_stage_a m K c 13 _) $$ [XA13 VA1 Tia13]
  · isplitr; · (iapply (inv_at m K c (.ina (slot2 13))); iexact HR)
    isplitr; · iexact Ria11
    isplitl [XA13]; · iexact XA13
    isplitl [VA1]; · iexact VA1
    iexact Tia13
  iintro Kia13
  -- chunk 13, half b: its rows of x start for staging slot 1
  iapply (wp_stage_b m K c 13 _) $$ [XB13 VB1 Tib13]
  · isplitr; · (iapply (inv_at m K c (.inb (slot2 13))); iexact HR)
    isplitr; · iexact Rib11
    isplitl [XB13]; · iexact XB13
    isplitl [VB1]; · iexact VB1
    iexact Tib13
  iintro Kib13
  -- chunk 10 of the x-peer has landed: it is copied into the result and relayed to the y-peer
  -- the printed part k0_part45 is opened
  simp only [k0_part45_eq_skeleton]
  unfold k0_part45_skel
  simp only [semSignalWord, semWaitWord, Prog.lift, Prog.bind_op, Prog.bind_ret, Prog.pure_eq_ret, wp_deviceId]
  iapply (wp_wait_dr m K c 10 (credit_ldS 10) (oweD c 12 + oweF c 10) _) $$ [Cdr10 HO Pdr10]
  · isplitr; · (iapply (inv_at m K c (.dr 10)); iexact HR)
    isplitl [Cdr10]; · iexact Cdr10
    isplitl [HO]; · iexact HO
    isplitr; · (iapply (mayWait_dr c 10 12 10 (by decide) (by decide)); iexact Hlev)
    iexact Pdr10
  iintro ⟨HO, Pdr10, -, LD10⟩
  ihave H := (ld_share_split c 10 _).1 $$ [LD10]
  · iexact LD10
  icases H with ⟨LDl10, LDr10⟩
  iapply (wp_lo m K c 10 _) $$ [LDl10 OR10 Tlo10]
  · isplitr; · (iapply (inv_at m K c (.lo 10)); iexact HR)
    isplitr; · (iapply (reached0_at m K c (.lo 10)); iexact HR)
    isplitl [LDl10]; · iexact LDl10
    isplitl [OR10]; · iexact OR10
    iexact Tlo10
  iintro Klo10
  rw [show (oweD c 12 + oweF c 10 : CellTallies nD τ sig Unit) = (oweD c 12 + oweF c 11) + tallyAt (cell (py c) (.fr 10)) () Nout from by rw [oweF_peel c 10 (by decide), ← add_assoc]; rfl]
  iapply (wp_send_f m K c _ (devy_eq c _ _ (k0_dev25_eq c)) 10 _ (oweD c 12 + oweF c 11) _) $$ [LDr10 OP10 HO Tfs10 Tfr10]
  · isplitr; · (iapply (inv_at m K c (.fs 10)); iexact HR)
    isplitr; · (iapply (inv_at m K (py c) (.fr 10)); iexact HR)
    isplitr; · (iapply (reached0_at m K c (.fs 10)); iexact HR)
    isplitr; · (iapply (reached0_at m K (py c) (.fr 10)); iexact HR)
    isplitl [LDr10]; · iexact LDr10
    isplitl [OP10]; · iexact OP10
    isplitl [HO]; · iexact HO
    isplitl [Tfs10]; · iexact Tfs10
    iexact Tfr10
  iintro ⟨Kfs10, HO⟩
  -- chunk 12, half a: its staged rows have landed in slot 0
  -- the printed part k0_part46 is opened
  simp only [k0_part46_eq_skeleton]
  unfold k0_part46_skel
  simp only [semSignalWord, semWaitWord, Prog.lift, Prog.bind_op, Prog.bind_ret, Prog.pure_eq_ret, wp_deviceId]
  iapply (wp_wait_ina m K c 12 (credit_viaS (slot2 12)) (oweD c 12 + oweF c 11) _) $$ [Kia12 HO Pia0]
  · isplitr; · (iapply (inv_at m K c (.ina (slot2 12))); iexact HR)
    isplitl [Kia12]; · iexact Kia12
    isplitl [HO]; · iexact HO
    isplitr; · (iapply (mayWait_own c (.ina (slot2 12)) rfl 12 11); iexact Hlev)
    iexact Pia0
  iintro ⟨HO, Pia0, #Ria12, VA0, XA12⟩
  -- chunk 12, half b: its staged rows have landed in slot 0
  iapply (wp_wait_inb m K c 12 (credit_vibS (slot2 12)) (oweD c 12 + oweF c 11) _) $$ [Kib12 HO Pib0]
  · isplitr; · (iapply (inv_at m K c (.inb (slot2 12))); iexact HR)
    isplitl [Kib12]; · iexact Kib12
    isplitl [HO]; · iexact HO
    isplitr; · (iapply (mayWait_own c (.inb (slot2 12)) rfl 12 11); iexact Hlev)
    iexact Pib0
  iintro ⟨HO, Pib0, #Rib12, VB0, XB12⟩
  -- chunk 9: its local copy of vcast_a has landed
  iapply (wp_wait_lca m K c 9 (credit_oA c 9) (oweD c 12 + oweF c 11) _) $$ [Kla9 HO Pla0]
  · isplitr; · (iapply (inv_at m K c (.lca (slot3 9))); iexact HR)
    isplitl [Kla9]; · iexact Kla9
    isplitl [HO]; · iexact HO
    isplitr; · (iapply (mayWait_own c (.lca (slot3 9)) rfl 12 11); iexact Hlev)
    iexact Pla0
  iintro ⟨HO, Pla0, #Rla9, OA9, CAm0⟩
  -- chunk 9: its local copy of vcast_b has landed
  iapply (wp_wait_lcb m K c 9 (credit_oB c 9) (oweD c 12 + oweF c 11) _) $$ [Klb9 HO Plb0]
  · isplitr; · (iapply (inv_at m K c (.lcb (slot3 9))); iexact HR)
    isplitl [Klb9]; · iexact Klb9
    isplitl [HO]; · iexact HO
    isplitr; · (iapply (mayWait_own c (.lcb (slot3 9)) rfl 12 11); iexact Hlev)
    iexact Plb0
  iintro ⟨HO, Plb0, #Rlb9, OB9, CBm0⟩
  -- chunk 9: its send along x has left the slot
  iapply (wp_wait_ds m K c 9 (credit_vcaPeer c (slot3 9)) (oweD c 12 + oweF c 11) _) $$ [Kds9 HO Pds9]
  · isplitr; · (iapply (inv_at m K c (.ds 9)); iexact HR)
    isplitl [Kds9]; · iexact Kds9
    isplitl [HO]; · iexact HO
    isplitr; · (iapply (mayWait_own c (.ds 9) rfl 12 11); iexact Hlev)
    iexact Pds9
  iintro ⟨HO, Pds9, -, CAp0⟩
  -- slot 0 of both bf16 buffers is whole again
  ihave CA0 := (vca_slot_split c (slot3 9) fullShare _).2 $$ [CAm0 CAp0]
  · isplitl [CAm0]; · iexact CAm0
    iexact CAp0
  ihave CB0 := (vcb_slot_split c (slot3 9) fullShare _).2 $$ [CBm0 CBr0]
  · isplitl [CBm0]; · iexact CBm0
    iexact CBr0
  -- chunk 12, half a: staging slot 0 is loaded, cast and stored into bf16 slot 0
  iapply (wp_load_via c (slot2 12) _ _) $$ [VA0]
  · iexact VA0
  iintro VA0
  -- the printed part k0_part47 is opened
  simp only [k0_part47_eq_skeleton]
  unfold k0_part47_skel
  simp only [semSignalWord, semWaitWord, Prog.lift, Prog.bind_op, Prog.bind_ret, Prog.pure_eq_ret, wp_deviceId]
  iapply (wp_load_vca c (slot3 12) _ _) $$ [CA0]
  · iexact CA0
  iintro CA0
  iapply (wp_store_vca c (slot3 12) _ _) $$ [CA0]
  · iexact CA0
  iintro CA0
  ihave CA0 := (store_vca_at m c 12 _ _ rfl) $$ [CA0]
  · iexact CA0
  -- chunk 12, half b: staging slot 0 is loaded, cast and stored into bf16 slot 0
  iapply (wp_load_vib c (slot2 12) _ _) $$ [VB0]
  · iexact VB0
  iintro VB0
  iapply (wp_load_vcb c (slot3 12) _ _) $$ [CB0]
  · iexact CB0
  iintro CB0
  iapply (wp_store_vcb c (slot3 12) _ _) $$ [CB0]
  · iexact CB0
  iintro CB0
  ihave CB0 := (store_vcb_at m c 12 _ _ rfl) $$ [CB0]
  · iexact CB0
  ihave H := (vca_slot_split c (slot3 12) fullShare _).1 $$ [CA0]
  · iexact CA0
  icases H with ⟨CAm0, CAp0⟩
  ihave H := (vcb_slot_split c (slot3 12) fullShare _).1 $$ [CB0]
  · iexact CB0
  icases H with ⟨CBm0, CBr0⟩
  -- chunk 12, half a: the device's own columns of slot 0 start for the result
  iapply (wp_lca m K c 12 _) $$ [CAm0 OA12 Tla12]
  · isplitr; · (iapply (inv_at m K c (.lca (slot3 12))); iexact HR)
    isplitr; · iexact Rla9
    isplitl [CAm0]; · iexact CAm0
    isplitl [OA12]; · iexact OA12
    iexact Tla12
  iintro Kla12
  -- chunk 12, half b: the device's own columns of slot 0 start for the result
  iapply (wp_lcb m K c 12 _) $$ [CBm0 OB12 Tlb12]
  · isplitr; · (iapply (inv_at m K c (.lcb (slot3 12))); iexact HR)
    isplitr; · iexact Rlb9
    isplitl [CBm0]; · iexact CBm0
    isplitl [OB12]; · iexact OB12
    iexact Tlb12
  iintro Klb12
  -- chunk 12: the x-peer's columns of slot 0 are sent into its landing slot 12
  rw [show (oweD c 12 + oweF c 11 : CellTallies nD τ sig Unit) = (oweD c 13 + oweF c 11) + tallyAt (cell (px c) (.dr 12)) () Nout from by rw [oweD_peel c 12 (by decide), add_right_comm]; rfl]
  -- the printed part k0_part48 is opened
  simp only [k0_part48_eq_skeleton]
  unfold k0_part48_skel
  simp only [semSignalWord, semWaitWord, Prog.lift, Prog.bind_op, Prog.bind_ret, Prog.pure_eq_ret, wp_deviceId]
  iapply (wp_send_d m K c _ (devx_eq c _ _ (k0_dev26_eq c)) 12 _ (oweD c 13 + oweF c 11) _) $$ [CAp0 LP12 HO Tds12 Tdr12]
  · isplitr; · (iapply (inv_at m K c (.ds 12)); iexact HR)
    isplitr; · (iapply (inv_at m K (px c) (.dr 12)); iexact HR)
    isplitr; · (iapply (reached0_at m K c (.ds 12)); iexact HR)
    isplitr; · (iapply (reached0_at m K (px c) (.dr 12)); iexact HR)
    isplitl [CAp0]; · iexact CAp0
    isplitl [LP12]; · iexact LP12
    isplitl [HO]; · iexact HO
    isplitl [Tds12]; · iexact Tds12
    iexact Tdr12
  iintro ⟨Kds12, HO⟩
  -- chunk 14, half a: its rows of x start for staging slot 0
  iapply (wp_stage_a m K c 14 _) $$ [XA14 VA0 Tia14]
  · isplitr; · (iapply (inv_at m K c (.ina (slot2 14))); iexact HR)
    isplitr; · iexact Ria12
    isplitl [XA14]; · iexact XA14
    isplitl [VA0]; · iexact VA0
    iexact Tia14
  iintro Kia14
  -- chunk 14, half b: its rows of x start for staging slot 0
  iapply (wp_stage_b m K c 14 _) $$ [XB14 VB0 Tib14]
  · isplitr; · (iapply (inv_at m K c (.inb (slot2 14))); iexact HR)
    isplitr; · iexact Rib12
    isplitl [XB14]; · iexact XB14
    isplitl [VB0]; · iexact VB0
    iexact Tib14
  iintro Kib14
  -- chunk 11 of the x-peer has landed: it is copied into the result and relayed to the y-peer
  -- the printed part k0_part49 is opened
  simp only [k0_part49_eq_skeleton]
  unfold k0_part49_skel
  simp only [semSignalWord, semWaitWord, Prog.lift, Prog.bind_op, Prog.bind_ret, Prog.pure_eq_ret, wp_deviceId]
  iapply (wp_wait_dr m K c 11 (credit_ldS 11) (oweD c 13 + oweF c 11) _) $$ [Cdr11 HO Pdr11]
  · isplitr; · (iapply (inv_at m K c (.dr 11)); iexact HR)
    isplitl [Cdr11]; · iexact Cdr11
    isplitl [HO]; · iexact HO
    isplitr; · (iapply (mayWait_dr c 11 13 11 (by decide) (by decide)); iexact Hlev)
    iexact Pdr11
  iintro ⟨HO, Pdr11, -, LD11⟩
  ihave H := (ld_share_split c 11 _).1 $$ [LD11]
  · iexact LD11
  icases H with ⟨LDl11, LDr11⟩
  iapply (wp_lo m K c 11 _) $$ [LDl11 OR11 Tlo11]
  · isplitr; · (iapply (inv_at m K c (.lo 11)); iexact HR)
    isplitr; · (iapply (reached0_at m K c (.lo 11)); iexact HR)
    isplitl [LDl11]; · iexact LDl11
    isplitl [OR11]; · iexact OR11
    iexact Tlo11
  iintro Klo11
  rw [show (oweD c 13 + oweF c 11 : CellTallies nD τ sig Unit) = (oweD c 13 + oweF c 12) + tallyAt (cell (py c) (.fr 11)) () Nout from by rw [oweF_peel c 11 (by decide), ← add_assoc]; rfl]
  iapply (wp_send_f m K c _ (devy_eq c _ _ (k0_dev27_eq c)) 11 _ (oweD c 13 + oweF c 12) _) $$ [LDr11 OP11 HO Tfs11 Tfr11]
  · isplitr; · (iapply (inv_at m K c (.fs 11)); iexact HR)
    isplitr; · (iapply (inv_at m K (py c) (.fr 11)); iexact HR)
    isplitr; · (iapply (reached0_at m K c (.fs 11)); iexact HR)
    isplitr; · (iapply (reached0_at m K (py c) (.fr 11)); iexact HR)
    isplitl [LDr11]; · iexact LDr11
    isplitl [OP11]; · iexact OP11
    isplitl [HO]; · iexact HO
    isplitl [Tfs11]; · iexact Tfs11
    iexact Tfr11
  iintro ⟨Kfs11, HO⟩
  -- chunk 13, half a: its staged rows have landed in slot 1
  iapply (wp_wait_ina m K c 13 (credit_viaS (slot2 13)) (oweD c 13 + oweF c 12) _) $$ [Kia13 HO Pia1]
  · isplitr; · (iapply (inv_at m K c (.ina (slot2 13))); iexact HR)
    isplitl [Kia13]; · iexact Kia13
    isplitl [HO]; · iexact HO
    isplitr; · (iapply (mayWait_own c (.ina (slot2 13)) rfl 13 12); iexact Hlev)
    iexact Pia1
  iintro ⟨HO, Pia1, #Ria13, VA1, XA13⟩
  -- chunk 13, half b: its staged rows have landed in slot 1
  -- the printed part k0_part50 is opened
  simp only [k0_part50_eq_skeleton]
  unfold k0_part50_skel
  simp only [semSignalWord, semWaitWord, Prog.lift, Prog.bind_op, Prog.bind_ret, Prog.pure_eq_ret, wp_deviceId]
  iapply (wp_wait_inb m K c 13 (credit_vibS (slot2 13)) (oweD c 13 + oweF c 12) _) $$ [Kib13 HO Pib1]
  · isplitr; · (iapply (inv_at m K c (.inb (slot2 13))); iexact HR)
    isplitl [Kib13]; · iexact Kib13
    isplitl [HO]; · iexact HO
    isplitr; · (iapply (mayWait_own c (.inb (slot2 13)) rfl 13 12); iexact Hlev)
    iexact Pib1
  iintro ⟨HO, Pib1, #Rib13, VB1, XB13⟩
  -- chunk 10: its local copy of vcast_a has landed
  iapply (wp_wait_lca m K c 10 (credit_oA c 10) (oweD c 13 + oweF c 12) _) $$ [Kla10 HO Pla1]
  · isplitr; · (iapply (inv_at m K c (.lca (slot3 10))); iexact HR)
    isplitl [Kla10]; · iexact Kla10
    isplitl [HO]; · iexact HO
    isplitr; · (iapply (mayWait_own c (.lca (slot3 10)) rfl 13 12); iexact Hlev)
    iexact Pla1
  iintro ⟨HO, Pla1, #Rla10, OA10, CAm1⟩
  -- chunk 10: its local copy of vcast_b has landed
  iapply (wp_wait_lcb m K c 10 (credit_oB c 10) (oweD c 13 + oweF c 12) _) $$ [Klb10 HO Plb1]
  · isplitr; · (iapply (inv_at m K c (.lcb (slot3 10))); iexact HR)
    isplitl [Klb10]; · iexact Klb10
    isplitl [HO]; · iexact HO
    isplitr; · (iapply (mayWait_own c (.lcb (slot3 10)) rfl 13 12); iexact Hlev)
    iexact Plb1
  iintro ⟨HO, Plb1, #Rlb10, OB10, CBm1⟩
  -- chunk 10: its send along x has left the slot
  iapply (wp_wait_ds m K c 10 (credit_vcaPeer c (slot3 10)) (oweD c 13 + oweF c 12) _) $$ [Kds10 HO Pds10]
  · isplitr; · (iapply (inv_at m K c (.ds 10)); iexact HR)
    isplitl [Kds10]; · iexact Kds10
    isplitl [HO]; · iexact HO
    isplitr; · (iapply (mayWait_own c (.ds 10) rfl 13 12); iexact Hlev)
    iexact Pds10
  iintro ⟨HO, Pds10, -, CAp1⟩
  -- slot 1 of both bf16 buffers is whole again
  ihave CA1 := (vca_slot_split c (slot3 10) fullShare _).2 $$ [CAm1 CAp1]
  · isplitl [CAm1]; · iexact CAm1
    iexact CAp1
  ihave CB1 := (vcb_slot_split c (slot3 10) fullShare _).2 $$ [CBm1 CBr1]
  · isplitl [CBm1]; · iexact CBm1
    iexact CBr1
  -- chunk 13, half a: staging slot 1 is loaded, cast and stored into bf16 slot 1
  iapply (wp_load_via c (slot2 13) _ _) $$ [VA1]
  · iexact VA1
  iintro VA1
  iapply (wp_load_vca c (slot3 13) _ _) $$ [CA1]
  · iexact CA1
  iintro CA1
  iapply (wp_store_vca c (slot3 13) _ _) $$ [CA1]
  · iexact CA1
  iintro CA1
  ihave CA1 := (store_vca_at m c 13 _ _ rfl) $$ [CA1]
  · iexact CA1
  -- chunk 13, half b: staging slot 1 is loaded, cast and stored into bf16 slot 1
  -- the printed part k0_part51 is opened
  simp only [k0_part51_eq_skeleton]
  unfold k0_part51_skel
  simp only [semSignalWord, semWaitWord, Prog.lift, Prog.bind_op, Prog.bind_ret, Prog.pure_eq_ret, wp_deviceId]
  iapply (wp_load_vib c (slot2 13) _ _) $$ [VB1]
  · iexact VB1
  iintro VB1
  iapply (wp_load_vcb c (slot3 13) _ _) $$ [CB1]
  · iexact CB1
  iintro CB1
  iapply (wp_store_vcb c (slot3 13) _ _) $$ [CB1]
  · iexact CB1
  iintro CB1
  ihave CB1 := (store_vcb_at m c 13 _ _ rfl) $$ [CB1]
  · iexact CB1
  ihave H := (vca_slot_split c (slot3 13) fullShare _).1 $$ [CA1]
  · iexact CA1
  icases H with ⟨CAm1, CAp1⟩
  ihave H := (vcb_slot_split c (slot3 13) fullShare _).1 $$ [CB1]
  · iexact CB1
  icases H with ⟨CBm1, CBr1⟩
  -- chunk 13, half a: the device's own columns of slot 1 start for the result
  iapply (wp_lca m K c 13 _) $$ [CAm1 OA13 Tla13]
  · isplitr; · (iapply (inv_at m K c (.lca (slot3 13))); iexact HR)
    isplitr; · iexact Rla10
    isplitl [CAm1]; · iexact CAm1
    isplitl [OA13]; · iexact OA13
    iexact Tla13
  iintro Kla13
  -- chunk 13, half b: the device's own columns of slot 1 start for the result
  iapply (wp_lcb m K c 13 _) $$ [CBm1 OB13 Tlb13]
  · isplitr; · (iapply (inv_at m K c (.lcb (slot3 13))); iexact HR)
    isplitr; · iexact Rlb10
    isplitl [CBm1]; · iexact CBm1
    isplitl [OB13]; · iexact OB13
    iexact Tlb13
  iintro Klb13
  -- chunk 13: the x-peer's columns of slot 1 are sent into its landing slot 13
  rw [show (oweD c 13 + oweF c 12 : CellTallies nD τ sig Unit) = (oweD c 14 + oweF c 12) + tallyAt (cell (px c) (.dr 13)) () Nout from by rw [oweD_peel c 13 (by decide), add_right_comm]; rfl]
  -- the printed part k0_part52 is opened
  simp only [k0_part52_eq_skeleton]
  unfold k0_part52_skel
  simp only [semSignalWord, semWaitWord, Prog.lift, Prog.bind_op, Prog.bind_ret, Prog.pure_eq_ret, wp_deviceId]
  iapply (wp_send_d m K c _ (devx_eq c _ _ (k0_dev28_eq c)) 13 _ (oweD c 14 + oweF c 12) _) $$ [CAp1 LP13 HO Tds13 Tdr13]
  · isplitr; · (iapply (inv_at m K c (.ds 13)); iexact HR)
    isplitr; · (iapply (inv_at m K (px c) (.dr 13)); iexact HR)
    isplitr; · (iapply (reached0_at m K c (.ds 13)); iexact HR)
    isplitr; · (iapply (reached0_at m K (px c) (.dr 13)); iexact HR)
    isplitl [CAp1]; · iexact CAp1
    isplitl [LP13]; · iexact LP13
    isplitl [HO]; · iexact HO
    isplitl [Tds13]; · iexact Tds13
    iexact Tdr13
  iintro ⟨Kds13, HO⟩
  -- chunk 15, half a: its rows of x start for staging slot 1
  iapply (wp_stage_a m K c 15 _) $$ [XA15 VA1 Tia15]
  · isplitr; · (iapply (inv_at m K c (.ina (slot2 15))); iexact HR)
    isplitr; · iexact Ria13
    isplitl [XA15]; · iexact XA15
    isplitl [VA1]; · iexact VA1
    iexact Tia15
  iintro Kia15
  -- chunk 15, half b: its rows of x start for staging slot 1
  iapply (wp_stage_b m K c 15 _) $$ [XB15 VB1 Tib15]
  · isplitr; · (iapply (inv_at m K c (.inb (slot2 15))); iexact HR)
    isplitr; · iexact Rib13
    isplitl [XB15]; · iexact XB15
    isplitl [VB1]; · iexact VB1
    iexact Tib15
  iintro Kib15
  -- chunk 12 of the x-peer has landed: it is copied into the result and relayed to the y-peer
  iapply (wp_wait_dr m K c 12 (credit_ldS 12) (oweD c 14 + oweF c 12) _) $$ [Cdr12 HO Pdr12]
  · isplitr; · (iapply (inv_at m K c (.dr 12)); iexact HR)
    isplitl [Cdr12]; · iexact Cdr12
    isplitl [HO]; · iexact HO
    isplitr; · (iapply (mayWait_dr c 12 14 12 (by decide) (by decide)); iexact Hlev)
    iexact Pdr12
  iintro ⟨HO, Pdr12, -, LD12⟩
  ihave H := (ld_share_split c 12 _).1 $$ [LD12]
  · iexact LD12
  icases H with ⟨LDl12, LDr12⟩
  -- the printed part k0_part53 is opened
  simp only [k0_part53_eq_skeleton]
  unfold k0_part53_skel
  simp only [semSignalWord, semWaitWord, Prog.lift, Prog.bind_op, Prog.bind_ret, Prog.pure_eq_ret, wp_deviceId]
  iapply (wp_lo m K c 12 _) $$ [LDl12 OR12 Tlo12]
  · isplitr; · (iapply (inv_at m K c (.lo 12)); iexact HR)
    isplitr; · (iapply (reached0_at m K c (.lo 12)); iexact HR)
    isplitl [LDl12]; · iexact LDl12
    isplitl [OR12]; · iexact OR12
    iexact Tlo12
  iintro Klo12
  rw [show (oweD c 14 + oweF c 12 : CellTallies nD τ sig Unit) = (oweD c 14 + oweF c 13) + tallyAt (cell (py c) (.fr 12)) () Nout from by rw [oweF_peel c 12 (by decide), ← add_assoc]; rfl]
  iapply (wp_send_f m K c _ (devy_eq c _ _ (k0_dev29_eq c)) 12 _ (oweD c 14 + oweF c 13) _) $$ [LDr12 OP12 HO Tfs12 Tfr12]
  · isplitr; · (iapply (inv_at m K c (.fs 12)); iexact HR)
    isplitr; · (iapply (inv_at m K (py c) (.fr 12)); iexact HR)
    isplitr; · (iapply (reached0_at m K c (.fs 12)); iexact HR)
    isplitr; · (iapply (reached0_at m K (py c) (.fr 12)); iexact HR)
    isplitl [LDr12]; · iexact LDr12
    isplitl [OP12]; · iexact OP12
    isplitl [HO]; · iexact HO
    isplitl [Tfs12]; · iexact Tfs12
    iexact Tfr12
  iintro ⟨Kfs12, HO⟩
  -- chunk 14, half a: its staged rows have landed in slot 0
  iapply (wp_wait_ina m K c 14 (credit_viaS (slot2 14)) (oweD c 14 + oweF c 13) _) $$ [Kia14 HO Pia0]
  · isplitr; · (iapply (inv_at m K c (.ina (slot2 14))); iexact HR)
    isplitl [Kia14]; · iexact Kia14
    isplitl [HO]; · iexact HO
    isplitr; · (iapply (mayWait_own c (.ina (slot2 14)) rfl 14 13); iexact Hlev)
    iexact Pia0
  iintro ⟨HO, Pia0, #Ria14, VA0, XA14⟩
  -- chunk 14, half b: its staged rows have landed in slot 0
  -- the printed part k0_part54 is opened
  simp only [k0_part54_eq_skeleton]
  unfold k0_part54_skel
  simp only [semSignalWord, semWaitWord, Prog.lift, Prog.bind_op, Prog.bind_ret, Prog.pure_eq_ret, wp_deviceId]
  iapply (wp_wait_inb m K c 14 (credit_vibS (slot2 14)) (oweD c 14 + oweF c 13) _) $$ [Kib14 HO Pib0]
  · isplitr; · (iapply (inv_at m K c (.inb (slot2 14))); iexact HR)
    isplitl [Kib14]; · iexact Kib14
    isplitl [HO]; · iexact HO
    isplitr; · (iapply (mayWait_own c (.inb (slot2 14)) rfl 14 13); iexact Hlev)
    iexact Pib0
  iintro ⟨HO, Pib0, #Rib14, VB0, XB14⟩
  -- chunk 11: its local copy of vcast_a has landed
  iapply (wp_wait_lca m K c 11 (credit_oA c 11) (oweD c 14 + oweF c 13) _) $$ [Kla11 HO Pla2]
  · isplitr; · (iapply (inv_at m K c (.lca (slot3 11))); iexact HR)
    isplitl [Kla11]; · iexact Kla11
    isplitl [HO]; · iexact HO
    isplitr; · (iapply (mayWait_own c (.lca (slot3 11)) rfl 14 13); iexact Hlev)
    iexact Pla2
  iintro ⟨HO, Pla2, #Rla11, OA11, CAm2⟩
  -- chunk 11: its local copy of vcast_b has landed
  iapply (wp_wait_lcb m K c 11 (credit_oB c 11) (oweD c 14 + oweF c 13) _) $$ [Klb11 HO Plb2]
  · isplitr; · (iapply (inv_at m K c (.lcb (slot3 11))); iexact HR)
    isplitl [Klb11]; · iexact Klb11
    isplitl [HO]; · iexact HO
    isplitr; · (iapply (mayWait_own c (.lcb (slot3 11)) rfl 14 13); iexact Hlev)
    iexact Plb2
  iintro ⟨HO, Plb2, #Rlb11, OB11, CBm2⟩
  -- chunk 11: its send along x has left the slot
  iapply (wp_wait_ds m K c 11 (credit_vcaPeer c (slot3 11)) (oweD c 14 + oweF c 13) _) $$ [Kds11 HO Pds11]
  · isplitr; · (iapply (inv_at m K c (.ds 11)); iexact HR)
    isplitl [Kds11]; · iexact Kds11
    isplitl [HO]; · iexact HO
    isplitr; · (iapply (mayWait_own c (.ds 11) rfl 14 13); iexact Hlev)
    iexact Pds11
  iintro ⟨HO, Pds11, -, CAp2⟩
  -- slot 2 of both bf16 buffers is whole again
  ihave CA2 := (vca_slot_split c (slot3 11) fullShare _).2 $$ [CAm2 CAp2]
  · isplitl [CAm2]; · iexact CAm2
    iexact CAp2
  ihave CB2 := (vcb_slot_split c (slot3 11) fullShare _).2 $$ [CBm2 CBr2]
  · isplitl [CBm2]; · iexact CBm2
    iexact CBr2
  -- chunk 14, half a: staging slot 0 is loaded, cast and stored into bf16 slot 2
  iapply (wp_load_via c (slot2 14) _ _) $$ [VA0]
  · iexact VA0
  iintro VA0
  iapply (wp_load_vca c (slot3 14) _ _) $$ [CA2]
  · iexact CA2
  iintro CA2
  iapply (wp_store_vca c (slot3 14) _ _) $$ [CA2]
  · iexact CA2
  iintro CA2
  ihave CA2 := (store_vca_at m c 14 _ _ rfl) $$ [CA2]
  · iexact CA2
  -- chunk 14, half b: staging slot 0 is loaded, cast and stored into bf16 slot 2
  iapply (wp_load_vib c (slot2 14) _ _) $$ [VB0]
  · iexact VB0
  iintro VB0
  iapply (wp_load_vcb c (slot3 14) _ _) $$ [CB2]
  · iexact CB2
  iintro CB2
  -- the printed part k0_part55 is opened
  simp only [k0_part55_eq_skeleton]
  unfold k0_part55_skel
  simp only [semSignalWord, semWaitWord, Prog.lift, Prog.bind_op, Prog.bind_ret, Prog.pure_eq_ret, wp_deviceId]
  iapply (wp_store_vcb c (slot3 14) _ _) $$ [CB2]
  · iexact CB2
  iintro CB2
  ihave CB2 := (store_vcb_at m c 14 _ _ rfl) $$ [CB2]
  · iexact CB2
  ihave H := (vca_slot_split c (slot3 14) fullShare _).1 $$ [CA2]
  · iexact CA2
  icases H with ⟨CAm2, CAp2⟩
  ihave H := (vcb_slot_split c (slot3 14) fullShare _).1 $$ [CB2]
  · iexact CB2
  icases H with ⟨CBm2, CBr2⟩
  -- chunk 14, half a: the device's own columns of slot 2 start for the result
  iapply (wp_lca m K c 14 _) $$ [CAm2 OA14 Tla14]
  · isplitr; · (iapply (inv_at m K c (.lca (slot3 14))); iexact HR)
    isplitr; · iexact Rla11
    isplitl [CAm2]; · iexact CAm2
    isplitl [OA14]; · iexact OA14
    iexact Tla14
  iintro Kla14
  -- chunk 14, half b: the device's own columns of slot 2 start for the result
  iapply (wp_lcb m K c 14 _) $$ [CBm2 OB14 Tlb14]
  · isplitr; · (iapply (inv_at m K c (.lcb (slot3 14))); iexact HR)
    isplitr; · iexact Rlb11
    isplitl [CBm2]; · iexact CBm2
    isplitl [OB14]; · iexact OB14
    iexact Tlb14
  iintro Klb14
  -- chunk 14: the x-peer's columns of slot 2 are sent into its landing slot 14
  rw [show (oweD c 14 + oweF c 13 : CellTallies nD τ sig Unit) = (oweD c 15 + oweF c 13) + tallyAt (cell (px c) (.dr 14)) () Nout from by rw [oweD_peel c 14 (by decide), add_right_comm]; rfl]
  -- the printed part k0_part56 is opened
  simp only [k0_part56_eq_skeleton]
  unfold k0_part56_skel
  simp only [semSignalWord, semWaitWord, Prog.lift, Prog.bind_op, Prog.bind_ret, Prog.pure_eq_ret, wp_deviceId]
  iapply (wp_send_d m K c _ (devx_eq c _ _ (k0_dev30_eq c)) 14 _ (oweD c 15 + oweF c 13) _) $$ [CAp2 LP14 HO Tds14 Tdr14]
  · isplitr; · (iapply (inv_at m K c (.ds 14)); iexact HR)
    isplitr; · (iapply (inv_at m K (px c) (.dr 14)); iexact HR)
    isplitr; · (iapply (reached0_at m K c (.ds 14)); iexact HR)
    isplitr; · (iapply (reached0_at m K (px c) (.dr 14)); iexact HR)
    isplitl [CAp2]; · iexact CAp2
    isplitl [LP14]; · iexact LP14
    isplitl [HO]; · iexact HO
    isplitl [Tds14]; · iexact Tds14
    iexact Tdr14
  iintro ⟨Kds14, HO⟩
  -- chunk 16, half a: its rows of x start for staging slot 0
  iapply (wp_stage_a m K c 16 _) $$ [XA16 VA0 Tia16]
  · isplitr; · (iapply (inv_at m K c (.ina (slot2 16))); iexact HR)
    isplitr; · iexact Ria14
    isplitl [XA16]; · iexact XA16
    isplitl [VA0]; · iexact VA0
    iexact Tia16
  iintro Kia16
  -- chunk 16, half b: its rows of x start for staging slot 0
  iapply (wp_stage_b m K c 16 _) $$ [XB16 VB0 Tib16]
  · isplitr; · (iapply (inv_at m K c (.inb (slot2 16))); iexact HR)
    isplitr; · iexact Rib14
    isplitl [XB16]; · iexact XB16
    isplitl [VB0]; · iexact VB0
    iexact Tib16
  iintro Kib16
  -- chunk 13 of the x-peer has landed: it is copied into the result and relayed to the y-peer
  iapply (wp_wait_dr m K c 13 (credit_ldS 13) (oweD c 15 + oweF c 13) _) $$ [Cdr13 HO Pdr13]
  · isplitr; · (iapply (inv_at m K c (.dr 13)); iexact HR)
    isplitl [Cdr13]; · iexact Cdr13
    isplitl [HO]; · iexact HO
    isplitr; · (iapply (mayWait_dr c 13 15 13 (by decide) (by decide)); iexact Hlev)
    iexact Pdr13
  iintro ⟨HO, Pdr13, -, LD13⟩
  ihave H := (ld_share_split c 13 _).1 $$ [LD13]
  · iexact LD13
  icases H with ⟨LDl13, LDr13⟩
  -- the printed part k0_part57 is opened
  simp only [k0_part57_eq_skeleton]
  unfold k0_part57_skel
  simp only [semSignalWord, semWaitWord, Prog.lift, Prog.bind_op, Prog.bind_ret, Prog.pure_eq_ret, wp_deviceId]
  iapply (wp_lo m K c 13 _) $$ [LDl13 OR13 Tlo13]
  · isplitr; · (iapply (inv_at m K c (.lo 13)); iexact HR)
    isplitr; · (iapply (reached0_at m K c (.lo 13)); iexact HR)
    isplitl [LDl13]; · iexact LDl13
    isplitl [OR13]; · iexact OR13
    iexact Tlo13
  iintro Klo13
  rw [show (oweD c 15 + oweF c 13 : CellTallies nD τ sig Unit) = (oweD c 15 + oweF c 14) + tallyAt (cell (py c) (.fr 13)) () Nout from by rw [oweF_peel c 13 (by decide), ← add_assoc]; rfl]
  iapply (wp_send_f m K c _ (devy_eq c _ _ (k0_dev31_eq c)) 13 _ (oweD c 15 + oweF c 14) _) $$ [LDr13 OP13 HO Tfs13 Tfr13]
  · isplitr; · (iapply (inv_at m K c (.fs 13)); iexact HR)
    isplitr; · (iapply (inv_at m K (py c) (.fr 13)); iexact HR)
    isplitr; · (iapply (reached0_at m K c (.fs 13)); iexact HR)
    isplitr; · (iapply (reached0_at m K (py c) (.fr 13)); iexact HR)
    isplitl [LDr13]; · iexact LDr13
    isplitl [OP13]; · iexact OP13
    isplitl [HO]; · iexact HO
    isplitl [Tfs13]; · iexact Tfs13
    iexact Tfr13
  iintro ⟨Kfs13, HO⟩
  -- chunk 15, half a: its staged rows have landed in slot 1
  iapply (wp_wait_ina m K c 15 (credit_viaS (slot2 15)) (oweD c 15 + oweF c 14) _) $$ [Kia15 HO Pia1]
  · isplitr; · (iapply (inv_at m K c (.ina (slot2 15))); iexact HR)
    isplitl [Kia15]; · iexact Kia15
    isplitl [HO]; · iexact HO
    isplitr; · (iapply (mayWait_own c (.ina (slot2 15)) rfl 15 14); iexact Hlev)
    iexact Pia1
  iintro ⟨HO, Pia1, #Ria15, VA1, XA15⟩
  -- chunk 15, half b: its staged rows have landed in slot 1
  iapply (wp_wait_inb m K c 15 (credit_vibS (slot2 15)) (oweD c 15 + oweF c 14) _) $$ [Kib15 HO Pib1]
  · isplitr; · (iapply (inv_at m K c (.inb (slot2 15))); iexact HR)
    isplitl [Kib15]; · iexact Kib15
    isplitl [HO]; · iexact HO
    isplitr; · (iapply (mayWait_own c (.inb (slot2 15)) rfl 15 14); iexact Hlev)
    iexact Pib1
  iintro ⟨HO, Pib1, #Rib15, VB1, XB15⟩
  -- chunk 12: its local copy of vcast_a has landed
  -- the printed part k0_part58 is opened
  simp only [k0_part58_eq_skeleton]
  unfold k0_part58_skel
  simp only [semSignalWord, semWaitWord, Prog.lift, Prog.bind_op, Prog.bind_ret, Prog.pure_eq_ret, wp_deviceId]
  iapply (wp_wait_lca m K c 12 (credit_oA c 12) (oweD c 15 + oweF c 14) _) $$ [Kla12 HO Pla0]
  · isplitr; · (iapply (inv_at m K c (.lca (slot3 12))); iexact HR)
    isplitl [Kla12]; · iexact Kla12
    isplitl [HO]; · iexact HO
    isplitr; · (iapply (mayWait_own c (.lca (slot3 12)) rfl 15 14); iexact Hlev)
    iexact Pla0
  iintro ⟨HO, Pla0, #Rla12, OA12, CAm0⟩
  -- chunk 12: its local copy of vcast_b has landed
  iapply (wp_wait_lcb m K c 12 (credit_oB c 12) (oweD c 15 + oweF c 14) _) $$ [Klb12 HO Plb0]
  · isplitr; · (iapply (inv_at m K c (.lcb (slot3 12))); iexact HR)
    isplitl [Klb12]; · iexact Klb12
    isplitl [HO]; · iexact HO
    isplitr; · (iapply (mayWait_own c (.lcb (slot3 12)) rfl 15 14); iexact Hlev)
    iexact Plb0
  iintro ⟨HO, Plb0, #Rlb12, OB12, CBm0⟩
  -- chunk 12: its send along x has left the slot
  iapply (wp_wait_ds m K c 12 (credit_vcaPeer c (slot3 12)) (oweD c 15 + oweF c 14) _) $$ [Kds12 HO Pds12]
  · isplitr; · (iapply (inv_at m K c (.ds 12)); iexact HR)
    isplitl [Kds12]; · iexact Kds12
    isplitl [HO]; · iexact HO
    isplitr; · (iapply (mayWait_own c (.ds 12) rfl 15 14); iexact Hlev)
    iexact Pds12
  iintro ⟨HO, Pds12, -, CAp0⟩
  -- slot 0 of both bf16 buffers is whole again
  ihave CA0 := (vca_slot_split c (slot3 12) fullShare _).2 $$ [CAm0 CAp0]
  · isplitl [CAm0]; · iexact CAm0
    iexact CAp0
  ihave CB0 := (vcb_slot_split c (slot3 12) fullShare _).2 $$ [CBm0 CBr0]
  · isplitl [CBm0]; · iexact CBm0
    iexact CBr0
  -- chunk 15, half a: staging slot 1 is loaded, cast and stored into bf16 slot 0
  iapply (wp_load_via c (slot2 15) _ _) $$ [VA1]
  · iexact VA1
  iintro VA1
  iapply (wp_load_vca c (slot3 15) _ _) $$ [CA0]
  · iexact CA0
  iintro CA0
  iapply (wp_store_vca c (slot3 15) _ _) $$ [CA0]
  · iexact CA0
  iintro CA0
  ihave CA0 := (store_vca_at m c 15 _ _ rfl) $$ [CA0]
  · iexact CA0
  -- chunk 15, half b: staging slot 1 is loaded, cast and stored into bf16 slot 0
  iapply (wp_load_vib c (slot2 15) _ _) $$ [VB1]
  · iexact VB1
  iintro VB1
  iapply (wp_load_vcb c (slot3 15) _ _) $$ [CB0]
  · iexact CB0
  iintro CB0
  iapply (wp_store_vcb c (slot3 15) _ _) $$ [CB0]
  · iexact CB0
  iintro CB0
  ihave CB0 := (store_vcb_at m c 15 _ _ rfl) $$ [CB0]
  · iexact CB0
  ihave H := (vca_slot_split c (slot3 15) fullShare _).1 $$ [CA0]
  · iexact CA0
  icases H with ⟨CAm0, CAp0⟩
  ihave H := (vcb_slot_split c (slot3 15) fullShare _).1 $$ [CB0]
  · iexact CB0
  icases H with ⟨CBm0, CBr0⟩
  -- chunk 15, half a: the device's own columns of slot 0 start for the result
  -- the printed part k0_part59 is opened
  simp only [k0_part59_eq_skeleton]
  unfold k0_part59_skel
  simp only [semSignalWord, semWaitWord, Prog.lift, Prog.bind_op, Prog.bind_ret, Prog.pure_eq_ret, wp_deviceId]
  iapply (wp_lca m K c 15 _) $$ [CAm0 OA15 Tla15]
  · isplitr; · (iapply (inv_at m K c (.lca (slot3 15))); iexact HR)
    isplitr; · iexact Rla12
    isplitl [CAm0]; · iexact CAm0
    isplitl [OA15]; · iexact OA15
    iexact Tla15
  iintro Kla15
  -- chunk 15, half b: the device's own columns of slot 0 start for the result
  iapply (wp_lcb m K c 15 _) $$ [CBm0 OB15 Tlb15]
  · isplitr; · (iapply (inv_at m K c (.lcb (slot3 15))); iexact HR)
    isplitr; · iexact Rlb12
    isplitl [CBm0]; · iexact CBm0
    isplitl [OB15]; · iexact OB15
    iexact Tlb15
  iintro Klb15
  -- chunk 15: the x-peer's columns of slot 0 are sent into its landing slot 15
  rw [show (oweD c 15 + oweF c 14 : CellTallies nD τ sig Unit) = (oweD c 16 + oweF c 14) + tallyAt (cell (px c) (.dr 15)) () Nout from by rw [oweD_peel c 15 (by decide), add_right_comm]; rfl]
  iapply (wp_send_d m K c _ (devx_eq c _ _ (k0_dev32_eq c)) 15 _ (oweD c 16 + oweF c 14) _) $$ [CAp0 LP15 HO Tds15 Tdr15]
  · isplitr; · (iapply (inv_at m K c (.ds 15)); iexact HR)
    isplitr; · (iapply (inv_at m K (px c) (.dr 15)); iexact HR)
    isplitr; · (iapply (reached0_at m K c (.ds 15)); iexact HR)
    isplitr; · (iapply (reached0_at m K (px c) (.dr 15)); iexact HR)
    isplitl [CAp0]; · iexact CAp0
    isplitl [LP15]; · iexact LP15
    isplitl [HO]; · iexact HO
    isplitl [Tds15]; · iexact Tds15
    iexact Tdr15
  iintro ⟨Kds15, HO⟩
  -- chunk 17, half a: its rows of x start for staging slot 1
  -- the printed part k0_part60 is opened
  simp only [k0_part60_eq_skeleton]
  unfold k0_part60_skel
  simp only [semSignalWord, semWaitWord, Prog.lift, Prog.bind_op, Prog.bind_ret, Prog.pure_eq_ret, wp_deviceId]
  iapply (wp_stage_a m K c 17 _) $$ [XA17 VA1 Tia17]
  · isplitr; · (iapply (inv_at m K c (.ina (slot2 17))); iexact HR)
    isplitr; · iexact Ria15
    isplitl [XA17]; · iexact XA17
    isplitl [VA1]; · iexact VA1
    iexact Tia17
  iintro Kia17
  -- chunk 17, half b: its rows of x start for staging slot 1
  iapply (wp_stage_b m K c 17 _) $$ [XB17 VB1 Tib17]
  · isplitr; · (iapply (inv_at m K c (.inb (slot2 17))); iexact HR)
    isplitr; · iexact Rib15
    isplitl [XB17]; · iexact XB17
    isplitl [VB1]; · iexact VB1
    iexact Tib17
  iintro Kib17
  -- chunk 14 of the x-peer has landed: it is copied into the result and relayed to the y-peer
  iapply (wp_wait_dr m K c 14 (credit_ldS 14) (oweD c 16 + oweF c 14) _) $$ [Cdr14 HO Pdr14]
  · isplitr; · (iapply (inv_at m K c (.dr 14)); iexact HR)
    isplitl [Cdr14]; · iexact Cdr14
    isplitl [HO]; · iexact HO
    isplitr; · (iapply (mayWait_dr c 14 16 14 (by decide) (by decide)); iexact Hlev)
    iexact Pdr14
  iintro ⟨HO, Pdr14, -, LD14⟩
  ihave H := (ld_share_split c 14 _).1 $$ [LD14]
  · iexact LD14
  icases H with ⟨LDl14, LDr14⟩
  iapply (wp_lo m K c 14 _) $$ [LDl14 OR14 Tlo14]
  · isplitr; · (iapply (inv_at m K c (.lo 14)); iexact HR)
    isplitr; · (iapply (reached0_at m K c (.lo 14)); iexact HR)
    isplitl [LDl14]; · iexact LDl14
    isplitl [OR14]; · iexact OR14
    iexact Tlo14
  iintro Klo14
  rw [show (oweD c 16 + oweF c 14 : CellTallies nD τ sig Unit) = (oweD c 16 + oweF c 15) + tallyAt (cell (py c) (.fr 14)) () Nout from by rw [oweF_peel c 14 (by decide), ← add_assoc]; rfl]
  -- the printed part k0_part148 is opened
  simp only [k0_part148_eq_skeleton]
  unfold k0_part148_skel
  simp only [semSignalWord, semWaitWord, Prog.lift, Prog.bind_op, Prog.bind_ret, Prog.pure_eq_ret, wp_deviceId]
  -- the printed part k0_part61 is opened
  simp only [k0_part61_eq_skeleton]
  unfold k0_part61_skel
  simp only [semSignalWord, semWaitWord, Prog.lift, Prog.bind_op, Prog.bind_ret, Prog.pure_eq_ret, wp_deviceId]
  iapply (wp_send_f m K c _ (devy_eq c _ _ (k0_dev33_eq c)) 14 _ (oweD c 16 + oweF c 15) _) $$ [LDr14 OP14 HO Tfs14 Tfr14]
  · isplitr; · (iapply (inv_at m K c (.fs 14)); iexact HR)
    isplitr; · (iapply (inv_at m K (py c) (.fr 14)); iexact HR)
    isplitr; · (iapply (reached0_at m K c (.fs 14)); iexact HR)
    isplitr; · (iapply (reached0_at m K (py c) (.fr 14)); iexact HR)
    isplitl [LDr14]; · iexact LDr14
    isplitl [OP14]; · iexact OP14
    isplitl [HO]; · iexact HO
    isplitl [Tfs14]; · iexact Tfs14
    iexact Tfr14
  iintro ⟨Kfs14, HO⟩
  -- chunk 16, half a: its staged rows have landed in slot 0
  iapply (wp_wait_ina m K c 16 (credit_viaS (slot2 16)) (oweD c 16 + oweF c 15) _) $$ [Kia16 HO Pia0]
  · isplitr; · (iapply (inv_at m K c (.ina (slot2 16))); iexact HR)
    isplitl [Kia16]; · iexact Kia16
    isplitl [HO]; · iexact HO
    isplitr; · (iapply (mayWait_own c (.ina (slot2 16)) rfl 16 15); iexact Hlev)
    iexact Pia0
  iintro ⟨HO, Pia0, #Ria16, VA0, XA16⟩
  -- chunk 16, half b: its staged rows have landed in slot 0
  iapply (wp_wait_inb m K c 16 (credit_vibS (slot2 16)) (oweD c 16 + oweF c 15) _) $$ [Kib16 HO Pib0]
  · isplitr; · (iapply (inv_at m K c (.inb (slot2 16))); iexact HR)
    isplitl [Kib16]; · iexact Kib16
    isplitl [HO]; · iexact HO
    isplitr; · (iapply (mayWait_own c (.inb (slot2 16)) rfl 16 15); iexact Hlev)
    iexact Pib0
  iintro ⟨HO, Pib0, #Rib16, VB0, XB16⟩
  -- chunk 13: its local copy of vcast_a has landed
  iapply (wp_wait_lca m K c 13 (credit_oA c 13) (oweD c 16 + oweF c 15) _) $$ [Kla13 HO Pla1]
  · isplitr; · (iapply (inv_at m K c (.lca (slot3 13))); iexact HR)
    isplitl [Kla13]; · iexact Kla13
    isplitl [HO]; · iexact HO
    isplitr; · (iapply (mayWait_own c (.lca (slot3 13)) rfl 16 15); iexact Hlev)
    iexact Pla1
  iintro ⟨HO, Pla1, #Rla13, OA13, CAm1⟩
  -- chunk 13: its local copy of vcast_b has landed
  -- the printed part k0_part62 is opened
  simp only [k0_part62_eq_skeleton]
  unfold k0_part62_skel
  simp only [semSignalWord, semWaitWord, Prog.lift, Prog.bind_op, Prog.bind_ret, Prog.pure_eq_ret, wp_deviceId]
  iapply (wp_wait_lcb m K c 13 (credit_oB c 13) (oweD c 16 + oweF c 15) _) $$ [Klb13 HO Plb1]
  · isplitr; · (iapply (inv_at m K c (.lcb (slot3 13))); iexact HR)
    isplitl [Klb13]; · iexact Klb13
    isplitl [HO]; · iexact HO
    isplitr; · (iapply (mayWait_own c (.lcb (slot3 13)) rfl 16 15); iexact Hlev)
    iexact Plb1
  iintro ⟨HO, Plb1, #Rlb13, OB13, CBm1⟩
  -- chunk 13: its send along x has left the slot
  iapply (wp_wait_ds m K c 13 (credit_vcaPeer c (slot3 13)) (oweD c 16 + oweF c 15) _) $$ [Kds13 HO Pds13]
  · isplitr; · (iapply (inv_at m K c (.ds 13)); iexact HR)
    isplitl [Kds13]; · iexact Kds13
    isplitl [HO]; · iexact HO
    isplitr; · (iapply (mayWait_own c (.ds 13) rfl 16 15); iexact Hlev)
    iexact Pds13
  iintro ⟨HO, Pds13, -, CAp1⟩
  -- slot 1 of both bf16 buffers is whole again
  ihave CA1 := (vca_slot_split c (slot3 13) fullShare _).2 $$ [CAm1 CAp1]
  · isplitl [CAm1]; · iexact CAm1
    iexact CAp1
  ihave CB1 := (vcb_slot_split c (slot3 13) fullShare _).2 $$ [CBm1 CBr1]
  · isplitl [CBm1]; · iexact CBm1
    iexact CBr1
  -- chunk 16, half a: staging slot 0 is loaded, cast and stored into bf16 slot 1
  iapply (wp_load_via c (slot2 16) _ _) $$ [VA0]
  · iexact VA0
  iintro VA0
  iapply (wp_load_vca c (slot3 16) _ _) $$ [CA1]
  · iexact CA1
  iintro CA1
  iapply (wp_store_vca c (slot3 16) _ _) $$ [CA1]
  · iexact CA1
  iintro CA1
  ihave CA1 := (store_vca_at m c 16 _ _ rfl) $$ [CA1]
  · iexact CA1
  -- chunk 16, half b: staging slot 0 is loaded, cast and stored into bf16 slot 1
  iapply (wp_load_vib c (slot2 16) _ _) $$ [VB0]
  · iexact VB0
  iintro VB0
  iapply (wp_load_vcb c (slot3 16) _ _) $$ [CB1]
  · iexact CB1
  iintro CB1
  iapply (wp_store_vcb c (slot3 16) _ _) $$ [CB1]
  · iexact CB1
  iintro CB1
  ihave CB1 := (store_vcb_at m c 16 _ _ rfl) $$ [CB1]
  · iexact CB1
  ihave H := (vca_slot_split c (slot3 16) fullShare _).1 $$ [CA1]
  · iexact CA1
  icases H with ⟨CAm1, CAp1⟩
  ihave H := (vcb_slot_split c (slot3 16) fullShare _).1 $$ [CB1]
  · iexact CB1
  icases H with ⟨CBm1, CBr1⟩
  -- chunk 16, half a: the device's own columns of slot 1 start for the result
  -- the printed part k0_part63 is opened
  simp only [k0_part63_eq_skeleton]
  unfold k0_part63_skel
  simp only [semSignalWord, semWaitWord, Prog.lift, Prog.bind_op, Prog.bind_ret, Prog.pure_eq_ret, wp_deviceId]
  iapply (wp_lca m K c 16 _) $$ [CAm1 OA16 Tla16]
  · isplitr; · (iapply (inv_at m K c (.lca (slot3 16))); iexact HR)
    isplitr; · iexact Rla13
    isplitl [CAm1]; · iexact CAm1
    isplitl [OA16]; · iexact OA16
    iexact Tla16
  iintro Kla16
  -- chunk 16, half b: the device's own columns of slot 1 start for the result
  iapply (wp_lcb m K c 16 _) $$ [CBm1 OB16 Tlb16]
  · isplitr; · (iapply (inv_at m K c (.lcb (slot3 16))); iexact HR)
    isplitr; · iexact Rlb13
    isplitl [CBm1]; · iexact CBm1
    isplitl [OB16]; · iexact OB16
    iexact Tlb16
  iintro Klb16
  -- chunk 16: the x-peer's columns of slot 1 are sent into its landing slot 16
  rw [show (oweD c 16 + oweF c 15 : CellTallies nD τ sig Unit) = (oweD c 17 + oweF c 15) + tallyAt (cell (px c) (.dr 16)) () Nout from by rw [oweD_peel c 16 (by decide), add_right_comm]; rfl]
  iapply (wp_send_d m K c _ (devx_eq c _ _ (k0_dev34_eq c)) 16 _ (oweD c 17 + oweF c 15) _) $$ [CAp1 LP16 HO Tds16 Tdr16]
  · isplitr; · (iapply (inv_at m K c (.ds 16)); iexact HR)
    isplitr; · (iapply (inv_at m K (px c) (.dr 16)); iexact HR)
    isplitr; · (iapply (reached0_at m K c (.ds 16)); iexact HR)
    isplitr; · (iapply (reached0_at m K (px c) (.dr 16)); iexact HR)
    isplitl [CAp1]; · iexact CAp1
    isplitl [LP16]; · iexact LP16
    isplitl [HO]; · iexact HO
    isplitl [Tds16]; · iexact Tds16
    iexact Tdr16
  iintro ⟨Kds16, HO⟩
  -- chunk 18, half a: its rows of x start for staging slot 0
  iapply (wp_stage_a m K c 18 _) $$ [XA18 VA0 Tia18]
  · isplitr; · (iapply (inv_at m K c (.ina (slot2 18))); iexact HR)
    isplitr; · iexact Ria16
    isplitl [XA18]; · iexact XA18
    isplitl [VA0]; · iexact VA0
    iexact Tia18
  iintro Kia18
  -- chunk 18, half b: its rows of x start for staging slot 0
  -- the printed part k0_part64 is opened
  simp only [k0_part64_eq_skeleton]
  unfold k0_part64_skel
  simp only [semSignalWord, semWaitWord, Prog.lift, Prog.bind_op, Prog.bind_ret, Prog.pure_eq_ret, wp_deviceId]
  iapply (wp_stage_b m K c 18 _) $$ [XB18 VB0 Tib18]
  · isplitr; · (iapply (inv_at m K c (.inb (slot2 18))); iexact HR)
    isplitr; · iexact Rib16
    isplitl [XB18]; · iexact XB18
    isplitl [VB0]; · iexact VB0
    iexact Tib18
  iintro Kib18
  -- chunk 15 of the x-peer has landed: it is copied into the result and relayed to the y-peer
  iapply (wp_wait_dr m K c 15 (credit_ldS 15) (oweD c 17 + oweF c 15) _) $$ [Cdr15 HO Pdr15]
  · isplitr; · (iapply (inv_at m K c (.dr 15)); iexact HR)
    isplitl [Cdr15]; · iexact Cdr15
    isplitl [HO]; · iexact HO
    isplitr; · (iapply (mayWait_dr c 15 17 15 (by decide) (by decide)); iexact Hlev)
    iexact Pdr15
  iintro ⟨HO, Pdr15, -, LD15⟩
  ihave H := (ld_share_split c 15 _).1 $$ [LD15]
  · iexact LD15
  icases H with ⟨LDl15, LDr15⟩
  iapply (wp_lo m K c 15 _) $$ [LDl15 OR15 Tlo15]
  · isplitr; · (iapply (inv_at m K c (.lo 15)); iexact HR)
    isplitr; · (iapply (reached0_at m K c (.lo 15)); iexact HR)
    isplitl [LDl15]; · iexact LDl15
    isplitl [OR15]; · iexact OR15
    iexact Tlo15
  iintro Klo15
  rw [show (oweD c 17 + oweF c 15 : CellTallies nD τ sig Unit) = (oweD c 17 + oweF c 16) + tallyAt (cell (py c) (.fr 15)) () Nout from by rw [oweF_peel c 15 (by decide), ← add_assoc]; rfl]
  -- the printed part k0_part65 is opened
  simp only [k0_part65_eq_skeleton]
  unfold k0_part65_skel
  simp only [semSignalWord, semWaitWord, Prog.lift, Prog.bind_op, Prog.bind_ret, Prog.pure_eq_ret, wp_deviceId]
  iapply (wp_send_f m K c _ (devy_eq c _ _ (k0_dev35_eq c)) 15 _ (oweD c 17 + oweF c 16) _) $$ [LDr15 OP15 HO Tfs15 Tfr15]
  · isplitr; · (iapply (inv_at m K c (.fs 15)); iexact HR)
    isplitr; · (iapply (inv_at m K (py c) (.fr 15)); iexact HR)
    isplitr; · (iapply (reached0_at m K c (.fs 15)); iexact HR)
    isplitr; · (iapply (reached0_at m K (py c) (.fr 15)); iexact HR)
    isplitl [LDr15]; · iexact LDr15
    isplitl [OP15]; · iexact OP15
    isplitl [HO]; · iexact HO
    isplitl [Tfs15]; · iexact Tfs15
    iexact Tfr15
  iintro ⟨Kfs15, HO⟩
  -- chunk 17, half a: its staged rows have landed in slot 1
  iapply (wp_wait_ina m K c 17 (credit_viaS (slot2 17)) (oweD c 17 + oweF c 16) _) $$ [Kia17 HO Pia1]
  · isplitr; · (iapply (inv_at m K c (.ina (slot2 17))); iexact HR)
    isplitl [Kia17]; · iexact Kia17
    isplitl [HO]; · iexact HO
    isplitr; · (iapply (mayWait_own c (.ina (slot2 17)) rfl 17 16); iexact Hlev)
    iexact Pia1
  iintro ⟨HO, Pia1, #Ria17, VA1, XA17⟩
  -- chunk 17, half b: its staged rows have landed in slot 1
  iapply (wp_wait_inb m K c 17 (credit_vibS (slot2 17)) (oweD c 17 + oweF c 16) _) $$ [Kib17 HO Pib1]
  · isplitr; · (iapply (inv_at m K c (.inb (slot2 17))); iexact HR)
    isplitl [Kib17]; · iexact Kib17
    isplitl [HO]; · iexact HO
    isplitr; · (iapply (mayWait_own c (.inb (slot2 17)) rfl 17 16); iexact Hlev)
    iexact Pib1
  iintro ⟨HO, Pib1, #Rib17, VB1, XB17⟩
  -- chunk 14: its local copy of vcast_a has landed
  iapply (wp_wait_lca m K c 14 (credit_oA c 14) (oweD c 17 + oweF c 16) _) $$ [Kla14 HO Pla2]
  · isplitr; · (iapply (inv_at m K c (.lca (slot3 14))); iexact HR)
    isplitl [Kla14]; · iexact Kla14
    isplitl [HO]; · iexact HO
    isplitr; · (iapply (mayWait_own c (.lca (slot3 14)) rfl 17 16); iexact Hlev)
    iexact Pla2
  iintro ⟨HO, Pla2, #Rla14, OA14, CAm2⟩
  -- chunk 14: its local copy of vcast_b has landed
  iapply (wp_wait_lcb m K c 14 (credit_oB c 14) (oweD c 17 + oweF c 16) _) $$ [Klb14 HO Plb2]
  · isplitr; · (iapply (inv_at m K c (.lcb (slot3 14))); iexact HR)
    isplitl [Klb14]; · iexact Klb14
    isplitl [HO]; · iexact HO
    isplitr; · (iapply (mayWait_own c (.lcb (slot3 14)) rfl 17 16); iexact Hlev)
    iexact Plb2
  iintro ⟨HO, Plb2, #Rlb14, OB14, CBm2⟩
  -- chunk 14: its send along x has left the slot
  -- the printed part k0_part66 is opened
  simp only [k0_part66_eq_skeleton]
  unfold k0_part66_skel
  simp only [semSignalWord, semWaitWord, Prog.lift, Prog.bind_op, Prog.bind_ret, Prog.pure_eq_ret, wp_deviceId]
  iapply (wp_wait_ds m K c 14 (credit_vcaPeer c (slot3 14)) (oweD c 17 + oweF c 16) _) $$ [Kds14 HO Pds14]
  · isplitr; · (iapply (inv_at m K c (.ds 14)); iexact HR)
    isplitl [Kds14]; · iexact Kds14
    isplitl [HO]; · iexact HO
    isplitr; · (iapply (mayWait_own c (.ds 14) rfl 17 16); iexact Hlev)
    iexact Pds14
  iintro ⟨HO, Pds14, -, CAp2⟩
  -- slot 2 of both bf16 buffers is whole again
  ihave CA2 := (vca_slot_split c (slot3 14) fullShare _).2 $$ [CAm2 CAp2]
  · isplitl [CAm2]; · iexact CAm2
    iexact CAp2
  ihave CB2 := (vcb_slot_split c (slot3 14) fullShare _).2 $$ [CBm2 CBr2]
  · isplitl [CBm2]; · iexact CBm2
    iexact CBr2
  -- chunk 17, half a: staging slot 1 is loaded, cast and stored into bf16 slot 2
  iapply (wp_load_via c (slot2 17) _ _) $$ [VA1]
  · iexact VA1
  iintro VA1
  iapply (wp_load_vca c (slot3 17) _ _) $$ [CA2]
  · iexact CA2
  iintro CA2
  iapply (wp_store_vca c (slot3 17) _ _) $$ [CA2]
  · iexact CA2
  iintro CA2
  ihave CA2 := (store_vca_at m c 17 _ _ rfl) $$ [CA2]
  · iexact CA2
  -- chunk 17, half b: staging slot 1 is loaded, cast and stored into bf16 slot 2
  iapply (wp_load_vib c (slot2 17) _ _) $$ [VB1]
  · iexact VB1
  iintro VB1
  iapply (wp_load_vcb c (slot3 17) _ _) $$ [CB2]
  · iexact CB2
  iintro CB2
  iapply (wp_store_vcb c (slot3 17) _ _) $$ [CB2]
  · iexact CB2
  iintro CB2
  ihave CB2 := (store_vcb_at m c 17 _ _ rfl) $$ [CB2]
  · iexact CB2
  ihave H := (vca_slot_split c (slot3 17) fullShare _).1 $$ [CA2]
  · iexact CA2
  icases H with ⟨CAm2, CAp2⟩
  ihave H := (vcb_slot_split c (slot3 17) fullShare _).1 $$ [CB2]
  · iexact CB2
  icases H with ⟨CBm2, CBr2⟩
  -- chunk 17, half a: the device's own columns of slot 2 start for the result
  iapply (wp_lca m K c 17 _) $$ [CAm2 OA17 Tla17]
  · isplitr; · (iapply (inv_at m K c (.lca (slot3 17))); iexact HR)
    isplitr; · iexact Rla14
    isplitl [CAm2]; · iexact CAm2
    isplitl [OA17]; · iexact OA17
    iexact Tla17
  iintro Kla17
  -- chunk 17, half b: the device's own columns of slot 2 start for the result
  -- the printed part k0_part67 is opened
  simp only [k0_part67_eq_skeleton]
  unfold k0_part67_skel
  simp only [semSignalWord, semWaitWord, Prog.lift, Prog.bind_op, Prog.bind_ret, Prog.pure_eq_ret, wp_deviceId]
  iapply (wp_lcb m K c 17 _) $$ [CBm2 OB17 Tlb17]
  · isplitr; · (iapply (inv_at m K c (.lcb (slot3 17))); iexact HR)
    isplitr; · iexact Rlb14
    isplitl [CBm2]; · iexact CBm2
    isplitl [OB17]; · iexact OB17
    iexact Tlb17
  iintro Klb17
  -- chunk 17: the x-peer's columns of slot 2 are sent into its landing slot 17
  rw [show (oweD c 17 + oweF c 16 : CellTallies nD τ sig Unit) = (oweD c 18 + oweF c 16) + tallyAt (cell (px c) (.dr 17)) () Nout from by rw [oweD_peel c 17 (by decide), add_right_comm]; rfl]
  iapply (wp_send_d m K c _ (devx_eq c _ _ (k0_dev36_eq c)) 17 _ (oweD c 18 + oweF c 16) _) $$ [CAp2 LP17 HO Tds17 Tdr17]
  · isplitr; · (iapply (inv_at m K c (.ds 17)); iexact HR)
    isplitr; · (iapply (inv_at m K (px c) (.dr 17)); iexact HR)
    isplitr; · (iapply (reached0_at m K c (.ds 17)); iexact HR)
    isplitr; · (iapply (reached0_at m K (px c) (.dr 17)); iexact HR)
    isplitl [CAp2]; · iexact CAp2
    isplitl [LP17]; · iexact LP17
    isplitl [HO]; · iexact HO
    isplitl [Tds17]; · iexact Tds17
    iexact Tdr17
  iintro ⟨Kds17, HO⟩
  -- chunk 19, half a: its rows of x start for staging slot 1
  iapply (wp_stage_a m K c 19 _) $$ [XA19 VA1 Tia19]
  · isplitr; · (iapply (inv_at m K c (.ina (slot2 19))); iexact HR)
    isplitr; · iexact Ria17
    isplitl [XA19]; · iexact XA19
    isplitl [VA1]; · iexact VA1
    iexact Tia19
  iintro Kia19
  -- chunk 19, half b: its rows of x start for staging slot 1
  iapply (wp_stage_b m K c 19 _) $$ [XB19 VB1 Tib19]
  · isplitr; · (iapply (inv_at m K c (.inb (slot2 19))); iexact HR)
    isplitr; · iexact Rib17
    isplitl [XB19]; · iexact XB19
    isplitl [VB1]; · iexact VB1
    iexact Tib19
  iintro Kib19
  -- chunk 16 of the x-peer has landed: it is copied into the result and relayed to the y-peer
  -- the printed part k0_part68 is opened
  simp only [k0_part68_eq_skeleton]
  unfold k0_part68_skel
  simp only [semSignalWord, semWaitWord, Prog.lift, Prog.bind_op, Prog.bind_ret, Prog.pure_eq_ret, wp_deviceId]
  iapply (wp_wait_dr m K c 16 (credit_ldS 16) (oweD c 18 + oweF c 16) _) $$ [Cdr16 HO Pdr16]
  · isplitr; · (iapply (inv_at m K c (.dr 16)); iexact HR)
    isplitl [Cdr16]; · iexact Cdr16
    isplitl [HO]; · iexact HO
    isplitr; · (iapply (mayWait_dr c 16 18 16 (by decide) (by decide)); iexact Hlev)
    iexact Pdr16
  iintro ⟨HO, Pdr16, -, LD16⟩
  ihave H := (ld_share_split c 16 _).1 $$ [LD16]
  · iexact LD16
  icases H with ⟨LDl16, LDr16⟩
  iapply (wp_lo m K c 16 _) $$ [LDl16 OR16 Tlo16]
  · isplitr; · (iapply (inv_at m K c (.lo 16)); iexact HR)
    isplitr; · (iapply (reached0_at m K c (.lo 16)); iexact HR)
    isplitl [LDl16]; · iexact LDl16
    isplitl [OR16]; · iexact OR16
    iexact Tlo16
  iintro Klo16
  rw [show (oweD c 18 + oweF c 16 : CellTallies nD τ sig Unit) = (oweD c 18 + oweF c 17) + tallyAt (cell (py c) (.fr 16)) () Nout from by rw [oweF_peel c 16 (by decide), ← add_assoc]; rfl]
  -- the printed part k0_part69 is opened
  simp only [k0_part69_eq_skeleton]
  unfold k0_part69_skel
  simp only [semSignalWord, semWaitWord, Prog.lift, Prog.bind_op, Prog.bind_ret, Prog.pure_eq_ret, wp_deviceId]
  iapply (wp_send_f m K c _ (devy_eq c _ _ (k0_dev37_eq c)) 16 _ (oweD c 18 + oweF c 17) _) $$ [LDr16 OP16 HO Tfs16 Tfr16]
  · isplitr; · (iapply (inv_at m K c (.fs 16)); iexact HR)
    isplitr; · (iapply (inv_at m K (py c) (.fr 16)); iexact HR)
    isplitr; · (iapply (reached0_at m K c (.fs 16)); iexact HR)
    isplitr; · (iapply (reached0_at m K (py c) (.fr 16)); iexact HR)
    isplitl [LDr16]; · iexact LDr16
    isplitl [OP16]; · iexact OP16
    isplitl [HO]; · iexact HO
    isplitl [Tfs16]; · iexact Tfs16
    iexact Tfr16
  iintro ⟨Kfs16, HO⟩
  -- chunk 18, half a: its staged rows have landed in slot 0
  iapply (wp_wait_ina m K c 18 (credit_viaS (slot2 18)) (oweD c 18 + oweF c 17) _) $$ [Kia18 HO Pia0]
  · isplitr; · (iapply (inv_at m K c (.ina (slot2 18))); iexact HR)
    isplitl [Kia18]; · iexact Kia18
    isplitl [HO]; · iexact HO
    isplitr; · (iapply (mayWait_own c (.ina (slot2 18)) rfl 18 17); iexact Hlev)
    iexact Pia0
  iintro ⟨HO, Pia0, #Ria18, VA0, XA18⟩
  -- chunk 18, half b: its staged rows have landed in slot 0
  iapply (wp_wait_inb m K c 18 (credit_vibS (slot2 18)) (oweD c 18 + oweF c 17) _) $$ [Kib18 HO Pib0]
  · isplitr; · (iapply (inv_at m K c (.inb (slot2 18))); iexact HR)
    isplitl [Kib18]; · iexact Kib18
    isplitl [HO]; · iexact HO
    isplitr; · (iapply (mayWait_own c (.inb (slot2 18)) rfl 18 17); iexact Hlev)
    iexact Pib0
  iintro ⟨HO, Pib0, #Rib18, VB0, XB18⟩
  -- chunk 15: its local copy of vcast_a has landed
  iapply (wp_wait_lca m K c 15 (credit_oA c 15) (oweD c 18 + oweF c 17) _) $$ [Kla15 HO Pla0]
  · isplitr; · (iapply (inv_at m K c (.lca (slot3 15))); iexact HR)
    isplitl [Kla15]; · iexact Kla15
    isplitl [HO]; · iexact HO
    isplitr; · (iapply (mayWait_own c (.lca (slot3 15)) rfl 18 17); iexact Hlev)
    iexact Pla0
  iintro ⟨HO, Pla0, #Rla15, OA15, CAm0⟩
  -- chunk 15: its local copy of vcast_b has landed
  iapply (wp_wait_lcb m K c 15 (credit_oB c 15) (oweD c 18 + oweF c 17) _) $$ [Klb15 HO Plb0]
  · isplitr; · (iapply (inv_at m K c (.lcb (slot3 15))); iexact HR)
    isplitl [Klb15]; · iexact Klb15
    isplitl [HO]; · iexact HO
    isplitr; · (iapply (mayWait_own c (.lcb (slot3 15)) rfl 18 17); iexact Hlev)
    iexact Plb0
  iintro ⟨HO, Plb0, #Rlb15, OB15, CBm0⟩
  -- chunk 15: its send along x has left the slot
  iapply (wp_wait_ds m K c 15 (credit_vcaPeer c (slot3 15)) (oweD c 18 + oweF c 17) _) $$ [Kds15 HO Pds15]
  · isplitr; · (iapply (inv_at m K c (.ds 15)); iexact HR)
    isplitl [Kds15]; · iexact Kds15
    isplitl [HO]; · iexact HO
    isplitr; · (iapply (mayWait_own c (.ds 15) rfl 18 17); iexact Hlev)
    iexact Pds15
  iintro ⟨HO, Pds15, -, CAp0⟩
  -- slot 0 of both bf16 buffers is whole again
  ihave CA0 := (vca_slot_split c (slot3 15) fullShare _).2 $$ [CAm0 CAp0]
  · isplitl [CAm0]; · iexact CAm0
    iexact CAp0
  ihave CB0 := (vcb_slot_split c (slot3 15) fullShare _).2 $$ [CBm0 CBr0]
  · isplitl [CBm0]; · iexact CBm0
    iexact CBr0
  -- chunk 18, half a: staging slot 0 is loaded, cast and stored into bf16 slot 0
  -- the printed part k0_part70 is opened
  simp only [k0_part70_eq_skeleton]
  unfold k0_part70_skel
  simp only [semSignalWord, semWaitWord, Prog.lift, Prog.bind_op, Prog.bind_ret, Prog.pure_eq_ret, wp_deviceId]
  iapply (wp_load_via c (slot2 18) _ _) $$ [VA0]
  · iexact VA0
  iintro VA0
  iapply (wp_load_vca c (slot3 18) _ _) $$ [CA0]
  · iexact CA0
  iintro CA0
  iapply (wp_store_vca c (slot3 18) _ _) $$ [CA0]
  · iexact CA0
  iintro CA0
  ihave CA0 := (store_vca_at m c 18 _ _ rfl) $$ [CA0]
  · iexact CA0
  -- chunk 18, half b: staging slot 0 is loaded, cast and stored into bf16 slot 0
  iapply (wp_load_vib c (slot2 18) _ _) $$ [VB0]
  · iexact VB0
  iintro VB0
  iapply (wp_load_vcb c (slot3 18) _ _) $$ [CB0]
  · iexact CB0
  iintro CB0
  iapply (wp_store_vcb c (slot3 18) _ _) $$ [CB0]
  · iexact CB0
  iintro CB0
  ihave CB0 := (store_vcb_at m c 18 _ _ rfl) $$ [CB0]
  · iexact CB0
  ihave H := (vca_slot_split c (slot3 18) fullShare _).1 $$ [CA0]
  · iexact CA0
  icases H with ⟨CAm0, CAp0⟩
  ihave H := (vcb_slot_split c (slot3 18) fullShare _).1 $$ [CB0]
  · iexact CB0
  icases H with ⟨CBm0, CBr0⟩
  -- chunk 18, half a: the device's own columns of slot 0 start for the result
  iapply (wp_lca m K c 18 _) $$ [CAm0 OA18 Tla18]
  · isplitr; · (iapply (inv_at m K c (.lca (slot3 18))); iexact HR)
    isplitr; · iexact Rla15
    isplitl [CAm0]; · iexact CAm0
    isplitl [OA18]; · iexact OA18
    iexact Tla18
  iintro Kla18
  -- chunk 18, half b: the device's own columns of slot 0 start for the result
  iapply (wp_lcb m K c 18 _) $$ [CBm0 OB18 Tlb18]
  · isplitr; · (iapply (inv_at m K c (.lcb (slot3 18))); iexact HR)
    isplitr; · iexact Rlb15
    isplitl [CBm0]; · iexact CBm0
    isplitl [OB18]; · iexact OB18
    iexact Tlb18
  iintro Klb18
  -- chunk 18: the x-peer's columns of slot 0 are sent into its landing slot 18
  rw [show (oweD c 18 + oweF c 17 : CellTallies nD τ sig Unit) = (oweD c 19 + oweF c 17) + tallyAt (cell (px c) (.dr 18)) () Nout from by rw [oweD_peel c 18 (by decide), add_right_comm]; rfl]
  -- the printed part k0_part71 is opened
  simp only [k0_part71_eq_skeleton]
  unfold k0_part71_skel
  simp only [semSignalWord, semWaitWord, Prog.lift, Prog.bind_op, Prog.bind_ret, Prog.pure_eq_ret, wp_deviceId]
  iapply (wp_send_d m K c _ (devx_eq c _ _ (k0_dev38_eq c)) 18 _ (oweD c 19 + oweF c 17) _) $$ [CAp0 LP18 HO Tds18 Tdr18]
  · isplitr; · (iapply (inv_at m K c (.ds 18)); iexact HR)
    isplitr; · (iapply (inv_at m K (px c) (.dr 18)); iexact HR)
    isplitr; · (iapply (reached0_at m K c (.ds 18)); iexact HR)
    isplitr; · (iapply (reached0_at m K (px c) (.dr 18)); iexact HR)
    isplitl [CAp0]; · iexact CAp0
    isplitl [LP18]; · iexact LP18
    isplitl [HO]; · iexact HO
    isplitl [Tds18]; · iexact Tds18
    iexact Tdr18
  iintro ⟨Kds18, HO⟩
  -- chunk 20, half a: its rows of x start for staging slot 0
  iapply (wp_stage_a m K c 20 _) $$ [XA20 VA0 Tia20]
  · isplitr; · (iapply (inv_at m K c (.ina (slot2 20))); iexact HR)
    isplitr; · iexact Ria18
    isplitl [XA20]; · iexact XA20
    isplitl [VA0]; · iexact VA0
    iexact Tia20
  iintro Kia20
  -- chunk 20, half b: its rows of x start for staging slot 0
  iapply (wp_stage_b m K c 20 _) $$ [XB20 VB0 Tib20]
  · isplitr; · (iapply (inv_at m K c (.inb (slot2 20))); iexact HR)
    isplitr; · iexact Rib18
    isplitl [XB20]; · iexact XB20
    isplitl [VB0]; · iexact VB0
    iexact Tib20
  iintro Kib20
  -- chunk 17 of the x-peer has landed: it is copied into the result and relayed to the y-peer
  -- the printed part k0_part72 is opened
  simp only [k0_part72_eq_skeleton]
  unfold k0_part72_skel
  simp only [semSignalWord, semWaitWord, Prog.lift, Prog.bind_op, Prog.bind_ret, Prog.pure_eq_ret, wp_deviceId]
  iapply (wp_wait_dr m K c 17 (credit_ldS 17) (oweD c 19 + oweF c 17) _) $$ [Cdr17 HO Pdr17]
  · isplitr; · (iapply (inv_at m K c (.dr 17)); iexact HR)
    isplitl [Cdr17]; · iexact Cdr17
    isplitl [HO]; · iexact HO
    isplitr; · (iapply (mayWait_dr c 17 19 17 (by decide) (by decide)); iexact Hlev)
    iexact Pdr17
  iintro ⟨HO, Pdr17, -, LD17⟩
  ihave H := (ld_share_split c 17 _).1 $$ [LD17]
  · iexact LD17
  icases H with ⟨LDl17, LDr17⟩
  iapply (wp_lo m K c 17 _) $$ [LDl17 OR17 Tlo17]
  · isplitr; · (iapply (inv_at m K c (.lo 17)); iexact HR)
    isplitr; · (iapply (reached0_at m K c (.lo 17)); iexact HR)
    isplitl [LDl17]; · iexact LDl17
    isplitl [OR17]; · iexact OR17
    iexact Tlo17
  iintro Klo17
  rw [show (oweD c 19 + oweF c 17 : CellTallies nD τ sig Unit) = (oweD c 19 + oweF c 18) + tallyAt (cell (py c) (.fr 17)) () Nout from by rw [oweF_peel c 17 (by decide), ← add_assoc]; rfl]
  iapply (wp_send_f m K c _ (devy_eq c _ _ (k0_dev39_eq c)) 17 _ (oweD c 19 + oweF c 18) _) $$ [LDr17 OP17 HO Tfs17 Tfr17]
  · isplitr; · (iapply (inv_at m K c (.fs 17)); iexact HR)
    isplitr; · (iapply (inv_at m K (py c) (.fr 17)); iexact HR)
    isplitr; · (iapply (reached0_at m K c (.fs 17)); iexact HR)
    isplitr; · (iapply (reached0_at m K (py c) (.fr 17)); iexact HR)
    isplitl [LDr17]; · iexact LDr17
    isplitl [OP17]; · iexact OP17
    isplitl [HO]; · iexact HO
    isplitl [Tfs17]; · iexact Tfs17
    iexact Tfr17
  iintro ⟨Kfs17, HO⟩
  -- chunk 19, half a: its staged rows have landed in slot 1
  -- the printed part k0_part73 is opened
  simp only [k0_part73_eq_skeleton]
  unfold k0_part73_skel
  simp only [semSignalWord, semWaitWord, Prog.lift, Prog.bind_op, Prog.bind_ret, Prog.pure_eq_ret, wp_deviceId]
  iapply (wp_wait_ina m K c 19 (credit_viaS (slot2 19)) (oweD c 19 + oweF c 18) _) $$ [Kia19 HO Pia1]
  · isplitr; · (iapply (inv_at m K c (.ina (slot2 19))); iexact HR)
    isplitl [Kia19]; · iexact Kia19
    isplitl [HO]; · iexact HO
    isplitr; · (iapply (mayWait_own c (.ina (slot2 19)) rfl 19 18); iexact Hlev)
    iexact Pia1
  iintro ⟨HO, Pia1, #Ria19, VA1, XA19⟩
  -- chunk 19, half b: its staged rows have landed in slot 1
  iapply (wp_wait_inb m K c 19 (credit_vibS (slot2 19)) (oweD c 19 + oweF c 18) _) $$ [Kib19 HO Pib1]
  · isplitr; · (iapply (inv_at m K c (.inb (slot2 19))); iexact HR)
    isplitl [Kib19]; · iexact Kib19
    isplitl [HO]; · iexact HO
    isplitr; · (iapply (mayWait_own c (.inb (slot2 19)) rfl 19 18); iexact Hlev)
    iexact Pib1
  iintro ⟨HO, Pib1, #Rib19, VB1, XB19⟩
  -- chunk 16: its local copy of vcast_a has landed
  iapply (wp_wait_lca m K c 16 (credit_oA c 16) (oweD c 19 + oweF c 18) _) $$ [Kla16 HO Pla1]
  · isplitr; · (iapply (inv_at m K c (.lca (slot3 16))); iexact HR)
    isplitl [Kla16]; · iexact Kla16
    isplitl [HO]; · iexact HO
    isplitr; · (iapply (mayWait_own c (.lca (slot3 16)) rfl 19 18); iexact Hlev)
    iexact Pla1
  iintro ⟨HO, Pla1, #Rla16, OA16, CAm1⟩
  -- chunk 16: its local copy of vcast_b has landed
  iapply (wp_wait_lcb m K c 16 (credit_oB c 16) (oweD c 19 + oweF c 18) _) $$ [Klb16 HO Plb1]
  · isplitr; · (iapply (inv_at m K c (.lcb (slot3 16))); iexact HR)
    isplitl [Klb16]; · iexact Klb16
    isplitl [HO]; · iexact HO
    isplitr; · (iapply (mayWait_own c (.lcb (slot3 16)) rfl 19 18); iexact Hlev)
    iexact Plb1
  iintro ⟨HO, Plb1, #Rlb16, OB16, CBm1⟩
  -- chunk 16: its send along x has left the slot
  iapply (wp_wait_ds m K c 16 (credit_vcaPeer c (slot3 16)) (oweD c 19 + oweF c 18) _) $$ [Kds16 HO Pds16]
  · isplitr; · (iapply (inv_at m K c (.ds 16)); iexact HR)
    isplitl [Kds16]; · iexact Kds16
    isplitl [HO]; · iexact HO
    isplitr; · (iapply (mayWait_own c (.ds 16) rfl 19 18); iexact Hlev)
    iexact Pds16
  iintro ⟨HO, Pds16, -, CAp1⟩
  -- slot 1 of both bf16 buffers is whole again
  ihave CA1 := (vca_slot_split c (slot3 16) fullShare _).2 $$ [CAm1 CAp1]
  · isplitl [CAm1]; · iexact CAm1
    iexact CAp1
  ihave CB1 := (vcb_slot_split c (slot3 16) fullShare _).2 $$ [CBm1 CBr1]
  · isplitl [CBm1]; · iexact CBm1
    iexact CBr1
  -- chunk 19, half a: staging slot 1 is loaded, cast and stored into bf16 slot 1
  iapply (wp_load_via c (slot2 19) _ _) $$ [VA1]
  · iexact VA1
  iintro VA1
  -- the printed part k0_part74 is opened
  simp only [k0_part74_eq_skeleton]
  unfold k0_part74_skel
  simp only [semSignalWord, semWaitWord, Prog.lift, Prog.bind_op, Prog.bind_ret, Prog.pure_eq_ret, wp_deviceId]
  iapply (wp_load_vca c (slot3 19) _ _) $$ [CA1]
  · iexact CA1
  iintro CA1
  iapply (wp_store_vca c (slot3 19) _ _) $$ [CA1]
  · iexact CA1
  iintro CA1
  ihave CA1 := (store_vca_at m c 19 _ _ rfl) $$ [CA1]
  · iexact CA1
  -- chunk 19, half b: staging slot 1 is loaded, cast and stored into bf16 slot 1
  iapply (wp_load_vib c (slot2 19) _ _) $$ [VB1]
  · iexact VB1
  iintro VB1
  iapply (wp_load_vcb c (slot3 19) _ _) $$ [CB1]
  · iexact CB1
  iintro CB1
  iapply (wp_store_vcb c (slot3 19) _ _) $$ [CB1]
  · iexact CB1
  iintro CB1
  ihave CB1 := (store_vcb_at m c 19 _ _ rfl) $$ [CB1]
  · iexact CB1
  ihave H := (vca_slot_split c (slot3 19) fullShare _).1 $$ [CA1]
  · iexact CA1
  icases H with ⟨CAm1, CAp1⟩
  ihave H := (vcb_slot_split c (slot3 19) fullShare _).1 $$ [CB1]
  · iexact CB1
  icases H with ⟨CBm1, CBr1⟩
  -- chunk 19, half a: the device's own columns of slot 1 start for the result
  iapply (wp_lca m K c 19 _) $$ [CAm1 OA19 Tla19]
  · isplitr; · (iapply (inv_at m K c (.lca (slot3 19))); iexact HR)
    isplitr; · iexact Rla16
    isplitl [CAm1]; · iexact CAm1
    isplitl [OA19]; · iexact OA19
    iexact Tla19
  iintro Kla19
  -- chunk 19, half b: the device's own columns of slot 1 start for the result
  iapply (wp_lcb m K c 19 _) $$ [CBm1 OB19 Tlb19]
  · isplitr; · (iapply (inv_at m K c (.lcb (slot3 19))); iexact HR)
    isplitr; · iexact Rlb16
    isplitl [CBm1]; · iexact CBm1
    isplitl [OB19]; · iexact OB19
    iexact Tlb19
  iintro Klb19
  -- chunk 19: the x-peer's columns of slot 1 are sent into its landing slot 19
  rw [show (oweD c 19 + oweF c 18 : CellTallies nD τ sig Unit) = (oweD c 20 + oweF c 18) + tallyAt (cell (px c) (.dr 19)) () Nout from by rw [oweD_peel c 19 (by decide), add_right_comm]; rfl]
  -- the printed part k0_part75 is opened
  simp only [k0_part75_eq_skeleton]
  unfold k0_part75_skel
  simp only [semSignalWord, semWaitWord, Prog.lift, Prog.bind_op, Prog.bind_ret, Prog.pure_eq_ret, wp_deviceId]
  iapply (wp_send_d m K c _ (devx_eq c _ _ (k0_dev40_eq c)) 19 _ (oweD c 20 + oweF c 18) _) $$ [CAp1 LP19 HO Tds19 Tdr19]
  · isplitr; · (iapply (inv_at m K c (.ds 19)); iexact HR)
    isplitr; · (iapply (inv_at m K (px c) (.dr 19)); iexact HR)
    isplitr; · (iapply (reached0_at m K c (.ds 19)); iexact HR)
    isplitr; · (iapply (reached0_at m K (px c) (.dr 19)); iexact HR)
    isplitl [CAp1]; · iexact CAp1
    isplitl [LP19]; · iexact LP19
    isplitl [HO]; · iexact HO
    isplitl [Tds19]; · iexact Tds19
    iexact Tdr19
  iintro ⟨Kds19, HO⟩
  -- chunk 21, half a: its rows of x start for staging slot 1
  iapply (wp_stage_a m K c 21 _) $$ [XA21 VA1 Tia21]
  · isplitr; · (iapply (inv_at m K c (.ina (slot2 21))); iexact HR)
    isplitr; · iexact Ria19
    isplitl [XA21]; · iexact XA21
    isplitl [VA1]; · iexact VA1
    iexact Tia21
  iintro Kia21
  -- chunk 21, half b: its rows of x start for staging slot 1
  iapply (wp_stage_b m K c 21 _) $$ [XB21 VB1 Tib21]
  · isplitr; · (iapply (inv_at m K c (.inb (slot2 21))); iexact HR)
    isplitr; · iexact Rib19
    isplitl [XB21]; · iexact XB21
    isplitl [VB1]; · iexact VB1
    iexact Tib21
  iintro Kib21
  -- chunk 18 of the x-peer has landed: it is copied into the result and relayed to the y-peer
  -- the printed part k0_part76 is opened
  simp only [k0_part76_eq_skeleton]
  unfold k0_part76_skel
  simp only [semSignalWord, semWaitWord, Prog.lift, Prog.bind_op, Prog.bind_ret, Prog.pure_eq_ret, wp_deviceId]
  iapply (wp_wait_dr m K c 18 (credit_ldS 18) (oweD c 20 + oweF c 18) _) $$ [Cdr18 HO Pdr18]
  · isplitr; · (iapply (inv_at m K c (.dr 18)); iexact HR)
    isplitl [Cdr18]; · iexact Cdr18
    isplitl [HO]; · iexact HO
    isplitr; · (iapply (mayWait_dr c 18 20 18 (by decide) (by decide)); iexact Hlev)
    iexact Pdr18
  iintro ⟨HO, Pdr18, -, LD18⟩
  ihave H := (ld_share_split c 18 _).1 $$ [LD18]
  · iexact LD18
  icases H with ⟨LDl18, LDr18⟩
  iapply (wp_lo m K c 18 _) $$ [LDl18 OR18 Tlo18]
  · isplitr; · (iapply (inv_at m K c (.lo 18)); iexact HR)
    isplitr; · (iapply (reached0_at m K c (.lo 18)); iexact HR)
    isplitl [LDl18]; · iexact LDl18
    isplitl [OR18]; · iexact OR18
    iexact Tlo18
  iintro Klo18
  rw [show (oweD c 20 + oweF c 18 : CellTallies nD τ sig Unit) = (oweD c 20 + oweF c 19) + tallyAt (cell (py c) (.fr 18)) () Nout from by rw [oweF_peel c 18 (by decide), ← add_assoc]; rfl]
  iapply (wp_send_f m K c _ (devy_eq c _ _ (k0_dev41_eq c)) 18 _ (oweD c 20 + oweF c 19) _) $$ [LDr18 OP18 HO Tfs18 Tfr18]
  · isplitr; · (iapply (inv_at m K c (.fs 18)); iexact HR)
    isplitr; · (iapply (inv_at m K (py c) (.fr 18)); iexact HR)
    isplitr; · (iapply (reached0_at m K c (.fs 18)); iexact HR)
    isplitr; · (iapply (reached0_at m K (py c) (.fr 18)); iexact HR)
    isplitl [LDr18]; · iexact LDr18
    isplitl [OP18]; · iexact OP18
    isplitl [HO]; · iexact HO
    isplitl [Tfs18]; · iexact Tfs18
    iexact Tfr18
  iintro ⟨Kfs18, HO⟩
  -- chunk 20, half a: its staged rows have landed in slot 0
  iapply (wp_wait_ina m K c 20 (credit_viaS (slot2 20)) (oweD c 20 + oweF c 19) _) $$ [Kia20 HO Pia0]
  · isplitr; · (iapply (inv_at m K c (.ina (slot2 20))); iexact HR)
    isplitl [Kia20]; · iexact Kia20
    isplitl [HO]; · iexact HO
    isplitr; · (iapply (mayWait_own c (.ina (slot2 20)) rfl 20 19); iexact Hlev)
    iexact Pia0
  iintro ⟨HO, Pia0, #Ria20, VA0, XA20⟩
  -- chunk 20, half b: its staged rows have landed in slot 0
  -- the printed part k0_part77 is opened
  simp only [k0_part77_eq_skeleton]
  unfold k0_part77_skel
  simp only [semSignalWord, semWaitWord, Prog.lift, Prog.bind_op, Prog.bind_ret, Prog.pure_eq_ret, wp_deviceId]
  iapply (wp_wait_inb m K c 20 (credit_vibS (slot2 20)) (oweD c 20 + oweF c 19) _) $$ [Kib20 HO Pib0]
  · isplitr; · (iapply (inv_at m K c (.inb (slot2 20))); iexact HR)
    isplitl [Kib20]; · iexact Kib20
    isplitl [HO]; · iexact HO
    isplitr; · (iapply (mayWait_own c (.inb (slot2 20)) rfl 20 19); iexact Hlev)
    iexact Pib0
  iintro ⟨HO, Pib0, #Rib20, VB0, XB20⟩
  -- chunk 17: its local copy of vcast_a has landed
  iapply (wp_wait_lca m K c 17 (credit_oA c 17) (oweD c 20 + oweF c 19) _) $$ [Kla17 HO Pla2]
  · isplitr; · (iapply (inv_at m K c (.lca (slot3 17))); iexact HR)
    isplitl [Kla17]; · iexact Kla17
    isplitl [HO]; · iexact HO
    isplitr; · (iapply (mayWait_own c (.lca (slot3 17)) rfl 20 19); iexact Hlev)
    iexact Pla2
  iintro ⟨HO, Pla2, #Rla17, OA17, CAm2⟩
  -- chunk 17: its local copy of vcast_b has landed
  iapply (wp_wait_lcb m K c 17 (credit_oB c 17) (oweD c 20 + oweF c 19) _) $$ [Klb17 HO Plb2]
  · isplitr; · (iapply (inv_at m K c (.lcb (slot3 17))); iexact HR)
    isplitl [Klb17]; · iexact Klb17
    isplitl [HO]; · iexact HO
    isplitr; · (iapply (mayWait_own c (.lcb (slot3 17)) rfl 20 19); iexact Hlev)
    iexact Plb2
  iintro ⟨HO, Plb2, #Rlb17, OB17, CBm2⟩
  -- chunk 17: its send along x has left the slot
  iapply (wp_wait_ds m K c 17 (credit_vcaPeer c (slot3 17)) (oweD c 20 + oweF c 19) _) $$ [Kds17 HO Pds17]
  · isplitr; · (iapply (inv_at m K c (.ds 17)); iexact HR)
    isplitl [Kds17]; · iexact Kds17
    isplitl [HO]; · iexact HO
    isplitr; · (iapply (mayWait_own c (.ds 17) rfl 20 19); iexact Hlev)
    iexact Pds17
  iintro ⟨HO, Pds17, -, CAp2⟩
  -- slot 2 of both bf16 buffers is whole again
  ihave CA2 := (vca_slot_split c (slot3 17) fullShare _).2 $$ [CAm2 CAp2]
  · isplitl [CAm2]; · iexact CAm2
    iexact CAp2
  ihave CB2 := (vcb_slot_split c (slot3 17) fullShare _).2 $$ [CBm2 CBr2]
  · isplitl [CBm2]; · iexact CBm2
    iexact CBr2
  -- chunk 20, half a: staging slot 0 is loaded, cast and stored into bf16 slot 2
  iapply (wp_load_via c (slot2 20) _ _) $$ [VA0]
  · iexact VA0
  iintro VA0
  iapply (wp_load_vca c (slot3 20) _ _) $$ [CA2]
  · iexact CA2
  iintro CA2
  iapply (wp_store_vca c (slot3 20) _ _) $$ [CA2]
  · iexact CA2
  iintro CA2
  ihave CA2 := (store_vca_at m c 20 _ _ rfl) $$ [CA2]
  · iexact CA2
  -- chunk 20, half b: staging slot 0 is loaded, cast and stored into bf16 slot 2
  iapply (wp_load_vib c (slot2 20) _ _) $$ [VB0]
  · iexact VB0
  iintro VB0
  -- the printed part k0_part78 is opened
  simp only [k0_part78_eq_skeleton]
  unfold k0_part78_skel
  simp only [semSignalWord, semWaitWord, Prog.lift, Prog.bind_op, Prog.bind_ret, Prog.pure_eq_ret, wp_deviceId]
  iapply (wp_load_vcb c (slot3 20) _ _) $$ [CB2]
  · iexact CB2
  iintro CB2
  iapply (wp_store_vcb c (slot3 20) _ _) $$ [CB2]
  · iexact CB2
  iintro CB2
  ihave CB2 := (store_vcb_at m c 20 _ _ rfl) $$ [CB2]
  · iexact CB2
  ihave H := (vca_slot_split c (slot3 20) fullShare _).1 $$ [CA2]
  · iexact CA2
  icases H with ⟨CAm2, CAp2⟩
  ihave H := (vcb_slot_split c (slot3 20) fullShare _).1 $$ [CB2]
  · iexact CB2
  icases H with ⟨CBm2, CBr2⟩
  -- chunk 20, half a: the device's own columns of slot 2 start for the result
  iapply (wp_lca m K c 20 _) $$ [CAm2 OA20 Tla20]
  · isplitr; · (iapply (inv_at m K c (.lca (slot3 20))); iexact HR)
    isplitr; · iexact Rla17
    isplitl [CAm2]; · iexact CAm2
    isplitl [OA20]; · iexact OA20
    iexact Tla20
  iintro Kla20
  -- chunk 20, half b: the device's own columns of slot 2 start for the result
  iapply (wp_lcb m K c 20 _) $$ [CBm2 OB20 Tlb20]
  · isplitr; · (iapply (inv_at m K c (.lcb (slot3 20))); iexact HR)
    isplitr; · iexact Rlb17
    isplitl [CBm2]; · iexact CBm2
    isplitl [OB20]; · iexact OB20
    iexact Tlb20
  iintro Klb20
  -- chunk 20: the x-peer's columns of slot 2 are sent into its landing slot 20
  rw [show (oweD c 20 + oweF c 19 : CellTallies nD τ sig Unit) = (oweD c 21 + oweF c 19) + tallyAt (cell (px c) (.dr 20)) () Nout from by rw [oweD_peel c 20 (by decide), add_right_comm]; rfl]
  -- the printed part k0_part79 is opened
  simp only [k0_part79_eq_skeleton]
  unfold k0_part79_skel
  simp only [semSignalWord, semWaitWord, Prog.lift, Prog.bind_op, Prog.bind_ret, Prog.pure_eq_ret, wp_deviceId]
  iapply (wp_send_d m K c _ (devx_eq c _ _ (k0_dev42_eq c)) 20 _ (oweD c 21 + oweF c 19) _) $$ [CAp2 LP20 HO Tds20 Tdr20]
  · isplitr; · (iapply (inv_at m K c (.ds 20)); iexact HR)
    isplitr; · (iapply (inv_at m K (px c) (.dr 20)); iexact HR)
    isplitr; · (iapply (reached0_at m K c (.ds 20)); iexact HR)
    isplitr; · (iapply (reached0_at m K (px c) (.dr 20)); iexact HR)
    isplitl [CAp2]; · iexact CAp2
    isplitl [LP20]; · iexact LP20
    isplitl [HO]; · iexact HO
    isplitl [Tds20]; · iexact Tds20
    iexact Tdr20
  iintro ⟨Kds20, HO⟩
  -- chunk 22, half a: its rows of x start for staging slot 0
  iapply (wp_stage_a m K c 22 _) $$ [XA22 VA0 Tia22]
  · isplitr; · (iapply (inv_at m K c (.ina (slot2 22))); iexact HR)
    isplitr; · iexact Ria20
    isplitl [XA22]; · iexact XA22
    isplitl [VA0]; · iexact VA0
    iexact Tia22
  iintro Kia22
  -- chunk 22, half b: its rows of x start for staging slot 0
  iapply (wp_stage_b m K c 22 _) $$ [XB22 VB0 Tib22]
  · isplitr; · (iapply (inv_at m K c (.inb (slot2 22))); iexact HR)
    isplitr; · iexact Rib20
    isplitl [XB22]; · iexact XB22
    isplitl [VB0]; · iexact VB0
    iexact Tib22
  iintro Kib22
  -- chunk 19 of the x-peer has landed: it is copied into the result and relayed to the y-peer
  iapply (wp_wait_dr m K c 19 (credit_ldS 19) (oweD c 21 + oweF c 19) _) $$ [Cdr19 HO Pdr19]
  · isplitr; · (iapply (inv_at m K c (.dr 19)); iexact HR)
    isplitl [Cdr19]; · iexact Cdr19
    isplitl [HO]; · iexact HO
    isplitr; · (iapply (mayWait_dr c 19 21 19 (by decide) (by decide)); iexact Hlev)
    iexact Pdr19
  iintro ⟨HO, Pdr19, -, LD19⟩
  ihave H := (ld_share_split c 19 _).1 $$ [LD19]
  · iexact LD19
  icases H with ⟨LDl19, LDr19⟩
  -- the printed part k0_part80 is opened
  simp only [k0_part80_eq_skeleton]
  unfold k0_part80_skel
  simp only [semSignalWord, semWaitWord, Prog.lift, Prog.bind_op, Prog.bind_ret, Prog.pure_eq_ret, wp_deviceId]
  iapply (wp_lo m K c 19 _) $$ [LDl19 OR19 Tlo19]
  · isplitr; · (iapply (inv_at m K c (.lo 19)); iexact HR)
    isplitr; · (iapply (reached0_at m K c (.lo 19)); iexact HR)
    isplitl [LDl19]; · iexact LDl19
    isplitl [OR19]; · iexact OR19
    iexact Tlo19
  iintro Klo19
  rw [show (oweD c 21 + oweF c 19 : CellTallies nD τ sig Unit) = (oweD c 21 + oweF c 20) + tallyAt (cell (py c) (.fr 19)) () Nout from by rw [oweF_peel c 19 (by decide), ← add_assoc]; rfl]
  iapply (wp_send_f m K c _ (devy_eq c _ _ (k0_dev43_eq c)) 19 _ (oweD c 21 + oweF c 20) _) $$ [LDr19 OP19 HO Tfs19 Tfr19]
  · isplitr; · (iapply (inv_at m K c (.fs 19)); iexact HR)
    isplitr; · (iapply (inv_at m K (py c) (.fr 19)); iexact HR)
    isplitr; · (iapply (reached0_at m K c (.fs 19)); iexact HR)
    isplitr; · (iapply (reached0_at m K (py c) (.fr 19)); iexact HR)
    isplitl [LDr19]; · iexact LDr19
    isplitl [OP19]; · iexact OP19
    isplitl [HO]; · iexact HO
    isplitl [Tfs19]; · iexact Tfs19
    iexact Tfr19
  iintro ⟨Kfs19, HO⟩
  -- chunk 21, half a: its staged rows have landed in slot 1
  iapply (wp_wait_ina m K c 21 (credit_viaS (slot2 21)) (oweD c 21 + oweF c 20) _) $$ [Kia21 HO Pia1]
  · isplitr; · (iapply (inv_at m K c (.ina (slot2 21))); iexact HR)
    isplitl [Kia21]; · iexact Kia21
    isplitl [HO]; · iexact HO
    isplitr; · (iapply (mayWait_own c (.ina (slot2 21)) rfl 21 20); iexact Hlev)
    iexact Pia1
  iintro ⟨HO, Pia1, #Ria21, VA1, XA21⟩
  -- chunk 21, half b: its staged rows have landed in slot 1
  iapply (wp_wait_inb m K c 21 (credit_vibS (slot2 21)) (oweD c 21 + oweF c 20) _) $$ [Kib21 HO Pib1]
  · isplitr; · (iapply (inv_at m K c (.inb (slot2 21))); iexact HR)
    isplitl [Kib21]; · iexact Kib21
    isplitl [HO]; · iexact HO
    isplitr; · (iapply (mayWait_own c (.inb (slot2 21)) rfl 21 20); iexact Hlev)
    iexact Pib1
  iintro ⟨HO, Pib1, #Rib21, VB1, XB21⟩
  -- chunk 18: its local copy of vcast_a has landed
  -- the printed part k0_part81 is opened
  simp only [k0_part81_eq_skeleton]
  unfold k0_part81_skel
  simp only [semSignalWord, semWaitWord, Prog.lift, Prog.bind_op, Prog.bind_ret, Prog.pure_eq_ret, wp_deviceId]
  iapply (wp_wait_lca m K c 18 (credit_oA c 18) (oweD c 21 + oweF c 20) _) $$ [Kla18 HO Pla0]
  · isplitr; · (iapply (inv_at m K c (.lca (slot3 18))); iexact HR)
    isplitl [Kla18]; · iexact Kla18
    isplitl [HO]; · iexact HO
    isplitr; · (iapply (mayWait_own c (.lca (slot3 18)) rfl 21 20); iexact Hlev)
    iexact Pla0
  iintro ⟨HO, Pla0, #Rla18, OA18, CAm0⟩
  -- chunk 18: its local copy of vcast_b has landed
  iapply (wp_wait_lcb m K c 18 (credit_oB c 18) (oweD c 21 + oweF c 20) _) $$ [Klb18 HO Plb0]
  · isplitr; · (iapply (inv_at m K c (.lcb (slot3 18))); iexact HR)
    isplitl [Klb18]; · iexact Klb18
    isplitl [HO]; · iexact HO
    isplitr; · (iapply (mayWait_own c (.lcb (slot3 18)) rfl 21 20); iexact Hlev)
    iexact Plb0
  iintro ⟨HO, Plb0, #Rlb18, OB18, CBm0⟩
  -- chunk 18: its send along x has left the slot
  iapply (wp_wait_ds m K c 18 (credit_vcaPeer c (slot3 18)) (oweD c 21 + oweF c 20) _) $$ [Kds18 HO Pds18]
  · isplitr; · (iapply (inv_at m K c (.ds 18)); iexact HR)
    isplitl [Kds18]; · iexact Kds18
    isplitl [HO]; · iexact HO
    isplitr; · (iapply (mayWait_own c (.ds 18) rfl 21 20); iexact Hlev)
    iexact Pds18
  iintro ⟨HO, Pds18, -, CAp0⟩
  -- slot 0 of both bf16 buffers is whole again
  ihave CA0 := (vca_slot_split c (slot3 18) fullShare _).2 $$ [CAm0 CAp0]
  · isplitl [CAm0]; · iexact CAm0
    iexact CAp0
  ihave CB0 := (vcb_slot_split c (slot3 18) fullShare _).2 $$ [CBm0 CBr0]
  · isplitl [CBm0]; · iexact CBm0
    iexact CBr0
  -- chunk 21, half a: staging slot 1 is loaded, cast and stored into bf16 slot 0
  iapply (wp_load_via c (slot2 21) _ _) $$ [VA1]
  · iexact VA1
  iintro VA1
  iapply (wp_load_vca c (slot3 21) _ _) $$ [CA0]
  · iexact CA0
  iintro CA0
  iapply (wp_store_vca c (slot3 21) _ _) $$ [CA0]
  · iexact CA0
  iintro CA0
  ihave CA0 := (store_vca_at m c 21 _ _ rfl) $$ [CA0]
  · iexact CA0
  -- chunk 21, half b: staging slot 1 is loaded, cast and stored into bf16 slot 0
  iapply (wp_load_vib c (slot2 21) _ _) $$ [VB1]
  · iexact VB1
  iintro VB1
  iapply (wp_load_vcb c (slot3 21) _ _) $$ [CB0]
  · iexact CB0
  iintro CB0
  iapply (wp_store_vcb c (slot3 21) _ _) $$ [CB0]
  · iexact CB0
  iintro CB0
  ihave CB0 := (store_vcb_at m c 21 _ _ rfl) $$ [CB0]
  · iexact CB0
  ihave H := (vca_slot_split c (slot3 21) fullShare _).1 $$ [CA0]
  · iexact CA0
  icases H with ⟨CAm0, CAp0⟩
  ihave H := (vcb_slot_split c (slot3 21) fullShare _).1 $$ [CB0]
  · iexact CB0
  icases H with ⟨CBm0, CBr0⟩
  -- chunk 21, half a: the device's own columns of slot 0 start for the result
  -- the printed part k0_part82 is opened
  simp only [k0_part82_eq_skeleton]
  unfold k0_part82_skel
  simp only [semSignalWord, semWaitWord, Prog.lift, Prog.bind_op, Prog.bind_ret, Prog.pure_eq_ret, wp_deviceId]
  iapply (wp_lca m K c 21 _) $$ [CAm0 OA21 Tla21]
  · isplitr; · (iapply (inv_at m K c (.lca (slot3 21))); iexact HR)
    isplitr; · iexact Rla18
    isplitl [CAm0]; · iexact CAm0
    isplitl [OA21]; · iexact OA21
    iexact Tla21
  iintro Kla21
  -- chunk 21, half b: the device's own columns of slot 0 start for the result
  iapply (wp_lcb m K c 21 _) $$ [CBm0 OB21 Tlb21]
  · isplitr; · (iapply (inv_at m K c (.lcb (slot3 21))); iexact HR)
    isplitr; · iexact Rlb18
    isplitl [CBm0]; · iexact CBm0
    isplitl [OB21]; · iexact OB21
    iexact Tlb21
  iintro Klb21
  -- chunk 21: the x-peer's columns of slot 0 are sent into its landing slot 21
  rw [show (oweD c 21 + oweF c 20 : CellTallies nD τ sig Unit) = (oweD c 22 + oweF c 20) + tallyAt (cell (px c) (.dr 21)) () Nout from by rw [oweD_peel c 21 (by decide), add_right_comm]; rfl]
  iapply (wp_send_d m K c _ (devx_eq c _ _ (k0_dev44_eq c)) 21 _ (oweD c 22 + oweF c 20) _) $$ [CAp0 LP21 HO Tds21 Tdr21]
  · isplitr; · (iapply (inv_at m K c (.ds 21)); iexact HR)
    isplitr; · (iapply (inv_at m K (px c) (.dr 21)); iexact HR)
    isplitr; · (iapply (reached0_at m K c (.ds 21)); iexact HR)
    isplitr; · (iapply (reached0_at m K (px c) (.dr 21)); iexact HR)
    isplitl [CAp0]; · iexact CAp0
    isplitl [LP21]; · iexact LP21
    isplitl [HO]; · iexact HO
    isplitl [Tds21]; · iexact Tds21
    iexact Tdr21
  iintro ⟨Kds21, HO⟩
  -- chunk 23, half a: its rows of x start for staging slot 1
  -- the printed part k0_part83 is opened
  simp only [k0_part83_eq_skeleton]
  unfold k0_part83_skel
  simp only [semSignalWord, semWaitWord, Prog.lift, Prog.bind_op, Prog.bind_ret, Prog.pure_eq_ret, wp_deviceId]
  iapply (wp_stage_a m K c 23 _) $$ [XA23 VA1 Tia23]
  · isplitr; · (iapply (inv_at m K c (.ina (slot2 23))); iexact HR)
    isplitr; · iexact Ria21
    isplitl [XA23]; · iexact XA23
    isplitl [VA1]; · iexact VA1
    iexact Tia23
  iintro Kia23
  -- chunk 23, half b: its rows of x start for staging slot 1
  iapply (wp_stage_b m K c 23 _) $$ [XB23 VB1 Tib23]
  · isplitr; · (iapply (inv_at m K c (.inb (slot2 23))); iexact HR)
    isplitr; · iexact Rib21
    isplitl [XB23]; · iexact XB23
    isplitl [VB1]; · iexact VB1
    iexact Tib23
  iintro Kib23
  -- chunk 20 of the x-peer has landed: it is copied into the result and relayed to the y-peer
  iapply (wp_wait_dr m K c 20 (credit_ldS 20) (oweD c 22 + oweF c 20) _) $$ [Cdr20 HO Pdr20]
  · isplitr; · (iapply (inv_at m K c (.dr 20)); iexact HR)
    isplitl [Cdr20]; · iexact Cdr20
    isplitl [HO]; · iexact HO
    isplitr; · (iapply (mayWait_dr c 20 22 20 (by decide) (by decide)); iexact Hlev)
    iexact Pdr20
  iintro ⟨HO, Pdr20, -, LD20⟩
  ihave H := (ld_share_split c 20 _).1 $$ [LD20]
  · iexact LD20
  icases H with ⟨LDl20, LDr20⟩
  -- the printed part k0_part84 is opened
  simp only [k0_part84_eq_skeleton]
  unfold k0_part84_skel
  simp only [semSignalWord, semWaitWord, Prog.lift, Prog.bind_op, Prog.bind_ret, Prog.pure_eq_ret, wp_deviceId]
  iapply (wp_lo m K c 20 _) $$ [LDl20 OR20 Tlo20]
  · isplitr; · (iapply (inv_at m K c (.lo 20)); iexact HR)
    isplitr; · (iapply (reached0_at m K c (.lo 20)); iexact HR)
    isplitl [LDl20]; · iexact LDl20
    isplitl [OR20]; · iexact OR20
    iexact Tlo20
  iintro Klo20
  rw [show (oweD c 22 + oweF c 20 : CellTallies nD τ sig Unit) = (oweD c 22 + oweF c 21) + tallyAt (cell (py c) (.fr 20)) () Nout from by rw [oweF_peel c 20 (by decide), ← add_assoc]; rfl]
  iapply (wp_send_f m K c _ (devy_eq c _ _ (k0_dev45_eq c)) 20 _ (oweD c 22 + oweF c 21) _) $$ [LDr20 OP20 HO Tfs20 Tfr20]
  · isplitr; · (iapply (inv_at m K c (.fs 20)); iexact HR)
    isplitr; · (iapply (inv_at m K (py c) (.fr 20)); iexact HR)
    isplitr; · (iapply (reached0_at m K c (.fs 20)); iexact HR)
    isplitr; · (iapply (reached0_at m K (py c) (.fr 20)); iexact HR)
    isplitl [LDr20]; · iexact LDr20
    isplitl [OP20]; · iexact OP20
    isplitl [HO]; · iexact HO
    isplitl [Tfs20]; · iexact Tfs20
    iexact Tfr20
  iintro ⟨Kfs20, HO⟩
  -- chunk 22, half a: its staged rows have landed in slot 0
  iapply (wp_wait_ina m K c 22 (credit_viaS (slot2 22)) (oweD c 22 + oweF c 21) _) $$ [Kia22 HO Pia0]
  · isplitr; · (iapply (inv_at m K c (.ina (slot2 22))); iexact HR)
    isplitl [Kia22]; · iexact Kia22
    isplitl [HO]; · iexact HO
    isplitr; · (iapply (mayWait_own c (.ina (slot2 22)) rfl 22 21); iexact Hlev)
    iexact Pia0
  iintro ⟨HO, Pia0, #Ria22, VA0, XA22⟩
  -- chunk 22, half b: its staged rows have landed in slot 0
  iapply (wp_wait_inb m K c 22 (credit_vibS (slot2 22)) (oweD c 22 + oweF c 21) _) $$ [Kib22 HO Pib0]
  · isplitr; · (iapply (inv_at m K c (.inb (slot2 22))); iexact HR)
    isplitl [Kib22]; · iexact Kib22
    isplitl [HO]; · iexact HO
    isplitr; · (iapply (mayWait_own c (.inb (slot2 22)) rfl 22 21); iexact Hlev)
    iexact Pib0
  iintro ⟨HO, Pib0, #Rib22, VB0, XB22⟩
  -- chunk 19: its local copy of vcast_a has landed
  iapply (wp_wait_lca m K c 19 (credit_oA c 19) (oweD c 22 + oweF c 21) _) $$ [Kla19 HO Pla1]
  · isplitr; · (iapply (inv_at m K c (.lca (slot3 19))); iexact HR)
    isplitl [Kla19]; · iexact Kla19
    isplitl [HO]; · iexact HO
    isplitr; · (iapply (mayWait_own c (.lca (slot3 19)) rfl 22 21); iexact Hlev)
    iexact Pla1
  iintro ⟨HO, Pla1, #Rla19, OA19, CAm1⟩
  -- chunk 19: its local copy of vcast_b has landed
  -- the printed part k0_part85 is opened
  simp only [k0_part85_eq_skeleton]
  unfold k0_part85_skel
  simp only [semSignalWord, semWaitWord, Prog.lift, Prog.bind_op, Prog.bind_ret, Prog.pure_eq_ret, wp_deviceId]
  iapply (wp_wait_lcb m K c 19 (credit_oB c 19) (oweD c 22 + oweF c 21) _) $$ [Klb19 HO Plb1]
  · isplitr; · (iapply (inv_at m K c (.lcb (slot3 19))); iexact HR)
    isplitl [Klb19]; · iexact Klb19
    isplitl [HO]; · iexact HO
    isplitr; · (iapply (mayWait_own c (.lcb (slot3 19)) rfl 22 21); iexact Hlev)
    iexact Plb1
  iintro ⟨HO, Plb1, #Rlb19, OB19, CBm1⟩
  -- chunk 19: its send along x has left the slot
  iapply (wp_wait_ds m K c 19 (credit_vcaPeer c (slot3 19)) (oweD c 22 + oweF c 21) _) $$ [Kds19 HO Pds19]
  · isplitr; · (iapply (inv_at m K c (.ds 19)); iexact HR)
    isplitl [Kds19]; · iexact Kds19
    isplitl [HO]; · iexact HO
    isplitr; · (iapply (mayWait_own c (.ds 19) rfl 22 21); iexact Hlev)
    iexact Pds19
  iintro ⟨HO, Pds19, -, CAp1⟩
  -- slot 1 of both bf16 buffers is whole again
  ihave CA1 := (vca_slot_split c (slot3 19) fullShare _).2 $$ [CAm1 CAp1]
  · isplitl [CAm1]; · iexact CAm1
    iexact CAp1
  ihave CB1 := (vcb_slot_split c (slot3 19) fullShare _).2 $$ [CBm1 CBr1]
  · isplitl [CBm1]; · iexact CBm1
    iexact CBr1
  -- chunk 22, half a: staging slot 0 is loaded, cast and stored into bf16 slot 1
  iapply (wp_load_via c (slot2 22) _ _) $$ [VA0]
  · iexact VA0
  iintro VA0
  iapply (wp_load_vca c (slot3 22) _ _) $$ [CA1]
  · iexact CA1
  iintro CA1
  iapply (wp_store_vca c (slot3 22) _ _) $$ [CA1]
  · iexact CA1
  iintro CA1
  ihave CA1 := (store_vca_at m c 22 _ _ rfl) $$ [CA1]
  · iexact CA1
  -- chunk 22, half b: staging slot 0 is loaded, cast and stored into bf16 slot 1
  iapply (wp_load_vib c (slot2 22) _ _) $$ [VB0]
  · iexact VB0
  iintro VB0
  iapply (wp_load_vcb c (slot3 22) _ _) $$ [CB1]
  · iexact CB1
  iintro CB1
  iapply (wp_store_vcb c (slot3 22) _ _) $$ [CB1]
  · iexact CB1
  iintro CB1
  ihave CB1 := (store_vcb_at m c 22 _ _ rfl) $$ [CB1]
  · iexact CB1
  ihave H := (vca_slot_split c (slot3 22) fullShare _).1 $$ [CA1]
  · iexact CA1
  icases H with ⟨CAm1, CAp1⟩
  ihave H := (vcb_slot_split c (slot3 22) fullShare _).1 $$ [CB1]
  · iexact CB1
  icases H with ⟨CBm1, CBr1⟩
  -- chunk 22, half a: the device's own columns of slot 1 start for the result
  -- the printed part k0_part86 is opened
  simp only [k0_part86_eq_skeleton]
  unfold k0_part86_skel
  simp only [semSignalWord, semWaitWord, Prog.lift, Prog.bind_op, Prog.bind_ret, Prog.pure_eq_ret, wp_deviceId]
  iapply (wp_lca m K c 22 _) $$ [CAm1 OA22 Tla22]
  · isplitr; · (iapply (inv_at m K c (.lca (slot3 22))); iexact HR)
    isplitr; · iexact Rla19
    isplitl [CAm1]; · iexact CAm1
    isplitl [OA22]; · iexact OA22
    iexact Tla22
  iintro Kla22
  -- chunk 22, half b: the device's own columns of slot 1 start for the result
  iapply (wp_lcb m K c 22 _) $$ [CBm1 OB22 Tlb22]
  · isplitr; · (iapply (inv_at m K c (.lcb (slot3 22))); iexact HR)
    isplitr; · iexact Rlb19
    isplitl [CBm1]; · iexact CBm1
    isplitl [OB22]; · iexact OB22
    iexact Tlb22
  iintro Klb22
  -- chunk 22: the x-peer's columns of slot 1 are sent into its landing slot 22
  rw [show (oweD c 22 + oweF c 21 : CellTallies nD τ sig Unit) = (oweD c 23 + oweF c 21) + tallyAt (cell (px c) (.dr 22)) () Nout from by rw [oweD_peel c 22 (by decide), add_right_comm]; rfl]
  iapply (wp_send_d m K c _ (devx_eq c _ _ (k0_dev46_eq c)) 22 _ (oweD c 23 + oweF c 21) _) $$ [CAp1 LP22 HO Tds22 Tdr22]
  · isplitr; · (iapply (inv_at m K c (.ds 22)); iexact HR)
    isplitr; · (iapply (inv_at m K (px c) (.dr 22)); iexact HR)
    isplitr; · (iapply (reached0_at m K c (.ds 22)); iexact HR)
    isplitr; · (iapply (reached0_at m K (px c) (.dr 22)); iexact HR)
    isplitl [CAp1]; · iexact CAp1
    isplitl [LP22]; · iexact LP22
    isplitl [HO]; · iexact HO
    isplitl [Tds22]; · iexact Tds22
    iexact Tdr22
  iintro ⟨Kds22, HO⟩
  -- chunk 24, half a: its rows of x start for staging slot 0
  -- the printed part k0_part87 is opened
  simp only [k0_part87_eq_skeleton]
  unfold k0_part87_skel
  simp only [semSignalWord, semWaitWord, Prog.lift, Prog.bind_op, Prog.bind_ret, Prog.pure_eq_ret, wp_deviceId]
  iapply (wp_stage_a m K c 24 _) $$ [XA24 VA0 Tia24]
  · isplitr; · (iapply (inv_at m K c (.ina (slot2 24))); iexact HR)
    isplitr; · iexact Ria22
    isplitl [XA24]; · iexact XA24
    isplitl [VA0]; · iexact VA0
    iexact Tia24
  iintro Kia24
  -- chunk 24, half b: its rows of x start for staging slot 0
  iapply (wp_stage_b m K c 24 _) $$ [XB24 VB0 Tib24]
  · isplitr; · (iapply (inv_at m K c (.inb (slot2 24))); iexact HR)
    isplitr; · iexact Rib22
    isplitl [XB24]; · iexact XB24
    isplitl [VB0]; · iexact VB0
    iexact Tib24
  iintro Kib24
  -- chunk 21 of the x-peer has landed: it is copied into the result and relayed to the y-peer
  iapply (wp_wait_dr m K c 21 (credit_ldS 21) (oweD c 23 + oweF c 21) _) $$ [Cdr21 HO Pdr21]
  · isplitr; · (iapply (inv_at m K c (.dr 21)); iexact HR)
    isplitl [Cdr21]; · iexact Cdr21
    isplitl [HO]; · iexact HO
    isplitr; · (iapply (mayWait_dr c 21 23 21 (by decide) (by decide)); iexact Hlev)
    iexact Pdr21
  iintro ⟨HO, Pdr21, -, LD21⟩
  ihave H := (ld_share_split c 21 _).1 $$ [LD21]
  · iexact LD21
  icases H with ⟨LDl21, LDr21⟩
  iapply (wp_lo m K c 21 _) $$ [LDl21 OR21 Tlo21]
  · isplitr; · (iapply (inv_at m K c (.lo 21)); iexact HR)
    isplitr; · (iapply (reached0_at m K c (.lo 21)); iexact HR)
    isplitl [LDl21]; · iexact LDl21
    isplitl [OR21]; · iexact OR21
    iexact Tlo21
  iintro Klo21
  rw [show (oweD c 23 + oweF c 21 : CellTallies nD τ sig Unit) = (oweD c 23 + oweF c 22) + tallyAt (cell (py c) (.fr 21)) () Nout from by rw [oweF_peel c 21 (by decide), ← add_assoc]; rfl]
  -- the printed part k0_part88 is opened
  simp only [k0_part88_eq_skeleton]
  unfold k0_part88_skel
  simp only [semSignalWord, semWaitWord, Prog.lift, Prog.bind_op, Prog.bind_ret, Prog.pure_eq_ret, wp_deviceId]
  iapply (wp_send_f m K c _ (devy_eq c _ _ (k0_dev47_eq c)) 21 _ (oweD c 23 + oweF c 22) _) $$ [LDr21 OP21 HO Tfs21 Tfr21]
  · isplitr; · (iapply (inv_at m K c (.fs 21)); iexact HR)
    isplitr; · (iapply (inv_at m K (py c) (.fr 21)); iexact HR)
    isplitr; · (iapply (reached0_at m K c (.fs 21)); iexact HR)
    isplitr; · (iapply (reached0_at m K (py c) (.fr 21)); iexact HR)
    isplitl [LDr21]; · iexact LDr21
    isplitl [OP21]; · iexact OP21
    isplitl [HO]; · iexact HO
    isplitl [Tfs21]; · iexact Tfs21
    iexact Tfr21
  iintro ⟨Kfs21, HO⟩
  -- chunk 23, half a: its staged rows have landed in slot 1
  iapply (wp_wait_ina m K c 23 (credit_viaS (slot2 23)) (oweD c 23 + oweF c 22) _) $$ [Kia23 HO Pia1]
  · isplitr; · (iapply (inv_at m K c (.ina (slot2 23))); iexact HR)
    isplitl [Kia23]; · iexact Kia23
    isplitl [HO]; · iexact HO
    isplitr; · (iapply (mayWait_own c (.ina (slot2 23)) rfl 23 22); iexact Hlev)
    iexact Pia1
  iintro ⟨HO, Pia1, #Ria23, VA1, XA23⟩
  -- chunk 23, half b: its staged rows have landed in slot 1
  iapply (wp_wait_inb m K c 23 (credit_vibS (slot2 23)) (oweD c 23 + oweF c 22) _) $$ [Kib23 HO Pib1]
  · isplitr; · (iapply (inv_at m K c (.inb (slot2 23))); iexact HR)
    isplitl [Kib23]; · iexact Kib23
    isplitl [HO]; · iexact HO
    isplitr; · (iapply (mayWait_own c (.inb (slot2 23)) rfl 23 22); iexact Hlev)
    iexact Pib1
  iintro ⟨HO, Pib1, #Rib23, VB1, XB23⟩
  -- chunk 20: its local copy of vcast_a has landed
  iapply (wp_wait_lca m K c 20 (credit_oA c 20) (oweD c 23 + oweF c 22) _) $$ [Kla20 HO Pla2]
  · isplitr; · (iapply (inv_at m K c (.lca (slot3 20))); iexact HR)
    isplitl [Kla20]; · iexact Kla20
    isplitl [HO]; · iexact HO
    isplitr; · (iapply (mayWait_own c (.lca (slot3 20)) rfl 23 22); iexact Hlev)
    iexact Pla2
  iintro ⟨HO, Pla2, #Rla20, OA20, CAm2⟩
  -- chunk 20: its local copy of vcast_b has landed
  iapply (wp_wait_lcb m K c 20 (credit_oB c 20) (oweD c 23 + oweF c 22) _) $$ [Klb20 HO Plb2]
  · isplitr; · (iapply (inv_at m K c (.lcb (slot3 20))); iexact HR)
    isplitl [Klb20]; · iexact Klb20
    isplitl [HO]; · iexact HO
    isplitr; · (iapply (mayWait_own c (.lcb (slot3 20)) rfl 23 22); iexact Hlev)
    iexact Plb2
  iintro ⟨HO, Plb2, #Rlb20, OB20, CBm2⟩
  -- chunk 20: its send along x has left the slot
  -- the printed part k0_part89 is opened
  simp only [k0_part89_eq_skeleton]
  unfold k0_part89_skel
  simp only [semSignalWord, semWaitWord, Prog.lift, Prog.bind_op, Prog.bind_ret, Prog.pure_eq_ret, wp_deviceId]
  iapply (wp_wait_ds m K c 20 (credit_vcaPeer c (slot3 20)) (oweD c 23 + oweF c 22) _) $$ [Kds20 HO Pds20]
  · isplitr; · (iapply (inv_at m K c (.ds 20)); iexact HR)
    isplitl [Kds20]; · iexact Kds20
    isplitl [HO]; · iexact HO
    isplitr; · (iapply (mayWait_own c (.ds 20) rfl 23 22); iexact Hlev)
    iexact Pds20
  iintro ⟨HO, Pds20, -, CAp2⟩
  -- slot 2 of both bf16 buffers is whole again
  ihave CA2 := (vca_slot_split c (slot3 20) fullShare _).2 $$ [CAm2 CAp2]
  · isplitl [CAm2]; · iexact CAm2
    iexact CAp2
  ihave CB2 := (vcb_slot_split c (slot3 20) fullShare _).2 $$ [CBm2 CBr2]
  · isplitl [CBm2]; · iexact CBm2
    iexact CBr2
  -- chunk 23, half a: staging slot 1 is loaded, cast and stored into bf16 slot 2
  iapply (wp_load_via c (slot2 23) _ _) $$ [VA1]
  · iexact VA1
  iintro VA1
  iapply (wp_load_vca c (slot3 23) _ _) $$ [CA2]
  · iexact CA2
  iintro CA2
  iapply (wp_store_vca c (slot3 23) _ _) $$ [CA2]
  · iexact CA2
  iintro CA2
  ihave CA2 := (store_vca_at m c 23 _ _ rfl) $$ [CA2]
  · iexact CA2
  -- chunk 23, half b: staging slot 1 is loaded, cast and stored into bf16 slot 2
  iapply (wp_load_vib c (slot2 23) _ _) $$ [VB1]
  · iexact VB1
  iintro VB1
  iapply (wp_load_vcb c (slot3 23) _ _) $$ [CB2]
  · iexact CB2
  iintro CB2
  iapply (wp_store_vcb c (slot3 23) _ _) $$ [CB2]
  · iexact CB2
  iintro CB2
  ihave CB2 := (store_vcb_at m c 23 _ _ rfl) $$ [CB2]
  · iexact CB2
  ihave H := (vca_slot_split c (slot3 23) fullShare _).1 $$ [CA2]
  · iexact CA2
  icases H with ⟨CAm2, CAp2⟩
  ihave H := (vcb_slot_split c (slot3 23) fullShare _).1 $$ [CB2]
  · iexact CB2
  icases H with ⟨CBm2, CBr2⟩
  -- chunk 23, half a: the device's own columns of slot 2 start for the result
  -- the printed part k0_part90 is opened
  simp only [k0_part90_eq_skeleton]
  unfold k0_part90_skel
  simp only [semSignalWord, semWaitWord, Prog.lift, Prog.bind_op, Prog.bind_ret, Prog.pure_eq_ret, wp_deviceId]
  iapply (wp_lca m K c 23 _) $$ [CAm2 OA23 Tla23]
  · isplitr; · (iapply (inv_at m K c (.lca (slot3 23))); iexact HR)
    isplitr; · iexact Rla20
    isplitl [CAm2]; · iexact CAm2
    isplitl [OA23]; · iexact OA23
    iexact Tla23
  iintro Kla23
  -- chunk 23, half b: the device's own columns of slot 2 start for the result
  iapply (wp_lcb m K c 23 _) $$ [CBm2 OB23 Tlb23]
  · isplitr; · (iapply (inv_at m K c (.lcb (slot3 23))); iexact HR)
    isplitr; · iexact Rlb20
    isplitl [CBm2]; · iexact CBm2
    isplitl [OB23]; · iexact OB23
    iexact Tlb23
  iintro Klb23
  -- chunk 23: the x-peer's columns of slot 2 are sent into its landing slot 23
  rw [show (oweD c 23 + oweF c 22 : CellTallies nD τ sig Unit) = (oweD c 24 + oweF c 22) + tallyAt (cell (px c) (.dr 23)) () Nout from by rw [oweD_peel c 23 (by decide), add_right_comm]; rfl]
  iapply (wp_send_d m K c _ (devx_eq c _ _ (k0_dev48_eq c)) 23 _ (oweD c 24 + oweF c 22) _) $$ [CAp2 LP23 HO Tds23 Tdr23]
  · isplitr; · (iapply (inv_at m K c (.ds 23)); iexact HR)
    isplitr; · (iapply (inv_at m K (px c) (.dr 23)); iexact HR)
    isplitr; · (iapply (reached0_at m K c (.ds 23)); iexact HR)
    isplitr; · (iapply (reached0_at m K (px c) (.dr 23)); iexact HR)
    isplitl [CAp2]; · iexact CAp2
    isplitl [LP23]; · iexact LP23
    isplitl [HO]; · iexact HO
    isplitl [Tds23]; · iexact Tds23
    iexact Tdr23
  iintro ⟨Kds23, HO⟩
  -- chunk 25, half a: its rows of x start for staging slot 1
  iapply (wp_stage_a m K c 25 _) $$ [XA25 VA1 Tia25]
  · isplitr; · (iapply (inv_at m K c (.ina (slot2 25))); iexact HR)
    isplitr; · iexact Ria23
    isplitl [XA25]; · iexact XA25
    isplitl [VA1]; · iexact VA1
    iexact Tia25
  iintro Kia25
  -- chunk 25, half b: its rows of x start for staging slot 1
  -- the printed part k0_part91 is opened
  simp only [k0_part91_eq_skeleton]
  unfold k0_part91_skel
  simp only [semSignalWord, semWaitWord, Prog.lift, Prog.bind_op, Prog.bind_ret, Prog.pure_eq_ret, wp_deviceId]
  iapply (wp_stage_b m K c 25 _) $$ [XB25 VB1 Tib25]
  · isplitr; · (iapply (inv_at m K c (.inb (slot2 25))); iexact HR)
    isplitr; · iexact Rib23
    isplitl [XB25]; · iexact XB25
    isplitl [VB1]; · iexact VB1
    iexact Tib25
  iintro Kib25
  -- chunk 22 of the x-peer has landed: it is copied into the result and relayed to the y-peer
  iapply (wp_wait_dr m K c 22 (credit_ldS 22) (oweD c 24 + oweF c 22) _) $$ [Cdr22 HO Pdr22]
  · isplitr; · (iapply (inv_at m K c (.dr 22)); iexact HR)
    isplitl [Cdr22]; · iexact Cdr22
    isplitl [HO]; · iexact HO
    isplitr; · (iapply (mayWait_dr c 22 24 22 (by decide) (by decide)); iexact Hlev)
    iexact Pdr22
  iintro ⟨HO, Pdr22, -, LD22⟩
  ihave H := (ld_share_split c 22 _).1 $$ [LD22]
  · iexact LD22
  icases H with ⟨LDl22, LDr22⟩
  iapply (wp_lo m K c 22 _) $$ [LDl22 OR22 Tlo22]
  · isplitr; · (iapply (inv_at m K c (.lo 22)); iexact HR)
    isplitr; · (iapply (reached0_at m K c (.lo 22)); iexact HR)
    isplitl [LDl22]; · iexact LDl22
    isplitl [OR22]; · iexact OR22
    iexact Tlo22
  iintro Klo22
  rw [show (oweD c 24 + oweF c 22 : CellTallies nD τ sig Unit) = (oweD c 24 + oweF c 23) + tallyAt (cell (py c) (.fr 22)) () Nout from by rw [oweF_peel c 22 (by decide), ← add_assoc]; rfl]
  -- the printed part k0_part92 is opened
  simp only [k0_part92_eq_skeleton]
  unfold k0_part92_skel
  simp only [semSignalWord, semWaitWord, Prog.lift, Prog.bind_op, Prog.bind_ret, Prog.pure_eq_ret, wp_deviceId]
  iapply (wp_send_f m K c _ (devy_eq c _ _ (k0_dev49_eq c)) 22 _ (oweD c 24 + oweF c 23) _) $$ [LDr22 OP22 HO Tfs22 Tfr22]
  · isplitr; · (iapply (inv_at m K c (.fs 22)); iexact HR)
    isplitr; · (iapply (inv_at m K (py c) (.fr 22)); iexact HR)
    isplitr; · (iapply (reached0_at m K c (.fs 22)); iexact HR)
    isplitr; · (iapply (reached0_at m K (py c) (.fr 22)); iexact HR)
    isplitl [LDr22]; · iexact LDr22
    isplitl [OP22]; · iexact OP22
    isplitl [HO]; · iexact HO
    isplitl [Tfs22]; · iexact Tfs22
    iexact Tfr22
  iintro ⟨Kfs22, HO⟩
  -- chunk 24, half a: its staged rows have landed in slot 0
  iapply (wp_wait_ina m K c 24 (credit_viaS (slot2 24)) (oweD c 24 + oweF c 23) _) $$ [Kia24 HO Pia0]
  · isplitr; · (iapply (inv_at m K c (.ina (slot2 24))); iexact HR)
    isplitl [Kia24]; · iexact Kia24
    isplitl [HO]; · iexact HO
    isplitr; · (iapply (mayWait_own c (.ina (slot2 24)) rfl 24 23); iexact Hlev)
    iexact Pia0
  iintro ⟨HO, Pia0, #Ria24, VA0, XA24⟩
  -- chunk 24, half b: its staged rows have landed in slot 0
  iapply (wp_wait_inb m K c 24 (credit_vibS (slot2 24)) (oweD c 24 + oweF c 23) _) $$ [Kib24 HO Pib0]
  · isplitr; · (iapply (inv_at m K c (.inb (slot2 24))); iexact HR)
    isplitl [Kib24]; · iexact Kib24
    isplitl [HO]; · iexact HO
    isplitr; · (iapply (mayWait_own c (.inb (slot2 24)) rfl 24 23); iexact Hlev)
    iexact Pib0
  iintro ⟨HO, Pib0, #Rib24, VB0, XB24⟩
  -- chunk 21: its local copy of vcast_a has landed
  iapply (wp_wait_lca m K c 21 (credit_oA c 21) (oweD c 24 + oweF c 23) _) $$ [Kla21 HO Pla0]
  · isplitr; · (iapply (inv_at m K c (.lca (slot3 21))); iexact HR)
    isplitl [Kla21]; · iexact Kla21
    isplitl [HO]; · iexact HO
    isplitr; · (iapply (mayWait_own c (.lca (slot3 21)) rfl 24 23); iexact Hlev)
    iexact Pla0
  iintro ⟨HO, Pla0, #Rla21, OA21, CAm0⟩
  -- chunk 21: its local copy of vcast_b has landed
  iapply (wp_wait_lcb m K c 21 (credit_oB c 21) (oweD c 24 + oweF c 23) _) $$ [Klb21 HO Plb0]
  · isplitr; · (iapply (inv_at m K c (.lcb (slot3 21))); iexact HR)
    isplitl [Klb21]; · iexact Klb21
    isplitl [HO]; · iexact HO
    isplitr; · (iapply (mayWait_own c (.lcb (slot3 21)) rfl 24 23); iexact Hlev)
    iexact Plb0
  iintro ⟨HO, Plb0, #Rlb21, OB21, CBm0⟩
  -- chunk 21: its send along x has left the slot
  -- the printed part k0_part93 is opened
  simp only [k0_part93_eq_skeleton]
  unfold k0_part93_skel
  simp only [semSignalWord, semWaitWord, Prog.lift, Prog.bind_op, Prog.bind_ret, Prog.pure_eq_ret, wp_deviceId]
  iapply (wp_wait_ds m K c 21 (credit_vcaPeer c (slot3 21)) (oweD c 24 + oweF c 23) _) $$ [Kds21 HO Pds21]
  · isplitr; · (iapply (inv_at m K c (.ds 21)); iexact HR)
    isplitl [Kds21]; · iexact Kds21
    isplitl [HO]; · iexact HO
    isplitr; · (iapply (mayWait_own c (.ds 21) rfl 24 23); iexact Hlev)
    iexact Pds21
  iintro ⟨HO, Pds21, -, CAp0⟩
  -- slot 0 of both bf16 buffers is whole again
  ihave CA0 := (vca_slot_split c (slot3 21) fullShare _).2 $$ [CAm0 CAp0]
  · isplitl [CAm0]; · iexact CAm0
    iexact CAp0
  ihave CB0 := (vcb_slot_split c (slot3 21) fullShare _).2 $$ [CBm0 CBr0]
  · isplitl [CBm0]; · iexact CBm0
    iexact CBr0
  -- chunk 24, half a: staging slot 0 is loaded, cast and stored into bf16 slot 0
  iapply (wp_load_via c (slot2 24) _ _) $$ [VA0]
  · iexact VA0
  iintro VA0
  iapply (wp_load_vca c (slot3 24) _ _) $$ [CA0]
  · iexact CA0
  iintro CA0
  iapply (wp_store_vca c (slot3 24) _ _) $$ [CA0]
  · iexact CA0
  iintro CA0
  ihave CA0 := (store_vca_at m c 24 _ _ rfl) $$ [CA0]
  · iexact CA0
  -- chunk 24, half b: staging slot 0 is loaded, cast and stored into bf16 slot 0
  iapply (wp_load_vib c (slot2 24) _ _) $$ [VB0]
  · iexact VB0
  iintro VB0
  iapply (wp_load_vcb c (slot3 24) _ _) $$ [CB0]
  · iexact CB0
  iintro CB0
  iapply (wp_store_vcb c (slot3 24) _ _) $$ [CB0]
  · iexact CB0
  iintro CB0
  ihave CB0 := (store_vcb_at m c 24 _ _ rfl) $$ [CB0]
  · iexact CB0
  ihave H := (vca_slot_split c (slot3 24) fullShare _).1 $$ [CA0]
  · iexact CA0
  icases H with ⟨CAm0, CAp0⟩
  ihave H := (vcb_slot_split c (slot3 24) fullShare _).1 $$ [CB0]
  · iexact CB0
  icases H with ⟨CBm0, CBr0⟩
  -- chunk 24, half a: the device's own columns of slot 0 start for the result
  iapply (wp_lca m K c 24 _) $$ [CAm0 OA24 Tla24]
  · isplitr; · (iapply (inv_at m K c (.lca (slot3 24))); iexact HR)
    isplitr; · iexact Rla21
    isplitl [CAm0]; · iexact CAm0
    isplitl [OA24]; · iexact OA24
    iexact Tla24
  iintro Kla24
  -- chunk 24, half b: the device's own columns of slot 0 start for the result
  -- the printed part k0_part94 is opened
  simp only [k0_part94_eq_skeleton]
  unfold k0_part94_skel
  simp only [semSignalWord, semWaitWord, Prog.lift, Prog.bind_op, Prog.bind_ret, Prog.pure_eq_ret, wp_deviceId]
  iapply (wp_lcb m K c 24 _) $$ [CBm0 OB24 Tlb24]
  · isplitr; · (iapply (inv_at m K c (.lcb (slot3 24))); iexact HR)
    isplitr; · iexact Rlb21
    isplitl [CBm0]; · iexact CBm0
    isplitl [OB24]; · iexact OB24
    iexact Tlb24
  iintro Klb24
  -- chunk 24: the x-peer's columns of slot 0 are sent into its landing slot 24
  rw [show (oweD c 24 + oweF c 23 : CellTallies nD τ sig Unit) = (oweD c 25 + oweF c 23) + tallyAt (cell (px c) (.dr 24)) () Nout from by rw [oweD_peel c 24 (by decide), add_right_comm]; rfl]
  iapply (wp_send_d m K c _ (devx_eq c _ _ (k0_dev50_eq c)) 24 _ (oweD c 25 + oweF c 23) _) $$ [CAp0 LP24 HO Tds24 Tdr24]
  · isplitr; · (iapply (inv_at m K c (.ds 24)); iexact HR)
    isplitr; · (iapply (inv_at m K (px c) (.dr 24)); iexact HR)
    isplitr; · (iapply (reached0_at m K c (.ds 24)); iexact HR)
    isplitr; · (iapply (reached0_at m K (px c) (.dr 24)); iexact HR)
    isplitl [CAp0]; · iexact CAp0
    isplitl [LP24]; · iexact LP24
    isplitl [HO]; · iexact HO
    isplitl [Tds24]; · iexact Tds24
    iexact Tdr24
  iintro ⟨Kds24, HO⟩
  -- chunk 26, half a: its rows of x start for staging slot 0
  iapply (wp_stage_a m K c 26 _) $$ [XA26 VA0 Tia26]
  · isplitr; · (iapply (inv_at m K c (.ina (slot2 26))); iexact HR)
    isplitr; · iexact Ria24
    isplitl [XA26]; · iexact XA26
    isplitl [VA0]; · iexact VA0
    iexact Tia26
  iintro Kia26
  -- chunk 26, half b: its rows of x start for staging slot 0
  iapply (wp_stage_b m K c 26 _) $$ [XB26 VB0 Tib26]
  · isplitr; · (iapply (inv_at m K c (.inb (slot2 26))); iexact HR)
    isplitr; · iexact Rib24
    isplitl [XB26]; · iexact XB26
    isplitl [VB0]; · iexact VB0
    iexact Tib26
  iintro Kib26
  -- chunk 23 of the x-peer has landed: it is copied into the result and relayed to the y-peer
  -- the printed part k0_part95 is opened
  simp only [k0_part95_eq_skeleton]
  unfold k0_part95_skel
  simp only [semSignalWord, semWaitWord, Prog.lift, Prog.bind_op, Prog.bind_ret, Prog.pure_eq_ret, wp_deviceId]
  iapply (wp_wait_dr m K c 23 (credit_ldS 23) (oweD c 25 + oweF c 23) _) $$ [Cdr23 HO Pdr23]
  · isplitr; · (iapply (inv_at m K c (.dr 23)); iexact HR)
    isplitl [Cdr23]; · iexact Cdr23
    isplitl [HO]; · iexact HO
    isplitr; · (iapply (mayWait_dr c 23 25 23 (by decide) (by decide)); iexact Hlev)
    iexact Pdr23
  iintro ⟨HO, Pdr23, -, LD23⟩
  ihave H := (ld_share_split c 23 _).1 $$ [LD23]
  · iexact LD23
  icases H with ⟨LDl23, LDr23⟩
  iapply (wp_lo m K c 23 _) $$ [LDl23 OR23 Tlo23]
  · isplitr; · (iapply (inv_at m K c (.lo 23)); iexact HR)
    isplitr; · (iapply (reached0_at m K c (.lo 23)); iexact HR)
    isplitl [LDl23]; · iexact LDl23
    isplitl [OR23]; · iexact OR23
    iexact Tlo23
  iintro Klo23
  rw [show (oweD c 25 + oweF c 23 : CellTallies nD τ sig Unit) = (oweD c 25 + oweF c 24) + tallyAt (cell (py c) (.fr 23)) () Nout from by rw [oweF_peel c 23 (by decide), ← add_assoc]; rfl]
  iapply (wp_send_f m K c _ (devy_eq c _ _ (k0_dev51_eq c)) 23 _ (oweD c 25 + oweF c 24) _) $$ [LDr23 OP23 HO Tfs23 Tfr23]
  · isplitr; · (iapply (inv_at m K c (.fs 23)); iexact HR)
    isplitr; · (iapply (inv_at m K (py c) (.fr 23)); iexact HR)
    isplitr; · (iapply (reached0_at m K c (.fs 23)); iexact HR)
    isplitr; · (iapply (reached0_at m K (py c) (.fr 23)); iexact HR)
    isplitl [LDr23]; · iexact LDr23
    isplitl [OP23]; · iexact OP23
    isplitl [HO]; · iexact HO
    isplitl [Tfs23]; · iexact Tfs23
    iexact Tfr23
  iintro ⟨Kfs23, HO⟩
  -- chunk 25, half a: its staged rows have landed in slot 1
  -- the printed part k0_part96 is opened
  simp only [k0_part96_eq_skeleton]
  unfold k0_part96_skel
  simp only [semSignalWord, semWaitWord, Prog.lift, Prog.bind_op, Prog.bind_ret, Prog.pure_eq_ret, wp_deviceId]
  iapply (wp_wait_ina m K c 25 (credit_viaS (slot2 25)) (oweD c 25 + oweF c 24) _) $$ [Kia25 HO Pia1]
  · isplitr; · (iapply (inv_at m K c (.ina (slot2 25))); iexact HR)
    isplitl [Kia25]; · iexact Kia25
    isplitl [HO]; · iexact HO
    isplitr; · (iapply (mayWait_own c (.ina (slot2 25)) rfl 25 24); iexact Hlev)
    iexact Pia1
  iintro ⟨HO, Pia1, #Ria25, VA1, XA25⟩
  -- chunk 25, half b: its staged rows have landed in slot 1
  iapply (wp_wait_inb m K c 25 (credit_vibS (slot2 25)) (oweD c 25 + oweF c 24) _) $$ [Kib25 HO Pib1]
  · isplitr; · (iapply (inv_at m K c (.inb (slot2 25))); iexact HR)
    isplitl [Kib25]; · iexact Kib25
    isplitl [HO]; · iexact HO
    isplitr; · (iapply (mayWait_own c (.inb (slot2 25)) rfl 25 24); iexact Hlev)
    iexact Pib1
  iintro ⟨HO, Pib1, #Rib25, VB1, XB25⟩
  -- chunk 22: its local copy of vcast_a has landed
  iapply (wp_wait_lca m K c 22 (credit_oA c 22) (oweD c 25 + oweF c 24) _) $$ [Kla22 HO Pla1]
  · isplitr; · (iapply (inv_at m K c (.lca (slot3 22))); iexact HR)
    isplitl [Kla22]; · iexact Kla22
    isplitl [HO]; · iexact HO
    isplitr; · (iapply (mayWait_own c (.lca (slot3 22)) rfl 25 24); iexact Hlev)
    iexact Pla1
  iintro ⟨HO, Pla1, #Rla22, OA22, CAm1⟩
  -- chunk 22: its local copy of vcast_b has landed
  iapply (wp_wait_lcb m K c 22 (credit_oB c 22) (oweD c 25 + oweF c 24) _) $$ [Klb22 HO Plb1]
  · isplitr; · (iapply (inv_at m K c (.lcb (slot3 22))); iexact HR)
    isplitl [Klb22]; · iexact Klb22
    isplitl [HO]; · iexact HO
    isplitr; · (iapply (mayWait_own c (.lcb (slot3 22)) rfl 25 24); iexact Hlev)
    iexact Plb1
  iintro ⟨HO, Plb1, #Rlb22, OB22, CBm1⟩
  -- chunk 22: its send along x has left the slot
  iapply (wp_wait_ds m K c 22 (credit_vcaPeer c (slot3 22)) (oweD c 25 + oweF c 24) _) $$ [Kds22 HO Pds22]
  · isplitr; · (iapply (inv_at m K c (.ds 22)); iexact HR)
    isplitl [Kds22]; · iexact Kds22
    isplitl [HO]; · iexact HO
    isplitr; · (iapply (mayWait_own c (.ds 22) rfl 25 24); iexact Hlev)
    iexact Pds22
  iintro ⟨HO, Pds22, -, CAp1⟩
  -- slot 1 of both bf16 buffers is whole again
  ihave CA1 := (vca_slot_split c (slot3 22) fullShare _).2 $$ [CAm1 CAp1]
  · isplitl [CAm1]; · iexact CAm1
    iexact CAp1
  ihave CB1 := (vcb_slot_split c (slot3 22) fullShare _).2 $$ [CBm1 CBr1]
  · isplitl [CBm1]; · iexact CBm1
    iexact CBr1
  -- chunk 25, half a: staging slot 1 is loaded, cast and stored into bf16 slot 1
  -- the printed part k0_part97 is opened
  simp only [k0_part97_eq_skeleton]
  unfold k0_part97_skel
  simp only [semSignalWord, semWaitWord, Prog.lift, Prog.bind_op, Prog.bind_ret, Prog.pure_eq_ret, wp_deviceId]
  iapply (wp_load_via c (slot2 25) _ _) $$ [VA1]
  · iexact VA1
  iintro VA1
  iapply (wp_load_vca c (slot3 25) _ _) $$ [CA1]
  · iexact CA1
  iintro CA1
  iapply (wp_store_vca c (slot3 25) _ _) $$ [CA1]
  · iexact CA1
  iintro CA1
  ihave CA1 := (store_vca_at m c 25 _ _ rfl) $$ [CA1]
  · iexact CA1
  -- chunk 25, half b: staging slot 1 is loaded, cast and stored into bf16 slot 1
  iapply (wp_load_vib c (slot2 25) _ _) $$ [VB1]
  · iexact VB1
  iintro VB1
  iapply (wp_load_vcb c (slot3 25) _ _) $$ [CB1]
  · iexact CB1
  iintro CB1
  iapply (wp_store_vcb c (slot3 25) _ _) $$ [CB1]
  · iexact CB1
  iintro CB1
  ihave CB1 := (store_vcb_at m c 25 _ _ rfl) $$ [CB1]
  · iexact CB1
  ihave H := (vca_slot_split c (slot3 25) fullShare _).1 $$ [CA1]
  · iexact CA1
  icases H with ⟨CAm1, CAp1⟩
  ihave H := (vcb_slot_split c (slot3 25) fullShare _).1 $$ [CB1]
  · iexact CB1
  icases H with ⟨CBm1, CBr1⟩
  -- chunk 25, half a: the device's own columns of slot 1 start for the result
  iapply (wp_lca m K c 25 _) $$ [CAm1 OA25 Tla25]
  · isplitr; · (iapply (inv_at m K c (.lca (slot3 25))); iexact HR)
    isplitr; · iexact Rla22
    isplitl [CAm1]; · iexact CAm1
    isplitl [OA25]; · iexact OA25
    iexact Tla25
  iintro Kla25
  -- chunk 25, half b: the device's own columns of slot 1 start for the result
  iapply (wp_lcb m K c 25 _) $$ [CBm1 OB25 Tlb25]
  · isplitr; · (iapply (inv_at m K c (.lcb (slot3 25))); iexact HR)
    isplitr; · iexact Rlb22
    isplitl [CBm1]; · iexact CBm1
    isplitl [OB25]; · iexact OB25
    iexact Tlb25
  iintro Klb25
  -- chunk 25: the x-peer's columns of slot 1 are sent into its landing slot 25
  rw [show (oweD c 25 + oweF c 24 : CellTallies nD τ sig Unit) = (oweD c 26 + oweF c 24) + tallyAt (cell (px c) (.dr 25)) () Nout from by rw [oweD_peel c 25 (by decide), add_right_comm]; rfl]
  -- the printed part k0_part98 is opened
  simp only [k0_part98_eq_skeleton]
  unfold k0_part98_skel
  simp only [semSignalWord, semWaitWord, Prog.lift, Prog.bind_op, Prog.bind_ret, Prog.pure_eq_ret, wp_deviceId]
  iapply (wp_send_d m K c _ (devx_eq c _ _ (k0_dev52_eq c)) 25 _ (oweD c 26 + oweF c 24) _) $$ [CAp1 LP25 HO Tds25 Tdr25]
  · isplitr; · (iapply (inv_at m K c (.ds 25)); iexact HR)
    isplitr; · (iapply (inv_at m K (px c) (.dr 25)); iexact HR)
    isplitr; · (iapply (reached0_at m K c (.ds 25)); iexact HR)
    isplitr; · (iapply (reached0_at m K (px c) (.dr 25)); iexact HR)
    isplitl [CAp1]; · iexact CAp1
    isplitl [LP25]; · iexact LP25
    isplitl [HO]; · iexact HO
    isplitl [Tds25]; · iexact Tds25
    iexact Tdr25
  iintro ⟨Kds25, HO⟩
  -- chunk 27, half a: its rows of x start for staging slot 1
  iapply (wp_stage_a m K c 27 _) $$ [XA27 VA1 Tia27]
  · isplitr; · (iapply (inv_at m K c (.ina (slot2 27))); iexact HR)
    isplitr; · iexact Ria25
    isplitl [XA27]; · iexact XA27
    isplitl [VA1]; · iexact VA1
    iexact Tia27
  iintro Kia27
  -- chunk 27, half b: its rows of x start for staging slot 1
  iapply (wp_stage_b m K c 27 _) $$ [XB27 VB1 Tib27]
  · isplitr; · (iapply (inv_at m K c (.inb (slot2 27))); iexact HR)
    isplitr; · iexact Rib25
    isplitl [XB27]; · iexact XB27
    isplitl [VB1]; · iexact VB1
    iexact Tib27
  iintro Kib27
  -- chunk 24 of the x-peer has landed: it is copied into the result and relayed to the y-peer
  -- the printed part k0_part99 is opened
  simp only [k0_part99_eq_skeleton]
  unfold k0_part99_skel
  simp only [semSignalWord, semWaitWord, Prog.lift, Prog.bind_op, Prog.bind_ret, Prog.pure_eq_ret, wp_deviceId]
  iapply (wp_wait_dr m K c 24 (credit_ldS 24) (oweD c 26 + oweF c 24) _) $$ [Cdr24 HO Pdr24]
  · isplitr; · (iapply (inv_at m K c (.dr 24)); iexact HR)
    isplitl [Cdr24]; · iexact Cdr24
    isplitl [HO]; · iexact HO
    isplitr; · (iapply (mayWait_dr c 24 26 24 (by decide) (by decide)); iexact Hlev)
    iexact Pdr24
  iintro ⟨HO, Pdr24, -, LD24⟩
  ihave H := (ld_share_split c 24 _).1 $$ [LD24]
  · iexact LD24
  icases H with ⟨LDl24, LDr24⟩
  iapply (wp_lo m K c 24 _) $$ [LDl24 OR24 Tlo24]
  · isplitr; · (iapply (inv_at m K c (.lo 24)); iexact HR)
    isplitr; · (iapply (reached0_at m K c (.lo 24)); iexact HR)
    isplitl [LDl24]; · iexact LDl24
    isplitl [OR24]; · iexact OR24
    iexact Tlo24
  iintro Klo24
  rw [show (oweD c 26 + oweF c 24 : CellTallies nD τ sig Unit) = (oweD c 26 + oweF c 25) + tallyAt (cell (py c) (.fr 24)) () Nout from by rw [oweF_peel c 24 (by decide), ← add_assoc]; rfl]
  iapply (wp_send_f m K c _ (devy_eq c _ _ (k0_dev53_eq c)) 24 _ (oweD c 26 + oweF c 25) _) $$ [LDr24 OP24 HO Tfs24 Tfr24]
  · isplitr; · (iapply (inv_at m K c (.fs 24)); iexact HR)
    isplitr; · (iapply (inv_at m K (py c) (.fr 24)); iexact HR)
    isplitr; · (iapply (reached0_at m K c (.fs 24)); iexact HR)
    isplitr; · (iapply (reached0_at m K (py c) (.fr 24)); iexact HR)
    isplitl [LDr24]; · iexact LDr24
    isplitl [OP24]; · iexact OP24
    isplitl [HO]; · iexact HO
    isplitl [Tfs24]; · iexact Tfs24
    iexact Tfr24
  iintro ⟨Kfs24, HO⟩
  -- chunk 26, half a: its staged rows have landed in slot 0
  -- the printed part k0_part100 is opened
  simp only [k0_part100_eq_skeleton]
  unfold k0_part100_skel
  simp only [semSignalWord, semWaitWord, Prog.lift, Prog.bind_op, Prog.bind_ret, Prog.pure_eq_ret, wp_deviceId]
  iapply (wp_wait_ina m K c 26 (credit_viaS (slot2 26)) (oweD c 26 + oweF c 25) _) $$ [Kia26 HO Pia0]
  · isplitr; · (iapply (inv_at m K c (.ina (slot2 26))); iexact HR)
    isplitl [Kia26]; · iexact Kia26
    isplitl [HO]; · iexact HO
    isplitr; · (iapply (mayWait_own c (.ina (slot2 26)) rfl 26 25); iexact Hlev)
    iexact Pia0
  iintro ⟨HO, Pia0, #Ria26, VA0, XA26⟩
  -- chunk 26, half b: its staged rows have landed in slot 0
  iapply (wp_wait_inb m K c 26 (credit_vibS (slot2 26)) (oweD c 26 + oweF c 25) _) $$ [Kib26 HO Pib0]
  · isplitr; · (iapply (inv_at m K c (.inb (slot2 26))); iexact HR)
    isplitl [Kib26]; · iexact Kib26
    isplitl [HO]; · iexact HO
    isplitr; · (iapply (mayWait_own c (.inb (slot2 26)) rfl 26 25); iexact Hlev)
    iexact Pib0
  iintro ⟨HO, Pib0, #Rib26, VB0, XB26⟩
  -- chunk 23: its local copy of vcast_a has landed
  iapply (wp_wait_lca m K c 23 (credit_oA c 23) (oweD c 26 + oweF c 25) _) $$ [Kla23 HO Pla2]
  · isplitr; · (iapply (inv_at m K c (.lca (slot3 23))); iexact HR)
    isplitl [Kla23]; · iexact Kla23
    isplitl [HO]; · iexact HO
    isplitr; · (iapply (mayWait_own c (.lca (slot3 23)) rfl 26 25); iexact Hlev)
    iexact Pla2
  iintro ⟨HO, Pla2, #Rla23, OA23, CAm2⟩
  -- chunk 23: its local copy of vcast_b has landed
  iapply (wp_wait_lcb m K c 23 (credit_oB c 23) (oweD c 26 + oweF c 25) _) $$ [Klb23 HO Plb2]
  · isplitr; · (iapply (inv_at m K c (.lcb (slot3 23))); iexact HR)
    isplitl [Klb23]; · iexact Klb23
    isplitl [HO]; · iexact HO
    isplitr; · (iapply (mayWait_own c (.lcb (slot3 23)) rfl 26 25); iexact Hlev)
    iexact Plb2
  iintro ⟨HO, Plb2, #Rlb23, OB23, CBm2⟩
  -- chunk 23: its send along x has left the slot
  iapply (wp_wait_ds m K c 23 (credit_vcaPeer c (slot3 23)) (oweD c 26 + oweF c 25) _) $$ [Kds23 HO Pds23]
  · isplitr; · (iapply (inv_at m K c (.ds 23)); iexact HR)
    isplitl [Kds23]; · iexact Kds23
    isplitl [HO]; · iexact HO
    isplitr; · (iapply (mayWait_own c (.ds 23) rfl 26 25); iexact Hlev)
    iexact Pds23
  iintro ⟨HO, Pds23, -, CAp2⟩
  -- slot 2 of both bf16 buffers is whole again
  ihave CA2 := (vca_slot_split c (slot3 23) fullShare _).2 $$ [CAm2 CAp2]
  · isplitl [CAm2]; · iexact CAm2
    iexact CAp2
  ihave CB2 := (vcb_slot_split c (slot3 23) fullShare _).2 $$ [CBm2 CBr2]
  · isplitl [CBm2]; · iexact CBm2
    iexact CBr2
  -- chunk 26, half a: staging slot 0 is loaded, cast and stored into bf16 slot 2
  iapply (wp_load_via c (slot2 26) _ _) $$ [VA0]
  · iexact VA0
  iintro VA0
  iapply (wp_load_vca c (slot3 26) _ _) $$ [CA2]
  · iexact CA2
  iintro CA2
  -- the printed part k0_part101 is opened
  simp only [k0_part101_eq_skeleton]
  unfold k0_part101_skel
  simp only [semSignalWord, semWaitWord, Prog.lift, Prog.bind_op, Prog.bind_ret, Prog.pure_eq_ret, wp_deviceId]
  iapply (wp_store_vca c (slot3 26) _ _) $$ [CA2]
  · iexact CA2
  iintro CA2
  ihave CA2 := (store_vca_at m c 26 _ _ rfl) $$ [CA2]
  · iexact CA2
  -- chunk 26, half b: staging slot 0 is loaded, cast and stored into bf16 slot 2
  iapply (wp_load_vib c (slot2 26) _ _) $$ [VB0]
  · iexact VB0
  iintro VB0
  iapply (wp_load_vcb c (slot3 26) _ _) $$ [CB2]
  · iexact CB2
  iintro CB2
  iapply (wp_store_vcb c (slot3 26) _ _) $$ [CB2]
  · iexact CB2
  iintro CB2
  ihave CB2 := (store_vcb_at m c 26 _ _ rfl) $$ [CB2]
  · iexact CB2
  ihave H := (vca_slot_split c (slot3 26) fullShare _).1 $$ [CA2]
  · iexact CA2
  icases H with ⟨CAm2, CAp2⟩
  ihave H := (vcb_slot_split c (slot3 26) fullShare _).1 $$ [CB2]
  · iexact CB2
  icases H with ⟨CBm2, CBr2⟩
  -- chunk 26, half a: the device's own columns of slot 2 start for the result
  iapply (wp_lca m K c 26 _) $$ [CAm2 OA26 Tla26]
  · isplitr; · (iapply (inv_at m K c (.lca (slot3 26))); iexact HR)
    isplitr; · iexact Rla23
    isplitl [CAm2]; · iexact CAm2
    isplitl [OA26]; · iexact OA26
    iexact Tla26
  iintro Kla26
  -- chunk 26, half b: the device's own columns of slot 2 start for the result
  iapply (wp_lcb m K c 26 _) $$ [CBm2 OB26 Tlb26]
  · isplitr; · (iapply (inv_at m K c (.lcb (slot3 26))); iexact HR)
    isplitr; · iexact Rlb23
    isplitl [CBm2]; · iexact CBm2
    isplitl [OB26]; · iexact OB26
    iexact Tlb26
  iintro Klb26
  -- chunk 26: the x-peer's columns of slot 2 are sent into its landing slot 26
  rw [show (oweD c 26 + oweF c 25 : CellTallies nD τ sig Unit) = (oweD c 27 + oweF c 25) + tallyAt (cell (px c) (.dr 26)) () Nout from by rw [oweD_peel c 26 (by decide), add_right_comm]; rfl]
  -- the printed part k0_part102 is opened
  simp only [k0_part102_eq_skeleton]
  unfold k0_part102_skel
  simp only [semSignalWord, semWaitWord, Prog.lift, Prog.bind_op, Prog.bind_ret, Prog.pure_eq_ret, wp_deviceId]
  iapply (wp_send_d m K c _ (devx_eq c _ _ (k0_dev54_eq c)) 26 _ (oweD c 27 + oweF c 25) _) $$ [CAp2 LP26 HO Tds26 Tdr26]
  · isplitr; · (iapply (inv_at m K c (.ds 26)); iexact HR)
    isplitr; · (iapply (inv_at m K (px c) (.dr 26)); iexact HR)
    isplitr; · (iapply (reached0_at m K c (.ds 26)); iexact HR)
    isplitr; · (iapply (reached0_at m K (px c) (.dr 26)); iexact HR)
    isplitl [CAp2]; · iexact CAp2
    isplitl [LP26]; · iexact LP26
    isplitl [HO]; · iexact HO
    isplitl [Tds26]; · iexact Tds26
    iexact Tdr26
  iintro ⟨Kds26, HO⟩
  -- chunk 28, half a: its rows of x start for staging slot 0
  iapply (wp_stage_a m K c 28 _) $$ [XA28 VA0 Tia28]
  · isplitr; · (iapply (inv_at m K c (.ina (slot2 28))); iexact HR)
    isplitr; · iexact Ria26
    isplitl [XA28]; · iexact XA28
    isplitl [VA0]; · iexact VA0
    iexact Tia28
  iintro Kia28
  -- chunk 28, half b: its rows of x start for staging slot 0
  iapply (wp_stage_b m K c 28 _) $$ [XB28 VB0 Tib28]
  · isplitr; · (iapply (inv_at m K c (.inb (slot2 28))); iexact HR)
    isplitr; · iexact Rib26
    isplitl [XB28]; · iexact XB28
    isplitl [VB0]; · iexact VB0
    iexact Tib28
  iintro Kib28
  -- chunk 25 of the x-peer has landed: it is copied into the result and relayed to the y-peer
  iapply (wp_wait_dr m K c 25 (credit_ldS 25) (oweD c 27 + oweF c 25) _) $$ [Cdr25 HO Pdr25]
  · isplitr; · (iapply (inv_at m K c (.dr 25)); iexact HR)
    isplitl [Cdr25]; · iexact Cdr25
    isplitl [HO]; · iexact HO
    isplitr; · (iapply (mayWait_dr c 25 27 25 (by decide) (by decide)); iexact Hlev)
    iexact Pdr25
  iintro ⟨HO, Pdr25, -, LD25⟩
  ihave H := (ld_share_split c 25 _).1 $$ [LD25]
  · iexact LD25
  icases H with ⟨LDl25, LDr25⟩
  -- the printed part k0_part103 is opened
  simp only [k0_part103_eq_skeleton]
  unfold k0_part103_skel
  simp only [semSignalWord, semWaitWord, Prog.lift, Prog.bind_op, Prog.bind_ret, Prog.pure_eq_ret, wp_deviceId]
  iapply (wp_lo m K c 25 _) $$ [LDl25 OR25 Tlo25]
  · isplitr; · (iapply (inv_at m K c (.lo 25)); iexact HR)
    isplitr; · (iapply (reached0_at m K c (.lo 25)); iexact HR)
    isplitl [LDl25]; · iexact LDl25
    isplitl [OR25]; · iexact OR25
    iexact Tlo25
  iintro Klo25
  rw [show (oweD c 27 + oweF c 25 : CellTallies nD τ sig Unit) = (oweD c 27 + oweF c 26) + tallyAt (cell (py c) (.fr 25)) () Nout from by rw [oweF_peel c 25 (by decide), ← add_assoc]; rfl]
  iapply (wp_send_f m K c _ (devy_eq c _ _ (k0_dev55_eq c)) 25 _ (oweD c 27 + oweF c 26) _) $$ [LDr25 OP25 HO Tfs25 Tfr25]
  · isplitr; · (iapply (inv_at m K c (.fs 25)); iexact HR)
    isplitr; · (iapply (inv_at m K (py c) (.fr 25)); iexact HR)
    isplitr; · (iapply (reached0_at m K c (.fs 25)); iexact HR)
    isplitr; · (iapply (reached0_at m K (py c) (.fr 25)); iexact HR)
    isplitl [LDr25]; · iexact LDr25
    isplitl [OP25]; · iexact OP25
    isplitl [HO]; · iexact HO
    isplitl [Tfs25]; · iexact Tfs25
    iexact Tfr25
  iintro ⟨Kfs25, HO⟩
  -- chunk 27, half a: its staged rows have landed in slot 1
  iapply (wp_wait_ina m K c 27 (credit_viaS (slot2 27)) (oweD c 27 + oweF c 26) _) $$ [Kia27 HO Pia1]
  · isplitr; · (iapply (inv_at m K c (.ina (slot2 27))); iexact HR)
    isplitl [Kia27]; · iexact Kia27
    isplitl [HO]; · iexact HO
    isplitr; · (iapply (mayWait_own c (.ina (slot2 27)) rfl 27 26); iexact Hlev)
    iexact Pia1
  iintro ⟨HO, Pia1, #Ria27, VA1, XA27⟩
  -- chunk 27, half b: its staged rows have landed in slot 1
  -- the printed part k0_part104 is opened
  simp only [k0_part104_eq_skeleton]
  unfold k0_part104_skel
  simp only [semSignalWord, semWaitWord, Prog.lift, Prog.bind_op, Prog.bind_ret, Prog.pure_eq_ret, wp_deviceId]
  iapply (wp_wait_inb m K c 27 (credit_vibS (slot2 27)) (oweD c 27 + oweF c 26) _) $$ [Kib27 HO Pib1]
  · isplitr; · (iapply (inv_at m K c (.inb (slot2 27))); iexact HR)
    isplitl [Kib27]; · iexact Kib27
    isplitl [HO]; · iexact HO
    isplitr; · (iapply (mayWait_own c (.inb (slot2 27)) rfl 27 26); iexact Hlev)
    iexact Pib1
  iintro ⟨HO, Pib1, #Rib27, VB1, XB27⟩
  -- chunk 24: its local copy of vcast_a has landed
  iapply (wp_wait_lca m K c 24 (credit_oA c 24) (oweD c 27 + oweF c 26) _) $$ [Kla24 HO Pla0]
  · isplitr; · (iapply (inv_at m K c (.lca (slot3 24))); iexact HR)
    isplitl [Kla24]; · iexact Kla24
    isplitl [HO]; · iexact HO
    isplitr; · (iapply (mayWait_own c (.lca (slot3 24)) rfl 27 26); iexact Hlev)
    iexact Pla0
  iintro ⟨HO, Pla0, #Rla24, OA24, CAm0⟩
  -- chunk 24: its local copy of vcast_b has landed
  iapply (wp_wait_lcb m K c 24 (credit_oB c 24) (oweD c 27 + oweF c 26) _) $$ [Klb24 HO Plb0]
  · isplitr; · (iapply (inv_at m K c (.lcb (slot3 24))); iexact HR)
    isplitl [Klb24]; · iexact Klb24
    isplitl [HO]; · iexact HO
    isplitr; · (iapply (mayWait_own c (.lcb (slot3 24)) rfl 27 26); iexact Hlev)
    iexact Plb0
  iintro ⟨HO, Plb0, #Rlb24, OB24, CBm0⟩
  -- chunk 24: its send along x has left the slot
  iapply (wp_wait_ds m K c 24 (credit_vcaPeer c (slot3 24)) (oweD c 27 + oweF c 26) _) $$ [Kds24 HO Pds24]
  · isplitr; · (iapply (inv_at m K c (.ds 24)); iexact HR)
    isplitl [Kds24]; · iexact Kds24
    isplitl [HO]; · iexact HO
    isplitr; · (iapply (mayWait_own c (.ds 24) rfl 27 26); iexact Hlev)
    iexact Pds24
  iintro ⟨HO, Pds24, -, CAp0⟩
  -- slot 0 of both bf16 buffers is whole again
  ihave CA0 := (vca_slot_split c (slot3 24) fullShare _).2 $$ [CAm0 CAp0]
  · isplitl [CAm0]; · iexact CAm0
    iexact CAp0
  ihave CB0 := (vcb_slot_split c (slot3 24) fullShare _).2 $$ [CBm0 CBr0]
  · isplitl [CBm0]; · iexact CBm0
    iexact CBr0
  -- chunk 27, half a: staging slot 1 is loaded, cast and stored into bf16 slot 0
  iapply (wp_load_via c (slot2 27) _ _) $$ [VA1]
  · iexact VA1
  iintro VA1
  iapply (wp_load_vca c (slot3 27) _ _) $$ [CA0]
  · iexact CA0
  iintro CA0
  iapply (wp_store_vca c (slot3 27) _ _) $$ [CA0]
  · iexact CA0
  iintro CA0
  ihave CA0 := (store_vca_at m c 27 _ _ rfl) $$ [CA0]
  · iexact CA0
  -- chunk 27, half b: staging slot 1 is loaded, cast and stored into bf16 slot 0
  iapply (wp_load_vib c (slot2 27) _ _) $$ [VB1]
  · iexact VB1
  iintro VB1
  -- the printed part k0_part105 is opened
  simp only [k0_part105_eq_skeleton]
  unfold k0_part105_skel
  simp only [semSignalWord, semWaitWord, Prog.lift, Prog.bind_op, Prog.bind_ret, Prog.pure_eq_ret, wp_deviceId]
  iapply (wp_load_vcb c (slot3 27) _ _) $$ [CB0]
  · iexact CB0
  iintro CB0
  iapply (wp_store_vcb c (slot3 27) _ _) $$ [CB0]
  · iexact CB0
  iintro CB0
  ihave CB0 := (store_vcb_at m c 27 _ _ rfl) $$ [CB0]
  · iexact CB0
  ihave H := (vca_slot_split c (slot3 27) fullShare _).1 $$ [CA0]
  · iexact CA0
  icases H with ⟨CAm0, CAp0⟩
  ihave H := (vcb_slot_split c (slot3 27) fullShare _).1 $$ [CB0]
  · iexact CB0
  icases H with ⟨CBm0, CBr0⟩
  -- chunk 27, half a: the device's own columns of slot 0 start for the result
  iapply (wp_lca m K c 27 _) $$ [CAm0 OA27 Tla27]
  · isplitr; · (iapply (inv_at m K c (.lca (slot3 27))); iexact HR)
    isplitr; · iexact Rla24
    isplitl [CAm0]; · iexact CAm0
    isplitl [OA27]; · iexact OA27
    iexact Tla27
  iintro Kla27
  -- chunk 27, half b: the device's own columns of slot 0 start for the result
  iapply (wp_lcb m K c 27 _) $$ [CBm0 OB27 Tlb27]
  · isplitr; · (iapply (inv_at m K c (.lcb (slot3 27))); iexact HR)
    isplitr; · iexact Rlb24
    isplitl [CBm0]; · iexact CBm0
    isplitl [OB27]; · iexact OB27
    iexact Tlb27
  iintro Klb27
  -- chunk 27: the x-peer's columns of slot 0 are sent into its landing slot 27
  rw [show (oweD c 27 + oweF c 26 : CellTallies nD τ sig Unit) = (oweD c 28 + oweF c 26) + tallyAt (cell (px c) (.dr 27)) () Nout from by rw [oweD_peel c 27 (by decide), add_right_comm]; rfl]
  -- the printed part k0_part106 is opened
  simp only [k0_part106_eq_skeleton]
  unfold k0_part106_skel
  simp only [semSignalWord, semWaitWord, Prog.lift, Prog.bind_op, Prog.bind_ret, Prog.pure_eq_ret, wp_deviceId]
  iapply (wp_send_d m K c _ (devx_eq c _ _ (k0_dev56_eq c)) 27 _ (oweD c 28 + oweF c 26) _) $$ [CAp0 LP27 HO Tds27 Tdr27]
  · isplitr; · (iapply (inv_at m K c (.ds 27)); iexact HR)
    isplitr; · (iapply (inv_at m K (px c) (.dr 27)); iexact HR)
    isplitr; · (iapply (reached0_at m K c (.ds 27)); iexact HR)
    isplitr; · (iapply (reached0_at m K (px c) (.dr 27)); iexact HR)
    isplitl [CAp0]; · iexact CAp0
    isplitl [LP27]; · iexact LP27
    isplitl [HO]; · iexact HO
    isplitl [Tds27]; · iexact Tds27
    iexact Tdr27
  iintro ⟨Kds27, HO⟩
  -- chunk 29, half a: its rows of x start for staging slot 1
  iapply (wp_stage_a m K c 29 _) $$ [XA29 VA1 Tia29]
  · isplitr; · (iapply (inv_at m K c (.ina (slot2 29))); iexact HR)
    isplitr; · iexact Ria27
    isplitl [XA29]; · iexact XA29
    isplitl [VA1]; · iexact VA1
    iexact Tia29
  iintro Kia29
  -- chunk 29, half b: its rows of x start for staging slot 1
  iapply (wp_stage_b m K c 29 _) $$ [XB29 VB1 Tib29]
  · isplitr; · (iapply (inv_at m K c (.inb (slot2 29))); iexact HR)
    isplitr; · iexact Rib27
    isplitl [XB29]; · iexact XB29
    isplitl [VB1]; · iexact VB1
    iexact Tib29
  iintro Kib29
  -- chunk 26 of the x-peer has landed: it is copied into the result and relayed to the y-peer
  iapply (wp_wait_dr m K c 26 (credit_ldS 26) (oweD c 28 + oweF c 26) _) $$ [Cdr26 HO Pdr26]
  · isplitr; · (iapply (inv_at m K c (.dr 26)); iexact HR)
    isplitl [Cdr26]; · iexact Cdr26
    isplitl [HO]; · iexact HO
    isplitr; · (iapply (mayWait_dr c 26 28 26 (by decide) (by decide)); iexact Hlev)
    iexact Pdr26
  iintro ⟨HO, Pdr26, -, LD26⟩
  ihave H := (ld_share_split c 26 _).1 $$ [LD26]
  · iexact LD26
  icases H with ⟨LDl26, LDr26⟩
  -- the printed part k0_part107 is opened
  simp only [k0_part107_eq_skeleton]
  unfold k0_part107_skel
  simp only [semSignalWord, semWaitWord, Prog.lift, Prog.bind_op, Prog.bind_ret, Prog.pure_eq_ret, wp_deviceId]
  iapply (wp_lo m K c 26 _) $$ [LDl26 OR26 Tlo26]
  · isplitr; · (iapply (inv_at m K c (.lo 26)); iexact HR)
    isplitr; · (iapply (reached0_at m K c (.lo 26)); iexact HR)
    isplitl [LDl26]; · iexact LDl26
    isplitl [OR26]; · iexact OR26
    iexact Tlo26
  iintro Klo26
  rw [show (oweD c 28 + oweF c 26 : CellTallies nD τ sig Unit) = (oweD c 28 + oweF c 27) + tallyAt (cell (py c) (.fr 26)) () Nout from by rw [oweF_peel c 26 (by decide), ← add_assoc]; rfl]
  iapply (wp_send_f m K c _ (devy_eq c _ _ (k0_dev57_eq c)) 26 _ (oweD c 28 + oweF c 27) _) $$ [LDr26 OP26 HO Tfs26 Tfr26]
  · isplitr; · (iapply (inv_at m K c (.fs 26)); iexact HR)
    isplitr; · (iapply (inv_at m K (py c) (.fr 26)); iexact HR)
    isplitr; · (iapply (reached0_at m K c (.fs 26)); iexact HR)
    isplitr; · (iapply (reached0_at m K (py c) (.fr 26)); iexact HR)
    isplitl [LDr26]; · iexact LDr26
    isplitl [OP26]; · iexact OP26
    isplitl [HO]; · iexact HO
    isplitl [Tfs26]; · iexact Tfs26
    iexact Tfr26
  iintro ⟨Kfs26, HO⟩
  -- chunk 28, half a: its staged rows have landed in slot 0
  iapply (wp_wait_ina m K c 28 (credit_viaS (slot2 28)) (oweD c 28 + oweF c 27) _) $$ [Kia28 HO Pia0]
  · isplitr; · (iapply (inv_at m K c (.ina (slot2 28))); iexact HR)
    isplitl [Kia28]; · iexact Kia28
    isplitl [HO]; · iexact HO
    isplitr; · (iapply (mayWait_own c (.ina (slot2 28)) rfl 28 27); iexact Hlev)
    iexact Pia0
  iintro ⟨HO, Pia0, #Ria28, VA0, XA28⟩
  -- chunk 28, half b: its staged rows have landed in slot 0
  iapply (wp_wait_inb m K c 28 (credit_vibS (slot2 28)) (oweD c 28 + oweF c 27) _) $$ [Kib28 HO Pib0]
  · isplitr; · (iapply (inv_at m K c (.inb (slot2 28))); iexact HR)
    isplitl [Kib28]; · iexact Kib28
    isplitl [HO]; · iexact HO
    isplitr; · (iapply (mayWait_own c (.inb (slot2 28)) rfl 28 27); iexact Hlev)
    iexact Pib0
  iintro ⟨HO, Pib0, #Rib28, VB0, XB28⟩
  -- chunk 25: its local copy of vcast_a has landed
  -- the printed part k0_part108 is opened
  simp only [k0_part108_eq_skeleton]
  unfold k0_part108_skel
  simp only [semSignalWord, semWaitWord, Prog.lift, Prog.bind_op, Prog.bind_ret, Prog.pure_eq_ret, wp_deviceId]
  iapply (wp_wait_lca m K c 25 (credit_oA c 25) (oweD c 28 + oweF c 27) _) $$ [Kla25 HO Pla1]
  · isplitr; · (iapply (inv_at m K c (.lca (slot3 25))); iexact HR)
    isplitl [Kla25]; · iexact Kla25
    isplitl [HO]; · iexact HO
    isplitr; · (iapply (mayWait_own c (.lca (slot3 25)) rfl 28 27); iexact Hlev)
    iexact Pla1
  iintro ⟨HO, Pla1, #Rla25, OA25, CAm1⟩
  -- chunk 25: its local copy of vcast_b has landed
  iapply (wp_wait_lcb m K c 25 (credit_oB c 25) (oweD c 28 + oweF c 27) _) $$ [Klb25 HO Plb1]
  · isplitr; · (iapply (inv_at m K c (.lcb (slot3 25))); iexact HR)
    isplitl [Klb25]; · iexact Klb25
    isplitl [HO]; · iexact HO
    isplitr; · (iapply (mayWait_own c (.lcb (slot3 25)) rfl 28 27); iexact Hlev)
    iexact Plb1
  iintro ⟨HO, Plb1, #Rlb25, OB25, CBm1⟩
  -- chunk 25: its send along x has left the slot
  iapply (wp_wait_ds m K c 25 (credit_vcaPeer c (slot3 25)) (oweD c 28 + oweF c 27) _) $$ [Kds25 HO Pds25]
  · isplitr; · (iapply (inv_at m K c (.ds 25)); iexact HR)
    isplitl [Kds25]; · iexact Kds25
    isplitl [HO]; · iexact HO
    isplitr; · (iapply (mayWait_own c (.ds 25) rfl 28 27); iexact Hlev)
    iexact Pds25
  iintro ⟨HO, Pds25, -, CAp1⟩
  -- slot 1 of both bf16 buffers is whole again
  ihave CA1 := (vca_slot_split c (slot3 25) fullShare _).2 $$ [CAm1 CAp1]
  · isplitl [CAm1]; · iexact CAm1
    iexact CAp1
  ihave CB1 := (vcb_slot_split c (slot3 25) fullShare _).2 $$ [CBm1 CBr1]
  · isplitl [CBm1]; · iexact CBm1
    iexact CBr1
  -- chunk 28, half a: staging slot 0 is loaded, cast and stored into bf16 slot 1
  iapply (wp_load_via c (slot2 28) _ _) $$ [VA0]
  · iexact VA0
  iintro VA0
  iapply (wp_load_vca c (slot3 28) _ _) $$ [CA1]
  · iexact CA1
  iintro CA1
  iapply (wp_store_vca c (slot3 28) _ _) $$ [CA1]
  · iexact CA1
  iintro CA1
  ihave CA1 := (store_vca_at m c 28 _ _ rfl) $$ [CA1]
  · iexact CA1
  -- chunk 28, half b: staging slot 0 is loaded, cast and stored into bf16 slot 1
  iapply (wp_load_vib c (slot2 28) _ _) $$ [VB0]
  · iexact VB0
  iintro VB0
  iapply (wp_load_vcb c (slot3 28) _ _) $$ [CB1]
  · iexact CB1
  iintro CB1
  iapply (wp_store_vcb c (slot3 28) _ _) $$ [CB1]
  · iexact CB1
  iintro CB1
  ihave CB1 := (store_vcb_at m c 28 _ _ rfl) $$ [CB1]
  · iexact CB1
  ihave H := (vca_slot_split c (slot3 28) fullShare _).1 $$ [CA1]
  · iexact CA1
  icases H with ⟨CAm1, CAp1⟩
  ihave H := (vcb_slot_split c (slot3 28) fullShare _).1 $$ [CB1]
  · iexact CB1
  icases H with ⟨CBm1, CBr1⟩
  -- chunk 28, half a: the device's own columns of slot 1 start for the result
  -- the printed part k0_part109 is opened
  simp only [k0_part109_eq_skeleton]
  unfold k0_part109_skel
  simp only [semSignalWord, semWaitWord, Prog.lift, Prog.bind_op, Prog.bind_ret, Prog.pure_eq_ret, wp_deviceId]
  iapply (wp_lca m K c 28 _) $$ [CAm1 OA28 Tla28]
  · isplitr; · (iapply (inv_at m K c (.lca (slot3 28))); iexact HR)
    isplitr; · iexact Rla25
    isplitl [CAm1]; · iexact CAm1
    isplitl [OA28]; · iexact OA28
    iexact Tla28
  iintro Kla28
  -- chunk 28, half b: the device's own columns of slot 1 start for the result
  iapply (wp_lcb m K c 28 _) $$ [CBm1 OB28 Tlb28]
  · isplitr; · (iapply (inv_at m K c (.lcb (slot3 28))); iexact HR)
    isplitr; · iexact Rlb25
    isplitl [CBm1]; · iexact CBm1
    isplitl [OB28]; · iexact OB28
    iexact Tlb28
  iintro Klb28
  -- chunk 28: the x-peer's columns of slot 1 are sent into its landing slot 28
  rw [show (oweD c 28 + oweF c 27 : CellTallies nD τ sig Unit) = (oweD c 29 + oweF c 27) + tallyAt (cell (px c) (.dr 28)) () Nout from by rw [oweD_peel c 28 (by decide), add_right_comm]; rfl]
  iapply (wp_send_d m K c _ (devx_eq c _ _ (k0_dev58_eq c)) 28 _ (oweD c 29 + oweF c 27) _) $$ [CAp1 LP28 HO Tds28 Tdr28]
  · isplitr; · (iapply (inv_at m K c (.ds 28)); iexact HR)
    isplitr; · (iapply (inv_at m K (px c) (.dr 28)); iexact HR)
    isplitr; · (iapply (reached0_at m K c (.ds 28)); iexact HR)
    isplitr; · (iapply (reached0_at m K (px c) (.dr 28)); iexact HR)
    isplitl [CAp1]; · iexact CAp1
    isplitl [LP28]; · iexact LP28
    isplitl [HO]; · iexact HO
    isplitl [Tds28]; · iexact Tds28
    iexact Tdr28
  iintro ⟨Kds28, HO⟩
  -- chunk 30, half a: its rows of x start for staging slot 0
  -- the printed part k0_part110 is opened
  simp only [k0_part110_eq_skeleton]
  unfold k0_part110_skel
  simp only [semSignalWord, semWaitWord, Prog.lift, Prog.bind_op, Prog.bind_ret, Prog.pure_eq_ret, wp_deviceId]
  iapply (wp_stage_a m K c 30 _) $$ [XA30 VA0 Tia30]
  · isplitr; · (iapply (inv_at m K c (.ina (slot2 30))); iexact HR)
    isplitr; · iexact Ria28
    isplitl [XA30]; · iexact XA30
    isplitl [VA0]; · iexact VA0
    iexact Tia30
  iintro Kia30
  -- chunk 30, half b: its rows of x start for staging slot 0
  iapply (wp_stage_b m K c 30 _) $$ [XB30 VB0 Tib30]
  · isplitr; · (iapply (inv_at m K c (.inb (slot2 30))); iexact HR)
    isplitr; · iexact Rib28
    isplitl [XB30]; · iexact XB30
    isplitl [VB0]; · iexact VB0
    iexact Tib30
  iintro Kib30
  -- chunk 27 of the x-peer has landed: it is copied into the result and relayed to the y-peer
  iapply (wp_wait_dr m K c 27 (credit_ldS 27) (oweD c 29 + oweF c 27) _) $$ [Cdr27 HO Pdr27]
  · isplitr; · (iapply (inv_at m K c (.dr 27)); iexact HR)
    isplitl [Cdr27]; · iexact Cdr27
    isplitl [HO]; · iexact HO
    isplitr; · (iapply (mayWait_dr c 27 29 27 (by decide) (by decide)); iexact Hlev)
    iexact Pdr27
  iintro ⟨HO, Pdr27, -, LD27⟩
  ihave H := (ld_share_split c 27 _).1 $$ [LD27]
  · iexact LD27
  icases H with ⟨LDl27, LDr27⟩
  iapply (wp_lo m K c 27 _) $$ [LDl27 OR27 Tlo27]
  · isplitr; · (iapply (inv_at m K c (.lo 27)); iexact HR)
    isplitr; · (iapply (reached0_at m K c (.lo 27)); iexact HR)
    isplitl [LDl27]; · iexact LDl27
    isplitl [OR27]; · iexact OR27
    iexact Tlo27
  iintro Klo27
  rw [show (oweD c 29 + oweF c 27 : CellTallies nD τ sig Unit) = (oweD c 29 + oweF c 28) + tallyAt (cell (py c) (.fr 27)) () Nout from by rw [oweF_peel c 27 (by decide), ← add_assoc]; rfl]
  -- the printed part k0_part111 is opened
  simp only [k0_part111_eq_skeleton]
  unfold k0_part111_skel
  simp only [semSignalWord, semWaitWord, Prog.lift, Prog.bind_op, Prog.bind_ret, Prog.pure_eq_ret, wp_deviceId]
  iapply (wp_send_f m K c _ (devy_eq c _ _ (k0_dev59_eq c)) 27 _ (oweD c 29 + oweF c 28) _) $$ [LDr27 OP27 HO Tfs27 Tfr27]
  · isplitr; · (iapply (inv_at m K c (.fs 27)); iexact HR)
    isplitr; · (iapply (inv_at m K (py c) (.fr 27)); iexact HR)
    isplitr; · (iapply (reached0_at m K c (.fs 27)); iexact HR)
    isplitr; · (iapply (reached0_at m K (py c) (.fr 27)); iexact HR)
    isplitl [LDr27]; · iexact LDr27
    isplitl [OP27]; · iexact OP27
    isplitl [HO]; · iexact HO
    isplitl [Tfs27]; · iexact Tfs27
    iexact Tfr27
  iintro ⟨Kfs27, HO⟩
  -- chunk 29, half a: its staged rows have landed in slot 1
  iapply (wp_wait_ina m K c 29 (credit_viaS (slot2 29)) (oweD c 29 + oweF c 28) _) $$ [Kia29 HO Pia1]
  · isplitr; · (iapply (inv_at m K c (.ina (slot2 29))); iexact HR)
    isplitl [Kia29]; · iexact Kia29
    isplitl [HO]; · iexact HO
    isplitr; · (iapply (mayWait_own c (.ina (slot2 29)) rfl 29 28); iexact Hlev)
    iexact Pia1
  iintro ⟨HO, Pia1, #Ria29, VA1, XA29⟩
  -- chunk 29, half b: its staged rows have landed in slot 1
  iapply (wp_wait_inb m K c 29 (credit_vibS (slot2 29)) (oweD c 29 + oweF c 28) _) $$ [Kib29 HO Pib1]
  · isplitr; · (iapply (inv_at m K c (.inb (slot2 29))); iexact HR)
    isplitl [Kib29]; · iexact Kib29
    isplitl [HO]; · iexact HO
    isplitr; · (iapply (mayWait_own c (.inb (slot2 29)) rfl 29 28); iexact Hlev)
    iexact Pib1
  iintro ⟨HO, Pib1, #Rib29, VB1, XB29⟩
  -- chunk 26: its local copy of vcast_a has landed
  iapply (wp_wait_lca m K c 26 (credit_oA c 26) (oweD c 29 + oweF c 28) _) $$ [Kla26 HO Pla2]
  · isplitr; · (iapply (inv_at m K c (.lca (slot3 26))); iexact HR)
    isplitl [Kla26]; · iexact Kla26
    isplitl [HO]; · iexact HO
    isplitr; · (iapply (mayWait_own c (.lca (slot3 26)) rfl 29 28); iexact Hlev)
    iexact Pla2
  iintro ⟨HO, Pla2, #Rla26, OA26, CAm2⟩
  -- chunk 26: its local copy of vcast_b has landed
  -- the printed part k0_part112 is opened
  simp only [k0_part112_eq_skeleton]
  unfold k0_part112_skel
  simp only [semSignalWord, semWaitWord, Prog.lift, Prog.bind_op, Prog.bind_ret, Prog.pure_eq_ret, wp_deviceId]
  iapply (wp_wait_lcb m K c 26 (credit_oB c 26) (oweD c 29 + oweF c 28) _) $$ [Klb26 HO Plb2]
  · isplitr; · (iapply (inv_at m K c (.lcb (slot3 26))); iexact HR)
    isplitl [Klb26]; · iexact Klb26
    isplitl [HO]; · iexact HO
    isplitr; · (iapply (mayWait_own c (.lcb (slot3 26)) rfl 29 28); iexact Hlev)
    iexact Plb2
  iintro ⟨HO, Plb2, #Rlb26, OB26, CBm2⟩
  -- chunk 26: its send along x has left the slot
  iapply (wp_wait_ds m K c 26 (credit_vcaPeer c (slot3 26)) (oweD c 29 + oweF c 28) _) $$ [Kds26 HO Pds26]
  · isplitr; · (iapply (inv_at m K c (.ds 26)); iexact HR)
    isplitl [Kds26]; · iexact Kds26
    isplitl [HO]; · iexact HO
    isplitr; · (iapply (mayWait_own c (.ds 26) rfl 29 28); iexact Hlev)
    iexact Pds26
  iintro ⟨HO, Pds26, -, CAp2⟩
  -- slot 2 of both bf16 buffers is whole again
  ihave CA2 := (vca_slot_split c (slot3 26) fullShare _).2 $$ [CAm2 CAp2]
  · isplitl [CAm2]; · iexact CAm2
    iexact CAp2
  ihave CB2 := (vcb_slot_split c (slot3 26) fullShare _).2 $$ [CBm2 CBr2]
  · isplitl [CBm2]; · iexact CBm2
    iexact CBr2
  -- chunk 29, half a: staging slot 1 is loaded, cast and stored into bf16 slot 2
  iapply (wp_load_via c (slot2 29) _ _) $$ [VA1]
  · iexact VA1
  iintro VA1
  iapply (wp_load_vca c (slot3 29) _ _) $$ [CA2]
  · iexact CA2
  iintro CA2
  iapply (wp_store_vca c (slot3 29) _ _) $$ [CA2]
  · iexact CA2
  iintro CA2
  ihave CA2 := (store_vca_at m c 29 _ _ rfl) $$ [CA2]
  · iexact CA2
  -- chunk 29, half b: staging slot 1 is loaded, cast and stored into bf16 slot 2
  iapply (wp_load_vib c (slot2 29) _ _) $$ [VB1]
  · iexact VB1
  iintro VB1
  iapply (wp_load_vcb c (slot3 29) _ _) $$ [CB2]
  · iexact CB2
  iintro CB2
  iapply (wp_store_vcb c (slot3 29) _ _) $$ [CB2]
  · iexact CB2
  iintro CB2
  ihave CB2 := (store_vcb_at m c 29 _ _ rfl) $$ [CB2]
  · iexact CB2
  ihave H := (vca_slot_split c (slot3 29) fullShare _).1 $$ [CA2]
  · iexact CA2
  icases H with ⟨CAm2, CAp2⟩
  ihave H := (vcb_slot_split c (slot3 29) fullShare _).1 $$ [CB2]
  · iexact CB2
  icases H with ⟨CBm2, CBr2⟩
  -- chunk 29, half a: the device's own columns of slot 2 start for the result
  -- the printed part k0_part113 is opened
  simp only [k0_part113_eq_skeleton]
  unfold k0_part113_skel
  simp only [semSignalWord, semWaitWord, Prog.lift, Prog.bind_op, Prog.bind_ret, Prog.pure_eq_ret, wp_deviceId]
  iapply (wp_lca m K c 29 _) $$ [CAm2 OA29 Tla29]
  · isplitr; · (iapply (inv_at m K c (.lca (slot3 29))); iexact HR)
    isplitr; · iexact Rla26
    isplitl [CAm2]; · iexact CAm2
    isplitl [OA29]; · iexact OA29
    iexact Tla29
  iintro Kla29
  -- chunk 29, half b: the device's own columns of slot 2 start for the result
  iapply (wp_lcb m K c 29 _) $$ [CBm2 OB29 Tlb29]
  · isplitr; · (iapply (inv_at m K c (.lcb (slot3 29))); iexact HR)
    isplitr; · iexact Rlb26
    isplitl [CBm2]; · iexact CBm2
    isplitl [OB29]; · iexact OB29
    iexact Tlb29
  iintro Klb29
  -- chunk 29: the x-peer's columns of slot 2 are sent into its landing slot 29
  rw [show (oweD c 29 + oweF c 28 : CellTallies nD τ sig Unit) = (oweD c 30 + oweF c 28) + tallyAt (cell (px c) (.dr 29)) () Nout from by rw [oweD_peel c 29 (by decide), add_right_comm]; rfl]
  iapply (wp_send_d m K c _ (devx_eq c _ _ (k0_dev60_eq c)) 29 _ (oweD c 30 + oweF c 28) _) $$ [CAp2 LP29 HO Tds29 Tdr29]
  · isplitr; · (iapply (inv_at m K c (.ds 29)); iexact HR)
    isplitr; · (iapply (inv_at m K (px c) (.dr 29)); iexact HR)
    isplitr; · (iapply (reached0_at m K c (.ds 29)); iexact HR)
    isplitr; · (iapply (reached0_at m K (px c) (.dr 29)); iexact HR)
    isplitl [CAp2]; · iexact CAp2
    isplitl [LP29]; · iexact LP29
    isplitl [HO]; · iexact HO
    isplitl [Tds29]; · iexact Tds29
    iexact Tdr29
  iintro ⟨Kds29, HO⟩
  -- chunk 31, half a: its rows of x start for staging slot 1
  -- the printed part k0_part114 is opened
  simp only [k0_part114_eq_skeleton]
  unfold k0_part114_skel
  simp only [semSignalWord, semWaitWord, Prog.lift, Prog.bind_op, Prog.bind_ret, Prog.pure_eq_ret, wp_deviceId]
  iapply (wp_stage_a m K c 31 _) $$ [XA31 VA1 Tia31]
  · isplitr; · (iapply (inv_at m K c (.ina (slot2 31))); iexact HR)
    isplitr; · iexact Ria29
    isplitl [XA31]; · iexact XA31
    isplitl [VA1]; · iexact VA1
    iexact Tia31
  iintro Kia31
  -- chunk 31, half b: its rows of x start for staging slot 1
  iapply (wp_stage_b m K c 31 _) $$ [XB31 VB1 Tib31]
  · isplitr; · (iapply (inv_at m K c (.inb (slot2 31))); iexact HR)
    isplitr; · iexact Rib29
    isplitl [XB31]; · iexact XB31
    isplitl [VB1]; · iexact VB1
    iexact Tib31
  iintro Kib31
  -- chunk 28 of the x-peer has landed: it is copied into the result and relayed to the y-peer
  iapply (wp_wait_dr m K c 28 (credit_ldS 28) (oweD c 30 + oweF c 28) _) $$ [Cdr28 HO Pdr28]
  · isplitr; · (iapply (inv_at m K c (.dr 28)); iexact HR)
    isplitl [Cdr28]; · iexact Cdr28
    isplitl [HO]; · iexact HO
    isplitr; · (iapply (mayWait_dr c 28 30 28 (by decide) (by decide)); iexact Hlev)
    iexact Pdr28
  iintro ⟨HO, Pdr28, -, LD28⟩
  ihave H := (ld_share_split c 28 _).1 $$ [LD28]
  · iexact LD28
  icases H with ⟨LDl28, LDr28⟩
  iapply (wp_lo m K c 28 _) $$ [LDl28 OR28 Tlo28]
  · isplitr; · (iapply (inv_at m K c (.lo 28)); iexact HR)
    isplitr; · (iapply (reached0_at m K c (.lo 28)); iexact HR)
    isplitl [LDl28]; · iexact LDl28
    isplitl [OR28]; · iexact OR28
    iexact Tlo28
  iintro Klo28
  rw [show (oweD c 30 + oweF c 28 : CellTallies nD τ sig Unit) = (oweD c 30 + oweF c 29) + tallyAt (cell (py c) (.fr 28)) () Nout from by rw [oweF_peel c 28 (by decide), ← add_assoc]; rfl]
  -- the printed part k0_part115 is opened
  simp only [k0_part115_eq_skeleton]
  unfold k0_part115_skel
  simp only [semSignalWord, semWaitWord, Prog.lift, Prog.bind_op, Prog.bind_ret, Prog.pure_eq_ret, wp_deviceId]
  iapply (wp_send_f m K c _ (devy_eq c _ _ (k0_dev61_eq c)) 28 _ (oweD c 30 + oweF c 29) _) $$ [LDr28 OP28 HO Tfs28 Tfr28]
  · isplitr; · (iapply (inv_at m K c (.fs 28)); iexact HR)
    isplitr; · (iapply (inv_at m K (py c) (.fr 28)); iexact HR)
    isplitr; · (iapply (reached0_at m K c (.fs 28)); iexact HR)
    isplitr; · (iapply (reached0_at m K (py c) (.fr 28)); iexact HR)
    isplitl [LDr28]; · iexact LDr28
    isplitl [OP28]; · iexact OP28
    isplitl [HO]; · iexact HO
    isplitl [Tfs28]; · iexact Tfs28
    iexact Tfr28
  iintro ⟨Kfs28, HO⟩
  -- chunk 30, half a: its staged rows have landed in slot 0
  iapply (wp_wait_ina m K c 30 (credit_viaS (slot2 30)) (oweD c 30 + oweF c 29) _) $$ [Kia30 HO Pia0]
  · isplitr; · (iapply (inv_at m K c (.ina (slot2 30))); iexact HR)
    isplitl [Kia30]; · iexact Kia30
    isplitl [HO]; · iexact HO
    isplitr; · (iapply (mayWait_own c (.ina (slot2 30)) rfl 30 29); iexact Hlev)
    iexact Pia0
  iintro ⟨HO, Pia0, #Ria30, VA0, XA30⟩
  -- chunk 30, half b: its staged rows have landed in slot 0
  iapply (wp_wait_inb m K c 30 (credit_vibS (slot2 30)) (oweD c 30 + oweF c 29) _) $$ [Kib30 HO Pib0]
  · isplitr; · (iapply (inv_at m K c (.inb (slot2 30))); iexact HR)
    isplitl [Kib30]; · iexact Kib30
    isplitl [HO]; · iexact HO
    isplitr; · (iapply (mayWait_own c (.inb (slot2 30)) rfl 30 29); iexact Hlev)
    iexact Pib0
  iintro ⟨HO, Pib0, #Rib30, VB0, XB30⟩
  -- chunk 27: its local copy of vcast_a has landed
  iapply (wp_wait_lca m K c 27 (credit_oA c 27) (oweD c 30 + oweF c 29) _) $$ [Kla27 HO Pla0]
  · isplitr; · (iapply (inv_at m K c (.lca (slot3 27))); iexact HR)
    isplitl [Kla27]; · iexact Kla27
    isplitl [HO]; · iexact HO
    isplitr; · (iapply (mayWait_own c (.lca (slot3 27)) rfl 30 29); iexact Hlev)
    iexact Pla0
  iintro ⟨HO, Pla0, #Rla27, OA27, CAm0⟩
  -- chunk 27: its local copy of vcast_b has landed
  iapply (wp_wait_lcb m K c 27 (credit_oB c 27) (oweD c 30 + oweF c 29) _) $$ [Klb27 HO Plb0]
  · isplitr; · (iapply (inv_at m K c (.lcb (slot3 27))); iexact HR)
    isplitl [Klb27]; · iexact Klb27
    isplitl [HO]; · iexact HO
    isplitr; · (iapply (mayWait_own c (.lcb (slot3 27)) rfl 30 29); iexact Hlev)
    iexact Plb0
  iintro ⟨HO, Plb0, #Rlb27, OB27, CBm0⟩
  -- chunk 27: its send along x has left the slot
  -- the printed part k0_part116 is opened
  simp only [k0_part116_eq_skeleton]
  unfold k0_part116_skel
  simp only [semSignalWord, semWaitWord, Prog.lift, Prog.bind_op, Prog.bind_ret, Prog.pure_eq_ret, wp_deviceId]
  iapply (wp_wait_ds m K c 27 (credit_vcaPeer c (slot3 27)) (oweD c 30 + oweF c 29) _) $$ [Kds27 HO Pds27]
  · isplitr; · (iapply (inv_at m K c (.ds 27)); iexact HR)
    isplitl [Kds27]; · iexact Kds27
    isplitl [HO]; · iexact HO
    isplitr; · (iapply (mayWait_own c (.ds 27) rfl 30 29); iexact Hlev)
    iexact Pds27
  iintro ⟨HO, Pds27, -, CAp0⟩
  -- slot 0 of both bf16 buffers is whole again
  ihave CA0 := (vca_slot_split c (slot3 27) fullShare _).2 $$ [CAm0 CAp0]
  · isplitl [CAm0]; · iexact CAm0
    iexact CAp0
  ihave CB0 := (vcb_slot_split c (slot3 27) fullShare _).2 $$ [CBm0 CBr0]
  · isplitl [CBm0]; · iexact CBm0
    iexact CBr0
  -- chunk 30, half a: staging slot 0 is loaded, cast and stored into bf16 slot 0
  iapply (wp_load_via c (slot2 30) _ _) $$ [VA0]
  · iexact VA0
  iintro VA0
  iapply (wp_load_vca c (slot3 30) _ _) $$ [CA0]
  · iexact CA0
  iintro CA0
  iapply (wp_store_vca c (slot3 30) _ _) $$ [CA0]
  · iexact CA0
  iintro CA0
  ihave CA0 := (store_vca_at m c 30 _ _ rfl) $$ [CA0]
  · iexact CA0
  -- chunk 30, half b: staging slot 0 is loaded, cast and stored into bf16 slot 0
  iapply (wp_load_vib c (slot2 30) _ _) $$ [VB0]
  · iexact VB0
  iintro VB0
  iapply (wp_load_vcb c (slot3 30) _ _) $$ [CB0]
  · iexact CB0
  iintro CB0
  iapply (wp_store_vcb c (slot3 30) _ _) $$ [CB0]
  · iexact CB0
  iintro CB0
  ihave CB0 := (store_vcb_at m c 30 _ _ rfl) $$ [CB0]
  · iexact CB0
  ihave H := (vca_slot_split c (slot3 30) fullShare _).1 $$ [CA0]
  · iexact CA0
  icases H with ⟨CAm0, CAp0⟩
  ihave H := (vcb_slot_split c (slot3 30) fullShare _).1 $$ [CB0]
  · iexact CB0
  icases H with ⟨CBm0, CBr0⟩
  -- chunk 30, half a: the device's own columns of slot 0 start for the result
  -- the printed part k0_part117 is opened
  simp only [k0_part117_eq_skeleton]
  unfold k0_part117_skel
  simp only [semSignalWord, semWaitWord, Prog.lift, Prog.bind_op, Prog.bind_ret, Prog.pure_eq_ret, wp_deviceId]
  iapply (wp_lca m K c 30 _) $$ [CAm0 OA30 Tla30]
  · isplitr; · (iapply (inv_at m K c (.lca (slot3 30))); iexact HR)
    isplitr; · iexact Rla27
    isplitl [CAm0]; · iexact CAm0
    isplitl [OA30]; · iexact OA30
    iexact Tla30
  iintro Kla30
  -- chunk 30, half b: the device's own columns of slot 0 start for the result
  iapply (wp_lcb m K c 30 _) $$ [CBm0 OB30 Tlb30]
  · isplitr; · (iapply (inv_at m K c (.lcb (slot3 30))); iexact HR)
    isplitr; · iexact Rlb27
    isplitl [CBm0]; · iexact CBm0
    isplitl [OB30]; · iexact OB30
    iexact Tlb30
  iintro Klb30
  -- chunk 30: the x-peer's columns of slot 0 are sent into its landing slot 30
  rw [show (oweD c 30 + oweF c 29 : CellTallies nD τ sig Unit) = (oweD c 31 + oweF c 29) + tallyAt (cell (px c) (.dr 30)) () Nout from by rw [oweD_peel c 30 (by decide), add_right_comm]; rfl]
  iapply (wp_send_d m K c _ (devx_eq c _ _ (k0_dev62_eq c)) 30 _ (oweD c 31 + oweF c 29) _) $$ [CAp0 LP30 HO Tds30 Tdr30]
  · isplitr; · (iapply (inv_at m K c (.ds 30)); iexact HR)
    isplitr; · (iapply (inv_at m K (px c) (.dr 30)); iexact HR)
    isplitr; · (iapply (reached0_at m K c (.ds 30)); iexact HR)
    isplitr; · (iapply (reached0_at m K (px c) (.dr 30)); iexact HR)
    isplitl [CAp0]; · iexact CAp0
    isplitl [LP30]; · iexact LP30
    isplitl [HO]; · iexact HO
    isplitl [Tds30]; · iexact Tds30
    iexact Tdr30
  iintro ⟨Kds30, HO⟩
  -- chunk 29 of the x-peer has landed: it is copied into the result and relayed to the y-peer
  iapply (wp_wait_dr m K c 29 (credit_ldS 29) (oweD c 31 + oweF c 29) _) $$ [Cdr29 HO Pdr29]
  · isplitr; · (iapply (inv_at m K c (.dr 29)); iexact HR)
    isplitl [Cdr29]; · iexact Cdr29
    isplitl [HO]; · iexact HO
    isplitr; · (iapply (mayWait_dr c 29 31 29 (by decide) (by decide)); iexact Hlev)
    iexact Pdr29
  iintro ⟨HO, Pdr29, -, LD29⟩
  ihave H := (ld_share_split c 29 _).1 $$ [LD29]
  · iexact LD29
  icases H with ⟨LDl29, LDr29⟩
  -- the printed part k0_part118 is opened
  simp only [k0_part118_eq_skeleton]
  unfold k0_part118_skel
  simp only [semSignalWord, semWaitWord, Prog.lift, Prog.bind_op, Prog.bind_ret, Prog.pure_eq_ret, wp_deviceId]
  iapply (wp_lo m K c 29 _) $$ [LDl29 OR29 Tlo29]
  · isplitr; · (iapply (inv_at m K c (.lo 29)); iexact HR)
    isplitr; · (iapply (reached0_at m K c (.lo 29)); iexact HR)
    isplitl [LDl29]; · iexact LDl29
    isplitl [OR29]; · iexact OR29
    iexact Tlo29
  iintro Klo29
  rw [show (oweD c 31 + oweF c 29 : CellTallies nD τ sig Unit) = (oweD c 31 + oweF c 30) + tallyAt (cell (py c) (.fr 29)) () Nout from by rw [oweF_peel c 29 (by decide), ← add_assoc]; rfl]
  iapply (wp_send_f m K c _ (devy_eq c _ _ (k0_dev63_eq c)) 29 _ (oweD c 31 + oweF c 30) _) $$ [LDr29 OP29 HO Tfs29 Tfr29]
  · isplitr; · (iapply (inv_at m K c (.fs 29)); iexact HR)
    isplitr; · (iapply (inv_at m K (py c) (.fr 29)); iexact HR)
    isplitr; · (iapply (reached0_at m K c (.fs 29)); iexact HR)
    isplitr; · (iapply (reached0_at m K (py c) (.fr 29)); iexact HR)
    isplitl [LDr29]; · iexact LDr29
    isplitl [OP29]; · iexact OP29
    isplitl [HO]; · iexact HO
    isplitl [Tfs29]; · iexact Tfs29
    iexact Tfr29
  iintro ⟨Kfs29, HO⟩
  -- chunk 31, half a: its staged rows have landed in slot 1
  iapply (wp_wait_ina m K c 31 (credit_viaS (slot2 31)) (oweD c 31 + oweF c 30) _) $$ [Kia31 HO Pia1]
  · isplitr; · (iapply (inv_at m K c (.ina (slot2 31))); iexact HR)
    isplitl [Kia31]; · iexact Kia31
    isplitl [HO]; · iexact HO
    isplitr; · (iapply (mayWait_own c (.ina (slot2 31)) rfl 31 30); iexact Hlev)
    iexact Pia1
  iintro ⟨HO, Pia1, #Ria31, VA1, XA31⟩
  -- chunk 31, half b: its staged rows have landed in slot 1
  -- the printed part k0_part119 is opened
  simp only [k0_part119_eq_skeleton]
  unfold k0_part119_skel
  simp only [semSignalWord, semWaitWord, Prog.lift, Prog.bind_op, Prog.bind_ret, Prog.pure_eq_ret, wp_deviceId]
  iapply (wp_wait_inb m K c 31 (credit_vibS (slot2 31)) (oweD c 31 + oweF c 30) _) $$ [Kib31 HO Pib1]
  · isplitr; · (iapply (inv_at m K c (.inb (slot2 31))); iexact HR)
    isplitl [Kib31]; · iexact Kib31
    isplitl [HO]; · iexact HO
    isplitr; · (iapply (mayWait_own c (.inb (slot2 31)) rfl 31 30); iexact Hlev)
    iexact Pib1
  iintro ⟨HO, Pib1, #Rib31, VB1, XB31⟩
  -- chunk 28: its local copy of vcast_a has landed
  iapply (wp_wait_lca m K c 28 (credit_oA c 28) (oweD c 31 + oweF c 30) _) $$ [Kla28 HO Pla1]
  · isplitr; · (iapply (inv_at m K c (.lca (slot3 28))); iexact HR)
    isplitl [Kla28]; · iexact Kla28
    isplitl [HO]; · iexact HO
    isplitr; · (iapply (mayWait_own c (.lca (slot3 28)) rfl 31 30); iexact Hlev)
    iexact Pla1
  iintro ⟨HO, Pla1, #Rla28, OA28, CAm1⟩
  -- chunk 28: its local copy of vcast_b has landed
  iapply (wp_wait_lcb m K c 28 (credit_oB c 28) (oweD c 31 + oweF c 30) _) $$ [Klb28 HO Plb1]
  · isplitr; · (iapply (inv_at m K c (.lcb (slot3 28))); iexact HR)
    isplitl [Klb28]; · iexact Klb28
    isplitl [HO]; · iexact HO
    isplitr; · (iapply (mayWait_own c (.lcb (slot3 28)) rfl 31 30); iexact Hlev)
    iexact Plb1
  iintro ⟨HO, Plb1, #Rlb28, OB28, CBm1⟩
  -- chunk 28: its send along x has left the slot
  iapply (wp_wait_ds m K c 28 (credit_vcaPeer c (slot3 28)) (oweD c 31 + oweF c 30) _) $$ [Kds28 HO Pds28]
  · isplitr; · (iapply (inv_at m K c (.ds 28)); iexact HR)
    isplitl [Kds28]; · iexact Kds28
    isplitl [HO]; · iexact HO
    isplitr; · (iapply (mayWait_own c (.ds 28) rfl 31 30); iexact Hlev)
    iexact Pds28
  iintro ⟨HO, Pds28, -, CAp1⟩
  -- slot 1 of both bf16 buffers is whole again
  ihave CA1 := (vca_slot_split c (slot3 28) fullShare _).2 $$ [CAm1 CAp1]
  · isplitl [CAm1]; · iexact CAm1
    iexact CAp1
  ihave CB1 := (vcb_slot_split c (slot3 28) fullShare _).2 $$ [CBm1 CBr1]
  · isplitl [CBm1]; · iexact CBm1
    iexact CBr1
  -- chunk 31, half a: staging slot 1 is loaded, cast and stored into bf16 slot 1
  iapply (wp_load_via c (slot2 31) _ _) $$ [VA1]
  · iexact VA1
  iintro VA1
  iapply (wp_load_vca c (slot3 31) _ _) $$ [CA1]
  · iexact CA1
  iintro CA1
  iapply (wp_store_vca c (slot3 31) _ _) $$ [CA1]
  · iexact CA1
  iintro CA1
  ihave CA1 := (store_vca_at m c 31 _ _ rfl) $$ [CA1]
  · iexact CA1
  -- chunk 31, half b: staging slot 1 is loaded, cast and stored into bf16 slot 1
  iapply (wp_load_vib c (slot2 31) _ _) $$ [VB1]
  · iexact VB1
  iintro VB1
  iapply (wp_load_vcb c (slot3 31) _ _) $$ [CB1]
  · iexact CB1
  iintro CB1
  -- the printed part k0_part120 is opened
  simp only [k0_part120_eq_skeleton]
  unfold k0_part120_skel
  simp only [semSignalWord, semWaitWord, Prog.lift, Prog.bind_op, Prog.bind_ret, Prog.pure_eq_ret, wp_deviceId]
  iapply (wp_store_vcb c (slot3 31) _ _) $$ [CB1]
  · iexact CB1
  iintro CB1
  ihave CB1 := (store_vcb_at m c 31 _ _ rfl) $$ [CB1]
  · iexact CB1
  ihave H := (vca_slot_split c (slot3 31) fullShare _).1 $$ [CA1]
  · iexact CA1
  icases H with ⟨CAm1, CAp1⟩
  ihave H := (vcb_slot_split c (slot3 31) fullShare _).1 $$ [CB1]
  · iexact CB1
  icases H with ⟨CBm1, CBr1⟩
  -- chunk 31, half a: the device's own columns of slot 1 start for the result
  iapply (wp_lca m K c 31 _) $$ [CAm1 OA31 Tla31]
  · isplitr; · (iapply (inv_at m K c (.lca (slot3 31))); iexact HR)
    isplitr; · iexact Rla28
    isplitl [CAm1]; · iexact CAm1
    isplitl [OA31]; · iexact OA31
    iexact Tla31
  iintro Kla31
  -- chunk 31, half b: the device's own columns of slot 1 start for the result
  iapply (wp_lcb m K c 31 _) $$ [CBm1 OB31 Tlb31]
  · isplitr; · (iapply (inv_at m K c (.lcb (slot3 31))); iexact HR)
    isplitr; · iexact Rlb28
    isplitl [CBm1]; · iexact CBm1
    isplitl [OB31]; · iexact OB31
    iexact Tlb31
  iintro Klb31
  -- chunk 31: the x-peer's columns of slot 1 are sent into its landing slot 31
  rw [show (oweD c 31 + oweF c 30 : CellTallies nD τ sig Unit) = (oweD c 32 + oweF c 30) + tallyAt (cell (px c) (.dr 31)) () Nout from by rw [oweD_peel c 31 (by decide), add_right_comm]; rfl]
  -- the printed part k0_part149 is opened
  simp only [k0_part149_eq_skeleton]
  unfold k0_part149_skel
  simp only [semSignalWord, semWaitWord, Prog.lift, Prog.bind_op, Prog.bind_ret, Prog.pure_eq_ret, wp_deviceId]
  -- the printed part k0_part121 is opened
  simp only [k0_part121_eq_skeleton]
  unfold k0_part121_skel
  simp only [semSignalWord, semWaitWord, Prog.lift, Prog.bind_op, Prog.bind_ret, Prog.pure_eq_ret, wp_deviceId]
  iapply (wp_send_d m K c _ (devx_eq c _ _ (k0_dev64_eq c)) 31 _ (oweD c 32 + oweF c 30) _) $$ [CAp1 LP31 HO Tds31 Tdr31]
  · isplitr; · (iapply (inv_at m K c (.ds 31)); iexact HR)
    isplitr; · (iapply (inv_at m K (px c) (.dr 31)); iexact HR)
    isplitr; · (iapply (reached0_at m K c (.ds 31)); iexact HR)
    isplitr; · (iapply (reached0_at m K (px c) (.dr 31)); iexact HR)
    isplitl [CAp1]; · iexact CAp1
    isplitl [LP31]; · iexact LP31
    isplitl [HO]; · iexact HO
    isplitl [Tds31]; · iexact Tds31
    iexact Tdr31
  iintro ⟨Kds31, HO⟩
  -- chunk 30 of the x-peer has landed: it is copied into the result and relayed to the y-peer
  iapply (wp_wait_dr m K c 30 (credit_ldS 30) (oweD c 32 + oweF c 30) _) $$ [Cdr30 HO Pdr30]
  · isplitr; · (iapply (inv_at m K c (.dr 30)); iexact HR)
    isplitl [Cdr30]; · iexact Cdr30
    isplitl [HO]; · iexact HO
    isplitr; · (iapply (mayWait_dr c 30 32 30 (by decide) (by decide)); iexact Hlev)
    iexact Pdr30
  iintro ⟨HO, Pdr30, -, LD30⟩
  ihave H := (ld_share_split c 30 _).1 $$ [LD30]
  · iexact LD30
  icases H with ⟨LDl30, LDr30⟩
  iapply (wp_lo m K c 30 _) $$ [LDl30 OR30 Tlo30]
  · isplitr; · (iapply (inv_at m K c (.lo 30)); iexact HR)
    isplitr; · (iapply (reached0_at m K c (.lo 30)); iexact HR)
    isplitl [LDl30]; · iexact LDl30
    isplitl [OR30]; · iexact OR30
    iexact Tlo30
  iintro Klo30
  rw [show (oweD c 32 + oweF c 30 : CellTallies nD τ sig Unit) = (oweD c 32 + oweF c 31) + tallyAt (cell (py c) (.fr 30)) () Nout from by rw [oweF_peel c 30 (by decide), ← add_assoc]; rfl]
  -- the printed part k0_part122 is opened
  simp only [k0_part122_eq_skeleton]
  unfold k0_part122_skel
  simp only [semSignalWord, semWaitWord, Prog.lift, Prog.bind_op, Prog.bind_ret, Prog.pure_eq_ret, wp_deviceId]
  iapply (wp_send_f m K c _ (devy_eq c _ _ (k0_dev65_eq c)) 30 _ (oweD c 32 + oweF c 31) _) $$ [LDr30 OP30 HO Tfs30 Tfr30]
  · isplitr; · (iapply (inv_at m K c (.fs 30)); iexact HR)
    isplitr; · (iapply (inv_at m K (py c) (.fr 30)); iexact HR)
    isplitr; · (iapply (reached0_at m K c (.fs 30)); iexact HR)
    isplitr; · (iapply (reached0_at m K (py c) (.fr 30)); iexact HR)
    isplitl [LDr30]; · iexact LDr30
    isplitl [OP30]; · iexact OP30
    isplitl [HO]; · iexact HO
    isplitl [Tfs30]; · iexact Tfs30
    iexact Tfr30
  iintro ⟨Kfs30, HO⟩
  -- chunk 31 of the x-peer has landed: it is copied into the result and relayed to the y-peer
  iapply (wp_wait_dr m K c 31 (credit_ldS 31) (oweD c 32 + oweF c 31) _) $$ [Cdr31 HO Pdr31]
  · isplitr; · (iapply (inv_at m K c (.dr 31)); iexact HR)
    isplitl [Cdr31]; · iexact Cdr31
    isplitl [HO]; · iexact HO
    isplitr; · (iapply (mayWait_dr c 31 32 31 (by decide) (by decide)); iexact Hlev)
    iexact Pdr31
  iintro ⟨HO, Pdr31, -, LD31⟩
  ihave H := (ld_share_split c 31 _).1 $$ [LD31]
  · iexact LD31
  icases H with ⟨LDl31, LDr31⟩
  iapply (wp_lo m K c 31 _) $$ [LDl31 OR31 Tlo31]
  · isplitr; · (iapply (inv_at m K c (.lo 31)); iexact HR)
    isplitr; · (iapply (reached0_at m K c (.lo 31)); iexact HR)
    isplitl [LDl31]; · iexact LDl31
    isplitl [OR31]; · iexact OR31
    iexact Tlo31
  iintro Klo31
  rw [show (oweD c 32 + oweF c 31 : CellTallies nD τ sig Unit) = (oweD c 32 + oweF c 32) + tallyAt (cell (py c) (.fr 31)) () Nout from by rw [oweF_peel c 31 (by decide), ← add_assoc]; rfl]
  -- the printed part k0_part123 is opened
  simp only [k0_part123_eq_skeleton]
  unfold k0_part123_skel
  simp only [semSignalWord, semWaitWord, Prog.lift, Prog.bind_op, Prog.bind_ret, Prog.pure_eq_ret, wp_deviceId]
  iapply (wp_send_f m K c _ (devy_eq c _ _ (k0_dev66_eq c)) 31 _ (oweD c 32 + oweF c 32) _) $$ [LDr31 OP31 HO Tfs31 Tfr31]
  · isplitr; · (iapply (inv_at m K c (.fs 31)); iexact HR)
    isplitr; · (iapply (inv_at m K (py c) (.fr 31)); iexact HR)
    isplitr; · (iapply (reached0_at m K c (.fs 31)); iexact HR)
    isplitr; · (iapply (reached0_at m K (py c) (.fr 31)); iexact HR)
    isplitl [LDr31]; · iexact LDr31
    isplitl [OP31]; · iexact OP31
    isplitl [HO]; · iexact HO
    isplitl [Tfs31]; · iexact Tfs31
    iexact Tfr31
  iintro ⟨Kfs31, HO⟩
  -- the y-peer's relay of chunk 0 has landed in the result
  iapply (wp_wait_fr m K c 0 (credit_oR c 0) (oweD c 32 + oweF c 32) _) $$ [Cfr0 HO Pfr0]
  · isplitr; · (iapply (inv_at m K c (.fr 0)); iexact HR)
    isplitl [Cfr0]; · iexact Cfr0
    isplitl [HO]; · iexact HO
    isplitr; · (iapply (mayWait_fr c 0 32 32 (by decide) (by decide)); iexact Hlev)
    iexact Pfr0
  iintro ⟨HO, Pfr0, -, OF0⟩
  -- the y-peer's relay of chunk 1 has landed in the result
  iapply (wp_wait_fr m K c 1 (credit_oR c 1) (oweD c 32 + oweF c 32) _) $$ [Cfr1 HO Pfr1]
  · isplitr; · (iapply (inv_at m K c (.fr 1)); iexact HR)
    isplitl [Cfr1]; · iexact Cfr1
    isplitl [HO]; · iexact HO
    isplitr; · (iapply (mayWait_fr c 1 32 32 (by decide) (by decide)); iexact Hlev)
    iexact Pfr1
  iintro ⟨HO, Pfr1, -, OF1⟩
  -- the y-peer's relay of chunk 2 has landed in the result
  -- the printed part k0_part124 is opened
  simp only [k0_part124_eq_skeleton]
  unfold k0_part124_skel
  simp only [semSignalWord, semWaitWord, Prog.lift, Prog.bind_op, Prog.bind_ret, Prog.pure_eq_ret, wp_deviceId]
  iapply (wp_wait_fr m K c 2 (credit_oR c 2) (oweD c 32 + oweF c 32) _) $$ [Cfr2 HO Pfr2]
  · isplitr; · (iapply (inv_at m K c (.fr 2)); iexact HR)
    isplitl [Cfr2]; · iexact Cfr2
    isplitl [HO]; · iexact HO
    isplitr; · (iapply (mayWait_fr c 2 32 32 (by decide) (by decide)); iexact Hlev)
    iexact Pfr2
  iintro ⟨HO, Pfr2, -, OF2⟩
  -- the y-peer's relay of chunk 3 has landed in the result
  iapply (wp_wait_fr m K c 3 (credit_oR c 3) (oweD c 32 + oweF c 32) _) $$ [Cfr3 HO Pfr3]
  · isplitr; · (iapply (inv_at m K c (.fr 3)); iexact HR)
    isplitl [Cfr3]; · iexact Cfr3
    isplitl [HO]; · iexact HO
    isplitr; · (iapply (mayWait_fr c 3 32 32 (by decide) (by decide)); iexact Hlev)
    iexact Pfr3
  iintro ⟨HO, Pfr3, -, OF3⟩
  -- the y-peer's relay of chunk 4 has landed in the result
  iapply (wp_wait_fr m K c 4 (credit_oR c 4) (oweD c 32 + oweF c 32) _) $$ [Cfr4 HO Pfr4]
  · isplitr; · (iapply (inv_at m K c (.fr 4)); iexact HR)
    isplitl [Cfr4]; · iexact Cfr4
    isplitl [HO]; · iexact HO
    isplitr; · (iapply (mayWait_fr c 4 32 32 (by decide) (by decide)); iexact Hlev)
    iexact Pfr4
  iintro ⟨HO, Pfr4, -, OF4⟩
  -- the y-peer's relay of chunk 5 has landed in the result
  -- the printed part k0_part125 is opened
  simp only [k0_part125_eq_skeleton]
  unfold k0_part125_skel
  simp only [semSignalWord, semWaitWord, Prog.lift, Prog.bind_op, Prog.bind_ret, Prog.pure_eq_ret, wp_deviceId]
  iapply (wp_wait_fr m K c 5 (credit_oR c 5) (oweD c 32 + oweF c 32) _) $$ [Cfr5 HO Pfr5]
  · isplitr; · (iapply (inv_at m K c (.fr 5)); iexact HR)
    isplitl [Cfr5]; · iexact Cfr5
    isplitl [HO]; · iexact HO
    isplitr; · (iapply (mayWait_fr c 5 32 32 (by decide) (by decide)); iexact Hlev)
    iexact Pfr5
  iintro ⟨HO, Pfr5, -, OF5⟩
  -- the y-peer's relay of chunk 6 has landed in the result
  iapply (wp_wait_fr m K c 6 (credit_oR c 6) (oweD c 32 + oweF c 32) _) $$ [Cfr6 HO Pfr6]
  · isplitr; · (iapply (inv_at m K c (.fr 6)); iexact HR)
    isplitl [Cfr6]; · iexact Cfr6
    isplitl [HO]; · iexact HO
    isplitr; · (iapply (mayWait_fr c 6 32 32 (by decide) (by decide)); iexact Hlev)
    iexact Pfr6
  iintro ⟨HO, Pfr6, -, OF6⟩
  -- the y-peer's relay of chunk 7 has landed in the result
  iapply (wp_wait_fr m K c 7 (credit_oR c 7) (oweD c 32 + oweF c 32) _) $$ [Cfr7 HO Pfr7]
  · isplitr; · (iapply (inv_at m K c (.fr 7)); iexact HR)
    isplitl [Cfr7]; · iexact Cfr7
    isplitl [HO]; · iexact HO
    isplitr; · (iapply (mayWait_fr c 7 32 32 (by decide) (by decide)); iexact Hlev)
    iexact Pfr7
  iintro ⟨HO, Pfr7, -, OF7⟩
  -- the y-peer's relay of chunk 8 has landed in the result
  iapply (wp_wait_fr m K c 8 (credit_oR c 8) (oweD c 32 + oweF c 32) _) $$ [Cfr8 HO Pfr8]
  · isplitr; · (iapply (inv_at m K c (.fr 8)); iexact HR)
    isplitl [Cfr8]; · iexact Cfr8
    isplitl [HO]; · iexact HO
    isplitr; · (iapply (mayWait_fr c 8 32 32 (by decide) (by decide)); iexact Hlev)
    iexact Pfr8
  iintro ⟨HO, Pfr8, -, OF8⟩
  -- the y-peer's relay of chunk 9 has landed in the result
  -- the printed part k0_part126 is opened
  simp only [k0_part126_eq_skeleton]
  unfold k0_part126_skel
  simp only [semSignalWord, semWaitWord, Prog.lift, Prog.bind_op, Prog.bind_ret, Prog.pure_eq_ret, wp_deviceId]
  iapply (wp_wait_fr m K c 9 (credit_oR c 9) (oweD c 32 + oweF c 32) _) $$ [Cfr9 HO Pfr9]
  · isplitr; · (iapply (inv_at m K c (.fr 9)); iexact HR)
    isplitl [Cfr9]; · iexact Cfr9
    isplitl [HO]; · iexact HO
    isplitr; · (iapply (mayWait_fr c 9 32 32 (by decide) (by decide)); iexact Hlev)
    iexact Pfr9
  iintro ⟨HO, Pfr9, -, OF9⟩
  -- the y-peer's relay of chunk 10 has landed in the result
  iapply (wp_wait_fr m K c 10 (credit_oR c 10) (oweD c 32 + oweF c 32) _) $$ [Cfr10 HO Pfr10]
  · isplitr; · (iapply (inv_at m K c (.fr 10)); iexact HR)
    isplitl [Cfr10]; · iexact Cfr10
    isplitl [HO]; · iexact HO
    isplitr; · (iapply (mayWait_fr c 10 32 32 (by decide) (by decide)); iexact Hlev)
    iexact Pfr10
  iintro ⟨HO, Pfr10, -, OF10⟩
  -- the y-peer's relay of chunk 11 has landed in the result
  iapply (wp_wait_fr m K c 11 (credit_oR c 11) (oweD c 32 + oweF c 32) _) $$ [Cfr11 HO Pfr11]
  · isplitr; · (iapply (inv_at m K c (.fr 11)); iexact HR)
    isplitl [Cfr11]; · iexact Cfr11
    isplitl [HO]; · iexact HO
    isplitr; · (iapply (mayWait_fr c 11 32 32 (by decide) (by decide)); iexact Hlev)
    iexact Pfr11
  iintro ⟨HO, Pfr11, -, OF11⟩
  -- the y-peer's relay of chunk 12 has landed in the result
  -- the printed part k0_part127 is opened
  simp only [k0_part127_eq_skeleton]
  unfold k0_part127_skel
  simp only [semSignalWord, semWaitWord, Prog.lift, Prog.bind_op, Prog.bind_ret, Prog.pure_eq_ret, wp_deviceId]
  iapply (wp_wait_fr m K c 12 (credit_oR c 12) (oweD c 32 + oweF c 32) _) $$ [Cfr12 HO Pfr12]
  · isplitr; · (iapply (inv_at m K c (.fr 12)); iexact HR)
    isplitl [Cfr12]; · iexact Cfr12
    isplitl [HO]; · iexact HO
    isplitr; · (iapply (mayWait_fr c 12 32 32 (by decide) (by decide)); iexact Hlev)
    iexact Pfr12
  iintro ⟨HO, Pfr12, -, OF12⟩
  -- the y-peer's relay of chunk 13 has landed in the result
  iapply (wp_wait_fr m K c 13 (credit_oR c 13) (oweD c 32 + oweF c 32) _) $$ [Cfr13 HO Pfr13]
  · isplitr; · (iapply (inv_at m K c (.fr 13)); iexact HR)
    isplitl [Cfr13]; · iexact Cfr13
    isplitl [HO]; · iexact HO
    isplitr; · (iapply (mayWait_fr c 13 32 32 (by decide) (by decide)); iexact Hlev)
    iexact Pfr13
  iintro ⟨HO, Pfr13, -, OF13⟩
  -- the y-peer's relay of chunk 14 has landed in the result
  iapply (wp_wait_fr m K c 14 (credit_oR c 14) (oweD c 32 + oweF c 32) _) $$ [Cfr14 HO Pfr14]
  · isplitr; · (iapply (inv_at m K c (.fr 14)); iexact HR)
    isplitl [Cfr14]; · iexact Cfr14
    isplitl [HO]; · iexact HO
    isplitr; · (iapply (mayWait_fr c 14 32 32 (by decide) (by decide)); iexact Hlev)
    iexact Pfr14
  iintro ⟨HO, Pfr14, -, OF14⟩
  -- the y-peer's relay of chunk 15 has landed in the result
  -- the printed part k0_part128 is opened
  simp only [k0_part128_eq_skeleton]
  unfold k0_part128_skel
  simp only [semSignalWord, semWaitWord, Prog.lift, Prog.bind_op, Prog.bind_ret, Prog.pure_eq_ret, wp_deviceId]
  iapply (wp_wait_fr m K c 15 (credit_oR c 15) (oweD c 32 + oweF c 32) _) $$ [Cfr15 HO Pfr15]
  · isplitr; · (iapply (inv_at m K c (.fr 15)); iexact HR)
    isplitl [Cfr15]; · iexact Cfr15
    isplitl [HO]; · iexact HO
    isplitr; · (iapply (mayWait_fr c 15 32 32 (by decide) (by decide)); iexact Hlev)
    iexact Pfr15
  iintro ⟨HO, Pfr15, -, OF15⟩
  -- the y-peer's relay of chunk 16 has landed in the result
  iapply (wp_wait_fr m K c 16 (credit_oR c 16) (oweD c 32 + oweF c 32) _) $$ [Cfr16 HO Pfr16]
  · isplitr; · (iapply (inv_at m K c (.fr 16)); iexact HR)
    isplitl [Cfr16]; · iexact Cfr16
    isplitl [HO]; · iexact HO
    isplitr; · (iapply (mayWait_fr c 16 32 32 (by decide) (by decide)); iexact Hlev)
    iexact Pfr16
  iintro ⟨HO, Pfr16, -, OF16⟩
  -- the y-peer's relay of chunk 17 has landed in the result
  iapply (wp_wait_fr m K c 17 (credit_oR c 17) (oweD c 32 + oweF c 32) _) $$ [Cfr17 HO Pfr17]
  · isplitr; · (iapply (inv_at m K c (.fr 17)); iexact HR)
    isplitl [Cfr17]; · iexact Cfr17
    isplitl [HO]; · iexact HO
    isplitr; · (iapply (mayWait_fr c 17 32 32 (by decide) (by decide)); iexact Hlev)
    iexact Pfr17
  iintro ⟨HO, Pfr17, -, OF17⟩
  -- the y-peer's relay of chunk 18 has landed in the result
  -- the printed part k0_part129 is opened
  simp only [k0_part129_eq_skeleton]
  unfold k0_part129_skel
  simp only [semSignalWord, semWaitWord, Prog.lift, Prog.bind_op, Prog.bind_ret, Prog.pure_eq_ret, wp_deviceId]
  iapply (wp_wait_fr m K c 18 (credit_oR c 18) (oweD c 32 + oweF c 32) _) $$ [Cfr18 HO Pfr18]
  · isplitr; · (iapply (inv_at m K c (.fr 18)); iexact HR)
    isplitl [Cfr18]; · iexact Cfr18
    isplitl [HO]; · iexact HO
    isplitr; · (iapply (mayWait_fr c 18 32 32 (by decide) (by decide)); iexact Hlev)
    iexact Pfr18
  iintro ⟨HO, Pfr18, -, OF18⟩
  -- the y-peer's relay of chunk 19 has landed in the result
  iapply (wp_wait_fr m K c 19 (credit_oR c 19) (oweD c 32 + oweF c 32) _) $$ [Cfr19 HO Pfr19]
  · isplitr; · (iapply (inv_at m K c (.fr 19)); iexact HR)
    isplitl [Cfr19]; · iexact Cfr19
    isplitl [HO]; · iexact HO
    isplitr; · (iapply (mayWait_fr c 19 32 32 (by decide) (by decide)); iexact Hlev)
    iexact Pfr19
  iintro ⟨HO, Pfr19, -, OF19⟩
  -- the y-peer's relay of chunk 20 has landed in the result
  iapply (wp_wait_fr m K c 20 (credit_oR c 20) (oweD c 32 + oweF c 32) _) $$ [Cfr20 HO Pfr20]
  · isplitr; · (iapply (inv_at m K c (.fr 20)); iexact HR)
    isplitl [Cfr20]; · iexact Cfr20
    isplitl [HO]; · iexact HO
    isplitr; · (iapply (mayWait_fr c 20 32 32 (by decide) (by decide)); iexact Hlev)
    iexact Pfr20
  iintro ⟨HO, Pfr20, -, OF20⟩
  -- the y-peer's relay of chunk 21 has landed in the result
  -- the printed part k0_part130 is opened
  simp only [k0_part130_eq_skeleton]
  unfold k0_part130_skel
  simp only [semSignalWord, semWaitWord, Prog.lift, Prog.bind_op, Prog.bind_ret, Prog.pure_eq_ret, wp_deviceId]
  iapply (wp_wait_fr m K c 21 (credit_oR c 21) (oweD c 32 + oweF c 32) _) $$ [Cfr21 HO Pfr21]
  · isplitr; · (iapply (inv_at m K c (.fr 21)); iexact HR)
    isplitl [Cfr21]; · iexact Cfr21
    isplitl [HO]; · iexact HO
    isplitr; · (iapply (mayWait_fr c 21 32 32 (by decide) (by decide)); iexact Hlev)
    iexact Pfr21
  iintro ⟨HO, Pfr21, -, OF21⟩
  -- the y-peer's relay of chunk 22 has landed in the result
  iapply (wp_wait_fr m K c 22 (credit_oR c 22) (oweD c 32 + oweF c 32) _) $$ [Cfr22 HO Pfr22]
  · isplitr; · (iapply (inv_at m K c (.fr 22)); iexact HR)
    isplitl [Cfr22]; · iexact Cfr22
    isplitl [HO]; · iexact HO
    isplitr; · (iapply (mayWait_fr c 22 32 32 (by decide) (by decide)); iexact Hlev)
    iexact Pfr22
  iintro ⟨HO, Pfr22, -, OF22⟩
  -- the y-peer's relay of chunk 23 has landed in the result
  iapply (wp_wait_fr m K c 23 (credit_oR c 23) (oweD c 32 + oweF c 32) _) $$ [Cfr23 HO Pfr23]
  · isplitr; · (iapply (inv_at m K c (.fr 23)); iexact HR)
    isplitl [Cfr23]; · iexact Cfr23
    isplitl [HO]; · iexact HO
    isplitr; · (iapply (mayWait_fr c 23 32 32 (by decide) (by decide)); iexact Hlev)
    iexact Pfr23
  iintro ⟨HO, Pfr23, -, OF23⟩
  -- the y-peer's relay of chunk 24 has landed in the result
  -- the printed part k0_part131 is opened
  simp only [k0_part131_eq_skeleton]
  unfold k0_part131_skel
  simp only [semSignalWord, semWaitWord, Prog.lift, Prog.bind_op, Prog.bind_ret, Prog.pure_eq_ret, wp_deviceId]
  iapply (wp_wait_fr m K c 24 (credit_oR c 24) (oweD c 32 + oweF c 32) _) $$ [Cfr24 HO Pfr24]
  · isplitr; · (iapply (inv_at m K c (.fr 24)); iexact HR)
    isplitl [Cfr24]; · iexact Cfr24
    isplitl [HO]; · iexact HO
    isplitr; · (iapply (mayWait_fr c 24 32 32 (by decide) (by decide)); iexact Hlev)
    iexact Pfr24
  iintro ⟨HO, Pfr24, -, OF24⟩
  -- the y-peer's relay of chunk 25 has landed in the result
  iapply (wp_wait_fr m K c 25 (credit_oR c 25) (oweD c 32 + oweF c 32) _) $$ [Cfr25 HO Pfr25]
  · isplitr; · (iapply (inv_at m K c (.fr 25)); iexact HR)
    isplitl [Cfr25]; · iexact Cfr25
    isplitl [HO]; · iexact HO
    isplitr; · (iapply (mayWait_fr c 25 32 32 (by decide) (by decide)); iexact Hlev)
    iexact Pfr25
  iintro ⟨HO, Pfr25, -, OF25⟩
  -- the y-peer's relay of chunk 26 has landed in the result
  iapply (wp_wait_fr m K c 26 (credit_oR c 26) (oweD c 32 + oweF c 32) _) $$ [Cfr26 HO Pfr26]
  · isplitr; · (iapply (inv_at m K c (.fr 26)); iexact HR)
    isplitl [Cfr26]; · iexact Cfr26
    isplitl [HO]; · iexact HO
    isplitr; · (iapply (mayWait_fr c 26 32 32 (by decide) (by decide)); iexact Hlev)
    iexact Pfr26
  iintro ⟨HO, Pfr26, -, OF26⟩
  -- the y-peer's relay of chunk 27 has landed in the result
  iapply (wp_wait_fr m K c 27 (credit_oR c 27) (oweD c 32 + oweF c 32) _) $$ [Cfr27 HO Pfr27]
  · isplitr; · (iapply (inv_at m K c (.fr 27)); iexact HR)
    isplitl [Cfr27]; · iexact Cfr27
    isplitl [HO]; · iexact HO
    isplitr; · (iapply (mayWait_fr c 27 32 32 (by decide) (by decide)); iexact Hlev)
    iexact Pfr27
  iintro ⟨HO, Pfr27, -, OF27⟩
  -- the y-peer's relay of chunk 28 has landed in the result
  -- the printed part k0_part132 is opened
  simp only [k0_part132_eq_skeleton]
  unfold k0_part132_skel
  simp only [semSignalWord, semWaitWord, Prog.lift, Prog.bind_op, Prog.bind_ret, Prog.pure_eq_ret, wp_deviceId]
  iapply (wp_wait_fr m K c 28 (credit_oR c 28) (oweD c 32 + oweF c 32) _) $$ [Cfr28 HO Pfr28]
  · isplitr; · (iapply (inv_at m K c (.fr 28)); iexact HR)
    isplitl [Cfr28]; · iexact Cfr28
    isplitl [HO]; · iexact HO
    isplitr; · (iapply (mayWait_fr c 28 32 32 (by decide) (by decide)); iexact Hlev)
    iexact Pfr28
  iintro ⟨HO, Pfr28, -, OF28⟩
  -- the y-peer's relay of chunk 29 has landed in the result
  iapply (wp_wait_fr m K c 29 (credit_oR c 29) (oweD c 32 + oweF c 32) _) $$ [Cfr29 HO Pfr29]
  · isplitr; · (iapply (inv_at m K c (.fr 29)); iexact HR)
    isplitl [Cfr29]; · iexact Cfr29
    isplitl [HO]; · iexact HO
    isplitr; · (iapply (mayWait_fr c 29 32 32 (by decide) (by decide)); iexact Hlev)
    iexact Pfr29
  iintro ⟨HO, Pfr29, -, OF29⟩
  -- the y-peer's relay of chunk 30 has landed in the result
  iapply (wp_wait_fr m K c 30 (credit_oR c 30) (oweD c 32 + oweF c 32) _) $$ [Cfr30 HO Pfr30]
  · isplitr; · (iapply (inv_at m K c (.fr 30)); iexact HR)
    isplitl [Cfr30]; · iexact Cfr30
    isplitl [HO]; · iexact HO
    isplitr; · (iapply (mayWait_fr c 30 32 32 (by decide) (by decide)); iexact Hlev)
    iexact Pfr30
  iintro ⟨HO, Pfr30, -, OF30⟩
  -- the y-peer's relay of chunk 31 has landed in the result
  -- the printed part k0_part133 is opened
  simp only [k0_part133_eq_skeleton]
  unfold k0_part133_skel
  simp only [semSignalWord, semWaitWord, Prog.lift, Prog.bind_op, Prog.bind_ret, Prog.pure_eq_ret, wp_deviceId]
  iapply (wp_wait_fr m K c 31 (credit_oR c 31) (oweD c 32 + oweF c 32) _) $$ [Cfr31 HO Pfr31]
  · isplitr; · (iapply (inv_at m K c (.fr 31)); iexact HR)
    isplitl [Cfr31]; · iexact Cfr31
    isplitl [HO]; · iexact HO
    isplitr; · (iapply (mayWait_fr c 31 32 32 (by decide) (by decide)); iexact Hlev)
    iexact Pfr31
  iintro ⟨HO, Pfr31, -, OF31⟩
  -- chunk 29: its send along x has left the slot
  iapply (wp_wait_ds m K c 29 (credit_vcaPeer c (slot3 29)) (oweD c 32 + oweF c 32) _) $$ [Kds29 HO Pds29]
  · isplitr; · (iapply (inv_at m K c (.ds 29)); iexact HR)
    isplitl [Kds29]; · iexact Kds29
    isplitl [HO]; · iexact HO
    isplitr; · (iapply (mayWait_own c (.ds 29) rfl 32 32); iexact Hlev)
    iexact Pds29
  iintro ⟨HO, Pds29, -, CAp2⟩
  -- chunk 29: its local copy of vcast_a has landed
  iapply (wp_wait_lca m K c 29 (credit_oA c 29) (oweD c 32 + oweF c 32) _) $$ [Kla29 HO Pla2]
  · isplitr; · (iapply (inv_at m K c (.lca (slot3 29))); iexact HR)
    isplitl [Kla29]; · iexact Kla29
    isplitl [HO]; · iexact HO
    isplitr; · (iapply (mayWait_own c (.lca (slot3 29)) rfl 32 32); iexact Hlev)
    iexact Pla2
  iintro ⟨HO, Pla2, #Rla29, OA29, CAm2⟩
  -- chunk 29: its local copy of vcast_b has landed
  iapply (wp_wait_lcb m K c 29 (credit_oB c 29) (oweD c 32 + oweF c 32) _) $$ [Klb29 HO Plb2]
  · isplitr; · (iapply (inv_at m K c (.lcb (slot3 29))); iexact HR)
    isplitl [Klb29]; · iexact Klb29
    isplitl [HO]; · iexact HO
    isplitr; · (iapply (mayWait_own c (.lcb (slot3 29)) rfl 32 32); iexact Hlev)
    iexact Plb2
  iintro ⟨HO, Plb2, #Rlb29, OB29, CBm2⟩
  -- slot 2 of both bf16 buffers is whole again
  ihave CA2 := (vca_slot_split c (slot3 29) fullShare _).2 $$ [CAm2 CAp2]
  · isplitl [CAm2]; · iexact CAm2
    iexact CAp2
  ihave CB2 := (vcb_slot_split c (slot3 29) fullShare _).2 $$ [CBm2 CBr2]
  · isplitl [CBm2]; · iexact CBm2
    iexact CBr2
  -- chunk 30: its send along x has left the slot
  -- the printed part k0_part134 is opened
  simp only [k0_part134_eq_skeleton]
  unfold k0_part134_skel
  simp only [semSignalWord, semWaitWord, Prog.lift, Prog.bind_op, Prog.bind_ret, Prog.pure_eq_ret, wp_deviceId]
  iapply (wp_wait_ds m K c 30 (credit_vcaPeer c (slot3 30)) (oweD c 32 + oweF c 32) _) $$ [Kds30 HO Pds30]
  · isplitr; · (iapply (inv_at m K c (.ds 30)); iexact HR)
    isplitl [Kds30]; · iexact Kds30
    isplitl [HO]; · iexact HO
    isplitr; · (iapply (mayWait_own c (.ds 30) rfl 32 32); iexact Hlev)
    iexact Pds30
  iintro ⟨HO, Pds30, -, CAp0⟩
  -- chunk 30: its local copy of vcast_a has landed
  iapply (wp_wait_lca m K c 30 (credit_oA c 30) (oweD c 32 + oweF c 32) _) $$ [Kla30 HO Pla0]
  · isplitr; · (iapply (inv_at m K c (.lca (slot3 30))); iexact HR)
    isplitl [Kla30]; · iexact Kla30
    isplitl [HO]; · iexact HO
    isplitr; · (iapply (mayWait_own c (.lca (slot3 30)) rfl 32 32); iexact Hlev)
    iexact Pla0
  iintro ⟨HO, Pla0, #Rla30, OA30, CAm0⟩
  -- chunk 30: its local copy of vcast_b has landed
  iapply (wp_wait_lcb m K c 30 (credit_oB c 30) (oweD c 32 + oweF c 32) _) $$ [Klb30 HO Plb0]
  · isplitr; · (iapply (inv_at m K c (.lcb (slot3 30))); iexact HR)
    isplitl [Klb30]; · iexact Klb30
    isplitl [HO]; · iexact HO
    isplitr; · (iapply (mayWait_own c (.lcb (slot3 30)) rfl 32 32); iexact Hlev)
    iexact Plb0
  iintro ⟨HO, Plb0, #Rlb30, OB30, CBm0⟩
  -- slot 0 of both bf16 buffers is whole again
  ihave CA0 := (vca_slot_split c (slot3 30) fullShare _).2 $$ [CAm0 CAp0]
  · isplitl [CAm0]; · iexact CAm0
    iexact CAp0
  ihave CB0 := (vcb_slot_split c (slot3 30) fullShare _).2 $$ [CBm0 CBr0]
  · isplitl [CBm0]; · iexact CBm0
    iexact CBr0
  -- chunk 31: its send along x has left the slot
  iapply (wp_wait_ds m K c 31 (credit_vcaPeer c (slot3 31)) (oweD c 32 + oweF c 32) _) $$ [Kds31 HO Pds31]
  · isplitr; · (iapply (inv_at m K c (.ds 31)); iexact HR)
    isplitl [Kds31]; · iexact Kds31
    isplitl [HO]; · iexact HO
    isplitr; · (iapply (mayWait_own c (.ds 31) rfl 32 32); iexact Hlev)
    iexact Pds31
  iintro ⟨HO, Pds31, -, CAp1⟩
  -- chunk 31: its local copy of vcast_a has landed
  iapply (wp_wait_lca m K c 31 (credit_oA c 31) (oweD c 32 + oweF c 32) _) $$ [Kla31 HO Pla1]
  · isplitr; · (iapply (inv_at m K c (.lca (slot3 31))); iexact HR)
    isplitl [Kla31]; · iexact Kla31
    isplitl [HO]; · iexact HO
    isplitr; · (iapply (mayWait_own c (.lca (slot3 31)) rfl 32 32); iexact Hlev)
    iexact Pla1
  iintro ⟨HO, Pla1, #Rla31, OA31, CAm1⟩
  -- chunk 31: its local copy of vcast_b has landed
  -- the printed part k0_part135 is opened
  simp only [k0_part135_eq_skeleton]
  unfold k0_part135_skel
  simp only [semSignalWord, semWaitWord, Prog.lift, Prog.bind_op, Prog.bind_ret, Prog.pure_eq_ret, wp_deviceId]
  iapply (wp_wait_lcb m K c 31 (credit_oB c 31) (oweD c 32 + oweF c 32) _) $$ [Klb31 HO Plb1]
  · isplitr; · (iapply (inv_at m K c (.lcb (slot3 31))); iexact HR)
    isplitl [Klb31]; · iexact Klb31
    isplitl [HO]; · iexact HO
    isplitr; · (iapply (mayWait_own c (.lcb (slot3 31)) rfl 32 32); iexact Hlev)
    iexact Plb1
  iintro ⟨HO, Plb1, #Rlb31, OB31, CBm1⟩
  -- slot 1 of both bf16 buffers is whole again
  ihave CA1 := (vca_slot_split c (slot3 31) fullShare _).2 $$ [CAm1 CAp1]
  · isplitl [CAm1]; · iexact CAm1
    iexact CAp1
  ihave CB1 := (vcb_slot_split c (slot3 31) fullShare _).2 $$ [CBm1 CBr1]
  · isplitl [CBm1]; · iexact CBm1
    iexact CBr1
  -- chunk 0: the copy out of its landing slot and its relay have both read the slot
  iapply (wp_wait_lo m K c 0 (credit_oR c 0) (oweD c 32 + oweF c 32) _) $$ [Klo0 HO Plo0]
  · isplitr; · (iapply (inv_at m K c (.lo 0)); iexact HR)
    isplitl [Klo0]; · iexact Klo0
    isplitl [HO]; · iexact HO
    isplitr; · (iapply (mayWait_own c (.lo 0) rfl 32 32); iexact Hlev)
    iexact Plo0
  iintro ⟨HO, Plo0, -, OR0, LDl0⟩
  iapply (wp_wait_fs m K c 0 (credit_ldS 0) (oweD c 32 + oweF c 32) _) $$ [Kfs0 HO Pfs0]
  · isplitr; · (iapply (inv_at m K c (.fs 0)); iexact HR)
    isplitl [Kfs0]; · iexact Kfs0
    isplitl [HO]; · iexact HO
    isplitr; · (iapply (mayWait_own c (.fs 0) rfl 32 32); iexact Hlev)
    iexact Pfs0
  iintro ⟨HO, Pfs0, -, LDr0⟩
  ihave LD0 := (ld_share_split c 0 _).2 $$ [LDl0 LDr0]
  · isplitl [LDl0]; · iexact LDl0
    iexact LDr0
  -- chunk 1: the copy out of its landing slot and its relay have both read the slot
  iapply (wp_wait_lo m K c 1 (credit_oR c 1) (oweD c 32 + oweF c 32) _) $$ [Klo1 HO Plo1]
  · isplitr; · (iapply (inv_at m K c (.lo 1)); iexact HR)
    isplitl [Klo1]; · iexact Klo1
    isplitl [HO]; · iexact HO
    isplitr; · (iapply (mayWait_own c (.lo 1) rfl 32 32); iexact Hlev)
    iexact Plo1
  iintro ⟨HO, Plo1, -, OR1, LDl1⟩
  iapply (wp_wait_fs m K c 1 (credit_ldS 1) (oweD c 32 + oweF c 32) _) $$ [Kfs1 HO Pfs1]
  · isplitr; · (iapply (inv_at m K c (.fs 1)); iexact HR)
    isplitl [Kfs1]; · iexact Kfs1
    isplitl [HO]; · iexact HO
    isplitr; · (iapply (mayWait_own c (.fs 1) rfl 32 32); iexact Hlev)
    iexact Pfs1
  iintro ⟨HO, Pfs1, -, LDr1⟩
  ihave LD1 := (ld_share_split c 1 _).2 $$ [LDl1 LDr1]
  · isplitl [LDl1]; · iexact LDl1
    iexact LDr1
  -- chunk 2: the copy out of its landing slot and its relay have both read the slot
  iapply (wp_wait_lo m K c 2 (credit_oR c 2) (oweD c 32 + oweF c 32) _) $$ [Klo2 HO Plo2]
  · isplitr; · (iapply (inv_at m K c (.lo 2)); iexact HR)
    isplitl [Klo2]; · iexact Klo2
    isplitl [HO]; · iexact HO
    isplitr; · (iapply (mayWait_own c (.lo 2) rfl 32 32); iexact Hlev)
    iexact Plo2
  iintro ⟨HO, Plo2, -, OR2, LDl2⟩
  -- the printed part k0_part136 is opened
  simp only [k0_part136_eq_skeleton]
  unfold k0_part136_skel
  simp only [semSignalWord, semWaitWord, Prog.lift, Prog.bind_op, Prog.bind_ret, Prog.pure_eq_ret, wp_deviceId]
  iapply (wp_wait_fs m K c 2 (credit_ldS 2) (oweD c 32 + oweF c 32) _) $$ [Kfs2 HO Pfs2]
  · isplitr; · (iapply (inv_at m K c (.fs 2)); iexact HR)
    isplitl [Kfs2]; · iexact Kfs2
    isplitl [HO]; · iexact HO
    isplitr; · (iapply (mayWait_own c (.fs 2) rfl 32 32); iexact Hlev)
    iexact Pfs2
  iintro ⟨HO, Pfs2, -, LDr2⟩
  ihave LD2 := (ld_share_split c 2 _).2 $$ [LDl2 LDr2]
  · isplitl [LDl2]; · iexact LDl2
    iexact LDr2
  -- chunk 3: the copy out of its landing slot and its relay have both read the slot
  iapply (wp_wait_lo m K c 3 (credit_oR c 3) (oweD c 32 + oweF c 32) _) $$ [Klo3 HO Plo3]
  · isplitr; · (iapply (inv_at m K c (.lo 3)); iexact HR)
    isplitl [Klo3]; · iexact Klo3
    isplitl [HO]; · iexact HO
    isplitr; · (iapply (mayWait_own c (.lo 3) rfl 32 32); iexact Hlev)
    iexact Plo3
  iintro ⟨HO, Plo3, -, OR3, LDl3⟩
  iapply (wp_wait_fs m K c 3 (credit_ldS 3) (oweD c 32 + oweF c 32) _) $$ [Kfs3 HO Pfs3]
  · isplitr; · (iapply (inv_at m K c (.fs 3)); iexact HR)
    isplitl [Kfs3]; · iexact Kfs3
    isplitl [HO]; · iexact HO
    isplitr; · (iapply (mayWait_own c (.fs 3) rfl 32 32); iexact Hlev)
    iexact Pfs3
  iintro ⟨HO, Pfs3, -, LDr3⟩
  ihave LD3 := (ld_share_split c 3 _).2 $$ [LDl3 LDr3]
  · isplitl [LDl3]; · iexact LDl3
    iexact LDr3
  -- chunk 4: the copy out of its landing slot and its relay have both read the slot
  iapply (wp_wait_lo m K c 4 (credit_oR c 4) (oweD c 32 + oweF c 32) _) $$ [Klo4 HO Plo4]
  · isplitr; · (iapply (inv_at m K c (.lo 4)); iexact HR)
    isplitl [Klo4]; · iexact Klo4
    isplitl [HO]; · iexact HO
    isplitr; · (iapply (mayWait_own c (.lo 4) rfl 32 32); iexact Hlev)
    iexact Plo4
  iintro ⟨HO, Plo4, -, OR4, LDl4⟩
  -- the printed part k0_part137 is opened
  simp only [k0_part137_eq_skeleton]
  unfold k0_part137_skel
  simp only [semSignalWord, semWaitWord, Prog.lift, Prog.bind_op, Prog.bind_ret, Prog.pure_eq_ret, wp_deviceId]
  iapply (wp_wait_fs m K c 4 (credit_ldS 4) (oweD c 32 + oweF c 32) _) $$ [Kfs4 HO Pfs4]
  · isplitr; · (iapply (inv_at m K c (.fs 4)); iexact HR)
    isplitl [Kfs4]; · iexact Kfs4
    isplitl [HO]; · iexact HO
    isplitr; · (iapply (mayWait_own c (.fs 4) rfl 32 32); iexact Hlev)
    iexact Pfs4
  iintro ⟨HO, Pfs4, -, LDr4⟩
  ihave LD4 := (ld_share_split c 4 _).2 $$ [LDl4 LDr4]
  · isplitl [LDl4]; · iexact LDl4
    iexact LDr4
  -- chunk 5: the copy out of its landing slot and its relay have both read the slot
  iapply (wp_wait_lo m K c 5 (credit_oR c 5) (oweD c 32 + oweF c 32) _) $$ [Klo5 HO Plo5]
  · isplitr; · (iapply (inv_at m K c (.lo 5)); iexact HR)
    isplitl [Klo5]; · iexact Klo5
    isplitl [HO]; · iexact HO
    isplitr; · (iapply (mayWait_own c (.lo 5) rfl 32 32); iexact Hlev)
    iexact Plo5
  iintro ⟨HO, Plo5, -, OR5, LDl5⟩
  iapply (wp_wait_fs m K c 5 (credit_ldS 5) (oweD c 32 + oweF c 32) _) $$ [Kfs5 HO Pfs5]
  · isplitr; · (iapply (inv_at m K c (.fs 5)); iexact HR)
    isplitl [Kfs5]; · iexact Kfs5
    isplitl [HO]; · iexact HO
    isplitr; · (iapply (mayWait_own c (.fs 5) rfl 32 32); iexact Hlev)
    iexact Pfs5
  iintro ⟨HO, Pfs5, -, LDr5⟩
  ihave LD5 := (ld_share_split c 5 _).2 $$ [LDl5 LDr5]
  · isplitl [LDl5]; · iexact LDl5
    iexact LDr5
  -- chunk 6: the copy out of its landing slot and its relay have both read the slot
  iapply (wp_wait_lo m K c 6 (credit_oR c 6) (oweD c 32 + oweF c 32) _) $$ [Klo6 HO Plo6]
  · isplitr; · (iapply (inv_at m K c (.lo 6)); iexact HR)
    isplitl [Klo6]; · iexact Klo6
    isplitl [HO]; · iexact HO
    isplitr; · (iapply (mayWait_own c (.lo 6) rfl 32 32); iexact Hlev)
    iexact Plo6
  iintro ⟨HO, Plo6, -, OR6, LDl6⟩
  iapply (wp_wait_fs m K c 6 (credit_ldS 6) (oweD c 32 + oweF c 32) _) $$ [Kfs6 HO Pfs6]
  · isplitr; · (iapply (inv_at m K c (.fs 6)); iexact HR)
    isplitl [Kfs6]; · iexact Kfs6
    isplitl [HO]; · iexact HO
    isplitr; · (iapply (mayWait_own c (.fs 6) rfl 32 32); iexact Hlev)
    iexact Pfs6
  iintro ⟨HO, Pfs6, -, LDr6⟩
  ihave LD6 := (ld_share_split c 6 _).2 $$ [LDl6 LDr6]
  · isplitl [LDl6]; · iexact LDl6
    iexact LDr6
  -- chunk 7: the copy out of its landing slot and its relay have both read the slot
  iapply (wp_wait_lo m K c 7 (credit_oR c 7) (oweD c 32 + oweF c 32) _) $$ [Klo7 HO Plo7]
  · isplitr; · (iapply (inv_at m K c (.lo 7)); iexact HR)
    isplitl [Klo7]; · iexact Klo7
    isplitl [HO]; · iexact HO
    isplitr; · (iapply (mayWait_own c (.lo 7) rfl 32 32); iexact Hlev)
    iexact Plo7
  iintro ⟨HO, Plo7, -, OR7, LDl7⟩
  -- the printed part k0_part138 is opened
  simp only [k0_part138_eq_skeleton]
  unfold k0_part138_skel
  simp only [semSignalWord, semWaitWord, Prog.lift, Prog.bind_op, Prog.bind_ret, Prog.pure_eq_ret, wp_deviceId]
  iapply (wp_wait_fs m K c 7 (credit_ldS 7) (oweD c 32 + oweF c 32) _) $$ [Kfs7 HO Pfs7]
  · isplitr; · (iapply (inv_at m K c (.fs 7)); iexact HR)
    isplitl [Kfs7]; · iexact Kfs7
    isplitl [HO]; · iexact HO
    isplitr; · (iapply (mayWait_own c (.fs 7) rfl 32 32); iexact Hlev)
    iexact Pfs7
  iintro ⟨HO, Pfs7, -, LDr7⟩
  ihave LD7 := (ld_share_split c 7 _).2 $$ [LDl7 LDr7]
  · isplitl [LDl7]; · iexact LDl7
    iexact LDr7
  -- chunk 8: the copy out of its landing slot and its relay have both read the slot
  iapply (wp_wait_lo m K c 8 (credit_oR c 8) (oweD c 32 + oweF c 32) _) $$ [Klo8 HO Plo8]
  · isplitr; · (iapply (inv_at m K c (.lo 8)); iexact HR)
    isplitl [Klo8]; · iexact Klo8
    isplitl [HO]; · iexact HO
    isplitr; · (iapply (mayWait_own c (.lo 8) rfl 32 32); iexact Hlev)
    iexact Plo8
  iintro ⟨HO, Plo8, -, OR8, LDl8⟩
  iapply (wp_wait_fs m K c 8 (credit_ldS 8) (oweD c 32 + oweF c 32) _) $$ [Kfs8 HO Pfs8]
  · isplitr; · (iapply (inv_at m K c (.fs 8)); iexact HR)
    isplitl [Kfs8]; · iexact Kfs8
    isplitl [HO]; · iexact HO
    isplitr; · (iapply (mayWait_own c (.fs 8) rfl 32 32); iexact Hlev)
    iexact Pfs8
  iintro ⟨HO, Pfs8, -, LDr8⟩
  ihave LD8 := (ld_share_split c 8 _).2 $$ [LDl8 LDr8]
  · isplitl [LDl8]; · iexact LDl8
    iexact LDr8
  -- chunk 9: the copy out of its landing slot and its relay have both read the slot
  iapply (wp_wait_lo m K c 9 (credit_oR c 9) (oweD c 32 + oweF c 32) _) $$ [Klo9 HO Plo9]
  · isplitr; · (iapply (inv_at m K c (.lo 9)); iexact HR)
    isplitl [Klo9]; · iexact Klo9
    isplitl [HO]; · iexact HO
    isplitr; · (iapply (mayWait_own c (.lo 9) rfl 32 32); iexact Hlev)
    iexact Plo9
  iintro ⟨HO, Plo9, -, OR9, LDl9⟩
  -- the printed part k0_part139 is opened
  simp only [k0_part139_eq_skeleton]
  unfold k0_part139_skel
  simp only [semSignalWord, semWaitWord, Prog.lift, Prog.bind_op, Prog.bind_ret, Prog.pure_eq_ret, wp_deviceId]
  iapply (wp_wait_fs m K c 9 (credit_ldS 9) (oweD c 32 + oweF c 32) _) $$ [Kfs9 HO Pfs9]
  · isplitr; · (iapply (inv_at m K c (.fs 9)); iexact HR)
    isplitl [Kfs9]; · iexact Kfs9
    isplitl [HO]; · iexact HO
    isplitr; · (iapply (mayWait_own c (.fs 9) rfl 32 32); iexact Hlev)
    iexact Pfs9
  iintro ⟨HO, Pfs9, -, LDr9⟩
  ihave LD9 := (ld_share_split c 9 _).2 $$ [LDl9 LDr9]
  · isplitl [LDl9]; · iexact LDl9
    iexact LDr9
  -- chunk 10: the copy out of its landing slot and its relay have both read the slot
  iapply (wp_wait_lo m K c 10 (credit_oR c 10) (oweD c 32 + oweF c 32) _) $$ [Klo10 HO Plo10]
  · isplitr; · (iapply (inv_at m K c (.lo 10)); iexact HR)
    isplitl [Klo10]; · iexact Klo10
    isplitl [HO]; · iexact HO
    isplitr; · (iapply (mayWait_own c (.lo 10) rfl 32 32); iexact Hlev)
    iexact Plo10
  iintro ⟨HO, Plo10, -, OR10, LDl10⟩
  iapply (wp_wait_fs m K c 10 (credit_ldS 10) (oweD c 32 + oweF c 32) _) $$ [Kfs10 HO Pfs10]
  · isplitr; · (iapply (inv_at m K c (.fs 10)); iexact HR)
    isplitl [Kfs10]; · iexact Kfs10
    isplitl [HO]; · iexact HO
    isplitr; · (iapply (mayWait_own c (.fs 10) rfl 32 32); iexact Hlev)
    iexact Pfs10
  iintro ⟨HO, Pfs10, -, LDr10⟩
  ihave LD10 := (ld_share_split c 10 _).2 $$ [LDl10 LDr10]
  · isplitl [LDl10]; · iexact LDl10
    iexact LDr10
  -- chunk 11: the copy out of its landing slot and its relay have both read the slot
  iapply (wp_wait_lo m K c 11 (credit_oR c 11) (oweD c 32 + oweF c 32) _) $$ [Klo11 HO Plo11]
  · isplitr; · (iapply (inv_at m K c (.lo 11)); iexact HR)
    isplitl [Klo11]; · iexact Klo11
    isplitl [HO]; · iexact HO
    isplitr; · (iapply (mayWait_own c (.lo 11) rfl 32 32); iexact Hlev)
    iexact Plo11
  iintro ⟨HO, Plo11, -, OR11, LDl11⟩
  iapply (wp_wait_fs m K c 11 (credit_ldS 11) (oweD c 32 + oweF c 32) _) $$ [Kfs11 HO Pfs11]
  · isplitr; · (iapply (inv_at m K c (.fs 11)); iexact HR)
    isplitl [Kfs11]; · iexact Kfs11
    isplitl [HO]; · iexact HO
    isplitr; · (iapply (mayWait_own c (.fs 11) rfl 32 32); iexact Hlev)
    iexact Pfs11
  iintro ⟨HO, Pfs11, -, LDr11⟩
  ihave LD11 := (ld_share_split c 11 _).2 $$ [LDl11 LDr11]
  · isplitl [LDl11]; · iexact LDl11
    iexact LDr11
  -- chunk 12: the copy out of its landing slot and its relay have both read the slot
  iapply (wp_wait_lo m K c 12 (credit_oR c 12) (oweD c 32 + oweF c 32) _) $$ [Klo12 HO Plo12]
  · isplitr; · (iapply (inv_at m K c (.lo 12)); iexact HR)
    isplitl [Klo12]; · iexact Klo12
    isplitl [HO]; · iexact HO
    isplitr; · (iapply (mayWait_own c (.lo 12) rfl 32 32); iexact Hlev)
    iexact Plo12
  iintro ⟨HO, Plo12, -, OR12, LDl12⟩
  -- the printed part k0_part140 is opened
  simp only [k0_part140_eq_skeleton]
  unfold k0_part140_skel
  simp only [semSignalWord, semWaitWord, Prog.lift, Prog.bind_op, Prog.bind_ret, Prog.pure_eq_ret, wp_deviceId]
  iapply (wp_wait_fs m K c 12 (credit_ldS 12) (oweD c 32 + oweF c 32) _) $$ [Kfs12 HO Pfs12]
  · isplitr; · (iapply (inv_at m K c (.fs 12)); iexact HR)
    isplitl [Kfs12]; · iexact Kfs12
    isplitl [HO]; · iexact HO
    isplitr; · (iapply (mayWait_own c (.fs 12) rfl 32 32); iexact Hlev)
    iexact Pfs12
  iintro ⟨HO, Pfs12, -, LDr12⟩
  ihave LD12 := (ld_share_split c 12 _).2 $$ [LDl12 LDr12]
  · isplitl [LDl12]; · iexact LDl12
    iexact LDr12
  -- chunk 13: the copy out of its landing slot and its relay have both read the slot
  iapply (wp_wait_lo m K c 13 (credit_oR c 13) (oweD c 32 + oweF c 32) _) $$ [Klo13 HO Plo13]
  · isplitr; · (iapply (inv_at m K c (.lo 13)); iexact HR)
    isplitl [Klo13]; · iexact Klo13
    isplitl [HO]; · iexact HO
    isplitr; · (iapply (mayWait_own c (.lo 13) rfl 32 32); iexact Hlev)
    iexact Plo13
  iintro ⟨HO, Plo13, -, OR13, LDl13⟩
  iapply (wp_wait_fs m K c 13 (credit_ldS 13) (oweD c 32 + oweF c 32) _) $$ [Kfs13 HO Pfs13]
  · isplitr; · (iapply (inv_at m K c (.fs 13)); iexact HR)
    isplitl [Kfs13]; · iexact Kfs13
    isplitl [HO]; · iexact HO
    isplitr; · (iapply (mayWait_own c (.fs 13) rfl 32 32); iexact Hlev)
    iexact Pfs13
  iintro ⟨HO, Pfs13, -, LDr13⟩
  ihave LD13 := (ld_share_split c 13 _).2 $$ [LDl13 LDr13]
  · isplitl [LDl13]; · iexact LDl13
    iexact LDr13
  -- chunk 14: the copy out of its landing slot and its relay have both read the slot
  iapply (wp_wait_lo m K c 14 (credit_oR c 14) (oweD c 32 + oweF c 32) _) $$ [Klo14 HO Plo14]
  · isplitr; · (iapply (inv_at m K c (.lo 14)); iexact HR)
    isplitl [Klo14]; · iexact Klo14
    isplitl [HO]; · iexact HO
    isplitr; · (iapply (mayWait_own c (.lo 14) rfl 32 32); iexact Hlev)
    iexact Plo14
  iintro ⟨HO, Plo14, -, OR14, LDl14⟩
  -- the printed part k0_part141 is opened
  simp only [k0_part141_eq_skeleton]
  unfold k0_part141_skel
  simp only [semSignalWord, semWaitWord, Prog.lift, Prog.bind_op, Prog.bind_ret, Prog.pure_eq_ret, wp_deviceId]
  iapply (wp_wait_fs m K c 14 (credit_ldS 14) (oweD c 32 + oweF c 32) _) $$ [Kfs14 HO Pfs14]
  · isplitr; · (iapply (inv_at m K c (.fs 14)); iexact HR)
    isplitl [Kfs14]; · iexact Kfs14
    isplitl [HO]; · iexact HO
    isplitr; · (iapply (mayWait_own c (.fs 14) rfl 32 32); iexact Hlev)
    iexact Pfs14
  iintro ⟨HO, Pfs14, -, LDr14⟩
  ihave LD14 := (ld_share_split c 14 _).2 $$ [LDl14 LDr14]
  · isplitl [LDl14]; · iexact LDl14
    iexact LDr14
  -- chunk 15: the copy out of its landing slot and its relay have both read the slot
  iapply (wp_wait_lo m K c 15 (credit_oR c 15) (oweD c 32 + oweF c 32) _) $$ [Klo15 HO Plo15]
  · isplitr; · (iapply (inv_at m K c (.lo 15)); iexact HR)
    isplitl [Klo15]; · iexact Klo15
    isplitl [HO]; · iexact HO
    isplitr; · (iapply (mayWait_own c (.lo 15) rfl 32 32); iexact Hlev)
    iexact Plo15
  iintro ⟨HO, Plo15, -, OR15, LDl15⟩
  iapply (wp_wait_fs m K c 15 (credit_ldS 15) (oweD c 32 + oweF c 32) _) $$ [Kfs15 HO Pfs15]
  · isplitr; · (iapply (inv_at m K c (.fs 15)); iexact HR)
    isplitl [Kfs15]; · iexact Kfs15
    isplitl [HO]; · iexact HO
    isplitr; · (iapply (mayWait_own c (.fs 15) rfl 32 32); iexact Hlev)
    iexact Pfs15
  iintro ⟨HO, Pfs15, -, LDr15⟩
  ihave LD15 := (ld_share_split c 15 _).2 $$ [LDl15 LDr15]
  · isplitl [LDl15]; · iexact LDl15
    iexact LDr15
  -- chunk 16: the copy out of its landing slot and its relay have both read the slot
  iapply (wp_wait_lo m K c 16 (credit_oR c 16) (oweD c 32 + oweF c 32) _) $$ [Klo16 HO Plo16]
  · isplitr; · (iapply (inv_at m K c (.lo 16)); iexact HR)
    isplitl [Klo16]; · iexact Klo16
    isplitl [HO]; · iexact HO
    isplitr; · (iapply (mayWait_own c (.lo 16) rfl 32 32); iexact Hlev)
    iexact Plo16
  iintro ⟨HO, Plo16, -, OR16, LDl16⟩
  iapply (wp_wait_fs m K c 16 (credit_ldS 16) (oweD c 32 + oweF c 32) _) $$ [Kfs16 HO Pfs16]
  · isplitr; · (iapply (inv_at m K c (.fs 16)); iexact HR)
    isplitl [Kfs16]; · iexact Kfs16
    isplitl [HO]; · iexact HO
    isplitr; · (iapply (mayWait_own c (.fs 16) rfl 32 32); iexact Hlev)
    iexact Pfs16
  iintro ⟨HO, Pfs16, -, LDr16⟩
  ihave LD16 := (ld_share_split c 16 _).2 $$ [LDl16 LDr16]
  · isplitl [LDl16]; · iexact LDl16
    iexact LDr16
  -- chunk 17: the copy out of its landing slot and its relay have both read the slot
  iapply (wp_wait_lo m K c 17 (credit_oR c 17) (oweD c 32 + oweF c 32) _) $$ [Klo17 HO Plo17]
  · isplitr; · (iapply (inv_at m K c (.lo 17)); iexact HR)
    isplitl [Klo17]; · iexact Klo17
    isplitl [HO]; · iexact HO
    isplitr; · (iapply (mayWait_own c (.lo 17) rfl 32 32); iexact Hlev)
    iexact Plo17
  iintro ⟨HO, Plo17, -, OR17, LDl17⟩
  -- the printed part k0_part142 is opened
  simp only [k0_part142_eq_skeleton]
  unfold k0_part142_skel
  simp only [semSignalWord, semWaitWord, Prog.lift, Prog.bind_op, Prog.bind_ret, Prog.pure_eq_ret, wp_deviceId]
  iapply (wp_wait_fs m K c 17 (credit_ldS 17) (oweD c 32 + oweF c 32) _) $$ [Kfs17 HO Pfs17]
  · isplitr; · (iapply (inv_at m K c (.fs 17)); iexact HR)
    isplitl [Kfs17]; · iexact Kfs17
    isplitl [HO]; · iexact HO
    isplitr; · (iapply (mayWait_own c (.fs 17) rfl 32 32); iexact Hlev)
    iexact Pfs17
  iintro ⟨HO, Pfs17, -, LDr17⟩
  ihave LD17 := (ld_share_split c 17 _).2 $$ [LDl17 LDr17]
  · isplitl [LDl17]; · iexact LDl17
    iexact LDr17
  -- chunk 18: the copy out of its landing slot and its relay have both read the slot
  iapply (wp_wait_lo m K c 18 (credit_oR c 18) (oweD c 32 + oweF c 32) _) $$ [Klo18 HO Plo18]
  · isplitr; · (iapply (inv_at m K c (.lo 18)); iexact HR)
    isplitl [Klo18]; · iexact Klo18
    isplitl [HO]; · iexact HO
    isplitr; · (iapply (mayWait_own c (.lo 18) rfl 32 32); iexact Hlev)
    iexact Plo18
  iintro ⟨HO, Plo18, -, OR18, LDl18⟩
  iapply (wp_wait_fs m K c 18 (credit_ldS 18) (oweD c 32 + oweF c 32) _) $$ [Kfs18 HO Pfs18]
  · isplitr; · (iapply (inv_at m K c (.fs 18)); iexact HR)
    isplitl [Kfs18]; · iexact Kfs18
    isplitl [HO]; · iexact HO
    isplitr; · (iapply (mayWait_own c (.fs 18) rfl 32 32); iexact Hlev)
    iexact Pfs18
  iintro ⟨HO, Pfs18, -, LDr18⟩
  ihave LD18 := (ld_share_split c 18 _).2 $$ [LDl18 LDr18]
  · isplitl [LDl18]; · iexact LDl18
    iexact LDr18
  -- chunk 19: the copy out of its landing slot and its relay have both read the slot
  iapply (wp_wait_lo m K c 19 (credit_oR c 19) (oweD c 32 + oweF c 32) _) $$ [Klo19 HO Plo19]
  · isplitr; · (iapply (inv_at m K c (.lo 19)); iexact HR)
    isplitl [Klo19]; · iexact Klo19
    isplitl [HO]; · iexact HO
    isplitr; · (iapply (mayWait_own c (.lo 19) rfl 32 32); iexact Hlev)
    iexact Plo19
  iintro ⟨HO, Plo19, -, OR19, LDl19⟩
  -- the printed part k0_part143 is opened
  simp only [k0_part143_eq_skeleton]
  unfold k0_part143_skel
  simp only [semSignalWord, semWaitWord, Prog.lift, Prog.bind_op, Prog.bind_ret, Prog.pure_eq_ret, wp_deviceId]
  iapply (wp_wait_fs m K c 19 (credit_ldS 19) (oweD c 32 + oweF c 32) _) $$ [Kfs19 HO Pfs19]
  · isplitr; · (iapply (inv_at m K c (.fs 19)); iexact HR)
    isplitl [Kfs19]; · iexact Kfs19
    isplitl [HO]; · iexact HO
    isplitr; · (iapply (mayWait_own c (.fs 19) rfl 32 32); iexact Hlev)
    iexact Pfs19
  iintro ⟨HO, Pfs19, -, LDr19⟩
  ihave LD19 := (ld_share_split c 19 _).2 $$ [LDl19 LDr19]
  · isplitl [LDl19]; · iexact LDl19
    iexact LDr19
  -- chunk 20: the copy out of its landing slot and its relay have both read the slot
  iapply (wp_wait_lo m K c 20 (credit_oR c 20) (oweD c 32 + oweF c 32) _) $$ [Klo20 HO Plo20]
  · isplitr; · (iapply (inv_at m K c (.lo 20)); iexact HR)
    isplitl [Klo20]; · iexact Klo20
    isplitl [HO]; · iexact HO
    isplitr; · (iapply (mayWait_own c (.lo 20) rfl 32 32); iexact Hlev)
    iexact Plo20
  iintro ⟨HO, Plo20, -, OR20, LDl20⟩
  iapply (wp_wait_fs m K c 20 (credit_ldS 20) (oweD c 32 + oweF c 32) _) $$ [Kfs20 HO Pfs20]
  · isplitr; · (iapply (inv_at m K c (.fs 20)); iexact HR)
    isplitl [Kfs20]; · iexact Kfs20
    isplitl [HO]; · iexact HO
    isplitr; · (iapply (mayWait_own c (.fs 20) rfl 32 32); iexact Hlev)
    iexact Pfs20
  iintro ⟨HO, Pfs20, -, LDr20⟩
  ihave LD20 := (ld_share_split c 20 _).2 $$ [LDl20 LDr20]
  · isplitl [LDl20]; · iexact LDl20
    iexact LDr20
  -- chunk 21: the copy out of its landing slot and its relay have both read the slot
  iapply (wp_wait_lo m K c 21 (credit_oR c 21) (oweD c 32 + oweF c 32) _) $$ [Klo21 HO Plo21]
  · isplitr; · (iapply (inv_at m K c (.lo 21)); iexact HR)
    isplitl [Klo21]; · iexact Klo21
    isplitl [HO]; · iexact HO
    isplitr; · (iapply (mayWait_own c (.lo 21) rfl 32 32); iexact Hlev)
    iexact Plo21
  iintro ⟨HO, Plo21, -, OR21, LDl21⟩
  iapply (wp_wait_fs m K c 21 (credit_ldS 21) (oweD c 32 + oweF c 32) _) $$ [Kfs21 HO Pfs21]
  · isplitr; · (iapply (inv_at m K c (.fs 21)); iexact HR)
    isplitl [Kfs21]; · iexact Kfs21
    isplitl [HO]; · iexact HO
    isplitr; · (iapply (mayWait_own c (.fs 21) rfl 32 32); iexact Hlev)
    iexact Pfs21
  iintro ⟨HO, Pfs21, -, LDr21⟩
  ihave LD21 := (ld_share_split c 21 _).2 $$ [LDl21 LDr21]
  · isplitl [LDl21]; · iexact LDl21
    iexact LDr21
  -- chunk 22: the copy out of its landing slot and its relay have both read the slot
  iapply (wp_wait_lo m K c 22 (credit_oR c 22) (oweD c 32 + oweF c 32) _) $$ [Klo22 HO Plo22]
  · isplitr; · (iapply (inv_at m K c (.lo 22)); iexact HR)
    isplitl [Klo22]; · iexact Klo22
    isplitl [HO]; · iexact HO
    isplitr; · (iapply (mayWait_own c (.lo 22) rfl 32 32); iexact Hlev)
    iexact Plo22
  iintro ⟨HO, Plo22, -, OR22, LDl22⟩
  -- the printed part k0_part144 is opened
  simp only [k0_part144_eq_skeleton]
  unfold k0_part144_skel
  simp only [semSignalWord, semWaitWord, Prog.lift, Prog.bind_op, Prog.bind_ret, Prog.pure_eq_ret, wp_deviceId]
  iapply (wp_wait_fs m K c 22 (credit_ldS 22) (oweD c 32 + oweF c 32) _) $$ [Kfs22 HO Pfs22]
  · isplitr; · (iapply (inv_at m K c (.fs 22)); iexact HR)
    isplitl [Kfs22]; · iexact Kfs22
    isplitl [HO]; · iexact HO
    isplitr; · (iapply (mayWait_own c (.fs 22) rfl 32 32); iexact Hlev)
    iexact Pfs22
  iintro ⟨HO, Pfs22, -, LDr22⟩
  ihave LD22 := (ld_share_split c 22 _).2 $$ [LDl22 LDr22]
  · isplitl [LDl22]; · iexact LDl22
    iexact LDr22
  -- chunk 23: the copy out of its landing slot and its relay have both read the slot
  iapply (wp_wait_lo m K c 23 (credit_oR c 23) (oweD c 32 + oweF c 32) _) $$ [Klo23 HO Plo23]
  · isplitr; · (iapply (inv_at m K c (.lo 23)); iexact HR)
    isplitl [Klo23]; · iexact Klo23
    isplitl [HO]; · iexact HO
    isplitr; · (iapply (mayWait_own c (.lo 23) rfl 32 32); iexact Hlev)
    iexact Plo23
  iintro ⟨HO, Plo23, -, OR23, LDl23⟩
  iapply (wp_wait_fs m K c 23 (credit_ldS 23) (oweD c 32 + oweF c 32) _) $$ [Kfs23 HO Pfs23]
  · isplitr; · (iapply (inv_at m K c (.fs 23)); iexact HR)
    isplitl [Kfs23]; · iexact Kfs23
    isplitl [HO]; · iexact HO
    isplitr; · (iapply (mayWait_own c (.fs 23) rfl 32 32); iexact Hlev)
    iexact Pfs23
  iintro ⟨HO, Pfs23, -, LDr23⟩
  ihave LD23 := (ld_share_split c 23 _).2 $$ [LDl23 LDr23]
  · isplitl [LDl23]; · iexact LDl23
    iexact LDr23
  -- chunk 24: the copy out of its landing slot and its relay have both read the slot
  iapply (wp_wait_lo m K c 24 (credit_oR c 24) (oweD c 32 + oweF c 32) _) $$ [Klo24 HO Plo24]
  · isplitr; · (iapply (inv_at m K c (.lo 24)); iexact HR)
    isplitl [Klo24]; · iexact Klo24
    isplitl [HO]; · iexact HO
    isplitr; · (iapply (mayWait_own c (.lo 24) rfl 32 32); iexact Hlev)
    iexact Plo24
  iintro ⟨HO, Plo24, -, OR24, LDl24⟩
  -- the printed part k0_part145 is opened
  simp only [k0_part145_eq_skeleton]
  unfold k0_part145_skel
  simp only [semSignalWord, semWaitWord, Prog.lift, Prog.bind_op, Prog.bind_ret, Prog.pure_eq_ret, wp_deviceId]
  iapply (wp_wait_fs m K c 24 (credit_ldS 24) (oweD c 32 + oweF c 32) _) $$ [Kfs24 HO Pfs24]
  · isplitr; · (iapply (inv_at m K c (.fs 24)); iexact HR)
    isplitl [Kfs24]; · iexact Kfs24
    isplitl [HO]; · iexact HO
    isplitr; · (iapply (mayWait_own c (.fs 24) rfl 32 32); iexact Hlev)
    iexact Pfs24
  iintro ⟨HO, Pfs24, -, LDr24⟩
  ihave LD24 := (ld_share_split c 24 _).2 $$ [LDl24 LDr24]
  · isplitl [LDl24]; · iexact LDl24
    iexact LDr24
  -- chunk 25: the copy out of its landing slot and its relay have both read the slot
  iapply (wp_wait_lo m K c 25 (credit_oR c 25) (oweD c 32 + oweF c 32) _) $$ [Klo25 HO Plo25]
  · isplitr; · (iapply (inv_at m K c (.lo 25)); iexact HR)
    isplitl [Klo25]; · iexact Klo25
    isplitl [HO]; · iexact HO
    isplitr; · (iapply (mayWait_own c (.lo 25) rfl 32 32); iexact Hlev)
    iexact Plo25
  iintro ⟨HO, Plo25, -, OR25, LDl25⟩
  iapply (wp_wait_fs m K c 25 (credit_ldS 25) (oweD c 32 + oweF c 32) _) $$ [Kfs25 HO Pfs25]
  · isplitr; · (iapply (inv_at m K c (.fs 25)); iexact HR)
    isplitl [Kfs25]; · iexact Kfs25
    isplitl [HO]; · iexact HO
    isplitr; · (iapply (mayWait_own c (.fs 25) rfl 32 32); iexact Hlev)
    iexact Pfs25
  iintro ⟨HO, Pfs25, -, LDr25⟩
  ihave LD25 := (ld_share_split c 25 _).2 $$ [LDl25 LDr25]
  · isplitl [LDl25]; · iexact LDl25
    iexact LDr25
  -- chunk 26: the copy out of its landing slot and its relay have both read the slot
  iapply (wp_wait_lo m K c 26 (credit_oR c 26) (oweD c 32 + oweF c 32) _) $$ [Klo26 HO Plo26]
  · isplitr; · (iapply (inv_at m K c (.lo 26)); iexact HR)
    isplitl [Klo26]; · iexact Klo26
    isplitl [HO]; · iexact HO
    isplitr; · (iapply (mayWait_own c (.lo 26) rfl 32 32); iexact Hlev)
    iexact Plo26
  iintro ⟨HO, Plo26, -, OR26, LDl26⟩
  iapply (wp_wait_fs m K c 26 (credit_ldS 26) (oweD c 32 + oweF c 32) _) $$ [Kfs26 HO Pfs26]
  · isplitr; · (iapply (inv_at m K c (.fs 26)); iexact HR)
    isplitl [Kfs26]; · iexact Kfs26
    isplitl [HO]; · iexact HO
    isplitr; · (iapply (mayWait_own c (.fs 26) rfl 32 32); iexact Hlev)
    iexact Pfs26
  iintro ⟨HO, Pfs26, -, LDr26⟩
  ihave LD26 := (ld_share_split c 26 _).2 $$ [LDl26 LDr26]
  · isplitl [LDl26]; · iexact LDl26
    iexact LDr26
  -- chunk 27: the copy out of its landing slot and its relay have both read the slot
  iapply (wp_wait_lo m K c 27 (credit_oR c 27) (oweD c 32 + oweF c 32) _) $$ [Klo27 HO Plo27]
  · isplitr; · (iapply (inv_at m K c (.lo 27)); iexact HR)
    isplitl [Klo27]; · iexact Klo27
    isplitl [HO]; · iexact HO
    isplitr; · (iapply (mayWait_own c (.lo 27) rfl 32 32); iexact Hlev)
    iexact Plo27
  iintro ⟨HO, Plo27, -, OR27, LDl27⟩
  -- the printed part k0_part146 is opened
  simp only [k0_part146_eq_skeleton]
  unfold k0_part146_skel
  simp only [semSignalWord, semWaitWord, Prog.lift, Prog.bind_op, Prog.bind_ret, Prog.pure_eq_ret, wp_deviceId]
  iapply (wp_wait_fs m K c 27 (credit_ldS 27) (oweD c 32 + oweF c 32) _) $$ [Kfs27 HO Pfs27]
  · isplitr; · (iapply (inv_at m K c (.fs 27)); iexact HR)
    isplitl [Kfs27]; · iexact Kfs27
    isplitl [HO]; · iexact HO
    isplitr; · (iapply (mayWait_own c (.fs 27) rfl 32 32); iexact Hlev)
    iexact Pfs27
  iintro ⟨HO, Pfs27, -, LDr27⟩
  ihave LD27 := (ld_share_split c 27 _).2 $$ [LDl27 LDr27]
  · isplitl [LDl27]; · iexact LDl27
    iexact LDr27
  -- chunk 28: the copy out of its landing slot and its relay have both read the slot
  iapply (wp_wait_lo m K c 28 (credit_oR c 28) (oweD c 32 + oweF c 32) _) $$ [Klo28 HO Plo28]
  · isplitr; · (iapply (inv_at m K c (.lo 28)); iexact HR)
    isplitl [Klo28]; · iexact Klo28
    isplitl [HO]; · iexact HO
    isplitr; · (iapply (mayWait_own c (.lo 28) rfl 32 32); iexact Hlev)
    iexact Plo28
  iintro ⟨HO, Plo28, -, OR28, LDl28⟩
  iapply (wp_wait_fs m K c 28 (credit_ldS 28) (oweD c 32 + oweF c 32) _) $$ [Kfs28 HO Pfs28]
  · isplitr; · (iapply (inv_at m K c (.fs 28)); iexact HR)
    isplitl [Kfs28]; · iexact Kfs28
    isplitl [HO]; · iexact HO
    isplitr; · (iapply (mayWait_own c (.fs 28) rfl 32 32); iexact Hlev)
    iexact Pfs28
  iintro ⟨HO, Pfs28, -, LDr28⟩
  ihave LD28 := (ld_share_split c 28 _).2 $$ [LDl28 LDr28]
  · isplitl [LDl28]; · iexact LDl28
    iexact LDr28
  -- chunk 29: the copy out of its landing slot and its relay have both read the slot
  iapply (wp_wait_lo m K c 29 (credit_oR c 29) (oweD c 32 + oweF c 32) _) $$ [Klo29 HO Plo29]
  · isplitr; · (iapply (inv_at m K c (.lo 29)); iexact HR)
    isplitl [Klo29]; · iexact Klo29
    isplitl [HO]; · iexact HO
    isplitr; · (iapply (mayWait_own c (.lo 29) rfl 32 32); iexact Hlev)
    iexact Plo29
  iintro ⟨HO, Plo29, -, OR29, LDl29⟩
  iapply (wp_wait_fs m K c 29 (credit_ldS 29) (oweD c 32 + oweF c 32) _) $$ [Kfs29 HO Pfs29]
  · isplitr; · (iapply (inv_at m K c (.fs 29)); iexact HR)
    isplitl [Kfs29]; · iexact Kfs29
    isplitl [HO]; · iexact HO
    isplitr; · (iapply (mayWait_own c (.fs 29) rfl 32 32); iexact Hlev)
    iexact Pfs29
  iintro ⟨HO, Pfs29, -, LDr29⟩
  ihave LD29 := (ld_share_split c 29 _).2 $$ [LDl29 LDr29]
  · isplitl [LDl29]; · iexact LDl29
    iexact LDr29
  -- chunk 30: the copy out of its landing slot and its relay have both read the slot
  iapply (wp_wait_lo m K c 30 (credit_oR c 30) (oweD c 32 + oweF c 32) _) $$ [Klo30 HO Plo30]
  · isplitr; · (iapply (inv_at m K c (.lo 30)); iexact HR)
    isplitl [Klo30]; · iexact Klo30
    isplitl [HO]; · iexact HO
    isplitr; · (iapply (mayWait_own c (.lo 30) rfl 32 32); iexact Hlev)
    iexact Plo30
  iintro ⟨HO, Plo30, -, OR30, LDl30⟩
  iapply (wp_wait_fs m K c 30 (credit_ldS 30) (oweD c 32 + oweF c 32) _) $$ [Kfs30 HO Pfs30]
  · isplitr; · (iapply (inv_at m K c (.fs 30)); iexact HR)
    isplitl [Kfs30]; · iexact Kfs30
    isplitl [HO]; · iexact HO
    isplitr; · (iapply (mayWait_own c (.fs 30) rfl 32 32); iexact Hlev)
    iexact Pfs30
  iintro ⟨HO, Pfs30, -, LDr30⟩
  ihave LD30 := (ld_share_split c 30 _).2 $$ [LDl30 LDr30]
  · isplitl [LDl30]; · iexact LDl30
    iexact LDr30
  -- chunk 31: the copy out of its landing slot and its relay have both read the slot
  iapply (wp_wait_lo m K c 31 (credit_oR c 31) (oweD c 32 + oweF c 32) _) $$ [Klo31 HO Plo31]
  · isplitr; · (iapply (inv_at m K c (.lo 31)); iexact HR)
    isplitl [Klo31]; · iexact Klo31
    isplitl [HO]; · iexact HO
    isplitr; · (iapply (mayWait_own c (.lo 31) rfl 32 32); iexact Hlev)
    iexact Plo31
  iintro ⟨HO, Plo31, -, OR31, LDl31⟩
  iapply (wp_wait_fs m K c 31 (credit_ldS 31) (oweD c 32 + oweF c 32) _) $$ [Kfs31 HO Pfs31]
  · isplitr; · (iapply (inv_at m K c (.fs 31)); iexact HR)
    isplitl [Kfs31]; · iexact Kfs31
    isplitl [HO]; · iexact HO
    isplitr; · (iapply (mayWait_own c (.fs 31) rfl 32 32); iexact Hlev)
    iexact Pfs31
  iintro ⟨HO, Pfs31, -, LDr31⟩
  ihave LD31 := (ld_share_split c 31 _).2 $$ [LDl31 LDr31]
  · isplitl [LDl31]; · iexact LDl31
    iexact LDr31
  -- the end: every piece and every own cell goes back whole
  rw [oweD_end c, oweF_end c, add_zero]
  ihave GXA := (Entails.of_eq (bigSep_fin32 (fun k : Fin 32 => piece c (xA c k) fullShare (Xc m c))).symm) $$ [XA0 XA1 XA2 XA3 XA4 XA5 XA6 XA7 XA8 XA9 XA10 XA11 XA12 XA13 XA14 XA15 XA16 XA17 XA18 XA19 XA20 XA21 XA22 XA23 XA24 XA25 XA26 XA27 XA28 XA29 XA30 XA31]
  · isplitl [XA0]; · iexact XA0
    isplitl [XA1]; · iexact XA1
    isplitl [XA2]; · iexact XA2
    isplitl [XA3]; · iexact XA3
    isplitl [XA4]; · iexact XA4
    isplitl [XA5]; · iexact XA5
    isplitl [XA6]; · iexact XA6
    isplitl [XA7]; · iexact XA7
    isplitl [XA8]; · iexact XA8
    isplitl [XA9]; · iexact XA9
    isplitl [XA10]; · iexact XA10
    isplitl [XA11]; · iexact XA11
    isplitl [XA12]; · iexact XA12
    isplitl [XA13]; · iexact XA13
    isplitl [XA14]; · iexact XA14
    isplitl [XA15]; · iexact XA15
    isplitl [XA16]; · iexact XA16
    isplitl [XA17]; · iexact XA17
    isplitl [XA18]; · iexact XA18
    isplitl [XA19]; · iexact XA19
    isplitl [XA20]; · iexact XA20
    isplitl [XA21]; · iexact XA21
    isplitl [XA22]; · iexact XA22
    isplitl [XA23]; · iexact XA23
    isplitl [XA24]; · iexact XA24
    isplitl [XA25]; · iexact XA25
    isplitl [XA26]; · iexact XA26
    isplitl [XA27]; · iexact XA27
    isplitl [XA28]; · iexact XA28
    isplitl [XA29]; · iexact XA29
    isplitl [XA30]; · iexact XA30
    iexact XA31
  ihave GXB := (Entails.of_eq (bigSep_fin32 (fun k : Fin 32 => piece c (xB c k) fullShare (Xc m c))).symm) $$ [XB0 XB1 XB2 XB3 XB4 XB5 XB6 XB7 XB8 XB9 XB10 XB11 XB12 XB13 XB14 XB15 XB16 XB17 XB18 XB19 XB20 XB21 XB22 XB23 XB24 XB25 XB26 XB27 XB28 XB29 XB30 XB31]
  · isplitl [XB0]; · iexact XB0
    isplitl [XB1]; · iexact XB1
    isplitl [XB2]; · iexact XB2
    isplitl [XB3]; · iexact XB3
    isplitl [XB4]; · iexact XB4
    isplitl [XB5]; · iexact XB5
    isplitl [XB6]; · iexact XB6
    isplitl [XB7]; · iexact XB7
    isplitl [XB8]; · iexact XB8
    isplitl [XB9]; · iexact XB9
    isplitl [XB10]; · iexact XB10
    isplitl [XB11]; · iexact XB11
    isplitl [XB12]; · iexact XB12
    isplitl [XB13]; · iexact XB13
    isplitl [XB14]; · iexact XB14
    isplitl [XB15]; · iexact XB15
    isplitl [XB16]; · iexact XB16
    isplitl [XB17]; · iexact XB17
    isplitl [XB18]; · iexact XB18
    isplitl [XB19]; · iexact XB19
    isplitl [XB20]; · iexact XB20
    isplitl [XB21]; · iexact XB21
    isplitl [XB22]; · iexact XB22
    isplitl [XB23]; · iexact XB23
    isplitl [XB24]; · iexact XB24
    isplitl [XB25]; · iexact XB25
    isplitl [XB26]; · iexact XB26
    isplitl [XB27]; · iexact XB27
    isplitl [XB28]; · iexact XB28
    isplitl [XB29]; · iexact XB29
    isplitl [XB30]; · iexact XB30
    iexact XB31
  ihave GOA := (Entails.of_eq (bigSep_fin32 (fun k : Fin 32 => piece c (oA c k) fullShare (outA m c k))).symm) $$ [OA0 OA1 OA2 OA3 OA4 OA5 OA6 OA7 OA8 OA9 OA10 OA11 OA12 OA13 OA14 OA15 OA16 OA17 OA18 OA19 OA20 OA21 OA22 OA23 OA24 OA25 OA26 OA27 OA28 OA29 OA30 OA31]
  · isplitl [OA0]; · iexact OA0
    isplitl [OA1]; · iexact OA1
    isplitl [OA2]; · iexact OA2
    isplitl [OA3]; · iexact OA3
    isplitl [OA4]; · iexact OA4
    isplitl [OA5]; · iexact OA5
    isplitl [OA6]; · iexact OA6
    isplitl [OA7]; · iexact OA7
    isplitl [OA8]; · iexact OA8
    isplitl [OA9]; · iexact OA9
    isplitl [OA10]; · iexact OA10
    isplitl [OA11]; · iexact OA11
    isplitl [OA12]; · iexact OA12
    isplitl [OA13]; · iexact OA13
    isplitl [OA14]; · iexact OA14
    isplitl [OA15]; · iexact OA15
    isplitl [OA16]; · iexact OA16
    isplitl [OA17]; · iexact OA17
    isplitl [OA18]; · iexact OA18
    isplitl [OA19]; · iexact OA19
    isplitl [OA20]; · iexact OA20
    isplitl [OA21]; · iexact OA21
    isplitl [OA22]; · iexact OA22
    isplitl [OA23]; · iexact OA23
    isplitl [OA24]; · iexact OA24
    isplitl [OA25]; · iexact OA25
    isplitl [OA26]; · iexact OA26
    isplitl [OA27]; · iexact OA27
    isplitl [OA28]; · iexact OA28
    isplitl [OA29]; · iexact OA29
    isplitl [OA30]; · iexact OA30
    iexact OA31
  ihave GOB := (Entails.of_eq (bigSep_fin32 (fun k : Fin 32 => piece c (oB c k) fullShare (outB m c k))).symm) $$ [OB0 OB1 OB2 OB3 OB4 OB5 OB6 OB7 OB8 OB9 OB10 OB11 OB12 OB13 OB14 OB15 OB16 OB17 OB18 OB19 OB20 OB21 OB22 OB23 OB24 OB25 OB26 OB27 OB28 OB29 OB30 OB31]
  · isplitl [OB0]; · iexact OB0
    isplitl [OB1]; · iexact OB1
    isplitl [OB2]; · iexact OB2
    isplitl [OB3]; · iexact OB3
    isplitl [OB4]; · iexact OB4
    isplitl [OB5]; · iexact OB5
    isplitl [OB6]; · iexact OB6
    isplitl [OB7]; · iexact OB7
    isplitl [OB8]; · iexact OB8
    isplitl [OB9]; · iexact OB9
    isplitl [OB10]; · iexact OB10
    isplitl [OB11]; · iexact OB11
    isplitl [OB12]; · iexact OB12
    isplitl [OB13]; · iexact OB13
    isplitl [OB14]; · iexact OB14
    isplitl [OB15]; · iexact OB15
    isplitl [OB16]; · iexact OB16
    isplitl [OB17]; · iexact OB17
    isplitl [OB18]; · iexact OB18
    isplitl [OB19]; · iexact OB19
    isplitl [OB20]; · iexact OB20
    isplitl [OB21]; · iexact OB21
    isplitl [OB22]; · iexact OB22
    isplitl [OB23]; · iexact OB23
    isplitl [OB24]; · iexact OB24
    isplitl [OB25]; · iexact OB25
    isplitl [OB26]; · iexact OB26
    isplitl [OB27]; · iexact OB27
    isplitl [OB28]; · iexact OB28
    isplitl [OB29]; · iexact OB29
    isplitl [OB30]; · iexact OB30
    iexact OB31
  ihave GOR := (Entails.of_eq (bigSep_fin32 (fun k : Fin 32 => piece c (oR c k) fullShare (outL m c k))).symm) $$ [OR0 OR1 OR2 OR3 OR4 OR5 OR6 OR7 OR8 OR9 OR10 OR11 OR12 OR13 OR14 OR15 OR16 OR17 OR18 OR19 OR20 OR21 OR22 OR23 OR24 OR25 OR26 OR27 OR28 OR29 OR30 OR31]
  · isplitl [OR0]; · iexact OR0
    isplitl [OR1]; · iexact OR1
    isplitl [OR2]; · iexact OR2
    isplitl [OR3]; · iexact OR3
    isplitl [OR4]; · iexact OR4
    isplitl [OR5]; · iexact OR5
    isplitl [OR6]; · iexact OR6
    isplitl [OR7]; · iexact OR7
    isplitl [OR8]; · iexact OR8
    isplitl [OR9]; · iexact OR9
    isplitl [OR10]; · iexact OR10
    isplitl [OR11]; · iexact OR11
    isplitl [OR12]; · iexact OR12
    isplitl [OR13]; · iexact OR13
    isplitl [OR14]; · iexact OR14
    isplitl [OR15]; · iexact OR15
    isplitl [OR16]; · iexact OR16
    isplitl [OR17]; · iexact OR17
    isplitl [OR18]; · iexact OR18
    isplitl [OR19]; · iexact OR19
    isplitl [OR20]; · iexact OR20
    isplitl [OR21]; · iexact OR21
    isplitl [OR22]; · iexact OR22
    isplitl [OR23]; · iexact OR23
    isplitl [OR24]; · iexact OR24
    isplitl [OR25]; · iexact OR25
    isplitl [OR26]; · iexact OR26
    isplitl [OR27]; · iexact OR27
    isplitl [OR28]; · iexact OR28
    isplitl [OR29]; · iexact OR29
    isplitl [OR30]; · iexact OR30
    iexact OR31
  ihave GOF := (Entails.of_eq (bigSep_fin32 (fun k : Fin 32 => piece c (oR (py c) k) fullShare (outF m c k))).symm) $$ [OF0 OF1 OF2 OF3 OF4 OF5 OF6 OF7 OF8 OF9 OF10 OF11 OF12 OF13 OF14 OF15 OF16 OF17 OF18 OF19 OF20 OF21 OF22 OF23 OF24 OF25 OF26 OF27 OF28 OF29 OF30 OF31]
  · isplitl [OF0]; · iexact OF0
    isplitl [OF1]; · iexact OF1
    isplitl [OF2]; · iexact OF2
    isplitl [OF3]; · iexact OF3
    isplitl [OF4]; · iexact OF4
    isplitl [OF5]; · iexact OF5
    isplitl [OF6]; · iexact OF6
    isplitl [OF7]; · iexact OF7
    isplitl [OF8]; · iexact OF8
    isplitl [OF9]; · iexact OF9
    isplitl [OF10]; · iexact OF10
    isplitl [OF11]; · iexact OF11
    isplitl [OF12]; · iexact OF12
    isplitl [OF13]; · iexact OF13
    isplitl [OF14]; · iexact OF14
    isplitl [OF15]; · iexact OF15
    isplitl [OF16]; · iexact OF16
    isplitl [OF17]; · iexact OF17
    isplitl [OF18]; · iexact OF18
    isplitl [OF19]; · iexact OF19
    isplitl [OF20]; · iexact OF20
    isplitl [OF21]; · iexact OF21
    isplitl [OF22]; · iexact OF22
    isplitl [OF23]; · iexact OF23
    isplitl [OF24]; · iexact OF24
    isplitl [OF25]; · iexact OF25
    isplitl [OF26]; · iexact OF26
    isplitl [OF27]; · iexact OF27
    isplitl [OF28]; · iexact OF28
    isplitl [OF29]; · iexact OF29
    isplitl [OF30]; · iexact OF30
    iexact OF31
  ihave GVA := (Entails.of_eq (bigSep_fin2 (fun j : Fin 2 => (iprop(∃ f, piece c (viaS j) fullShare f) : sProp 𝕄))).symm) $$ [VA0 VA1]
  · isplitl [VA0]; · (iexists _; iexact VA0)
    (iexists _; iexact VA1)
  ihave GVB := (Entails.of_eq (bigSep_fin2 (fun j : Fin 2 => (iprop(∃ f, piece c (vibS j) fullShare f) : sProp 𝕄))).symm) $$ [VB0 VB1]
  · isplitl [VB0]; · (iexists _; iexact VB0)
    (iexists _; iexact VB1)
  ihave GCA := (Entails.of_eq (bigSep_fin3 (fun s : Fin 3 => (iprop(∃ f, ((vcaM.access (rVc s) : View sig .tc _ _ _).loc (c : Thread nD τ) ↦[(vcaM.access (rVc s) : View sig .tc _ _ _).set]{fullShare} f)) : sProp 𝕄))).symm) $$ [CA0 CA1 CA2]
  · isplitl [CA0]; · (iexists _; iexact CA0)
    isplitl [CA1]; · (iexists _; iexact CA1)
    (iexists _; iexact CA2)
  ihave GCB := (Entails.of_eq (bigSep_fin3 (fun s : Fin 3 => (iprop(∃ f, ((vcbM.access (rVc s) : View sig .tc _ _ _).loc (c : Thread nD τ) ↦[(vcbM.access (rVc s) : View sig .tc _ _ _).set]{fullShare} f)) : sProp 𝕄))).symm) $$ [CB0 CB1 CB2]
  · isplitl [CB0]; · (iexists _; iexact CB0)
    isplitl [CB1]; · (iexists _; iexact CB1)
    (iexists _; iexact CB2)
  ihave GLD := (Entails.of_eq (bigSep_fin32 (fun k : Fin 32 => (iprop(∃ f, piece c (ldS k) fullShare f) : sProp 𝕄))).symm) $$ [LD0 LD1 LD2 LD3 LD4 LD5 LD6 LD7 LD8 LD9 LD10 LD11 LD12 LD13 LD14 LD15 LD16 LD17 LD18 LD19 LD20 LD21 LD22 LD23 LD24 LD25 LD26 LD27 LD28 LD29 LD30 LD31]
  · isplitl [LD0]; · (iexists _; iexact LD0)
    isplitl [LD1]; · (iexists _; iexact LD1)
    isplitl [LD2]; · (iexists _; iexact LD2)
    isplitl [LD3]; · (iexists _; iexact LD3)
    isplitl [LD4]; · (iexists _; iexact LD4)
    isplitl [LD5]; · (iexists _; iexact LD5)
    isplitl [LD6]; · (iexists _; iexact LD6)
    isplitl [LD7]; · (iexists _; iexact LD7)
    isplitl [LD8]; · (iexists _; iexact LD8)
    isplitl [LD9]; · (iexists _; iexact LD9)
    isplitl [LD10]; · (iexists _; iexact LD10)
    isplitl [LD11]; · (iexists _; iexact LD11)
    isplitl [LD12]; · (iexists _; iexact LD12)
    isplitl [LD13]; · (iexists _; iexact LD13)
    isplitl [LD14]; · (iexists _; iexact LD14)
    isplitl [LD15]; · (iexists _; iexact LD15)
    isplitl [LD16]; · (iexists _; iexact LD16)
    isplitl [LD17]; · (iexists _; iexact LD17)
    isplitl [LD18]; · (iexists _; iexact LD18)
    isplitl [LD19]; · (iexists _; iexact LD19)
    isplitl [LD20]; · (iexists _; iexact LD20)
    isplitl [LD21]; · (iexists _; iexact LD21)
    isplitl [LD22]; · (iexists _; iexact LD22)
    isplitl [LD23]; · (iexists _; iexact LD23)
    isplitl [LD24]; · (iexists _; iexact LD24)
    isplitl [LD25]; · (iexists _; iexact LD25)
    isplitl [LD26]; · (iexists _; iexact LD26)
    isplitl [LD27]; · (iexists _; iexact LD27)
    isplitl [LD28]; · (iexists _; iexact LD28)
    isplitl [LD29]; · (iexists _; iexact LD29)
    isplitl [LD30]; · (iexists _; iexact LD30)
    (iexists _; iexact LD31)
  ihave GP2 := (Entails.of_eq (bigSep_fin2 (fun j : Fin 2 => (iprop(atPos ER (cell c (.ina j)) 16 ∅ 0 ∗ atPos ER (cell c (.inb j)) 16 ∅ 0) : sProp 𝕄))).symm) $$ [Pia0 Pib0 Pia1 Pib1]
  · isplitl [Pia0 Pib0]
    · isplitl [Pia0]; · iexact Pia0
      iexact Pib0
    isplitl [Pia1]; · iexact Pia1
    iexact Pib1
  ihave GP3 := (Entails.of_eq (bigSep_fin3 (fun s : Fin 3 => (iprop(atPos ER (cell c (.lca s)) (Fam.lca s).rounds ∅ 0 ∗ atPos ER (cell c (.lcb s)) (Fam.lcb s).rounds ∅ 0) : sProp 𝕄))).symm) $$ [Pla0 Plb0 Pla1 Plb1 Pla2 Plb2]
  · isplitl [Pla0 Plb0]
    · isplitl [Pla0]; · iexact Pla0
      iexact Plb0
    isplitl [Pla1 Plb1]
    · isplitl [Pla1]; · iexact Pla1
      iexact Plb1
    isplitl [Pla2]; · iexact Pla2
    iexact Plb2
  ihave GPK := (Entails.of_eq (bigSep_fin32 (fun k : Fin 32 => (iprop(atPos ER (cell c (.lo k)) 1 ∅ 0 ∗ atPos ER (cell c (.ds k)) 1 ∅ 0 ∗ atPos ER (cell c (.dr k)) 1 ∅ 0 ∗ atPos ER (cell c (.fs k)) 1 ∅ 0 ∗ atPos ER (cell c (.fr k)) 1 ∅ 0) : sProp 𝕄))).symm) $$ [Plo0 Pds0 Pdr0 Pfs0 Pfr0 Plo1 Pds1 Pdr1 Pfs1 Pfr1 Plo2 Pds2 Pdr2 Pfs2 Pfr2 Plo3 Pds3 Pdr3 Pfs3 Pfr3 Plo4 Pds4 Pdr4 Pfs4 Pfr4 Plo5 Pds5 Pdr5 Pfs5 Pfr5 Plo6 Pds6 Pdr6 Pfs6 Pfr6 Plo7 Pds7 Pdr7 Pfs7 Pfr7 Plo8 Pds8 Pdr8 Pfs8 Pfr8 Plo9 Pds9 Pdr9 Pfs9 Pfr9 Plo10 Pds10 Pdr10 Pfs10 Pfr10 Plo11 Pds11 Pdr11 Pfs11 Pfr11 Plo12 Pds12 Pdr12 Pfs12 Pfr12 Plo13 Pds13 Pdr13 Pfs13 Pfr13 Plo14 Pds14 Pdr14 Pfs14 Pfr14 Plo15 Pds15 Pdr15 Pfs15 Pfr15 Plo16 Pds16 Pdr16 Pfs16 Pfr16 Plo17 Pds17 Pdr17 Pfs17 Pfr17 Plo18 Pds18 Pdr18 Pfs18 Pfr18 Plo19 Pds19 Pdr19 Pfs19 Pfr19 Plo20 Pds20 Pdr20 Pfs20 Pfr20 Plo21 Pds21 Pdr21 Pfs21 Pfr21 Plo22 Pds22 Pdr22 Pfs22 Pfr22 Plo23 Pds23 Pdr23 Pfs23 Pfr23 Plo24 Pds24 Pdr24 Pfs24 Pfr24 Plo25 Pds25 Pdr25 Pfs25 Pfr25 Plo26 Pds26 Pdr26 Pfs26 Pfr26 Plo27 Pds27 Pdr27 Pfs27 Pfr27 Plo28 Pds28 Pdr28 Pfs28 Pfr28 Plo29 Pds29 Pdr29 Pfs29 Pfr29 Plo30 Pds30 Pdr30 Pfs30 Pfr30 Plo31 Pds31 Pdr31 Pfs31 Pfr31]
  · isplitl [Plo0 Pds0 Pdr0 Pfs0 Pfr0]
    · isplitl [Plo0]; · iexact Plo0
      isplitl [Pds0]; · iexact Pds0
      isplitl [Pdr0]; · iexact Pdr0
      isplitl [Pfs0]; · iexact Pfs0
      iexact Pfr0
    isplitl [Plo1 Pds1 Pdr1 Pfs1 Pfr1]
    · isplitl [Plo1]; · iexact Plo1
      isplitl [Pds1]; · iexact Pds1
      isplitl [Pdr1]; · iexact Pdr1
      isplitl [Pfs1]; · iexact Pfs1
      iexact Pfr1
    isplitl [Plo2 Pds2 Pdr2 Pfs2 Pfr2]
    · isplitl [Plo2]; · iexact Plo2
      isplitl [Pds2]; · iexact Pds2
      isplitl [Pdr2]; · iexact Pdr2
      isplitl [Pfs2]; · iexact Pfs2
      iexact Pfr2
    isplitl [Plo3 Pds3 Pdr3 Pfs3 Pfr3]
    · isplitl [Plo3]; · iexact Plo3
      isplitl [Pds3]; · iexact Pds3
      isplitl [Pdr3]; · iexact Pdr3
      isplitl [Pfs3]; · iexact Pfs3
      iexact Pfr3
    isplitl [Plo4 Pds4 Pdr4 Pfs4 Pfr4]
    · isplitl [Plo4]; · iexact Plo4
      isplitl [Pds4]; · iexact Pds4
      isplitl [Pdr4]; · iexact Pdr4
      isplitl [Pfs4]; · iexact Pfs4
      iexact Pfr4
    isplitl [Plo5 Pds5 Pdr5 Pfs5 Pfr5]
    · isplitl [Plo5]; · iexact Plo5
      isplitl [Pds5]; · iexact Pds5
      isplitl [Pdr5]; · iexact Pdr5
      isplitl [Pfs5]; · iexact Pfs5
      iexact Pfr5
    isplitl [Plo6 Pds6 Pdr6 Pfs6 Pfr6]
    · isplitl [Plo6]; · iexact Plo6
      isplitl [Pds6]; · iexact Pds6
      isplitl [Pdr6]; · iexact Pdr6
      isplitl [Pfs6]; · iexact Pfs6
      iexact Pfr6
    isplitl [Plo7 Pds7 Pdr7 Pfs7 Pfr7]
    · isplitl [Plo7]; · iexact Plo7
      isplitl [Pds7]; · iexact Pds7
      isplitl [Pdr7]; · iexact Pdr7
      isplitl [Pfs7]; · iexact Pfs7
      iexact Pfr7
    isplitl [Plo8 Pds8 Pdr8 Pfs8 Pfr8]
    · isplitl [Plo8]; · iexact Plo8
      isplitl [Pds8]; · iexact Pds8
      isplitl [Pdr8]; · iexact Pdr8
      isplitl [Pfs8]; · iexact Pfs8
      iexact Pfr8
    isplitl [Plo9 Pds9 Pdr9 Pfs9 Pfr9]
    · isplitl [Plo9]; · iexact Plo9
      isplitl [Pds9]; · iexact Pds9
      isplitl [Pdr9]; · iexact Pdr9
      isplitl [Pfs9]; · iexact Pfs9
      iexact Pfr9
    isplitl [Plo10 Pds10 Pdr10 Pfs10 Pfr10]
    · isplitl [Plo10]; · iexact Plo10
      isplitl [Pds10]; · iexact Pds10
      isplitl [Pdr10]; · iexact Pdr10
      isplitl [Pfs10]; · iexact Pfs10
      iexact Pfr10
    isplitl [Plo11 Pds11 Pdr11 Pfs11 Pfr11]
    · isplitl [Plo11]; · iexact Plo11
      isplitl [Pds11]; · iexact Pds11
      isplitl [Pdr11]; · iexact Pdr11
      isplitl [Pfs11]; · iexact Pfs11
      iexact Pfr11
    isplitl [Plo12 Pds12 Pdr12 Pfs12 Pfr12]
    · isplitl [Plo12]; · iexact Plo12
      isplitl [Pds12]; · iexact Pds12
      isplitl [Pdr12]; · iexact Pdr12
      isplitl [Pfs12]; · iexact Pfs12
      iexact Pfr12
    isplitl [Plo13 Pds13 Pdr13 Pfs13 Pfr13]
    · isplitl [Plo13]; · iexact Plo13
      isplitl [Pds13]; · iexact Pds13
      isplitl [Pdr13]; · iexact Pdr13
      isplitl [Pfs13]; · iexact Pfs13
      iexact Pfr13
    isplitl [Plo14 Pds14 Pdr14 Pfs14 Pfr14]
    · isplitl [Plo14]; · iexact Plo14
      isplitl [Pds14]; · iexact Pds14
      isplitl [Pdr14]; · iexact Pdr14
      isplitl [Pfs14]; · iexact Pfs14
      iexact Pfr14
    isplitl [Plo15 Pds15 Pdr15 Pfs15 Pfr15]
    · isplitl [Plo15]; · iexact Plo15
      isplitl [Pds15]; · iexact Pds15
      isplitl [Pdr15]; · iexact Pdr15
      isplitl [Pfs15]; · iexact Pfs15
      iexact Pfr15
    isplitl [Plo16 Pds16 Pdr16 Pfs16 Pfr16]
    · isplitl [Plo16]; · iexact Plo16
      isplitl [Pds16]; · iexact Pds16
      isplitl [Pdr16]; · iexact Pdr16
      isplitl [Pfs16]; · iexact Pfs16
      iexact Pfr16
    isplitl [Plo17 Pds17 Pdr17 Pfs17 Pfr17]
    · isplitl [Plo17]; · iexact Plo17
      isplitl [Pds17]; · iexact Pds17
      isplitl [Pdr17]; · iexact Pdr17
      isplitl [Pfs17]; · iexact Pfs17
      iexact Pfr17
    isplitl [Plo18 Pds18 Pdr18 Pfs18 Pfr18]
    · isplitl [Plo18]; · iexact Plo18
      isplitl [Pds18]; · iexact Pds18
      isplitl [Pdr18]; · iexact Pdr18
      isplitl [Pfs18]; · iexact Pfs18
      iexact Pfr18
    isplitl [Plo19 Pds19 Pdr19 Pfs19 Pfr19]
    · isplitl [Plo19]; · iexact Plo19
      isplitl [Pds19]; · iexact Pds19
      isplitl [Pdr19]; · iexact Pdr19
      isplitl [Pfs19]; · iexact Pfs19
      iexact Pfr19
    isplitl [Plo20 Pds20 Pdr20 Pfs20 Pfr20]
    · isplitl [Plo20]; · iexact Plo20
      isplitl [Pds20]; · iexact Pds20
      isplitl [Pdr20]; · iexact Pdr20
      isplitl [Pfs20]; · iexact Pfs20
      iexact Pfr20
    isplitl [Plo21 Pds21 Pdr21 Pfs21 Pfr21]
    · isplitl [Plo21]; · iexact Plo21
      isplitl [Pds21]; · iexact Pds21
      isplitl [Pdr21]; · iexact Pdr21
      isplitl [Pfs21]; · iexact Pfs21
      iexact Pfr21
    isplitl [Plo22 Pds22 Pdr22 Pfs22 Pfr22]
    · isplitl [Plo22]; · iexact Plo22
      isplitl [Pds22]; · iexact Pds22
      isplitl [Pdr22]; · iexact Pdr22
      isplitl [Pfs22]; · iexact Pfs22
      iexact Pfr22
    isplitl [Plo23 Pds23 Pdr23 Pfs23 Pfr23]
    · isplitl [Plo23]; · iexact Plo23
      isplitl [Pds23]; · iexact Pds23
      isplitl [Pdr23]; · iexact Pdr23
      isplitl [Pfs23]; · iexact Pfs23
      iexact Pfr23
    isplitl [Plo24 Pds24 Pdr24 Pfs24 Pfr24]
    · isplitl [Plo24]; · iexact Plo24
      isplitl [Pds24]; · iexact Pds24
      isplitl [Pdr24]; · iexact Pdr24
      isplitl [Pfs24]; · iexact Pfs24
      iexact Pfr24
    isplitl [Plo25 Pds25 Pdr25 Pfs25 Pfr25]
    · isplitl [Plo25]; · iexact Plo25
      isplitl [Pds25]; · iexact Pds25
      isplitl [Pdr25]; · iexact Pdr25
      isplitl [Pfs25]; · iexact Pfs25
      iexact Pfr25
    isplitl [Plo26 Pds26 Pdr26 Pfs26 Pfr26]
    · isplitl [Plo26]; · iexact Plo26
      isplitl [Pds26]; · iexact Pds26
      isplitl [Pdr26]; · iexact Pdr26
      isplitl [Pfs26]; · iexact Pfs26
      iexact Pfr26
    isplitl [Plo27 Pds27 Pdr27 Pfs27 Pfr27]
    · isplitl [Plo27]; · iexact Plo27
      isplitl [Pds27]; · iexact Pds27
      isplitl [Pdr27]; · iexact Pdr27
      isplitl [Pfs27]; · iexact Pfs27
      iexact Pfr27
    isplitl [Plo28 Pds28 Pdr28 Pfs28 Pfr28]
    · isplitl [Plo28]; · iexact Plo28
      isplitl [Pds28]; · iexact Pds28
      isplitl [Pdr28]; · iexact Pdr28
      isplitl [Pfs28]; · iexact Pfs28
      iexact Pfr28
    isplitl [Plo29 Pds29 Pdr29 Pfs29 Pfr29]
    · isplitl [Plo29]; · iexact Plo29
      isplitl [Pds29]; · iexact Pds29
      isplitl [Pdr29]; · iexact Pdr29
      isplitl [Pfs29]; · iexact Pfs29
      iexact Pfr29
    isplitl [Plo30 Pds30 Pdr30 Pfs30 Pfr30]
    · isplitl [Plo30]; · iexact Plo30
      isplitl [Pds30]; · iexact Pds30
      isplitl [Pdr30]; · iexact Pdr30
      isplitl [Pfs30]; · iexact Pfs30
      iexact Pfr30
    isplitl [Plo31]; · iexact Plo31
    isplitl [Pds31]; · iexact Pds31
    isplitl [Pdr31]; · iexact Pdr31
    isplitl [Pfs31]; · iexact Pfs31
    iexact Pfr31
  imod (finish m K c) $$ [GXA GXB GOA GOB GOR GOF GVA GVB GCA GCB GLD GP2 GP3 GPK] with HΦ
  · isplitr; · iexact HR
    isplitl [GXA]; · iexact GXA
    isplitl [GXB]; · iexact GXB
    isplitl [GOA]; · iexact GOA
    isplitl [GOB]; · iexact GOB
    isplitl [GOR]; · iexact GOR
    isplitl [GOF]; · iexact GOF
    isplitl [GVA]; · iexact GVA
    isplitl [GVB]; · iexact GVB
    isplitl [GCA]; · iexact GCA
    isplitl [GCB]; · iexact GCB
    isplitl [GLD]; · iexact GLD
    isplitl [GP2]; · iexact GP2
    isplitl [GP3]; · iexact GP3
    iexact GPK
  rw [wp_ret]; imodintro
  iapply Hk
  isplitl [HΦ]; · iexact HΦ
  iexists _; iexact HO

end Cert.KernelA2A
end
-- ==== Proof.B2ALaunch.lean ====
/-
  The launch of the all-to-all. Every semaphore of every device is a cell of the rounds schedule: the launch element funds
  them all, one global step allocates every cell's invariant from its counter at zero and deals each duty's token to the
  device that pays it, the launch credit gives each device the units its peers owe it, and the launch theorem then turns
  the four bodies' obligations into the run of the program, with `x` unchanged and the result at the written blocks.
-/
import proofs.«900012_g7700000000000013_dist_a2a_v7x_xy2x2_x_m16384_n1024_bf16_1_alg».proof.Proof.B2AGhost
import proofs.«900012_g7700000000000013_dist_a2a_v7x_xy2x2_x_m16384_n1024_bf16_1_alg».proof.Proof.B2ABody
import proofs.«900012_g7700000000000013_dist_a2a_v7x_xy2x2_x_m16384_n1024_bf16_1_alg».proof.Proof.Gen.Kernel.Launch
import proofs.«900012_g7700000000000013_dist_a2a_v7x_xy2x2_x_m16384_n1024_bf16_1_alg».proof.Proof.Gen.Kernel.Points
import proofs.«900012_g7700000000000013_dist_a2a_v7x_xy2x2_x_m16384_n1024_bf16_1_alg».proof.Proof.Gen.Kernel.Frame
import Idealize.ShloMosaic.Lib.Pipeline.Launch
import Idealize.ShloMosaic.Lib.Pipeline.Kit

noncomputable section

namespace Cert.KernelA2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A big separating conjunction is monotone in its summands (the summands' entailments stated through `⊢`). -/
theorem bigSep_mono' {I : Type} {S : Finset I} {Φ Ψ : I → sProp 𝕄} (h : ∀ i ∈ S, Φ i ⊢ Ψ i) : bigSep S Φ ⊢ bigSep S Ψ :=
  bigSep_mono h

/-! ## The families of cells, enumerated -/

abbrev FamIx : Type := Fin 2 ⊕ Fin 2 ⊕ Fin 3 ⊕ Fin 3 ⊕ Fin 32 ⊕ Fin 32 ⊕ Fin 32 ⊕ Fin 32 ⊕ Fin 32 ⊕ Unit

def famAt : FamIx → Fam
  | .inl j => .ina j
  | .inr (.inl j) => .inb j
  | .inr (.inr (.inl s)) => .lca s
  | .inr (.inr (.inr (.inl s))) => .lcb s
  | .inr (.inr (.inr (.inr (.inl k)))) => .lo k
  | .inr (.inr (.inr (.inr (.inr (.inl k))))) => .ds k
  | .inr (.inr (.inr (.inr (.inr (.inr (.inl k)))))) => .dr k
  | .inr (.inr (.inr (.inr (.inr (.inr (.inr (.inl k))))))) => .fs k
  | .inr (.inr (.inr (.inr (.inr (.inr (.inr (.inr (.inl k)))))))) => .fr k
  | .inr (.inr (.inr (.inr (.inr (.inr (.inr (.inr (.inr _)))))))) => .bar

def ixOf : Fam → FamIx
  | .ina j => .inl j
  | .inb j => .inr (.inl j)
  | .lca s => .inr (.inr (.inl s))
  | .lcb s => .inr (.inr (.inr (.inl s)))
  | .lo k => .inr (.inr (.inr (.inr (.inl k))))
  | .ds k => .inr (.inr (.inr (.inr (.inr (.inl k)))))
  | .dr k => .inr (.inr (.inr (.inr (.inr (.inr (.inl k))))))
  | .fs k => .inr (.inr (.inr (.inr (.inr (.inr (.inr (.inl k)))))))
  | .fr k => .inr (.inr (.inr (.inr (.inr (.inr (.inr (.inr (.inl k))))))))
  | .bar => .inr (.inr (.inr (.inr (.inr (.inr (.inr (.inr (.inr ()))))))))

def famE : FamIx ≃ Fam :=
  ⟨famAt, ixOf, by rintro (j | j | s | s | k | k | k | k | k | u) <;> rfl, by intro f; cases f <;> rfl⟩

instance : Fintype Fam := Fintype.ofEquiv FamIx famE

theorem sem_injective : Function.Injective (Fam.sem) := fun a b h =>
  Option.some.inj (by rw [← decode_sem a, ← decode_sem b, h])

/-- One assertion per family is one per enumerated family. -/
theorem overFam_eq (Φ : Fam → sProp 𝕄) : (bigSep Finset.univ fun i : FamIx => Φ (famAt i)) = overFam Φ := by
  unfold overFam
  rw [bigSep_univ_sum, bigSep_univ_sum, bigSep_univ_sum, bigSep_univ_sum, bigSep_univ_sum, bigSep_univ_sum, bigSep_univ_sum,
    bigSep_univ_sum, bigSep_univ_sum, show (Finset.univ : Finset Unit) = {()} from rfl, bigSep_singleton]
  rfl

theorem bigSep_fam (Φ : Fam → sProp 𝕄) : bigSep Finset.univ Φ = overFam Φ :=
  (bigSep_univ_equiv famE Φ).trans (overFam_eq Φ)

/-- The cell of a device and a family. -/
abbrev kcell (cf : Dev nD × Fam) : GSem nD τ sig := cell cf.1 cf.2

theorem kcell_injective : Function.Injective (kcell : Dev nD × Fam → GSem nD τ sig) := by
  rintro ⟨c, f⟩ ⟨c', f'⟩ h
  have h1 : c = c' := by have := congrArg (fun g : GSem nD τ sig => g.1.1) h; exact this
  have h2 : f = f' := sem_injective (congrArg Prod.snd h)
  rw [h1, h2]

/-- Every cell of every device. -/
def myCells : Finset (GSem nD τ sig) := Finset.univ.map ⟨kcell, kcell_injective⟩

theorem bigSep_myCells (Φ : GSem nD τ sig → sProp 𝕄) :
    bigSep myCells Φ = bigSep Finset.univ fun c : Dev nD => bigSep Finset.univ fun f : Fam => Φ (cell c f) := by
  unfold myCells; rw [bigSep_map, bigSep_univ_prod]; rfl

/-! ## The duty tokens, enumerated: nine per chunk, and the handshake's two -/

abbrev TokIx : Type := (Fin 32 × Fin 9) ⊕ Bool

/-- The (family, round, duty) of a token: chunk `k` uses round `k / 2` of its staging cells, round `k / 3` of its
    local-copy cells, and the one round of its own five cells. -/
def famTok : TokIx → Fam × ℕ × Bool
  | .inl (k, ⟨0, _⟩) => (.ina (slot2 k), k.val / 2, false)
  | .inl (k, ⟨1, _⟩) => (.inb (slot2 k), k.val / 2, false)
  | .inl (k, ⟨2, _⟩) => (.lca (slot3 k), k.val / 3, false)
  | .inl (k, ⟨3, _⟩) => (.lcb (slot3 k), k.val / 3, false)
  | .inl (k, ⟨4, _⟩) => (.lo k, 0, false)
  | .inl (k, ⟨5, _⟩) => (.ds k, 0, false)
  | .inl (k, ⟨6, _⟩) => (.fs k, 0, false)
  | .inl (k, ⟨7, _⟩) => (.dr k, 0, false)
  | .inl (k, ⟨_ + 8, _⟩) => (.fr k, 0, false)
  | .inr d => (.bar, 0, d)

theorem famTok_injective : Function.Injective famTok := by decide +kernel

abbrev tokOf (cx : Dev nD × TokIx) : GSem nD τ sig × ℕ × Bool :=
  (cell cx.1 (famTok cx.2).1, (famTok cx.2).2.1, (famTok cx.2).2.2)

theorem tokOf_injective : Function.Injective (tokOf : Dev nD × TokIx → GSem nD τ sig × ℕ × Bool) := by
  rintro ⟨c, x⟩ ⟨c', x'⟩ h
  have h1 : c = c' := by have := congrArg (fun y : GSem nD τ sig × ℕ × Bool => y.1.1.1) h; exact this
  have h2 : famTok x = famTok x' :=
    Prod.ext (sem_injective (congrArg (fun y : GSem nD τ sig × ℕ × Bool => y.1.2) h))
      (Prod.ext (congrArg (fun y : GSem nD τ sig × ℕ × Bool => y.2.1) h) (congrArg (fun y : GSem nD τ sig × ℕ × Bool => y.2.2) h))
  rw [h1, famTok_injective h2]

def myToks : Finset (GSem nD τ sig × ℕ × Bool) := Finset.univ.map ⟨tokOf, tokOf_injective⟩

/-- The tokens of chunk `k`'s nine duties on device `e`'s own cells, and all of a device's own cells' tokens. -/
def chunkToks (e : Dev nD) (k : Fin 32) : sProp 𝕄 :=
  iprop(dutyTok ER (cell e (.ina (slot2 k))) (k.val / 2) false ∗ dutyTok ER (cell e (.inb (slot2 k))) (k.val / 2) false
    ∗ dutyTok ER (cell e (.lca (slot3 k))) (k.val / 3) false ∗ dutyTok ER (cell e (.lcb (slot3 k))) (k.val / 3) false
    ∗ dutyTok ER (cell e (.lo k)) 0 false ∗ dutyTok ER (cell e (.ds k)) 0 false ∗ dutyTok ER (cell e (.fs k)) 0 false
    ∗ dutyTok ER (cell e (.dr k)) 0 false ∗ dutyTok ER (cell e (.fr k)) 0 false)
def toks (e : Dev nD) : sProp 𝕄 :=
  iprop(bigSep Finset.univ (chunkToks (F := F) e) ∗ dutyTok ER (cell e .bar) 0 false ∗ dutyTok ER (cell e .bar) 0 true)

theorem bigSep_myToks :
    bigSep myToks (fun x => (dutyTok ER x.1 x.2.1 x.2.2 : sProp 𝕄)) = bigSep Finset.univ fun c : Dev nD => toks c := by
  unfold myToks; rw [bigSep_map, bigSep_univ_prod]
  refine bigSep_congr fun c _ => ?_
  unfold toks
  rw [bigSep_univ_sum, bigSep_univ_prod, bigSep_univ_eq_bigSepL [false, true] (by decide) (by decide)]
  refine congrArg₂ (fun a b : sProp 𝕄 => iprop(a ∗ b)) (bigSep_congr fun k _ => ?_) rfl
  rw [bigSep_univ_eq_bigSepL [0, 1, 2, 3, 4, 5, 6, 7, 8] (by decide) (by decide)]
  rfl

/-- The launch element: the pipeline library's (no staging cell here) beside this protocol's. -/
def u₀ : UU :=
  (initOf (Pipeline.cells cfgs cellOf_inj) (Pipeline.launchToks cfgs cellOf_inj), initOf myCells myToks)

/-! ## The kernel's own semaphores, and every counter of a device at zero -/

abbrev osem : DmaSem sig → SemLoc sig := fun q => .dma q

theorem ownSemFacts : Pipeline.OwnSemFacts cfg0.spec osem :=
  ⟨by decide +kernel, fun a b h => SemLoc.dma.inj h, fun k w => w.elim0⟩

/-- A device's semaphores are its barrier semaphore and its DMA semaphores. -/
theorem bigSep_semLoc (Φ : SemLoc sig → sProp 𝕄) :
    bigSep Finset.univ Φ = iprop(Φ (.reg barS) ∗ bigSep Finset.univ fun q : DmaSem sig => Φ (.dma q)) := by
  rw [bigSep_univ_equiv (SemLoc.equivSum sig).symm Φ, bigSep_univ_sum, bigSep_univ_eq_bigSepL [barS] (by decide) (by decide)]
  rfl

/-- The families' semaphores are all of them. -/
theorem semOf_bijective : Function.Bijective (Fam.sem) :=
  (Fintype.bijective_iff_injective_and_card _).mpr
    ⟨sem_injective, by
      rw [SemLoc.card_eq, Fintype.ofEquiv_card]; simp only [Fintype.card_sum, Fintype.card_fin, Fintype.card_unit]⟩
def semE : Fam ≃ SemLoc sig := Equiv.ofBijective _ semOf_bijective

/-- The barrier semaphore is the launch's one unscoped semaphore. -/
theorem unscopedSems0_eq (c : Dev nD) : (unscopedSems0 c : sProp 𝕄) = semVal ((c : Thread nD τ), .reg barS) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun f : Fam => semVal (cell c f) 0 : sProp 𝕄) := by
  have h1 : (bigSep Finset.univ fun f : Fam => semVal (cell c f) 0 : sProp 𝕄)
      = bigSep Finset.univ fun sm : SemLoc sig => semVal ((c : Thread nD τ), sm) 0 :=
    (bigSep_univ_equiv semE (fun sm : SemLoc sig => (semVal ((c : Thread nD τ), sm) 0 : sProp 𝕄))).symm
  rw [h1, bigSep_semLoc, unscopedSems0_eq]
  unfold Pipeline.ownSems0
  iintro ⟨H1, H2⟩
  isplitl [H2]
  · iexact H2
  · iexact H1

variable (m : (ℓ : Loc nD τ sig) → Buf (Elt F) ℓ)

/-! ## Funding: what the launch element deals each device -/

instance Rd_payload_storable (g : GSem nD τ sig) (r : ℕ) (d : Bool) :
    BI.Storable (upEmb : UEmb _ 𝕄) ((Rd (F := F) m).payload g r d) := by
  show BI.Storable upEmb (match decode g.2 with | some f => payOf m g.1.1 r d f | none => iprop(emp))
  split
  · rename_i f _
    cases f <;> dsimp only [payOf, payIna, payInb, payLca, payLcb, payLo, payDs, payDr, payFs, payFr, payBar] <;>
      (repeat' split) <;> infer_instance
  · infer_instance

/-- What the launch element deals device `c` (the theorem's `G`): its own cells' round states, positions and reached
    marks, and its own cells' duty tokens. -/
def G (c : Dev nD) : sProp 𝕄 :=
  iprop((bigSep Finset.univ fun f : Fam => roundState ER (Rd m) (cell c f) 0)
    ∗ (bigSep Finset.univ fun f : Fam => iprop(atPos ER (cell c f) 0 ∅ 0 ∗ reached ER (cell c f) 0)) ∗ toks c)

theorem fund_mine : BI.own (ER (initOf myCells myToks)) ⊢ (|==> bigSep Finset.univ (G m) : sProp 𝕄) := by
  iintro HX
  imod (Rounds.fund ER (Rd m) myCells myToks) $$ HX with ⟨Hst, Hr, Hat, Htok⟩
  imodintro
  ihave Hst' := (Entails.of_eq (bigSep_myCells fun g => roundState ER (Rd m) g 0)) $$ Hst
  ihave Hat' := (Entails.of_eq (bigSep_myCells (F := F) fun g => atPos ER g 0 ∅ 0)) $$ Hat
  ihave Hr' := (Entails.of_eq (bigSep_myCells (F := F) fun g => reached ER g 0)) $$ Hr
  ihave Htok' := (Entails.of_eq (bigSep_myToks (F := F))) $$ Htok
  unfold G; simp only [bigSep_sep']
  isplitl [Hst']; · iexact Hst'
  isplitl [Hat' Hr']
  · isplitl [Hat'] <;> iassumption
  iexact Htok'

/-! ## The global step: every cell's invariant from its counter at zero -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun f : Fam => iprop(∃ κ : ℕ, cellInv ER (Rd m) κ (cell c f)))
          ∗ (bigSep Finset.univ fun f : Fam => iprop(atPos ER (cell c f) 0 ∅ 0 ∗ reached ER (cell c f) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun f : Fam => semVal (cell c f) 0) ∗ bigSep Finset.univ fun f : Fam => roundState ER (Rd m) (cell c f) 0)
      ⊢ (|={Set.univ}=> bigSep Finset.univ fun f : Fam => iprop(∃ κ : ℕ, cellInv ER (Rd m) κ (cell c f)) : sProp 𝕄) from by
        rw [← bigSep_sep']
        exact (bigSep_mono fun f _ => (Rounds.body_intro ER (Rd m) (cell c f)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to who pays -/

/-- The seven tokens of chunk `k` that stay with the device, and the two landings' tokens that go to its peers. -/
def stayTok (e : Dev nD) (k : Fin 32) : sProp 𝕄 :=
  iprop(dutyTok ER (cell e (.ina (slot2 k))) (k.val / 2) false ∗ dutyTok ER (cell e (.inb (slot2 k))) (k.val / 2) false
    ∗ dutyTok ER (cell e (.lca (slot3 k))) (k.val / 3) false ∗ dutyTok ER (cell e (.lcb (slot3 k))) (k.val / 3) false
    ∗ dutyTok ER (cell e (.lo k)) 0 false ∗ dutyTok ER (cell e (.ds k)) 0 false ∗ dutyTok ER (cell e (.fs k)) 0 false)
def drTok (e : Dev nD) (k : Fin 32) : sProp 𝕄 := dutyTok ER (cell e (.dr k)) 0 false
def frTok (e : Dev nD) (k : Fin 32) : sProp 𝕄 := dutyTok ER (cell e (.fr k)) 0 false

/-- A device's own cells' tokens, sorted by who pays. -/
def toks' (e : Dev nD) : sProp 𝕄 :=
  iprop(bigSep Finset.univ (stayTok (F := F) e) ∗ bigSep Finset.univ (drTok (F := F) e) ∗ bigSep Finset.univ (frTok (F := F) e)
    ∗ dutyTok ER (cell e .bar) 0 false ∗ dutyTok ER (cell e .bar) 0 true)
/-- The tokens of the duties device `c` pays. -/
def payToks (c : Dev nD) : sProp 𝕄 :=
  iprop(bigSep Finset.univ (stayTok (F := F) c) ∗ bigSep Finset.univ (drTok (F := F) (px c)) ∗ bigSep Finset.univ (frTok (F := F) (py c))
    ∗ dutyTok ER (cell (px c) .bar) 0 false ∗ dutyTok ER (cell (py c) .bar) 0 true)

theorem toks_split (e : Dev nD) : (toks e : sProp 𝕄) ⊢ toks' e := by
  unfold toks toks'
  iintro ⟨Hk, HF, HT⟩
  ihave Hk' := (show (bigSep Finset.univ (chunkToks (F := F) e) : sProp 𝕄)
      ⊢ iprop(bigSep Finset.univ (stayTok (F := F) e) ∗ bigSep Finset.univ (drTok (F := F) e) ∗ bigSep Finset.univ (frTok (F := F) e)) from by
        rw [← bigSep_sep', ← bigSep_sep']
        exact bigSep_mono' fun k _ => by
          unfold chunkToks stayTok drTok frTok
          iintro ⟨H0, H1, H2, H3, H4, H5, H6, H7, H8⟩
          isplitl [H0 H1 H2 H3 H4 H5 H6]
          · iframe
          · isplitl [H7] <;> iassumption) $$ Hk
  icases Hk' with ⟨Hs, Hd, Hf⟩
  isplitl [Hs]; · iexact Hs
  isplitl [Hd]; · iexact Hd
  isplitl [Hf]; · iexact Hf
  isplitl [HF] <;> iassumption

/-- The landings' tokens go to the peers that pay them: along x to `px`, along y to `py`; the handshake's likewise. -/
theorem toks_around : (bigSep Finset.univ fun c : Dev nD => (toks' c : sProp 𝕄)) ⊢ bigSep Finset.univ fun c : Dev nD => payToks c := by
  unfold toks' payToks
  rw [bigSep_sep', bigSep_sep', bigSep_sep', bigSep_sep', bigSep_sep', bigSep_sep', bigSep_sep', bigSep_sep',
    bigSep_univ_equiv pxE (fun c : Dev nD => (bigSep Finset.univ (drTok (F := F) c) : sProp 𝕄)),
    bigSep_univ_equiv pyE (fun c : Dev nD => (bigSep Finset.univ (frTok (F := F) c) : sProp 𝕄)),
    bigSep_univ_equiv pxE (fun c : Dev nD => (dutyTok ER (cell c .bar) 0 false : sProp 𝕄)),
    bigSep_univ_equiv pyE (fun c : Dev nD => (dutyTok ER (cell c .bar) 0 true : sProp 𝕄))]
  exact .rfl

theorem toks_deal : (bigSep Finset.univ fun c : Dev nD => (toks c : sProp 𝕄)) ⊢ bigSep Finset.univ fun c : Dev nD => payToks c :=
  (bigSep_mono fun c _ => toks_split (F := F) c).trans (toks_around (F := F))

/-! ## Regrouping per chunk -/

/-- Chunk `k`'s share of the ghost state before the launch credit arrives. -/
def chunkLin (c : Dev nD) (k : Fin 32) : sProp 𝕄 :=
  iprop(dutyTok ER (cell c (.ina (slot2 k))) (k.val / 2) false ∗ dutyTok ER (cell c (.inb (slot2 k))) (k.val / 2) false
    ∗ dutyTok ER (cell c (.lca (slot3 k))) (k.val / 3) false ∗ dutyTok ER (cell c (.lcb (slot3 k))) (k.val / 3) false
    ∗ dutyTok ER (cell c (.lo k)) 0 false ∗ dutyTok ER (cell c (.ds k)) 0 false ∗ dutyTok ER (cell c (.fs k)) 0 false
    ∗ dutyTok ER (cell (px c) (.dr k)) 0 false ∗ dutyTok ER (cell (py c) (.fr k)) 0 false
    ∗ atPos ER (cell c (.lo k)) 0 ∅ 0 ∗ atPos ER (cell c (.ds k)) 0 ∅ 0 ∗ atPos ER (cell c (.dr k)) 0 ∅ 0
    ∗ atPos ER (cell c (.fs k)) 0 ∅ 0 ∗ atPos ER (cell c (.fr k)) 0 ∅ 0)

/-- What stays with device `c` of the linear ghost state: per chunk, and its positions on its multi-round cells and on
    its barrier cell, and the two handshake tokens it pays. -/
def linear (c : Dev nD) : sProp 𝕄 :=
  iprop(bigSep Finset.univ (chunkLin (F := F) c)
    ∗ (bigSep Finset.univ fun j : Fin 2 => iprop(atPos ER (cell c (.ina j)) 0 ∅ 0 ∗ atPos ER (cell c (.inb j)) 0 ∅ 0))
    ∗ (bigSep Finset.univ fun s : Fin 3 => iprop(atPos ER (cell c (.lca s)) 0 ∅ 0 ∗ atPos ER (cell c (.lcb s)) 0 ∅ 0))
    ∗ atPos ER (cell c .bar) 0 ∅ 0
    ∗ dutyTok ER (cell (px c) .bar) 0 false ∗ dutyTok ER (cell (py c) .bar) 0 true)

/-- The ghost state before the launch credit and the levels arrive, and what the global step makes (`G'`). -/
def ghost0 (K : Dev nD × Fam → ℕ) (c : Dev nD) : sProp 𝕄 := iprop(records m K ∗ linear c)
def G' (c : Dev nD) : sProp 𝕄 := iprop(∃ K, ghost0 m K c)

theorem linear_intro (c : Dev nD) :
    iprop((bigSep Finset.univ fun f : Fam => (atPos ER (cell c f) 0 ∅ 0 : sProp 𝕄)) ∗ payToks c) ⊢ linear c := by
  rw [bigSep_fam]
  unfold overFam payToks linear
  iintro ⟨⟨Aina, Ainb, Alca, Alcb, Alo, Ads, Adr, Afs, Afr, Abar⟩, Hs, Hd, Hf, HbF, HbT⟩
  ihave Hch := (show iprop(bigSep Finset.univ (stayTok (F := F) c) ∗ bigSep Finset.univ (drTok (F := F) (px c)) ∗ bigSep Finset.univ (frTok (F := F) (py c))
        ∗ (bigSep Finset.univ fun k : Fin 32 => atPos ER (cell c (.lo k)) 0 ∅ 0) ∗ (bigSep Finset.univ fun k : Fin 32 => atPos ER (cell c (.ds k)) 0 ∅ 0)
        ∗ (bigSep Finset.univ fun k : Fin 32 => atPos ER (cell c (.dr k)) 0 ∅ 0) ∗ (bigSep Finset.univ fun k : Fin 32 => atPos ER (cell c (.fs k)) 0 ∅ 0)
        ∗ (bigSep Finset.univ fun k : Fin 32 => atPos ER (cell c (.fr k)) 0 ∅ 0))
      ⊢ (bigSep Finset.univ (chunkLin (F := F) c) : sProp 𝕄) from by
        rw [← bigSep_sep', ← bigSep_sep', ← bigSep_sep', ← bigSep_sep', ← bigSep_sep', ← bigSep_sep', ← bigSep_sep']
        exact bigSep_mono' fun k _ => by
          unfold stayTok drTok frTok chunkLin
          iintro ⟨⟨H0, H1, H2, H3, H4, H5, H6⟩, H7, H8, A1, A2, A3, A4, A5⟩
          iframe) $$ [Hs Hd Hf Alo Ads Adr Afs Afr]
  · iframe
  ihave Hj := (Entails.of_eq (bigSep_sep' Finset.univ (fun j : Fin 2 => (atPos ER (cell c (.ina j)) 0 ∅ 0 : sProp 𝕄)) (fun j : Fin 2 => atPos ER (cell c (.inb j)) 0 ∅ 0)).symm) $$ [Aina Ainb]
  · isplitl [Aina] <;> iassumption
  ihave Hs3 := (Entails.of_eq (bigSep_sep' Finset.univ (fun s : Fin 3 => (atPos ER (cell c (.lca s)) 0 ∅ 0 : sProp 𝕄)) (fun s : Fin 3 => atPos ER (cell c (.lcb s)) 0 ∅ 0)).symm) $$ [Alca Alcb]
  · isplitl [Alca] <;> iassumption
  isplitl [Hch]; · iexact Hch
  isplitl [Hj]; · iexact Hj
  isplitl [Hs3]; · iexact Hs3
  isplitl [Abar]; · iexact Abar
  isplitl [HbF] <;> iassumption

/-- The cells' invariants and reached marks, gathered over all devices and families, are the records. -/
theorem records_eq (K : Dev nD × Fam → ℕ) :
    records m K = iprop((bigSep Finset.univ fun cf : Dev nD × Fam => cellInv ER (Rd m) (K cf) (cell cf.1 cf.2))
      ∗ bigSep Finset.univ fun cf : Dev nD × Fam => reached ER (cell cf.1 cf.2) 0) := by
  unfold records
  rw [bigSep_congr (s := Finset.univ) (fun (c : Dev nD) _ => (bigSep_fam (fun f : Fam => iprop(cellInv ER (Rd m) (K (c, f)) (cell c f) ∗ reached ER (cell c f) 0))).symm),
    ← bigSep_univ_prod (fun cf : Dev nD × Fam => iprop(cellInv ER (Rd m) (K cf) (cell cf.1 cf.2) ∗ reached ER (cell cf.1 cf.2) 0)), bigSep_sep']

theorem ghost0_intro (K : Dev nD × Fam → ℕ) (c : Dev nD) :
    iprop(records m K ∗ ((bigSep Finset.univ fun f : Fam => (atPos ER (cell c f) 0 ∅ 0 : sProp 𝕄)) ∗ payToks c)) ⊢ G' m c := by
  unfold G' ghost0
  iintro ⟨#HR, Hl⟩
  iexists K
  isplitr
  · iexact HR
  · iapply (linear_intro (F := F) c); iexact Hl

theorem regroup :
    (bigSep Finset.univ fun c : Dev nD => iprop((bigSep Finset.univ fun f : Fam => iprop(∃ κ : ℕ, cellInv ER (Rd m) κ (cell c f)))
          ∗ (bigSep Finset.univ fun f : Fam => iprop(atPos ER (cell c f) 0 ∅ 0 ∗ reached ER (cell c f) 0)) ∗ toks c) : sProp 𝕄)
      ⊢ bigSep Finset.univ (G' m) := by
  rw [bigSep_sep', bigSep_sep', ← bigSep_univ_prod (fun cf : Dev nD × Fam => iprop(∃ κ : ℕ, cellInv ER (Rd m) κ (cell cf.1 cf.2))),
    bigSep_congr (s := Finset.univ) (fun (c : Dev nD) _ => bigSep_sep' Finset.univ (fun f : Fam => (atPos ER (cell c f) 0 ∅ 0 : sProp 𝕄)) (fun f => reached ER (cell c f) 0)),
    bigSep_sep', ← bigSep_univ_prod (fun cf : Dev nD × Fam => (reached ER (cell cf.1 cf.2) 0 : sProp 𝕄))]
  iintro ⟨HI, ⟨Hat, #HR⟩, Htok⟩
  ihave HK := (BI.bigSep_exists_pi Finset.univ (fun (cf : Dev nD × Fam) (κ : ℕ) => (cellInv ER (Rd m) κ (cell cf.1 cf.2) : sProp 𝕄))) $$ HI
  icases HK with ⟨%K, #HI⟩
  ihave Htk' := (toks_deal (F := F)) $$ Htok
  iapply (bigSep_with_persistent (R := records m K) fun c _ => ghost0_intro m K c)
  isplitr
  · rw [records_eq]; isplitl; · iexact HI
    iexact HR
  · iapply (Entails.of_eq (bigSep_sep' Finset.univ (fun c : Dev nD => bigSep Finset.univ fun f : Fam => (atPos ER (cell c f) 0 ∅ 0 : sProp 𝕄)) payToks).symm)
    isplitl [Hat]; · iexact Hat
    iexact Htk'

/-- The global step (`hglob`): own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem credD (c : Dev nD) :
    (Pipeline.launchCred (fun d : Dev nD => oweD d 0) c : sProp 𝕄) ⊢ bigSep Finset.univ fun k : Fin 32 => cred (tallyAt (cell c (.dr k)) () Nout) := by
  have e : (fun d : Dev nD => oweD d 0) = fun d : Dev nD => ∑ k ∈ (Finset.univ : Finset (Fin 32)), (tallyAt (cell (px d) (.dr k)) () Nout : CellTallies nD τ sig Unit) := by
    funext d; unfold oweD; rw [Finset.filter_true_of_mem (fun k _ => Nat.zero_le _)]
  rw [e, Pipeline.launchCred_sum Finset.univ (fun (k : Fin 32) (d : Dev nD) => (tallyAt (cell (px d) (.dr k)) () Nout : CellTallies nD τ sig Unit))]
  exact bigSep_mono fun k _ => Pipeline.launchCred_tallyAt (Fam.dr k).sem px px px_px px_px () Nout c

theorem credF (c : Dev nD) :
    (Pipeline.launchCred (fun d : Dev nD => oweF d 0) c : sProp 𝕄) ⊢ bigSep Finset.univ fun k : Fin 32 => cred (tallyAt (cell c (.fr k)) () Nout) := by
  have e : (fun d : Dev nD => oweF d 0) = fun d : Dev nD => ∑ k ∈ (Finset.univ : Finset (Fin 32)), (tallyAt (cell (py d) (.fr k)) () Nout : CellTallies nD τ sig Unit) := by
    funext d; unfold oweF; rw [Finset.filter_true_of_mem (fun k _ => Nat.zero_le _)]
  rw [e, Pipeline.launchCred_sum Finset.univ (fun (k : Fin 32) (d : Dev nD) => (tallyAt (cell (py d) (.fr k)) () Nout : CellTallies nD τ sig Unit))]
  exact bigSep_mono fun k _ => Pipeline.launchCred_tallyAt (Fam.fr k).sem py py py_py py_py () Nout c

theorem cred_bar2 (c : Dev nD) :
    iprop(cred (tallyAt (cell c .bar) () 1) ∗ cred (tallyAt (cell c .bar) () 1)) ⊢ (cred (tallyAt (cell c .bar) () 2) : sProp 𝕄) :=
  (cred_add _ _).2.trans (Entails.of_eq (by rw [tallyAt_add]))

/-- What its peers owe a device at launch: every chunk's landing along x and its relay's landing, and the handshake's two units. -/
theorem creds (c : Dev nD) :
    (Pipeline.launchCred O₀ c : sProp 𝕄)
      ⊢ iprop((bigSep Finset.univ fun k : Fin 32 => cred (tallyAt (cell c (.dr k)) () Nout))
          ∗ (bigSep Finset.univ fun k : Fin 32 => cred (tallyAt (cell c (.fr k)) () Nout))
          ∗ cred (tallyAt (cell c .bar) () 2)) := by
  have e : (O₀ : Dev nD → CellTallies nD τ sig Unit)
      = fun d => ((oweD d 0 + oweF d 0) + tallyAt (cell (py d) .bar) () 1) + tallyAt (cell (px d) .bar) () 1 := rfl
  rw [e, Pipeline.launchCred_add (fun d : Dev nD => (oweD d 0 + oweF d 0) + tallyAt (cell (py d) .bar) () 1) (fun d : Dev nD => tallyAt (cell (px d) .bar) () 1),
    Pipeline.launchCred_add (fun d : Dev nD => oweD d 0 + oweF d 0) (fun d : Dev nD => tallyAt (cell (py d) .bar) () 1),
    Pipeline.launchCred_add (fun d : Dev nD => oweD d 0) (fun d : Dev nD => oweF d 0)]
  iintro ⟨⟨⟨HD, HF⟩, Hy⟩, Hx⟩
  ihave HD' := (credD (F := F) c) $$ HD
  ihave HF' := (credF (F := F) c) $$ HF
  ihave Hy' := (Pipeline.launchCred_tallyAt (Fam.sem .bar) py py py_py py_py () 1 c) $$ Hy
  ihave Hx' := (Pipeline.launchCred_tallyAt (Fam.sem .bar) px px px_px px_px () 1 c) $$ Hx
  ihave Hb := (cred_bar2 (F := F) c) $$ [Hy' Hx']
  · isplitl [Hy'] <;> iassumption
  isplitl [HD']; · iexact HD'
  isplitl [HF']; · iexact HF'
  iexact Hb

/-- The ghost state a body starts from: what the global step made, the launch credit, the levels. -/
theorem ghost_intro (K : Dev nD × Fam → ℕ) (c : Dev nD) :
    iprop(ghost0 m K c
        ∗ ((bigSep Finset.univ fun k : Fin 32 => cred (tallyAt (cell c (.dr k)) () Nout))
          ∗ (bigSep Finset.univ fun k : Fin 32 => cred (tallyAt (cell c (.fr k)) () Nout))
          ∗ cred (tallyAt (cell c .bar) () 2))
        ∗ levAts L lv)
      ⊢ ghost m K c := by
  unfold ghost0 linear ghost
  iintro ⟨⟨HR, Hch, Hj, Hs, Hb, HtF, HtT⟩, ⟨HcD, HcF, Hcb⟩, Hlev⟩
  ihave Hch' := (show iprop(bigSep Finset.univ (chunkLin (F := F) c)
        ∗ (bigSep Finset.univ fun k : Fin 32 => cred (tallyAt (cell c (.dr k)) () Nout))
        ∗ (bigSep Finset.univ fun k : Fin 32 => cred (tallyAt (cell c (.fr k)) () Nout)))
      ⊢ (bigSep Finset.univ (chunkRes (F := F) c) : sProp 𝕄) from by
        rw [← bigSep_sep', ← bigSep_sep']
        exact bigSep_mono' fun k _ => by
          unfold chunkLin chunkRes
          iintro ⟨⟨H1, H2, H3, H4, H5, H6, H7, H8, H9, H10, H11, H12, H13, H14⟩, C1, C2⟩
          iframe) $$ [Hch HcD HcF]
  · iframe
  isplitl [HR]; · iexact HR
  isplitl [Hch']; · iexact Hch'
  isplitl [Hj]; · iexact Hj
  isplitl [Hs]; · iexact Hs
  isplitl [Hb]; · iexact Hb
  isplitl [Hcb]; · iexact Hcb
  isplitl [HtF]; · iexact HtF
  isplitl [HtT]; · iexact HtT
  iexact Hlev

/-! ## The pipeline's proof data: one point, no window -/

def dats (ρ : Dev nD → PrngReg) (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

variable (ρ : Dev nD → PrngReg)

/-! ## The body obligation, from the body's run -/

set_option maxRecDepth 16384 in
/-- The library's body obligation on device `c`: the one point's invariants are `Φ₀` and `Φ₁`, no window stages anything,
    and what the device owes goes from `O₀ c` to nothing. -/
theorem body_obligation (c : Dev nD) : BodyObligation (dats (F := F) m ρ 0 c) (defs₀ (F := F)) 𝒱₀ () Set.univ := fun t => by
  rw [fin_N0 t]
  have hE : ∀ Φ : Fin cfg0.W → sProp 𝕄, bigSep Finset.univ Φ = iprop(emp) := fun Φ => by rw [Finset.univ_eq_empty]; rfl
  have hb : defs₀ (F := F) .tc cfg0.body (cfg0.bodyArgs t0_0 (cfg0.slots t0_0)) = bodyAt0 t0_0 := rfl
  have hΦ0 : (dats (F := F) m ρ 0 c).Φ t0_0.castSucc = Φ₀ m c := rfl
  have hΦ1 : (dats (F := F) m ρ 0 c).Φ t0_0.succ = Φ₁ m c := rfl
  have hO0 : (dats (F := F) m ρ 0 c).owed t0_0.castSucc = O₀ c := rfl
  have hO1 : (dats (F := F) m ρ 0 c).owed t0_0.succ = 0 := rfl
  simp only [hE]
  rw [hb, hΦ0, hΦ1]
  unfold Dat.owesAt Pipeline.owesWithin
  rw [hO0, hO1]
  iintro ⟨HΦ, ⟨%W, %hW, Ho⟩, -⟩
  iapply (sound_body m c W _)
  isplitl [HΦ]; · iexact HΦ
  isplitl [Ho]; · iexact Ho
  iintro ⟨HΦ1, %W', Ho'⟩
  isplitl [HΦ1]; · iexact HΦ1
  isplitl [Ho']
  · iexists W'
    isplitr
    · ipureintro; exact Set.subset_union_of_subset_left (Set.subset_univ _) _
    · iexact Ho'
  · iempintro

/-! ## The theorem's side conditions -/

/-- What a device takes into its first point beside the scratch buffers: the ghost state, `x` and the result as launched. -/
def X (c : Dev nD) : sProp 𝕄 :=
  iprop((∃ K, ghost m K c) ∗ (((c : Thread nD τ).loc main_arg0) ↦{fullShare} Xc m c)
    ∗ (((c : Thread nD τ).loc main_v1) ↦{fullShare} m ((c : Thread nD τ).loc main_v1)))
/-- What it hands back beside them: `x` as launched, the result at the written blocks. -/
def Y (c : Dev nD) : sProp 𝕄 :=
  iprop((((c : Thread nD τ).loc main_arg0) ↦{fullShare} Xc m c) ∗ (∃ g, ⌜OutOk m c g⌝ ∗ (((c : Thread nD τ).loc main_v1) ↦{fullShare} g)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Ho⟩, Hlev, Hcr, -, ⟨%K, HG⟩⟩
  ihave Hc := (creds (F := F) c) $$ Hcr
  imodintro
  unfold X
  isplitl
  · isplitl [HG Hc Hlev]
    · iexists K
      iapply (ghost_intro m K c)
      isplitl [HG]; · iexact HG
      isplitl [Hc]; · iexact Hc
      iexact Hlev
    · isplitl [Hx] <;> iassumption
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X
  iintro ⟨⟨HG, Hx, Ho⟩, -, ⟨H0, H1, H2, H3, H4⟩⟩
  isplitl [HG]; · iexact HG
  isplitl [H0]; · iexact H0
  isplitl [H1]; · iexact H1
  isplitl [H2]; · iexact H2
  isplitl [H3]; · iexact H3
  isplitl [H4]; · iexact H4
  isplitl [Hx] <;> iassumption

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq]
  unfold Φ₁ Y Pipeline.ownSems0
  iintro ⟨H0, H1, H2, H3, H4, Hx, Ho, Hz⟩
  isplitl [Hx Ho]
  · isplitl [Hx] <;> iassumption
  isplitl [Hz]; · iexact Hz
  isplitl [H0]; · iexact H0
  isplitl [H1]; · iexact H1
  isplitl [H2]; · iexact H2
  isplitl [H3] <;> iassumption

theorem waits (c : Dev nD) : (levAts L lv : sProp 𝕄) ⊢ Pipeline.cellsWaits cfgs (dats m ρ) () 0 c :=
  Pipeline.cellsWaits_intro cfgs (dats m ρ) () 0 c fun w => w.elim0

/-! ## The run -/

set_option maxRecDepth 65536 in
/-- At the compiled mesh of four devices, for any float values, from any memory with zero counters: every weakly fair
    execution of @main terminates, and every final state has each device's `x` unchanged and its result holding, block
    by block, what the block's copy wrote. -/
theorem run_main : θ_run defs (onTc (τ := τ) (main (F := F))) ⟨m, fun _ => 0, ρ⟩
    (fun r => ∀ c : Dev nD, r.2.mem ((c.tc : Thread nD τ).loc main_arg0) = m ((c.tc : Thread nD τ).loc main_arg0)
      ∧ OutOk m c (r.2.mem ((c.tc : Thread nD τ).loc main_v1))) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_mine m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m ρ) (hout := phi1_exit m ρ)
    (QY := fun c s => s.mem ((c.tc : Thread nD τ).loc main_arg0) = m ((c.tc : Thread nD τ).loc main_arg0)
      ∧ OutOk m c (s.mem ((c.tc : Thread nD τ).loc main_v1)))
    (hY := fun c s' => by
      unfold Y
      iintro ⟨⟨Hx, %g, %hg, Ho⟩, -, HSI⟩
      icombine HSI Hx gives %hx
      icombine HSI Ho gives %ho
      imodintro
      isplitr
      · ipureintro
        exact ⟨Buf.eq_of_forall_mem_univ hx, by rw [Buf.eq_of_forall_mem_univ ho]; exact hg⟩
      iexact HSI)
    (hQ := fun _ h c => (h c).2.2)

/-- info: 'Cert.KernelA2A.run_main' depends on axioms: [propext, Classical.choice, Quot.sound] -/
#guard_msgs in #print axioms run_main

end Cert.KernelA2A
end
-- ==== Proof.B2AFrame.lean ====
/-
  The program's frame: the argument half of its run.
-/
import proofs.«900012_g7700000000000013_dist_a2a_v7x_xy2x2_x_m16384_n1024_bf16_1_alg».proof.Proof.B2ALaunch

noncomputable section

namespace Cert.KernelA2A

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem frame_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).1) (run_main m ρ)

end Cert.KernelA2A
end
-- ==== Proof.A2AValue.lean ====
/-
  The value of the all-to-all: every element of a device's result buffer, read through the block of the result that
  holds it, is the element of the whole argument array the reference converts there.
-/
import proofs.«900012_g7700000000000013_dist_a2a_v7x_xy2x2_x_m16384_n1024_bf16_1_alg».proof.Proof.A2AContents
import Idealize.ShloMosaic.Lib.Layout
import Idealize.ShloMosaic.Lib.Pipeline.Value
import Idealize.ShloMosaic.Lib.ValueIdx
import Idealize.ShloMosaic.Lib.ValueLayout

noncomputable section

namespace Cert.KernelIdealA2A

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev SW : Shape := ⟨2, ![32768, 2048]⟩

/-! ## Reads through rectangles -/

section Generic
variable {sg : RefSig} {κ : Kind} {Val : EltTy → Type} {sp : Space} {s : Shape} {e : EltTy}

/-- An element of a unit-stride rectangle sits, on each axis, at the offset plus its own coordinate. -/
theorem unit_emb_val (off size : Fin s.rank → ℕ) (inb : ∀ a, off a + size a ≤ s.size a)
    (y : (Rect.unit off size inb).shape.Idx) (a : Fin s.rank) :
    ((Rect.unit off size inb).emb y a).val = off a + (y a).val := by
  rw [Rect.emb_apply]
  show off a + 1 * (y a).val = off a + (y a).val
  omega

/-- A read through one rectangle of a view, after a write on every index through another, at an element both hold:
    the payload there. -/
theorem read_slice_write_slice (v : View sg κ sp s e) (r1 r2 : Rect s) (f : v.ty.Contents Val) (W : r2.shape.Idx → Val e)
    (y : r1.shape.Idx) (z : r2.shape.Idx) (h : r1.emb y = r2.emb z) :
    (v.slice r1).read Val ((v.slice r2).write Val f W Finset.univ) y = W z := by
  have h0 := View.read_slice_write_emb (v := v) r2 f W (M := Finset.univ) (x := z) (Finset.mem_univ z)
  rw [← h] at h0
  exact h0

end Generic

/-! ## The layers, one at a time -/

section Layers
variable (m : (ℓ : Loc nD τ sig) → Buf (Elt Ideal) ℓ)

/-- The staged chunk read back through its slot is the chunk of the device's block of `x`. -/
theorem read_vinA (c : Dev nD) (k : Fin 32) :
    (viaS (slot2 k)).view.read (Elt Ideal) (vinA m c k) = (xA c k).view.read (Elt Ideal) (Xc m c) :=
  View.read_write_univ _ _
theorem read_vinB (c : Dev nD) (k : Fin 32) :
    (vibS (slot2 k)).view.read (Elt Ideal) (vinB m c k) = (xB c k).view.read (Elt Ideal) (Xc m c) :=
  View.read_write_univ _ _

/-- The cast of a loaded slot at an index: the slot read as a matrix, there. -/
theorem castSlot_apply (v : Vec Ideal S1x256x2048 .f32) (u : Fin 1) (r : Fin 256) (col : Fin 2048) :
    castSlot v (ix3 u r col) = shapeCast S256x2048 v shapeCasts_S1x256x2048_S256x2048 (ix2 r col) := by
  unfold castSlot
  rw [shapeCast_ab_1ab_apply]
  rfl

end Layers

/-- Two rank-2 indices with equal coordinates are equal. -/
theorem ix2_congr {n0 n1 : ℕ} {a a' : Fin n0} {b b' : Fin n1} (ha : a.val = a'.val) (hb : b.val = b'.val) : ix2 a b = ix2 a' b' := by
  rw [Fin.ext ha, Fin.ext hb]

section Layers2
variable (m : (ℓ : Loc nD τ sig) → Buf (Elt Ideal) ℓ)

/-- The bf16 chunk in its slot of `vcast_a`, read through a half of the slot that starts at column `col0`: the
    chunk of the device's block of `x`, at those columns. -/
theorem read_vcA (c : Dev nD) (k : Fin 32) (off : Fin 3 → ℕ) (inb : ∀ a, off a + S1x256x1024.size a ≤ S3x256x2048.size a)
    (col0 : ℕ) (hoff : off = ![(slot3 k).val, 0, col0]) (r : Fin 256) (j : Fin 1024) (hc : col0 + j.val < 2048) :
    ((vcaM.slice (Rect.unit (s := S3x256x2048) off S1x256x1024.size inb) (fun _ => rfl)).squeeze S256x1024 squeezes_S1x256x1024_S256x1024).view.read (Elt Ideal) (vcA m c k) (ix2 r j)
      = (xA c k).view.read (Elt Ideal) (Xc m c) (ix2 r ⟨col0 + j.val, hc⟩) := by
  show (vcaM.view.slice (Rect.unit (s := S3x256x2048) off S1x256x1024.size inb)).read (Elt Ideal) (vcA m c k) (Shape.reshapeEquiv _ (ix2 r j)) = _
  rw [reshapeEquiv_ix2_1ab]
  have h1 : (Rect.unit (s := S3x256x2048) off S1x256x1024.size inb).emb (ix3 ⟨0, Nat.one_pos⟩ r j)
      = (rVc (slot3 k)).emb (ix3 ⟨0, Nat.one_pos⟩ r ⟨col0 + j.val, hc⟩) := by
    funext a; apply Fin.ext
    rw [unit_emb_val, unit_emb_val]
    have h0 : off 0 = (slot3 k).val := by rw [hoff]; rfl
    have h1' : off 1 = 0 := by rw [hoff]; rfl
    have h2 : off 2 = col0 := by rw [hoff]; rfl
    match a with
    | ⟨0, _⟩ => show off 0 + 0 = (slot3 k).val + 0; omega
    | ⟨1, _⟩ => show off 1 + r.val = 0 + r.val; omega
    | ⟨2, _⟩ => show off 2 + j.val = 0 + (col0 + j.val); omega
  unfold vcA
  refine (read_slice_write_slice (Val := Elt Ideal) vcaM.view (Rect.unit (s := S3x256x2048) off S1x256x1024.size inb) (rVc (slot3 k)) _ _ _ _ h1).trans ?_
  rw [castSlot_apply]
  show (viaS (slot2 k)).view.read (Elt Ideal) (vinA m c k) (ix2 r ⟨col0 + j.val, hc⟩) = _
  rw [read_vinA]

end Layers2

section Layers2b
variable (m : (ℓ : Loc nD τ sig) → Buf (Elt Ideal) ℓ)

/-- The same for `vcast_b`: the chunk of the other half of the device's rows. -/
theorem read_vcB (c : Dev nD) (k : Fin 32) (off : Fin 3 → ℕ) (inb : ∀ a, off a + S1x256x1024.size a ≤ S3x256x2048.size a)
    (col0 : ℕ) (hoff : off = ![(slot3 k).val, 0, col0]) (r : Fin 256) (j : Fin 1024) (hc : col0 + j.val < 2048) :
    ((vcbM.slice (Rect.unit (s := S3x256x2048) off S1x256x1024.size inb) (fun _ => rfl)).squeeze S256x1024 squeezes_S1x256x1024_S256x1024).view.read (Elt Ideal) (vcB m c k) (ix2 r j)
      = (xB c k).view.read (Elt Ideal) (Xc m c) (ix2 r ⟨col0 + j.val, hc⟩) := by
  show (vcbM.view.slice (Rect.unit (s := S3x256x2048) off S1x256x1024.size inb)).read (Elt Ideal) (vcB m c k) (Shape.reshapeEquiv _ (ix2 r j)) = _
  rw [reshapeEquiv_ix2_1ab]
  have h1 : (Rect.unit (s := S3x256x2048) off S1x256x1024.size inb).emb (ix3 ⟨0, Nat.one_pos⟩ r j)
      = (rVc (slot3 k)).emb (ix3 ⟨0, Nat.one_pos⟩ r ⟨col0 + j.val, hc⟩) := by
    funext a; apply Fin.ext
    rw [unit_emb_val, unit_emb_val]
    have h0 : off 0 = (slot3 k).val := by rw [hoff]; rfl
    have h1' : off 1 = 0 := by rw [hoff]; rfl
    have h2 : off 2 = col0 := by rw [hoff]; rfl
    match a with
    | ⟨0, _⟩ => show off 0 + 0 = (slot3 k).val + 0; omega
    | ⟨1, _⟩ => show off 1 + r.val = 0 + r.val; omega
    | ⟨2, _⟩ => show off 2 + j.val = 0 + (col0 + j.val); omega
  unfold vcB
  refine (read_slice_write_slice (Val := Elt Ideal) vcbM.view (Rect.unit (s := S3x256x2048) off S1x256x1024.size inb) (rVc (slot3 k)) _ _ _ _ h1).trans ?_
  rw [castSlot_apply]
  show (vibS (slot2 k)).view.read (Elt Ideal) (vinB m c k) (ix2 r ⟨col0 + j.val, hc⟩) = _
  rw [read_vinB]

end Layers2b

/-! ## The argument: a chunk of a device's block, and the block in the whole array -/

section Arg
variable (m : (ℓ : Loc nD τ sig) → Buf (Elt Ideal) ℓ) (xw : SW.Idx → Elt Ideal .f32)

theorem read_xA (c : Dev nD) (k : Fin 32) (X : Buf (Elt Ideal) ((c : Thread nD τ).loc main_arg0)) (r : Fin 256) (col : Fin 2048) :
    (xA c k).view.read (Elt Ideal) X (ix2 r col)
      = X (ix2 (n0 := 16384) (n1 := 2048) ⟨8192 * (c.val % 2) + 256 * k.val + r.val, by have := k.isLt; have := r.isLt; omega⟩ col) := by
  show X ((Rect.unit (s := S16384x2048) (k0_off1 c (BitVec.ofNat 32 (256 * k.val))) S256x2048.size (k0_off1_inb c k)).emb (ix2 r col)) = _
  congr 1
  funext a; apply Fin.ext
  rw [unit_emb_val]
  have e := k0_off1_eq c k
  have e0 : k0_off1 c (BitVec.ofNat 32 (256 * k.val)) 0 = 8192 * (c.val % 2) + 256 * k.val := by rw [e]; rfl
  have e1 : k0_off1 c (BitVec.ofNat 32 (256 * k.val)) 1 = 0 := by rw [e]; rfl
  match a with
  | ⟨0, _⟩ => show k0_off1 c (BitVec.ofNat 32 (256 * k.val)) 0 + r.val = 8192 * (c.val % 2) + 256 * k.val + r.val; omega
  | ⟨1, _⟩ => show k0_off1 c (BitVec.ofNat 32 (256 * k.val)) 1 + col.val = col.val; omega

theorem read_xB (c : Dev nD) (k : Fin 32) (X : Buf (Elt Ideal) ((c : Thread nD τ).loc main_arg0)) (r : Fin 256) (col : Fin 2048) :
    (xB c k).view.read (Elt Ideal) X (ix2 r col)
      = X (ix2 (n0 := 16384) (n1 := 2048) ⟨(256 * k.val + 8192) - 8192 * (c.val % 2) + r.val, by have := k.isLt; have := r.isLt; omega⟩ col) := by
  show X ((Rect.unit (s := S16384x2048) (k0_off2 c (BitVec.ofNat 32 (256 * k.val))) S256x2048.size (k0_off2_inb c k)).emb (ix2 r col)) = _
  congr 1
  funext a; apply Fin.ext
  rw [unit_emb_val]
  have e := k0_off2_eq c k
  have e0 : k0_off2 c (BitVec.ofNat 32 (256 * k.val)) 0 = (256 * k.val + 8192) - 8192 * (c.val % 2) := by rw [e]; rfl
  have e1 : k0_off2 c (BitVec.ofNat 32 (256 * k.val)) 1 = 0 := by rw [e]; rfl
  match a with
  | ⟨0, _⟩ => show k0_off2 c (BitVec.ofNat 32 (256 * k.val)) 0 + r.val = (256 * k.val + 8192) - 8192 * (c.val % 2) + r.val; omega
  | ⟨1, _⟩ => show k0_off2 c (BitVec.ofNat 32 (256 * k.val)) 1 + col.val = col.val; omega

theorem meshLin_x (c : Dev nD) : Layout.meshLin [2, 2] c.val [0] = c.val / 2 := by revert c; decide +kernel

/-- A device's block of `x` in the whole array: `16384 (c / 2)` rows down. -/
theorem Xc_apply (hx : ∀ c : Dev nD, m ((c : Thread nD τ).loc main_arg0) = Layout.blockN ⟨2, ![16384, 2048]⟩ ⟨2, ![32768, 2048]⟩ (Layout.meshBlock [2, 2] ![[0], []] c) xw)
    (c : Dev nD) (R : Fin 16384) (col : Fin 2048) :
    Xc m c (ix2 R col) = xw (ix2 (n0 := 32768) (n1 := 2048) ⟨16384 * (c.val / 2) + R.val, by have : c.val < 4 := c.isLt; have := R.isLt; omega⟩ col) := by
  show m ((c : Thread nD τ).loc main_arg0) (ix2 R col) = _
  rw [hx c, Layout.blockN_apply]
  congr 1
  funext a; apply Fin.ext
  rw [Layout.TilesN.idx_val]
  match a with
  | ⟨0, _⟩ =>
    show Layout.meshLin [2, 2] c.val [0] * 16384 + R.val = 16384 * (c.val / 2) + R.val
    rw [meshLin_x]; omega
  | ⟨1, _⟩ => show 0 * 2048 + col.val = col.val; omega

end Arg

/-! ## The printed column offsets of a slot's halves, in closed form -/

theorem offMine_closed (c : Dev nD) (s : Fin 3) : offMine c s = ![s.val, 0, 1024 * (c.val / 2)] := by
  fin_cases s
  · exact k0_off4_eq c
  · exact k0_off7_eq c
  · exact k0_off10_eq c
theorem offPeer_closed (c : Dev nD) (s : Fin 3) : offPeer c s = ![s.val, 0, 1024 - 1024 * (c.val / 2)] := by
  fin_cases s
  · exact k0_off6_eq c
  · exact k0_off8_eq c
  · exact k0_off11_eq c

theorem px_val (c : Dev nD) : (px c).val = (c.val + 2) % 4 := rfl
theorem py_val (c : Dev nD) : (py c).val = 2 * (c.val / 2) + (c.val + 1) % 2 := rfl

/-! ## The four families of blocks of the result -/

section Families
variable (m : (ℓ : Loc nD τ sig) → Buf (Elt Ideal) ℓ) (xw : SW.Idx → Elt Ideal .f32)
variable (hx : ∀ c : Dev nD, m ((c : Thread nD τ).loc main_arg0) = Layout.blockN ⟨2, ![16384, 2048]⟩ ⟨2, ![32768, 2048]⟩ (Layout.meshBlock [2, 2] ![[0], []] c) xw)
include hx

/-- A half of chunk `k`'s slot of `vcast_a` on device `d`, starting at column `col0`, in the whole array. -/
theorem vcA_whole (d : Dev nD) (k : Fin 32) (off : Fin 3 → ℕ) (inb : ∀ a, off a + S1x256x1024.size a ≤ S3x256x2048.size a)
    (col0 : ℕ) (hoff : off = ![(slot3 k).val, 0, col0]) (r : Fin 256) (j : Fin 1024) (hc : col0 + j.val < 2048) :
    ((vcaM.slice (Rect.unit (s := S3x256x2048) off S1x256x1024.size inb) (fun _ => rfl)).squeeze S256x1024 squeezes_S1x256x1024_S256x1024).view.read (Elt Ideal) (vcA m d k) (ix2 r j)
      = xw (ix2 (n0 := 32768) (n1 := 2048) ⟨16384 * (d.val / 2) + (8192 * (d.val % 2) + 256 * k.val + r.val), by have : d.val < 4 := d.isLt; have := k.isLt; have := r.isLt; omega⟩ ⟨col0 + j.val, hc⟩) := by
  rw [read_vcA m d k off inb col0 hoff r j hc, read_xA, Xc_apply m xw hx]

theorem vcB_whole (d : Dev nD) (k : Fin 32) (off : Fin 3 → ℕ) (inb : ∀ a, off a + S1x256x1024.size a ≤ S3x256x2048.size a)
    (col0 : ℕ) (hoff : off = ![(slot3 k).val, 0, col0]) (r : Fin 256) (j : Fin 1024) (hc : col0 + j.val < 2048) :
    ((vcbM.slice (Rect.unit (s := S3x256x2048) off S1x256x1024.size inb) (fun _ => rfl)).squeeze S256x1024 squeezes_S1x256x1024_S256x1024).view.read (Elt Ideal) (vcB m d k) (ix2 r j)
      = xw (ix2 (n0 := 32768) (n1 := 2048) ⟨16384 * (d.val / 2) + ((256 * k.val + 8192) - 8192 * (d.val % 2) + r.val), by have : d.val < 4 := d.isLt; have := k.isLt; have := r.isLt; omega⟩ ⟨col0 + j.val, hc⟩) := by
  rw [read_vcB m d k off inb col0 hoff r j hc, read_xB, Xc_apply m xw hx]

/-- What landed in slot `k` of device `d`'s landing buffer: its x-peer's chunk `k`, at `d`'s columns. -/
theorem landed_whole (d : Dev nD) (k : Fin 32) (r : Fin 256) (j : Fin 1024) :
    (ldS k).view.read (Elt Ideal) (landed m d k) (ix2 r j)
      = xw (ix2 (n0 := 32768) (n1 := 2048) ⟨16384 * ((px d).val / 2) + (8192 * ((px d).val % 2) + 256 * k.val + r.val), by have : (px d).val < 4 := (px d).isLt; have := k.isLt; have := r.isLt; omega⟩
          ⟨(1024 - 1024 * ((px d).val / 2)) + j.val, by have := j.isLt; omega⟩) := by
  unfold landed
  rw [View.read_write_univ]
  exact vcA_whole m xw hx (px d) k (offPeer (px d) (slot3 k)) (offPeer_inb (px d) (slot3 k)) _ (offPeer_closed (px d) (slot3 k)) r j _

end Families

/-! ## The result buffer, block by block -/

section Result
variable (m : (ℓ : Loc nD τ sig) → Buf (Elt Ideal) ℓ) (xw : SW.Idx → Elt Ideal .f32)
variable (hx : ∀ c : Dev nD, m ((c : Thread nD τ).loc main_arg0) = Layout.blockN ⟨2, ![16384, 2048]⟩ ⟨2, ![32768, 2048]⟩ (Layout.meshBlock [2, 2] ![[0], []] c) xw)
variable (c : Dev nD) (g : Buf (Elt Ideal) ((c : Thread nD τ).loc main_v1))
include hx

theorem gA (k : Fin 32) (hA : ∀ i ∈ (oA c k).view.set, g i = outA m c k i) (r : Fin 256) (j : Fin 1024) :
    (oA c k).view.read (Elt Ideal) g (ix2 r j)
      = xw (ix2 (n0 := 32768) (n1 := 2048) ⟨16384 * (c.val / 2) + (8192 * (c.val % 2) + 256 * k.val + r.val), by have : c.val < 4 := c.isLt; have := k.isLt; have := r.isLt; omega⟩
          ⟨1024 * (c.val / 2) + j.val, by have : c.val < 4 := c.isLt; have := j.isLt; omega⟩) := by
  rw [View.read_congr hA]
  unfold outA
  rw [View.read_write_univ]
  exact vcA_whole m xw hx c k (offMine c (slot3 k)) (offMine_inb c (slot3 k)) _ (offMine_closed c (slot3 k)) r j _

theorem gB (k : Fin 32) (hB : ∀ i ∈ (oB c k).view.set, g i = outB m c k i) (r : Fin 256) (j : Fin 1024) :
    (oB c k).view.read (Elt Ideal) g (ix2 r j)
      = xw (ix2 (n0 := 32768) (n1 := 2048) ⟨16384 * (c.val / 2) + ((256 * k.val + 8192) - 8192 * (c.val % 2) + r.val), by have : c.val < 4 := c.isLt; have := k.isLt; have := r.isLt; omega⟩
          ⟨1024 * (c.val / 2) + j.val, by have : c.val < 4 := c.isLt; have := j.isLt; omega⟩) := by
  rw [View.read_congr hB]
  unfold outB
  rw [View.read_write_univ]
  exact vcB_whole m xw hx c k (offMine c (slot3 k)) (offMine_inb c (slot3 k)) _ (offMine_closed c (slot3 k)) r j _

theorem gL (k : Fin 32) (hL : ∀ i ∈ (oR c k).view.set, g i = outL m c k i) (r : Fin 256) (j : Fin 1024) :
    (oR c k).view.read (Elt Ideal) g (ix2 r j)
      = xw (ix2 (n0 := 32768) (n1 := 2048) ⟨16384 * ((px c).val / 2) + (8192 * ((px c).val % 2) + 256 * k.val + r.val), by have : (px c).val < 4 := (px c).isLt; have := k.isLt; have := r.isLt; omega⟩
          ⟨(1024 - 1024 * ((px c).val / 2)) + j.val, by have := j.isLt; omega⟩) := by
  rw [View.read_congr hL]
  unfold outL
  rw [View.read_write_univ]
  exact landed_whole m xw hx c k r j

theorem gF (k : Fin 32) (hF : ∀ i ∈ (oR (py c) k).view.set, g i = outF m c k i) (r : Fin 256) (j : Fin 1024) :
    (oR (py c) k).view.read (Elt Ideal) g (ix2 r j)
      = xw (ix2 (n0 := 32768) (n1 := 2048) ⟨16384 * ((px (py c)).val / 2) + (8192 * ((px (py c)).val % 2) + 256 * k.val + r.val), by have : (px (py c)).val < 4 := (px (py c)).isLt; have := k.isLt; have := r.isLt; omega⟩
          ⟨(1024 - 1024 * ((px (py c)).val / 2)) + j.val, by have := j.isLt; omega⟩) := by
  rw [View.read_congr hF]
  unfold outF
  rw [View.read_write_univ]
  exact landed_whole m xw hx (py c) k r j

end Result

/-! ## Every index of the result lies in one block -/

/-- An index of the result whose row is `r` past `R0` is the element at row `r` of the block of 256 rows from `R0`. -/
theorem blk_emb (off : Fin 2 → ℕ) (inb : ∀ a, off a + S256x1024.size a ≤ S32768x1024.size a) (R0 : ℕ) (hoff : off = ![R0, 0])
    (i : S32768x1024.Idx) (r : Fin 256) (hr : R0 + r.val = (i 0).val) :
    (Rect.unit (s := S32768x1024) off S256x1024.size inb).emb (ix2 r (i 1)) = i := by
  funext a; apply Fin.ext
  rw [unit_emb_val]
  have e0 : off 0 = R0 := by rw [hoff]; rfl
  have e1 : off 1 = 0 := by rw [hoff]; rfl
  match a with
  | ⟨0, _⟩ => show off 0 + r.val = (i 0).val; omega
  | ⟨1, _⟩ => show off 1 + (i 1).val = (i 1).val; omega

/-- The result buffer read through a block of 256 rows is the buffer at the block's elements. -/
theorem g_blk (c : Dev nD) (g : Buf (Elt Ideal) ((c : Thread nD τ).loc main_v1)) (off : Fin 2 → ℕ)
    (inb : ∀ a, off a + S256x1024.size a ≤ S32768x1024.size a) (y : S256x1024.Idx) :
    (oM.slice (Rect.unit (s := S32768x1024) off S256x1024.size inb) (fun _ => rfl)).view.read (Elt Ideal) g y
      = g ((Rect.unit (s := S32768x1024) off S256x1024.size inb).emb y) := rfl

/-- The device's column block of the converted whole array, at an index. -/
theorem target_apply (xw : SW.Idx → Elt Ideal .f32) (c : Dev nD) (i : (⟨2, ![32768, 1024]⟩ : Shape).Idx) :
    (Layout.blockN ⟨2, ![32768, 1024]⟩ ⟨2, ![32768, 2048]⟩ (Layout.meshBlock [2, 2] ![[], [0]] c) (truncf (F := Ideal) .bf16 xw bitsLt_bf16_f32)) i
      = xw (ix2 (n0 := 32768) (n1 := 2048) ⟨(i 0).val, (i 0).isLt⟩
          ⟨1024 * (c.val / 2) + (i 1).val, by have : c.val < 4 := c.isLt; have h1 : (i 1).val < 1024 := (i 1).isLt; omega⟩) := by
  rw [Layout.blockN_apply]
  show xw _ = xw _
  congr 1
  funext a; apply Fin.ext
  rw [Layout.TilesN.idx_val]
  match a with
  | ⟨0, _⟩ => show 0 * 32768 + (i 0).val = (i 0).val; omega
  | ⟨1, _⟩ =>
    show Layout.meshLin [2, 2] c.val [0] * 1024 + (i 1).val = 1024 * (c.val / 2) + (i 1).val
    rw [meshLin_x]; omega

/-! ## The result -/

section Main
variable (m : (ℓ : Loc nD τ sig) → Buf (Elt Ideal) ℓ) (xw : SW.Idx → Elt Ideal .f32)
variable (hx : ∀ c : Dev nD, m ((c : Thread nD τ).loc main_arg0) = Layout.blockN ⟨2, ![16384, 2048]⟩ ⟨2, ![32768, 2048]⟩ (Layout.meshBlock [2, 2] ![[0], []] c) xw)
variable (c : Dev nD) (g : Buf (Elt Ideal) ((c : Thread nD τ).loc main_v1))
variable (hA : ∀ k : Fin 32, ∀ i ∈ (oA c k).view.set, g i = outA m c k i) (hB : ∀ k : Fin 32, ∀ i ∈ (oB c k).view.set, g i = outB m c k i)
variable (hL : ∀ k : Fin 32, ∀ i ∈ (oR c k).view.set, g i = outL m c k i) (hF : ∀ k : Fin 32, ∀ i ∈ (oR (py c) k).view.set, g i = outF m c k i)
include hx hA hB hL hF

/-- The row's quarter of the result picks the family of blocks, its offset in the quarter the chunk. -/
theorem out_value_at (i : S32768x1024.Idx) :
    g i = (Layout.blockN ⟨2, ![32768, 1024]⟩ ⟨2, ![32768, 2048]⟩ (Layout.meshBlock [2, 2] ![[], [0]] c) (truncf (F := Ideal) .bf16 xw bitsLt_bf16_f32)) i := by
  refine Eq.trans ?_ (target_apply xw c i).symm
  have hR : (i 0).val < 32768 := (i 0).isLt
  have hc4 : c.val < 4 := c.isLt
  have hpx := px_val c
  have hpy := py_val c
  have hpxy := px_val (py c)
  have hk : ((i 0).val % 8192) / 256 < 32 := by omega
  have hr : (i 0).val % 256 < 256 := by omega
  by_cases h1 : (i 0).val / 8192 = 2 * (c.val / 2) + c.val % 2
  · have hi := blk_emb _ (k0_off3_inb c ⟨_, hk⟩) _ (k0_off3_eq c ⟨_, hk⟩) i ⟨_, hr⟩
      (by show 16384 * (c.val / 2) + 8192 * (c.val % 2) + 256 * (((i 0).val % 8192) / 256) + (i 0).val % 256 = (i 0).val; omega)
    have h2 := g_blk c g _ (k0_off3_inb c ⟨_, hk⟩) (ix2 ⟨_, hr⟩ (i 1))
    rw [hi] at h2
    rw [← h2]
    refine (gA m xw hx c g ⟨_, hk⟩ (hA _) ⟨_, hr⟩ (i 1)).trans ?_
    exact congrArg xw (ix2_congr (by dsimp only; omega) (by dsimp only))
  by_cases h2 : (i 0).val / 8192 = 2 * (c.val / 2) + (1 - c.val % 2)
  · have hi := blk_emb _ (k0_off5_inb c ⟨_, hk⟩) _ (k0_off5_eq c ⟨_, hk⟩) i ⟨_, hr⟩
      (by show (16384 * (c.val / 2) + 256 * (((i 0).val % 8192) / 256) + 8192) - 8192 * (c.val % 2) + (i 0).val % 256 = (i 0).val; omega)
    have h2' := g_blk c g _ (k0_off5_inb c ⟨_, hk⟩) (ix2 ⟨_, hr⟩ (i 1))
    rw [hi] at h2'
    rw [← h2']
    refine (gB m xw hx c g ⟨_, hk⟩ (hB _) ⟨_, hr⟩ (i 1)).trans ?_
    exact congrArg xw (ix2_congr (by dsimp only; omega) (by dsimp only))
  by_cases h3 : (i 0).val / 8192 = 2 * (1 - c.val / 2) + c.val % 2
  · have hi := blk_emb _ (k0_off9_inb c ⟨_, hk⟩) _ (k0_off9_eq c ⟨_, hk⟩) i ⟨_, hr⟩
      (by show (8192 * (c.val % 2) + 256 * (((i 0).val % 8192) / 256) + 16384) - 16384 * (c.val / 2) + (i 0).val % 256 = (i 0).val; omega)
    have h2' := g_blk c g _ (k0_off9_inb c ⟨_, hk⟩) (ix2 ⟨_, hr⟩ (i 1))
    rw [hi] at h2'
    rw [← h2']
    refine (gL m xw hx c g ⟨_, hk⟩ (hL _) ⟨_, hr⟩ (i 1)).trans ?_
    exact congrArg xw (ix2_congr (by dsimp only; omega) (by dsimp only; omega))
  · have hi := blk_emb _ (k0_off9_inb (py c) ⟨_, hk⟩) _ (k0_off9_eq (py c) ⟨_, hk⟩) i ⟨_, hr⟩
      (by show (8192 * ((py c).val % 2) + 256 * (((i 0).val % 8192) / 256) + 16384) - 16384 * ((py c).val / 2) + (i 0).val % 256 = (i 0).val; omega)
    have h2' := g_blk c g _ (k0_off9_inb (py c) ⟨_, hk⟩) (ix2 ⟨_, hr⟩ (i 1))
    rw [hi] at h2'
    rw [← h2']
    refine (gF m xw hx c g ⟨_, hk⟩ (hF _) ⟨_, hr⟩ (i 1)).trans ?_
    exact congrArg xw (ix2_congr (by dsimp only; omega) (by dsimp only; omega))

theorem out_value :
    g = Layout.blockN ⟨2, ![32768, 1024]⟩ ⟨2, ![32768, 2048]⟩ (Layout.meshBlock [2, 2] ![[], [0]] c) (truncf (F := Ideal) .bf16 xw bitsLt_bf16_f32) :=
  funext fun i => out_value_at m xw hx c g hA hB hL hF i

end Main

end Cert.KernelIdealA2A
end
-- ==== Proof.A2ARef.lean ====
/-
  The reference on one device is one conversion of its argument: its generated run gives the result as the argument
  converted element by element and the argument unchanged; the frame is that run with the result dropped.
-/
import proofs.«900012_g7700000000000013_dist_a2a_v7x_xy2x2_x_m16384_n1024_bf16_1_alg».proof.Defs
import proofs.«900012_g7700000000000013_dist_a2a_v7x_xy2x2_x_m16384_n1024_bf16_1_alg».proof.Proof.Gen.ReferenceIdeal
import proofs.«900012_g7700000000000013_dist_a2a_v7x_xy2x2_x_m16384_n1024_bf16_1_alg».proof.Proof.Gen.Pre_finite_inputs_ReferenceIdeal
import proofs.«900012_g7700000000000013_dist_a2a_v7x_xy2x2_x_m16384_n1024_bf16_1_alg».proof.Proof.Gen.ReferenceIdeal.Run
import proofs.«900012_g7700000000000013_dist_a2a_v7x_xy2x2_x_m16384_n1024_bf16_1_alg».proof.Proof.Gen.ReferenceIdeal.Read
import Idealize.ShloMosaic.Lib.StableHlo.Run

noncomputable section

namespace Cert.ReferenceIdealA2A

open Idealize.ShloMosaic Idealize.ShloMosaic.TcCoe Idealize.SL.Sem

attribute [local instance] Cert.ReferenceIdeal.Gen.facts Cert.Pre_finite_inputs_ReferenceIdeal.Gen.facts

theorem frame_ri : Cert.frame_ReferenceIdeal := fun m ρ _ =>
  (θ_run Cert.ReferenceIdeal.defs _ _).mono (fun _ h c => (h c).2) (Cert.ReferenceIdeal.Value.run (F := Ideal) m ρ)

end Cert.ReferenceIdealA2A
end
-- ==== Proof.A2AClaims.lean ====
/-
  The five conjuncts. Each program's frame is the argument half of its run. The idealized kernel and the reference
  compute one array: the reference converts its whole argument element by element, and each device's result, which
  on every one of its 128 row blocks holds what the block's copy wrote, is its column block of that conversion.
-/
import proofs.«900012_g7700000000000013_dist_a2a_v7x_xy2x2_x_m16384_n1024_bf16_1_alg».proof.Defs
import proofs.«900012_g7700000000000013_dist_a2a_v7x_xy2x2_x_m16384_n1024_bf16_1_alg».proof.Proof.Gen.Kernel
import proofs.«900012_g7700000000000013_dist_a2a_v7x_xy2x2_x_m16384_n1024_bf16_1_alg».proof.Proof.Gen.KernelIdeal
import proofs.«900012_g7700000000000013_dist_a2a_v7x_xy2x2_x_m16384_n1024_bf16_1_alg».proof.Proof.Gen.ReferenceIdeal
import proofs.«900012_g7700000000000013_dist_a2a_v7x_xy2x2_x_m16384_n1024_bf16_1_alg».proof.Proof.Gen.Pre_finite_inputs_Kernel
import proofs.«900012_g7700000000000013_dist_a2a_v7x_xy2x2_x_m16384_n1024_bf16_1_alg».proof.Proof.Gen.Pre_finite_inputs_ReferenceIdeal
import proofs.«900012_g7700000000000013_dist_a2a_v7x_xy2x2_x_m16384_n1024_bf16_1_alg».proof.Proof.A2AFrame
import proofs.«900012_g7700000000000013_dist_a2a_v7x_xy2x2_x_m16384_n1024_bf16_1_alg».proof.Proof.B2AFrame
import proofs.«900012_g7700000000000013_dist_a2a_v7x_xy2x2_x_m16384_n1024_bf16_1_alg».proof.Proof.A2AValue
import proofs.«900012_g7700000000000013_dist_a2a_v7x_xy2x2_x_m16384_n1024_bf16_1_alg».proof.Proof.A2ARef
import proofs.«900012_g7700000000000013_dist_a2a_v7x_xy2x2_x_m16384_n1024_bf16_1_alg».proof.Proof.Gen.ReferenceIdeal.Run

noncomputable section

namespace Cert.A2A

open Idealize.ShloMosaic Idealize.ShloMosaic.TcCoe Idealize.SL.Sem

attribute [local instance] Cert.Kernel.Gen.facts Cert.KernelIdeal.Gen.facts Cert.ReferenceIdeal.Gen.facts
  Cert.Pre_finite_inputs_Kernel.Gen.facts Cert.Pre_finite_inputs_ReferenceIdeal.Gen.facts

/-- The word-level kernel's frame. -/
theorem frame_k : Cert.frame_Kernel := fun m ρ _ =>
  Cert.KernelA2A.frame_run (F := Bits) m ρ

/-- The idealized kernel's frame. -/
theorem frame_ki : Cert.frame_KernelIdeal := fun m ρ _ =>
  Cert.KernelIdealA2A.frame_run (F := Ideal) m ρ

/-- The two programs compute one array, and both leave their arguments as they were. -/
theorem algebraic : Cert.algebraic_KernelIdeal_ReferenceIdeal := by
  intro m ρ m' ρ' _ hx
  refine ⟨truncf (F := Ideal) .bf16
    (m' (((0 : Dev Cert.ReferenceIdeal.nD).tc : Thread Cert.ReferenceIdeal.nD Cert.ReferenceIdeal.τ).loc Cert.ReferenceIdeal.main_arg0))
    Cert.KernelIdeal.Facts₀.bitsLt_bf16_f32, ?_, ?_⟩
  · refine (θ_run (Cert.KernelIdeal.defs (F := Ideal)) _ _).mono (fun r h c => ?_)
      (Cert.KernelIdealA2A.run_main (F := Ideal) m ρ)
    obtain ⟨h0, hA, hB, hL, hF⟩ := h c
    exact ⟨Cert.KernelIdealA2A.out_value m _ hx c _ hA hB hL hF, h0⟩
  · exact (θ_run (Cert.ReferenceIdeal.defs (F := Ideal)) _ _).mono (fun r h => h 0)
      (Cert.ReferenceIdeal.Value.run (F := Ideal) m' ρ')

end Cert.A2A
end
-- ==== Proof.lean ====
/- `Cert.Claim` for the all-to-all on the 2 x 2 mesh against the identity reference: each program's frame is the
   argument half of its run, and each device's result is its column block of the reference's conversion of the whole array. -/
import proofs.«900012_g7700000000000013_dist_a2a_v7x_xy2x2_x_m16384_n1024_bf16_1_alg».proof.Defs
import proofs.«900012_g7700000000000013_dist_a2a_v7x_xy2x2_x_m16384_n1024_bf16_1_alg».proof.Proof.Gen.Kernel
import proofs.«900012_g7700000000000013_dist_a2a_v7x_xy2x2_x_m16384_n1024_bf16_1_alg».proof.Proof.Gen.KernelIdeal
import proofs.«900012_g7700000000000013_dist_a2a_v7x_xy2x2_x_m16384_n1024_bf16_1_alg».proof.Proof.Gen.ReferenceIdeal
import proofs.«900012_g7700000000000013_dist_a2a_v7x_xy2x2_x_m16384_n1024_bf16_1_alg».proof.Proof.Gen.Pre_finite_inputs_Kernel
import proofs.«900012_g7700000000000013_dist_a2a_v7x_xy2x2_x_m16384_n1024_bf16_1_alg».proof.Proof.Gen.Pre_finite_inputs_ReferenceIdeal
import proofs.«900012_g7700000000000013_dist_a2a_v7x_xy2x2_x_m16384_n1024_bf16_1_alg».proof.Proof.A2AClaims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.A2A.frame_k, Cert.A2A.frame_ki, Cert.ReferenceIdealA2A.frame_ri, trivial, Cert.A2A.algebraic⟩

end Cert.Proof

end
